-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v119)) (v1 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_v144) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v320) = v0 c
          ∧ r.2.mem ((c.tc : Thread Cert.ReferenceIdeal.nD Cert.ReferenceIdeal.τ).loc Cert.ReferenceIdeal.main_v345) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x128 : Shape := ⟨2, ![64, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part6 {F : FTy → Type} [FloatOps F] (main_arg21 : FVec F S64 .f32) (main_arg22 : IVec S100000 32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_c_42 : IVec S_ 32 := constantI S_ 32 0#32
  let main_v109 : IVec S100000 32 := broadcastInDim S100000 ![] bcast_S_S100000 main_c_42
  let main_v110 : IVec S100000 1 := cmpi .sge main_arg22 main_v109
  let main_c_43 : IVec S_ 1 := constantI S_ 1 1#1
  let main_v111 : IVec S_ 1 := (fun x v => Host.reduce IntOp.andi x v reducesTo_S100000_S_d0 h_S_) main_v110 main_c_43
  let main_v112 : IVec S_ 1 := andi main_v108 main_v111
  let main_c_44 : IVec S_ 32 := constantI S_ 32 64#32
  let main_v113 : IVec S100000 32 := broadcastInDim S100000 ![] bcast_S_S100000 main_c_44
  let main_v114 : IVec S100000 1 := cmpi .slt main_arg22 main_v113
  let main_c_45 : IVec S_ 1 := constantI S_ 1 1#1
  let main_v115 : IVec S_ 1 := (fun x v => Host.reduce IntOp.andi x v reducesTo_S100000_S_d0 h_S_) main_v114 main_c_45
  let main_v116 : IVec S_ 1 := andi main_v112 main_v115
  main_v116

def fn_part5 {F : FTy → Type} [FloatOps F] (main_arg18 : FVec F S128 .f32) (main_arg19 : FVec F S128 .f32) (main_arg20 : FVec F S64 .f32) (main_arg21 : FVec F S64 .f32) (main_arg22 : IVec S100000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S64 .f32) (main_arg21 : FVec F S64 .f32) (main_arg22 : IVec S100000 32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S128 .f32) (main_arg12 : FVec F S128x64 .f32) (main_arg13 : FVec F S64 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S64 .f32) (main_arg21 : FVec F S64 .f32) (main_arg22 : IVec S100000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128 .f32) (main_arg12 : FVec F S128x64 .f32) (main_arg13 : FVec F S64 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S64 .f32) (main_arg21 : FVec F S64 .f32) (main_arg22 : IVec S100000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x64 .f32) (main_arg13 : FVec F S64 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S64 .f32) (main_arg21 : FVec F S64 .f32) (main_arg22 : IVec S100000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : FVec F S64x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x64 .f32) (main_arg13 : FVec F S64 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S64 .f32) (main_arg21 : FVec F S64 .f32) (main_arg22 : IVec S100000 32) (main_arg23 : IVec S1600000 32) (main_arg24 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S64x128 : Shape := ⟨2, ![64, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1600000 : Shape := ⟨1, ![1600000]⟩
abbrev S100000x1 : Shape := ⟨2, ![100000, 1]⟩
abbrev S_ : Shape := ⟨0, ![]⟩
abbrev S64x1 : Shape := ⟨2, ![64, 1]⟩
abbrev S1600000x1 : Shape := ⟨2, ![1600000, 1]⟩
abbrev S10000x1 : Shape := ⟨2, ![10000, 1]⟩
abbrev S10000x128 : Shape := ⟨2, ![10000, 128]⟩
abbrev S10000x64 : Shape := ⟨2, ![10000, 64]⟩
abbrev S1x128 : Shape := ⟨2, ![1, 128]⟩
abbrev S1600000x128 : Shape := ⟨2, ![1600000, 128]⟩
abbrev S64x64 : Shape := ⟨2, ![64, 64]⟩
abbrev S1x64 : Shape := ⟨2, ![1, 64]⟩

abbrev nBuf : Space → Nat
  | .hbm => 214
  | .vmem => 62
  | .smem => 0
  | _ => 0

abbrev hbmTy0_0 (i : Nat) : BufTy := match i % 128 with
  | 0 => ⟨S100000x128, .f32⟩
  | 1 => ⟨S64x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x64, .f32⟩
  | 13 => ⟨S64, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S64, .f32⟩
  | 21 => ⟨S64, .f32⟩
  | 22 => ⟨S100000, .i32⟩
  | 23 => ⟨S1600000, .i32⟩
  | 24 => ⟨S1600000, .i32⟩
  | 25 => ⟨S100000x1, .i32⟩
  | 26 => ⟨S_, .f32⟩
  | 27 => ⟨S100000, .f32⟩
  | 28 => ⟨S_, .f32⟩
  | 29 => ⟨S64, .f32⟩
  | 30 => ⟨S100000x1, .i32⟩
  | 31 => ⟨S64, .f32⟩
  | 32 => ⟨S_, .f32⟩
  | 33 => ⟨S64, .f32⟩
  | 34 => ⟨S64, .i1⟩
  | 35 => ⟨S_, .f32⟩
  | 36 => ⟨S64, .f32⟩
  | 37 => ⟨S64, .f32⟩
  | 38 => ⟨S64, .f32⟩
  | 39 => ⟨S_, .f32⟩
  | 40 => ⟨S_, .f32⟩
  | 41 => ⟨S64, .f32⟩
  | 42 => ⟨S64, .f32⟩
  | 43 => ⟨S64x1, .f32⟩
  | 44 => ⟨S_, .f32⟩
  | 45 => ⟨S1600000, .f32⟩
  | 46 => ⟨S_, .f32⟩
  | 47 => ⟨S100000, .f32⟩
  | 48 => ⟨S1600000x1, .i32⟩
  | 49 => ⟨S100000, .f32⟩
  | 50 => ⟨S_, .f32⟩
  | 51 => ⟨S100000, .f32⟩
  | 52 => ⟨S1600000x1, .i32⟩
  | 53 => ⟨S100000, .f32⟩
  | 54 => ⟨S_, .f32⟩
  | 55 => ⟨S100000, .f32⟩
  | 56 => ⟨S100000, .i1⟩
  | 57 => ⟨S_, .f32⟩
  | 58 => ⟨S100000, .f32⟩
  | 59 => ⟨S100000, .f32⟩
  | 60 => ⟨S100000, .f32⟩
  | 61 => ⟨S_, .f32⟩
  | 62 => ⟨S_, .f32⟩
  | 63 => ⟨S100000, .f32⟩
  | 64 => ⟨S100000, .f32⟩
  | 65 => ⟨S_, .f32⟩
  | 66 => ⟨S100000, .f32⟩
  | 67 => ⟨S100000, .i1⟩
  | 68 => ⟨S_, .f32⟩
  | 69 => ⟨S100000, .f32⟩
  | 70 => ⟨S100000, .f32⟩
  | 71 => ⟨S100000, .f32⟩
  | 72 => ⟨S_, .f32⟩
  | 73 => ⟨S_, .f32⟩
  | 74 => ⟨S100000, .f32⟩
  | 75 => ⟨S100000, .f32⟩
  | 76 => ⟨S64x128, .f32⟩
  | 77 => ⟨S100000x1, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000x1, .f32⟩
  | 94 => ⟨S100000x128, .f32⟩
  | 95 => ⟨S100000x128, .f32⟩
  | 96 => ⟨S64x128, .f32⟩
  | 97 => ⟨S64x128, .f32⟩
  | 98 => ⟨S64x128, .f32⟩
  | 99 => ⟨S100000x128, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S100000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S64x128, .f32⟩
  | 122 => ⟨S64x128, .f32⟩
  | 123 => ⟨S64x128, .f32⟩
  | 124 => ⟨S_, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S64x128, .f32⟩
  | 3 => ⟨S64x128, .f32⟩
  | 4 => ⟨S_, .f32⟩
  | 5 => ⟨S128, .f32⟩
  | 6 => ⟨S128, .f32⟩
  | 7 => ⟨S128, .f32⟩
  | 8 => ⟨S1x128, .f32⟩
  | 9 => ⟨S64x128, .f32⟩
  | 10 => ⟨S64x128, .f32⟩
  | 11 => ⟨S1x128, .f32⟩
  | 12 => ⟨S64x128, .f32⟩
  | 13 => ⟨S64x128, .f32⟩
  | 14 => ⟨S1x128, .f32⟩
  | 15 => ⟨S64x128, .f32⟩
  | 16 => ⟨S64x128, .f32⟩
  | 17 => ⟨S64x64, .f32⟩
  | 18 => ⟨S100000x1, .f32⟩
  | 19 => ⟨S100000x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x1, .f32⟩
  | 35 => ⟨S100000x128, .f32⟩
  | 36 => ⟨S100000x128, .f32⟩
  | 37 => ⟨S64x128, .f32⟩
  | 38 => ⟨S64x128, .f32⟩
  | 39 => ⟨S64x128, .f32⟩
  | 40 => ⟨S100000x128, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S100000x128, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S64x64, .f32⟩
  | 63 => ⟨S64x64, .f32⟩
  | 64 => ⟨S64x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S64x64, .f32⟩
  | 72 => ⟨S64x64, .f32⟩
  | 73 => ⟨S_, .f32⟩
  | 74 => ⟨S64, .f32⟩
  | 75 => ⟨S64, .f32⟩
  | 76 => ⟨S64, .f32⟩
  | 77 => ⟨S1x64, .f32⟩
  | 78 => ⟨S64x64, .f32⟩
  | 79 => ⟨S64x64, .f32⟩
  | 80 => ⟨S1x64, .f32⟩
  | 81 => ⟨S64x64, .f32⟩
  | 82 => ⟨S64x64, .f32⟩
  | 83 => ⟨S1x64, .f32⟩
  | 84 => ⟨S64x64, .f32⟩
  | 85 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x1, .i32⟩
  | .local _ .vmem, ⟨1, _⟩ => ⟨S10000x1, .i32⟩
  | .local _ .vmem, ⟨2, _⟩ => ⟨S10000x128, .f32⟩
  | .local _ .vmem, ⟨3, _⟩ => ⟨S10000x128, .f32⟩
  | .local _ .vmem, ⟨4, _⟩ => ⟨S64x1, .f32⟩
  | .local _ .vmem, ⟨5, _⟩ => ⟨S128x128, .f32⟩
  | .local _ .vmem, ⟨6, _⟩ => ⟨S128, .f32⟩
  | .local _ .vmem, ⟨7, _⟩ => ⟨S64x128, .f32⟩
  | .local _ .vmem, ⟨8, _⟩ => ⟨S64x128, .f32⟩
  | .local _ .vmem, ⟨9, _⟩ => ⟨S10000x1, .i32⟩
  | .local _ .vmem, ⟨10, _⟩ => ⟨S10000x1, .i32⟩
  | .local _ .vmem, ⟨11, _⟩ => ⟨S10000x128, .f32⟩
  | .local _ .vmem, ⟨12, _⟩ => ⟨S10000x128, .f32⟩
  | .local _ .vmem, ⟨13, _⟩ => ⟨S64x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S1x128, .f32⟩
  | .local _ .vmem, ⟨22, _⟩ => ⟨S1x128, .f32⟩
  | .local _ .vmem, ⟨23, _⟩ => ⟨S10000x128, .f32⟩
  | .local _ .vmem, ⟨24, _⟩ => ⟨S10000x128, .f32⟩
  | .local _ .vmem, ⟨25, _⟩ => ⟨S1x128, .f32⟩
  | .local _ .vmem, ⟨26, _⟩ => ⟨S1x128, .f32⟩
  | .local _ .vmem, ⟨27, _⟩ => ⟨S128, .f32⟩
  | .local _ .vmem, ⟨28, _⟩ => ⟨S128, .f32⟩
  | .local _ .vmem, ⟨29, _⟩ => ⟨S10000x128, .f32⟩
  | .local _ .vmem, ⟨30, _⟩ => ⟨S10000x128, .f32⟩
  | .local _ .vmem, ⟨31, _⟩ => ⟨S10000x1, .i32⟩
  | .local _ .vmem, ⟨32, _⟩ => ⟨S10000x1, .i32⟩
  | .local _ .vmem, ⟨33, _⟩ => ⟨S10000x128, .f32⟩
  | .local _ .vmem, ⟨34, _⟩ => ⟨S10000x128, .f32⟩
  | .local _ .vmem, ⟨35, _⟩ => ⟨S64x1, .f32⟩
  | .local _ .vmem, ⟨36, _⟩ => ⟨S128x64, .f32⟩
  | .local _ .vmem, ⟨37, _⟩ => ⟨S64, .f32⟩
  | .local _ .vmem, ⟨38, _⟩ => ⟨S64x64, .f32⟩
  | .local _ .vmem, ⟨39, _⟩ => ⟨S64x128, .f32⟩
  | .local _ .vmem, ⟨40, _⟩ => ⟨S10000x1, .i32⟩
  | .local _ .vmem, ⟨41, _⟩ => ⟨S10000x1, .i32⟩
  | .local _ .vmem, ⟨42, _⟩ => ⟨S10000x128, .f32⟩
  | .local _ .vmem, ⟨43, _⟩ => ⟨S10000x128, .f32⟩
  | .local _ .vmem, ⟨44, _⟩ => ⟨S64x128, .f32⟩
  | .local _ .vmem, ⟨45, _⟩ => ⟨S128, .f32⟩
  | .local _ .vmem, ⟨46, _⟩ => ⟨S128x128, .f32⟩
  | .local _ .vmem, ⟨47, _⟩ => ⟨S128, .f32⟩
  | .local _ .vmem, ⟨48, _⟩ => ⟨S10000x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S1x128, .f32⟩
  | .local _ .vmem, ⟨53, _⟩ => ⟨S1x128, .f32⟩
  | .local _ .vmem, ⟨54, _⟩ => ⟨S10000x128, .f32⟩
  | .local _ .vmem, ⟨55, _⟩ => ⟨S10000x128, .f32⟩
  | .local _ .vmem, ⟨56, _⟩ => ⟨S1x128, .f32⟩
  | .local _ .vmem, ⟨57, _⟩ => ⟨S1x128, .f32⟩
  | .local _ .vmem, ⟨58, _⟩ => ⟨S128, .f32⟩
  | .local _ .vmem, ⟨59, _⟩ => ⟨S128, .f32⟩
  | .local _ .vmem, ⟨60, _⟩ => ⟨S10000x128, .f32⟩
  | .local _ .vmem, ⟨61, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_cst_2 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v10 : Ref sig .tc := ⟨.hbm, 42, rfl⟩
abbrev main_v11 : Ref sig .tc := ⟨.hbm, 43, rfl⟩
abbrev main_cst_4 : Ref sig .tc := ⟨.hbm, 44, rfl⟩
abbrev main_v12 : Ref sig .tc := ⟨.hbm, 45, rfl⟩
abbrev main_cst_5 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_6 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_7 : Ref sig .tc := ⟨.hbm, 54, rfl⟩
abbrev main_v19 : Ref sig .tc := ⟨.hbm, 55, rfl⟩
abbrev main_v20 : Ref sig .tc := ⟨.hbm, 56, rfl⟩
abbrev main_cst_8 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_v24 : Ref sig .tc := ⟨.hbm, 64, rfl⟩
abbrev main_cst_10 : Ref sig .tc := ⟨.hbm, 65, rfl⟩
abbrev main_v25 : Ref sig .tc := ⟨.hbm, 66, rfl⟩
abbrev main_v26 : Ref sig .tc := ⟨.hbm, 67, rfl⟩
abbrev main_cst_11 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_12 : Ref sig .tc := ⟨.hbm, 72, rfl⟩
abbrev main_call2_v0 : Ref sig .tc := ⟨.hbm, 73, rfl⟩
abbrev main_call2_v1 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_c : Ref sig .tc := ⟨.hbm, 80, rfl⟩
abbrev main_v35 : Ref sig .tc := ⟨.hbm, 81, rfl⟩
abbrev main_v36 : Ref sig .tc := ⟨.hbm, 82, rfl⟩
abbrev main_c_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_14 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52_0 : Ref sig .tc := ⟨.hbm, 100, rfl⟩
abbrev main_v52_1 : Ref sig .tc := ⟨.hbm, 101, rfl⟩
abbrev main_cst_15 : Ref sig .tc := ⟨.hbm, 102, rfl⟩
abbrev main_v53 : Ref sig .tc := ⟨.hbm, 103, rfl⟩
abbrev main_v54 : Ref sig .tc := ⟨.hbm, 104, rfl⟩
abbrev main_cst_16 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_17 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_18 : Ref sig .tc := ⟨.hbm, 115, rfl⟩
abbrev main_v63 : Ref sig .tc := ⟨.hbm, 116, rfl⟩
abbrev main_cst_19 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_20 : Ref sig .tc := ⟨.hbm, 124, rfl⟩
abbrev main_v70 : Ref sig .tc := ⟨.hbm, 125, rfl⟩
abbrev main_cst_21 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_22 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_c_23 : Ref sig .tc := ⟨.hbm, 149, rfl⟩
abbrev main_v92 : Ref sig .tc := ⟨.hbm, 150, rfl⟩
abbrev main_v93 : Ref sig .tc := ⟨.hbm, 151, rfl⟩
abbrev main_c_24 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_25 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109_0 : Ref sig .tc := ⟨.hbm, 169, rfl⟩
abbrev main_v109_1 : Ref sig .tc := ⟨.hbm, 170, rfl⟩
abbrev main_cst_26 : Ref sig .tc := ⟨.hbm, 171, rfl⟩
abbrev main_v110 : Ref sig .tc := ⟨.hbm, 172, rfl⟩
abbrev main_v111 : Ref sig .tc := ⟨.hbm, 173, rfl⟩
abbrev main_cst_27 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_28 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_29 : Ref sig .tc := ⟨.hbm, 184, rfl⟩
abbrev main_v120 : Ref sig .tc := ⟨.hbm, 185, rfl⟩
abbrev main_cst_30 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_cst_31 : Ref sig .tc := ⟨.hbm, 193, rfl⟩
abbrev main_v127 : Ref sig .tc := ⟨.hbm, 194, rfl⟩
abbrev main_cst_32 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_33 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc5_stg6_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg5_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem5_1 : DmaSem sig := 59

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  shapeCasts_S100000_S100000x1 : S100000.ShapeCasts S100000x1
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S64x1_S64x128_0_1 : S64x1.BroadcastsInDim S64x128 (![0, 1] : Fin 2 → Fin S64x128.rank)
  broadcasts_S1x128_S10000x128 : S1x128.Broadcasts S10000x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S10000x128_S128 : S10000x128.Reduces [0] S128
  bcast_S_S1x128 : S_.BroadcastsInDim S1x128 (![] : Fin 0 → Fin S1x128.rank)
  reducesTo_S64x128_S128_d0 : S64x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  reducesTo_S64x64_S64_d0 : S64x64.ReducesTo [0] S64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S64_S100000x1_S100000_n_0_0_1_wf : ScatterDims.WF S64 S100000x1 S100000 [] [0] [0] 1
  scatter_S100000_S1600000x1_S1600000_n_0_0_1_wf : ScatterDims.WF S100000 S1600000x1 S1600000 [] [0] [0] 1
  dot_S10000x64_S10000x128_S64x128_0_0_1_1_n_n_wf : DotDims.WF S10000x64 S10000x128 S64x128 [0] [0] [1] [1] [] []
  dot_S64x128_S128x128_S64x128_1_0_0_1_n_n_wf : DotDims.WF S64x128 S128x128 S64x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .i32 = 32 ∨ (Rect.block (s := S100000x1) S10000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S100000x1.size a
  hwx1_0 : ∀ i : grid1.Coords, EltTy.bits .i32 = 32 ∨ (Rect.block (s := S100000x1) S10000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S100000x1.size a
  hwx4_0 : ∀ i : grid4.Coords, EltTy.bits .i32 = 32 ∨ (Rect.block (s := S100000x1) S10000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .i32 = 32 ∨ (Rect.block (s := S100000x1) S10000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S100000x128.size a
  hwx5_1 : ∀ i : grid5.Coords, EltTy.bits .f32 = 32 ∨ (Rect.block (s := S100000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S100000x128.size a
  hwx7_5 : ∀ i : grid7.Coords, EltTy.bits .f32 = 32 ∨ (Rect.block (s := S100000x128) S10000x128.size (cc7_transform_5 i) (hinb7_5 i)).WholeWords (EltTy.packing .f32)

variable [Facts₀]

def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_v0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S64x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v0) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg13) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S64x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v0) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v107) S64x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg15) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg16) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg17) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v108) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v108) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v109_0) S1x128.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109_1) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v108) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v111) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v118) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg18) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg19) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v119) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S64x128 : Shape := ⟨2, ![64, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1600000 : Shape := ⟨1, ![1600000]⟩
abbrev S_ : Shape := ⟨0, ![]⟩
abbrev S100000x1 : Shape := ⟨2, ![100000, 1]⟩
abbrev S64x1 : Shape := ⟨2, ![64, 1]⟩
abbrev S1x128 : Shape := ⟨2, ![1, 128]⟩
abbrev S1600000x1 : Shape := ⟨2, ![1600000, 1]⟩
abbrev S1600000x128 : Shape := ⟨2, ![1600000, 128]⟩
abbrev S64x64 : Shape := ⟨2, ![64, 64]⟩
abbrev S1x64 : Shape := ⟨2, ![1, 64]⟩

abbrev nBuf : Space → Nat
  | .hbm => 497
  | .vmem => 0
  | .smem => 0
  | _ => 0

abbrev hbmTy0_0 (i : Nat) : BufTy := match i % 128 with
  | 0 => ⟨S100000x128, .f32⟩
  | 1 => ⟨S64x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x64, .f32⟩
  | 13 => ⟨S64, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S64, .f32⟩
  | 21 => ⟨S64, .f32⟩
  | 22 => ⟨S100000, .i32⟩
  | 23 => ⟨S1600000, .i32⟩
  | 24 => ⟨S1600000, .i32⟩
  | 25 => ⟨S100000, .i32⟩
  | 26 => ⟨S_, .f32⟩
  | 27 => ⟨S100000, .f32⟩
  | 28 => ⟨S_, .f32⟩
  | 29 => ⟨S100000, .f32⟩
  | 30 => ⟨S100000x1, .i32⟩
  | 31 => ⟨S100000, .f32⟩
  | 32 => ⟨S_, .f32⟩
  | 33 => ⟨S64, .f32⟩
  | 34 => ⟨S100000x1, .i32⟩
  | 35 => ⟨S64, .f32⟩
  | 36 => ⟨S_, .f32⟩
  | 37 => ⟨S100000, .f32⟩
  | 38 => ⟨S100000, .i1⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x128, .f32⟩
  | 59 => ⟨S_, .f32⟩
  | 60 => ⟨S64x128, .f32⟩
  | 61 => ⟨S100000x1, .i32⟩
  | 62 => ⟨S64x128, .f32⟩
  | 63 => ⟨S_, .f32⟩
  | 64 => ⟨S64, .f32⟩
  | 65 => ⟨S64, .i1⟩
  | 66 => ⟨S_, .f32⟩
  | 67 => ⟨S64, .f32⟩
  | 68 => ⟨S64, .f32⟩
  | 69 => ⟨S64, .f32⟩
  | 70 => ⟨S_, .f32⟩
  | 71 => ⟨S_, .f32⟩
  | 72 => ⟨S64, .f32⟩
  | 73 => ⟨S64, .f32⟩
  | 74 => ⟨S64x1, .f32⟩
  | 75 => ⟨S64x128, .f32⟩
  | 76 => ⟨S64x128, .f32⟩
  | 77 => ⟨S64x128, .f32⟩
  | 78 => ⟨S1x128, .f32⟩
  | 79 => ⟨S64x128, .f32⟩
  | 80 => ⟨S64x128, .f32⟩
  | 81 => ⟨S_, .f32⟩
  | 82 => ⟨S100000, .f32⟩
  | 83 => ⟨S_, .f32⟩
  | 84 => ⟨S64, .f32⟩
  | 85 => ⟨S100000x1, .i32⟩
  | 86 => ⟨S64, .f32⟩
  | 87 => ⟨S_, .f32⟩
  | 88 => ⟨S100000, .f32⟩
  | 89 => ⟨S100000x1, .i32⟩
  | 90 => ⟨S100000, .f32⟩
  | 91 => ⟨S_, .f32⟩
  | 92 => ⟨S64, .f32⟩
  | 93 => ⟨S64, .i1⟩
  | 94 => ⟨S_, .f32⟩
  | 95 => ⟨S64, .f32⟩
  | 96 => ⟨S64, .f32⟩
  | 97 => ⟨S64, .f32⟩
  | 98 => ⟨S_, .f32⟩
  | 99 => ⟨S_, .f32⟩
  | 100 => ⟨S64, .f32⟩
  | 101 => ⟨S64, .f32⟩
  | 102 => ⟨S64x1, .f32⟩
  | 103 => ⟨S64x128, .f32⟩
  | 104 => ⟨S64x128, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000x128, .f32⟩
  | 114 => ⟨S_, .f32⟩
  | 115 => ⟨S100000x128, .f32⟩
  | 116 => ⟨S100000x1, .i32⟩
  | 117 => ⟨S100000x128, .f32⟩
  | 118 => ⟨S_, .f32⟩
  | 119 => ⟨S100000, .f32⟩
  | 120 => ⟨S100000, .i1⟩
  | 121 => ⟨S_, .f32⟩
  | 122 => ⟨S100000, .f32⟩
  | 123 => ⟨S100000, .f32⟩
  | 124 => ⟨S100000, .f32⟩
  | 125 => ⟨S_, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S_, .f32⟩
  | 46 => ⟨S100000, .f32⟩
  | 47 => ⟨S100000, .i1⟩
  | 48 => ⟨S_, .f32⟩
  | 49 => ⟨S100000, .f32⟩
  | 50 => ⟨S100000, .f32⟩
  | 51 => ⟨S100000, .f32⟩
  | 52 => ⟨S_, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S_, .f32⟩
  | 71 => ⟨S64x128, .f32⟩
  | 72 => ⟨S64x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S64x128, .f32⟩
  | 110 => ⟨S64x128, .f32⟩
  | 111 => ⟨S64x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S64x128, .f32⟩
  | 119 => ⟨S64x128, .f32⟩
  | 120 => ⟨S_, .f32⟩
  | 121 => ⟨S128, .f32⟩
  | 122 => ⟨S128, .f32⟩
  | 123 => ⟨S128, .f32⟩
  | 124 => ⟨S1x128, .f32⟩
  | 125 => ⟨S64x128, .f32⟩
  | 126 => ⟨S64x128, .f32⟩
  | 127 => ⟨S1x128, .f32⟩
  | _ => ⟨S100000x128, .f32⟩

abbrev hbmTy0_2 (i : Nat) : BufTy := match i % 128 with
  | 0 => ⟨S64x128, .f32⟩
  | 1 => ⟨S64x128, .f32⟩
  | 2 => ⟨S1x128, .f32⟩
  | 3 => ⟨S64x128, .f32⟩
  | 4 => ⟨S64x128, .f32⟩
  | 5 => ⟨S100000, .i32⟩
  | 6 => ⟨S_, .f32⟩
  | 7 => ⟨S100000, .f32⟩
  | 8 => ⟨S_, .f32⟩
  | 9 => ⟨S100000, .f32⟩
  | 10 => ⟨S100000x1, .i32⟩
  | 11 => ⟨S100000, .f32⟩
  | 12 => ⟨S_, .f32⟩
  | 13 => ⟨S64, .f32⟩
  | 14 => ⟨S100000x1, .i32⟩
  | 15 => ⟨S64, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S100000x1, .f32⟩
  | 28 => ⟨S100000x128, .f32⟩
  | 29 => ⟨S100000x128, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x128, .f32⟩
  | 39 => ⟨S_, .f32⟩
  | 40 => ⟨S64x128, .f32⟩
  | 41 => ⟨S100000x1, .i32⟩
  | 42 => ⟨S64x128, .f32⟩
  | 43 => ⟨S_, .f32⟩
  | 44 => ⟨S64, .f32⟩
  | 45 => ⟨S64, .i1⟩
  | 46 => ⟨S_, .f32⟩
  | 47 => ⟨S64, .f32⟩
  | 48 => ⟨S64, .f32⟩
  | 49 => ⟨S64, .f32⟩
  | 50 => ⟨S_, .f32⟩
  | 51 => ⟨S_, .f32⟩
  | 52 => ⟨S64, .f32⟩
  | 53 => ⟨S64, .f32⟩
  | 54 => ⟨S64x1, .f32⟩
  | 55 => ⟨S64x128, .f32⟩
  | 56 => ⟨S64x128, .f32⟩
  | 57 => ⟨S64x64, .f32⟩
  | 58 => ⟨S1x64, .f32⟩
  | 59 => ⟨S64x64, .f32⟩
  | 60 => ⟨S64x64, .f32⟩
  | 61 => ⟨S_, .f32⟩
  | 62 => ⟨S100000, .f32⟩
  | 63 => ⟨S_, .f32⟩
  | 64 => ⟨S64, .f32⟩
  | 65 => ⟨S100000x1, .i32⟩
  | 66 => ⟨S64, .f32⟩
  | 67 => ⟨S_, .f32⟩
  | 68 => ⟨S100000, .f32⟩
  | 69 => ⟨S100000x1, .i32⟩
  | 70 => ⟨S100000, .f32⟩
  | 71 => ⟨S_, .f32⟩
  | 72 => ⟨S64, .f32⟩
  | 73 => ⟨S64, .i1⟩
  | 74 => ⟨S_, .f32⟩
  | 75 => ⟨S64, .f32⟩
  | 76 => ⟨S64, .f32⟩
  | 77 => ⟨S64, .f32⟩
  | 78 => ⟨S_, .f32⟩
  | 79 => ⟨S_, .f32⟩
  | 80 => ⟨S64, .f32⟩
  | 81 => ⟨S64, .f32⟩
  | 82 => ⟨S64x1, .f32⟩
  | 83 => ⟨S64x128, .f32⟩
  | 84 => ⟨S64x128, .f32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S100000x128, .f32⟩
  | 94 => ⟨S_, .f32⟩
  | 95 => ⟨S100000x128, .f32⟩
  | 96 => ⟨S100000x1, .i32⟩
  | 97 => ⟨S100000x128, .f32⟩
  | 98 => ⟨S_, .f32⟩
  | 99 => ⟨S100000, .f32⟩
  | 100 => ⟨S100000, .i1⟩
  | 101 => ⟨S_, .f32⟩
  | 102 => ⟨S100000, .f32⟩
  | 103 => ⟨S100000, .f32⟩
  | 104 => ⟨S100000, .f32⟩
  | 105 => ⟨S_, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S1600000, .f32⟩
  | 118 => ⟨S_, .f32⟩
  | 119 => ⟨S100000, .f32⟩
  | 120 => ⟨S1600000x1, .i32⟩
  | 121 => ⟨S100000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S100000, .f32⟩
  | _ => ⟨S100000x128, .f32⟩

abbrev hbmTy0_3 (i : Nat) : BufTy := match i % 128 with
  | 0 => ⟨S100000, .i1⟩
  | 1 => ⟨S_, .f32⟩
  | 2 => ⟨S100000, .f32⟩
  | 3 => ⟨S100000, .f32⟩
  | 4 => ⟨S100000, .f32⟩
  | 5 => ⟨S_, .f32⟩
  | 6 => ⟨S_, .f32⟩
  | 7 => ⟨S100000, .f32⟩
  | 8 => ⟨S100000, .f32⟩
  | 9 => ⟨S100000x1, .f32⟩
  | 10 => ⟨S100000x128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S_, .f32⟩
  | 51 => ⟨S64x64, .f32⟩
  | 52 => ⟨S64x64, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S64, .f32⟩
  | 85 => ⟨S_, .f32⟩
  | 86 => ⟨S64, .f32⟩
  | 87 => ⟨S64, .f32⟩
  | 88 => ⟨S1x64, .f32⟩
  | 89 => ⟨S64x64, .f32⟩
  | 90 => ⟨S64x64, .f32⟩
  | 91 => ⟨S64x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S64x64, .f32⟩
  | 99 => ⟨S64x64, .f32⟩
  | 100 => ⟨S_, .f32⟩
  | 101 => ⟨S64, .f32⟩
  | 102 => ⟨S64, .f32⟩
  | 103 => ⟨S64, .f32⟩
  | 104 => ⟨S1x64, .f32⟩
  | 105 => ⟨S64x64, .f32⟩
  | 106 => ⟨S64x64, .f32⟩
  | 107 => ⟨S1x64, .f32⟩
  | 108 => ⟨S64x64, .f32⟩
  | 109 => ⟨S64x64, .f32⟩
  | 110 => ⟨S1x64, .f32⟩
  | 111 => ⟨S64x64, .f32⟩
  | 112 => ⟨S64x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_cst_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c : Ref sig .tc := ⟨.hbm, 50, rfl⟩
abbrev main_v17 : Ref sig .tc := ⟨.hbm, 51, rfl⟩
abbrev main_v18 : Ref sig .tc := ⟨.hbm, 52, rfl⟩
abbrev main_c_5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_cst_8 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_10 : Ref sig .tc := ⟨.hbm, 81, rfl⟩
abbrev main_v40 : Ref sig .tc := ⟨.hbm, 82, rfl⟩
abbrev main_cst_11 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_12 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_13 : Ref sig .tc := ⟨.hbm, 91, rfl⟩
abbrev main_v47 : Ref sig .tc := ⟨.hbm, 92, rfl⟩
abbrev main_v48 : Ref sig .tc := ⟨.hbm, 93, rfl⟩
abbrev main_cst_14 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_15 : Ref sig .tc := ⟨.hbm, 98, rfl⟩
abbrev main_call2_v0 : Ref sig .tc := ⟨.hbm, 99, rfl⟩
abbrev main_call2_v1 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_16 : Ref sig .tc := ⟨.hbm, 105, rfl⟩
abbrev main_v56 : Ref sig .tc := ⟨.hbm, 106, rfl⟩
abbrev main_v57 : Ref sig .tc := ⟨.hbm, 107, rfl⟩
abbrev main_c_17 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_18 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_19 : Ref sig .tc := ⟨.hbm, 118, rfl⟩
abbrev main_v66 : Ref sig .tc := ⟨.hbm, 119, rfl⟩
abbrev main_v67 : Ref sig .tc := ⟨.hbm, 120, rfl⟩
abbrev main_cst_20 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_21 : Ref sig .tc := ⟨.hbm, 125, rfl⟩
abbrev main_call3_v0 : Ref sig .tc := ⟨.hbm, 126, rfl⟩
abbrev main_call3_v1 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_22 : Ref sig .tc := ⟨.hbm, 136, rfl⟩
abbrev main_v79 : Ref sig .tc := ⟨.hbm, 137, rfl⟩
abbrev main_cst_23 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_24 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_25 : Ref sig .tc := ⟨.hbm, 146, rfl⟩
abbrev main_v86 : Ref sig .tc := ⟨.hbm, 147, rfl⟩
abbrev main_v87 : Ref sig .tc := ⟨.hbm, 148, rfl⟩
abbrev main_cst_26 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_27 : Ref sig .tc := ⟨.hbm, 153, rfl⟩
abbrev main_call4_v0 : Ref sig .tc := ⟨.hbm, 154, rfl⟩
abbrev main_call4_v1 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_c_28 : Ref sig .tc := ⟨.hbm, 160, rfl⟩
abbrev main_v95 : Ref sig .tc := ⟨.hbm, 161, rfl⟩
abbrev main_v96 : Ref sig .tc := ⟨.hbm, 162, rfl⟩
abbrev main_c_29 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_cst_30 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_31 : Ref sig .tc := ⟨.hbm, 173, rfl⟩
abbrev main_v105 : Ref sig .tc := ⟨.hbm, 174, rfl⟩
abbrev main_v106 : Ref sig .tc := ⟨.hbm, 175, rfl⟩
abbrev main_cst_32 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_33 : Ref sig .tc := ⟨.hbm, 180, rfl⟩
abbrev main_call5_v0 : Ref sig .tc := ⟨.hbm, 181, rfl⟩
abbrev main_call5_v1 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_34 : Ref sig .tc := ⟨.hbm, 192, rfl⟩
abbrev main_v119 : Ref sig .tc := ⟨.hbm, 193, rfl⟩
abbrev main_v120 : Ref sig .tc := ⟨.hbm, 194, rfl⟩
abbrev main_call6_cst : Ref sig .tc := ⟨.hbm, 195, rfl⟩
abbrev main_call6_v0 : Ref sig .tc := ⟨.hbm, 196, rfl⟩
abbrev main_v121 : Ref sig .tc := ⟨.hbm, 197, rfl⟩
abbrev main_call7_cst : Ref sig .tc := ⟨.hbm, 198, rfl⟩
abbrev main_call7_v0 : Ref sig .tc := ⟨.hbm, 199, rfl⟩
abbrev main_v122 : Ref sig .tc := ⟨.hbm, 200, rfl⟩
abbrev main_cst_35 : Ref sig .tc := ⟨.hbm, 201, rfl⟩
abbrev main_v123 : Ref sig .tc := ⟨.hbm, 202, rfl⟩
abbrev main_cst_36 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_cst_37 : Ref sig .tc := ⟨.hbm, 210, rfl⟩
abbrev main_v130 : Ref sig .tc := ⟨.hbm, 211, rfl⟩
abbrev main_cst_38 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_cst_39 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst_40 : Ref sig .tc := ⟨.hbm, 231, rfl⟩
abbrev main_v148 : Ref sig .tc := ⟨.hbm, 232, rfl⟩
abbrev main_cst_41 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_42 : Ref sig .tc := ⟨.hbm, 240, rfl⟩
abbrev main_v155 : Ref sig .tc := ⟨.hbm, 241, rfl⟩
abbrev main_cst_43 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_cst_44 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_cst_45 : Ref sig .tc := ⟨.hbm, 262, rfl⟩
abbrev main_v174 : Ref sig .tc := ⟨.hbm, 263, rfl⟩
abbrev main_cst_46 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_cst_47 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_48 : Ref sig .tc := ⟨.hbm, 272, rfl⟩
abbrev main_v181 : Ref sig .tc := ⟨.hbm, 273, rfl⟩
abbrev main_v182 : Ref sig .tc := ⟨.hbm, 274, rfl⟩
abbrev main_cst_49 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_cst_50 : Ref sig .tc := ⟨.hbm, 279, rfl⟩
abbrev main_call8_v0 : Ref sig .tc := ⟨.hbm, 280, rfl⟩
abbrev main_call8_v1 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_c_51 : Ref sig .tc := ⟨.hbm, 286, rfl⟩
abbrev main_v190 : Ref sig .tc := ⟨.hbm, 287, rfl⟩
abbrev main_v191 : Ref sig .tc := ⟨.hbm, 288, rfl⟩
abbrev main_c_52 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_cst_53 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_cst_54 : Ref sig .tc := ⟨.hbm, 299, rfl⟩
abbrev main_v200 : Ref sig .tc := ⟨.hbm, 300, rfl⟩
abbrev main_v201 : Ref sig .tc := ⟨.hbm, 301, rfl⟩
abbrev main_cst_55 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_cst_56 : Ref sig .tc := ⟨.hbm, 306, rfl⟩
abbrev main_call9_v0 : Ref sig .tc := ⟨.hbm, 307, rfl⟩
abbrev main_call9_v1 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_cst_57 : Ref sig .tc := ⟨.hbm, 317, rfl⟩
abbrev main_v213 : Ref sig .tc := ⟨.hbm, 318, rfl⟩
abbrev main_cst_58 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_cst_59 : Ref sig .tc := ⟨.hbm, 323, rfl⟩
abbrev main_v217 : Ref sig .tc := ⟨.hbm, 324, rfl⟩
abbrev main_v218 : Ref sig .tc := ⟨.hbm, 325, rfl⟩
abbrev main_v219 : Ref sig .tc := ⟨.hbm, 326, rfl⟩
abbrev main_cst_60 : Ref sig .tc := ⟨.hbm, 327, rfl⟩
abbrev main_v220 : Ref sig .tc := ⟨.hbm, 328, rfl⟩
abbrev main_v221 : Ref sig .tc := ⟨.hbm, 329, rfl⟩
abbrev main_cst_61 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_cst_62 : Ref sig .tc := ⟨.hbm, 334, rfl⟩
abbrev main_call10_v0 : Ref sig .tc := ⟨.hbm, 335, rfl⟩
abbrev main_call10_v1 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_c_63 : Ref sig .tc := ⟨.hbm, 341, rfl⟩
abbrev main_v229 : Ref sig .tc := ⟨.hbm, 342, rfl⟩
abbrev main_v230 : Ref sig .tc := ⟨.hbm, 343, rfl⟩
abbrev main_c_64 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_cst_65 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_cst_66 : Ref sig .tc := ⟨.hbm, 354, rfl⟩
abbrev main_v239 : Ref sig .tc := ⟨.hbm, 355, rfl⟩
abbrev main_v240 : Ref sig .tc := ⟨.hbm, 356, rfl⟩
abbrev main_cst_67 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_cst_68 : Ref sig .tc := ⟨.hbm, 361, rfl⟩
abbrev main_call11_v0 : Ref sig .tc := ⟨.hbm, 362, rfl⟩
abbrev main_call11_v1 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_cst_69 : Ref sig .tc := ⟨.hbm, 372, rfl⟩
abbrev main_v252 : Ref sig .tc := ⟨.hbm, 373, rfl⟩
abbrev main_cst_70 : Ref sig .tc := ⟨.hbm, 374, rfl⟩
abbrev main_v253 : Ref sig .tc := ⟨.hbm, 375, rfl⟩
abbrev main_v254 : Ref sig .tc := ⟨.hbm, 376, rfl⟩
abbrev main_v255 : Ref sig .tc := ⟨.hbm, 377, rfl⟩
abbrev main_cst_71 : Ref sig .tc := ⟨.hbm, 378, rfl⟩
abbrev main_v256 : Ref sig .tc := ⟨.hbm, 379, rfl⟩
abbrev main_v257 : Ref sig .tc := ⟨.hbm, 380, rfl⟩
abbrev main_v258 : Ref sig .tc := ⟨.hbm, 381, rfl⟩
abbrev main_cst_72 : Ref sig .tc := ⟨.hbm, 382, rfl⟩
abbrev main_v259 : Ref sig .tc := ⟨.hbm, 383, rfl⟩
abbrev main_v260 : Ref sig .tc := ⟨.hbm, 384, rfl⟩
abbrev main_cst_73 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_cst_74 : Ref sig .tc := ⟨.hbm, 389, rfl⟩
abbrev main_call12_v0 : Ref sig .tc := ⟨.hbm, 390, rfl⟩
abbrev main_call12_v1 : Ref sig .tc := ⟨.hbm, 391, rfl⟩
abbrev main_v264 : Ref sig .tc := ⟨.hbm, 392, rfl⟩
abbrev main_v265 : Ref sig .tc := ⟨.hbm, 393, rfl⟩
abbrev main_v266 : Ref sig .tc := ⟨.hbm, 394, rfl⟩
abbrev main_v267 : Ref sig .tc := ⟨.hbm, 395, rfl⟩
abbrev main_c_75 : Ref sig .tc := ⟨.hbm, 396, rfl⟩
abbrev main_v268 : Ref sig .tc := ⟨.hbm, 397, rfl⟩
abbrev main_v269 : Ref sig .tc := ⟨.hbm, 398, rfl⟩
abbrev main_c_76 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_cst_77 : Ref sig .tc := ⟨.hbm, 405, rfl⟩
abbrev main_v275 : Ref sig .tc := ⟨.hbm, 406, rfl⟩
abbrev main_v276 : Ref sig .tc := ⟨.hbm, 407, rfl⟩
abbrev main_v277 : Ref sig .tc := ⟨.hbm, 408, rfl⟩
abbrev main_cst_78 : Ref sig .tc := ⟨.hbm, 409, rfl⟩
abbrev main_v278 : Ref sig .tc := ⟨.hbm, 410, rfl⟩
abbrev main_v279 : Ref sig .tc := ⟨.hbm, 411, rfl⟩
abbrev main_cst_79 : Ref sig .tc := ⟨.hbm, 412, rfl⟩
abbrev main_v280 : Ref sig .tc := ⟨.hbm, 413, rfl⟩
abbrev main_v281 : Ref sig .tc := ⟨.hbm, 414, rfl⟩
abbrev main_v282 : Ref sig .tc := ⟨.hbm, 415, rfl⟩
abbrev main_cst_80 : Ref sig .tc := ⟨.hbm, 416, rfl⟩
abbrev main_call13_v0 : Ref sig .tc := ⟨.hbm, 417, rfl⟩
abbrev main_call13_v1 : Ref sig .tc := ⟨.hbm, 418, rfl⟩
abbrev main_v283 : Ref sig .tc := ⟨.hbm, 419, rfl⟩
abbrev main_v284 : Ref sig .tc := ⟨.hbm, 420, rfl⟩
abbrev main_v285 : Ref sig .tc := ⟨.hbm, 421, rfl⟩
abbrev main_v286 : Ref sig .tc := ⟨.hbm, 422, rfl⟩
abbrev main_v287 : Ref sig .tc := ⟨.hbm, 423, rfl⟩
abbrev main_v288 : Ref sig .tc := ⟨.hbm, 424, rfl⟩
abbrev main_v289 : Ref sig .tc := ⟨.hbm, 425, rfl⟩
abbrev main_v290 : Ref sig .tc := ⟨.hbm, 426, rfl⟩
abbrev main_v291 : Ref sig .tc := ⟨.hbm, 427, rfl⟩
abbrev main_cst_81 : Ref sig .tc := ⟨.hbm, 428, rfl⟩
abbrev main_v292 : Ref sig .tc := ⟨.hbm, 429, rfl⟩
abbrev main_v293 : Ref sig .tc := ⟨.hbm, 430, rfl⟩
abbrev main_call14_cst : Ref sig .tc := ⟨.hbm, 431, rfl⟩
abbrev main_call14_v0 : Ref sig .tc := ⟨.hbm, 432, rfl⟩
abbrev main_v294 : Ref sig .tc := ⟨.hbm, 433, rfl⟩
abbrev main_call15_cst : Ref sig .tc := ⟨.hbm, 434, rfl⟩
abbrev main_call15_v0 : Ref sig .tc := ⟨.hbm, 435, rfl⟩
abbrev main_v295 : Ref sig .tc := ⟨.hbm, 436, rfl⟩
abbrev main_cst_82 : Ref sig .tc := ⟨.hbm, 437, rfl⟩
abbrev main_v296 : Ref sig .tc := ⟨.hbm, 438, rfl⟩
abbrev main_cst_83 : Ref sig .tc := ⟨.hbm, 439, rfl⟩
abbrev main_v297 : Ref sig .tc := ⟨.hbm, 440, rfl⟩
abbrev main_v298 : Ref sig .tc := ⟨.hbm, 441, rfl⟩
abbrev main_v299 : Ref sig .tc := ⟨.hbm, 442, rfl⟩
abbrev main_v300 : Ref sig .tc := ⟨.hbm, 443, rfl⟩
abbrev main_v301 : Ref sig .tc := ⟨.hbm, 444, rfl⟩
abbrev main_v302 : Ref sig .tc := ⟨.hbm, 445, rfl⟩
abbrev main_cst_84 : Ref sig .tc := ⟨.hbm, 446, rfl⟩
abbrev main_v303 : Ref sig .tc := ⟨.hbm, 447, rfl⟩
abbrev main_cst_85 : Ref sig .tc := ⟨.hbm, 448, rfl⟩
abbrev main_v304 : Ref sig .tc := ⟨.hbm, 449, rfl⟩
abbrev main_v305 : Ref sig .tc := ⟨.hbm, 450, rfl⟩
abbrev main_v306 : Ref sig .tc := ⟨.hbm, 451, rfl⟩
abbrev main_v307 : Ref sig .tc := ⟨.hbm, 452, rfl⟩
abbrev main_v308 : Ref sig .tc := ⟨.hbm, 453, rfl⟩
abbrev main_cst_86 : Ref sig .tc := ⟨.hbm, 454, rfl⟩
abbrev main_v309 : Ref sig .tc := ⟨.hbm, 455, rfl⟩
abbrev main_v310 : Ref sig .tc := ⟨.hbm, 456, rfl⟩
abbrev main_v311 : Ref sig .tc := ⟨.hbm, 457, rfl⟩
abbrev main_v312 : Ref sig .tc := ⟨.hbm, 458, rfl⟩
abbrev main_v313 : Ref sig .tc := ⟨.hbm, 459, rfl⟩
abbrev main_v314 : Ref sig .tc := ⟨.hbm, 460, rfl⟩
abbrev main_v315 : Ref sig .tc := ⟨.hbm, 461, rfl⟩
abbrev main_v316 : Ref sig .tc := ⟨.hbm, 462, rfl⟩
abbrev main_v317 : Ref sig .tc := ⟨.hbm, 463, rfl⟩
abbrev main_v318 : Ref sig .tc := ⟨.hbm, 464, rfl⟩
abbrev main_v319 : Ref sig .tc := ⟨.hbm, 465, rfl⟩
abbrev main_v320 : Ref sig .tc := ⟨.hbm, 466, rfl⟩
abbrev main_cst_87 : Ref sig .tc := ⟨.hbm, 467, rfl⟩
abbrev main_v321 : Ref sig .tc := ⟨.hbm, 468, rfl⟩
abbrev main_cst_88 : Ref sig .tc := ⟨.hbm, 469, rfl⟩
abbrev main_v322 : Ref sig .tc := ⟨.hbm, 470, rfl⟩
abbrev main_v323 : Ref sig .tc := ⟨.hbm, 471, rfl⟩
abbrev main_v324 : Ref sig .tc := ⟨.hbm, 472, rfl⟩
abbrev main_v325 : Ref sig .tc := ⟨.hbm, 473, rfl⟩
abbrev main_v326 : Ref sig .tc := ⟨.hbm, 474, rfl⟩
abbrev main_v327 : Ref sig .tc := ⟨.hbm, 475, rfl⟩
abbrev main_cst_89 : Ref sig .tc := ⟨.hbm, 476, rfl⟩
abbrev main_v328 : Ref sig .tc := ⟨.hbm, 477, rfl⟩
abbrev main_cst_90 : Ref sig .tc := ⟨.hbm, 478, rfl⟩
abbrev main_v329 : Ref sig .tc := ⟨.hbm, 479, rfl⟩
abbrev main_v330 : Ref sig .tc := ⟨.hbm, 480, rfl⟩
abbrev main_v331 : Ref sig .tc := ⟨.hbm, 481, rfl⟩
abbrev main_v332 : Ref sig .tc := ⟨.hbm, 482, rfl⟩
abbrev main_v333 : Ref sig .tc := ⟨.hbm, 483, rfl⟩
abbrev main_cst_91 : Ref sig .tc := ⟨.hbm, 484, rfl⟩
abbrev main_v334 : Ref sig .tc := ⟨.hbm, 485, rfl⟩
abbrev main_v335 : Ref sig .tc := ⟨.hbm, 486, rfl⟩
abbrev main_v336 : Ref sig .tc := ⟨.hbm, 487, rfl⟩
abbrev main_v337 : Ref sig .tc := ⟨.hbm, 488, rfl⟩
abbrev main_v338 : Ref sig .tc := ⟨.hbm, 489, rfl⟩
abbrev main_v339 : Ref sig .tc := ⟨.hbm, 490, rfl⟩
abbrev main_v340 : Ref sig .tc := ⟨.hbm, 491, rfl⟩
abbrev main_v341 : Ref sig .tc := ⟨.hbm, 492, rfl⟩
abbrev main_v342 : Ref sig .tc := ⟨.hbm, 493, rfl⟩
abbrev main_v343 : Ref sig .tc := ⟨.hbm, 494, rfl⟩
abbrev main_v344 : Ref sig .tc := ⟨.hbm, 495, rfl⟩
abbrev main_v345 : Ref sig .tc := ⟨.hbm, 496, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S64 : S_.BroadcastsInDim S64 (![] : Fin 0 → Fin S64.rank)
  bcast_S100000x1_S100000x128_0_1 : S100000x1.BroadcastsInDim S100000x128 (![0, 1] : Fin 2 → Fin S100000x128.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S100000x128_S128_d0 : S100000x128.ReducesTo [0] S128
  h_S_ : 0 < S_.numel
  bcast_S_S128 : S_.BroadcastsInDim S128 (![] : Fin 0 → Fin S128.rank)
  reducesTo_S64x128_S128_d0 : S64x128.ReducesTo [0] S128
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S64_d0 : S64x64.ReducesTo [0] S64
  scatter_S100000_S100000x1_S100000_n_0_0_1_wf : ScatterDims.WF S100000 S100000x1 S100000 [] [0] [0] 1
  scatter_S64_S100000x1_S100000_n_0_0_1_wf : ScatterDims.WF S64 S100000x1 S100000 [] [0] [0] 1
  gather_S100000x128_S100000x1_S100000x128_1_0_n_n_0_1_1128_wf : GatherDims.WF S100000x128 S100000x1 S100000x128 [1] [0] [] [0] [] 1 ![1, 128]
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  gather_S64x128_S100000x1_S100000x128_1_0_n_n_0_1_1128_wf : GatherDims.WF S64x128 S100000x1 S100000x128 [1] [0] [] [0] [] 1 ![1, 128]
  scatter_S100000x128_S100000x1_S100000x128_1_0_0_1_wf : ScatterDims.WF S100000x128 S100000x1 S100000x128 [1] [0] [0] 1
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S64x128_S128x64_S64x64_1_0_0_1_n_n_wf : DotDims.WF S64x128 S128x64 S64x64 [1] [0] [0] [1] [] []

variable [Facts₀]

def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S64x128_S100000x1_S100000x128_1_0_n_n_0_1_1128 : GatherDims S64x128 S100000x1 S100000x128 where
  offsetDims := [1]
  collapsedSliceDims := [0]
  operandBatchingDims := []
  startIndicesBatchingDims := []
  startIndexMap := [0]
  indexVectorDim := 1
  sliceSizes := ![1, 128]
  wf := gather_S64x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.K.Region0.lean ====
import proofs.«405200_j27075473834261_2_alg».proof.Proof.Gen.Kernel.Launch
import proofs.«405200_j27075473834261_2_alg».proof.Proof.Gen.Kernel.Skeleton
import proofs.«405200_j27075473834261_2_alg».proof.Proof.Gen.Kernel.Points
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

/-!
  The label-side aggregate of the first layer ("belongs to"), as one pipelined region of ten points.

  Every point adds to a 64 x 128 accumulator the product of the transposed indicator matrix of its 10000 labels with its
  10000 rows; the first point clears the accumulator before adding, and the last point, after adding, scales the
  accumulator row by row, applies the dense map and the bias, clamps at zero and stores the result block, which is
  written back once. Here: what the accumulator holds after each point (a recursion over the points), the region's
  invariant (the accumulator at that value between points), the body's run in its three cases and the region's
  proof data.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the accumulator -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after point `n`: the point's term (the transposed indicator matrix of the point's labels
    times the point's rows) added to what the point before left, and at the first point to the cleared accumulator. -/
def acc0 (c : Dev nD) : (n : ℕ) → n < cfg0.N → Vec F S64x128 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩) (acc0 c n (Nat.lt_of_succ_lt hn))

theorem acc0_zero (c : Dev nD) (hn : 0 < cfg0.N) :
    acc0 V c 0 hn = k0_pay2 (iblk0 V c 0 ⟨0, hn⟩) (iblk0 V c 1 ⟨0, hn⟩) (k0_pay1 (F := F)) := rfl

theorem acc0_succ (c : Dev nD) (n : ℕ) (hn : n + 1 < cfg0.N) :
    acc0 V c (n + 1) hn = k0_pay2 (iblk0 V c 0 ⟨n + 1, hn⟩) (iblk0 V c 1 ⟨n + 1, hn⟩) (acc0 V c n (Nat.lt_of_succ_lt hn)) := rfl

/-- The result block the last point stores: the accumulator scaled, mapped, biased and clamped. At the other points the
    window is idle and this value is never consulted. -/
def res0 (c : Dev nD) (t : Fin cfg0.N) : Vec F S64x128 .f32 :=
  k0_pay3 (acc0 V c t.val t.isLt) (iblk0 V c 2 t) (iblk0 V c 3 t) (iblk0 V c 4 t)

/-! ## The invariant between points -/

/-- Before the first point the region's own invariant (every scratch buffer at anything); after point `n` the accumulator at
    `acc0 n`, the other scratch buffers unopened and the generator register at some state. -/
def inv0 (c : Dev nD) : (n : ℕ) → n ≤ cfg0.N → sProp 𝕄
  | 0, _ => Pipeline.ΦA spec0 c
  | n + 1, hn => iprop(iprop(owns (c : Thread nD τ) (Memref.whole cc0_scratch0) fullShare (acc0 V c n hn)
      ∗ Pipeline.scopedRestBut (Ix := Unit) (Name := ℕ) (U := UR sig nD τ) (Lvl := ℕ) (Val := Elt F) spec0 c [cc0_scratch0]) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) (Memref.whole cc0_scratch0) fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem inv0_pos (c : Dev nD) (n : ℕ) (h : n ≤ cfg0.N) (hz : n ≠ 0) :
    inv0 V c n h = iprop(iprop(owns (c : Thread nD τ) (Memref.whole cc0_scratch0) fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The region's own invariant with the accumulator's buffer split off the other scratch buffers. -/
theorem PhiA0_eq (c : Dev nD) :
    (Pipeline.ΦA spec0 c : sProp 𝕄)
      = iprop(iprop((∃ d, owns (c : Thread nD τ) (Memref.whole cc0_scratch0) fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]

/-! ## The region's proof data -/

/-- The arrays as the region finds them; after the body at point `t` each input's buffer at its block, the result's at
    `res0`; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => res0 V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = res0 V c t := by dsimp only [dat0]

theorem Phi0_castSucc (c : Dev nD) (t : Fin cfg0.N) :
    (dat0 V c).Φ t.castSucc = inv0 V c t.val (Nat.le_of_lt t.isLt) := by
  dsimp only [dat0]; simp only [Fin.coe_castSucc]

/-! ## The body's two conditions and where the result window is idle -/

/-- "This is the first point": the condition of the body's first conditional, from the grid coordinates. -/
abbrev isFirst0 (i : grid0.Coords) : Prop := (Scalar.cmpi .ne (Scalar.extui (Scalar.cmpi .eq (BitVec.ofNat 32 (i 0).val) 0#32)) 0#32) = 1#1
/-- It holds at point 0 only, decided over the grid. -/
theorem isFirst0_iff : ∀ t : Fin cfg0.N, isFirst0 (grid0.coords t) ↔ t.val = 0 :=
  (by decide +kernel : ∀ t : Fin grid0.N, isFirst0 (grid0.coords t) ↔ t.val = 0)

/-- "This is the last point": the condition of the body's second conditional. -/
abbrev isLast0 (i : grid0.Coords) : Prop := k0_cond2 i = 1#1
/-- It holds at point 9 only, decided over the grid. -/
theorem isLast0_iff : ∀ t : Fin cfg0.N, isLast0 (grid0.coords t) ↔ t.val = 9 :=
  (by decide +kernel : ∀ t : Fin grid0.N, isLast0 (grid0.coords t) ↔ t.val = 9)

/-- The inputs are never idle. -/
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
/-- Before the last point the result window is idle and not written back; -/
theorem idle0_5 : ∀ t : Fin cfg0.N, ¬isLast0 (grid0.coords t) → cfg0.idle 5 (grid0.coords t) = true := by decide +kernel
theorem noFlush0_5 : ∀ t : Fin cfg0.N, ¬isLast0 (grid0.coords t) → (cfg0.win 5).flush t = false := by decide +kernel
/-- at the last point it is live. -/
theorem live0_5 : ∀ t : Fin cfg0.N, isLast0 (grid0.coords t) → cfg0.idle 5 (grid0.coords t) = false := by decide +kernel

/-! ## The staging memrefs at a point -/

abbrev ms0_0 (t : Fin cfg0.N) : Memref sig .tc .vmem S10000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
/-- The accumulator: a whole scratch buffer of the kernel's own. -/
abbrev accM0 : Memref sig .tc .vmem S64x128 .f32 := Memref.whole cc0_scratch0

/-! ## What the body finds in the inputs' buffers: their blocks, fetched there or not -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The accumulator at a point, by case -/

theorem acc0_first (c : Dev nD) (t : Fin cfg0.N) (h0 : t.val = 0) :
    acc0 V c t.val t.isLt = k0_pay2 (iblk0 V c 0 t) (iblk0 V c 1 t) (k0_pay1 (F := F)) := by
  obtain ⟨n, hn⟩ := t
  cases n with
  | zero => rfl
  | succ n => exact absurd h0 (Nat.succ_ne_zero n)

theorem acc0_next (c : Dev nD) (t : Fin cfg0.N) (h0 : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl h0
  | succ n => rfl

/-! ## One covering store through the whole buffer, read back -/

theorem zeros2 : (![0, 0] : Fin 2 → Nat) = fun _ => 0 := funext fun a => by fin_cases a <;> rfl
theorem zeros1 : (![0] : Fin 1 → Nat) = fun _ => 0 := funext fun a => by fin_cases a; rfl

/-- After a last store through the whole-shape rectangle a buffer reads that store's payload, whatever was stored before. -/
theorem read_writes_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-! ## The body run, case by case, on any whole staging memrefs -/

set_option maxHeartbeats 1000000 in
/-- The first point: the accumulator, at anything, is cleared and then receives the point's term. The buffers the case does
    not touch are not mentioned (they are framed). -/
theorem run0_first (c : Dev nD) (i : grid0.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64x128 .f32) (harg7 : arg7.IsWhole)
    (hc0 : isFirst0 i) (hc1 : ¬isLast0 i) (x0 : Vec F S10000x1 .i32) (x1 : Vec F S10000x128 .f32) (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (k0_pay2 x0 x1 (k0_pay1 (F := F)))) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  (try sl_unfold_words)
  rw [read_writes_whole _ _ zeros2]
  simp only [View.readAt_eq_ld, harg1.read_unread, harg2.read_unread, View.ld_unit_zero (S := S10000x1) zeros2,
    View.ld_unit_zero (S := S10000x128) zeros2, View.readCov_unit_zero (S := S64x128) _ zeros2]

set_option maxHeartbeats 1000000 in
/-- A middle point: the accumulator, at what the point before left, receives the point's term. -/
theorem run0_mid (c : Dev nD) (i : grid0.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64x128 .f32) (harg7 : arg7.IsWhole)
    (hc0 : ¬isFirst0 i) (hc1 : ¬isLast0 i) (x0 : Vec F S10000x1 .i32) (x1 : Vec F S10000x128 .f32) (a : Vec F S64x128 .f32) (E : Set ℕ) (K : PUnit → sProp 𝕄) :
    iprop(owns (c : Thread nD τ) arg1 fullShare x0 ∗ owns (c : Thread nD τ) arg2 fullShare x1 ∗ owns (c : Thread nD τ) arg7 fullShare a
        ∗ (iprop(owns (c : Thread nD τ) arg1 fullShare x0 ∗ owns (c : Thread nD τ) arg2 fullShare x1
            ∗ owns (c : Thread nD τ) arg7 fullShare (k0_pay2 x0 x1 a)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  (try sl_unfold_words)
  rw [read_writes_whole _ _ zeros2]
  simp only [View.readAt_eq_ld, harg1.read_unread, harg2.read_unread, harg7.read_unread, View.ld_unit_zero (S := S10000x1) zeros2,
    View.ld_unit_zero (S := S10000x128) zeros2, View.ld_unit_zero (S := S64x128) zeros2]

set_option maxHeartbeats 1000000 in
/-- The last point: the accumulator receives the point's term, and the result block, at anything, receives the accumulator
    scaled, mapped, biased and clamped. -/
theorem run0_last (c : Dev nD) (i : grid0.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64x128 .f32) (harg7 : arg7.IsWhole)
    (hc0 : ¬isFirst0 i) (hc1 : isLast0 i) (x0 : Vec F S10000x1 .i32) (x1 : Vec F S10000x128 .f32) (x2 : Vec F S64x1 .f32) (x3 : Vec F S128x128 .f32) (x4 : Vec F S128 .f32) (a : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 (k0_pay2 x0 x1 a) x2 x3 x4)
            ∗ owns (c : Thread nD τ) arg7 fullShare (k0_pay2 x0 x1 a)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    (try sl_unfold_words)
    rw [read_writes_whole _ _ zeros2]
    simp only [View.readAt_eq_ld, harg1.read_unread, harg2.read_unread, harg3.read_unread, harg4.read_unread, harg5.read_unread, harg7.read_unread,
      View.ld_unit_zero (S := S10000x1) zeros2, View.ld_unit_zero (S := S10000x128) zeros2, View.ld_unit_zero (S := S64x128) zeros2,
      View.ld_unit_zero (S := S64x1) zeros2, View.ld_unit_zero (S := S128x128) zeros2, View.ld_unit_zero (S := S128) zeros1,
      View.readCov_unit_zero (S := S64x128) _ zeros2]
  iexists _; isplitr
  swap; · iexact HS
  ipureintro
  (try sl_unfold_words)
  rw [read_writes_whole _ _ zeros2]
  simp only [View.readAt_eq_ld, harg1.read_unread, harg2.read_unread, harg7.read_unread, View.ld_unit_zero (S := S10000x1) zeros2,
    View.ld_unit_zero (S := S10000x128) zeros2, View.ld_unit_zero (S := S64x128) zeros2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the point is the first, a middle or the last one; the invariant
    hands the body the accumulator (at anything at the first point, else at what the point before left) and takes it back at
    this point's value; before the last point the result's buffer is handed back untouched, at the last point it holds the result. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = inv0 V c (t.val + 1) t.isLt from rfl, inv0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  by_cases h0 : t.val = 0
  · have h9 : ¬t.val = 9 := by omega
    rw [Dat.leavesExact_idle (dat0 V c) 5 t (idle0_5 t (fun h => h9 ((isLast0_iff t).mp h))) (noFlush0_5 t (fun h => h9 ((isLast0_iff t).mp h)))]
    rw [acc0_first V c t h0]
    rw [Phi0_castSucc V c t, inv0_zero V c _ _ h0, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (run0_first c (grid0.coords t) _ _ _ _ _ _ _ _ _ _ _ _ _ _ ((isFirst0_iff t).mpr h0) (fun h => h9 ((isLast0_iff t).mp h)) (iblk0 V c 0 t) (iblk0 V c 1 t) Set.univ _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat0 V c).leavesExact 5 t = owns (c : Thread nD τ) (ms0_5 t) fullShare ((dat0 V c).after 5 t) from by
        unfold Dat.leavesExact; rw [live0_5 t ((isLast0_iff t).mpr h9)], after0_5]
      unfold res0
      rw [acc0_next V c t h0]
      rw [Phi0_castSucc V c t, inv0_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_last c (grid0.coords t) _ _ _ _ _ _ _ _ _ _ _ _ _ _ (fun h => h0 ((isFirst0_iff t).mp h)) ((isLast0_iff t).mpr h9) (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idle0_5 t (fun h => h9 ((isLast0_iff t).mp h))) (noFlush0_5 t (fun h => h9 ((isLast0_iff t).mp h)))]
      rw [acc0_next V c t h0]
      rw [Phi0_castSucc V c t, inv0_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_mid c (grid0.coords t) _ _ _ _ _ _ _ _ _ _ _ _ _ _ (fun h => h0 ((isFirst0_iff t).mp h)) (fun h => h9 ((isLast0_iff t).mp h)) (iblk0 V c 0 t) (iblk0 V c 1 t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After any point but the first the invariant gives the region's own back: the accumulator's contents are forgotten. -/
theorem Phi0_out (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, PhiA0_eq]
  iintro ⟨⟨HS, HR⟩, Hg⟩
  isplitr [Hg]
  · isplitl [HS]
    · iexists _; iexact HS
    iexact HR
  iexact Hg

/-- The same after the last point. -/
theorem hout0 (c : Dev nD) : (dat0 V c).Φ (Fin.last cfg0.N) ⊢ Pipeline.ΦA spec0 c :=
  Phi0_out V c _ (by rw [Fin.val_last]; have : cfg0.N = 10 := N_0; omega)

end Cert.Kernel.Hand

end
-- ==== Proof.K.Region1.lean ====
/-
  The combine step of the first layer (region 1 of the program): on each tile of 10000 sequence nodes,
  relu(½ · ((onehot(label) · M + bi) + (con · Wc + bc))).

  Per tile the body reads six blocks — the tile's label column, the tile of the "connected to" aggregate, and four
  whole arrays that never move (the label table M, its bias, the dense map Wc, its bias) — and writes the tile of the
  result once, covering it. Nothing is carried from one tile to the next, so the invariant between tiles is the
  region's entry invariant itself.
-/
import proofs.«405200_j27075473834261_2_alg».proof.Proof.Gen.Kernel.Launch
import proofs.«405200_j27075473834261_2_alg».proof.Proof.Gen.Kernel.Skeleton
import proofs.«405200_j27075473834261_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body reads and writes -/

/-- The rectangles the body loads and stores through: each is the whole of its buffer. -/
abbrev labRect1 : Rect S10000x1 := Rect.unit (s := S10000x1) ![0, 0] S10000x1.size inb_S10000x1_S10000x1_0_0
abbrev tileRect1 : Rect S10000x128 := Rect.unit (s := S10000x128) ![0, 0] S10000x128.size inb_S10000x128_S10000x128_0_0
abbrev tabRect1 : Rect S64x128 := Rect.unit (s := S64x128) ![0, 0] S64x128.size inb_S64x128_S64x128_0_0
abbrev denseRect1 : Rect S128x128 := Rect.unit (s := S128x128) ![0, 0] S128x128.size inb_S128x128_S128x128_0_0
abbrev biasRect1 : Rect S128 := Rect.unit (s := S128) ![0] S128.size inb_S128_S128_0

/-- The result tile after the body, from the contents of the six input buffers (label column, aggregate tile, label
    table, its bias, dense map, its bias): its one store as a piece, the payload over what the six loads read. -/
def comb1 (lab : Vec F S10000x1 .i32) (con : Vec F S10000x128 .f32) (M : Vec F S64x128 .f32) (bi : Vec F S128 .f32)
    (Wc : Vec F S128x128 .f32) (bc : Vec F S128 .f32) : Vec F S10000x128 .f32 :=
  View.canon [⟨tileRect1, k1_pay1 (View.ld lab labRect1) (View.ld M tabRect1) (View.ld bi biasRect1) (View.ld con tileRect1)
    (View.ld Wc denseRect1) (View.ld bc biasRect1)⟩]

/-- Input window 0 (the tile's label column): its current staging buffer holds its block at every tile, fetched there or not,
    for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the tile of the aggregate): its current staging buffer holds its block at every tile, fetched there or not,
    for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the label table): its current staging buffer holds its block at every tile, fetched there or not,
    for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the label table's bias): its current staging buffer holds its block at every tile, fetched there or not,
    for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the dense map): its current staging buffer holds its block at every tile, fetched there or not,
    for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the dense map's bias): its current staging buffer holds its block at every tile, fetched there or not,
    for any proof data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The cover and the body's triple -/

theorem zeroOff1 : (![0, 0] : Fin 2 → Nat) = fun _ => 0 := funext fun a => by
  match a with
  | ⟨0, _⟩ => rfl
  | ⟨1, _⟩ => rfl
theorem zeroOffRow1 : (![0] : Fin 1 → Nat) = fun _ => 0 := funext fun a => by
  match a with
  | ⟨0, _⟩ => rfl

/-- The one store covers the tile. -/
theorem cover1 (p : Vec F S10000x128 .f32) (y : S10000x128.Idx) :
    ∃ pc ∈ ([⟨tileRect1, p⟩] : List (View.Piece (Elt F) S10000x128 .f32)), y ∈ pc.1.set :=
  ⟨⟨tileRect1, p⟩, List.mem_singleton_self _, View.mem_set_unit_zero zeroOff1 inb_S10000x128_S10000x128_0_0 y⟩

set_option maxHeartbeats 4000000 in
/-- The body on whole staging memrefs — the six inputs' at contents `x0 … x5`, the result's at anything — runs to the
    continuation holding the inputs' as they were and the result's at `comb1` of them. -/
theorem sound_kernel1 (c : Dev nD) (E : Set ℕ) (i : grid1.Coords) (arg1 : Memref sig .tc .vmem S10000x1 .i32) (harg1 : arg1.IsWhole) (arg2 : Memref sig .tc .vmem S10000x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S10000x128 .f32) (harg7 : arg7.IsWhole)
    (x0 : Vec F S10000x1 .i32) (x1 : Vec F S10000x128 .f32) (x2 : Vec F S64x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (comb1 x0 x1 x2 x3 x4 x5)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The proof data -/

/-- The proof data of the combine step on core `c`: the arrays as the region finds them; after the body at tile `t`
    each input's buffer still at its block, the result's at `comb1` of the six blocks; the invariant between tiles is
    the entry invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => comb1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = comb1 (iblk1 V c 0 t) (iblk1 V c 1 t) (iblk1 V c 2 t) (iblk1 V c 3 t) (iblk1 V c 4 t) (iblk1 V c 5 t) := by dsimp only [dat1]

/-- Each input's current staging buffer holds its block at every tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any tile: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- Entering the region gives the invariant before the first tile: they are the same proposition. -/
theorem hin1 (c : Dev nD) : Pipeline.ΦA spec1 c ⊢ (dat1 V c).Φ 0 := by
  dsimp only [dat1]; exact .rfl

/-- The invariant after the last tile gives the region's exit invariant: they are the same proposition. -/
theorem hout1 (c : Dev nD) : (dat1 V c).Φ (Fin.last cfg1.N) ⊢ Pipeline.ΦA spec1 c := by
  dsimp only [dat1]; exact .rfl

end Cert.Kernel.Hand

end
-- ==== Proof.K.Region2.lean ====
/-
  Region 2 of @main: the BatchNorm STATISTICS kernel on a grid of ten row tiles.

  One input window (the [100000,128] array, tile t at point t) and two output windows ([1,128] each, block index constant
  over the grid, so each is carried in its staging buffer across the ten points and written back once, after the last).
  At point 0 the body stores zeros to both outputs and then adds the tile's column sums (resp. column sums of squares);
  at every later point it adds the tile's to what the point before left. What the two staging buffers hold after point n
  is therefore a recursion on n over the body's payloads: the column sums `sumAt2`, the column sums of squares `sqAt2`.
-/
import proofs.«405200_j27075473834261_2_alg».proof.Proof.Gen.Kernel.Launch
import proofs.«405200_j27075473834261_2_alg».proof.Proof.Gen.Kernel.Skeleton
import proofs.«405200_j27075473834261_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the two outputs hold after each point -/

/-- The running column sums after point `n`: zero plus tile 0's column sums, then plus tile `n`'s. -/
def sumAt2 (c : Dev nD) : (n : ℕ) → n < cfg2.N → Vec F S1x128 .f32
  | 0, h => k2_pay4 (iblk2 V c 0 ⟨0, h⟩) (k2_pay1 (F := F))
  | n + 1, h => k2_pay4 (iblk2 V c 0 ⟨n + 1, h⟩) (sumAt2 c n (Nat.lt_of_succ_lt h))

/-- The running column sums of squares after point `n`. -/
def sqAt2 (c : Dev nD) : (n : ℕ) → n < cfg2.N → Vec F S1x128 .f32
  | 0, h => k2_pay5 (iblk2 V c 0 ⟨0, h⟩) (k2_pay2 (F := F))
  | n + 1, h => k2_pay5 (iblk2 V c 0 ⟨n + 1, h⟩) (sqAt2 c n (Nat.lt_of_succ_lt h))

/-! ## The pipeline's proof data -/

/-- The proof data of the statistics pipeline on core `c`: the arrays as the region finds them; after the body at point `t`
    the input's buffer at its tile, the outputs' at the running sums; the invariant the launch's own (the buffers no
    window stages), untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => sumAt2 V c t.val t.isLt
    | ⟨2, _⟩ => sqAt2 V c t.val t.isLt
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Input window 0's current staging buffer holds its tile at every point, for any proof data whose array is the entry
    contents and whose body leaves the tile in place: the window is fetched at every point, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's one conditional -/

/-- The condition of the body's reset: the grid coordinate is zero. -/
abbrev cond2 (i : grid2.Coords) : Prop := (Scalar.cmpi .ne (Scalar.extui (Scalar.cmpi .eq (BitVec.ofNat 32 (i 0).val) 0#32)) 0#32) = 1#1
/-- It holds at the first point only: decided over the ten points. -/
theorem hcond2 : ∀ t : Fin cfg2.N, cond2 (grid2.coords t) ↔ t.val = 0 :=
  (by decide +kernel : ∀ t : Fin grid2.N, cond2 (grid2.coords t) ↔ t.val = 0)

/-- Each window's current staging memref at point `t`, spelled as the pipeline passes it, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)

/-! ## The body on any staging memrefs, case by case -/

set_option maxHeartbeats 1000000 in
/-- THE FIRST POINT (the reset taken). What the body's stores leave in the two outputs' staging memrefs, as pieces (last
    first), with the proof that on whole staging memrefs, the input's at its tile `x0` and the outputs' at anything, the body
    runs to the continuation holding the input's as it was and each output's with its pieces written. -/
noncomputable def kernelRun2_A (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) :
    Σ' (L1 : List (View.Piece (Elt F) S1x128 .f32)), { L2 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc2_stats_kernel i arg1 harg1 arg2 harg2 arg3 harg3) K } := by
  refine ⟨?_, ?_, fun E K => ?run⟩
  case run =>
    simp only [cc2_stats_kernel_eq_skeleton]; unfold cc2_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- A LATER POINT (the reset not taken). The same, the outputs' staging memrefs at their running contents `xo1`, `xo2`,
    which the body reads before it covers them. -/
noncomputable def kernelRun2_B (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 : Vec F S1x128 .f32) (xo2 : Vec F S1x128 .f32) :
    Σ' (L1 : List (View.Piece (Elt F) S1x128 .f32)), { L2 : List (View.Piece (Elt F) S1x128 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc2_stats_kernel i arg1 harg1 arg2 harg2 arg3 harg3) K } := by
  refine ⟨?_, ?_, fun E K => ?run⟩
  case run =>
    simp only [cc2_stats_kernel_eq_skeleton]; unfold cc2_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

/-! ## The pieces read back: each output's staging buffer after the body, over the payloads -/

theorem hz2 : (![0, 0] : Fin 2 → Nat) = fun _ => 0 := funext fun a => by fin_cases a <;> rfl

/-- At the first point the column-sum output's pieces (the zero store, then the sum's store) cover its block; -/
theorem cover2_A_1 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) (y : S1x128.Idx) :
    ∃ pc ∈ (kernelRun2_A c i arg1 harg1 arg2 harg2 arg3 harg3 hc0 x0).1, y ∈ pc.1.set :=
  View.cover_of_tiledL (kernelRun2_A c i arg1 harg1 arg2 harg2 arg3 harg3 hc0 x0).1 S1x128.size (by sl_kernel_rfl) y
/-- and so do the sum-of-squares output's. -/
theorem cover2_A_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) (y : S1x128.Idx) :
    ∃ pc ∈ (kernelRun2_A c i arg1 harg1 arg2 harg2 arg3 harg3 hc0 x0).2.1, y ∈ pc.1.set :=
  View.cover_of_tiledL (kernelRun2_A c i arg1 harg1 arg2 harg2 arg3 harg3 hc0 x0).2.1 S1x128.size (by sl_kernel_rfl) y
/-- At a later point each output's one store covers its block. -/
theorem cover2_B_1 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 xo2 : Vec F S1x128 .f32) (y : S1x128.Idx) :
    ∃ pc ∈ (kernelRun2_B c i arg1 harg1 arg2 harg2 arg3 harg3 hc0 x0 xo1 xo2).1, y ∈ pc.1.set :=
  View.cover_of_tiledL (kernelRun2_B c i arg1 harg1 arg2 harg2 arg3 harg3 hc0 x0 xo1 xo2).1 S1x128.size (by sl_kernel_rfl) y
theorem cover2_B_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 xo2 : Vec F S1x128 .f32) (y : S1x128.Idx) :
    ∃ pc ∈ (kernelRun2_B c i arg1 harg1 arg2 harg2 arg3 harg3 hc0 x0 xo1 xo2).2.1, y ∈ pc.1.set :=
  View.cover_of_tiledL (kernelRun2_B c i arg1 harg1 arg2 harg2 arg3 harg3 hc0 x0 xo1 xo2).2.1 S1x128.size (by sl_kernel_rfl) y

/-- THE FIRST POINT's column sums: the zero block, read back, plus the tile's column sums. -/
theorem read2_A_1 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) (f : arg2.view.ty.Contents (Elt F)) :
    arg2.view.read (Elt F) (arg2.view.writes (Elt F) f (kernelRun2_A c i arg1 harg1 arg2 harg2 arg3 harg3 hc0 x0).1)
      = k2_pay4 x0 (k2_pay1 (F := F)) := by
  rw [View.read_writes_eq_canon _ _ _ (cover2_A_1 c i arg1 harg1 arg2 harg2 arg3 harg3 hc0 x0)]
  unfold kernelRun2_A
  dsimp only
  sl_unfold_words
  rw [View.canon_cons_unit_zero (S := S1x128) hz2, View.readCov_unit_zero (S := S1x128) _ hz2]
  simp only [View.readAt_eq_ld, harg1.read_unread, View.ld_unit_zero (S := S10000x128) hz2]

/-- THE FIRST POINT's column sums of squares. -/
theorem read2_A_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) (f : arg3.view.ty.Contents (Elt F)) :
    arg3.view.read (Elt F) (arg3.view.writes (Elt F) f (kernelRun2_A c i arg1 harg1 arg2 harg2 arg3 harg3 hc0 x0).2.1)
      = k2_pay5 x0 (k2_pay2 (F := F)) := by
  rw [View.read_writes_eq_canon _ _ _ (cover2_A_2 c i arg1 harg1 arg2 harg2 arg3 harg3 hc0 x0)]
  unfold kernelRun2_A
  dsimp only
  sl_unfold_words
  rw [View.canon_cons_unit_zero (S := S1x128) hz2, View.readCov_unit_zero (S := S1x128) _ hz2]
  simp only [View.readAt_eq_ld, harg1.read_unread, View.ld_unit_zero (S := S10000x128) hz2]

/-- A LATER POINT's column sums: what the point before left plus the tile's column sums. -/
theorem read2_B_1 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 xo2 : Vec F S1x128 .f32) (f : arg2.view.ty.Contents (Elt F)) :
    arg2.view.read (Elt F) (arg2.view.writes (Elt F) f (kernelRun2_B c i arg1 harg1 arg2 harg2 arg3 harg3 hc0 x0 xo1 xo2).1)
      = k2_pay4 x0 xo1 := by
  rw [View.read_writes_eq_canon _ _ _ (cover2_B_1 c i arg1 harg1 arg2 harg2 arg3 harg3 hc0 x0 xo1 xo2)]
  unfold kernelRun2_B
  dsimp only
  sl_unfold_words
  rw [View.canon_unit_zero (S := S1x128) hz2]
  simp only [View.readAt_eq_ld, harg1.read_unread, harg2.read_unread, View.ld_unit_zero (S := S10000x128) hz2, View.ld_unit_zero (S := S1x128) hz2]

/-- A LATER POINT's column sums of squares. -/
theorem read2_B_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 xo2 : Vec F S1x128 .f32) (f : arg3.view.ty.Contents (Elt F)) :
    arg3.view.read (Elt F) (arg3.view.writes (Elt F) f (kernelRun2_B c i arg1 harg1 arg2 harg2 arg3 harg3 hc0 x0 xo1 xo2).2.1)
      = k2_pay5 x0 xo2 := by
  rw [View.read_writes_eq_canon _ _ _ (cover2_B_2 c i arg1 harg1 arg2 harg2 arg3 harg3 hc0 x0 xo1 xo2)]
  unfold kernelRun2_B
  dsimp only
  sl_unfold_words
  rw [View.canon_unit_zero (S := S1x128) hz2]
  simp only [View.readAt_eq_ld, harg1.read_unread, harg3.read_unread, View.ld_unit_zero (S := S10000x128) hz2, View.ld_unit_zero (S := S1x128) hz2]

/-! ## The running sums, point by point -/

/-- The running column sums at the first point. -/
theorem sumAt2_first (c : Dev nD) (t : Fin cfg2.N) (h0 : t.val = 0) :
    sumAt2 V c t.val t.isLt = k2_pay4 (iblk2 V c 0 t) (k2_pay1 (F := F)) := by
  obtain ⟨n, hn⟩ := t
  dsimp only at h0
  subst h0
  rfl
/-- The running column sums at a later point: over what the point before left. -/
theorem sumAt2_later (c : Dev nD) (t : Fin cfg2.N) (h0 : t.val ≠ 0) :
    sumAt2 V c t.val t.isLt = k2_pay4 (iblk2 V c 0 t) (sumAt2 V c (t.val - 1) (Nat.lt_of_le_of_lt (Nat.sub_le _ _) t.isLt)) := by
  obtain ⟨n, hn⟩ := t
  cases n with
  | zero => exact absurd rfl h0
  | succ n => rfl
theorem sqAt2_first (c : Dev nD) (t : Fin cfg2.N) (h0 : t.val = 0) :
    sqAt2 V c t.val t.isLt = k2_pay5 (iblk2 V c 0 t) (k2_pay2 (F := F)) := by
  obtain ⟨n, hn⟩ := t
  dsimp only at h0
  subst h0
  rfl
theorem sqAt2_later (c : Dev nD) (t : Fin cfg2.N) (h0 : t.val ≠ 0) :
    sqAt2 V c t.val t.isLt = k2_pay5 (iblk2 V c 0 t) (sqAt2 V c (t.val - 1) (Nat.lt_of_le_of_lt (Nat.sub_le _ _) t.isLt)) := by
  obtain ⟨n, hn⟩ := t
  cases n with
  | zero => exact absurd rfl h0
  | succ n => rfl

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = sumAt2 V c t.val t.isLt := by dsimp only [dat2]
theorem after2_2 (c : Dev nD) (t : Fin cfg2.N) : (dat2 V c).after 2 t = sqAt2 V c t.val t.isLt := by dsimp only [dat2]

/-- The input's current staging buffer holds its tile at every point. -/
theorem before2_0 (c : Dev nD) (t : Fin cfg2.N) (d) : (dat2 V c).before 0 t d = iblk2 V c 0 t :=
  before2_0_of V (dat2 V c) (A_eq2 V c 0) (after2_0 V c) t d
/-- At a later point the column-sum output's staging buffer holds what the body left at the point before: it is written
    back after the last point only, the window is live and uncut. -/
theorem before2_1_later (c : Dev nD) (t : Fin cfg2.N) (h0 : t.val ≠ 0) (d) :
    (dat2 V c).before 1 t d = sumAt2 V c (t.val - 1) (Nat.lt_of_le_of_lt (Nat.sub_le _ _) t.isLt) := by
  have hN : t.val < 10 := lt_of_lt_of_eq t.isLt (show cfg2.N = 10 from N_2)
  rw [Dat.before_out_kept _ 1 rfl t h0 (Bool.eq_false_iff.mpr fun h => by have := (flush2_1 _).mp h; dsimp only at this; omega)
    (fun _ => rfl) (fun _ _ => rfl)]
  dsimp only [dat2]
/-- The same for the sum-of-squares output. -/
theorem before2_2_later (c : Dev nD) (t : Fin cfg2.N) (h0 : t.val ≠ 0) (d) :
    (dat2 V c).before 2 t d = sqAt2 V c (t.val - 1) (Nat.lt_of_le_of_lt (Nat.sub_le _ _) t.isLt) := by
  have hN : t.val < 10 := lt_of_lt_of_eq t.isLt (show cfg2.N = 10 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the input's memref holds its tile; the point is the first or a later one; at a later one each
    output's memref holds what the point before left; so the case's run applies, and what it leaves reads as the running
    sums. The invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2]
  by_cases h0 : t.val = 0
  · rw [sumAt2_first V c t h0, sqAt2_first V c t h0]
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact read2_A_1 c _ _ _ _ _ _ _ _ _ _
    unfold owns; iexists _; isplitr
    swap; · iexact H2
    ipureintro; exact read2_A_2 c _ _ _ _ _ _ _ _ _ _
  · rw [sumAt2_later V c t h0, sqAt2_later V c t h0]
    simp only [before2_1_later V c t h0, before2_2_later V c t h0]
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact read2_B_1 c _ _ _ _ _ _ _ _ _ _ _ _
    unfold owns; iexists _; isplitr
    swap; · iexact H2
    ipureintro; exact read2_B_2 c _ _ _ _ _ _ _ _ _ _ _ _

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant at the first point is the class invariant. -/
theorem hin2 (c : Dev nD) : Pipeline.ΦA spec2 c ⊢ (dat2 V c).Φ 0 := by
  dsimp only [dat2]; exact Entails.refl _

/-- The invariant at the last point gives the class invariant back. -/
theorem hout2 (c : Dev nD) : (dat2 V c).Φ (Fin.last cfg2.N) ⊢ Pipeline.ΦA spec2 c := by
  dsimp only [dat2]; exact Entails.refl _

/-! ## The arrays after the run -/

/-- The input array is never written. -/
theorem arrAt2_0 (c : Dev nD) : (dat2 V c).arrAt 0 cfg2.N = V c (Pipeline.arrRef spec2 0) :=
  ((dat2 V c).arrAt_in 0 rfl _).trans (A_eq2 V c 0)

/-- The column sums after the last point, as contents of the first result array (its one block is the array). -/
abbrev colsums2 (c : Dev nD) : Buf (Elt F) ((c : Thread nD τ).loc main_v52_0) :=
  sumAt2 V c 9 (by rw [show cfg2.N = 10 from N_2]; decide)
/-- The column sums of squares after the last point, as contents of the second result array. -/
abbrev colsqs2 (c : Dev nD) : Buf (Elt F) ((c : Thread nD τ).loc main_v52_1) :=
  sqAt2 V c 9 (by rw [show cfg2.N = 10 from N_2]; decide)

/-- The one write-back of the column sums, after point 9, writes them: block (0, 0) of the [1,128] array read through zero
    offsets is the array. -/
theorem flushed2_1_eq (c : Dev nD) (t : Fin cfg2.N) (hf : (cfg2.win 1).flush t = true) :
    (dat2 V c).flushed 1 t = ((cfg2.win 1).blk t).view.read (Elt F) (colsums2 V c) := by
  have hN : cfg2.N = 10 := N_2
  have h9 : t.val = 9 := by have := (flush2_1 t).mp hf; have := t.isLt; omega
  obtain rfl : t = t2_9 := Fin.ext h9
  show (cfg2.win 1).cut (grid2.coords t2_9) ((dat2 V c).after 1 t2_9) = _
  rw [after2_1]
  have hz' : (fun a => win2_1.index t2_9 a * main_v52_0.ty.shape.size a) = fun _ => 0 := funext fun a => by fin_cases a <;> decide
  exact (Memref.read_access_unit_zero (Elt F) main_v52_0 hz' (fun a => by rw [congrFun hz' a]; simp) (colsums2 V c)).symm

/-- So the first result array ends holding the column sums after point 9. -/
theorem arrAt2_1 (c : Dev nD) : (dat2 V c).arrAt 1 cfg2.N = colsums2 V c :=
  (dat2 V c).arrAt_eq_of_cover 1 (colsums2 V c) (flushed2_1_eq V c) fun i =>
    ⟨t2_9, (flush2_1 t2_9).mpr rfl, by
      show i ∈ ((View.whole main_v52_0).slice (win2_1.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_1.index t2_9 0 * win2_1.size 0 ≤ (i 0 : Nat) ∧ (i 0 : Nat) < win2_1.index t2_9 0 * win2_1.size 0 + win2_1.xsize (grid2.coords t2_9) 0
                  rw [show win2_1.index t2_9 0 * win2_1.size 0 = 0 from by decide +kernel, show win2_1.xsize (grid2.coords t2_9) 0 = 1 from by decide +kernel]; omega
      | ⟨1, _⟩ => show win2_1.index t2_9 1 * win2_1.size 1 ≤ (i 1 : Nat) ∧ (i 1 : Nat) < win2_1.index t2_9 1 * win2_1.size 1 + win2_1.xsize (grid2.coords t2_9) 1
                  rw [show win2_1.index t2_9 1 * win2_1.size 1 = 0 from by decide +kernel, show win2_1.xsize (grid2.coords t2_9) 1 = 128 from by decide +kernel]; omega⟩

/-- The one write-back of the column sums of squares, after point 9, writes them. -/
theorem flushed2_2_eq (c : Dev nD) (t : Fin cfg2.N) (hf : (cfg2.win 2).flush t = true) :
    (dat2 V c).flushed 2 t = ((cfg2.win 2).blk t).view.read (Elt F) (colsqs2 V c) := by
  have hN : cfg2.N = 10 := N_2
  have h9 : t.val = 9 := by have := (flush2_2 t).mp hf; have := t.isLt; omega
  obtain rfl : t = t2_9 := Fin.ext h9
  show (cfg2.win 2).cut (grid2.coords t2_9) ((dat2 V c).after 2 t2_9) = _
  rw [after2_2]
  have hz' : (fun a => win2_2.index t2_9 a * main_v52_1.ty.shape.size a) = fun _ => 0 := funext fun a => by fin_cases a <;> decide
  exact (Memref.read_access_unit_zero (Elt F) main_v52_1 hz' (fun a => by rw [congrFun hz' a]; simp) (colsqs2 V c)).symm

/-- So the second result array ends holding the column sums of squares after point 9. -/
theorem arrAt2_2 (c : Dev nD) : (dat2 V c).arrAt 2 cfg2.N = colsqs2 V c :=
  (dat2 V c).arrAt_eq_of_cover 2 (colsqs2 V c) (flushed2_2_eq V c) fun i =>
    ⟨t2_9, (flush2_2 t2_9).mpr rfl, by
      show i ∈ ((View.whole main_v52_1).slice (win2_2.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 1 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = 128 from by decide +kernel]; omega⟩

end Cert.Kernel.Hand

end
-- ==== Proof.K.Region3.lean ====
/-
  The batch normalisation's APPLY step as a pipeline of ten tiles: at tile t the body reads the tile's 10000 rows of the
  [100000,128] input, the mean row, the inverse standard deviation row, the scale and the shift, and stores
  (x - mean) * invstd * g + b over the whole output tile. Nothing is carried from one tile to the next, so the invariant
  is the region's own (the core's other scoped buffers and its random-number register, untouched), and what enters the region leaves it.

  Here: each window's block at a tile read off the array the region finds, the output tile as one store covering its
  buffer, the body's triple, the proof data of the pipeline and the body obligation at every tile.
-/
import proofs.«405200_j27075473834261_2_alg».proof.Proof.Gen.Kernel.Launch
import proofs.«405200_j27075473834261_2_alg».proof.Proof.Gen.Kernel.Skeleton
import proofs.«405200_j27075473834261_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at tile t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each buffer whole -/

/-- The whole [10000,128] tile. -/
abbrev tile3 : Rect S10000x128 := Rect.unit (s := S10000x128) ![0, 0] S10000x128.size inb_S10000x128_S10000x128_0_0
/-- The whole [1,128] row (mean, inverse standard deviation). -/
abbrev row3 : Rect S1x128 := Rect.unit (s := S1x128) ![0, 0] S1x128.size inb_S1x128_S1x128_0_0
/-- The whole [128] vector (scale, shift). -/
abbrev vec3 : Rect S128 := Rect.unit (s := S128) ![0] S128.size inb_S128_S128_0

/-! ## What the body leaves in the output tile -/

/-- The output buffer after the body, from the five inputs' buffers: its one store, the normalised tile. -/
def bnTile3 (x : Vec F S10000x128 .f32) (mean istd : Vec F S1x128 .f32) (g b : Vec F S128 .f32) : Vec F S10000x128 .f32 :=
  View.canon [⟨tile3, k3_pay1 (View.ld x tile3) (View.ld mean row3) (View.ld istd row3) (View.ld g vec3) (View.ld b vec3)⟩]

/-- The one store is the whole buffer, so it covers it. -/
theorem cover3 (p : Vec F S10000x128 .f32) (y : S10000x128.Idx) :
    ∃ pc ∈ ([⟨tile3, p⟩] : List (View.Piece (Elt F) S10000x128 .f32)), y ∈ pc.1.set :=
  View.cover_of_tiled [⟨tile3, p⟩] S10000x128.size (by rfl) y

/-! ## The pipeline's proof data -/

/-- The proof data of the apply pipeline on core c: the arrays as the region finds them; after the body at tile t each
    input's buffer at its block and the output's at the normalised tile of the input blocks; the invariant the region's
    own; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => bnTile3 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = bnTile3 (iblk3 V c 0 t) (iblk3 V c 1 t) (iblk3 V c 2 t) (iblk3 V c 3 t) (iblk3 V c 4 t) := by
  dsimp only [dat3]

/-! ## What the body finds in the inputs' buffers

The input tile is fetched at every tile; the two rows and the two vectors are fetched once, at the first tile, and the
body leaves them in place, so at every tile each input's buffer holds its block. -/

theorem finds3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3 V c 0]; try rfl) t d).trans
    (by unfold Dat.fetched Dat.blockOf iblk3; rw [A_eq3 V c 0]; try rfl)
theorem finds3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3 V c 1]; try rfl) t d).trans
    (by unfold Dat.fetched Dat.blockOf iblk3; rw [A_eq3 V c 1]; try rfl)
theorem finds3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3 V c 2]; try rfl) t d).trans
    (by unfold Dat.fetched Dat.blockOf iblk3; rw [A_eq3 V c 2]; try rfl)
theorem finds3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3 V c 3]; try rfl) t d).trans
    (by unfold Dat.fetched Dat.blockOf iblk3; rw [A_eq3 V c 3]; try rfl)
theorem finds3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3 V c 4]; try rfl) t d).trans
    (by unfold Dat.fetched Dat.blockOf iblk3; rw [A_eq3 V c 4]; try rfl)

/-! ## The body's triple -/

set_option maxHeartbeats 1000000 in
/-- The body on whole staging memrefs — the five inputs' at contents x, mean, istd, g, b, the output's at anything — runs
    to the continuation holding the inputs' as they were and the output's at the normalised tile. -/
theorem sound_apply3 (c : Dev nD) (E : Set ℕ) (i : grid3.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S10000x128 .f32) (harg6 : arg6.IsWhole)
    (x : Vec F S10000x128 .f32) (mean istd : Vec F S1x128 .f32) (g b : Vec F S128 .f32) (K : PUnit → sProp 𝕄) :
    iprop(owns (c : Thread nD τ) arg1 fullShare x ∗ owns (c : Thread nD τ) arg2 fullShare mean ∗ owns (c : Thread nD τ) arg3 fullShare istd
        ∗ owns (c : Thread nD τ) arg4 fullShare g ∗ owns (c : Thread nD τ) arg5 fullShare b ∗ (∃ d, owns (c : Thread nD τ) arg6 fullShare d)
        ∗ (iprop(owns (c : Thread nD τ) arg1 fullShare x ∗ owns (c : Thread nD τ) arg2 fullShare mean ∗ owns (c : Thread nD τ) arg3 fullShare istd
            ∗ owns (c : Thread nD τ) arg4 fullShare g ∗ owns (c : Thread nD τ) arg5 fullShare b
            ∗ owns (c : Thread nD τ) arg6 fullShare (bnTile3 x mean istd g b)) -∗ K ⟨⟩))
      ⊢ wp frame (wpE (defs₀ (F := F)) Variants.none c none) E
          (cc3_apply_kernel i arg1 harg1 arg2 harg2 arg3 harg3 arg4 harg4 arg5 harg5 arg6 harg6) K := by
  simp only [cc3_apply_kernel_eq_skeleton]; unfold cc3_apply_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-! ## The body obligation, at a generic tile -/

/-- What the body is called with at tile t, the windows one by one, -/
def tilePre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def tilePost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any tile: the inputs' memrefs hold their blocks, so the body's triple applies; the invariant and the
    core's debts pass through unread. -/
theorem sound_tile3 (c : Dev nD) (t : Fin cfg3.N) :
    tilePre3 V c t ⊢ wp frame (wpE (defs₀ (F := F)) Variants.none c none) Set.univ (bodyAt3 t) (fun _ => tilePost3 V c t) := by
  unfold tilePre3 tilePost3 bodyAt3
  simp only [finds3_0, finds3_1, finds3_2, finds3_3, finds3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_apply3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every tile. -/
theorem body_obligation3 (c : Dev nD) : BodyObligation (dat3 (F := F) V c) (defs₀ (F := F)) Variants.none () Set.univ := fun t => by
  rw [bigSep_W3, bigSep_W3]
  exact sound_tile3 V c t

/-- The invariant at the first tile is the region's own. -/
theorem hin3 (c : Dev nD) : Pipeline.ΦA spec3 c ⊢ (dat3 V c).Φ 0 := by
  dsimp only [dat3]
  iintro H; iexact H

/-- The invariant after the last tile is the region's own. -/
theorem hout3 (c : Dev nD) : (dat3 V c).Φ (Fin.last cfg3.N) ⊢ Pipeline.ΦA spec3 c := by
  dsimp only [dat3]
  iintro H; iexact H

end Cert.Kernel.Hand

end
-- ==== Proof.K.Region4.lean ====
import proofs.«405200_j27075473834261_2_alg».proof.Proof.Gen.Kernel.Launch
import proofs.«405200_j27075473834261_2_alg».proof.Proof.Gen.Kernel.Skeleton
import proofs.«405200_j27075473834261_2_alg».proof.Proof.Gen.Kernel.Points
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

/-!
  The label-side aggregate of the second layer ("belongs to"), as one pipelined region of ten points.

  Every point adds to a 64 x 128 accumulator the product of the transposed indicator matrix of its 10000 labels with its
  10000 rows; the first point clears the accumulator before adding, and the last point, after adding, scales the
  accumulator row by row, applies the dense map and the bias, clamps at zero and stores the result block, which is
  written back once. Here: what the accumulator holds after each point (a recursion over the points), the region's
  invariant (the accumulator at that value between points), the body's run in its three cases and the region's
  proof data.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the accumulator -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds after point `n`: the point's term (the transposed indicator matrix of the point's labels
    times the point's rows) added to what the point before left, and at the first point to the cleared accumulator. -/
def acc4 (c : Dev nD) : (n : ℕ) → n < cfg4.N → Vec F S64x128 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (acc4 c n (Nat.lt_of_succ_lt hn))

theorem acc4_zero (c : Dev nD) (hn : 0 < cfg4.N) :
    acc4 V c 0 hn = k4_pay2 (iblk4 V c 0 ⟨0, hn⟩) (iblk4 V c 1 ⟨0, hn⟩) (k4_pay1 (F := F)) := rfl

theorem acc4_succ (c : Dev nD) (n : ℕ) (hn : n + 1 < cfg4.N) :
    acc4 V c (n + 1) hn = k4_pay2 (iblk4 V c 0 ⟨n + 1, hn⟩) (iblk4 V c 1 ⟨n + 1, hn⟩) (acc4 V c n (Nat.lt_of_succ_lt hn)) := rfl

/-- The result block the last point stores: the accumulator scaled, mapped, biased and clamped. At the other points the
    window is idle and this value is never consulted. -/
def res4 (c : Dev nD) (t : Fin cfg4.N) : Vec F S64x64 .f32 :=
  k4_pay3 (acc4 V c t.val t.isLt) (iblk4 V c 2 t) (iblk4 V c 3 t) (iblk4 V c 4 t)

/-! ## The invariant between points -/

/-- Before the first point the region's own invariant (every scratch buffer at anything); after point `n` the accumulator at
    `acc4 n`, the other scratch buffers unopened and the generator register at some state. -/
def inv4 (c : Dev nD) : (n : ℕ) → n ≤ cfg4.N → sProp 𝕄
  | 0, _ => Pipeline.ΦA spec4 c
  | n + 1, hn => iprop(iprop(owns (c : Thread nD τ) (Memref.whole cc4_scratch0) fullShare (acc4 V c n hn)
      ∗ Pipeline.scopedRestBut (Ix := Unit) (Name := ℕ) (U := UR sig nD τ) (Lvl := ℕ) (Val := Elt F) spec4 c [cc4_scratch0]) ∗ (∃ r, prngReg c r))

theorem inv4_zero (c : Dev nD) (n : ℕ) (h : n ≤ cfg4.N) (hz : n = 0) : inv4 V c n h = Pipeline.ΦA spec4 c := by
  subst hz; rfl

theorem inv4_succ (c : Dev nD) (n : ℕ) (hn : n < cfg4.N) :
    inv4 V c (n + 1) hn = iprop(iprop(owns (c : Thread nD τ) (Memref.whole cc4_scratch0) fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem inv4_pos (c : Dev nD) (n : ℕ) (h : n ≤ cfg4.N) (hz : n ≠ 0) :
    inv4 V c n h = iprop(iprop(owns (c : Thread nD τ) (Memref.whole cc4_scratch0) fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The region's own invariant with the accumulator's buffer split off the other scratch buffers. -/
theorem PhiA4_eq (c : Dev nD) :
    (Pipeline.ΦA spec4 c : sProp 𝕄)
      = iprop(iprop((∃ d, owns (c : Thread nD τ) (Memref.whole cc4_scratch0) fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [owns_whole]

/-! ## The region's proof data -/

/-- The arrays as the region finds them; after the body at point `t` each input's buffer at its block, the result's at
    `res4`; the invariant `inv4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => res4 V c t
  Φ t := inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = res4 V c t := by dsimp only [dat4]

theorem Phi4_castSucc (c : Dev nD) (t : Fin cfg4.N) :
    (dat4 V c).Φ t.castSucc = inv4 V c t.val (Nat.le_of_lt t.isLt) := by
  dsimp only [dat4]; simp only [Fin.coe_castSucc]

/-! ## The body's two conditions and where the result window is idle -/

/-- "This is the first point": the condition of the body's first conditional, from the grid coordinates. -/
abbrev isFirst4 (i : grid4.Coords) : Prop := (Scalar.cmpi .ne (Scalar.extui (Scalar.cmpi .eq (BitVec.ofNat 32 (i 0).val) 0#32)) 0#32) = 1#1
/-- It holds at point 0 only, decided over the grid. -/
theorem isFirst4_iff : ∀ t : Fin cfg4.N, isFirst4 (grid4.coords t) ↔ t.val = 0 :=
  (by decide +kernel : ∀ t : Fin grid4.N, isFirst4 (grid4.coords t) ↔ t.val = 0)

/-- "This is the last point": the condition of the body's second conditional. -/
abbrev isLast4 (i : grid4.Coords) : Prop := k4_cond2 i = 1#1
/-- It holds at point 9 only, decided over the grid. -/
theorem isLast4_iff : ∀ t : Fin cfg4.N, isLast4 (grid4.coords t) ↔ t.val = 9 :=
  (by decide +kernel : ∀ t : Fin grid4.N, isLast4 (grid4.coords t) ↔ t.val = 9)

/-- The inputs are never idle. -/
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
theorem live4_4 : ∀ t : Fin cfg4.N, cfg4.idle 4 (grid4.coords t) = false := fun _ => rfl
/-- Before the last point the result window is idle and not written back; -/
theorem idle4_5 : ∀ t : Fin cfg4.N, ¬isLast4 (grid4.coords t) → cfg4.idle 5 (grid4.coords t) = true := by decide +kernel
theorem noFlush4_5 : ∀ t : Fin cfg4.N, ¬isLast4 (grid4.coords t) → (cfg4.win 5).flush t = false := by decide +kernel
/-- at the last point it is live. -/
theorem live4_5 : ∀ t : Fin cfg4.N, isLast4 (grid4.coords t) → cfg4.idle 5 (grid4.coords t) = false := by decide +kernel

/-! ## The staging memrefs at a point -/

abbrev ms4_0 (t : Fin cfg4.N) : Memref sig .tc .vmem S10000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x64 .f32 := win4_5.stage (cfg4.slots t 5)
abbrev hs4_5 (t : Fin cfg4.N) : (ms4_5 t).IsWhole := hstage4_5 ((cfg4.slots t 5).cast nbuf4_5)
/-- The accumulator: a whole scratch buffer of the kernel's own. -/
abbrev accM4 : Memref sig .tc .vmem S64x128 .f32 := Memref.whole cc4_scratch0

/-! ## What the body finds in the inputs' buffers: their blocks, fetched there or not -/

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)

/-! ## The accumulator at a point, by case -/

theorem acc4_first (c : Dev nD) (t : Fin cfg4.N) (h0 : t.val = 0) :
    acc4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

theorem acc4_next (c : Dev nD) (t : Fin cfg4.N) (h0 : t.val ≠ 0) :
    acc4 V c t.val t.isLt = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl h0
  | succ n => rfl

/-! ## One covering store through the whole buffer, read back -/

theorem zeros2_b : (![0, 0] : Fin 2 → Nat) = fun _ => 0 := funext fun a => by fin_cases a <;> rfl
theorem zeros1_b : (![0] : Fin 1 → Nat) = fun _ => 0 := funext fun a => by fin_cases a; rfl

/-- After a last store through the whole-shape rectangle a buffer reads that store's payload, whatever was stored before. -/
theorem read_writes_whole_b {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-! ## The body run, case by case, on any whole staging memrefs -/

set_option maxHeartbeats 1000000 in
/-- The first point: the accumulator, at anything, is cleared and then receives the point's term. The buffers the case does
    not touch are not mentioned (they are framed). -/
theorem run4_first (c : Dev nD) (i : grid4.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x128 .f32) (harg7 : arg7.IsWhole)
    (hc0 : isFirst4 i) (hc1 : ¬isLast4 i) (x0 : Vec F S10000x1 .i32) (x1 : Vec F S10000x128 .f32) (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (k4_pay2 x0 x1 (k4_pay1 (F := F)))) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  (try sl_unfold_words)
  rw [read_writes_whole_b _ _ zeros2_b]
  simp only [View.readAt_eq_ld, harg1.read_unread, harg2.read_unread, View.ld_unit_zero (S := S10000x1) zeros2_b,
    View.ld_unit_zero (S := S10000x128) zeros2_b, View.readCov_unit_zero (S := S64x128) _ zeros2_b]

set_option maxHeartbeats 1000000 in
/-- A middle point: the accumulator, at what the point before left, receives the point's term. -/
theorem run4_mid (c : Dev nD) (i : grid4.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x128 .f32) (harg7 : arg7.IsWhole)
    (hc0 : ¬isFirst4 i) (hc1 : ¬isLast4 i) (x0 : Vec F S10000x1 .i32) (x1 : Vec F S10000x128 .f32) (a : Vec F S64x128 .f32) (E : Set ℕ) (K : PUnit → sProp 𝕄) :
    iprop(owns (c : Thread nD τ) arg1 fullShare x0 ∗ owns (c : Thread nD τ) arg2 fullShare x1 ∗ owns (c : Thread nD τ) arg7 fullShare a
        ∗ (iprop(owns (c : Thread nD τ) arg1 fullShare x0 ∗ owns (c : Thread nD τ) arg2 fullShare x1
            ∗ owns (c : Thread nD τ) arg7 fullShare (k4_pay2 x0 x1 a)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  (try sl_unfold_words)
  rw [read_writes_whole_b _ _ zeros2_b]
  simp only [View.readAt_eq_ld, harg1.read_unread, harg2.read_unread, harg7.read_unread, View.ld_unit_zero (S := S10000x1) zeros2_b,
    View.ld_unit_zero (S := S10000x128) zeros2_b, View.ld_unit_zero (S := S64x128) zeros2_b]

set_option maxHeartbeats 1000000 in
/-- The last point: the accumulator receives the point's term, and the result block, at anything, receives the accumulator
    scaled, mapped, biased and clamped. -/
theorem run4_last (c : Dev nD) (i : grid4.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x128 .f32) (harg7 : arg7.IsWhole)
    (hc0 : ¬isFirst4 i) (hc1 : isLast4 i) (x0 : Vec F S10000x1 .i32) (x1 : Vec F S10000x128 .f32) (x2 : Vec F S64x1 .f32) (x3 : Vec F S128x64 .f32) (x4 : Vec F S64 .f32) (a : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k4_pay3 (k4_pay2 x0 x1 a) x2 x3 x4)
            ∗ owns (c : Thread nD τ) arg7 fullShare (k4_pay2 x0 x1 a)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    (try sl_unfold_words)
    rw [read_writes_whole_b _ _ zeros2_b]
    simp only [View.readAt_eq_ld, harg1.read_unread, harg2.read_unread, harg3.read_unread, harg4.read_unread, harg5.read_unread, harg7.read_unread,
      View.ld_unit_zero (S := S10000x1) zeros2_b, View.ld_unit_zero (S := S10000x128) zeros2_b, View.ld_unit_zero (S := S64x128) zeros2_b,
      View.ld_unit_zero (S := S64x1) zeros2_b, View.ld_unit_zero (S := S128x64) zeros2_b, View.ld_unit_zero (S := S64) zeros1_b,
      View.readCov_unit_zero (S := S64x128) _ zeros2_b]
  iexists _; isplitr
  swap; · iexact HS
  ipureintro
  (try sl_unfold_words)
  rw [read_writes_whole_b _ _ zeros2_b]
  simp only [View.readAt_eq_ld, harg1.read_unread, harg2.read_unread, harg7.read_unread, View.ld_unit_zero (S := S10000x1) zeros2_b,
    View.ld_unit_zero (S := S10000x128) zeros2_b, View.ld_unit_zero (S := S64x128) zeros2_b]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point. The inputs' buffers hold their blocks; the point is the first, a middle or the last one; the invariant
    hands the body the accumulator (at anything at the first point, else at what the point before left) and takes it back at
    this point's value; before the last point the result's buffer is handed back untouched, at the last point it holds the result. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = inv4 V c (t.val + 1) t.isLt from rfl, inv4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  rw [show (dat4 V c).leavesExact 4 t = owns (c : Thread nD τ) (ms4_4 t) fullShare ((dat4 V c).after 4 t) from by
    unfold Dat.leavesExact; rw [live4_4 t], after4_4]
  by_cases h0 : t.val = 0
  · have h9 : ¬t.val = 9 := by omega
    rw [Dat.leavesExact_idle (dat4 V c) 5 t (idle4_5 t (fun h => h9 ((isLast4_iff t).mp h))) (noFlush4_5 t (fun h => h9 ((isLast4_iff t).mp h)))]
    rw [acc4_first V c t h0]
    rw [Phi4_castSucc V c t, inv4_zero V c _ _ h0, PhiA4_eq]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (run4_first c (grid4.coords t) _ _ _ _ _ _ _ _ _ _ _ _ _ _ ((isFirst4_iff t).mpr h0) (fun h => h9 ((isLast4_iff t).mp h)) (iblk4 V c 0 t) (iblk4 V c 1 t) Set.univ _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat4 V c).leavesExact 5 t = owns (c : Thread nD τ) (ms4_5 t) fullShare ((dat4 V c).after 5 t) from by
        unfold Dat.leavesExact; rw [live4_5 t ((isLast4_iff t).mpr h9)], after4_5]
      unfold res4
      rw [acc4_next V c t h0]
      rw [Phi4_castSucc V c t, inv4_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run4_last c (grid4.coords t) _ _ _ _ _ _ _ _ _ _ _ _ _ _ (fun h => h0 ((isFirst4_iff t).mp h)) ((isLast4_iff t).mpr h9) (iblk4 V c 0 t) (iblk4 V c 1 t) (iblk4 V c 2 t) (iblk4 V c 3 t) (iblk4 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat4 V c) 5 t (idle4_5 t (fun h => h9 ((isLast4_iff t).mp h))) (noFlush4_5 t (fun h => h9 ((isLast4_iff t).mp h)))]
      rw [acc4_next V c t h0]
      rw [Phi4_castSucc V c t, inv4_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run4_mid c (grid4.coords t) _ _ _ _ _ _ _ _ _ _ _ _ _ _ (fun h => h0 ((isFirst4_iff t).mp h)) (fun h => h9 ((isLast4_iff t).mp h)) (iblk4 V c 0 t) (iblk4 V c 1 t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = inv4 V c 0 (Nat.zero_le _) from rfl, inv4_zero V c 0 _ rfl]
  try exact Idealize.SL.BI.Entails.refl _

/-- After any point but the first the invariant gives the region's own back: the accumulator's contents are forgotten. -/
theorem Phi4_out (c : Dev nD) (t : Fin (cfg4.N + 1)) (ht : t.val ≠ 0) : (dat4 V c).Φ t ⊢ Pipeline.ΦA spec4 c := by
  rw [show (dat4 V c).Φ t = inv4 V c t.val (Nat.le_of_lt_succ t.isLt) from rfl, inv4_pos V c _ _ ht, PhiA4_eq]
  iintro ⟨⟨HS, HR⟩, Hg⟩
  isplitr [Hg]
  · isplitl [HS]
    · iexists _; iexact HS
    iexact HR
  iexact Hg

/-- The same after the last point. -/
theorem hout4 (c : Dev nD) : (dat4 V c).Φ (Fin.last cfg4.N) ⊢ Pipeline.ΦA spec4 c :=
  Phi4_out V c _ (by rw [Fin.val_last]; have : cfg4.N = 10 := N_4; omega)

end Cert.Kernel.Hand

end
-- ==== Proof.K.Region5.lean ====
/-
  The combine step of the second layer (region 5 of the program): on each tile of 10000 sequence nodes,
  relu(½ · ((onehot(label) · M + bi) + (con · Wc + bc))).

  Per tile the body reads six blocks — the tile's label column, the tile of the "connected to" aggregate, and four
  whole arrays that never move (the label table M, its bias, the dense map Wc, its bias) — and writes the tile of the
  result once, covering it. Nothing is carried from one tile to the next, so the invariant between tiles is the
  region's entry invariant itself.
-/
import proofs.«405200_j27075473834261_2_alg».proof.Proof.Gen.Kernel.Launch
import proofs.«405200_j27075473834261_2_alg».proof.Proof.Gen.Kernel.Skeleton
import proofs.«405200_j27075473834261_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at tile `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body reads and writes -/

/-- The rectangles the body loads and stores through: each is the whole of its buffer. -/
abbrev labRect5 : Rect S10000x1 := Rect.unit (s := S10000x1) ![0, 0] S10000x1.size inb_S10000x1_S10000x1_0_0
abbrev tileRect5 : Rect S10000x128 := Rect.unit (s := S10000x128) ![0, 0] S10000x128.size inb_S10000x128_S10000x128_0_0
abbrev tabRect5 : Rect S64x128 := Rect.unit (s := S64x128) ![0, 0] S64x128.size inb_S64x128_S64x128_0_0
abbrev denseRect5 : Rect S128x128 := Rect.unit (s := S128x128) ![0, 0] S128x128.size inb_S128x128_S128x128_0_0
abbrev biasRect5 : Rect S128 := Rect.unit (s := S128) ![0] S128.size inb_S128_S128_0

/-- The result tile after the body, from the contents of the six input buffers (label column, aggregate tile, label
    table, its bias, dense map, its bias): its one store as a piece, the payload over what the six loads read. -/
def comb5 (lab : Vec F S10000x1 .i32) (con : Vec F S10000x128 .f32) (M : Vec F S64x128 .f32) (bi : Vec F S128 .f32)
    (Wc : Vec F S128x128 .f32) (bc : Vec F S128 .f32) : Vec F S10000x128 .f32 :=
  View.canon [⟨tileRect5, k5_pay1 (View.ld lab labRect5) (View.ld M tabRect5) (View.ld bi biasRect5) (View.ld con tileRect5)
    (View.ld Wc denseRect5) (View.ld bc biasRect5)⟩]

/-- Input window 0 (the tile's label column): its current staging buffer holds its block at every tile, fetched there or not,
    for any proof data whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the tile of the aggregate): its current staging buffer holds its block at every tile, fetched there or not,
    for any proof data whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the label table): its current staging buffer holds its block at every tile, fetched there or not,
    for any proof data whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (the label table's bias): its current staging buffer holds its block at every tile, fetched there or not,
    for any proof data whose array is the entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 (the dense map): its current staging buffer holds its block at every tile, fetched there or not,
    for any proof data whose array is the entry contents and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5 (the dense map's bias): its current staging buffer holds its block at every tile, fetched there or not,
    for any proof data whose array is the entry contents and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The cover and the body's triple -/

theorem zeroOff5 : (![0, 0] : Fin 2 → Nat) = fun _ => 0 := funext fun a => by
  match a with
  | ⟨0, _⟩ => rfl
  | ⟨1, _⟩ => rfl
theorem zeroOffRow5 : (![0] : Fin 1 → Nat) = fun _ => 0 := funext fun a => by
  match a with
  | ⟨0, _⟩ => rfl

/-- The one store covers the tile. -/
theorem cover5 (p : Vec F S10000x128 .f32) (y : S10000x128.Idx) :
    ∃ pc ∈ ([⟨tileRect5, p⟩] : List (View.Piece (Elt F) S10000x128 .f32)), y ∈ pc.1.set :=
  ⟨⟨tileRect5, p⟩, List.mem_singleton_self _, View.mem_set_unit_zero zeroOff5 inb_S10000x128_S10000x128_0_0 y⟩

set_option maxHeartbeats 4000000 in
/-- The body on whole staging memrefs — the six inputs' at contents `x0 … x5`, the result's at anything — runs to the
    continuation holding the inputs' as they were and the result's at `comb5` of them. -/
theorem sound_kernel5 (c : Dev nD) (E : Set ℕ) (i : grid5.Coords) (arg1 : Memref sig .tc .vmem S10000x1 .i32) (harg1 : arg1.IsWhole) (arg2 : Memref sig .tc .vmem S10000x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S10000x128 .f32) (harg7 : arg7.IsWhole)
    (x0 : Vec F S10000x1 .i32) (x1 : Vec F S10000x128 .f32) (x2 : Vec F S64x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (comb5 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-! ## The proof data -/

/-- The proof data of the combine step on core `c`: the arrays as the region finds them; after the body at tile `t`
    each input's buffer still at its block, the result's at `comb5` of the six blocks; the invariant between tiles is
    the entry invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => comb5 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = comb5 (iblk5 V c 0 t) (iblk5 V c 1 t) (iblk5 V c 2 t) (iblk5 V c 3 t) (iblk5 V c 4 t) (iblk5 V c 5 t) := by dsimp only [dat5]

/-- Each input's current staging buffer holds its block at every tile. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic tile -/

/-- What the body is called with at tile `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any tile: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every tile. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- Entering the region gives the invariant before the first tile: they are the same proposition. -/
theorem hin5 (c : Dev nD) : Pipeline.ΦA spec5 c ⊢ (dat5 V c).Φ 0 := by
  dsimp only [dat5]; exact .rfl

/-- The invariant after the last tile gives the region's exit invariant: they are the same proposition. -/
theorem hout5 (c : Dev nD) : (dat5 V c).Φ (Fin.last cfg5.N) ⊢ Pipeline.ΦA spec5 c := by
  dsimp only [dat5]; exact .rfl

end Cert.Kernel.Hand

end
-- ==== Proof.K.Region6.lean ====
/-
  Region 6 of @main: the BatchNorm STATISTICS kernel on a grid of ten row tiles.

  One input window (the [100000,128] array, tile t at point t) and two output windows ([1,128] each, block index constant
  over the grid, so each is carried in its staging buffer across the ten points and written back once, after the last).
  At point 0 the body stores zeros to both outputs and then adds the tile's column sums (resp. column sums of squares);
  at every later point it adds the tile's to what the point before left. What the two staging buffers hold after point n
  is therefore a recursion on n over the body's payloads: the column sums `sumAt6`, the column sums of squares `sqAt6`.
-/
import proofs.«405200_j27075473834261_2_alg».proof.Proof.Gen.Kernel.Launch
import proofs.«405200_j27075473834261_2_alg».proof.Proof.Gen.Kernel.Skeleton
import proofs.«405200_j27075473834261_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the two outputs hold after each point -/

/-- The running column sums after point `n`: zero plus tile 0's column sums, then plus tile `n`'s. -/
def sumAt6 (c : Dev nD) : (n : ℕ) → n < cfg6.N → Vec F S1x128 .f32
  | 0, h => k6_pay4 (iblk6 V c 0 ⟨0, h⟩) (k6_pay1 (F := F))
  | n + 1, h => k6_pay4 (iblk6 V c 0 ⟨n + 1, h⟩) (sumAt6 c n (Nat.lt_of_succ_lt h))

/-- The running column sums of squares after point `n`. -/
def sqAt6 (c : Dev nD) : (n : ℕ) → n < cfg6.N → Vec F S1x128 .f32
  | 0, h => k6_pay5 (iblk6 V c 0 ⟨0, h⟩) (k6_pay2 (F := F))
  | n + 1, h => k6_pay5 (iblk6 V c 0 ⟨n + 1, h⟩) (sqAt6 c n (Nat.lt_of_succ_lt h))

/-! ## The pipeline's proof data -/

/-- The proof data of the statistics pipeline on core `c`: the arrays as the region finds them; after the body at point `t`
    the input's buffer at its tile, the outputs' at the running sums; the invariant the launch's own (the buffers no
    window stages), untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => sumAt6 V c t.val t.isLt
    | ⟨2, _⟩ => sqAt6 V c t.val t.isLt
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- Input window 0's current staging buffer holds its tile at every point, for any proof data whose array is the entry
    contents and whose body leaves the tile in place: the window is fetched at every point, uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-! ## The body's one conditional -/

/-- The condition of the body's reset: the grid coordinate is zero. -/
abbrev cond6 (i : grid6.Coords) : Prop := (Scalar.cmpi .ne (Scalar.extui (Scalar.cmpi .eq (BitVec.ofNat 32 (i 0).val) 0#32)) 0#32) = 1#1
/-- It holds at the first point only: decided over the ten points. -/
theorem hcond6 : ∀ t : Fin cfg6.N, cond6 (grid6.coords t) ↔ t.val = 0 :=
  (by decide +kernel : ∀ t : Fin grid6.N, cond6 (grid6.coords t) ↔ t.val = 0)

/-- Each window's current staging memref at point `t`, spelled as the pipeline passes it, and its wholeness. -/
abbrev ms6_0 (t : Fin cfg6.N) : Memref sig .tc .vmem S10000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)

/-! ## The body on any staging memrefs, case by case -/

set_option maxHeartbeats 1000000 in
/-- THE FIRST POINT (the reset taken). What the body's stores leave in the two outputs' staging memrefs, as pieces (last
    first), with the proof that on whole staging memrefs, the input's at its tile `x0` and the outputs' at anything, the body
    runs to the continuation holding the input's as it was and each output's with its pieces written. -/
noncomputable def kernelRun6_A (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) :
    Σ' (L1 : List (View.Piece (Elt F) S1x128 .f32)), { L2 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc6_stats_kernel i arg1 harg1 arg2 harg2 arg3 harg3) K } := by
  refine ⟨?_, ?_, fun E K => ?run⟩
  case run =>
    simp only [cc6_stats_kernel_eq_skeleton]; unfold cc6_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- A LATER POINT (the reset not taken). The same, the outputs' staging memrefs at their running contents `xo1`, `xo2`,
    which the body reads before it covers them. -/
noncomputable def kernelRun6_B (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 : Vec F S1x128 .f32) (xo2 : Vec F S1x128 .f32) :
    Σ' (L1 : List (View.Piece (Elt F) S1x128 .f32)), { L2 : List (View.Piece (Elt F) S1x128 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc6_stats_kernel i arg1 harg1 arg2 harg2 arg3 harg3) K } := by
  refine ⟨?_, ?_, fun E K => ?run⟩
  case run =>
    simp only [cc6_stats_kernel_eq_skeleton]; unfold cc6_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

/-! ## The pieces read back: each output's staging buffer after the body, over the payloads -/

theorem hz6 : (![0, 0] : Fin 2 → Nat) = fun _ => 0 := funext fun a => by fin_cases a <;> rfl

/-- At the first point the column-sum output's pieces (the zero store, then the sum's store) cover its block; -/
theorem cover6_A_1 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) (y : S1x128.Idx) :
    ∃ pc ∈ (kernelRun6_A c i arg1 harg1 arg2 harg2 arg3 harg3 hc0 x0).1, y ∈ pc.1.set :=
  View.cover_of_tiledL (kernelRun6_A c i arg1 harg1 arg2 harg2 arg3 harg3 hc0 x0).1 S1x128.size (by sl_kernel_rfl) y
/-- and so do the sum-of-squares output's. -/
theorem cover6_A_2 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) (y : S1x128.Idx) :
    ∃ pc ∈ (kernelRun6_A c i arg1 harg1 arg2 harg2 arg3 harg3 hc0 x0).2.1, y ∈ pc.1.set :=
  View.cover_of_tiledL (kernelRun6_A c i arg1 harg1 arg2 harg2 arg3 harg3 hc0 x0).2.1 S1x128.size (by sl_kernel_rfl) y
/-- At a later point each output's one store covers its block. -/
theorem cover6_B_1 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 xo2 : Vec F S1x128 .f32) (y : S1x128.Idx) :
    ∃ pc ∈ (kernelRun6_B c i arg1 harg1 arg2 harg2 arg3 harg3 hc0 x0 xo1 xo2).1, y ∈ pc.1.set :=
  View.cover_of_tiledL (kernelRun6_B c i arg1 harg1 arg2 harg2 arg3 harg3 hc0 x0 xo1 xo2).1 S1x128.size (by sl_kernel_rfl) y
theorem cover6_B_2 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 xo2 : Vec F S1x128 .f32) (y : S1x128.Idx) :
    ∃ pc ∈ (kernelRun6_B c i arg1 harg1 arg2 harg2 arg3 harg3 hc0 x0 xo1 xo2).2.1, y ∈ pc.1.set :=
  View.cover_of_tiledL (kernelRun6_B c i arg1 harg1 arg2 harg2 arg3 harg3 hc0 x0 xo1 xo2).2.1 S1x128.size (by sl_kernel_rfl) y

/-- THE FIRST POINT's column sums: the zero block, read back, plus the tile's column sums. -/
theorem read6_A_1 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) (f : arg2.view.ty.Contents (Elt F)) :
    arg2.view.read (Elt F) (arg2.view.writes (Elt F) f (kernelRun6_A c i arg1 harg1 arg2 harg2 arg3 harg3 hc0 x0).1)
      = k6_pay4 x0 (k6_pay1 (F := F)) := by
  rw [View.read_writes_eq_canon _ _ _ (cover6_A_1 c i arg1 harg1 arg2 harg2 arg3 harg3 hc0 x0)]
  unfold kernelRun6_A
  dsimp only
  sl_unfold_words
  rw [View.canon_cons_unit_zero (S := S1x128) hz6, View.readCov_unit_zero (S := S1x128) _ hz6]
  simp only [View.readAt_eq_ld, harg1.read_unread, View.ld_unit_zero (S := S10000x128) hz6]

/-- THE FIRST POINT's column sums of squares. -/
theorem read6_A_2 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) (f : arg3.view.ty.Contents (Elt F)) :
    arg3.view.read (Elt F) (arg3.view.writes (Elt F) f (kernelRun6_A c i arg1 harg1 arg2 harg2 arg3 harg3 hc0 x0).2.1)
      = k6_pay5 x0 (k6_pay2 (F := F)) := by
  rw [View.read_writes_eq_canon _ _ _ (cover6_A_2 c i arg1 harg1 arg2 harg2 arg3 harg3 hc0 x0)]
  unfold kernelRun6_A
  dsimp only
  sl_unfold_words
  rw [View.canon_cons_unit_zero (S := S1x128) hz6, View.readCov_unit_zero (S := S1x128) _ hz6]
  simp only [View.readAt_eq_ld, harg1.read_unread, View.ld_unit_zero (S := S10000x128) hz6]

/-- A LATER POINT's column sums: what the point before left plus the tile's column sums. -/
theorem read6_B_1 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 xo2 : Vec F S1x128 .f32) (f : arg2.view.ty.Contents (Elt F)) :
    arg2.view.read (Elt F) (arg2.view.writes (Elt F) f (kernelRun6_B c i arg1 harg1 arg2 harg2 arg3 harg3 hc0 x0 xo1 xo2).1)
      = k6_pay4 x0 xo1 := by
  rw [View.read_writes_eq_canon _ _ _ (cover6_B_1 c i arg1 harg1 arg2 harg2 arg3 harg3 hc0 x0 xo1 xo2)]
  unfold kernelRun6_B
  dsimp only
  sl_unfold_words
  rw [View.canon_unit_zero (S := S1x128) hz6]
  simp only [View.readAt_eq_ld, harg1.read_unread, harg2.read_unread, View.ld_unit_zero (S := S10000x128) hz6, View.ld_unit_zero (S := S1x128) hz6]

/-- A LATER POINT's column sums of squares. -/
theorem read6_B_2 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 xo2 : Vec F S1x128 .f32) (f : arg3.view.ty.Contents (Elt F)) :
    arg3.view.read (Elt F) (arg3.view.writes (Elt F) f (kernelRun6_B c i arg1 harg1 arg2 harg2 arg3 harg3 hc0 x0 xo1 xo2).2.1)
      = k6_pay5 x0 xo2 := by
  rw [View.read_writes_eq_canon _ _ _ (cover6_B_2 c i arg1 harg1 arg2 harg2 arg3 harg3 hc0 x0 xo1 xo2)]
  unfold kernelRun6_B
  dsimp only
  sl_unfold_words
  rw [View.canon_unit_zero (S := S1x128) hz6]
  simp only [View.readAt_eq_ld, harg1.read_unread, harg3.read_unread, View.ld_unit_zero (S := S10000x128) hz6, View.ld_unit_zero (S := S1x128) hz6]

/-! ## The running sums, point by point -/

/-- The running column sums at the first point. -/
theorem sumAt6_first (c : Dev nD) (t : Fin cfg6.N) (h0 : t.val = 0) :
    sumAt6 V c t.val t.isLt = k6_pay4 (iblk6 V c 0 t) (k6_pay1 (F := F)) := by
  obtain ⟨n, hn⟩ := t
  dsimp only at h0
  subst h0
  rfl
/-- The running column sums at a later point: over what the point before left. -/
theorem sumAt6_later (c : Dev nD) (t : Fin cfg6.N) (h0 : t.val ≠ 0) :
    sumAt6 V c t.val t.isLt = k6_pay4 (iblk6 V c 0 t) (sumAt6 V c (t.val - 1) (Nat.lt_of_le_of_lt (Nat.sub_le _ _) t.isLt)) := by
  obtain ⟨n, hn⟩ := t
  cases n with
  | zero => exact absurd rfl h0
  | succ n => rfl
theorem sqAt6_first (c : Dev nD) (t : Fin cfg6.N) (h0 : t.val = 0) :
    sqAt6 V c t.val t.isLt = k6_pay5 (iblk6 V c 0 t) (k6_pay2 (F := F)) := by
  obtain ⟨n, hn⟩ := t
  dsimp only at h0
  subst h0
  rfl
theorem sqAt6_later (c : Dev nD) (t : Fin cfg6.N) (h0 : t.val ≠ 0) :
    sqAt6 V c t.val t.isLt = k6_pay5 (iblk6 V c 0 t) (sqAt6 V c (t.val - 1) (Nat.lt_of_le_of_lt (Nat.sub_le _ _) t.isLt)) := by
  obtain ⟨n, hn⟩ := t
  cases n with
  | zero => exact absurd rfl h0
  | succ n => rfl

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = sumAt6 V c t.val t.isLt := by dsimp only [dat6]
theorem after6_2 (c : Dev nD) (t : Fin cfg6.N) : (dat6 V c).after 2 t = sqAt6 V c t.val t.isLt := by dsimp only [dat6]

/-- The input's current staging buffer holds its tile at every point. -/
theorem before6_0 (c : Dev nD) (t : Fin cfg6.N) (d) : (dat6 V c).before 0 t d = iblk6 V c 0 t :=
  before6_0_of V (dat6 V c) (A_eq6 V c 0) (after6_0 V c) t d
/-- At a later point the column-sum output's staging buffer holds what the body left at the point before: it is written
    back after the last point only, the window is live and uncut. -/
theorem before6_1_later (c : Dev nD) (t : Fin cfg6.N) (h0 : t.val ≠ 0) (d) :
    (dat6 V c).before 1 t d = sumAt6 V c (t.val - 1) (Nat.lt_of_le_of_lt (Nat.sub_le _ _) t.isLt) := by
  have hN : t.val < 10 := lt_of_lt_of_eq t.isLt (show cfg6.N = 10 from N_6)
  rw [Dat.before_out_kept _ 1 rfl t h0 (Bool.eq_false_iff.mpr fun h => by have := (flush6_1 _).mp h; dsimp only at this; omega)
    (fun _ => rfl) (fun _ _ => rfl)]
  dsimp only [dat6]
/-- The same for the sum-of-squares output. -/
theorem before6_2_later (c : Dev nD) (t : Fin cfg6.N) (h0 : t.val ≠ 0) (d) :
    (dat6 V c).before 2 t d = sqAt6 V c (t.val - 1) (Nat.lt_of_le_of_lt (Nat.sub_le _ _) t.isLt) := by
  have hN : t.val < 10 := lt_of_lt_of_eq t.isLt (show cfg6.N = 10 from N_6)
  rw [Dat.before_out_kept _ 2 rfl t h0 (Bool.eq_false_iff.mpr fun h => by have := (flush6_2 _).mp h; dsimp only at this; omega)
    (fun _ => rfl) (fun _ _ => rfl)]
  dsimp only [dat6]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t))

set_option maxHeartbeats 800000 in
/-- The body at any point: the input's memref holds its tile; the point is the first or a later one; at a later one each
    output's memref holds what the point before left; so the case's run applies, and what it leaves reads as the running
    sums. The invariant passes through unread; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1, after6_2]
  by_cases h0 : t.val = 0
  · rw [sumAt6_first V c t h0, sqAt6_first V c t h0]
    iintro ⟨HΦ, Ho, ⟨%d0, H0⟩, ⟨%d1, H1⟩, ⟨%d2, H2⟩⟩
    iapply ((kernelRun6_A c (grid6.coords t) _ _ _ _ _ _ ((hcond6 t).mpr h0) (iblk6 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact read6_A_1 c _ _ _ _ _ _ _ _ _ _
    unfold owns; iexists _; isplitr
    swap; · iexact H2
    ipureintro; exact read6_A_2 c _ _ _ _ _ _ _ _ _ _
  · rw [sumAt6_later V c t h0, sqAt6_later V c t h0]
    simp only [before6_1_later V c t h0, before6_2_later V c t h0]
    iintro ⟨HΦ, Ho, ⟨%d0, H0⟩, ⟨%d1, H1⟩, ⟨%d2, H2⟩⟩
    iapply ((kernelRun6_B c (grid6.coords t) _ _ _ _ _ _ (fun h => h0 ((hcond6 t).mp h)) (iblk6 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact read6_B_1 c _ _ _ _ _ _ _ _ _ _ _ _
    unfold owns; iexists _; isplitr
    swap; · iexact H2
    ipureintro; exact read6_B_2 c _ _ _ _ _ _ _ _ _ _ _ _

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- The invariant at the first point is the class invariant. -/
theorem hin6 (c : Dev nD) : Pipeline.ΦA spec6 c ⊢ (dat6 V c).Φ 0 := by
  dsimp only [dat6]; exact Entails.refl _

/-- The invariant at the last point gives the class invariant back. -/
theorem hout6 (c : Dev nD) : (dat6 V c).Φ (Fin.last cfg6.N) ⊢ Pipeline.ΦA spec6 c := by
  dsimp only [dat6]; exact Entails.refl _

/-! ## The arrays after the run -/

/-- The input array is never written. -/
theorem arrAt6_0 (c : Dev nD) : (dat6 V c).arrAt 0 cfg6.N = V c (Pipeline.arrRef spec6 0) :=
  ((dat6 V c).arrAt_in 0 rfl _).trans (A_eq6 V c 0)

/-- The column sums after the last point, as contents of the first result array (its one block is the array). -/
abbrev colsums6 (c : Dev nD) : Buf (Elt F) ((c : Thread nD τ).loc main_v109_0) :=
  sumAt6 V c 9 (by rw [show cfg6.N = 10 from N_6]; decide)
/-- The column sums of squares after the last point, as contents of the second result array. -/
abbrev colsqs6 (c : Dev nD) : Buf (Elt F) ((c : Thread nD τ).loc main_v109_1) :=
  sqAt6 V c 9 (by rw [show cfg6.N = 10 from N_6]; decide)

/-- The one write-back of the column sums, after point 9, writes them: block (0, 0) of the [1,128] array read through zero
    offsets is the array. -/
theorem flushed6_1_eq (c : Dev nD) (t : Fin cfg6.N) (hf : (cfg6.win 1).flush t = true) :
    (dat6 V c).flushed 1 t = ((cfg6.win 1).blk t).view.read (Elt F) (colsums6 V c) := by
  have hN : cfg6.N = 10 := N_6
  have h9 : t.val = 9 := by have := (flush6_1 t).mp hf; have := t.isLt; omega
  obtain rfl : t = t6_9 := Fin.ext h9
  show (cfg6.win 1).cut (grid6.coords t6_9) ((dat6 V c).after 1 t6_9) = _
  rw [after6_1]
  have hz' : (fun a => win6_1.index t6_9 a * main_v109_0.ty.shape.size a) = fun _ => 0 := funext fun a => by fin_cases a <;> decide
  exact (Memref.read_access_unit_zero (Elt F) main_v109_0 hz' (fun a => by rw [congrFun hz' a]; simp) (colsums6 V c)).symm

/-- So the first result array ends holding the column sums after point 9. -/
theorem arrAt6_1 (c : Dev nD) : (dat6 V c).arrAt 1 cfg6.N = colsums6 V c :=
  (dat6 V c).arrAt_eq_of_cover 1 (colsums6 V c) (flushed6_1_eq V c) fun i =>
    ⟨t6_9, (flush6_1 t6_9).mpr rfl, by
      show i ∈ ((View.whole main_v109_0).slice (win6_1.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_1.index t6_9 0 * win6_1.size 0 ≤ (i 0 : Nat) ∧ (i 0 : Nat) < win6_1.index t6_9 0 * win6_1.size 0 + win6_1.xsize (grid6.coords t6_9) 0
                  rw [show win6_1.index t6_9 0 * win6_1.size 0 = 0 from by decide +kernel, show win6_1.xsize (grid6.coords t6_9) 0 = 1 from by decide +kernel]; omega
      | ⟨1, _⟩ => show win6_1.index t6_9 1 * win6_1.size 1 ≤ (i 1 : Nat) ∧ (i 1 : Nat) < win6_1.index t6_9 1 * win6_1.size 1 + win6_1.xsize (grid6.coords t6_9) 1
                  rw [show win6_1.index t6_9 1 * win6_1.size 1 = 0 from by decide +kernel, show win6_1.xsize (grid6.coords t6_9) 1 = 128 from by decide +kernel]; omega⟩

/-- The one write-back of the column sums of squares, after point 9, writes them. -/
theorem flushed6_2_eq (c : Dev nD) (t : Fin cfg6.N) (hf : (cfg6.win 2).flush t = true) :
    (dat6 V c).flushed 2 t = ((cfg6.win 2).blk t).view.read (Elt F) (colsqs6 V c) := by
  have hN : cfg6.N = 10 := N_6
  have h9 : t.val = 9 := by have := (flush6_2 t).mp hf; have := t.isLt; omega
  obtain rfl : t = t6_9 := Fin.ext h9
  show (cfg6.win 2).cut (grid6.coords t6_9) ((dat6 V c).after 2 t6_9) = _
  rw [after6_2]
  have hz' : (fun a => win6_2.index t6_9 a * main_v109_1.ty.shape.size a) = fun _ => 0 := funext fun a => by fin_cases a <;> decide
  exact (Memref.read_access_unit_zero (Elt F) main_v109_1 hz' (fun a => by rw [congrFun hz' a]; simp) (colsqs6 V c)).symm

/-- So the second result array ends holding the column sums of squares after point 9. -/
theorem arrAt6_2 (c : Dev nD) : (dat6 V c).arrAt 2 cfg6.N = colsqs6 V c :=
  (dat6 V c).arrAt_eq_of_cover 2 (colsqs6 V c) (flushed6_2_eq V c) fun i =>
    ⟨t6_9, (flush6_2 t6_9).mpr rfl, by
      show i ∈ ((View.whole main_v109_1).slice (win6_2.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_2.index t6_9 0 * win6_2.size 0 ≤ (i 0 : Nat) ∧ (i 0 : Nat) < win6_2.index t6_9 0 * win6_2.size 0 + win6_2.xsize (grid6.coords t6_9) 0
                  rw [show win6_2.index t6_9 0 * win6_2.size 0 = 0 from by decide +kernel, show win6_2.xsize (grid6.coords t6_9) 0 = 1 from by decide +kernel]; omega
      | ⟨1, _⟩ => show win6_2.index t6_9 1 * win6_2.size 1 ≤ (i 1 : Nat) ∧ (i 1 : Nat) < win6_2.index t6_9 1 * win6_2.size 1 + win6_2.xsize (grid6.coords t6_9) 1
                  rw [show win6_2.index t6_9 1 * win6_2.size 1 = 0 from by decide +kernel, show win6_2.xsize (grid6.coords t6_9) 1 = 128 from by decide +kernel]; omega⟩

end Cert.Kernel.Hand

end
-- ==== Proof.K.Region7.lean ====
/-
  The batch normalisation's APPLY step as a pipeline of ten tiles: at tile t the body reads the tile's 10000 rows of the
  [100000,128] input, the mean row, the inverse standard deviation row, the scale and the shift, and stores
  (x - mean) * invstd * g + b over the whole output tile. Nothing is carried from one tile to the next, so the invariant
  is the region's own (the core's other scoped buffers and its random-number register, untouched), and what enters the region leaves it.

  Here: each window's block at a tile read off the array the region finds, the output tile as one store covering its
  buffer, the body's triple, the proof data of the pipeline and the body obligation at every tile.
-/
import proofs.«405200_j27075473834261_2_alg».proof.Proof.Gen.Kernel.Launch
import proofs.«405200_j27075473834261_2_alg».proof.Proof.Gen.Kernel.Skeleton
import proofs.«405200_j27075473834261_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at tile t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: each buffer whole -/

/-- The whole [10000,128] tile. -/
abbrev tile7 : Rect S10000x128 := Rect.unit (s := S10000x128) ![0, 0] S10000x128.size inb_S10000x128_S10000x128_0_0
/-- The whole [1,128] row (mean, inverse standard deviation). -/
abbrev row7 : Rect S1x128 := Rect.unit (s := S1x128) ![0, 0] S1x128.size inb_S1x128_S1x128_0_0
/-- The whole [128] vector (scale, shift). -/
abbrev vec7 : Rect S128 := Rect.unit (s := S128) ![0] S128.size inb_S128_S128_0

/-! ## What the body leaves in the output tile -/

/-- The output buffer after the body, from the five inputs' buffers: its one store, the normalised tile. -/
def bnTile7 (x : Vec F S10000x128 .f32) (mean istd : Vec F S1x128 .f32) (g b : Vec F S128 .f32) : Vec F S10000x128 .f32 :=
  View.canon [⟨tile7, k7_pay1 (View.ld x tile7) (View.ld mean row7) (View.ld istd row7) (View.ld g vec7) (View.ld b vec7)⟩]

/-- The one store is the whole buffer, so it covers it. -/
theorem cover7 (p : Vec F S10000x128 .f32) (y : S10000x128.Idx) :
    ∃ pc ∈ ([⟨tile7, p⟩] : List (View.Piece (Elt F) S10000x128 .f32)), y ∈ pc.1.set :=
  View.cover_of_tiled [⟨tile7, p⟩] S10000x128.size (by rfl) y

/-! ## The pipeline's proof data -/

/-- The proof data of the apply pipeline on core c: the arrays as the region finds them; after the body at tile t each
    input's buffer at its block and the output's at the normalised tile of the input blocks; the invariant the region's
    own; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => bnTile7 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = bnTile7 (iblk7 V c 0 t) (iblk7 V c 1 t) (iblk7 V c 2 t) (iblk7 V c 3 t) (iblk7 V c 4 t) := by
  dsimp only [dat7]

/-! ## What the body finds in the inputs' buffers

The input tile is fetched at every tile; the two rows and the two vectors are fetched once, at the first tile, and the
body leaves them in place, so at every tile each input's buffer holds its block. -/

theorem finds7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7 V c 0]; try rfl) t d).trans
    (by unfold Dat.fetched Dat.blockOf iblk7; rw [A_eq7 V c 0]; try rfl)
theorem finds7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7 V c 1]; try rfl) t d).trans
    (by unfold Dat.fetched Dat.blockOf iblk7; rw [A_eq7 V c 1]; try rfl)
theorem finds7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7 V c 2]; try rfl) t d).trans
    (by unfold Dat.fetched Dat.blockOf iblk7; rw [A_eq7 V c 2]; try rfl)
theorem finds7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7 V c 3]; try rfl) t d).trans
    (by unfold Dat.fetched Dat.blockOf iblk7; rw [A_eq7 V c 3]; try rfl)
theorem finds7_4 (c : Dev nD) (t : Fin cfg7.N) (d) : (dat7 V c).before 4 t d = iblk7 V c 4 t :=
  ((dat7 V c).before_in_eq_fetched 4 rfl (fun _ => rfl) (fun _ _ _ => rfl)
    (fun t => by rw [after7_4]; unfold Dat.blockOf iblk7; rw [A_eq7 V c 4]; try rfl) t d).trans
    (by unfold Dat.fetched Dat.blockOf iblk7; rw [A_eq7 V c 4]; try rfl)

/-! ## The body's triple -/

set_option maxHeartbeats 1000000 in
/-- The body on whole staging memrefs — the five inputs' at contents x, mean, istd, g, b, the output's at anything — runs
    to the continuation holding the inputs' as they were and the output's at the normalised tile. -/
theorem sound_apply7 (c : Dev nD) (E : Set ℕ) (i : grid7.Coords)
    (arg1 : Memref sig .tc .vmem S10000x128 .f32) (harg1 : arg1.IsWhole) (arg2 : Memref sig .tc .vmem S1x128 .f32) (harg2 : arg2.IsWhole)
    (arg7 : Memref sig .tc .vmem S1x128 .f32) (harg7 : arg7.IsWhole) (arg4 : Memref sig .tc .vmem S128 .f32) (harg4 : arg4.IsWhole)
    (arg5 : Memref sig .tc .vmem S128 .f32) (harg5 : arg5.IsWhole) (arg6 : Memref sig .tc .vmem S10000x128 .f32) (harg6 : arg6.IsWhole)
    (x : Vec F S10000x128 .f32) (mean istd : Vec F S1x128 .f32) (g b : Vec F S128 .f32) (K : PUnit → sProp 𝕄) :
    iprop(owns (c : Thread nD τ) arg1 fullShare x ∗ owns (c : Thread nD τ) arg2 fullShare mean ∗ owns (c : Thread nD τ) arg7 fullShare istd
        ∗ owns (c : Thread nD τ) arg4 fullShare g ∗ owns (c : Thread nD τ) arg5 fullShare b ∗ (∃ d, owns (c : Thread nD τ) arg6 fullShare d)
        ∗ (iprop(owns (c : Thread nD τ) arg1 fullShare x ∗ owns (c : Thread nD τ) arg2 fullShare mean ∗ owns (c : Thread nD τ) arg7 fullShare istd
            ∗ owns (c : Thread nD τ) arg4 fullShare g ∗ owns (c : Thread nD τ) arg5 fullShare b
            ∗ owns (c : Thread nD τ) arg6 fullShare (bnTile7 x mean istd g b)) -∗ K ⟨⟩))
      ⊢ wp frame (wpE (defs₀ (F := F)) Variants.none c none) E
          (cc7_apply_kernel i arg1 harg1 arg2 harg2 arg7 harg7 arg4 harg4 arg5 harg5 arg6 harg6) K := by
  simp only [cc7_apply_kernel_eq_skeleton]; unfold cc7_apply_kernel_skel
  unfold owns
  iintro ⟨⟨%f1, %hf1, H1⟩, ⟨%f2, %hf2, H2⟩, ⟨%f7, %hf7, H7⟩, ⟨%f4, %hf4, H4⟩, ⟨%f5, %hf5, H5⟩, ⟨%d6, %f6, -, H6⟩, Hk⟩
  subst hf1 hf2 hf7 hf4 hf5
  sl_exec
  sl_step
  iapply Hk
  isplitl [H1]
  · iexists f1; isplitr; · ipureintro; rfl
    iexact H1
  isplitl [H2]
  · iexists f2; isplitr; · ipureintro; rfl
    iexact H2
  isplitl [H7]
  · iexists f7; isplitr; · ipureintro; rfl
    iexact H7
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7 _)

/-! ## The body obligation, at a generic tile -/

/-- What the body is called with at tile t, the windows one by one, -/
def tilePre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def tilePost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any tile: the inputs' memrefs hold their blocks, so the body's triple applies; the invariant and the
    core's debts pass through unread. -/
theorem sound_tile7 (c : Dev nD) (t : Fin cfg7.N) :
    tilePre7 V c t ⊢ wp frame (wpE (defs₀ (F := F)) Variants.none c none) Set.univ (bodyAt7 t) (fun _ => tilePost7 V c t) := by
  unfold tilePre7 tilePost7 bodyAt7
  simp only [finds7_0, finds7_1, finds7_2, finds7_3, finds7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d7, H7⟩, ⟨%d4, H4⟩, ⟨%d5, H5⟩⟩
  iapply (sound_apply7 c Set.univ _ _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H7]; · iexact H7
  isplitl [H4]; · iexact H4
  isplitl [H5]; · iexists _; iexact H5
  iintro ⟨H0, H1, H2, H7, H4, H5⟩
  isplitl [HΦ]; · iexact HΦ
  isplitl [Ho]; · iexact Ho
  isplitl [H0]; · iexact H0
  isplitl [H1]; · iexact H1
  isplitl [H2]; · iexact H2
  isplitl [H7]; · iexact H7
  isplitl [H4]; · iexact H4
  iexact H5

/-- The body at every tile. -/
theorem body_obligation7 (c : Dev nD) : BodyObligation (dat7 (F := F) V c) (defs₀ (F := F)) Variants.none () Set.univ := fun t => by
  rw [bigSep_W7, bigSep_W7]
  exact sound_tile7 V c t

/-- The invariant at the first tile is the region's own. -/
theorem hin7 (c : Dev nD) : Pipeline.ΦA spec7 c ⊢ (dat7 V c).Φ 0 := by
  dsimp only [dat7]
  iintro H; iexact H

/-- The invariant after the last tile is the region's own. -/
theorem hout7 (c : Dev nD) : (dat7 V c).Φ (Fin.last cfg7.N) ⊢ Pipeline.ΦA spec7 c := by
  dsimp only [dat7]
  iintro H; iexact H

end Cert.Kernel.Hand

end
-- ==== Proof.K.Chain.lean ====
/-
  The contents of the TensorCore's unscoped buffers between the twenty items of @main — host stretches and the eight
  pipelines of the two graph-convolution layers (aggregation, combination, column statistics, normalisation, twice) — with
  what each pipeline leaves in its output arrays named exactly: the fold of its ten tiles' write-backs over what the array
  held. The generated valuations between the items are written over unknown pipeline outputs; read at these exact outputs
  they are the valuations here. Then every pipeline's proof data at its own entry valuation, and each pipeline's exit
  valuation against its arrays: an input array is never written back, an output array holds the fold, nothing else changes.
-/
import proofs.«405200_j27075473834261_2_alg».proof.Proof.Gen.Kernel.Regions
import proofs.«405200_j27075473834261_2_alg».proof.Proof.K.Region0
import proofs.«405200_j27075473834261_2_alg».proof.Proof.K.Region1
import proofs.«405200_j27075473834261_2_alg».proof.Proof.K.Region2
import proofs.«405200_j27075473834261_2_alg».proof.Proof.K.Region3
import proofs.«405200_j27075473834261_2_alg».proof.Proof.K.Region4
import proofs.«405200_j27075473834261_2_alg».proof.Proof.K.Region5
import proofs.«405200_j27075473834261_2_alg».proof.Proof.K.Region6
import proofs.«405200_j27075473834261_2_alg».proof.Proof.K.Region7

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The buffers' contents between the items, each pipeline's outputs named

@main is twenty items: host stretches and the eight pipelines. `X J m c` is what core `c`'s unscoped buffers hold after
item J−1: a host stretch rewrites the buffers its operations write (`StableHlo.after`); a pipeline rewrites its output
arrays, each to the fold of its ten write-backs over what the array held (`Dat.arrAt … N`), and nothing else. `T J` is the
same valuation read at the TensorCore's references: what the pipeline entered after item J−1 takes as its entry contents. -/

/-- Core `c`'s unscoped buffers at launch. -/
abbrev X0 (c : Dev nD) : Valuation τ sig (Elt F) := fun b => m (c, b)
/-- After item 0, the host stretch `hostOps0`. -/
abbrev X1 (c : Dev nD) : Valuation τ sig (Elt F) := StableHlo.after hostOps0 (X0 m c)
/-- After item 1, the host stretch `hostOps0_1`. -/
abbrev X2 (c : Dev nD) : Valuation τ sig (Elt F) := StableHlo.after hostOps0_1 (X1 m c)
/-- After item 2, the host stretch `hostOps0_2`. -/
abbrev X3 (c : Dev nD) : Valuation τ sig (Elt F) := StableHlo.after hostOps0_2 (X2 m c)
/-- After item 3, the host stretch `hostOps0_3`. -/
abbrev X4 (c : Dev nD) : Valuation τ sig (Elt F) := StableHlo.after hostOps0_3 (X3 m c)
/-- After item 4, the host stretch `hostOps0_4`. -/
abbrev X5 (c : Dev nD) : Valuation τ sig (Elt F) := StableHlo.after hostOps0_4 (X4 m c)
/-- After item 5, the host stretch `hostOps0_5`: what the first layer's aggregation is entered from. -/
abbrev X6 (c : Dev nD) : Valuation τ sig (Elt F) := StableHlo.after hostOps0_5 (X5 m c)
abbrev T6 (c : Dev nD) (b : Ref sig .tc) : Buf (Elt F) ((c : Thread nD τ).loc b) := X6 m c b
/-- After item 6, the first layer's aggregation (pipeline 0): `main_v31` holds the aggregated, transformed label means. -/
def X7 (c : Dev nD) : Valuation τ sig (Elt F) :=
  Function.update (X6 m c) main_v31 ((dat0 (T6 m) c).arrAt 5 cfg0.N)
/-- After item 7, the host stretch `hostOps1`. -/
abbrev X8 (c : Dev nD) : Valuation τ sig (Elt F) := StableHlo.after hostOps1 (X7 m c)
abbrev T8 (c : Dev nD) (b : Ref sig .tc) : Buf (Elt F) ((c : Thread nD τ).loc b) := X8 m c b
/-- After item 8, the first layer's combination (pipeline 1): `main_v51` holds the combined rows. -/
def X9 (c : Dev nD) : Valuation τ sig (Elt F) :=
  Function.update (X8 m c) main_v51 ((dat1 (T8 m) c).arrAt 6 cfg1.N)
abbrev T9 (c : Dev nD) (b : Ref sig .tc) : Buf (Elt F) ((c : Thread nD τ).loc b) := X9 m c b
/-- After item 9, the first layer's column statistics (pipeline 2): `main_v52_0` the column sums, `main_v52_1` the
    column sums of squares. -/
def X10 (c : Dev nD) : Valuation τ sig (Elt F) :=
  Function.update (Function.update (X9 m c) main_v52_0 ((dat2 (T9 m) c).arrAt 1 cfg2.N)) main_v52_1 ((dat2 (T9 m) c).arrAt 2 cfg2.N)
/-- After item 10, the host stretch `hostOps3` (mean and inverse standard deviation from the statistics). -/
abbrev X11 (c : Dev nD) : Valuation τ sig (Elt F) := StableHlo.after hostOps3 (X10 m c)
abbrev T11 (c : Dev nD) (b : Ref sig .tc) : Buf (Elt F) ((c : Thread nD τ).loc b) := X11 m c b
/-- After item 11, the first layer's normalisation (pipeline 3): `main_v62` holds the normalised rows. -/
def X12 (c : Dev nD) : Valuation τ sig (Elt F) :=
  Function.update (X11 m c) main_v62 ((dat3 (T11 m) c).arrAt 5 cfg3.N)
/-- After item 12, the host stretch `hostOps4`. -/
abbrev X13 (c : Dev nD) : Valuation τ sig (Elt F) := StableHlo.after hostOps4 (X12 m c)
abbrev T13 (c : Dev nD) (b : Ref sig .tc) : Buf (Elt F) ((c : Thread nD τ).loc b) := X13 m c b
/-- After item 13, the second layer's aggregation (pipeline 4): `main_v88`. -/
def X14 (c : Dev nD) : Valuation τ sig (Elt F) :=
  Function.update (X13 m c) main_v88 ((dat4 (T13 m) c).arrAt 5 cfg4.N)
/-- After item 14, the host stretch `hostOps5`. -/
abbrev X15 (c : Dev nD) : Valuation τ sig (Elt F) := StableHlo.after hostOps5 (X14 m c)
abbrev T15 (c : Dev nD) (b : Ref sig .tc) : Buf (Elt F) ((c : Thread nD τ).loc b) := X15 m c b
/-- After item 15, the second layer's combination (pipeline 5): `main_v108`. -/
def X16 (c : Dev nD) : Valuation τ sig (Elt F) :=
  Function.update (X15 m c) main_v108 ((dat5 (T15 m) c).arrAt 6 cfg5.N)
abbrev T16 (c : Dev nD) (b : Ref sig .tc) : Buf (Elt F) ((c : Thread nD τ).loc b) := X16 m c b
/-- After item 16, the second layer's column statistics (pipeline 6): `main_v109_0`, `main_v109_1`. -/
def X17 (c : Dev nD) : Valuation τ sig (Elt F) :=
  Function.update (Function.update (X16 m c) main_v109_0 ((dat6 (T16 m) c).arrAt 1 cfg6.N)) main_v109_1 ((dat6 (T16 m) c).arrAt 2 cfg6.N)
/-- After item 17, the host stretch `hostOps7`. -/
abbrev X18 (c : Dev nD) : Valuation τ sig (Elt F) := StableHlo.after hostOps7 (X17 m c)
abbrev T18 (c : Dev nD) (b : Ref sig .tc) : Buf (Elt F) ((c : Thread nD τ).loc b) := X18 m c b
/-- After item 18, the second layer's normalisation (pipeline 7): `main_v119`, the first result. -/
def X19 (c : Dev nD) : Valuation τ sig (Elt F) :=
  Function.update (X18 m c) main_v119 ((dat7 (T18 m) c).arrAt 5 cfg7.N)
/-- After item 19, the host stretch `hostOps8`, which leaves the second result in `main_v144`: the end. -/
abbrev X20 (c : Dev nD) : Valuation τ sig (Elt F) := StableHlo.after hostOps8 (X19 m c)

abbrev T7 (c : Dev nD) (b : Ref sig .tc) : Buf (Elt F) ((c : Thread nD τ).loc b) := X7 m c b
abbrev T10 (c : Dev nD) (b : Ref sig .tc) : Buf (Elt F) ((c : Thread nD τ).loc b) := X10 m c b
abbrev T12 (c : Dev nD) (b : Ref sig .tc) : Buf (Elt F) ((c : Thread nD τ).loc b) := X12 m c b
abbrev T14 (c : Dev nD) (b : Ref sig .tc) : Buf (Elt F) ((c : Thread nD τ).loc b) := X14 m c b
abbrev T17 (c : Dev nD) (b : Ref sig .tc) : Buf (Elt F) ((c : Thread nD τ).loc b) := X17 m c b
abbrev T19 (c : Dev nD) (b : Ref sig .tc) : Buf (Elt F) ((c : Thread nD τ).loc b) := X19 m c b

/-! ## Reading a pipeline's exit valuation: at an output array, and off the outputs -/

theorem X7_out (c : Dev nD) : T7 m c main_v31 = (dat0 (T6 m) c).arrAt 5 cfg0.N := by
  unfold T7 X7; exact Function.update_self ..
theorem X7_of_ne (c : Dev nD) (r : Ref sig .tc) (h : r ≠ main_v31) : T7 m c r = T6 m c r := by
  unfold T7 X7; exact Function.update_of_ne (StableHlo.devRef_ne_of_ne h) _ _

theorem X9_out (c : Dev nD) : T9 m c main_v51 = (dat1 (T8 m) c).arrAt 6 cfg1.N := by
  unfold T9 X9; exact Function.update_self ..
theorem X9_of_ne (c : Dev nD) (r : Ref sig .tc) (h : r ≠ main_v51) : T9 m c r = T8 m c r := by
  unfold T9 X9; exact Function.update_of_ne (StableHlo.devRef_ne_of_ne h) _ _

theorem X10_out0 (c : Dev nD) : T10 m c main_v52_0 = (dat2 (T9 m) c).arrAt 1 cfg2.N := by
  unfold T10 X10
  rw [Function.update_of_ne (StableHlo.devRef_ne_of_ne (show main_v52_0 ≠ main_v52_1 by decide))]
  exact Function.update_self ..
theorem X10_out1 (c : Dev nD) : T10 m c main_v52_1 = (dat2 (T9 m) c).arrAt 2 cfg2.N := by
  unfold T10 X10; exact Function.update_self ..
theorem X10_of_ne (c : Dev nD) (r : Ref sig .tc) (h0 : r ≠ main_v52_0) (h1 : r ≠ main_v52_1) : T10 m c r = T9 m c r := by
  unfold T10 X10
  rw [Function.update_of_ne (StableHlo.devRef_ne_of_ne h1), Function.update_of_ne (StableHlo.devRef_ne_of_ne h0)]

theorem X12_out (c : Dev nD) : T12 m c main_v62 = (dat3 (T11 m) c).arrAt 5 cfg3.N := by
  unfold T12 X12; exact Function.update_self ..
theorem X12_of_ne (c : Dev nD) (r : Ref sig .tc) (h : r ≠ main_v62) : T12 m c r = T11 m c r := by
  unfold T12 X12; exact Function.update_of_ne (StableHlo.devRef_ne_of_ne h) _ _

theorem X14_out (c : Dev nD) : T14 m c main_v88 = (dat4 (T13 m) c).arrAt 5 cfg4.N := by
  unfold T14 X14; exact Function.update_self ..
theorem X14_of_ne (c : Dev nD) (r : Ref sig .tc) (h : r ≠ main_v88) : T14 m c r = T13 m c r := by
  unfold T14 X14; exact Function.update_of_ne (StableHlo.devRef_ne_of_ne h) _ _

theorem X16_out (c : Dev nD) : T16 m c main_v108 = (dat5 (T15 m) c).arrAt 6 cfg5.N := by
  unfold T16 X16; exact Function.update_self ..
theorem X16_of_ne (c : Dev nD) (r : Ref sig .tc) (h : r ≠ main_v108) : T16 m c r = T15 m c r := by
  unfold T16 X16; exact Function.update_of_ne (StableHlo.devRef_ne_of_ne h) _ _

theorem X17_out0 (c : Dev nD) : T17 m c main_v109_0 = (dat6 (T16 m) c).arrAt 1 cfg6.N := by
  unfold T17 X17
  rw [Function.update_of_ne (StableHlo.devRef_ne_of_ne (show main_v109_0 ≠ main_v109_1 by decide))]
  exact Function.update_self ..
theorem X17_out1 (c : Dev nD) : T17 m c main_v109_1 = (dat6 (T16 m) c).arrAt 2 cfg6.N := by
  unfold T17 X17; exact Function.update_self ..
theorem X17_of_ne (c : Dev nD) (r : Ref sig .tc) (h0 : r ≠ main_v109_0) (h1 : r ≠ main_v109_1) : T17 m c r = T16 m c r := by
  unfold T17 X17
  rw [Function.update_of_ne (StableHlo.devRef_ne_of_ne h1), Function.update_of_ne (StableHlo.devRef_ne_of_ne h0)]

theorem X19_out (c : Dev nD) : T19 m c main_v119 = (dat7 (T18 m) c).arrAt 5 cfg7.N := by
  unfold T19 X19; exact Function.update_self ..
theorem X19_of_ne (c : Dev nD) (r : Ref sig .tc) (h : r ≠ main_v119) : T19 m c r = T18 m c r := by
  unfold T19 X19; exact Function.update_of_ne (StableHlo.devRef_ne_of_ne h) _ _

/-! ## The generated valuations at these outputs -/

/-- What each pipeline leaves in its output arrays, as the generated valuations read it: after a pipeline's item, the
    exit valuation there. -/
def outsE : Outs (F := F) := fun J r c =>
  match J with
  | 7 => X7 m c r
  | 9 => X9 m c r
  | 10 => X10 m c r
  | 12 => X12 m c r
  | 14 => X14 m c r
  | 16 => X16 m c r
  | 17 => X17 m c r
  | 19 => X19 m c r
  | _ => X0 m c r

theorem V7_eq (c : Dev nD) : V7 m (outsE m) c = X7 m c := by
  show Function.update (X6 m c) _ (T7 m c main_v31) = X7 m c
  rw [X7_out]; rfl
theorem V8_eq (c : Dev nD) : V8 m (outsE m) c = X8 m c := congrArg (StableHlo.after hostOps1) (V7_eq m c)
theorem V9_eq (c : Dev nD) : V9 m (outsE m) c = X9 m c := by
  show Function.update (V8 m (outsE m) c) _ (T9 m c main_v51) = X9 m c
  rw [X9_out, V8_eq]; rfl
theorem V10_eq (c : Dev nD) : V10 m (outsE m) c = X10 m c := by
  show Function.update (Function.update (V9 m (outsE m) c) _ (T10 m c main_v52_0)) _ (T10 m c main_v52_1) = X10 m c
  rw [X10_out0, X10_out1, V9_eq]; rfl
theorem V11_eq (c : Dev nD) : V11 m (outsE m) c = X11 m c := congrArg (StableHlo.after hostOps3) (V10_eq m c)
theorem V12_eq (c : Dev nD) : V12 m (outsE m) c = X12 m c := by
  show Function.update (V11 m (outsE m) c) _ (T12 m c main_v62) = X12 m c
  rw [X12_out, V11_eq]; rfl
theorem V13_eq (c : Dev nD) : V13 m (outsE m) c = X13 m c := congrArg (StableHlo.after hostOps4) (V12_eq m c)
theorem V14_eq (c : Dev nD) : V14 m (outsE m) c = X14 m c := by
  show Function.update (V13 m (outsE m) c) _ (T14 m c main_v88) = X14 m c
  rw [X14_out, V13_eq]; rfl
theorem V15_eq (c : Dev nD) : V15 m (outsE m) c = X15 m c := congrArg (StableHlo.after hostOps5) (V14_eq m c)
theorem V16_eq (c : Dev nD) : V16 m (outsE m) c = X16 m c := by
  show Function.update (V15 m (outsE m) c) _ (T16 m c main_v108) = X16 m c
  rw [X16_out, V15_eq]; rfl
theorem V17_eq (c : Dev nD) : V17 m (outsE m) c = X17 m c := by
  show Function.update (Function.update (V16 m (outsE m) c) _ (T17 m c main_v109_0)) _ (T17 m c main_v109_1) = X17 m c
  rw [X17_out0, X17_out1, V16_eq]; rfl
theorem V18_eq (c : Dev nD) : V18 m (outsE m) c = X18 m c := congrArg (StableHlo.after hostOps7) (V17_eq m c)
theorem V19_eq (c : Dev nD) : V19 m (outsE m) c = X19 m c := by
  show Function.update (V18 m (outsE m) c) _ (T19 m c main_v119) = X19 m c
  rw [X19_out, V18_eq]; rfl
theorem V20_eq (c : Dev nD) : V20 m (outsE m) c = X20 m c := congrArg (StableHlo.after hostOps8) (V19_eq m c)

/-! ## Every pipeline's proof data, each at its entry valuation -/

/-- A literal match, so that the family at a numeral reduces to the pipeline's own proof data. -/
def pdats : (p : Fin 8) → (c : Dev nD) → Dat τ (Elt F) Unit ℕ (UR sig nD τ) ℕ (cfgs p) c
  | ⟨0, _⟩ => fun c => dat0 (T6 m) c
  | ⟨1, _⟩ => fun c => dat1 (T8 m) c
  | ⟨2, _⟩ => fun c => dat2 (T9 m) c
  | ⟨3, _⟩ => fun c => dat3 (T11 m) c
  | ⟨4, _⟩ => fun c => dat4 (T13 m) c
  | ⟨5, _⟩ => fun c => dat5 (T15 m) c
  | ⟨6, _⟩ => fun c => dat6 (T16 m) c
  | ⟨7, _⟩ => fun c => dat7 (T18 m) c

/-! ## A pipeline's exit valuation against its arrays -/

/-- Pipeline 0's windows, one by one. -/
theorem fin_W0 (w : Fin cfg0.W) : w = 0 ∨ w = 1 ∨ w = 2 ∨ w = 3 ∨ w = 4 ∨ w = 5 := by revert w; decide
/-- At pipeline 0's exit each of its arrays holds what the pipeline leaves: an input array what it held at entry (it is
    never written back), an output array the fold of its write-backs. -/
theorem hF0 (c : Dev nD) (w : Fin cfg0.W) : (dat0 (T6 m) c).arrAt w cfg0.N = T7 m c (Pipeline.arrRef spec0 w) := by
  rcases fin_W0 w with rfl | rfl | rfl | rfl | rfl | rfl
  · exact ((dat0 (T6 m) c).arrAt_in 0 rfl _).trans ((A_eq0 (T6 m) c 0).trans (X7_of_ne m c (Pipeline.arrRef spec0 0) (by decide)).symm)
  · exact ((dat0 (T6 m) c).arrAt_in 1 rfl _).trans ((A_eq0 (T6 m) c 1).trans (X7_of_ne m c (Pipeline.arrRef spec0 1) (by decide)).symm)
  · exact ((dat0 (T6 m) c).arrAt_in 2 rfl _).trans ((A_eq0 (T6 m) c 2).trans (X7_of_ne m c (Pipeline.arrRef spec0 2) (by decide)).symm)
  · exact ((dat0 (T6 m) c).arrAt_in 3 rfl _).trans ((A_eq0 (T6 m) c 3).trans (X7_of_ne m c (Pipeline.arrRef spec0 3) (by decide)).symm)
  · exact ((dat0 (T6 m) c).arrAt_in 4 rfl _).trans ((A_eq0 (T6 m) c 4).trans (X7_of_ne m c (Pipeline.arrRef spec0 4) (by decide)).symm)
  · exact (X7_out m c).symm
/-- Every buffer that is none of pipeline 0's arrays holds at its exit what it held at its entry. -/
theorem hrest0 (c : Dev nD) : ∀ b, b ∉ Finset.univ.image (Pipeline.arrRef spec0) → T7 m c b = T6 m c b :=
  fun b hb => X7_of_ne m c b
    (fun e => hb (Finset.mem_image.mpr ⟨5, Finset.mem_univ _, e.symm⟩))

/-- Pipeline 1's windows, one by one. -/
theorem fin_W1 (w : Fin cfg1.W) : w = 0 ∨ w = 1 ∨ w = 2 ∨ w = 3 ∨ w = 4 ∨ w = 5 ∨ w = 6 := by revert w; decide
/-- At pipeline 1's exit each of its arrays holds what the pipeline leaves: an input array what it held at entry (it is
    never written back), an output array the fold of its write-backs. -/
theorem hF1 (c : Dev nD) (w : Fin cfg1.W) : (dat1 (T8 m) c).arrAt w cfg1.N = T9 m c (Pipeline.arrRef spec1 w) := by
  rcases fin_W1 w with rfl | rfl | rfl | rfl | rfl | rfl | rfl
  · exact ((dat1 (T8 m) c).arrAt_in 0 rfl _).trans ((A_eq1 (T8 m) c 0).trans (X9_of_ne m c (Pipeline.arrRef spec1 0) (by decide)).symm)
  · exact ((dat1 (T8 m) c).arrAt_in 1 rfl _).trans ((A_eq1 (T8 m) c 1).trans (X9_of_ne m c (Pipeline.arrRef spec1 1) (by decide)).symm)
  · exact ((dat1 (T8 m) c).arrAt_in 2 rfl _).trans ((A_eq1 (T8 m) c 2).trans (X9_of_ne m c (Pipeline.arrRef spec1 2) (by decide)).symm)
  · exact ((dat1 (T8 m) c).arrAt_in 3 rfl _).trans ((A_eq1 (T8 m) c 3).trans (X9_of_ne m c (Pipeline.arrRef spec1 3) (by decide)).symm)
  · exact ((dat1 (T8 m) c).arrAt_in 4 rfl _).trans ((A_eq1 (T8 m) c 4).trans (X9_of_ne m c (Pipeline.arrRef spec1 4) (by decide)).symm)
  · exact ((dat1 (T8 m) c).arrAt_in 5 rfl _).trans ((A_eq1 (T8 m) c 5).trans (X9_of_ne m c (Pipeline.arrRef spec1 5) (by decide)).symm)
  · exact (X9_out m c).symm
/-- Every buffer that is none of pipeline 1's arrays holds at its exit what it held at its entry. -/
theorem hrest1 (c : Dev nD) : ∀ b, b ∉ Finset.univ.image (Pipeline.arrRef spec1) → T9 m c b = T8 m c b :=
  fun b hb => X9_of_ne m c b
    (fun e => hb (Finset.mem_image.mpr ⟨6, Finset.mem_univ _, e.symm⟩))

/-- Pipeline 2's windows, one by one. -/
theorem fin_W2 (w : Fin cfg2.W) : w = 0 ∨ w = 1 ∨ w = 2 := by revert w; decide
/-- At pipeline 2's exit each of its arrays holds what the pipeline leaves: an input array what it held at entry (it is
    never written back), an output array the fold of its write-backs. -/
theorem hF2 (c : Dev nD) (w : Fin cfg2.W) : (dat2 (T9 m) c).arrAt w cfg2.N = T10 m c (Pipeline.arrRef spec2 w) := by
  rcases fin_W2 w with rfl | rfl | rfl
  · exact ((dat2 (T9 m) c).arrAt_in 0 rfl _).trans ((A_eq2 (T9 m) c 0).trans (X10_of_ne m c (Pipeline.arrRef spec2 0) (by decide) (by decide)).symm)
  · exact (X10_out0 m c).symm
  · exact (X10_out1 m c).symm
/-- Every buffer that is none of pipeline 2's arrays holds at its exit what it held at its entry. -/
theorem hrest2 (c : Dev nD) : ∀ b, b ∉ Finset.univ.image (Pipeline.arrRef spec2) → T10 m c b = T9 m c b :=
  fun b hb => X10_of_ne m c b
    (fun e => hb (Finset.mem_image.mpr ⟨1, Finset.mem_univ _, e.symm⟩))
    (fun e => hb (Finset.mem_image.mpr ⟨2, Finset.mem_univ _, e.symm⟩))

/-- Pipeline 3's windows, one by one. -/
theorem fin_W3 (w : Fin cfg3.W) : w = 0 ∨ w = 1 ∨ w = 2 ∨ w = 3 ∨ w = 4 ∨ w = 5 := by revert w; decide
/-- At pipeline 3's exit each of its arrays holds what the pipeline leaves: an input array what it held at entry (it is
    never written back), an output array the fold of its write-backs. -/
theorem hF3 (c : Dev nD) (w : Fin cfg3.W) : (dat3 (T11 m) c).arrAt w cfg3.N = T12 m c (Pipeline.arrRef spec3 w) := by
  rcases fin_W3 w with rfl | rfl | rfl | rfl | rfl | rfl
  · exact ((dat3 (T11 m) c).arrAt_in 0 rfl _).trans ((A_eq3 (T11 m) c 0).trans (X12_of_ne m c (Pipeline.arrRef spec3 0) (by decide)).symm)
  · exact ((dat3 (T11 m) c).arrAt_in 1 rfl _).trans ((A_eq3 (T11 m) c 1).trans (X12_of_ne m c (Pipeline.arrRef spec3 1) (by decide)).symm)
  · exact ((dat3 (T11 m) c).arrAt_in 2 rfl _).trans ((A_eq3 (T11 m) c 2).trans (X12_of_ne m c (Pipeline.arrRef spec3 2) (by decide)).symm)
  · exact ((dat3 (T11 m) c).arrAt_in 3 rfl _).trans ((A_eq3 (T11 m) c 3).trans (X12_of_ne m c (Pipeline.arrRef spec3 3) (by decide)).symm)
  · exact ((dat3 (T11 m) c).arrAt_in 4 rfl _).trans ((A_eq3 (T11 m) c 4).trans (X12_of_ne m c (Pipeline.arrRef spec3 4) (by decide)).symm)
  · exact (X12_out m c).symm
/-- Every buffer that is none of pipeline 3's arrays holds at its exit what it held at its entry. -/
theorem hrest3 (c : Dev nD) : ∀ b, b ∉ Finset.univ.image (Pipeline.arrRef spec3) → T12 m c b = T11 m c b :=
  fun b hb => X12_of_ne m c b
    (fun e => hb (Finset.mem_image.mpr ⟨5, Finset.mem_univ _, e.symm⟩))

/-- Pipeline 4's windows, one by one. -/
theorem fin_W4 (w : Fin cfg4.W) : w = 0 ∨ w = 1 ∨ w = 2 ∨ w = 3 ∨ w = 4 ∨ w = 5 := by revert w; decide
/-- At pipeline 4's exit each of its arrays holds what the pipeline leaves: an input array what it held at entry (it is
    never written back), an output array the fold of its write-backs. -/
theorem hF4 (c : Dev nD) (w : Fin cfg4.W) : (dat4 (T13 m) c).arrAt w cfg4.N = T14 m c (Pipeline.arrRef spec4 w) := by
  rcases fin_W4 w with rfl | rfl | rfl | rfl | rfl | rfl
  · exact ((dat4 (T13 m) c).arrAt_in 0 rfl _).trans ((A_eq4 (T13 m) c 0).trans (X14_of_ne m c (Pipeline.arrRef spec4 0) (by decide)).symm)
  · exact ((dat4 (T13 m) c).arrAt_in 1 rfl _).trans ((A_eq4 (T13 m) c 1).trans (X14_of_ne m c (Pipeline.arrRef spec4 1) (by decide)).symm)
  · exact ((dat4 (T13 m) c).arrAt_in 2 rfl _).trans ((A_eq4 (T13 m) c 2).trans (X14_of_ne m c (Pipeline.arrRef spec4 2) (by decide)).symm)
  · exact ((dat4 (T13 m) c).arrAt_in 3 rfl _).trans ((A_eq4 (T13 m) c 3).trans (X14_of_ne m c (Pipeline.arrRef spec4 3) (by decide)).symm)
  · exact ((dat4 (T13 m) c).arrAt_in 4 rfl _).trans ((A_eq4 (T13 m) c 4).trans (X14_of_ne m c (Pipeline.arrRef spec4 4) (by decide)).symm)
  · exact (X14_out m c).symm
/-- Every buffer that is none of pipeline 4's arrays holds at its exit what it held at its entry. -/
theorem hrest4 (c : Dev nD) : ∀ b, b ∉ Finset.univ.image (Pipeline.arrRef spec4) → T14 m c b = T13 m c b :=
  fun b hb => X14_of_ne m c b
    (fun e => hb (Finset.mem_image.mpr ⟨5, Finset.mem_univ _, e.symm⟩))

/-- Pipeline 5's windows, one by one. -/
theorem fin_W5 (w : Fin cfg5.W) : w = 0 ∨ w = 1 ∨ w = 2 ∨ w = 3 ∨ w = 4 ∨ w = 5 ∨ w = 6 := by revert w; decide
/-- At pipeline 5's exit each of its arrays holds what the pipeline leaves: an input array what it held at entry (it is
    never written back), an output array the fold of its write-backs. -/
theorem hF5 (c : Dev nD) (w : Fin cfg5.W) : (dat5 (T15 m) c).arrAt w cfg5.N = T16 m c (Pipeline.arrRef spec5 w) := by
  rcases fin_W5 w with rfl | rfl | rfl | rfl | rfl | rfl | rfl
  · exact ((dat5 (T15 m) c).arrAt_in 0 rfl _).trans ((A_eq5 (T15 m) c 0).trans (X16_of_ne m c (Pipeline.arrRef spec5 0) (by decide)).symm)
  · exact ((dat5 (T15 m) c).arrAt_in 1 rfl _).trans ((A_eq5 (T15 m) c 1).trans (X16_of_ne m c (Pipeline.arrRef spec5 1) (by decide)).symm)
  · exact ((dat5 (T15 m) c).arrAt_in 2 rfl _).trans ((A_eq5 (T15 m) c 2).trans (X16_of_ne m c (Pipeline.arrRef spec5 2) (by decide)).symm)
  · exact ((dat5 (T15 m) c).arrAt_in 3 rfl _).trans ((A_eq5 (T15 m) c 3).trans (X16_of_ne m c (Pipeline.arrRef spec5 3) (by decide)).symm)
  · exact ((dat5 (T15 m) c).arrAt_in 4 rfl _).trans ((A_eq5 (T15 m) c 4).trans (X16_of_ne m c (Pipeline.arrRef spec5 4) (by decide)).symm)
  · exact ((dat5 (T15 m) c).arrAt_in 5 rfl _).trans ((A_eq5 (T15 m) c 5).trans (X16_of_ne m c (Pipeline.arrRef spec5 5) (by decide)).symm)
  · exact (X16_out m c).symm
/-- Every buffer that is none of pipeline 5's arrays holds at its exit what it held at its entry. -/
theorem hrest5 (c : Dev nD) : ∀ b, b ∉ Finset.univ.image (Pipeline.arrRef spec5) → T16 m c b = T15 m c b :=
  fun b hb => X16_of_ne m c b
    (fun e => hb (Finset.mem_image.mpr ⟨6, Finset.mem_univ _, e.symm⟩))

/-- Pipeline 6's windows, one by one. -/
theorem fin_W6 (w : Fin cfg6.W) : w = 0 ∨ w = 1 ∨ w = 2 := by revert w; decide
/-- At pipeline 6's exit each of its arrays holds what the pipeline leaves: an input array what it held at entry (it is
    never written back), an output array the fold of its write-backs. -/
theorem hF6 (c : Dev nD) (w : Fin cfg6.W) : (dat6 (T16 m) c).arrAt w cfg6.N = T17 m c (Pipeline.arrRef spec6 w) := by
  rcases fin_W6 w with rfl | rfl | rfl
  · exact ((dat6 (T16 m) c).arrAt_in 0 rfl _).trans ((A_eq6 (T16 m) c 0).trans (X17_of_ne m c (Pipeline.arrRef spec6 0) (by decide) (by decide)).symm)
  · exact (X17_out0 m c).symm
  · exact (X17_out1 m c).symm
/-- Every buffer that is none of pipeline 6's arrays holds at its exit what it held at its entry. -/
theorem hrest6 (c : Dev nD) : ∀ b, b ∉ Finset.univ.image (Pipeline.arrRef spec6) → T17 m c b = T16 m c b :=
  fun b hb => X17_of_ne m c b
    (fun e => hb (Finset.mem_image.mpr ⟨1, Finset.mem_univ _, e.symm⟩))
    (fun e => hb (Finset.mem_image.mpr ⟨2, Finset.mem_univ _, e.symm⟩))

/-- Pipeline 7's windows, one by one. -/
theorem fin_W7 (w : Fin cfg7.W) : w = 0 ∨ w = 1 ∨ w = 2 ∨ w = 3 ∨ w = 4 ∨ w = 5 := by revert w; decide
/-- At pipeline 7's exit each of its arrays holds what the pipeline leaves: an input array what it held at entry (it is
    never written back), an output array the fold of its write-backs. -/
theorem hF7 (c : Dev nD) (w : Fin cfg7.W) : (dat7 (T18 m) c).arrAt w cfg7.N = T19 m c (Pipeline.arrRef spec7 w) := by
  rcases fin_W7 w with rfl | rfl | rfl | rfl | rfl | rfl
  · exact ((dat7 (T18 m) c).arrAt_in 0 rfl _).trans ((A_eq7 (T18 m) c 0).trans (X19_of_ne m c (Pipeline.arrRef spec7 0) (by decide)).symm)
  · exact ((dat7 (T18 m) c).arrAt_in 1 rfl _).trans ((A_eq7 (T18 m) c 1).trans (X19_of_ne m c (Pipeline.arrRef spec7 1) (by decide)).symm)
  · exact ((dat7 (T18 m) c).arrAt_in 2 rfl _).trans ((A_eq7 (T18 m) c 2).trans (X19_of_ne m c (Pipeline.arrRef spec7 2) (by decide)).symm)
  · exact ((dat7 (T18 m) c).arrAt_in 3 rfl _).trans ((A_eq7 (T18 m) c 3).trans (X19_of_ne m c (Pipeline.arrRef spec7 3) (by decide)).symm)
  · exact ((dat7 (T18 m) c).arrAt_in 4 rfl _).trans ((A_eq7 (T18 m) c 4).trans (X19_of_ne m c (Pipeline.arrRef spec7 4) (by decide)).symm)
  · exact (X19_out m c).symm
/-- Every buffer that is none of pipeline 7's arrays holds at its exit what it held at its entry. -/
theorem hrest7 (c : Dev nD) : ∀ b, b ∉ Finset.univ.image (Pipeline.arrRef spec7) → T19 m c b = T18 m c b :=
  fun b hb => X19_of_ne m c b
    (fun e => hb (Finset.mem_image.mpr ⟨5, Finset.mem_univ _, e.symm⟩))

/-! ## The two results at the end -/

/-- The first result is what the second layer's normalisation left: the last host stretch does not write it. -/
theorem X20_main_v119 (c : Dev nD) : X20 m c main_v119 = (dat7 (T18 m) c).arrAt 5 cfg7.N :=
  (StableHlo.after_of_writes_sub hostOps8 _ hostOps8_writes (by decide)).trans (X19_out m c)

end Cert.Kernel.Hand

end
-- ==== Proof.K.Records.lean ====
/-
  The eight pipelines as segments of @main over one thread state: every unscoped buffer of the core at the valuation of the
  item boundary, the generator register at some state, nothing owed. A pipeline's arrays are split out of the unscoped
  buffers when it is entered and put back, at the exit valuation, when it is left.
-/
import proofs.«405200_j27075473834261_2_alg».proof.Proof.K.Chain
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## What the thread state carries beside the buffers -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a pipeline's invariant
    takes it in and gives it back) and the core owing nothing. -/
abbrev R (c : Dev nD) : sProp 𝕄 := iprop((∃ r, prngReg c r) ∗ ∃ W, owes (c : Thread nD τ) (0 : CellTallies nD τ sig Unit) W)

/-! ## The eight pipelines as segments of @main -/

-- a library lemma stated over the pinned configuration unifies with the printed one only when unification may unfold
-- plain definitions in a metavariable's type
set_option backward.isDefEq.respectTransparency.types false in
/-- Pipeline 0, the first layer's aggregation, over the thread state: entered from every unscoped buffer at `X6`, left at `X7`. Its arrays are
    split out of the unscoped buffers at entry and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T6 m) c).loose
  hwaits := Pipeline.hwaits_of_owed_zero _ _ _ _ L lv 0 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec0 c (T6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T6 m c) fun w => A_eq0 (T6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (T6 m) c)
    unfold Pipeline.ΦA
    iintro ⟨Hp, -, Hr⟩
    isplitl [Hr]; · iexact Hr
    iexact Hp
  hout c := by
    rw [Pipeline.ownSems0_none]
    refine (hout0 (T6 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T6 m c) (T7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 1, the first layer's combination, over the thread state: entered from every unscoped buffer at `X8`, left at `X9`. Its arrays are
    split out of the unscoped buffers at entry and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T8 m) c).loose
  hwaits := Pipeline.hwaits_of_owed_zero _ _ _ _ L lv 1 fun _ _ => rfl
  pre c := iprop(StableHlo.held (c : Thread nD τ) (Pipeline.ucRefs τ sig) (X8 m c) ∗ R c)
  post c := iprop(StableHlo.held (c : Thread nD τ) (Pipeline.ucRefs τ sig) (X9 m c) ∗ R c)
  X c := iprop(∃ r, prngReg c r)
  Y c := iprop(∃ r, prngReg c r)
  Z c := Pipeline.unscopedRest (Ix := Unit) (Name := ℕ) (U := UR sig nD τ) (Lvl := ℕ) spec1 c (T8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T8 m c) fun w => A_eq1 (T8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (T8 m) c)
    unfold Pipeline.ΦA
    iintro ⟨Hp, -, Hr⟩
    isplitl [Hr]; · iexact Hr
    iexact Hp
  hout c := by
    rw [Pipeline.ownSems0_none]
    refine (hout1 (T8 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T8 m c) (T9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 2, the first layer's column statistics, over the thread state: entered from every unscoped buffer at `X9`, left at `X10`. Its arrays are
    split out of the unscoped buffers at entry and put back at the exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T9 m) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (T9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T9 m c) fun w => A_eq2 (T9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (T9 m) c)
    unfold Pipeline.ΦA
    iintro ⟨Hp, -, Hr⟩
    isplitl [Hr]; · iexact Hr
    iexact Hp
  hout c := by
    rw [Pipeline.ownSems0_none]
    refine (hout2 (T9 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T9 m c) (T10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 3, the first layer's normalisation, over the thread state: entered from every unscoped buffer at `X11`, left at `X12`. Its arrays are
    split out of the unscoped buffers at entry and put back at the exit contents; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T11 m) c).loose
  hwaits := Pipeline.hwaits_of_owed_zero _ _ _ _ L lv 3 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec3 c (T11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T11 m c) fun w => A_eq3 (T11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec3 c).trans (hin3 (T11 m) c)
    unfold Pipeline.ΦA
    iintro ⟨Hp, -, Hr⟩
    isplitl [Hr]; · iexact Hr
    iexact Hp
  hout c := by
    rw [Pipeline.ownSems0_none]
    refine (hout3 (T11 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T11 m c) (T12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 4, the second layer's aggregation, over the thread state: entered from every unscoped buffer at `X13`, left at `X14`. Its arrays are
    split out of the unscoped buffers at entry and put back at the exit contents; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T13 m) c).loose
  hwaits := Pipeline.hwaits_of_owed_zero _ _ _ _ L lv 4 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec4 c (T13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T13 m c) fun w => A_eq4 (T13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec4 c).trans (hin4 (T13 m) c)
    unfold Pipeline.ΦA
    iintro ⟨Hp, -, Hr⟩
    isplitl [Hr]; · iexact Hr
    iexact Hp
  hout c := by
    rw [Pipeline.ownSems0_none]
    refine (hout4 (T13 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T13 m c) (T14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 5, the second layer's combination, over the thread state: entered from every unscoped buffer at `X15`, left at `X16`. Its arrays are
    split out of the unscoped buffers at entry and put back at the exit contents; the generator register goes into the
    region's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T15 m) c).loose
  hwaits := Pipeline.hwaits_of_owed_zero _ _ _ _ L lv 5 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec5 c (T15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T15 m c) fun w => A_eq5 (T15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec5 c).trans (hin5 (T15 m) c)
    unfold Pipeline.ΦA
    iintro ⟨Hp, -, Hr⟩
    isplitl [Hr]; · iexact Hr
    iexact Hp
  hout c := by
    rw [Pipeline.ownSems0_none]
    refine (hout5 (T15 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T15 m c) (T16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 6, the second layer's column statistics, over the thread state: entered from every unscoped buffer at `X16`, left at `X17`. Its arrays are
    split out of the unscoped buffers at entry and put back at the exit contents; the generator register goes into the
    region's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T16 m) c).loose
  hwaits := Pipeline.hwaits_of_owed_zero _ _ _ _ L lv 6 fun _ _ => rfl
  pre c := iprop(StableHlo.held (c : Thread nD τ) (Pipeline.ucRefs τ sig) (X16 m c) ∗ R c)
  post c := iprop(StableHlo.held (c : Thread nD τ) (Pipeline.ucRefs τ sig) (X17 m c) ∗ R c)
  X c := iprop(∃ r, prngReg c r)
  Y c := iprop(∃ r, prngReg c r)
  Z c := Pipeline.unscopedRest (Ix := Unit) (Name := ℕ) (U := UR sig nD τ) (Lvl := ℕ) spec6 c (T16 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T16 m c) fun w => A_eq6 (T16 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec6 c).trans (hin6 (T16 m) c)
    unfold Pipeline.ΦA
    iintro ⟨Hp, -, Hr⟩
    isplitl [Hr]; · iexact Hr
    iexact Hp
  hout c := by
    rw [Pipeline.ownSems0_none]
    refine (hout6 (T16 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T16 m c) (T17 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 7, the second layer's normalisation, over the thread state: entered from every unscoped buffer at `X18`, left at `X19`. Its arrays are
    split out of the unscoped buffers at entry and put back at the exit contents; the generator register goes into the
    region's invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T18 m) c).loose
  hwaits := Pipeline.hwaits_of_owed_zero _ _ _ _ L lv 7 fun _ _ => rfl
  pre c := iprop(StableHlo.held (c : Thread nD τ) (Pipeline.ucRefs τ sig) (X18 m c) ∗ R c)
  post c := iprop(StableHlo.held (c : Thread nD τ) (Pipeline.ucRefs τ sig) (X19 m c) ∗ R c)
  X c := iprop(∃ r, prngReg c r)
  Y c := iprop(∃ r, prngReg c r)
  Z c := Pipeline.unscopedRest (Ix := Unit) (Name := ℕ) (U := UR sig nD τ) (Lvl := ℕ) spec7 c (T18 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T18 m c) fun w => A_eq7 (T18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec7 c).trans (hin7 (T18 m) c)
    unfold Pipeline.ΦA
    iintro ⟨Hp, -, Hr⟩
    isplitl [Hr]; · iexact Hr
    iexact Hp
  hout c := by
    rw [Pipeline.ownSems0_none]
    refine (hout7 (T18 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T18 m c) (T19 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KI.Region0.lean ====
import proofs.«405200_j27075473834261_2_alg».proof.Proof.Gen.KernelIdeal.Launch
import proofs.«405200_j27075473834261_2_alg».proof.Proof.Gen.KernelIdeal.Skeleton
import proofs.«405200_j27075473834261_2_alg».proof.Proof.Gen.KernelIdeal.Points
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

/-!
  The label-side aggregate of the first layer ("belongs to"), as one pipelined region of ten points.

  Every point adds to a 64 x 128 accumulator the product of the transposed indicator matrix of its 10000 labels with its
  10000 rows; the first point clears the accumulator before adding, and the last point, after adding, scales the
  accumulator row by row, applies the dense map and the bias, clamps at zero and stores the result block, which is
  written back once. Here: what the accumulator holds after each point (a recursion over the points), the region's
  invariant (the accumulator at that value between points), the body's run in its three cases and the region's
  proof data.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the accumulator -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after point `n`: the point's term (the transposed indicator matrix of the point's labels
    times the point's rows) added to what the point before left, and at the first point to the cleared accumulator. -/
def acc0 (c : Dev nD) : (n : ℕ) → n < cfg0.N → Vec F S64x128 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩) (acc0 c n (Nat.lt_of_succ_lt hn))

theorem acc0_zero (c : Dev nD) (hn : 0 < cfg0.N) :
    acc0 V c 0 hn = k0_pay2 (iblk0 V c 0 ⟨0, hn⟩) (iblk0 V c 1 ⟨0, hn⟩) (k0_pay1 (F := F)) := rfl

theorem acc0_succ (c : Dev nD) (n : ℕ) (hn : n + 1 < cfg0.N) :
    acc0 V c (n + 1) hn = k0_pay2 (iblk0 V c 0 ⟨n + 1, hn⟩) (iblk0 V c 1 ⟨n + 1, hn⟩) (acc0 V c n (Nat.lt_of_succ_lt hn)) := rfl

/-- The result block the last point stores: the accumulator scaled, mapped, biased and clamped. At the other points the
    window is idle and this value is never consulted. -/
def res0 (c : Dev nD) (t : Fin cfg0.N) : Vec F S64x128 .f32 :=
  k0_pay3 (acc0 V c t.val t.isLt) (iblk0 V c 2 t) (iblk0 V c 3 t) (iblk0 V c 4 t)

/-! ## The invariant between points -/

/-- Before the first point the region's own invariant (every scratch buffer at anything); after point `n` the accumulator at
    `acc0 n`, the other scratch buffers unopened and the generator register at some state. -/
def inv0 (c : Dev nD) : (n : ℕ) → n ≤ cfg0.N → sProp 𝕄
  | 0, _ => Pipeline.ΦA spec0 c
  | n + 1, hn => iprop(iprop(owns (c : Thread nD τ) (Memref.whole cc0_scratch0) fullShare (acc0 V c n hn)
      ∗ Pipeline.scopedRestBut (Ix := Unit) (Name := ℕ) (U := UR sig nD τ) (Lvl := ℕ) (Val := Elt F) spec0 c [cc0_scratch0]) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) (Memref.whole cc0_scratch0) fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem inv0_pos (c : Dev nD) (n : ℕ) (h : n ≤ cfg0.N) (hz : n ≠ 0) :
    inv0 V c n h = iprop(iprop(owns (c : Thread nD τ) (Memref.whole cc0_scratch0) fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The region's own invariant with the accumulator's buffer split off the other scratch buffers. -/
theorem PhiA0_eq (c : Dev nD) :
    (Pipeline.ΦA spec0 c : sProp 𝕄)
      = iprop(iprop((∃ d, owns (c : Thread nD τ) (Memref.whole cc0_scratch0) fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]

/-! ## The region's proof data -/

/-- The arrays as the region finds them; after the body at point `t` each input's buffer at its block, the result's at
    `res0`; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => res0 V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = res0 V c t := by dsimp only [dat0]

theorem Phi0_castSucc (c : Dev nD) (t : Fin cfg0.N) :
    (dat0 V c).Φ t.castSucc = inv0 V c t.val (Nat.le_of_lt t.isLt) := by
  dsimp only [dat0]; simp only [Fin.coe_castSucc]

/-! ## The body's two conditions and where the result window is idle -/

/-- "This is the first point": the condition of the body's first conditional, from the grid coordinates. -/
abbrev isFirst0 (i : grid0.Coords) : Prop := (Scalar.cmpi .ne (Scalar.extui (Scalar.cmpi .eq (BitVec.ofNat 32 (i 0).val) 0#32)) 0#32) = 1#1
/-- It holds at point 0 only, decided over the grid. -/
theorem isFirst0_iff : ∀ t : Fin cfg0.N, isFirst0 (grid0.coords t) ↔ t.val = 0 :=
  (by decide +kernel : ∀ t : Fin grid0.N, isFirst0 (grid0.coords t) ↔ t.val = 0)

/-- "This is the last point": the condition of the body's second conditional. -/
abbrev isLast0 (i : grid0.Coords) : Prop := k0_cond2 i = 1#1
/-- It holds at point 9 only, decided over the grid. -/
theorem isLast0_iff : ∀ t : Fin cfg0.N, isLast0 (grid0.coords t) ↔ t.val = 9 :=
  (by decide +kernel : ∀ t : Fin grid0.N, isLast0 (grid0.coords t) ↔ t.val = 9)

/-- The inputs are never idle. -/
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
/-- Before the last point the result window is idle and not written back; -/
theorem idle0_5 : ∀ t : Fin cfg0.N, ¬isLast0 (grid0.coords t) → cfg0.idle 5 (grid0.coords t) = true := by decide +kernel
theorem noFlush0_5 : ∀ t : Fin cfg0.N, ¬isLast0 (grid0.coords t) → (cfg0.win 5).flush t = false := by decide +kernel
/-- at the last point it is live. -/
theorem live0_5 : ∀ t : Fin cfg0.N, isLast0 (grid0.coords t) → cfg0.idle 5 (grid0.coords t) = false := by decide +kernel

/-! ## The staging memrefs at a point -/

abbrev ms0_0 (t : Fin cfg0.N) : Memref sig .tc .vmem S10000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
/-- The accumulator: a whole scratch buffer of the kernel's own. -/
abbrev accM0 : Memref sig .tc .vmem S64x128 .f32 := Memref.whole cc0_scratch0

/-! ## What the body finds in the inputs' buffers: their blocks, fetched there or not -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The accumulator at a point, by case -/

theorem acc0_first (c : Dev nD) (t : Fin cfg0.N) (h0 : t.val = 0) :
    acc0 V c t.val t.isLt = k0_pay2 (iblk0 V c 0 t) (iblk0 V c 1 t) (k0_pay1 (F := F)) := by
  obtain ⟨n, hn⟩ := t
  cases n with
  | zero => rfl
  | succ n => exact absurd h0 (Nat.succ_ne_zero n)

theorem acc0_next (c : Dev nD) (t : Fin cfg0.N) (h0 : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl h0
  | succ n => rfl

/-! ## One covering store through the whole buffer, read back -/

theorem zeros2 : (![0, 0] : Fin 2 → Nat) = fun _ => 0 := funext fun a => by fin_cases a <;> rfl
theorem zeros1 : (![0] : Fin 1 → Nat) = fun _ => 0 := funext fun a => by fin_cases a; rfl

/-- After a last store through the whole-shape rectangle a buffer reads that store's payload, whatever was stored before. -/
theorem read_writes_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-! ## The body run, case by case, on any whole staging memrefs -/

set_option maxHeartbeats 1000000 in
/-- The first point: the accumulator, at anything, is cleared and then receives the point's term. The buffers the case does
    not touch are not mentioned (they are framed). -/
theorem run0_first (c : Dev nD) (i : grid0.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64x128 .f32) (harg7 : arg7.IsWhole)
    (hc0 : isFirst0 i) (hc1 : ¬isLast0 i) (x0 : Vec F S10000x1 .i32) (x1 : Vec F S10000x128 .f32) (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (k0_pay2 x0 x1 (k0_pay1 (F := F)))) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  (try sl_unfold_words)
  rw [read_writes_whole _ _ zeros2]
  simp only [View.readAt_eq_ld, harg1.read_unread, harg2.read_unread, View.ld_unit_zero (S := S10000x1) zeros2,
    View.ld_unit_zero (S := S10000x128) zeros2, View.readCov_unit_zero (S := S64x128) _ zeros2]

set_option maxHeartbeats 1000000 in
/-- A middle point: the accumulator, at what the point before left, receives the point's term. -/
theorem run0_mid (c : Dev nD) (i : grid0.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64x128 .f32) (harg7 : arg7.IsWhole)
    (hc0 : ¬isFirst0 i) (hc1 : ¬isLast0 i) (x0 : Vec F S10000x1 .i32) (x1 : Vec F S10000x128 .f32) (a : Vec F S64x128 .f32) (E : Set ℕ) (K : PUnit → sProp 𝕄) :
    iprop(owns (c : Thread nD τ) arg1 fullShare x0 ∗ owns (c : Thread nD τ) arg2 fullShare x1 ∗ owns (c : Thread nD τ) arg7 fullShare a
        ∗ (iprop(owns (c : Thread nD τ) arg1 fullShare x0 ∗ owns (c : Thread nD τ) arg2 fullShare x1
            ∗ owns (c : Thread nD τ) arg7 fullShare (k0_pay2 x0 x1 a)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  (try sl_unfold_words)
  rw [read_writes_whole _ _ zeros2]
  simp only [View.readAt_eq_ld, harg1.read_unread, harg2.read_unread, harg7.read_unread, View.ld_unit_zero (S := S10000x1) zeros2,
    View.ld_unit_zero (S := S10000x128) zeros2, View.ld_unit_zero (S := S64x128) zeros2]

set_option maxHeartbeats 1000000 in
/-- The last point: the accumulator receives the point's term, and the result block, at anything, receives the accumulator
    scaled, mapped, biased and clamped. -/
theorem run0_last (c : Dev nD) (i : grid0.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S64x128 .f32) (harg7 : arg7.IsWhole)
    (hc0 : ¬isFirst0 i) (hc1 : isLast0 i) (x0 : Vec F S10000x1 .i32) (x1 : Vec F S10000x128 .f32) (x2 : Vec F S64x1 .f32) (x3 : Vec F S128x128 .f32) (x4 : Vec F S128 .f32) (a : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 (k0_pay2 x0 x1 a) x2 x3 x4)
            ∗ owns (c : Thread nD τ) arg7 fullShare (k0_pay2 x0 x1 a)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    (try sl_unfold_words)
    rw [read_writes_whole _ _ zeros2]
    simp only [View.readAt_eq_ld, harg1.read_unread, harg2.read_unread, harg3.read_unread, harg4.read_unread, harg5.read_unread, harg7.read_unread,
      View.ld_unit_zero (S := S10000x1) zeros2, View.ld_unit_zero (S := S10000x128) zeros2, View.ld_unit_zero (S := S64x128) zeros2,
      View.ld_unit_zero (S := S64x1) zeros2, View.ld_unit_zero (S := S128x128) zeros2, View.ld_unit_zero (S := S128) zeros1,
      View.readCov_unit_zero (S := S64x128) _ zeros2]
  iexists _; isplitr
  swap; · iexact HS
  ipureintro
  (try sl_unfold_words)
  rw [read_writes_whole _ _ zeros2]
  simp only [View.readAt_eq_ld, harg1.read_unread, harg2.read_unread, harg7.read_unread, View.ld_unit_zero (S := S10000x1) zeros2,
    View.ld_unit_zero (S := S10000x128) zeros2, View.ld_unit_zero (S := S64x128) zeros2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the point is the first, a middle or the last one; the invariant
    hands the body the accumulator (at anything at the first point, else at what the point before left) and takes it back at
    this point's value; before the last point the result's buffer is handed back untouched, at the last point it holds the result. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = inv0 V c (t.val + 1) t.isLt from rfl, inv0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  by_cases h0 : t.val = 0
  · have h9 : ¬t.val = 9 := by omega
    rw [Dat.leavesExact_idle (dat0 V c) 5 t (idle0_5 t (fun h => h9 ((isLast0_iff t).mp h))) (noFlush0_5 t (fun h => h9 ((isLast0_iff t).mp h)))]
    rw [acc0_first V c t h0]
    rw [Phi0_castSucc V c t, inv0_zero V c _ _ h0, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (run0_first c (grid0.coords t) _ _ _ _ _ _ _ _ _ _ _ _ _ _ ((isFirst0_iff t).mpr h0) (fun h => h9 ((isLast0_iff t).mp h)) (iblk0 V c 0 t) (iblk0 V c 1 t) Set.univ _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat0 V c).leavesExact 5 t = owns (c : Thread nD τ) (ms0_5 t) fullShare ((dat0 V c).after 5 t) from by
        unfold Dat.leavesExact; rw [live0_5 t ((isLast0_iff t).mpr h9)], after0_5]
      unfold res0
      rw [acc0_next V c t h0]
      rw [Phi0_castSucc V c t, inv0_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_last c (grid0.coords t) _ _ _ _ _ _ _ _ _ _ _ _ _ _ (fun h => h0 ((isFirst0_iff t).mp h)) ((isLast0_iff t).mpr h9) (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idle0_5 t (fun h => h9 ((isLast0_iff t).mp h))) (noFlush0_5 t (fun h => h9 ((isLast0_iff t).mp h)))]
      rw [acc0_next V c t h0]
      rw [Phi0_castSucc V c t, inv0_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_mid c (grid0.coords t) _ _ _ _ _ _ _ _ _ _ _ _ _ _ (fun h => h0 ((isFirst0_iff t).mp h)) (fun h => h9 ((isLast0_iff t).mp h)) (iblk0 V c 0 t) (iblk0 V c 1 t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After any point but the first the invariant gives the region's own back: the accumulator's contents are forgotten. -/
theorem Phi0_out (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, PhiA0_eq]
  iintro ⟨⟨HS, HR⟩, Hg⟩
  isplitr [Hg]
  · isplitl [HS]
    · iexists _; iexact HS
    iexact HR
  iexact Hg

/-- The same after the last point. -/
theorem hout0 (c : Dev nD) : (dat0 V c).Φ (Fin.last cfg0.N) ⊢ Pipeline.ΦA spec0 c :=
  Phi0_out V c _ (by rw [Fin.val_last]; have : cfg0.N = 10 := N_0; omega)

end Cert.KernelIdeal.Hand

end
-- ==== Proof.KI.Region1.lean ====
/-
  The combine step of the first layer (region 1 of the program): on each tile of 10000 sequence nodes,
  relu(½ · ((onehot(label) · M + bi) + (con · Wc + bc))).

  Per tile the body reads six blocks — the tile's label column, the tile of the "connected to" aggregate, and four
  whole arrays that never move (the label table M, its bias, the dense map Wc, its bias) — and writes the tile of the
  result once, covering it. Nothing is carried from one tile to the next, so the invariant between tiles is the
  region's entry invariant itself.
-/
import proofs.«405200_j27075473834261_2_alg».proof.Proof.Gen.KernelIdeal.Launch
import proofs.«405200_j27075473834261_2_alg».proof.Proof.Gen.KernelIdeal.Skeleton
import proofs.«405200_j27075473834261_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body reads and writes -/

/-- The rectangles the body loads and stores through: each is the whole of its buffer. -/
abbrev labRect1 : Rect S10000x1 := Rect.unit (s := S10000x1) ![0, 0] S10000x1.size inb_S10000x1_S10000x1_0_0
abbrev tileRect1 : Rect S10000x128 := Rect.unit (s := S10000x128) ![0, 0] S10000x128.size inb_S10000x128_S10000x128_0_0
abbrev tabRect1 : Rect S64x128 := Rect.unit (s := S64x128) ![0, 0] S64x128.size inb_S64x128_S64x128_0_0
abbrev denseRect1 : Rect S128x128 := Rect.unit (s := S128x128) ![0, 0] S128x128.size inb_S128x128_S128x128_0_0
abbrev biasRect1 : Rect S128 := Rect.unit (s := S128) ![0] S128.size inb_S128_S128_0

/-- The result tile after the body, from the contents of the six input buffers (label column, aggregate tile, label
    table, its bias, dense map, its bias): its one store as a piece, the payload over what the six loads read. -/
def comb1 (lab : Vec F S10000x1 .i32) (con : Vec F S10000x128 .f32) (M : Vec F S64x128 .f32) (bi : Vec F S128 .f32)
    (Wc : Vec F S128x128 .f32) (bc : Vec F S128 .f32) : Vec F S10000x128 .f32 :=
  View.canon [⟨tileRect1, k1_pay1 (View.ld lab labRect1) (View.ld M tabRect1) (View.ld bi biasRect1) (View.ld con tileRect1)
    (View.ld Wc denseRect1) (View.ld bc biasRect1)⟩]

/-- Input window 0 (the tile's label column): its current staging buffer holds its block at every tile, fetched there or not,
    for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the tile of the aggregate): its current staging buffer holds its block at every tile, fetched there or not,
    for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the label table): its current staging buffer holds its block at every tile, fetched there or not,
    for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the label table's bias): its current staging buffer holds its block at every tile, fetched there or not,
    for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the dense map): its current staging buffer holds its block at every tile, fetched there or not,
    for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the dense map's bias): its current staging buffer holds its block at every tile, fetched there or not,
    for any proof data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The cover and the body's triple -/

theorem zeroOff1 : (![0, 0] : Fin 2 → Nat) = fun _ => 0 := funext fun a => by
  match a with
  | ⟨0, _⟩ => rfl
  | ⟨1, _⟩ => rfl
theorem zeroOffRow1 : (![0] : Fin 1 → Nat) = fun _ => 0 := funext fun a => by
  match a with
  | ⟨0, _⟩ => rfl

/-- The one store covers the tile. -/
theorem cover1 (p : Vec F S10000x128 .f32) (y : S10000x128.Idx) :
    ∃ pc ∈ ([⟨tileRect1, p⟩] : List (View.Piece (Elt F) S10000x128 .f32)), y ∈ pc.1.set :=
  ⟨⟨tileRect1, p⟩, List.mem_singleton_self _, View.mem_set_unit_zero zeroOff1 inb_S10000x128_S10000x128_0_0 y⟩

set_option maxHeartbeats 4000000 in
/-- The body on whole staging memrefs — the six inputs' at contents `x0 … x5`, the result's at anything — runs to the
    continuation holding the inputs' as they were and the result's at `comb1` of them. -/
theorem sound_kernel1 (c : Dev nD) (E : Set ℕ) (i : grid1.Coords) (arg1 : Memref sig .tc .vmem S10000x1 .i32) (harg1 : arg1.IsWhole) (arg2 : Memref sig .tc .vmem S10000x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S10000x128 .f32) (harg7 : arg7.IsWhole)
    (x0 : Vec F S10000x1 .i32) (x1 : Vec F S10000x128 .f32) (x2 : Vec F S64x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (comb1 x0 x1 x2 x3 x4 x5)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The proof data -/

/-- The proof data of the combine step on core `c`: the arrays as the region finds them; after the body at tile `t`
    each input's buffer still at its block, the result's at `comb1` of the six blocks; the invariant between tiles is
    the entry invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => comb1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = comb1 (iblk1 V c 0 t) (iblk1 V c 1 t) (iblk1 V c 2 t) (iblk1 V c 3 t) (iblk1 V c 4 t) (iblk1 V c 5 t) := by dsimp only [dat1]

/-- Each input's current staging buffer holds its block at every tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any tile: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- Entering the region gives the invariant before the first tile: they are the same proposition. -/
theorem hin1 (c : Dev nD) : Pipeline.ΦA spec1 c ⊢ (dat1 V c).Φ 0 := by
  dsimp only [dat1]; exact .rfl

/-- The invariant after the last tile gives the region's exit invariant: they are the same proposition. -/
theorem hout1 (c : Dev nD) : (dat1 V c).Φ (Fin.last cfg1.N) ⊢ Pipeline.ΦA spec1 c := by
  dsimp only [dat1]; exact .rfl

end Cert.KernelIdeal.Hand

end
-- ==== Proof.KI.Region2.lean ====
/-
  Region 2 of @main: the BatchNorm STATISTICS kernel on a grid of ten row tiles.

  One input window (the [100000,128] array, tile t at point t) and two output windows ([1,128] each, block index constant
  over the grid, so each is carried in its staging buffer across the ten points and written back once, after the last).
  At point 0 the body stores zeros to both outputs and then adds the tile's column sums (resp. column sums of squares);
  at every later point it adds the tile's to what the point before left. What the two staging buffers hold after point n
  is therefore a recursion on n over the body's payloads: the column sums `sumAt2`, the column sums of squares `sqAt2`.
-/
import proofs.«405200_j27075473834261_2_alg».proof.Proof.Gen.KernelIdeal.Launch
import proofs.«405200_j27075473834261_2_alg».proof.Proof.Gen.KernelIdeal.Skeleton
import proofs.«405200_j27075473834261_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the two outputs hold after each point -/

/-- The running column sums after point `n`: zero plus tile 0's column sums, then plus tile `n`'s. -/
def sumAt2 (c : Dev nD) : (n : ℕ) → n < cfg2.N → Vec F S1x128 .f32
  | 0, h => k2_pay4 (iblk2 V c 0 ⟨0, h⟩) (k2_pay1 (F := F))
  | n + 1, h => k2_pay4 (iblk2 V c 0 ⟨n + 1, h⟩) (sumAt2 c n (Nat.lt_of_succ_lt h))

/-- The running column sums of squares after point `n`. -/
def sqAt2 (c : Dev nD) : (n : ℕ) → n < cfg2.N → Vec F S1x128 .f32
  | 0, h => k2_pay5 (iblk2 V c 0 ⟨0, h⟩) (k2_pay2 (F := F))
  | n + 1, h => k2_pay5 (iblk2 V c 0 ⟨n + 1, h⟩) (sqAt2 c n (Nat.lt_of_succ_lt h))

/-! ## The pipeline's proof data -/

/-- The proof data of the statistics pipeline on core `c`: the arrays as the region finds them; after the body at point `t`
    the input's buffer at its tile, the outputs' at the running sums; the invariant the launch's own (the buffers no
    window stages), untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => sumAt2 V c t.val t.isLt
    | ⟨2, _⟩ => sqAt2 V c t.val t.isLt
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Input window 0's current staging buffer holds its tile at every point, for any proof data whose array is the entry
    contents and whose body leaves the tile in place: the window is fetched at every point, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's one conditional -/

/-- The condition of the body's reset: the grid coordinate is zero. -/
abbrev cond2 (i : grid2.Coords) : Prop := (Scalar.cmpi .ne (Scalar.extui (Scalar.cmpi .eq (BitVec.ofNat 32 (i 0).val) 0#32)) 0#32) = 1#1
/-- It holds at the first point only: decided over the ten points. -/
theorem hcond2 : ∀ t : Fin cfg2.N, cond2 (grid2.coords t) ↔ t.val = 0 :=
  (by decide +kernel : ∀ t : Fin grid2.N, cond2 (grid2.coords t) ↔ t.val = 0)

/-- Each window's current staging memref at point `t`, spelled as the pipeline passes it, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)

/-! ## The body on any staging memrefs, case by case -/

set_option maxHeartbeats 1000000 in
/-- THE FIRST POINT (the reset taken). What the body's stores leave in the two outputs' staging memrefs, as pieces (last
    first), with the proof that on whole staging memrefs, the input's at its tile `x0` and the outputs' at anything, the body
    runs to the continuation holding the input's as it was and each output's with its pieces written. -/
noncomputable def kernelRun2_A (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) :
    Σ' (L1 : List (View.Piece (Elt F) S1x128 .f32)), { L2 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc2_stats_kernel i arg1 harg1 arg2 harg2 arg3 harg3) K } := by
  refine ⟨?_, ?_, fun E K => ?run⟩
  case run =>
    simp only [cc2_stats_kernel_eq_skeleton]; unfold cc2_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- A LATER POINT (the reset not taken). The same, the outputs' staging memrefs at their running contents `xo1`, `xo2`,
    which the body reads before it covers them. -/
noncomputable def kernelRun2_B (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 : Vec F S1x128 .f32) (xo2 : Vec F S1x128 .f32) :
    Σ' (L1 : List (View.Piece (Elt F) S1x128 .f32)), { L2 : List (View.Piece (Elt F) S1x128 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc2_stats_kernel i arg1 harg1 arg2 harg2 arg3 harg3) K } := by
  refine ⟨?_, ?_, fun E K => ?run⟩
  case run =>
    simp only [cc2_stats_kernel_eq_skeleton]; unfold cc2_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

/-! ## The pieces read back: each output's staging buffer after the body, over the payloads -/

theorem hz2 : (![0, 0] : Fin 2 → Nat) = fun _ => 0 := funext fun a => by fin_cases a <;> rfl

/-- At the first point the column-sum output's pieces (the zero store, then the sum's store) cover its block; -/
theorem cover2_A_1 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) (y : S1x128.Idx) :
    ∃ pc ∈ (kernelRun2_A c i arg1 harg1 arg2 harg2 arg3 harg3 hc0 x0).1, y ∈ pc.1.set :=
  View.cover_of_tiledL (kernelRun2_A c i arg1 harg1 arg2 harg2 arg3 harg3 hc0 x0).1 S1x128.size (by sl_kernel_rfl) y
/-- and so do the sum-of-squares output's. -/
theorem cover2_A_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) (y : S1x128.Idx) :
    ∃ pc ∈ (kernelRun2_A c i arg1 harg1 arg2 harg2 arg3 harg3 hc0 x0).2.1, y ∈ pc.1.set :=
  View.cover_of_tiledL (kernelRun2_A c i arg1 harg1 arg2 harg2 arg3 harg3 hc0 x0).2.1 S1x128.size (by sl_kernel_rfl) y
/-- At a later point each output's one store covers its block. -/
theorem cover2_B_1 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 xo2 : Vec F S1x128 .f32) (y : S1x128.Idx) :
    ∃ pc ∈ (kernelRun2_B c i arg1 harg1 arg2 harg2 arg3 harg3 hc0 x0 xo1 xo2).1, y ∈ pc.1.set :=
  View.cover_of_tiledL (kernelRun2_B c i arg1 harg1 arg2 harg2 arg3 harg3 hc0 x0 xo1 xo2).1 S1x128.size (by sl_kernel_rfl) y
theorem cover2_B_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 xo2 : Vec F S1x128 .f32) (y : S1x128.Idx) :
    ∃ pc ∈ (kernelRun2_B c i arg1 harg1 arg2 harg2 arg3 harg3 hc0 x0 xo1 xo2).2.1, y ∈ pc.1.set :=
  View.cover_of_tiledL (kernelRun2_B c i arg1 harg1 arg2 harg2 arg3 harg3 hc0 x0 xo1 xo2).2.1 S1x128.size (by sl_kernel_rfl) y

/-- THE FIRST POINT's column sums: the zero block, read back, plus the tile's column sums. -/
theorem read2_A_1 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) (f : arg2.view.ty.Contents (Elt F)) :
    arg2.view.read (Elt F) (arg2.view.writes (Elt F) f (kernelRun2_A c i arg1 harg1 arg2 harg2 arg3 harg3 hc0 x0).1)
      = k2_pay4 x0 (k2_pay1 (F := F)) := by
  rw [View.read_writes_eq_canon _ _ _ (cover2_A_1 c i arg1 harg1 arg2 harg2 arg3 harg3 hc0 x0)]
  unfold kernelRun2_A
  dsimp only
  sl_unfold_words
  rw [View.canon_cons_unit_zero (S := S1x128) hz2, View.readCov_unit_zero (S := S1x128) _ hz2]
  simp only [View.readAt_eq_ld, harg1.read_unread, View.ld_unit_zero (S := S10000x128) hz2]

/-- THE FIRST POINT's column sums of squares. -/
theorem read2_A_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond2 i)
    (x0 : Vec F S10000x128 .f32) (f : arg3.view.ty.Contents (Elt F)) :
    arg3.view.read (Elt F) (arg3.view.writes (Elt F) f (kernelRun2_A c i arg1 harg1 arg2 harg2 arg3 harg3 hc0 x0).2.1)
      = k2_pay5 x0 (k2_pay2 (F := F)) := by
  rw [View.read_writes_eq_canon _ _ _ (cover2_A_2 c i arg1 harg1 arg2 harg2 arg3 harg3 hc0 x0)]
  unfold kernelRun2_A
  dsimp only
  sl_unfold_words
  rw [View.canon_cons_unit_zero (S := S1x128) hz2, View.readCov_unit_zero (S := S1x128) _ hz2]
  simp only [View.readAt_eq_ld, harg1.read_unread, View.ld_unit_zero (S := S10000x128) hz2]

/-- A LATER POINT's column sums: what the point before left plus the tile's column sums. -/
theorem read2_B_1 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 xo2 : Vec F S1x128 .f32) (f : arg2.view.ty.Contents (Elt F)) :
    arg2.view.read (Elt F) (arg2.view.writes (Elt F) f (kernelRun2_B c i arg1 harg1 arg2 harg2 arg3 harg3 hc0 x0 xo1 xo2).1)
      = k2_pay4 x0 xo1 := by
  rw [View.read_writes_eq_canon _ _ _ (cover2_B_1 c i arg1 harg1 arg2 harg2 arg3 harg3 hc0 x0 xo1 xo2)]
  unfold kernelRun2_B
  dsimp only
  sl_unfold_words
  rw [View.canon_unit_zero (S := S1x128) hz2]
  simp only [View.readAt_eq_ld, harg1.read_unread, harg2.read_unread, View.ld_unit_zero (S := S10000x128) hz2, View.ld_unit_zero (S := S1x128) hz2]

/-- A LATER POINT's column sums of squares. -/
theorem read2_B_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond2 i)
    (x0 : Vec F S10000x128 .f32) (xo1 xo2 : Vec F S1x128 .f32) (f : arg3.view.ty.Contents (Elt F)) :
    arg3.view.read (Elt F) (arg3.view.writes (Elt F) f (kernelRun2_B c i arg1 harg1 arg2 harg2 arg3 harg3 hc0 x0 xo1 xo2).2.1)
      = k2_pay5 x0 xo2 := by
  rw [View.read_writes_eq_canon _ _ _ (cover2_B_2 c i arg1 harg1 arg2 harg2 arg3 harg3 hc0 x0 xo1 xo2)]
  unfold kernelRun2_B
  dsimp only
  sl_unfold_words
  rw [View.canon_unit_zero (S := S1x128) hz2]
  simp only [View.readAt_eq_ld, harg1.read_unread, harg3.read_unread, View.ld_unit_zero (S := S10000x128) hz2, View.ld_unit_zero (S := S1x128) hz2]

/-! ## The running sums, point by point -/

/-- The running column sums at the first point. -/
theorem sumAt2_first (c : Dev nD) (t : Fin cfg2.N) (h0 : t.val = 0) :
    sumAt2 V c t.val t.isLt = k2_pay4 (iblk2 V c 0 t) (k2_pay1 (F := F)) := by
  obtain ⟨n, hn⟩ := t
  dsimp only at h0
  subst h0
  rfl
/-- The running column sums at a later point: over what the point before left. -/
theorem sumAt2_later (c : Dev nD) (t : Fin cfg2.N) (h0 : t.val ≠ 0) :
    sumAt2 V c t.val t.isLt = k2_pay4 (iblk2 V c 0 t) (sumAt2 V c (t.val - 1) (Nat.lt_of_le_of_lt (Nat.sub_le _ _) t.isLt)) := by
  obtain ⟨n, hn⟩ := t
  cases n with
  | zero => exact absurd rfl h0
  | succ n => rfl
theorem sqAt2_first (c : Dev nD) (t : Fin cfg2.N) (h0 : t.val = 0) :
    sqAt2 V c t.val t.isLt = k2_pay5 (iblk2 V c 0 t) (k2_pay2 (F := F)) := by
  obtain ⟨n, hn⟩ := t
  dsimp only at h0
  subst h0
  rfl
theorem sqAt2_later (c : Dev nD) (t : Fin cfg2.N) (h0 : t.val ≠ 0) :
    sqAt2 V c t.val t.isLt = k2_pay5 (iblk2 V c 0 t) (sqAt2 V c (t.val - 1) (Nat.lt_of_le_of_lt (Nat.sub_le _ _) t.isLt)) := by
  obtain ⟨n, hn⟩ := t
  cases n with
  | zero => exact absurd rfl h0
  | succ n => rfl

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = sumAt2 V c t.val t.isLt := by dsimp only [dat2]
theorem after2_2 (c : Dev nD) (t : Fin cfg2.N) : (dat2 V c).after 2 t = sqAt2 V c t.val t.isLt := by dsimp only [dat2]

/-- The input's current staging buffer holds its tile at every point. -/
theorem before2_0 (c : Dev nD) (t : Fin cfg2.N) (d) : (dat2 V c).before 0 t d = iblk2 V c 0 t :=
  before2_0_of V (dat2 V c) (A_eq2 V c 0) (after2_0 V c) t d
/-- At a later point the column-sum output's staging buffer holds what the body left at the point before: it is written
    back after the last point only, the window is live and uncut. -/
theorem before2_1_later (c : Dev nD) (t : Fin cfg2.N) (h0 : t.val ≠ 0) (d) :
    (dat2 V c).before 1 t d = sumAt2 V c (t.val - 1) (Nat.lt_of_le_of_lt (Nat.sub_le _ _) t.isLt) := by
  have hN : t.val < 10 := lt_of_lt_of_eq t.isLt (show cfg2.N = 10 from N_2)
  rw [Dat.before_out_kept _ 1 rfl t h0 (Bool.eq_false_iff.mpr fun h => by have := (flush2_1 _).mp h; dsimp only at this; omega)
    (fun _ => rfl) (fun _ _ => rfl)]
  dsimp only [dat2]
/-- The same for the sum-of-squares output. -/
theorem before2_2_later (c : Dev nD) (t : Fin cfg2.N) (h0 : t.val ≠ 0) (d) :
    (dat2 V c).before 2 t d = sqAt2 V c (t.val - 1) (Nat.lt_of_le_of_lt (Nat.sub_le _ _) t.isLt) := by
  have hN : t.val < 10 := lt_of_lt_of_eq t.isLt (show cfg2.N = 10 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the input's memref holds its tile; the point is the first or a later one; at a later one each
    output's memref holds what the point before left; so the case's run applies, and what it leaves reads as the running
    sums. The invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2]
  by_cases h0 : t.val = 0
  · rw [sumAt2_first V c t h0, sqAt2_first V c t h0]
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact read2_A_1 c _ _ _ _ _ _ _ _ _ _
    unfold owns; iexists _; isplitr
    swap; · iexact H2
    ipureintro; exact read2_A_2 c _ _ _ _ _ _ _ _ _ _
  · rw [sumAt2_later V c t h0, sqAt2_later V c t h0]
    simp only [before2_1_later V c t h0, before2_2_later V c t h0]
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact read2_B_1 c _ _ _ _ _ _ _ _ _ _ _ _
    unfold owns; iexists _; isplitr
    swap; · iexact H2
    ipureintro; exact read2_B_2 c _ _ _ _ _ _ _ _ _ _ _ _

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant at the first point is the class invariant. -/
theorem hin2 (c : Dev nD) : Pipeline.ΦA spec2 c ⊢ (dat2 V c).Φ 0 := by
  dsimp only [dat2]; exact Entails.refl _

/-- The invariant at the last point gives the class invariant back. -/
theorem hout2 (c : Dev nD) : (dat2 V c).Φ (Fin.last cfg2.N) ⊢ Pipeline.ΦA spec2 c := by
  dsimp only [dat2]; exact Entails.refl _

/-! ## The arrays after the run -/

/-- The input array is never written. -/
theorem arrAt2_0 (c : Dev nD) : (dat2 V c).arrAt 0 cfg2.N = V c (Pipeline.arrRef spec2 0) :=
  ((dat2 V c).arrAt_in 0 rfl _).trans (A_eq2 V c 0)

/-- The column sums after the last point, as contents of the first result array (its one block is the array). -/
abbrev colsums2 (c : Dev nD) : Buf (Elt F) ((c : Thread nD τ).loc main_v52_0) :=
  sumAt2 V c 9 (by rw [show cfg2.N = 10 from N_2]; decide)
/-- The column sums of squares after the last point, as contents of the second result array. -/
abbrev colsqs2 (c : Dev nD) : Buf (Elt F) ((c : Thread nD τ).loc main_v52_1) :=
  sqAt2 V c 9 (by rw [show cfg2.N = 10 from N_2]; decide)

/-- The one write-back of the column sums, after point 9, writes them: block (0, 0) of the [1,128] array read through zero
    offsets is the array. -/
theorem flushed2_1_eq (c : Dev nD) (t : Fin cfg2.N) (hf : (cfg2.win 1).flush t = true) :
    (dat2 V c).flushed 1 t = ((cfg2.win 1).blk t).view.read (Elt F) (colsums2 V c) := by
  have hN : cfg2.N = 10 := N_2
  have h9 : t.val = 9 := by have := (flush2_1 t).mp hf; have := t.isLt; omega
  obtain rfl : t = t2_9 := Fin.ext h9
  show (cfg2.win 1).cut (grid2.coords t2_9) ((dat2 V c).after 1 t2_9) = _
  rw [after2_1]
  have hz' : (fun a => win2_1.index t2_9 a * main_v52_0.ty.shape.size a) = fun _ => 0 := funext fun a => by fin_cases a <;> decide
  exact (Memref.read_access_unit_zero (Elt F) main_v52_0 hz' (fun a => by rw [congrFun hz' a]; simp) (colsums2 V c)).symm

/-- So the first result array ends holding the column sums after point 9. -/
theorem arrAt2_1 (c : Dev nD) : (dat2 V c).arrAt 1 cfg2.N = colsums2 V c :=
  (dat2 V c).arrAt_eq_of_cover 1 (colsums2 V c) (flushed2_1_eq V c) fun i =>
    ⟨t2_9, (flush2_1 t2_9).mpr rfl, by
      show i ∈ ((View.whole main_v52_0).slice (win2_1.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_1.index t2_9 0 * win2_1.size 0 ≤ (i 0 : Nat) ∧ (i 0 : Nat) < win2_1.index t2_9 0 * win2_1.size 0 + win2_1.xsize (grid2.coords t2_9) 0
                  rw [show win2_1.index t2_9 0 * win2_1.size 0 = 0 from by decide +kernel, show win2_1.xsize (grid2.coords t2_9) 0 = 1 from by decide +kernel]; omega
      | ⟨1, _⟩ => show win2_1.index t2_9 1 * win2_1.size 1 ≤ (i 1 : Nat) ∧ (i 1 : Nat) < win2_1.index t2_9 1 * win2_1.size 1 + win2_1.xsize (grid2.coords t2_9) 1
                  rw [show win2_1.index t2_9 1 * win2_1.size 1 = 0 from by decide +kernel, show win2_1.xsize (grid2.coords t2_9) 1 = 128 from by decide +kernel]; omega⟩

/-- The one write-back of the column sums of squares, after point 9, writes them. -/
theorem flushed2_2_eq (c : Dev nD) (t : Fin cfg2.N) (hf : (cfg2.win 2).flush t = true) :
    (dat2 V c).flushed 2 t = ((cfg2.win 2).blk t).view.read (Elt F) (colsqs2 V c) := by
  have hN : cfg2.N = 10 := N_2
  have h9 : t.val = 9 := by have := (flush2_2 t).mp hf; have := t.isLt; omega
  obtain rfl : t = t2_9 := Fin.ext h9
  show (cfg2.win 2).cut (grid2.coords t2_9) ((dat2 V c).after 2 t2_9) = _
  rw [after2_2]
  have hz' : (fun a => win2_2.index t2_9 a * main_v52_1.ty.shape.size a) = fun _ => 0 := funext fun a => by fin_cases a <;> decide
  exact (Memref.read_access_unit_zero (Elt F) main_v52_1 hz' (fun a => by rw [congrFun hz' a]; simp) (colsqs2 V c)).symm

/-- So the second result array ends holding the column sums of squares after point 9. -/
theorem arrAt2_2 (c : Dev nD) : (dat2 V c).arrAt 2 cfg2.N = colsqs2 V c :=
  (dat2 V c).arrAt_eq_of_cover 2 (colsqs2 V c) (flushed2_2_eq V c) fun i =>
    ⟨t2_9, (flush2_2 t2_9).mpr rfl, by
      show i ∈ ((View.whole main_v52_1).slice (win2_2.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 1 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = 128 from by decide +kernel]; omega⟩

end Cert.KernelIdeal.Hand

end
-- ==== Proof.KI.Region3.lean ====
/-
  The batch normalisation's APPLY step as a pipeline of ten tiles: at tile t the body reads the tile's 10000 rows of the
  [100000,128] input, the mean row, the inverse standard deviation row, the scale and the shift, and stores
  (x - mean) * invstd * g + b over the whole output tile. Nothing is carried from one tile to the next, so the invariant
  is the region's own (the core's other scoped buffers and its random-number register, untouched), and what enters the region leaves it.

  Here: each window's block at a tile read off the array the region finds, the output tile as one store covering its
  buffer, the body's triple, the proof data of the pipeline and the body obligation at every tile.
-/
import proofs.«405200_j27075473834261_2_alg».proof.Proof.Gen.KernelIdeal.Launch
import proofs.«405200_j27075473834261_2_alg».proof.Proof.Gen.KernelIdeal.Skeleton
import proofs.«405200_j27075473834261_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at tile t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each buffer whole -/

/-- The whole [10000,128] tile. -/
abbrev tile3 : Rect S10000x128 := Rect.unit (s := S10000x128) ![0, 0] S10000x128.size inb_S10000x128_S10000x128_0_0
/-- The whole [1,128] row (mean, inverse standard deviation). -/
abbrev row3 : Rect S1x128 := Rect.unit (s := S1x128) ![0, 0] S1x128.size inb_S1x128_S1x128_0_0
/-- The whole [128] vector (scale, shift). -/
abbrev vec3 : Rect S128 := Rect.unit (s := S128) ![0] S128.size inb_S128_S128_0

/-! ## What the body leaves in the output tile -/

/-- The output buffer after the body, from the five inputs' buffers: its one store, the normalised tile. -/
def bnTile3 (x : Vec F S10000x128 .f32) (mean istd : Vec F S1x128 .f32) (g b : Vec F S128 .f32) : Vec F S10000x128 .f32 :=
  View.canon [⟨tile3, k3_pay1 (View.ld x tile3) (View.ld mean row3) (View.ld istd row3) (View.ld g vec3) (View.ld b vec3)⟩]

/-- The one store is the whole buffer, so it covers it. -/
theorem cover3 (p : Vec F S10000x128 .f32) (y : S10000x128.Idx) :
    ∃ pc ∈ ([⟨tile3, p⟩] : List (View.Piece (Elt F) S10000x128 .f32)), y ∈ pc.1.set :=
  View.cover_of_tiled [⟨tile3, p⟩] S10000x128.size (by rfl) y

/-! ## The pipeline's proof data -/

/-- The proof data of the apply pipeline on core c: the arrays as the region finds them; after the body at tile t each
    input's buffer at its block and the output's at the normalised tile of the input blocks; the invariant the region's
    own; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => bnTile3 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = bnTile3 (iblk3 V c 0 t) (iblk3 V c 1 t) (iblk3 V c 2 t) (iblk3 V c 3 t) (iblk3 V c 4 t) := by
  dsimp only [dat3]

/-! ## What the body finds in the inputs' buffers

The input tile is fetched at every tile; the two rows and the two vectors are fetched once, at the first tile, and the
body leaves them in place, so at every tile each input's buffer holds its block. -/

theorem finds3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3 V c 0]; try rfl) t d).trans
    (by unfold Dat.fetched Dat.blockOf iblk3; rw [A_eq3 V c 0]; try rfl)
theorem finds3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3 V c 1]; try rfl) t d).trans
    (by unfold Dat.fetched Dat.blockOf iblk3; rw [A_eq3 V c 1]; try rfl)
theorem finds3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3 V c 2]; try rfl) t d).trans
    (by unfold Dat.fetched Dat.blockOf iblk3; rw [A_eq3 V c 2]; try rfl)
theorem finds3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3 V c 3]; try rfl) t d).trans
    (by unfold Dat.fetched Dat.blockOf iblk3; rw [A_eq3 V c 3]; try rfl)
theorem finds3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3 V c 4]; try rfl) t d).trans
    (by unfold Dat.fetched Dat.blockOf iblk3; rw [A_eq3 V c 4]; try rfl)

/-! ## The body's triple -/

set_option maxHeartbeats 1000000 in
/-- The body on whole staging memrefs — the five inputs' at contents x, mean, istd, g, b, the output's at anything — runs
    to the continuation holding the inputs' as they were and the output's at the normalised tile. -/
theorem sound_apply3 (c : Dev nD) (E : Set ℕ) (i : grid3.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S10000x128 .f32) (harg6 : arg6.IsWhole)
    (x : Vec F S10000x128 .f32) (mean istd : Vec F S1x128 .f32) (g b : Vec F S128 .f32) (K : PUnit → sProp 𝕄) :
    iprop(owns (c : Thread nD τ) arg1 fullShare x ∗ owns (c : Thread nD τ) arg2 fullShare mean ∗ owns (c : Thread nD τ) arg3 fullShare istd
        ∗ owns (c : Thread nD τ) arg4 fullShare g ∗ owns (c : Thread nD τ) arg5 fullShare b ∗ (∃ d, owns (c : Thread nD τ) arg6 fullShare d)
        ∗ (iprop(owns (c : Thread nD τ) arg1 fullShare x ∗ owns (c : Thread nD τ) arg2 fullShare mean ∗ owns (c : Thread nD τ) arg3 fullShare istd
            ∗ owns (c : Thread nD τ) arg4 fullShare g ∗ owns (c : Thread nD τ) arg5 fullShare b
            ∗ owns (c : Thread nD τ) arg6 fullShare (bnTile3 x mean istd g b)) -∗ K ⟨⟩))
      ⊢ wp frame (wpE (defs₀ (F := F)) Variants.none c none) E
          (cc3_apply_kernel i arg1 harg1 arg2 harg2 arg3 harg3 arg4 harg4 arg5 harg5 arg6 harg6) K := by
  simp only [cc3_apply_kernel_eq_skeleton]; unfold cc3_apply_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-! ## The body obligation, at a generic tile -/

/-- What the body is called with at tile t, the windows one by one, -/
def tilePre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def tilePost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any tile: the inputs' memrefs hold their blocks, so the body's triple applies; the invariant and the
    core's debts pass through unread. -/
theorem sound_tile3 (c : Dev nD) (t : Fin cfg3.N) :
    tilePre3 V c t ⊢ wp frame (wpE (defs₀ (F := F)) Variants.none c none) Set.univ (bodyAt3 t) (fun _ => tilePost3 V c t) := by
  unfold tilePre3 tilePost3 bodyAt3
  simp only [finds3_0, finds3_1, finds3_2, finds3_3, finds3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_apply3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every tile. -/
theorem body_obligation3 (c : Dev nD) : BodyObligation (dat3 (F := F) V c) (defs₀ (F := F)) Variants.none () Set.univ := fun t => by
  rw [bigSep_W3, bigSep_W3]
  exact sound_tile3 V c t

/-- The invariant at the first tile is the region's own. -/
theorem hin3 (c : Dev nD) : Pipeline.ΦA spec3 c ⊢ (dat3 V c).Φ 0 := by
  dsimp only [dat3]
  iintro H; iexact H

/-- The invariant after the last tile is the region's own. -/
theorem hout3 (c : Dev nD) : (dat3 V c).Φ (Fin.last cfg3.N) ⊢ Pipeline.ΦA spec3 c := by
  dsimp only [dat3]
  iintro H; iexact H

end Cert.KernelIdeal.Hand

end
-- ==== Proof.KI.Region4.lean ====
import proofs.«405200_j27075473834261_2_alg».proof.Proof.Gen.KernelIdeal.Launch
import proofs.«405200_j27075473834261_2_alg».proof.Proof.Gen.KernelIdeal.Skeleton
import proofs.«405200_j27075473834261_2_alg».proof.Proof.Gen.KernelIdeal.Points
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

/-!
  The label-side aggregate of the second layer ("belongs to"), as one pipelined region of ten points.

  Every point adds to a 64 x 128 accumulator the product of the transposed indicator matrix of its 10000 labels with its
  10000 rows; the first point clears the accumulator before adding, and the last point, after adding, scales the
  accumulator row by row, applies the dense map and the bias, clamps at zero and stores the result block, which is
  written back once. Here: what the accumulator holds after each point (a recursion over the points), the region's
  invariant (the accumulator at that value between points), the body's run in its three cases and the region's
  proof data.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the accumulator -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds after point `n`: the point's term (the transposed indicator matrix of the point's labels
    times the point's rows) added to what the point before left, and at the first point to the cleared accumulator. -/
def acc4 (c : Dev nD) : (n : ℕ) → n < cfg4.N → Vec F S64x128 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (acc4 c n (Nat.lt_of_succ_lt hn))

theorem acc4_zero (c : Dev nD) (hn : 0 < cfg4.N) :
    acc4 V c 0 hn = k4_pay2 (iblk4 V c 0 ⟨0, hn⟩) (iblk4 V c 1 ⟨0, hn⟩) (k4_pay1 (F := F)) := rfl

theorem acc4_succ (c : Dev nD) (n : ℕ) (hn : n + 1 < cfg4.N) :
    acc4 V c (n + 1) hn = k4_pay2 (iblk4 V c 0 ⟨n + 1, hn⟩) (iblk4 V c 1 ⟨n + 1, hn⟩) (acc4 V c n (Nat.lt_of_succ_lt hn)) := rfl

/-- The result block the last point stores: the accumulator scaled, mapped, biased and clamped. At the other points the
    window is idle and this value is never consulted. -/
def res4 (c : Dev nD) (t : Fin cfg4.N) : Vec F S64x64 .f32 :=
  k4_pay3 (acc4 V c t.val t.isLt) (iblk4 V c 2 t) (iblk4 V c 3 t) (iblk4 V c 4 t)

/-! ## The invariant between points -/

/-- Before the first point the region's own invariant (every scratch buffer at anything); after point `n` the accumulator at
    `acc4 n`, the other scratch buffers unopened and the generator register at some state. -/
def inv4 (c : Dev nD) : (n : ℕ) → n ≤ cfg4.N → sProp 𝕄
  | 0, _ => Pipeline.ΦA spec4 c
  | n + 1, hn => iprop(iprop(owns (c : Thread nD τ) (Memref.whole cc4_scratch0) fullShare (acc4 V c n hn)
      ∗ Pipeline.scopedRestBut (Ix := Unit) (Name := ℕ) (U := UR sig nD τ) (Lvl := ℕ) (Val := Elt F) spec4 c [cc4_scratch0]) ∗ (∃ r, prngReg c r))

theorem inv4_zero (c : Dev nD) (n : ℕ) (h : n ≤ cfg4.N) (hz : n = 0) : inv4 V c n h = Pipeline.ΦA spec4 c := by
  subst hz; rfl

theorem inv4_succ (c : Dev nD) (n : ℕ) (hn : n < cfg4.N) :
    inv4 V c (n + 1) hn = iprop(iprop(owns (c : Thread nD τ) (Memref.whole cc4_scratch0) fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem inv4_pos (c : Dev nD) (n : ℕ) (h : n ≤ cfg4.N) (hz : n ≠ 0) :
    inv4 V c n h = iprop(iprop(owns (c : Thread nD τ) (Memref.whole cc4_scratch0) fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The region's own invariant with the accumulator's buffer split off the other scratch buffers. -/
theorem PhiA4_eq (c : Dev nD) :
    (Pipeline.ΦA spec4 c : sProp 𝕄)
      = iprop(iprop((∃ d, owns (c : Thread nD τ) (Memref.whole cc4_scratch0) fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [owns_whole]

/-! ## The region's proof data -/

/-- The arrays as the region finds them; after the body at point `t` each input's buffer at its block, the result's at
    `res4`; the invariant `inv4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => res4 V c t
  Φ t := inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = res4 V c t := by dsimp only [dat4]

theorem Phi4_castSucc (c : Dev nD) (t : Fin cfg4.N) :
    (dat4 V c).Φ t.castSucc = inv4 V c t.val (Nat.le_of_lt t.isLt) := by
  dsimp only [dat4]; simp only [Fin.coe_castSucc]

/-! ## The body's two conditions and where the result window is idle -/

/-- "This is the first point": the condition of the body's first conditional, from the grid coordinates. -/
abbrev isFirst4 (i : grid4.Coords) : Prop := (Scalar.cmpi .ne (Scalar.extui (Scalar.cmpi .eq (BitVec.ofNat 32 (i 0).val) 0#32)) 0#32) = 1#1
/-- It holds at point 0 only, decided over the grid. -/
theorem isFirst4_iff : ∀ t : Fin cfg4.N, isFirst4 (grid4.coords t) ↔ t.val = 0 :=
  (by decide +kernel : ∀ t : Fin grid4.N, isFirst4 (grid4.coords t) ↔ t.val = 0)

/-- "This is the last point": the condition of the body's second conditional. -/
abbrev isLast4 (i : grid4.Coords) : Prop := k4_cond2 i = 1#1
/-- It holds at point 9 only, decided over the grid. -/
theorem isLast4_iff : ∀ t : Fin cfg4.N, isLast4 (grid4.coords t) ↔ t.val = 9 :=
  (by decide +kernel : ∀ t : Fin grid4.N, isLast4 (grid4.coords t) ↔ t.val = 9)

/-- The inputs are never idle. -/
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
theorem live4_4 : ∀ t : Fin cfg4.N, cfg4.idle 4 (grid4.coords t) = false := fun _ => rfl
/-- Before the last point the result window is idle and not written back; -/
theorem idle4_5 : ∀ t : Fin cfg4.N, ¬isLast4 (grid4.coords t) → cfg4.idle 5 (grid4.coords t) = true := by decide +kernel
theorem noFlush4_5 : ∀ t : Fin cfg4.N, ¬isLast4 (grid4.coords t) → (cfg4.win 5).flush t = false := by decide +kernel
/-- at the last point it is live. -/
theorem live4_5 : ∀ t : Fin cfg4.N, isLast4 (grid4.coords t) → cfg4.idle 5 (grid4.coords t) = false := by decide +kernel

/-! ## The staging memrefs at a point -/

abbrev ms4_0 (t : Fin cfg4.N) : Memref sig .tc .vmem S10000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x64 .f32 := win4_5.stage (cfg4.slots t 5)
abbrev hs4_5 (t : Fin cfg4.N) : (ms4_5 t).IsWhole := hstage4_5 ((cfg4.slots t 5).cast nbuf4_5)
/-- The accumulator: a whole scratch buffer of the kernel's own. -/
abbrev accM4 : Memref sig .tc .vmem S64x128 .f32 := Memref.whole cc4_scratch0

/-! ## What the body finds in the inputs' buffers: their blocks, fetched there or not -/

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)

/-! ## The accumulator at a point, by case -/

theorem acc4_first (c : Dev nD) (t : Fin cfg4.N) (h0 : t.val = 0) :
    acc4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

theorem acc4_next (c : Dev nD) (t : Fin cfg4.N) (h0 : t.val ≠ 0) :
    acc4 V c t.val t.isLt = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl h0
  | succ n => rfl

/-! ## One covering store through the whole buffer, read back -/

theorem zeros2_b : (![0, 0] : Fin 2 → Nat) = fun _ => 0 := funext fun a => by fin_cases a <;> rfl
theorem zeros1_b : (![0] : Fin 1 → Nat) = fun _ => 0 := funext fun a => by fin_cases a; rfl

/-- After a last store through the whole-shape rectangle a buffer reads that store's payload, whatever was stored before. -/
theorem read_writes_whole_b {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-! ## The body run, case by case, on any whole staging memrefs -/

set_option maxHeartbeats 1000000 in
/-- The first point: the accumulator, at anything, is cleared and then receives the point's term. The buffers the case does
    not touch are not mentioned (they are framed). -/
theorem run4_first (c : Dev nD) (i : grid4.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x128 .f32) (harg7 : arg7.IsWhole)
    (hc0 : isFirst4 i) (hc1 : ¬isLast4 i) (x0 : Vec F S10000x1 .i32) (x1 : Vec F S10000x128 .f32) (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (k4_pay2 x0 x1 (k4_pay1 (F := F)))) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  (try sl_unfold_words)
  rw [read_writes_whole_b _ _ zeros2_b]
  simp only [View.readAt_eq_ld, harg1.read_unread, harg2.read_unread, View.ld_unit_zero (S := S10000x1) zeros2_b,
    View.ld_unit_zero (S := S10000x128) zeros2_b, View.readCov_unit_zero (S := S64x128) _ zeros2_b]

set_option maxHeartbeats 1000000 in
/-- A middle point: the accumulator, at what the point before left, receives the point's term. -/
theorem run4_mid (c : Dev nD) (i : grid4.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x128 .f32) (harg7 : arg7.IsWhole)
    (hc0 : ¬isFirst4 i) (hc1 : ¬isLast4 i) (x0 : Vec F S10000x1 .i32) (x1 : Vec F S10000x128 .f32) (a : Vec F S64x128 .f32) (E : Set ℕ) (K : PUnit → sProp 𝕄) :
    iprop(owns (c : Thread nD τ) arg1 fullShare x0 ∗ owns (c : Thread nD τ) arg2 fullShare x1 ∗ owns (c : Thread nD τ) arg7 fullShare a
        ∗ (iprop(owns (c : Thread nD τ) arg1 fullShare x0 ∗ owns (c : Thread nD τ) arg2 fullShare x1
            ∗ owns (c : Thread nD τ) arg7 fullShare (k4_pay2 x0 x1 a)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  (try sl_unfold_words)
  rw [read_writes_whole_b _ _ zeros2_b]
  simp only [View.readAt_eq_ld, harg1.read_unread, harg2.read_unread, harg7.read_unread, View.ld_unit_zero (S := S10000x1) zeros2_b,
    View.ld_unit_zero (S := S10000x128) zeros2_b, View.ld_unit_zero (S := S64x128) zeros2_b]

set_option maxHeartbeats 1000000 in
/-- The last point: the accumulator receives the point's term, and the result block, at anything, receives the accumulator
    scaled, mapped, biased and clamped. -/
theorem run4_last (c : Dev nD) (i : grid4.Coords) (arg1 : Memref sig .tc .vmem S10000x1 .i32) (harg1 : arg1.IsWhole) (arg2 : Memref sig .tc .vmem S10000x128 .f32) (harg2 : arg2.IsWhole) (arg3 : Memref sig .tc .vmem S64x1 .f32) (harg3 : arg3.IsWhole) (arg4 : Memref sig .tc .vmem S128x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x128 .f32) (harg7 : arg7.IsWhole)
    (hc0 : ¬isFirst4 i) (hc1 : isLast4 i) (x0 : Vec F S10000x1 .i32) (x1 : Vec F S10000x128 .f32) (x2 : Vec F S64x1 .f32) (x3 : Vec F S128x64 .f32) (x4 : Vec F S64 .f32) (a : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k4_pay3 (k4_pay2 x0 x1 a) x2 x3 x4)
            ∗ owns (c : Thread nD τ) arg7 fullShare (k4_pay2 x0 x1 a)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    (try sl_unfold_words)
    rw [read_writes_whole_b _ _ zeros2_b]
    simp only [View.readAt_eq_ld, harg1.read_unread, harg2.read_unread, harg3.read_unread, harg4.read_unread, harg5.read_unread, harg7.read_unread,
      View.ld_unit_zero (S := S10000x1) zeros2_b, View.ld_unit_zero (S := S10000x128) zeros2_b, View.ld_unit_zero (S := S64x128) zeros2_b,
      View.ld_unit_zero (S := S64x1) zeros2_b, View.ld_unit_zero (S := S128x64) zeros2_b, View.ld_unit_zero (S := S64) zeros1_b,
      View.readCov_unit_zero (S := S64x128) _ zeros2_b]
  iexists _; isplitr
  swap; · iexact HS
  ipureintro
  (try sl_unfold_words)
  rw [read_writes_whole_b _ _ zeros2_b]
  simp only [View.readAt_eq_ld, harg1.read_unread, harg2.read_unread, harg7.read_unread, View.ld_unit_zero (S := S10000x1) zeros2_b,
    View.ld_unit_zero (S := S10000x128) zeros2_b, View.ld_unit_zero (S := S64x128) zeros2_b]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point. The inputs' buffers hold their blocks; the point is the first, a middle or the last one; the invariant
    hands the body the accumulator (at anything at the first point, else at what the point before left) and takes it back at
    this point's value; before the last point the result's buffer is handed back untouched, at the last point it holds the result. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = inv4 V c (t.val + 1) t.isLt from rfl, inv4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  rw [show (dat4 V c).leavesExact 4 t = owns (c : Thread nD τ) (ms4_4 t) fullShare ((dat4 V c).after 4 t) from by
    unfold Dat.leavesExact; rw [live4_4 t], after4_4]
  by_cases h0 : t.val = 0
  · have h9 : ¬t.val = 9 := by omega
    rw [Dat.leavesExact_idle (dat4 V c) 5 t (idle4_5 t (fun h => h9 ((isLast4_iff t).mp h))) (noFlush4_5 t (fun h => h9 ((isLast4_iff t).mp h)))]
    rw [acc4_first V c t h0]
    rw [Phi4_castSucc V c t, inv4_zero V c _ _ h0, PhiA4_eq]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (run4_first c (grid4.coords t) _ _ _ _ _ _ _ _ _ _ _ _ _ _ ((isFirst4_iff t).mpr h0) (fun h => h9 ((isLast4_iff t).mp h)) (iblk4 V c 0 t) (iblk4 V c 1 t) Set.univ _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat4 V c).leavesExact 5 t = owns (c : Thread nD τ) (ms4_5 t) fullShare ((dat4 V c).after 5 t) from by
        unfold Dat.leavesExact; rw [live4_5 t ((isLast4_iff t).mpr h9)], after4_5]
      unfold res4
      rw [acc4_next V c t h0]
      rw [Phi4_castSucc V c t, inv4_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run4_last c (grid4.coords t) _ _ _ _ _ _ _ _ _ _ _ _ _ _ (fun h => h0 ((isFirst4_iff t).mp h)) ((isLast4_iff t).mpr h9) (iblk4 V c 0 t) (iblk4 V c 1 t) (iblk4 V c 2 t) (iblk4 V c 3 t) (iblk4 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat4 V c) 5 t (idle4_5 t (fun h => h9 ((isLast4_iff t).mp h))) (noFlush4_5 t (fun h => h9 ((isLast4_iff t).mp h)))]
      rw [acc4_next V c t h0]
      rw [Phi4_castSucc V c t, inv4_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run4_mid c (grid4.coords t) _ _ _ _ _ _ _ _ _ _ _ _ _ _ (fun h => h0 ((isFirst4_iff t).mp h)) (fun h => h9 ((isLast4_iff t).mp h)) (iblk4 V c 0 t) (iblk4 V c 1 t) _ Set.univ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = inv4 V c 0 (Nat.zero_le _) from rfl, inv4_zero V c 0 _ rfl]
  try exact Idealize.SL.BI.Entails.refl _

/-- After any point but the first the invariant gives the region's own back: the accumulator's contents are forgotten. -/
theorem Phi4_out (c : Dev nD) (t : Fin (cfg4.N + 1)) (ht : t.val ≠ 0) : (dat4 V c).Φ t ⊢ Pipeline.ΦA spec4 c := by
  rw [show (dat4 V c).Φ t = inv4 V c t.val (Nat.le_of_lt_succ t.isLt) from rfl, inv4_pos V c _ _ ht, PhiA4_eq]
  iintro ⟨⟨HS, HR⟩, Hg⟩
  isplitr [Hg]
  · isplitl [HS]
    · iexists _; iexact HS
    iexact HR
  iexact Hg

/-- The same after the last point. -/
theorem hout4 (c : Dev nD) : (dat4 V c).Φ (Fin.last cfg4.N) ⊢ Pipeline.ΦA spec4 c :=
  Phi4_out V c _ (by rw [Fin.val_last]; have : cfg4.N = 10 := N_4; omega)

end Cert.KernelIdeal.Hand

end
-- ==== Proof.KI.Region5.lean ====
/-
  The combine step of the second layer (region 5 of the program): on each tile of 10000 sequence nodes,
  relu(½ · ((onehot(label) · M + bi) + (con · Wc + bc))).

  Per tile the body reads six blocks — the tile's label column, the tile of the "connected to" aggregate, and four
  whole arrays that never move (the label table M, its bias, the dense map Wc, its bias) — and writes the tile of the
  result once, covering it. Nothing is carried from one tile to the next, so the invariant between tiles is the
  region's entry invariant itself.
-/
import proofs.«405200_j27075473834261_2_alg».proof.Proof.Gen.KernelIdeal.Launch
import proofs.«405200_j27075473834261_2_alg».proof.Proof.Gen.KernelIdeal.Skeleton
import proofs.«405200_j27075473834261_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at tile `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body reads and writes -/

/-- The rectangles the body loads and stores through: each is the whole of its buffer. -/
abbrev labRect5 : Rect S10000x1 := Rect.unit (s := S10000x1) ![0, 0] S10000x1.size inb_S10000x1_S10000x1_0_0
abbrev tileRect5 : Rect S10000x128 := Rect.unit (s := S10000x128) ![0, 0] S10000x128.size inb_S10000x128_S10000x128_0_0
abbrev tabRect5 : Rect S64x128 := Rect.unit (s := S64x128) ![0, 0] S64x128.size inb_S64x128_S64x128_0_0
abbrev denseRect5 : Rect S128x128 := Rect.unit (s := S128x128) ![0, 0] S128x128.size inb_S128x128_S128x128_0_0
abbrev biasRect5 : Rect S128 := Rect.unit (s := S128) ![0] S128.size inb_S128_S128_0

/-- The result tile after the body, from the contents of the six input buffers (label column, aggregate tile, label
    table, its bias, dense map, its bias): its one store as a piece, the payload over what the six loads read. -/
def comb5 (lab : Vec F S10000x1 .i32) (con : Vec F S10000x128 .f32) (M : Vec F S64x128 .f32) (bi : Vec F S128 .f32)
    (Wc : Vec F S128x128 .f32) (bc : Vec F S128 .f32) : Vec F S10000x128 .f32 :=
  View.canon [⟨tileRect5, k5_pay1 (View.ld lab labRect5) (View.ld M tabRect5) (View.ld bi biasRect5) (View.ld con tileRect5)
    (View.ld Wc denseRect5) (View.ld bc biasRect5)⟩]

/-- Input window 0 (the tile's label column): its current staging buffer holds its block at every tile, fetched there or not,
    for any proof data whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the tile of the aggregate): its current staging buffer holds its block at every tile, fetched there or not,
    for any proof data whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the label table): its current staging buffer holds its block at every tile, fetched there or not,
    for any proof data whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (the label table's bias): its current staging buffer holds its block at every tile, fetched there or not,
    for any proof data whose array is the entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 (the dense map): its current staging buffer holds its block at every tile, fetched there or not,
    for any proof data whose array is the entry contents and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5 (the dense map's bias): its current staging buffer holds its block at every tile, fetched there or not,
    for any proof data whose array is the entry contents and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The cover and the body's triple -/

theorem zeroOff5 : (![0, 0] : Fin 2 → Nat) = fun _ => 0 := funext fun a => by
  match a with
  | ⟨0, _⟩ => rfl
  | ⟨1, _⟩ => rfl
theorem zeroOffRow5 : (![0] : Fin 1 → Nat) = fun _ => 0 := funext fun a => by
  match a with
  | ⟨0, _⟩ => rfl

/-- The one store covers the tile. -/
theorem cover5 (p : Vec F S10000x128 .f32) (y : S10000x128.Idx) :
    ∃ pc ∈ ([⟨tileRect5, p⟩] : List (View.Piece (Elt F) S10000x128 .f32)), y ∈ pc.1.set :=
  ⟨⟨tileRect5, p⟩, List.mem_singleton_self _, View.mem_set_unit_zero zeroOff5 inb_S10000x128_S10000x128_0_0 y⟩

set_option maxHeartbeats 4000000 in
/-- The body on whole staging memrefs — the six inputs' at contents `x0 … x5`, the result's at anything — runs to the
    continuation holding the inputs' as they were and the result's at `comb5` of them. -/
theorem sound_kernel5 (c : Dev nD) (E : Set ℕ) (i : grid5.Coords) (arg1 : Memref sig .tc .vmem S10000x1 .i32) (harg1 : arg1.IsWhole) (arg2 : Memref sig .tc .vmem S10000x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S10000x128 .f32) (harg7 : arg7.IsWhole)
    (x0 : Vec F S10000x1 .i32) (x1 : Vec F S10000x128 .f32) (x2 : Vec F S64x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (comb5 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-! ## The proof data -/

/-- The proof data of the combine step on core `c`: the arrays as the region finds them; after the body at tile `t`
    each input's buffer still at its block, the result's at `comb5` of the six blocks; the invariant between tiles is
    the entry invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => comb5 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = comb5 (iblk5 V c 0 t) (iblk5 V c 1 t) (iblk5 V c 2 t) (iblk5 V c 3 t) (iblk5 V c 4 t) (iblk5 V c 5 t) := by dsimp only [dat5]

/-- Each input's current staging buffer holds its block at every tile. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic tile -/

/-- What the body is called with at tile `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any tile: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every tile. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- Entering the region gives the invariant before the first tile: they are the same proposition. -/
theorem hin5 (c : Dev nD) : Pipeline.ΦA spec5 c ⊢ (dat5 V c).Φ 0 := by
  dsimp only [dat5]; exact .rfl

/-- The invariant after the last tile gives the region's exit invariant: they are the same proposition. -/
theorem hout5 (c : Dev nD) : (dat5 V c).Φ (Fin.last cfg5.N) ⊢ Pipeline.ΦA spec5 c := by
  dsimp only [dat5]; exact .rfl

end Cert.KernelIdeal.Hand

end
-- ==== Proof.KI.Region6.lean ====
/-
  Region 6 of @main: the BatchNorm STATISTICS kernel on a grid of ten row tiles.

  One input window (the [100000,128] array, tile t at point t) and two output windows ([1,128] each, block index constant
  over the grid, so each is carried in its staging buffer across the ten points and written back once, after the last).
  At point 0 the body stores zeros to both outputs and then adds the tile's column sums (resp. column sums of squares);
  at every later point it adds the tile's to what the point before left. What the two staging buffers hold after point n
  is therefore a recursion on n over the body's payloads: the column sums `sumAt6`, the column sums of squares `sqAt6`.
-/
import proofs.«405200_j27075473834261_2_alg».proof.Proof.Gen.KernelIdeal.Launch
import proofs.«405200_j27075473834261_2_alg».proof.Proof.Gen.KernelIdeal.Skeleton
import proofs.«405200_j27075473834261_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the two outputs hold after each point -/

/-- The running column sums after point `n`: zero plus tile 0's column sums, then plus tile `n`'s. -/
def sumAt6 (c : Dev nD) : (n : ℕ) → n < cfg6.N → Vec F S1x128 .f32
  | 0, h => k6_pay4 (iblk6 V c 0 ⟨0, h⟩) (k6_pay1 (F := F))
  | n + 1, h => k6_pay4 (iblk6 V c 0 ⟨n + 1, h⟩) (sumAt6 c n (Nat.lt_of_succ_lt h))

/-- The running column sums of squares after point `n`. -/
def sqAt6 (c : Dev nD) : (n : ℕ) → n < cfg6.N → Vec F S1x128 .f32
  | 0, h => k6_pay5 (iblk6 V c 0 ⟨0, h⟩) (k6_pay2 (F := F))
  | n + 1, h => k6_pay5 (iblk6 V c 0 ⟨n + 1, h⟩) (sqAt6 c n (Nat.lt_of_succ_lt h))

/-! ## The pipeline's proof data -/

/-- The proof data of the statistics pipeline on core `c`: the arrays as the region finds them; after the body at point `t`
    the input's buffer at its tile, the outputs' at the running sums; the invariant the launch's own (the buffers no
    window stages), untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => sumAt6 V c t.val t.isLt
    | ⟨2, _⟩ => sqAt6 V c t.val t.isLt
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- Input window 0's current staging buffer holds its tile at every point, for any proof data whose array is the entry
    contents and whose body leaves the tile in place: the window is fetched at every point, uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-! ## The body's one conditional -/

/-- The condition of the body's reset: the grid coordinate is zero. -/
abbrev cond6 (i : grid6.Coords) : Prop := (Scalar.cmpi .ne (Scalar.extui (Scalar.cmpi .eq (BitVec.ofNat 32 (i 0).val) 0#32)) 0#32) = 1#1
/-- It holds at the first point only: decided over the ten points. -/
theorem hcond6 : ∀ t : Fin cfg6.N, cond6 (grid6.coords t) ↔ t.val = 0 :=
  (by decide +kernel : ∀ t : Fin grid6.N, cond6 (grid6.coords t) ↔ t.val = 0)

/-- Each window's current staging memref at point `t`, spelled as the pipeline passes it, and its wholeness. -/
abbrev ms6_0 (t : Fin cfg6.N) : Memref sig .tc .vmem S10000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)

/-! ## The body on any staging memrefs, case by case -/

set_option maxHeartbeats 1000000 in
/-- THE FIRST POINT (the reset taken). What the body's stores leave in the two outputs' staging memrefs, as pieces (last
    first), with the proof that on whole staging memrefs, the input's at its tile `x0` and the outputs' at anything, the body
    runs to the continuation holding the input's as it was and each output's with its pieces written. -/
noncomputable def kernelRun6_A (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) :
    Σ' (L1 : List (View.Piece (Elt F) S1x128 .f32)), { L2 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc6_stats_kernel i arg1 harg1 arg2 harg2 arg3 harg3) K } := by
  refine ⟨?_, ?_, fun E K => ?run⟩
  case run =>
    simp only [cc6_stats_kernel_eq_skeleton]; unfold cc6_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- A LATER POINT (the reset not taken). The same, the outputs' staging memrefs at their running contents `xo1`, `xo2`,
    which the body reads before it covers them. -/
noncomputable def kernelRun6_B (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 : Vec F S1x128 .f32) (xo2 : Vec F S1x128 .f32) :
    Σ' (L1 : List (View.Piece (Elt F) S1x128 .f32)), { L2 : List (View.Piece (Elt F) S1x128 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc6_stats_kernel i arg1 harg1 arg2 harg2 arg3 harg3) K } := by
  refine ⟨?_, ?_, fun E K => ?run⟩
  case run =>
    simp only [cc6_stats_kernel_eq_skeleton]; unfold cc6_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

/-! ## The pieces read back: each output's staging buffer after the body, over the payloads -/

theorem hz6 : (![0, 0] : Fin 2 → Nat) = fun _ => 0 := funext fun a => by fin_cases a <;> rfl

/-- At the first point the column-sum output's pieces (the zero store, then the sum's store) cover its block; -/
theorem cover6_A_1 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) (y : S1x128.Idx) :
    ∃ pc ∈ (kernelRun6_A c i arg1 harg1 arg2 harg2 arg3 harg3 hc0 x0).1, y ∈ pc.1.set :=
  View.cover_of_tiledL (kernelRun6_A c i arg1 harg1 arg2 harg2 arg3 harg3 hc0 x0).1 S1x128.size (by sl_kernel_rfl) y
/-- and so do the sum-of-squares output's. -/
theorem cover6_A_2 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) (y : S1x128.Idx) :
    ∃ pc ∈ (kernelRun6_A c i arg1 harg1 arg2 harg2 arg3 harg3 hc0 x0).2.1, y ∈ pc.1.set :=
  View.cover_of_tiledL (kernelRun6_A c i arg1 harg1 arg2 harg2 arg3 harg3 hc0 x0).2.1 S1x128.size (by sl_kernel_rfl) y
/-- At a later point each output's one store covers its block. -/
theorem cover6_B_1 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 xo2 : Vec F S1x128 .f32) (y : S1x128.Idx) :
    ∃ pc ∈ (kernelRun6_B c i arg1 harg1 arg2 harg2 arg3 harg3 hc0 x0 xo1 xo2).1, y ∈ pc.1.set :=
  View.cover_of_tiledL (kernelRun6_B c i arg1 harg1 arg2 harg2 arg3 harg3 hc0 x0 xo1 xo2).1 S1x128.size (by sl_kernel_rfl) y
theorem cover6_B_2 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 xo2 : Vec F S1x128 .f32) (y : S1x128.Idx) :
    ∃ pc ∈ (kernelRun6_B c i arg1 harg1 arg2 harg2 arg3 harg3 hc0 x0 xo1 xo2).2.1, y ∈ pc.1.set :=
  View.cover_of_tiledL (kernelRun6_B c i arg1 harg1 arg2 harg2 arg3 harg3 hc0 x0 xo1 xo2).2.1 S1x128.size (by sl_kernel_rfl) y

/-- THE FIRST POINT's column sums: the zero block, read back, plus the tile's column sums. -/
theorem read6_A_1 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) (f : arg2.view.ty.Contents (Elt F)) :
    arg2.view.read (Elt F) (arg2.view.writes (Elt F) f (kernelRun6_A c i arg1 harg1 arg2 harg2 arg3 harg3 hc0 x0).1)
      = k6_pay4 x0 (k6_pay1 (F := F)) := by
  rw [View.read_writes_eq_canon _ _ _ (cover6_A_1 c i arg1 harg1 arg2 harg2 arg3 harg3 hc0 x0)]
  unfold kernelRun6_A
  dsimp only
  sl_unfold_words
  rw [View.canon_cons_unit_zero (S := S1x128) hz6, View.readCov_unit_zero (S := S1x128) _ hz6]
  simp only [View.readAt_eq_ld, harg1.read_unread, View.ld_unit_zero (S := S10000x128) hz6]

/-- THE FIRST POINT's column sums of squares. -/
theorem read6_A_2 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond6 i)
    (x0 : Vec F S10000x128 .f32) (f : arg3.view.ty.Contents (Elt F)) :
    arg3.view.read (Elt F) (arg3.view.writes (Elt F) f (kernelRun6_A c i arg1 harg1 arg2 harg2 arg3 harg3 hc0 x0).2.1)
      = k6_pay5 x0 (k6_pay2 (F := F)) := by
  rw [View.read_writes_eq_canon _ _ _ (cover6_A_2 c i arg1 harg1 arg2 harg2 arg3 harg3 hc0 x0)]
  unfold kernelRun6_A
  dsimp only
  sl_unfold_words
  rw [View.canon_cons_unit_zero (S := S1x128) hz6, View.readCov_unit_zero (S := S1x128) _ hz6]
  simp only [View.readAt_eq_ld, harg1.read_unread, View.ld_unit_zero (S := S10000x128) hz6]

/-- A LATER POINT's column sums: what the point before left plus the tile's column sums. -/
theorem read6_B_1 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 xo2 : Vec F S1x128 .f32) (f : arg2.view.ty.Contents (Elt F)) :
    arg2.view.read (Elt F) (arg2.view.writes (Elt F) f (kernelRun6_B c i arg1 harg1 arg2 harg2 arg3 harg3 hc0 x0 xo1 xo2).1)
      = k6_pay4 x0 xo1 := by
  rw [View.read_writes_eq_canon _ _ _ (cover6_B_1 c i arg1 harg1 arg2 harg2 arg3 harg3 hc0 x0 xo1 xo2)]
  unfold kernelRun6_B
  dsimp only
  sl_unfold_words
  rw [View.canon_unit_zero (S := S1x128) hz6]
  simp only [View.readAt_eq_ld, harg1.read_unread, harg2.read_unread, View.ld_unit_zero (S := S10000x128) hz6, View.ld_unit_zero (S := S1x128) hz6]

/-- A LATER POINT's column sums of squares. -/
theorem read6_B_2 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond6 i)
    (x0 : Vec F S10000x128 .f32) (xo1 xo2 : Vec F S1x128 .f32) (f : arg3.view.ty.Contents (Elt F)) :
    arg3.view.read (Elt F) (arg3.view.writes (Elt F) f (kernelRun6_B c i arg1 harg1 arg2 harg2 arg3 harg3 hc0 x0 xo1 xo2).2.1)
      = k6_pay5 x0 xo2 := by
  rw [View.read_writes_eq_canon _ _ _ (cover6_B_2 c i arg1 harg1 arg2 harg2 arg3 harg3 hc0 x0 xo1 xo2)]
  unfold kernelRun6_B
  dsimp only
  sl_unfold_words
  rw [View.canon_unit_zero (S := S1x128) hz6]
  simp only [View.readAt_eq_ld, harg1.read_unread, harg3.read_unread, View.ld_unit_zero (S := S10000x128) hz6, View.ld_unit_zero (S := S1x128) hz6]

/-! ## The running sums, point by point -/

/-- The running column sums at the first point. -/
theorem sumAt6_first (c : Dev nD) (t : Fin cfg6.N) (h0 : t.val = 0) :
    sumAt6 V c t.val t.isLt = k6_pay4 (iblk6 V c 0 t) (k6_pay1 (F := F)) := by
  obtain ⟨n, hn⟩ := t
  dsimp only at h0
  subst h0
  rfl
/-- The running column sums at a later point: over what the point before left. -/
theorem sumAt6_later (c : Dev nD) (t : Fin cfg6.N) (h0 : t.val ≠ 0) :
    sumAt6 V c t.val t.isLt = k6_pay4 (iblk6 V c 0 t) (sumAt6 V c (t.val - 1) (Nat.lt_of_le_of_lt (Nat.sub_le _ _) t.isLt)) := by
  obtain ⟨n, hn⟩ := t
  cases n with
  | zero => exact absurd rfl h0
  | succ n => rfl
theorem sqAt6_first (c : Dev nD) (t : Fin cfg6.N) (h0 : t.val = 0) :
    sqAt6 V c t.val t.isLt = k6_pay5 (iblk6 V c 0 t) (k6_pay2 (F := F)) := by
  obtain ⟨n, hn⟩ := t
  dsimp only at h0
  subst h0
  rfl
theorem sqAt6_later (c : Dev nD) (t : Fin cfg6.N) (h0 : t.val ≠ 0) :
    sqAt6 V c t.val t.isLt = k6_pay5 (iblk6 V c 0 t) (sqAt6 V c (t.val - 1) (Nat.lt_of_le_of_lt (Nat.sub_le _ _) t.isLt)) := by
  obtain ⟨n, hn⟩ := t
  cases n with
  | zero => exact absurd rfl h0
  | succ n => rfl

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = sumAt6 V c t.val t.isLt := by dsimp only [dat6]
theorem after6_2 (c : Dev nD) (t : Fin cfg6.N) : (dat6 V c).after 2 t = sqAt6 V c t.val t.isLt := by dsimp only [dat6]

/-- The input's current staging buffer holds its tile at every point. -/
theorem before6_0 (c : Dev nD) (t : Fin cfg6.N) (d) : (dat6 V c).before 0 t d = iblk6 V c 0 t :=
  before6_0_of V (dat6 V c) (A_eq6 V c 0) (after6_0 V c) t d
/-- At a later point the column-sum output's staging buffer holds what the body left at the point before: it is written
    back after the last point only, the window is live and uncut. -/
theorem before6_1_later (c : Dev nD) (t : Fin cfg6.N) (h0 : t.val ≠ 0) (d) :
    (dat6 V c).before 1 t d = sumAt6 V c (t.val - 1) (Nat.lt_of_le_of_lt (Nat.sub_le _ _) t.isLt) := by
  have hN : t.val < 10 := lt_of_lt_of_eq t.isLt (show cfg6.N = 10 from N_6)
  rw [Dat.before_out_kept _ 1 rfl t h0 (Bool.eq_false_iff.mpr fun h => by have := (flush6_1 _).mp h; dsimp only at this; omega)
    (fun _ => rfl) (fun _ _ => rfl)]
  dsimp only [dat6]
/-- The same for the sum-of-squares output. -/
theorem before6_2_later (c : Dev nD) (t : Fin cfg6.N) (h0 : t.val ≠ 0) (d) :
    (dat6 V c).before 2 t d = sqAt6 V c (t.val - 1) (Nat.lt_of_le_of_lt (Nat.sub_le _ _) t.isLt) := by
  have hN : t.val < 10 := lt_of_lt_of_eq t.isLt (show cfg6.N = 10 from N_6)
  rw [Dat.before_out_kept _ 2 rfl t h0 (Bool.eq_false_iff.mpr fun h => by have := (flush6_2 _).mp h; dsimp only at this; omega)
    (fun _ => rfl) (fun _ _ => rfl)]
  dsimp only [dat6]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t))

set_option maxHeartbeats 800000 in
/-- The body at any point: the input's memref holds its tile; the point is the first or a later one; at a later one each
    output's memref holds what the point before left; so the case's run applies, and what it leaves reads as the running
    sums. The invariant passes through unread; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1, after6_2]
  by_cases h0 : t.val = 0
  · rw [sumAt6_first V c t h0, sqAt6_first V c t h0]
    iintro ⟨HΦ, Ho, ⟨%d0, H0⟩, ⟨%d1, H1⟩, ⟨%d2, H2⟩⟩
    iapply ((kernelRun6_A c (grid6.coords t) _ _ _ _ _ _ ((hcond6 t).mpr h0) (iblk6 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact read6_A_1 c _ _ _ _ _ _ _ _ _ _
    unfold owns; iexists _; isplitr
    swap; · iexact H2
    ipureintro; exact read6_A_2 c _ _ _ _ _ _ _ _ _ _
  · rw [sumAt6_later V c t h0, sqAt6_later V c t h0]
    simp only [before6_1_later V c t h0, before6_2_later V c t h0]
    iintro ⟨HΦ, Ho, ⟨%d0, H0⟩, ⟨%d1, H1⟩, ⟨%d2, H2⟩⟩
    iapply ((kernelRun6_B c (grid6.coords t) _ _ _ _ _ _ (fun h => h0 ((hcond6 t).mp h)) (iblk6 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact read6_B_1 c _ _ _ _ _ _ _ _ _ _ _ _
    unfold owns; iexists _; isplitr
    swap; · iexact H2
    ipureintro; exact read6_B_2 c _ _ _ _ _ _ _ _ _ _ _ _

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- The invariant at the first point is the class invariant. -/
theorem hin6 (c : Dev nD) : Pipeline.ΦA spec6 c ⊢ (dat6 V c).Φ 0 := by
  dsimp only [dat6]; exact Entails.refl _

/-- The invariant at the last point gives the class invariant back. -/
theorem hout6 (c : Dev nD) : (dat6 V c).Φ (Fin.last cfg6.N) ⊢ Pipeline.ΦA spec6 c := by
  dsimp only [dat6]; exact Entails.refl _

/-! ## The arrays after the run -/

/-- The input array is never written. -/
theorem arrAt6_0 (c : Dev nD) : (dat6 V c).arrAt 0 cfg6.N = V c (Pipeline.arrRef spec6 0) :=
  ((dat6 V c).arrAt_in 0 rfl _).trans (A_eq6 V c 0)

/-- The column sums after the last point, as contents of the first result array (its one block is the array). -/
abbrev colsums6 (c : Dev nD) : Buf (Elt F) ((c : Thread nD τ).loc main_v109_0) :=
  sumAt6 V c 9 (by rw [show cfg6.N = 10 from N_6]; decide)
/-- The column sums of squares after the last point, as contents of the second result array. -/
abbrev colsqs6 (c : Dev nD) : Buf (Elt F) ((c : Thread nD τ).loc main_v109_1) :=
  sqAt6 V c 9 (by rw [show cfg6.N = 10 from N_6]; decide)

/-- The one write-back of the column sums, after point 9, writes them: block (0, 0) of the [1,128] array read through zero
    offsets is the array. -/
theorem flushed6_1_eq (c : Dev nD) (t : Fin cfg6.N) (hf : (cfg6.win 1).flush t = true) :
    (dat6 V c).flushed 1 t = ((cfg6.win 1).blk t).view.read (Elt F) (colsums6 V c) := by
  have hN : cfg6.N = 10 := N_6
  have h9 : t.val = 9 := by have := (flush6_1 t).mp hf; have := t.isLt; omega
  obtain rfl : t = t6_9 := Fin.ext h9
  show (cfg6.win 1).cut (grid6.coords t6_9) ((dat6 V c).after 1 t6_9) = _
  rw [after6_1]
  have hz' : (fun a => win6_1.index t6_9 a * main_v109_0.ty.shape.size a) = fun _ => 0 := funext fun a => by fin_cases a <;> decide
  exact (Memref.read_access_unit_zero (Elt F) main_v109_0 hz' (fun a => by rw [congrFun hz' a]; simp) (colsums6 V c)).symm

/-- So the first result array ends holding the column sums after point 9. -/
theorem arrAt6_1 (c : Dev nD) : (dat6 V c).arrAt 1 cfg6.N = colsums6 V c :=
  (dat6 V c).arrAt_eq_of_cover 1 (colsums6 V c) (flushed6_1_eq V c) fun i =>
    ⟨t6_9, (flush6_1 t6_9).mpr rfl, by
      show i ∈ ((View.whole main_v109_0).slice (win6_1.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_1.index t6_9 0 * win6_1.size 0 ≤ (i 0 : Nat) ∧ (i 0 : Nat) < win6_1.index t6_9 0 * win6_1.size 0 + win6_1.xsize (grid6.coords t6_9) 0
                  rw [show win6_1.index t6_9 0 * win6_1.size 0 = 0 from by decide +kernel, show win6_1.xsize (grid6.coords t6_9) 0 = 1 from by decide +kernel]; omega
      | ⟨1, _⟩ => show win6_1.index t6_9 1 * win6_1.size 1 ≤ (i 1 : Nat) ∧ (i 1 : Nat) < win6_1.index t6_9 1 * win6_1.size 1 + win6_1.xsize (grid6.coords t6_9) 1
                  rw [show win6_1.index t6_9 1 * win6_1.size 1 = 0 from by decide +kernel, show win6_1.xsize (grid6.coords t6_9) 1 = 128 from by decide +kernel]; omega⟩

/-- The one write-back of the column sums of squares, after point 9, writes them. -/
theorem flushed6_2_eq (c : Dev nD) (t : Fin cfg6.N) (hf : (cfg6.win 2).flush t = true) :
    (dat6 V c).flushed 2 t = ((cfg6.win 2).blk t).view.read (Elt F) (colsqs6 V c) := by
  have hN : cfg6.N = 10 := N_6
  have h9 : t.val = 9 := by have := (flush6_2 t).mp hf; have := t.isLt; omega
  obtain rfl : t = t6_9 := Fin.ext h9
  show (cfg6.win 2).cut (grid6.coords t6_9) ((dat6 V c).after 2 t6_9) = _
  rw [after6_2]
  have hz' : (fun a => win6_2.index t6_9 a * main_v109_1.ty.shape.size a) = fun _ => 0 := funext fun a => by fin_cases a <;> decide
  exact (Memref.read_access_unit_zero (Elt F) main_v109_1 hz' (fun a => by rw [congrFun hz' a]; simp) (colsqs6 V c)).symm

/-- So the second result array ends holding the column sums of squares after point 9. -/
theorem arrAt6_2 (c : Dev nD) : (dat6 V c).arrAt 2 cfg6.N = colsqs6 V c :=
  (dat6 V c).arrAt_eq_of_cover 2 (colsqs6 V c) (flushed6_2_eq V c) fun i =>
    ⟨t6_9, (flush6_2 t6_9).mpr rfl, by
      show i ∈ ((View.whole main_v109_1).slice (win6_2.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_2.index t6_9 0 * win6_2.size 0 ≤ (i 0 : Nat) ∧ (i 0 : Nat) < win6_2.index t6_9 0 * win6_2.size 0 + win6_2.xsize (grid6.coords t6_9) 0
                  rw [show win6_2.index t6_9 0 * win6_2.size 0 = 0 from by decide +kernel, show win6_2.xsize (grid6.coords t6_9) 0 = 1 from by decide +kernel]; omega
      | ⟨1, _⟩ => show win6_2.index t6_9 1 * win6_2.size 1 ≤ (i 1 : Nat) ∧ (i 1 : Nat) < win6_2.index t6_9 1 * win6_2.size 1 + win6_2.xsize (grid6.coords t6_9) 1
                  rw [show win6_2.index t6_9 1 * win6_2.size 1 = 0 from by decide +kernel, show win6_2.xsize (grid6.coords t6_9) 1 = 128 from by decide +kernel]; omega⟩

end Cert.KernelIdeal.Hand

end
-- ==== Proof.KI.Region7.lean ====
/-
  The batch normalisation's APPLY step as a pipeline of ten tiles: at tile t the body reads the tile's 10000 rows of the
  [100000,128] input, the mean row, the inverse standard deviation row, the scale and the shift, and stores
  (x - mean) * invstd * g + b over the whole output tile. Nothing is carried from one tile to the next, so the invariant
  is the region's own (the core's other scoped buffers and its random-number register, untouched), and what enters the region leaves it.

  Here: each window's block at a tile read off the array the region finds, the output tile as one store covering its
  buffer, the body's triple, the proof data of the pipeline and the body obligation at every tile.
-/
import proofs.«405200_j27075473834261_2_alg».proof.Proof.Gen.KernelIdeal.Launch
import proofs.«405200_j27075473834261_2_alg».proof.Proof.Gen.KernelIdeal.Skeleton
import proofs.«405200_j27075473834261_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at tile t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: each buffer whole -/

/-- The whole [10000,128] tile. -/
abbrev tile7 : Rect S10000x128 := Rect.unit (s := S10000x128) ![0, 0] S10000x128.size inb_S10000x128_S10000x128_0_0
/-- The whole [1,128] row (mean, inverse standard deviation). -/
abbrev row7 : Rect S1x128 := Rect.unit (s := S1x128) ![0, 0] S1x128.size inb_S1x128_S1x128_0_0
/-- The whole [128] vector (scale, shift). -/
abbrev vec7 : Rect S128 := Rect.unit (s := S128) ![0] S128.size inb_S128_S128_0

/-! ## What the body leaves in the output tile -/

/-- The output buffer after the body, from the five inputs' buffers: its one store, the normalised tile. -/
def bnTile7 (x : Vec F S10000x128 .f32) (mean istd : Vec F S1x128 .f32) (g b : Vec F S128 .f32) : Vec F S10000x128 .f32 :=
  View.canon [⟨tile7, k7_pay1 (View.ld x tile7) (View.ld mean row7) (View.ld istd row7) (View.ld g vec7) (View.ld b vec7)⟩]

/-- The one store is the whole buffer, so it covers it. -/
theorem cover7 (p : Vec F S10000x128 .f32) (y : S10000x128.Idx) :
    ∃ pc ∈ ([⟨tile7, p⟩] : List (View.Piece (Elt F) S10000x128 .f32)), y ∈ pc.1.set :=
  View.cover_of_tiled [⟨tile7, p⟩] S10000x128.size (by rfl) y

/-! ## The pipeline's proof data -/

/-- The proof data of the apply pipeline on core c: the arrays as the region finds them; after the body at tile t each
    input's buffer at its block and the output's at the normalised tile of the input blocks; the invariant the region's
    own; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => bnTile7 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = bnTile7 (iblk7 V c 0 t) (iblk7 V c 1 t) (iblk7 V c 2 t) (iblk7 V c 3 t) (iblk7 V c 4 t) := by
  dsimp only [dat7]

/-! ## What the body finds in the inputs' buffers

The input tile is fetched at every tile; the two rows and the two vectors are fetched once, at the first tile, and the
body leaves them in place, so at every tile each input's buffer holds its block. -/

theorem finds7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7 V c 0]; try rfl) t d).trans
    (by unfold Dat.fetched Dat.blockOf iblk7; rw [A_eq7 V c 0]; try rfl)
theorem finds7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7 V c 1]; try rfl) t d).trans
    (by unfold Dat.fetched Dat.blockOf iblk7; rw [A_eq7 V c 1]; try rfl)
theorem finds7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7 V c 2]; try rfl) t d).trans
    (by unfold Dat.fetched Dat.blockOf iblk7; rw [A_eq7 V c 2]; try rfl)
theorem finds7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7 V c 3]; try rfl) t d).trans
    (by unfold Dat.fetched Dat.blockOf iblk7; rw [A_eq7 V c 3]; try rfl)
theorem finds7_4 (c : Dev nD) (t : Fin cfg7.N) (d) : (dat7 V c).before 4 t d = iblk7 V c 4 t :=
  ((dat7 V c).before_in_eq_fetched 4 rfl (fun _ => rfl) (fun _ _ _ => rfl)
    (fun t => by rw [after7_4]; unfold Dat.blockOf iblk7; rw [A_eq7 V c 4]; try rfl) t d).trans
    (by unfold Dat.fetched Dat.blockOf iblk7; rw [A_eq7 V c 4]; try rfl)

/-! ## The body's triple -/

set_option maxHeartbeats 1000000 in
/-- The body on whole staging memrefs — the five inputs' at contents x, mean, istd, g, b, the output's at anything — runs
    to the continuation holding the inputs' as they were and the output's at the normalised tile. -/
theorem sound_apply7 (c : Dev nD) (E : Set ℕ) (i : grid7.Coords)
    (arg1 : Memref sig .tc .vmem S10000x128 .f32) (harg1 : arg1.IsWhole) (arg2 : Memref sig .tc .vmem S1x128 .f32) (harg2 : arg2.IsWhole)
    (arg7 : Memref sig .tc .vmem S1x128 .f32) (harg7 : arg7.IsWhole) (arg4 : Memref sig .tc .vmem S128 .f32) (harg4 : arg4.IsWhole)
    (arg5 : Memref sig .tc .vmem S128 .f32) (harg5 : arg5.IsWhole) (arg6 : Memref sig .tc .vmem S10000x128 .f32) (harg6 : arg6.IsWhole)
    (x : Vec F S10000x128 .f32) (mean istd : Vec F S1x128 .f32) (g b : Vec F S128 .f32) (K : PUnit → sProp 𝕄) :
    iprop(owns (c : Thread nD τ) arg1 fullShare x ∗ owns (c : Thread nD τ) arg2 fullShare mean ∗ owns (c : Thread nD τ) arg7 fullShare istd
        ∗ owns (c : Thread nD τ) arg4 fullShare g ∗ owns (c : Thread nD τ) arg5 fullShare b ∗ (∃ d, owns (c : Thread nD τ) arg6 fullShare d)
        ∗ (iprop(owns (c : Thread nD τ) arg1 fullShare x ∗ owns (c : Thread nD τ) arg2 fullShare mean ∗ owns (c : Thread nD τ) arg7 fullShare istd
            ∗ owns (c : Thread nD τ) arg4 fullShare g ∗ owns (c : Thread nD τ) arg5 fullShare b
            ∗ owns (c : Thread nD τ) arg6 fullShare (bnTile7 x mean istd g b)) -∗ K ⟨⟩))
      ⊢ wp frame (wpE (defs₀ (F := F)) Variants.none c none) E
          (cc7_apply_kernel i arg1 harg1 arg2 harg2 arg7 harg7 arg4 harg4 arg5 harg5 arg6 harg6) K := by
  simp only [cc7_apply_kernel_eq_skeleton]; unfold cc7_apply_kernel_skel
  unfold owns
  iintro ⟨⟨%f1, %hf1, H1⟩, ⟨%f2, %hf2, H2⟩, ⟨%f7, %hf7, H7⟩, ⟨%f4, %hf4, H4⟩, ⟨%f5, %hf5, H5⟩, ⟨%d6, %f6, -, H6⟩, Hk⟩
  subst hf1 hf2 hf7 hf4 hf5
  sl_exec
  sl_step
  iapply Hk
  isplitl [H1]
  · iexists f1; isplitr; · ipureintro; rfl
    iexact H1
  isplitl [H2]
  · iexists f2; isplitr; · ipureintro; rfl
    iexact H2
  isplitl [H7]
  · iexists f7; isplitr; · ipureintro; rfl
    iexact H7
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7 _)

/-! ## The body obligation, at a generic tile -/

/-- What the body is called with at tile t, the windows one by one, -/
def tilePre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def tilePost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any tile: the inputs' memrefs hold their blocks, so the body's triple applies; the invariant and the
    core's debts pass through unread. -/
theorem sound_tile7 (c : Dev nD) (t : Fin cfg7.N) :
    tilePre7 V c t ⊢ wp frame (wpE (defs₀ (F := F)) Variants.none c none) Set.univ (bodyAt7 t) (fun _ => tilePost7 V c t) := by
  unfold tilePre7 tilePost7 bodyAt7
  simp only [finds7_0, finds7_1, finds7_2, finds7_3, finds7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d7, H7⟩, ⟨%d4, H4⟩, ⟨%d5, H5⟩⟩
  iapply (sound_apply7 c Set.univ _ _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H7]; · iexact H7
  isplitl [H4]; · iexact H4
  isplitl [H5]; · iexists _; iexact H5
  iintro ⟨H0, H1, H2, H7, H4, H5⟩
  isplitl [HΦ]; · iexact HΦ
  isplitl [Ho]; · iexact Ho
  isplitl [H0]; · iexact H0
  isplitl [H1]; · iexact H1
  isplitl [H2]; · iexact H2
  isplitl [H7]; · iexact H7
  isplitl [H4]; · iexact H4
  iexact H5

/-- The body at every tile. -/
theorem body_obligation7 (c : Dev nD) : BodyObligation (dat7 (F := F) V c) (defs₀ (F := F)) Variants.none () Set.univ := fun t => by
  rw [bigSep_W7, bigSep_W7]
  exact sound_tile7 V c t

/-- The invariant at the first tile is the region's own. -/
theorem hin7 (c : Dev nD) : Pipeline.ΦA spec7 c ⊢ (dat7 V c).Φ 0 := by
  dsimp only [dat7]
  iintro H; iexact H

/-- The invariant after the last tile is the region's own. -/
theorem hout7 (c : Dev nD) : (dat7 V c).Φ (Fin.last cfg7.N) ⊢ Pipeline.ΦA spec7 c := by
  dsimp only [dat7]
  iintro H; iexact H

end Cert.KernelIdeal.Hand

end
-- ==== Proof.KI.Chain.lean ====
/-
  The contents of the TensorCore's unscoped buffers between the twenty items of @main — host stretches and the eight
  pipelines of the two graph-convolution layers (aggregation, combination, column statistics, normalisation, twice) — with
  what each pipeline leaves in its output arrays named exactly: the fold of its ten tiles' write-backs over what the array
  held. The generated valuations between the items are written over unknown pipeline outputs; read at these exact outputs
  they are the valuations here. Then every pipeline's proof data at its own entry valuation, and each pipeline's exit
  valuation against its arrays: an input array is never written back, an output array holds the fold, nothing else changes.
-/
import proofs.«405200_j27075473834261_2_alg».proof.Proof.Gen.KernelIdeal.Regions
import proofs.«405200_j27075473834261_2_alg».proof.Proof.KI.Region0
import proofs.«405200_j27075473834261_2_alg».proof.Proof.KI.Region1
import proofs.«405200_j27075473834261_2_alg».proof.Proof.KI.Region2
import proofs.«405200_j27075473834261_2_alg».proof.Proof.KI.Region3
import proofs.«405200_j27075473834261_2_alg».proof.Proof.KI.Region4
import proofs.«405200_j27075473834261_2_alg».proof.Proof.KI.Region5
import proofs.«405200_j27075473834261_2_alg».proof.Proof.KI.Region6
import proofs.«405200_j27075473834261_2_alg».proof.Proof.KI.Region7

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The buffers' contents between the items, each pipeline's outputs named

@main is twenty items: host stretches and the eight pipelines. `X J m c` is what core `c`'s unscoped buffers hold after
item J−1: a host stretch rewrites the buffers its operations write (`StableHlo.after`); a pipeline rewrites its output
arrays, each to the fold of its ten write-backs over what the array held (`Dat.arrAt … N`), and nothing else. `T J` is the
same valuation read at the TensorCore's references: what the pipeline entered after item J−1 takes as its entry contents. -/

/-- Core `c`'s unscoped buffers at launch. -/
abbrev X0 (c : Dev nD) : Valuation τ sig (Elt F) := fun b => m (c, b)
/-- After item 0, the host stretch `hostOps0`. -/
abbrev X1 (c : Dev nD) : Valuation τ sig (Elt F) := StableHlo.after hostOps0 (X0 m c)
/-- After item 1, the host stretch `hostOps0_1`. -/
abbrev X2 (c : Dev nD) : Valuation τ sig (Elt F) := StableHlo.after hostOps0_1 (X1 m c)
/-- After item 2, the host stretch `hostOps0_2`. -/
abbrev X3 (c : Dev nD) : Valuation τ sig (Elt F) := StableHlo.after hostOps0_2 (X2 m c)
/-- After item 3, the host stretch `hostOps0_3`. -/
abbrev X4 (c : Dev nD) : Valuation τ sig (Elt F) := StableHlo.after hostOps0_3 (X3 m c)
/-- After item 4, the host stretch `hostOps0_4`. -/
abbrev X5 (c : Dev nD) : Valuation τ sig (Elt F) := StableHlo.after hostOps0_4 (X4 m c)
/-- After item 5, the host stretch `hostOps0_5`: what the first layer's aggregation is entered from. -/
abbrev X6 (c : Dev nD) : Valuation τ sig (Elt F) := StableHlo.after hostOps0_5 (X5 m c)
abbrev T6 (c : Dev nD) (b : Ref sig .tc) : Buf (Elt F) ((c : Thread nD τ).loc b) := X6 m c b
/-- After item 6, the first layer's aggregation (pipeline 0): `main_v31` holds the aggregated, transformed label means. -/
def X7 (c : Dev nD) : Valuation τ sig (Elt F) :=
  Function.update (X6 m c) main_v31 ((dat0 (T6 m) c).arrAt 5 cfg0.N)
/-- After item 7, the host stretch `hostOps1`. -/
abbrev X8 (c : Dev nD) : Valuation τ sig (Elt F) := StableHlo.after hostOps1 (X7 m c)
abbrev T8 (c : Dev nD) (b : Ref sig .tc) : Buf (Elt F) ((c : Thread nD τ).loc b) := X8 m c b
/-- After item 8, the first layer's combination (pipeline 1): `main_v51` holds the combined rows. -/
def X9 (c : Dev nD) : Valuation τ sig (Elt F) :=
  Function.update (X8 m c) main_v51 ((dat1 (T8 m) c).arrAt 6 cfg1.N)
abbrev T9 (c : Dev nD) (b : Ref sig .tc) : Buf (Elt F) ((c : Thread nD τ).loc b) := X9 m c b
/-- After item 9, the first layer's column statistics (pipeline 2): `main_v52_0` the column sums, `main_v52_1` the
    column sums of squares. -/
def X10 (c : Dev nD) : Valuation τ sig (Elt F) :=
  Function.update (Function.update (X9 m c) main_v52_0 ((dat2 (T9 m) c).arrAt 1 cfg2.N)) main_v52_1 ((dat2 (T9 m) c).arrAt 2 cfg2.N)
/-- After item 10, the host stretch `hostOps3` (mean and inverse standard deviation from the statistics). -/
abbrev X11 (c : Dev nD) : Valuation τ sig (Elt F) := StableHlo.after hostOps3 (X10 m c)
abbrev T11 (c : Dev nD) (b : Ref sig .tc) : Buf (Elt F) ((c : Thread nD τ).loc b) := X11 m c b
/-- After item 11, the first layer's normalisation (pipeline 3): `main_v62` holds the normalised rows. -/
def X12 (c : Dev nD) : Valuation τ sig (Elt F) :=
  Function.update (X11 m c) main_v62 ((dat3 (T11 m) c).arrAt 5 cfg3.N)
/-- After item 12, the host stretch `hostOps4`. -/
abbrev X13 (c : Dev nD) : Valuation τ sig (Elt F) := StableHlo.after hostOps4 (X12 m c)
abbrev T13 (c : Dev nD) (b : Ref sig .tc) : Buf (Elt F) ((c : Thread nD τ).loc b) := X13 m c b
/-- After item 13, the second layer's aggregation (pipeline 4): `main_v88`. -/
def X14 (c : Dev nD) : Valuation τ sig (Elt F) :=
  Function.update (X13 m c) main_v88 ((dat4 (T13 m) c).arrAt 5 cfg4.N)
/-- After item 14, the host stretch `hostOps5`. -/
abbrev X15 (c : Dev nD) : Valuation τ sig (Elt F) := StableHlo.after hostOps5 (X14 m c)
abbrev T15 (c : Dev nD) (b : Ref sig .tc) : Buf (Elt F) ((c : Thread nD τ).loc b) := X15 m c b
/-- After item 15, the second layer's combination (pipeline 5): `main_v108`. -/
def X16 (c : Dev nD) : Valuation τ sig (Elt F) :=
  Function.update (X15 m c) main_v108 ((dat5 (T15 m) c).arrAt 6 cfg5.N)
abbrev T16 (c : Dev nD) (b : Ref sig .tc) : Buf (Elt F) ((c : Thread nD τ).loc b) := X16 m c b
/-- After item 16, the second layer's column statistics (pipeline 6): `main_v109_0`, `main_v109_1`. -/
def X17 (c : Dev nD) : Valuation τ sig (Elt F) :=
  Function.update (Function.update (X16 m c) main_v109_0 ((dat6 (T16 m) c).arrAt 1 cfg6.N)) main_v109_1 ((dat6 (T16 m) c).arrAt 2 cfg6.N)
/-- After item 17, the host stretch `hostOps7`. -/
abbrev X18 (c : Dev nD) : Valuation τ sig (Elt F) := StableHlo.after hostOps7 (X17 m c)
abbrev T18 (c : Dev nD) (b : Ref sig .tc) : Buf (Elt F) ((c : Thread nD τ).loc b) := X18 m c b
/-- After item 18, the second layer's normalisation (pipeline 7): `main_v119`, the first result. -/
def X19 (c : Dev nD) : Valuation τ sig (Elt F) :=
  Function.update (X18 m c) main_v119 ((dat7 (T18 m) c).arrAt 5 cfg7.N)
/-- After item 19, the host stretch `hostOps8`, which leaves the second result in `main_v144`: the end. -/
abbrev X20 (c : Dev nD) : Valuation τ sig (Elt F) := StableHlo.after hostOps8 (X19 m c)

abbrev T7 (c : Dev nD) (b : Ref sig .tc) : Buf (Elt F) ((c : Thread nD τ).loc b) := X7 m c b
abbrev T10 (c : Dev nD) (b : Ref sig .tc) : Buf (Elt F) ((c : Thread nD τ).loc b) := X10 m c b
abbrev T12 (c : Dev nD) (b : Ref sig .tc) : Buf (Elt F) ((c : Thread nD τ).loc b) := X12 m c b
abbrev T14 (c : Dev nD) (b : Ref sig .tc) : Buf (Elt F) ((c : Thread nD τ).loc b) := X14 m c b
abbrev T17 (c : Dev nD) (b : Ref sig .tc) : Buf (Elt F) ((c : Thread nD τ).loc b) := X17 m c b
abbrev T19 (c : Dev nD) (b : Ref sig .tc) : Buf (Elt F) ((c : Thread nD τ).loc b) := X19 m c b

/-! ## Reading a pipeline's exit valuation: at an output array, and off the outputs -/

theorem X7_out (c : Dev nD) : T7 m c main_v31 = (dat0 (T6 m) c).arrAt 5 cfg0.N := by
  unfold T7 X7; exact Function.update_self ..
theorem X7_of_ne (c : Dev nD) (r : Ref sig .tc) (h : r ≠ main_v31) : T7 m c r = T6 m c r := by
  unfold T7 X7; exact Function.update_of_ne (StableHlo.devRef_ne_of_ne h) _ _

theorem X9_out (c : Dev nD) : T9 m c main_v51 = (dat1 (T8 m) c).arrAt 6 cfg1.N := by
  unfold T9 X9; exact Function.update_self ..
theorem X9_of_ne (c : Dev nD) (r : Ref sig .tc) (h : r ≠ main_v51) : T9 m c r = T8 m c r := by
  unfold T9 X9; exact Function.update_of_ne (StableHlo.devRef_ne_of_ne h) _ _

theorem X10_out0 (c : Dev nD) : T10 m c main_v52_0 = (dat2 (T9 m) c).arrAt 1 cfg2.N := by
  unfold T10 X10
  rw [Function.update_of_ne (StableHlo.devRef_ne_of_ne (show main_v52_0 ≠ main_v52_1 by decide))]
  exact Function.update_self ..
theorem X10_out1 (c : Dev nD) : T10 m c main_v52_1 = (dat2 (T9 m) c).arrAt 2 cfg2.N := by
  unfold T10 X10; exact Function.update_self ..
theorem X10_of_ne (c : Dev nD) (r : Ref sig .tc) (h0 : r ≠ main_v52_0) (h1 : r ≠ main_v52_1) : T10 m c r = T9 m c r := by
  unfold T10 X10
  rw [Function.update_of_ne (StableHlo.devRef_ne_of_ne h1), Function.update_of_ne (StableHlo.devRef_ne_of_ne h0)]

theorem X12_out (c : Dev nD) : T12 m c main_v62 = (dat3 (T11 m) c).arrAt 5 cfg3.N := by
  unfold T12 X12; exact Function.update_self ..
theorem X12_of_ne (c : Dev nD) (r : Ref sig .tc) (h : r ≠ main_v62) : T12 m c r = T11 m c r := by
  unfold T12 X12; exact Function.update_of_ne (StableHlo.devRef_ne_of_ne h) _ _

theorem X14_out (c : Dev nD) : T14 m c main_v88 = (dat4 (T13 m) c).arrAt 5 cfg4.N := by
  unfold T14 X14; exact Function.update_self ..
theorem X14_of_ne (c : Dev nD) (r : Ref sig .tc) (h : r ≠ main_v88) : T14 m c r = T13 m c r := by
  unfold T14 X14; exact Function.update_of_ne (StableHlo.devRef_ne_of_ne h) _ _

theorem X16_out (c : Dev nD) : T16 m c main_v108 = (dat5 (T15 m) c).arrAt 6 cfg5.N := by
  unfold T16 X16; exact Function.update_self ..
theorem X16_of_ne (c : Dev nD) (r : Ref sig .tc) (h : r ≠ main_v108) : T16 m c r = T15 m c r := by
  unfold T16 X16; exact Function.update_of_ne (StableHlo.devRef_ne_of_ne h) _ _

theorem X17_out0 (c : Dev nD) : T17 m c main_v109_0 = (dat6 (T16 m) c).arrAt 1 cfg6.N := by
  unfold T17 X17
  rw [Function.update_of_ne (StableHlo.devRef_ne_of_ne (show main_v109_0 ≠ main_v109_1 by decide))]
  exact Function.update_self ..
theorem X17_out1 (c : Dev nD) : T17 m c main_v109_1 = (dat6 (T16 m) c).arrAt 2 cfg6.N := by
  unfold T17 X17; exact Function.update_self ..
theorem X17_of_ne (c : Dev nD) (r : Ref sig .tc) (h0 : r ≠ main_v109_0) (h1 : r ≠ main_v109_1) : T17 m c r = T16 m c r := by
  unfold T17 X17
  rw [Function.update_of_ne (StableHlo.devRef_ne_of_ne h1), Function.update_of_ne (StableHlo.devRef_ne_of_ne h0)]

theorem X19_out (c : Dev nD) : T19 m c main_v119 = (dat7 (T18 m) c).arrAt 5 cfg7.N := by
  unfold T19 X19; exact Function.update_self ..
theorem X19_of_ne (c : Dev nD) (r : Ref sig .tc) (h : r ≠ main_v119) : T19 m c r = T18 m c r := by
  unfold T19 X19; exact Function.update_of_ne (StableHlo.devRef_ne_of_ne h) _ _

/-! ## The generated valuations at these outputs -/

/-- What each pipeline leaves in its output arrays, as the generated valuations read it: after a pipeline's item, the
    exit valuation there. -/
def outsE : Outs (F := F) := fun J r c =>
  match J with
  | 7 => X7 m c r
  | 9 => X9 m c r
  | 10 => X10 m c r
  | 12 => X12 m c r
  | 14 => X14 m c r
  | 16 => X16 m c r
  | 17 => X17 m c r
  | 19 => X19 m c r
  | _ => X0 m c r

theorem V7_eq (c : Dev nD) : V7 m (outsE m) c = X7 m c := by
  show Function.update (X6 m c) _ (T7 m c main_v31) = X7 m c
  rw [X7_out]; rfl
theorem V8_eq (c : Dev nD) : V8 m (outsE m) c = X8 m c := congrArg (StableHlo.after hostOps1) (V7_eq m c)
theorem V9_eq (c : Dev nD) : V9 m (outsE m) c = X9 m c := by
  show Function.update (V8 m (outsE m) c) _ (T9 m c main_v51) = X9 m c
  rw [X9_out, V8_eq]; rfl
theorem V10_eq (c : Dev nD) : V10 m (outsE m) c = X10 m c := by
  show Function.update (Function.update (V9 m (outsE m) c) _ (T10 m c main_v52_0)) _ (T10 m c main_v52_1) = X10 m c
  rw [X10_out0, X10_out1, V9_eq]; rfl
theorem V11_eq (c : Dev nD) : V11 m (outsE m) c = X11 m c := congrArg (StableHlo.after hostOps3) (V10_eq m c)
theorem V12_eq (c : Dev nD) : V12 m (outsE m) c = X12 m c := by
  show Function.update (V11 m (outsE m) c) _ (T12 m c main_v62) = X12 m c
  rw [X12_out, V11_eq]; rfl
theorem V13_eq (c : Dev nD) : V13 m (outsE m) c = X13 m c := congrArg (StableHlo.after hostOps4) (V12_eq m c)
theorem V14_eq (c : Dev nD) : V14 m (outsE m) c = X14 m c := by
  show Function.update (V13 m (outsE m) c) _ (T14 m c main_v88) = X14 m c
  rw [X14_out, V13_eq]; rfl
theorem V15_eq (c : Dev nD) : V15 m (outsE m) c = X15 m c := congrArg (StableHlo.after hostOps5) (V14_eq m c)
theorem V16_eq (c : Dev nD) : V16 m (outsE m) c = X16 m c := by
  show Function.update (V15 m (outsE m) c) _ (T16 m c main_v108) = X16 m c
  rw [X16_out, V15_eq]; rfl
theorem V17_eq (c : Dev nD) : V17 m (outsE m) c = X17 m c := by
  show Function.update (Function.update (V16 m (outsE m) c) _ (T17 m c main_v109_0)) _ (T17 m c main_v109_1) = X17 m c
  rw [X17_out0, X17_out1, V16_eq]; rfl
theorem V18_eq (c : Dev nD) : V18 m (outsE m) c = X18 m c := congrArg (StableHlo.after hostOps7) (V17_eq m c)
theorem V19_eq (c : Dev nD) : V19 m (outsE m) c = X19 m c := by
  show Function.update (V18 m (outsE m) c) _ (T19 m c main_v119) = X19 m c
  rw [X19_out, V18_eq]; rfl
theorem V20_eq (c : Dev nD) : V20 m (outsE m) c = X20 m c := congrArg (StableHlo.after hostOps8) (V19_eq m c)

/-! ## Every pipeline's proof data, each at its entry valuation -/

/-- A literal match, so that the family at a numeral reduces to the pipeline's own proof data. -/
def pdats : (p : Fin 8) → (c : Dev nD) → Dat τ (Elt F) Unit ℕ (UR sig nD τ) ℕ (cfgs p) c
  | ⟨0, _⟩ => fun c => dat0 (T6 m) c
  | ⟨1, _⟩ => fun c => dat1 (T8 m) c
  | ⟨2, _⟩ => fun c => dat2 (T9 m) c
  | ⟨3, _⟩ => fun c => dat3 (T11 m) c
  | ⟨4, _⟩ => fun c => dat4 (T13 m) c
  | ⟨5, _⟩ => fun c => dat5 (T15 m) c
  | ⟨6, _⟩ => fun c => dat6 (T16 m) c
  | ⟨7, _⟩ => fun c => dat7 (T18 m) c

/-! ## A pipeline's exit valuation against its arrays -/

/-- Pipeline 0's windows, one by one. -/
theorem fin_W0 (w : Fin cfg0.W) : w = 0 ∨ w = 1 ∨ w = 2 ∨ w = 3 ∨ w = 4 ∨ w = 5 := by revert w; decide
/-- At pipeline 0's exit each of its arrays holds what the pipeline leaves: an input array what it held at entry (it is
    never written back), an output array the fold of its write-backs. -/
theorem hF0 (c : Dev nD) (w : Fin cfg0.W) : (dat0 (T6 m) c).arrAt w cfg0.N = T7 m c (Pipeline.arrRef spec0 w) := by
  rcases fin_W0 w with rfl | rfl | rfl | rfl | rfl | rfl
  · exact ((dat0 (T6 m) c).arrAt_in 0 rfl _).trans ((A_eq0 (T6 m) c 0).trans (X7_of_ne m c (Pipeline.arrRef spec0 0) (by decide)).symm)
  · exact ((dat0 (T6 m) c).arrAt_in 1 rfl _).trans ((A_eq0 (T6 m) c 1).trans (X7_of_ne m c (Pipeline.arrRef spec0 1) (by decide)).symm)
  · exact ((dat0 (T6 m) c).arrAt_in 2 rfl _).trans ((A_eq0 (T6 m) c 2).trans (X7_of_ne m c (Pipeline.arrRef spec0 2) (by decide)).symm)
  · exact ((dat0 (T6 m) c).arrAt_in 3 rfl _).trans ((A_eq0 (T6 m) c 3).trans (X7_of_ne m c (Pipeline.arrRef spec0 3) (by decide)).symm)
  · exact ((dat0 (T6 m) c).arrAt_in 4 rfl _).trans ((A_eq0 (T6 m) c 4).trans (X7_of_ne m c (Pipeline.arrRef spec0 4) (by decide)).symm)
  · exact (X7_out m c).symm
/-- Every buffer that is none of pipeline 0's arrays holds at its exit what it held at its entry. -/
theorem hrest0 (c : Dev nD) : ∀ b, b ∉ Finset.univ.image (Pipeline.arrRef spec0) → T7 m c b = T6 m c b :=
  fun b hb => X7_of_ne m c b
    (fun e => hb (Finset.mem_image.mpr ⟨5, Finset.mem_univ _, e.symm⟩))

/-- Pipeline 1's windows, one by one. -/
theorem fin_W1 (w : Fin cfg1.W) : w = 0 ∨ w = 1 ∨ w = 2 ∨ w = 3 ∨ w = 4 ∨ w = 5 ∨ w = 6 := by revert w; decide
/-- At pipeline 1's exit each of its arrays holds what the pipeline leaves: an input array what it held at entry (it is
    never written back), an output array the fold of its write-backs. -/
theorem hF1 (c : Dev nD) (w : Fin cfg1.W) : (dat1 (T8 m) c).arrAt w cfg1.N = T9 m c (Pipeline.arrRef spec1 w) := by
  rcases fin_W1 w with rfl | rfl | rfl | rfl | rfl | rfl | rfl
  · exact ((dat1 (T8 m) c).arrAt_in 0 rfl _).trans ((A_eq1 (T8 m) c 0).trans (X9_of_ne m c (Pipeline.arrRef spec1 0) (by decide)).symm)
  · exact ((dat1 (T8 m) c).arrAt_in 1 rfl _).trans ((A_eq1 (T8 m) c 1).trans (X9_of_ne m c (Pipeline.arrRef spec1 1) (by decide)).symm)
  · exact ((dat1 (T8 m) c).arrAt_in 2 rfl _).trans ((A_eq1 (T8 m) c 2).trans (X9_of_ne m c (Pipeline.arrRef spec1 2) (by decide)).symm)
  · exact ((dat1 (T8 m) c).arrAt_in 3 rfl _).trans ((A_eq1 (T8 m) c 3).trans (X9_of_ne m c (Pipeline.arrRef spec1 3) (by decide)).symm)
  · exact ((dat1 (T8 m) c).arrAt_in 4 rfl _).trans ((A_eq1 (T8 m) c 4).trans (X9_of_ne m c (Pipeline.arrRef spec1 4) (by decide)).symm)
  · exact ((dat1 (T8 m) c).arrAt_in 5 rfl _).trans ((A_eq1 (T8 m) c 5).trans (X9_of_ne m c (Pipeline.arrRef spec1 5) (by decide)).symm)
  · exact (X9_out m c).symm
/-- Every buffer that is none of pipeline 1's arrays holds at its exit what it held at its entry. -/
theorem hrest1 (c : Dev nD) : ∀ b, b ∉ Finset.univ.image (Pipeline.arrRef spec1) → T9 m c b = T8 m c b :=
  fun b hb => X9_of_ne m c b
    (fun e => hb (Finset.mem_image.mpr ⟨6, Finset.mem_univ _, e.symm⟩))

/-- Pipeline 2's windows, one by one. -/
theorem fin_W2 (w : Fin cfg2.W) : w = 0 ∨ w = 1 ∨ w = 2 := by revert w; decide
/-- At pipeline 2's exit each of its arrays holds what the pipeline leaves: an input array what it held at entry (it is
    never written back), an output array the fold of its write-backs. -/
theorem hF2 (c : Dev nD) (w : Fin cfg2.W) : (dat2 (T9 m) c).arrAt w cfg2.N = T10 m c (Pipeline.arrRef spec2 w) := by
  rcases fin_W2 w with rfl | rfl | rfl
  · exact ((dat2 (T9 m) c).arrAt_in 0 rfl _).trans ((A_eq2 (T9 m) c 0).trans (X10_of_ne m c (Pipeline.arrRef spec2 0) (by decide) (by decide)).symm)
  · exact (X10_out0 m c).symm
  · exact (X10_out1 m c).symm
/-- Every buffer that is none of pipeline 2's arrays holds at its exit what it held at its entry. -/
theorem hrest2 (c : Dev nD) : ∀ b, b ∉ Finset.univ.image (Pipeline.arrRef spec2) → T10 m c b = T9 m c b :=
  fun b hb => X10_of_ne m c b
    (fun e => hb (Finset.mem_image.mpr ⟨1, Finset.mem_univ _, e.symm⟩))
    (fun e => hb (Finset.mem_image.mpr ⟨2, Finset.mem_univ _, e.symm⟩))

/-- Pipeline 3's windows, one by one. -/
theorem fin_W3 (w : Fin cfg3.W) : w = 0 ∨ w = 1 ∨ w = 2 ∨ w = 3 ∨ w = 4 ∨ w = 5 := by revert w; decide
/-- At pipeline 3's exit each of its arrays holds what the pipeline leaves: an input array what it held at entry (it is
    never written back), an output array the fold of its write-backs. -/
theorem hF3 (c : Dev nD) (w : Fin cfg3.W) : (dat3 (T11 m) c).arrAt w cfg3.N = T12 m c (Pipeline.arrRef spec3 w) := by
  rcases fin_W3 w with rfl | rfl | rfl | rfl | rfl | rfl
  · exact ((dat3 (T11 m) c).arrAt_in 0 rfl _).trans ((A_eq3 (T11 m) c 0).trans (X12_of_ne m c (Pipeline.arrRef spec3 0) (by decide)).symm)
  · exact ((dat3 (T11 m) c).arrAt_in 1 rfl _).trans ((A_eq3 (T11 m) c 1).trans (X12_of_ne m c (Pipeline.arrRef spec3 1) (by decide)).symm)
  · exact ((dat3 (T11 m) c).arrAt_in 2 rfl _).trans ((A_eq3 (T11 m) c 2).trans (X12_of_ne m c (Pipeline.arrRef spec3 2) (by decide)).symm)
  · exact ((dat3 (T11 m) c).arrAt_in 3 rfl _).trans ((A_eq3 (T11 m) c 3).trans (X12_of_ne m c (Pipeline.arrRef spec3 3) (by decide)).symm)
  · exact ((dat3 (T11 m) c).arrAt_in 4 rfl _).trans ((A_eq3 (T11 m) c 4).trans (X12_of_ne m c (Pipeline.arrRef spec3 4) (by decide)).symm)
  · exact (X12_out m c).symm
/-- Every buffer that is none of pipeline 3's arrays holds at its exit what it held at its entry. -/
theorem hrest3 (c : Dev nD) : ∀ b, b ∉ Finset.univ.image (Pipeline.arrRef spec3) → T12 m c b = T11 m c b :=
  fun b hb => X12_of_ne m c b
    (fun e => hb (Finset.mem_image.mpr ⟨5, Finset.mem_univ _, e.symm⟩))

/-- Pipeline 4's windows, one by one. -/
theorem fin_W4 (w : Fin cfg4.W) : w = 0 ∨ w = 1 ∨ w = 2 ∨ w = 3 ∨ w = 4 ∨ w = 5 := by revert w; decide
/-- At pipeline 4's exit each of its arrays holds what the pipeline leaves: an input array what it held at entry (it is
    never written back), an output array the fold of its write-backs. -/
theorem hF4 (c : Dev nD) (w : Fin cfg4.W) : (dat4 (T13 m) c).arrAt w cfg4.N = T14 m c (Pipeline.arrRef spec4 w) := by
  rcases fin_W4 w with rfl | rfl | rfl | rfl | rfl | rfl
  · exact ((dat4 (T13 m) c).arrAt_in 0 rfl _).trans ((A_eq4 (T13 m) c 0).trans (X14_of_ne m c (Pipeline.arrRef spec4 0) (by decide)).symm)
  · exact ((dat4 (T13 m) c).arrAt_in 1 rfl _).trans ((A_eq4 (T13 m) c 1).trans (X14_of_ne m c (Pipeline.arrRef spec4 1) (by decide)).symm)
  · exact ((dat4 (T13 m) c).arrAt_in 2 rfl _).trans ((A_eq4 (T13 m) c 2).trans (X14_of_ne m c (Pipeline.arrRef spec4 2) (by decide)).symm)
  · exact ((dat4 (T13 m) c).arrAt_in 3 rfl _).trans ((A_eq4 (T13 m) c 3).trans (X14_of_ne m c (Pipeline.arrRef spec4 3) (by decide)).symm)
  · exact ((dat4 (T13 m) c).arrAt_in 4 rfl _).trans ((A_eq4 (T13 m) c 4).trans (X14_of_ne m c (Pipeline.arrRef spec4 4) (by decide)).symm)
  · exact (X14_out m c).symm
/-- Every buffer that is none of pipeline 4's arrays holds at its exit what it held at its entry. -/
theorem hrest4 (c : Dev nD) : ∀ b, b ∉ Finset.univ.image (Pipeline.arrRef spec4) → T14 m c b = T13 m c b :=
  fun b hb => X14_of_ne m c b
    (fun e => hb (Finset.mem_image.mpr ⟨5, Finset.mem_univ _, e.symm⟩))

/-- Pipeline 5's windows, one by one. -/
theorem fin_W5 (w : Fin cfg5.W) : w = 0 ∨ w = 1 ∨ w = 2 ∨ w = 3 ∨ w = 4 ∨ w = 5 ∨ w = 6 := by revert w; decide
/-- At pipeline 5's exit each of its arrays holds what the pipeline leaves: an input array what it held at entry (it is
    never written back), an output array the fold of its write-backs. -/
theorem hF5 (c : Dev nD) (w : Fin cfg5.W) : (dat5 (T15 m) c).arrAt w cfg5.N = T16 m c (Pipeline.arrRef spec5 w) := by
  rcases fin_W5 w with rfl | rfl | rfl | rfl | rfl | rfl | rfl
  · exact ((dat5 (T15 m) c).arrAt_in 0 rfl _).trans ((A_eq5 (T15 m) c 0).trans (X16_of_ne m c (Pipeline.arrRef spec5 0) (by decide)).symm)
  · exact ((dat5 (T15 m) c).arrAt_in 1 rfl _).trans ((A_eq5 (T15 m) c 1).trans (X16_of_ne m c (Pipeline.arrRef spec5 1) (by decide)).symm)
  · exact ((dat5 (T15 m) c).arrAt_in 2 rfl _).trans ((A_eq5 (T15 m) c 2).trans (X16_of_ne m c (Pipeline.arrRef spec5 2) (by decide)).symm)
  · exact ((dat5 (T15 m) c).arrAt_in 3 rfl _).trans ((A_eq5 (T15 m) c 3).trans (X16_of_ne m c (Pipeline.arrRef spec5 3) (by decide)).symm)
  · exact ((dat5 (T15 m) c).arrAt_in 4 rfl _).trans ((A_eq5 (T15 m) c 4).trans (X16_of_ne m c (Pipeline.arrRef spec5 4) (by decide)).symm)
  · exact ((dat5 (T15 m) c).arrAt_in 5 rfl _).trans ((A_eq5 (T15 m) c 5).trans (X16_of_ne m c (Pipeline.arrRef spec5 5) (by decide)).symm)
  · exact (X16_out m c).symm
/-- Every buffer that is none of pipeline 5's arrays holds at its exit what it held at its entry. -/
theorem hrest5 (c : Dev nD) : ∀ b, b ∉ Finset.univ.image (Pipeline.arrRef spec5) → T16 m c b = T15 m c b :=
  fun b hb => X16_of_ne m c b
    (fun e => hb (Finset.mem_image.mpr ⟨6, Finset.mem_univ _, e.symm⟩))

/-- Pipeline 6's windows, one by one. -/
theorem fin_W6 (w : Fin cfg6.W) : w = 0 ∨ w = 1 ∨ w = 2 := by revert w; decide
/-- At pipeline 6's exit each of its arrays holds what the pipeline leaves: an input array what it held at entry (it is
    never written back), an output array the fold of its write-backs. -/
theorem hF6 (c : Dev nD) (w : Fin cfg6.W) : (dat6 (T16 m) c).arrAt w cfg6.N = T17 m c (Pipeline.arrRef spec6 w) := by
  rcases fin_W6 w with rfl | rfl | rfl
  · exact ((dat6 (T16 m) c).arrAt_in 0 rfl _).trans ((A_eq6 (T16 m) c 0).trans (X17_of_ne m c (Pipeline.arrRef spec6 0) (by decide) (by decide)).symm)
  · exact (X17_out0 m c).symm
  · exact (X17_out1 m c).symm
/-- Every buffer that is none of pipeline 6's arrays holds at its exit what it held at its entry. -/
theorem hrest6 (c : Dev nD) : ∀ b, b ∉ Finset.univ.image (Pipeline.arrRef spec6) → T17 m c b = T16 m c b :=
  fun b hb => X17_of_ne m c b
    (fun e => hb (Finset.mem_image.mpr ⟨1, Finset.mem_univ _, e.symm⟩))
    (fun e => hb (Finset.mem_image.mpr ⟨2, Finset.mem_univ _, e.symm⟩))

/-- Pipeline 7's windows, one by one. -/
theorem fin_W7 (w : Fin cfg7.W) : w = 0 ∨ w = 1 ∨ w = 2 ∨ w = 3 ∨ w = 4 ∨ w = 5 := by revert w; decide
/-- At pipeline 7's exit each of its arrays holds what the pipeline leaves: an input array what it held at entry (it is
    never written back), an output array the fold of its write-backs. -/
theorem hF7 (c : Dev nD) (w : Fin cfg7.W) : (dat7 (T18 m) c).arrAt w cfg7.N = T19 m c (Pipeline.arrRef spec7 w) := by
  rcases fin_W7 w with rfl | rfl | rfl | rfl | rfl | rfl
  · exact ((dat7 (T18 m) c).arrAt_in 0 rfl _).trans ((A_eq7 (T18 m) c 0).trans (X19_of_ne m c (Pipeline.arrRef spec7 0) (by decide)).symm)
  · exact ((dat7 (T18 m) c).arrAt_in 1 rfl _).trans ((A_eq7 (T18 m) c 1).trans (X19_of_ne m c (Pipeline.arrRef spec7 1) (by decide)).symm)
  · exact ((dat7 (T18 m) c).arrAt_in 2 rfl _).trans ((A_eq7 (T18 m) c 2).trans (X19_of_ne m c (Pipeline.arrRef spec7 2) (by decide)).symm)
  · exact ((dat7 (T18 m) c).arrAt_in 3 rfl _).trans ((A_eq7 (T18 m) c 3).trans (X19_of_ne m c (Pipeline.arrRef spec7 3) (by decide)).symm)
  · exact ((dat7 (T18 m) c).arrAt_in 4 rfl _).trans ((A_eq7 (T18 m) c 4).trans (X19_of_ne m c (Pipeline.arrRef spec7 4) (by decide)).symm)
  · exact (X19_out m c).symm
/-- Every buffer that is none of pipeline 7's arrays holds at its exit what it held at its entry. -/
theorem hrest7 (c : Dev nD) : ∀ b, b ∉ Finset.univ.image (Pipeline.arrRef spec7) → T19 m c b = T18 m c b :=
  fun b hb => X19_of_ne m c b
    (fun e => hb (Finset.mem_image.mpr ⟨5, Finset.mem_univ _, e.symm⟩))

/-! ## The two results at the end -/

/-- The first result is what the second layer's normalisation left: the last host stretch does not write it. -/
theorem X20_main_v119 (c : Dev nD) : X20 m c main_v119 = (dat7 (T18 m) c).arrAt 5 cfg7.N :=
  (StableHlo.after_of_writes_sub hostOps8 _ hostOps8_writes (by decide)).trans (X19_out m c)

end Cert.KernelIdeal.Hand

end
-- ==== Proof.KI.Records.lean ====
/-
  The eight pipelines as segments of @main over one thread state: every unscoped buffer of the core at the valuation of the
  item boundary, the generator register at some state, nothing owed. A pipeline's arrays are split out of the unscoped
  buffers when it is entered and put back, at the exit valuation, when it is left.
-/
import proofs.«405200_j27075473834261_2_alg».proof.Proof.KI.Chain
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## What the thread state carries beside the buffers -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a pipeline's invariant
    takes it in and gives it back) and the core owing nothing. -/
abbrev R (c : Dev nD) : sProp 𝕄 := iprop((∃ r, prngReg c r) ∗ ∃ W, owes (c : Thread nD τ) (0 : CellTallies nD τ sig Unit) W)

/-! ## The eight pipelines as segments of @main -/

-- a library lemma stated over the pinned configuration unifies with the printed one only when unification may unfold
-- plain definitions in a metavariable's type
set_option backward.isDefEq.respectTransparency.types false in
/-- Pipeline 0, the first layer's aggregation, over the thread state: entered from every unscoped buffer at `X6`, left at `X7`. Its arrays are
    split out of the unscoped buffers at entry and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T6 m) c).loose
  hwaits := Pipeline.hwaits_of_owed_zero _ _ _ _ L lv 0 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec0 c (T6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T6 m c) fun w => A_eq0 (T6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (T6 m) c)
    unfold Pipeline.ΦA
    iintro ⟨Hp, -, Hr⟩
    isplitl [Hr]; · iexact Hr
    iexact Hp
  hout c := by
    rw [Pipeline.ownSems0_none]
    refine (hout0 (T6 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T6 m c) (T7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 1, the first layer's combination, over the thread state: entered from every unscoped buffer at `X8`, left at `X9`. Its arrays are
    split out of the unscoped buffers at entry and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T8 m) c).loose
  hwaits := Pipeline.hwaits_of_owed_zero _ _ _ _ L lv 1 fun _ _ => rfl
  pre c := iprop(StableHlo.held (c : Thread nD τ) (Pipeline.ucRefs τ sig) (X8 m c) ∗ R c)
  post c := iprop(StableHlo.held (c : Thread nD τ) (Pipeline.ucRefs τ sig) (X9 m c) ∗ R c)
  X c := iprop(∃ r, prngReg c r)
  Y c := iprop(∃ r, prngReg c r)
  Z c := Pipeline.unscopedRest (Ix := Unit) (Name := ℕ) (U := UR sig nD τ) (Lvl := ℕ) spec1 c (T8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T8 m c) fun w => A_eq1 (T8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (T8 m) c)
    unfold Pipeline.ΦA
    iintro ⟨Hp, -, Hr⟩
    isplitl [Hr]; · iexact Hr
    iexact Hp
  hout c := by
    rw [Pipeline.ownSems0_none]
    refine (hout1 (T8 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T8 m c) (T9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 2, the first layer's column statistics, over the thread state: entered from every unscoped buffer at `X9`, left at `X10`. Its arrays are
    split out of the unscoped buffers at entry and put back at the exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T9 m) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (T9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T9 m c) fun w => A_eq2 (T9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (T9 m) c)
    unfold Pipeline.ΦA
    iintro ⟨Hp, -, Hr⟩
    isplitl [Hr]; · iexact Hr
    iexact Hp
  hout c := by
    rw [Pipeline.ownSems0_none]
    refine (hout2 (T9 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T9 m c) (T10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 3, the first layer's normalisation, over the thread state: entered from every unscoped buffer at `X11`, left at `X12`. Its arrays are
    split out of the unscoped buffers at entry and put back at the exit contents; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T11 m) c).loose
  hwaits := Pipeline.hwaits_of_owed_zero _ _ _ _ L lv 3 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec3 c (T11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T11 m c) fun w => A_eq3 (T11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec3 c).trans (hin3 (T11 m) c)
    unfold Pipeline.ΦA
    iintro ⟨Hp, -, Hr⟩
    isplitl [Hr]; · iexact Hr
    iexact Hp
  hout c := by
    rw [Pipeline.ownSems0_none]
    refine (hout3 (T11 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T11 m c) (T12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 4, the second layer's aggregation, over the thread state: entered from every unscoped buffer at `X13`, left at `X14`. Its arrays are
    split out of the unscoped buffers at entry and put back at the exit contents; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T13 m) c).loose
  hwaits := Pipeline.hwaits_of_owed_zero _ _ _ _ L lv 4 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec4 c (T13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T13 m c) fun w => A_eq4 (T13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec4 c).trans (hin4 (T13 m) c)
    unfold Pipeline.ΦA
    iintro ⟨Hp, -, Hr⟩
    isplitl [Hr]; · iexact Hr
    iexact Hp
  hout c := by
    rw [Pipeline.ownSems0_none]
    refine (hout4 (T13 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T13 m c) (T14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 5, the second layer's combination, over the thread state: entered from every unscoped buffer at `X15`, left at `X16`. Its arrays are
    split out of the unscoped buffers at entry and put back at the exit contents; the generator register goes into the
    region's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T15 m) c).loose
  hwaits := Pipeline.hwaits_of_owed_zero _ _ _ _ L lv 5 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec5 c (T15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T15 m c) fun w => A_eq5 (T15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec5 c).trans (hin5 (T15 m) c)
    unfold Pipeline.ΦA
    iintro ⟨Hp, -, Hr⟩
    isplitl [Hr]; · iexact Hr
    iexact Hp
  hout c := by
    rw [Pipeline.ownSems0_none]
    refine (hout5 (T15 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T15 m c) (T16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 6, the second layer's column statistics, over the thread state: entered from every unscoped buffer at `X16`, left at `X17`. Its arrays are
    split out of the unscoped buffers at entry and put back at the exit contents; the generator register goes into the
    region's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T16 m) c).loose
  hwaits := Pipeline.hwaits_of_owed_zero _ _ _ _ L lv 6 fun _ _ => rfl
  pre c := iprop(StableHlo.held (c : Thread nD τ) (Pipeline.ucRefs τ sig) (X16 m c) ∗ R c)
  post c := iprop(StableHlo.held (c : Thread nD τ) (Pipeline.ucRefs τ sig) (X17 m c) ∗ R c)
  X c := iprop(∃ r, prngReg c r)
  Y c := iprop(∃ r, prngReg c r)
  Z c := Pipeline.unscopedRest (Ix := Unit) (Name := ℕ) (U := UR sig nD τ) (Lvl := ℕ) spec6 c (T16 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T16 m c) fun w => A_eq6 (T16 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec6 c).trans (hin6 (T16 m) c)
    unfold Pipeline.ΦA
    iintro ⟨Hp, -, Hr⟩
    isplitl [Hr]; · iexact Hr
    iexact Hp
  hout c := by
    rw [Pipeline.ownSems0_none]
    refine (hout6 (T16 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T16 m c) (T17 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pipeline 7, the second layer's normalisation, over the thread state: entered from every unscoped buffer at `X18`, left at `X19`. Its arrays are
    split out of the unscoped buffers at entry and put back at the exit contents; the generator register goes into the
    region's invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T18 m) c).loose
  hwaits := Pipeline.hwaits_of_owed_zero _ _ _ _ L lv 7 fun _ _ => rfl
  pre c := iprop(StableHlo.held (c : Thread nD τ) (Pipeline.ucRefs τ sig) (X18 m c) ∗ R c)
  post c := iprop(StableHlo.held (c : Thread nD τ) (Pipeline.ucRefs τ sig) (X19 m c) ∗ R c)
  X c := iprop(∃ r, prngReg c r)
  Y c := iprop(∃ r, prngReg c r)
  Z c := Pipeline.unscopedRest (Ix := Unit) (Name := ℕ) (U := UR sig nD τ) (Lvl := ℕ) spec7 c (T18 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T18 m c) fun w => A_eq7 (T18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec7 c).trans (hin7 (T18 m) c)
    unfold Pipeline.ΦA
    iintro ⟨Hp, -, Hr⟩
    isplitl [Hr]; · iexact Hr
    iexact Hp
  hout c := by
    rw [Pipeline.ownSems0_none]
    refine (hout7 (T18 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T18 m c) (T19 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RefRunB.W0.lean ====
/-
  Operations 1 … 64 of the reference's 472 host operations (the first stretch of @main, in order), read as a
  list: the stretch of the program IS the list run in sequence; every operation touches only the TensorCore's buffers and
  allocates none; the buffers the stretch writes; and, for each buffer the stretch writes that a later stretch (or the
  result) reads, its contents after the stretch as a function of the contents, before the stretch, of the buffers the
  stretch reads and does not itself write — the operations' functions composed, from ANY contents before the stretch.
-/
import proofs.«405200_j27075473834261_2_alg».proof.Proof.Gen.ReferenceIdeal
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
/-- The stretch's operations, in order (a called function's operations stand in its call's place). -/
abbrev ops0 : List (HloOp τ sig (Elt F)) :=
  [ nullary main_v0 (iotaInDim S100000 32 0),
    nullary main_cst (constant S_ .f32 0x3F800000#32),
    unary main_cst main_v1 (broadcastInDim S100000 ![] bcast_S_S100000 : (⟨S_, .f32⟩ : BufTy).Contents (Elt F) → (⟨S100000, .f32⟩ : BufTy).Contents (Elt F)),
    nullary main_cst_0 (constant S_ .f32 0x00000000#32),
    unary main_cst_0 main_v2 (broadcastInDim S100000 ![] bcast_S_S100000 : (⟨S_, .f32⟩ : BufTy).Contents (Elt F) → (⟨S100000, .f32⟩ : BufTy).Contents (Elt F)),
    unary main_v0 main_v3 (broadcastInDim S100000x1 ![0] bcast_S100000_S100000x1_0 : (⟨S100000, .i32⟩ : BufTy).Contents (Elt F) → (⟨S100000x1, .i32⟩ : BufTy).Contents (Elt F)),
    ternary main_v2 main_v3 main_v1 main_v4 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_1 (constant S_ .f32 0x00000000#32),
    unary main_cst_1 main_v5 (broadcastInDim S64 ![] bcast_S_S64 : (⟨S_, .f32⟩ : BufTy).Contents (Elt F) → (⟨S64, .f32⟩ : BufTy).Contents (Elt F)),
    unary main_arg22 main_v6 (broadcastInDim S100000x1 ![0] bcast_S100000_S100000x1_0 : (⟨S100000, .i32⟩ : BufTy).Contents (Elt F) → (⟨S100000x1, .i32⟩ : BufTy).Contents (Elt F)),
    ternary main_v5 main_v6 main_v1 main_v7 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_2 (constant S_ .f32 0x00000000#32),
    unary main_cst_2 main_v8 (broadcastInDim S100000 ![] bcast_S_S100000 : (⟨S_, .f32⟩ : BufTy).Contents (Elt F) → (⟨S100000, .f32⟩ : BufTy).Contents (Elt F)),
    binary main_v4 main_v8 main_v9 (cmpf (F := F) .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v10 (broadcastInDim S100000 ![] bcast_S_S100000 : (⟨S_, .f32⟩ : BufTy).Contents (Elt F) → (⟨S100000, .f32⟩ : BufTy).Contents (Elt F)),
    binary main_v4 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select,
    unary main_v13 main_v14 (broadcastInDim S100000x1 ![0] bcast_S100000_S100000x1_0 : (⟨S100000, .f32⟩ : BufTy).Contents (Elt F) → (⟨S100000x1, .f32⟩ : BufTy).Contents (Elt F)),
    unary main_v14 main_v15 (broadcastInDim S100000x128 ![0, 1] bcast_S100000x1_S100000x128_0_1 : (⟨S100000x1, .f32⟩ : BufTy).Contents (Elt F) → (⟨S100000x128, .f32⟩ : BufTy).Contents (Elt F)),
    binary main_arg0 main_v15 main_v16 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v17 (broadcastInDim S100000 ![] bcast_S_S100000 : (⟨S_, .i32⟩ : BufTy).Contents (Elt F) → (⟨S100000, .i32⟩ : BufTy).Contents (Elt F)),
    binary main_v0 main_v17 main_v18 (cmpi .slt : (⟨S100000, .i32⟩ : BufTy).Contents (Elt F) → (⟨S100000, .i32⟩ : BufTy).Contents (Elt F) → (⟨S100000, .i1⟩ : BufTy).Contents (Elt F)),
    nullary main_c_5 (constantI S_ 32 100000#32),
    unary main_c_5 main_v19 (broadcastInDim S100000 ![] bcast_S_S100000 : (⟨S_, .i32⟩ : BufTy).Contents (Elt F) → (⟨S100000, .i32⟩ : BufTy).Contents (Elt F)),
    binary main_v0 main_v19 main_v20 (addi : (⟨S100000, .i32⟩ : BufTy).Contents (Elt F) → (⟨S100000, .i32⟩ : BufTy).Contents (Elt F) → (⟨S100000, .i32⟩ : BufTy).Contents (Elt F)),
    ternary main_v18 main_v20 main_v0 main_v21 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v21 main_v22 (broadcastInDim S100000x1 ![0] bcast_S100000_S100000x1_0 : (⟨S100000, .i32⟩ : BufTy).Contents (Elt F) → (⟨S100000x1, .i32⟩ : BufTy).Contents (Elt F)),
    binary main_v16 main_v22 main_v23 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    nullary main_cst_6 (constant S_ .f32 0x00000000#32),
    unary main_cst_6 main_v24 (broadcastInDim S64x128 ![] bcast_S_S64x128 : (⟨S_, .f32⟩ : BufTy).Contents (Elt F) → (⟨S64x128, .f32⟩ : BufTy).Contents (Elt F)),
    unary main_arg22 main_v25 (broadcastInDim S100000x1 ![0] bcast_S100000_S100000x1_0 : (⟨S100000, .i32⟩ : BufTy).Contents (Elt F) → (⟨S100000x1, .i32⟩ : BufTy).Contents (Elt F)),
    ternary main_v24 main_v25 main_v23 main_v26 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_7 (constant S_ .f32 0x00000000#32),
    unary main_cst_7 main_v27 (broadcastInDim S64 ![] bcast_S_S64 : (⟨S_, .f32⟩ : BufTy).Contents (Elt F) → (⟨S64, .f32⟩ : BufTy).Contents (Elt F)),
    binary main_v7 main_v27 main_v28 (cmpf (F := F) .ogt : (⟨S64, .f32⟩ : BufTy).Contents (Elt F) → (⟨S64, .f32⟩ : BufTy).Contents (Elt F) → (⟨S64, .i1⟩ : BufTy).Contents (Elt F)),
    nullary main_cst_8 (constant S_ .f32 0x3F800000#32),
    unary main_cst_8 main_v29 (broadcastInDim S64 ![] bcast_S_S64 : (⟨S_, .f32⟩ : BufTy).Contents (Elt F) → (⟨S64, .f32⟩ : BufTy).Contents (Elt F)),
    binary main_v7 main_v29 main_v30 (maximumf : (⟨S64, .f32⟩ : BufTy).Contents (Elt F) → (⟨S64, .f32⟩ : BufTy).Contents (Elt F) → (⟨S64, .f32⟩ : BufTy).Contents (Elt F)),
    unary main_v30 main_v31 (Host.rsqrt : (⟨S64, .f32⟩ : BufTy).Contents (Elt F) → (⟨S64, .f32⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S64, .f32⟩) main_call1_v1) (broadcastInDim S64 ![] bcast_S_S64),
    TRef.ternary (TRef.of (T := ⟨S64, .i1⟩) main_v28) (TRef.of (T := ⟨S64, .f32⟩) main_v31) (TRef.of (T := ⟨S64, .f32⟩) main_call1_v1) (TRef.of (T := ⟨S64, .f32⟩) main_v32) select,
    unary main_v32 main_v33 (broadcastInDim S64x1 ![0] bcast_S64_S64x1_0 : (⟨S64, .f32⟩ : BufTy).Contents (Elt F) → (⟨S64x1, .f32⟩ : BufTy).Contents (Elt F)),
    unary main_v33 main_v34 (broadcastInDim S64x128 ![0, 1] bcast_S64x1_S64x128_0_1 : (⟨S64x1, .f32⟩ : BufTy).Contents (Elt F) → (⟨S64x128, .f32⟩ : BufTy).Contents (Elt F)),
    binary main_v26 main_v34 main_v35 (mulf : (⟨S64x128, .f32⟩ : BufTy).Contents (Elt F) → (⟨S64x128, .f32⟩ : BufTy).Contents (Elt F) → (⟨S64x128, .f32⟩ : BufTy).Contents (Elt F)),
    binary main_v35 main_arg2 main_v36 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg3 main_v37 (broadcastInDim S1x128 ![1] bcast_S128_S1x128_1 : (⟨S128, .f32⟩ : BufTy).Contents (Elt F) → (⟨S1x128, .f32⟩ : BufTy).Contents (Elt F)),
    unary main_v37 main_v38 (broadcastInDim S64x128 ![0, 1] bcast_S1x128_S64x128_0_1 : (⟨S1x128, .f32⟩ : BufTy).Contents (Elt F) → (⟨S64x128, .f32⟩ : BufTy).Contents (Elt F)),
    binary main_v36 main_v38 main_v39 (addf : (⟨S64x128, .f32⟩ : BufTy).Contents (Elt F) → (⟨S64x128, .f32⟩ : BufTy).Contents (Elt F) → (⟨S64x128, .f32⟩ : BufTy).Contents (Elt F)),
    nullary main_cst_10 (constant S_ .f32 0x3F800000#32),
    unary main_cst_10 main_v40 (broadcastInDim S100000 ![] bcast_S_S100000 : (⟨S_, .f32⟩ : BufTy).Contents (Elt F) → (⟨S100000, .f32⟩ : BufTy).Contents (Elt F)),
    nullary main_cst_11 (constant S_ .f32 0x00000000#32),
    unary main_cst_11 main_v41 (broadcastInDim S64 ![] bcast_S_S64 : (⟨S_, .f32⟩ : BufTy).Contents (Elt F) → (⟨S64, .f32⟩ : BufTy).Contents (Elt F)),
    unary main_arg22 main_v42 (broadcastInDim S100000x1 ![0] bcast_S100000_S100000x1_0 : (⟨S100000, .i32⟩ : BufTy).Contents (Elt F) → (⟨S100000x1, .i32⟩ : BufTy).Contents (Elt F)),
    ternary main_v41 main_v42 main_v40 main_v43 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_12 (constant S_ .f32 0x00000000#32),
    unary main_cst_12 main_v44 (broadcastInDim S100000 ![] bcast_S_S100000 : (⟨S_, .f32⟩ : BufTy).Contents (Elt F) → (⟨S100000, .f32⟩ : BufTy).Contents (Elt F)) ]

set_option maxRecDepth 8192 in
set_option maxHeartbeats 4000000 in
/-- The stretch of the program is the list, run in sequence. -/
theorem main_part0_eq (c : Dev nD) : main_part0 (F := F) c = seq ops0 := rfl

set_option maxRecDepth 8192 in
/-- Every operation's buffers are the TensorCore's. -/
theorem ops0_sub : (ops0 : List (HloOp τ sig (Elt F))).Forall fun op => op.bufs ⊆ tcRefs τ sig :=
  ⟨nullary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub ..⟩

/-- No operation allocates a buffer: each determines its results. -/
theorem ops0_fresh : ∀ op ∈ (ops0 : List (HloOp τ sig (Elt F))), op.fresh = ∅ := by
  intro _ h; (repeat (cases h with | head => rfl | tail _ h => ?_)); exact nomatch h

/-- The buffers the stretch writes. -/
abbrev ops0_W : List (Ref sig .tc) := [main_v0, main_cst, main_v1, main_cst_0, main_v2, main_v3, main_v4, main_cst_1, main_v5, main_v6, main_v7, main_cst_2, main_v8, main_v9, main_cst_3, main_v10, main_v11, main_v12, main_cst_4, main_call0_v0, main_call0_v1, main_v13, main_v14, main_v15, main_v16, main_c, main_v17, main_v18, main_c_5, main_v19, main_v20, main_v21, main_v22, main_v23, main_cst_6, main_v24, main_v25, main_v26, main_cst_7, main_v27, main_v28, main_cst_8, main_v29, main_v30, main_v31, main_cst_9, main_call1_v0, main_call1_v1, main_v32, main_v33, main_v34, main_v35, main_v36, main_v37, main_v38, main_v39, main_cst_10, main_v40, main_cst_11, main_v41, main_v42, main_v43, main_cst_12, main_v44]

set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

/-- `main_v0` after the stretch, from what the stretch reads. -/
def g_main_v0  : (⟨S100000, .i32⟩ : BufTy).Contents (Elt F) :=
  (iotaInDim S100000 32 0 : (⟨S100000, .i32⟩ : BufTy).Contents (Elt F))

set_option maxRecDepth 8192 in
set_option maxHeartbeats 4000000 in
theorem w_main_v0 (V : Valuation τ sig (Elt F)) :
    after ops0 V (no_index (Proc.devRef .tc main_v0)) = g_main_v0 := by
  simp only [ops0]
  after_results_simp
  all_goals rfl

/-- `main_v39` after the stretch, from what the stretch reads. -/
def g_main_v39 (x_main_arg22 : (⟨S100000, .i32⟩ : BufTy).Contents (Elt F)) (x_main_arg0 : (⟨S100000x128, .f32⟩ : BufTy).Contents (Elt F)) (x_main_arg2 : (⟨S128x128, .f32⟩ : BufTy).Contents (Elt F)) (x_main_arg3 : (⟨S128, .f32⟩ : BufTy).Contents (Elt F)) : (⟨S64x128, .f32⟩ : BufTy).Contents (Elt F) :=
  ((addf : (⟨S64x128, .f32⟩ : BufTy).Contents (Elt F) → (⟨S64x128, .f32⟩ : BufTy).Contents (Elt F) → (⟨S64x128, .f32⟩ : BufTy).Contents (Elt F)) (((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)) ((mulf : (⟨S64x128, .f32⟩ : BufTy).Contents (Elt F) → (⟨S64x128, .f32⟩ : BufTy).Contents (Elt F) → (⟨S64x128, .f32⟩ : BufTy).Contents (Elt F)) (((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_arg22) (((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_arg0 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) (((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) (iotaInDim S100000 32 0 : (⟨S100000, .i32⟩ : BufTy).Contents (Elt F))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) (iotaInDim S100000 32 0 : (⟨S100000, .i32⟩ : BufTy).Contents (Elt F))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (iotaInDim S100000 32 0 : (⟨S100000, .i32⟩ : BufTy).Contents (Elt F)) ((broadcastInDim S100000 ![] bcast_S_S100000 : (⟨S_, .i32⟩ : BufTy).Contents (Elt F) → (⟨S100000, .i32⟩ : BufTy).Contents (Elt F)) (constantI S_ 32 0#32 : (⟨S_, .i32⟩ : BufTy).Contents (Elt F)))) ((addi : (⟨S100000, .i32⟩ : BufTy).Contents (Elt F) → (⟨S100000, .i32⟩ : BufTy).Contents (Elt F) → (⟨S100000, .i32⟩ : BufTy).Contents (Elt F)) (iotaInDim S100000 32 0 : (⟨S100000, .i32⟩ : BufTy).Contents (Elt F)) ((broadcastInDim S100000 ![] bcast_S_S100000 : (⟨S_, .i32⟩ : BufTy).Contents (Elt F) → (⟨S100000, .i32⟩ : BufTy).Contents (Elt F)) (constantI S_ 32 100000#32 : (⟨S_, .i32⟩ : BufTy).Contents (Elt F)))) (iotaInDim S100000 32 0 : (⟨S100000, .i32⟩ : BufTy).Contents (Elt F)))))) ((broadcastInDim S64x128 ![0, 1] bcast_S64x1_S64x128_0_1 : (⟨S64x1, .f32⟩ : BufTy).Contents (Elt F) → (⟨S64x128, .f32⟩ : BufTy).Contents (Elt F)) ((broadcastInDim S64x1 ![0] bcast_S64_S64x1_0 : (⟨S64, .f32⟩ : BufTy).Contents (Elt F) → (⟨S64x1, .f32⟩ : BufTy).Contents (Elt F)) ((select : (⟨S64, .i1⟩ : BufTy).Contents (Elt F) → (⟨S64, .f32⟩ : BufTy).Contents (Elt F) → (⟨S64, .f32⟩ : BufTy).Contents (Elt F) → (⟨S64, .f32⟩ : BufTy).Contents (Elt F)) ((cmpf (F := F) .ogt : (⟨S64, .f32⟩ : BufTy).Contents (Elt F) → (⟨S64, .f32⟩ : BufTy).Contents (Elt F) → (⟨S64, .i1⟩ : BufTy).Contents (Elt F)) (((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_arg22) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F)))) ((Host.rsqrt : (⟨S64, .f32⟩ : BufTy).Contents (Elt F) → (⟨S64, .f32⟩ : BufTy).Contents (Elt F)) ((maximumf : (⟨S64, .f32⟩ : BufTy).Contents (Elt F) → (⟨S64, .f32⟩ : BufTy).Contents (Elt F) → (⟨S64, .f32⟩ : BufTy).Contents (Elt F)) (((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_arg22) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S64 ![] bcast_S_S64 : (⟨S_, .f32⟩ : BufTy).Contents (Elt F) → (⟨S64, .f32⟩ : BufTy).Contents (Elt F)) (constant S_ .f32 0x3F800000#32 : (⟨S_, .f32⟩ : BufTy).Contents (Elt F))))) ((broadcastInDim S64 ![] bcast_S_S64 : (⟨S_, .f32⟩ : BufTy).Contents (Elt F) → (⟨S64, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg2) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg3)))

set_option maxRecDepth 8192 in
set_option maxHeartbeats 4000000 in
theorem w_main_v39 (V : Valuation τ sig (Elt F)) :
    after ops0 V (no_index (Proc.devRef .tc main_v39)) = g_main_v39 (V (Proc.devRef .tc main_arg22)) (V (Proc.devRef .tc main_arg0)) (V (Proc.devRef .tc main_arg2)) (V (Proc.devRef .tc main_arg3)) := by
  simp only [ops0]
  after_results_simp
  all_goals rfl

/-- `main_v40` after the stretch, from what the stretch reads. -/
def g_main_v40  : (⟨S100000, .f32⟩ : BufTy).Contents (Elt F) :=
  ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))

set_option maxRecDepth 8192 in
set_option maxHeartbeats 4000000 in
theorem w_main_v40 (V : Valuation τ sig (Elt F)) :
    after ops0 V (no_index (Proc.devRef .tc main_v40)) = g_main_v40 := by
  simp only [ops0]
  after_results_simp
  all_goals rfl

/-- `main_v43` after the stretch, from what the stretch reads. -/
def g_main_v43 (x_main_arg22 : (⟨S100000, .i32⟩ : BufTy).Contents (Elt F)) : (⟨S64, .f32⟩ : BufTy).Contents (Elt F) :=
  (((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_arg22) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))

set_option maxRecDepth 8192 in
set_option maxHeartbeats 4000000 in
theorem w_main_v43 (V : Valuation τ sig (Elt F)) :
    after ops0 V (no_index (Proc.devRef .tc main_v43)) = g_main_v43 (V (Proc.devRef .tc main_arg22)) := by
  simp only [ops0]
  after_results_simp
  all_goals rfl

/-- `main_v44` after the stretch, from what the stretch reads. -/
def g_main_v44  : (⟨S100000, .f32⟩ : BufTy).Contents (Elt F) :=
  ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))

set_option maxRecDepth 8192 in
set_option maxHeartbeats 4000000 in
theorem w_main_v44 (V : Valuation τ sig (Elt F)) :
    after ops0 V (no_index (Proc.devRef .tc main_v44)) = g_main_v44 := by
  simp only [ops0]
  after_results_simp
  all_goals rfl

end Cert.ReferenceIdeal.ValueB

end
-- ==== Proof.RefRunB.W1.lean ====
/-
  Operations 65 … 128 of the reference's 472 host operations (the next stretch of @main, in order), read as a
  list: the stretch of the program IS the list run in sequence; every operation touches only the TensorCore's buffers and
  allocates none; the buffers the stretch writes; and, for each buffer the stretch writes that a later stretch (or the
  result) reads, its contents after the stretch as a function of the contents, before the stretch, of the buffers the
  stretch reads and does not itself write — the operations' functions composed, from ANY contents before the stretch.
-/
import proofs.«405200_j27075473834261_2_alg».proof.Proof.Gen.ReferenceIdeal
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
/-- The stretch's operations, in order (a called function's operations stand in its call's place). -/
abbrev ops1 : List (HloOp τ sig (Elt F)) :=
  [ unary main_v0 main_v45 (broadcastInDim S100000x1 ![0] bcast_S100000_S100000x1_0 : (⟨S100000, .i32⟩ : BufTy).Contents (Elt F) → (⟨S100000x1, .i32⟩ : BufTy).Contents (Elt F)),
    ternary main_v44 main_v45 main_v40 main_v46 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_13 (constant S_ .f32 0x00000000#32),
    unary main_cst_13 main_v47 (broadcastInDim S64 ![] bcast_S_S64 : (⟨S_, .f32⟩ : BufTy).Contents (Elt F) → (⟨S64, .f32⟩ : BufTy).Contents (Elt F)),
    binary main_v43 main_v47 main_v48 (cmpf (F := F) .ogt : (⟨S64, .f32⟩ : BufTy).Contents (Elt F) → (⟨S64, .f32⟩ : BufTy).Contents (Elt F) → (⟨S64, .i1⟩ : BufTy).Contents (Elt F)),
    nullary main_cst_14 (constant S_ .f32 0x3F800000#32),
    unary main_cst_14 main_v49 (broadcastInDim S64 ![] bcast_S_S64 : (⟨S_, .f32⟩ : BufTy).Contents (Elt F) → (⟨S64, .f32⟩ : BufTy).Contents (Elt F)),
    binary main_v43 main_v49 main_v50 (maximumf : (⟨S64, .f32⟩ : BufTy).Contents (Elt F) → (⟨S64, .f32⟩ : BufTy).Contents (Elt F) → (⟨S64, .f32⟩ : BufTy).Contents (Elt F)),
    unary main_v50 main_v51 (Host.rsqrt : (⟨S64, .f32⟩ : BufTy).Contents (Elt F) → (⟨S64, .f32⟩ : BufTy).Contents (Elt F)),
    nullary main_cst_15 (constant S_ .f32 0x00000000#32),
    TRef.unary (TRef.of (T := ⟨S_, .f32⟩) main_cst_15) (TRef.of (T := ⟨S_, .f32⟩) main_call2_v0) id,
    TRef.unary (TRef.of (T := ⟨S_, .f32⟩) main_call2_v0) (TRef.of (T := ⟨S64, .f32⟩) main_call2_v1) (broadcastInDim S64 ![] bcast_S_S64),
    TRef.ternary (TRef.of (T := ⟨S64, .i1⟩) main_v48) (TRef.of (T := ⟨S64, .f32⟩) main_v51) (TRef.of (T := ⟨S64, .f32⟩) main_call2_v1) (TRef.of (T := ⟨S64, .f32⟩) main_v52) select,
    unary main_v52 main_v53 (broadcastInDim S64x1 ![0] bcast_S64_S64x1_0 : (⟨S64, .f32⟩ : BufTy).Contents (Elt F) → (⟨S64x1, .f32⟩ : BufTy).Contents (Elt F)),
    unary main_v53 main_v54 (broadcastInDim S64x128 ![0, 1] bcast_S64x1_S64x128_0_1 : (⟨S64x1, .f32⟩ : BufTy).Contents (Elt F) → (⟨S64x128, .f32⟩ : BufTy).Contents (Elt F)),
    binary main_arg1 main_v54 main_v55 (mulf : (⟨S64x128, .f32⟩ : BufTy).Contents (Elt F) → (⟨S64x128, .f32⟩ : BufTy).Contents (Elt F) → (⟨S64x128, .f32⟩ : BufTy).Contents (Elt F)),
    nullary main_c_16 (constantI S_ 32 0#32),
    unary main_c_16 main_v56 (broadcastInDim S100000 ![] bcast_S_S100000 : (⟨S_, .i32⟩ : BufTy).Contents (Elt F) → (⟨S100000, .i32⟩ : BufTy).Contents (Elt F)),
    binary main_arg22 main_v56 main_v57 (cmpi .slt : (⟨S100000, .i32⟩ : BufTy).Contents (Elt F) → (⟨S100000, .i32⟩ : BufTy).Contents (Elt F) → (⟨S100000, .i1⟩ : BufTy).Contents (Elt F)),
    nullary main_c_17 (constantI S_ 32 64#32),
    unary main_c_17 main_v58 (broadcastInDim S100000 ![] bcast_S_S100000 : (⟨S_, .i32⟩ : BufTy).Contents (Elt F) → (⟨S100000, .i32⟩ : BufTy).Contents (Elt F)),
    binary main_arg22 main_v58 main_v59 (addi : (⟨S100000, .i32⟩ : BufTy).Contents (Elt F) → (⟨S100000, .i32⟩ : BufTy).Contents (Elt F) → (⟨S100000, .i32⟩ : BufTy).Contents (Elt F)),
    ternary main_v57 main_v59 main_arg22 main_v60 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v60 main_v61 (broadcastInDim S100000x1 ![0] bcast_S100000_S100000x1_0 : (⟨S100000, .i32⟩ : BufTy).Contents (Elt F) → (⟨S100000x1, .i32⟩ : BufTy).Contents (Elt F)),
    binary main_v55 main_v61 main_v62 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)),
    nullary main_cst_18 (constant S_ .f32 0x00000000#32),
    unary main_cst_18 main_v63 (broadcastInDim S100000x128 ![] bcast_S_S100000x128 : (⟨S_, .f32⟩ : BufTy).Contents (Elt F) → (⟨S100000x128, .f32⟩ : BufTy).Contents (Elt F)),
    unary main_v0 main_v64 (broadcastInDim S100000x1 ![0] bcast_S100000_S100000x1_0 : (⟨S100000, .i32⟩ : BufTy).Contents (Elt F) → (⟨S100000x1, .i32⟩ : BufTy).Contents (Elt F)),
    ternary main_v63 main_v64 main_v62 main_v65 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_19 (constant S_ .f32 0x00000000#32),
    unary main_cst_19 main_v66 (broadcastInDim S100000 ![] bcast_S_S100000 : (⟨S_, .f32⟩ : BufTy).Contents (Elt F) → (⟨S100000, .f32⟩ : BufTy).Contents (Elt F)),
    binary main_v46 main_v66 main_v67 (cmpf (F := F) .ogt : (⟨S100000, .f32⟩ : BufTy).Contents (Elt F) → (⟨S100000, .f32⟩ : BufTy).Contents (Elt F) → (⟨S100000, .i1⟩ : BufTy).Contents (Elt F)),
    nullary main_cst_20 (constant S_ .f32 0x3F800000#32),
    unary main_cst_20 main_v68 (broadcastInDim S100000 ![] bcast_S_S100000 : (⟨S_, .f32⟩ : BufTy).Contents (Elt F) → (⟨S100000, .f32⟩ : BufTy).Contents (Elt F)),
    binary main_v46 main_v68 main_v69 (maximumf : (⟨S100000, .f32⟩ : BufTy).Contents (Elt F) → (⟨S100000, .f32⟩ : BufTy).Contents (Elt F) → (⟨S100000, .f32⟩ : BufTy).Contents (Elt F)),
    unary main_v69 main_v70 (Host.rsqrt : (⟨S100000, .f32⟩ : BufTy).Contents (Elt F) → (⟨S100000, .f32⟩ : BufTy).Contents (Elt F)),
    nullary main_cst_21 (constant S_ .f32 0x00000000#32),
    TRef.unary (TRef.of (T := ⟨S_, .f32⟩) main_cst_21) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v67) (TRef.of (T := ⟨S100000, .f32⟩) main_v70) (TRef.of (T := ⟨S100000, .f32⟩) main_call3_v1) (TRef.of (T := ⟨S100000, .f32⟩) main_v71) select,
    unary main_v71 main_v72 (broadcastInDim S100000x1 ![0] bcast_S100000_S100000x1_0 : (⟨S100000, .f32⟩ : BufTy).Contents (Elt F) → (⟨S100000x1, .f32⟩ : BufTy).Contents (Elt F)),
    unary main_v72 main_v73 (broadcastInDim S100000x128 ![0, 1] bcast_S100000x1_S100000x128_0_1 : (⟨S100000x1, .f32⟩ : BufTy).Contents (Elt F) → (⟨S100000x128, .f32⟩ : BufTy).Contents (Elt F)),
    binary main_v65 main_v73 main_v74 (mulf : (⟨S100000x128, .f32⟩ : BufTy).Contents (Elt F) → (⟨S100000x128, .f32⟩ : BufTy).Contents (Elt F) → (⟨S100000x128, .f32⟩ : BufTy).Contents (Elt F)),
    binary main_v74 main_arg4 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x3F800000#32),
    unary main_cst_22 main_v79 (broadcastInDim S1600000 ![] bcast_S_S1600000 : (⟨S_, .f32⟩ : BufTy).Contents (Elt F) → (⟨S1600000, .f32⟩ : BufTy).Contents (Elt F)),
    nullary main_cst_23 (constant S_ .f32 0x00000000#32),
    unary main_cst_23 main_v80 (broadcastInDim S100000 ![] bcast_S_S100000 : (⟨S_, .f32⟩ : BufTy).Contents (Elt F) → (⟨S100000, .f32⟩ : BufTy).Contents (Elt F)),
    unary main_arg23 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_24 (constant S_ .f32 0x00000000#32),
    unary main_cst_24 main_v83 (broadcastInDim S100000 ![] bcast_S_S100000 : (⟨S_, .f32⟩ : BufTy).Contents (Elt F) → (⟨S100000, .f32⟩ : BufTy).Contents (Elt F)),
    unary main_arg24 main_v84 (broadcastInDim S1600000x1 ![0] bcast_S1600000_S1600000x1_0 : (⟨S1600000, .i32⟩ : BufTy).Contents (Elt F) → (⟨S1600000x1, .i32⟩ : BufTy).Contents (Elt F)),
    ternary main_v83 main_v84 main_v79 main_v85 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_25 (constant S_ .f32 0x00000000#32),
    unary main_cst_25 main_v86 (broadcastInDim S100000 ![] bcast_S_S100000 : (⟨S_, .f32⟩ : BufTy).Contents (Elt F) → (⟨S100000, .f32⟩ : BufTy).Contents (Elt F)),
    binary main_v82 main_v86 main_v87 (cmpf (F := F) .ogt : (⟨S100000, .f32⟩ : BufTy).Contents (Elt F) → (⟨S100000, .f32⟩ : BufTy).Contents (Elt F) → (⟨S100000, .i1⟩ : BufTy).Contents (Elt F)),
    nullary main_cst_26 (constant S_ .f32 0x3F800000#32),
    unary main_cst_26 main_v88 (broadcastInDim S100000 ![] bcast_S_S100000 : (⟨S_, .f32⟩ : BufTy).Contents (Elt F) → (⟨S100000, .f32⟩ : BufTy).Contents (Elt F)),
    binary main_v82 main_v88 main_v89 (maximumf : (⟨S100000, .f32⟩ : BufTy).Contents (Elt F) → (⟨S100000, .f32⟩ : BufTy).Contents (Elt F) → (⟨S100000, .f32⟩ : BufTy).Contents (Elt F)),
    unary main_v89 main_v90 (Host.rsqrt : (⟨S100000, .f32⟩ : BufTy).Contents (Elt F) → (⟨S100000, .f32⟩ : BufTy).Contents (Elt F)) ]

set_option maxRecDepth 8192 in
set_option maxHeartbeats 4000000 in
/-- The stretch of the program is the list, run in sequence. -/
theorem main_part1_eq (c : Dev nD) : main_part1 (F := F) c = seq ops1 := rfl

set_option maxRecDepth 8192 in
/-- Every operation's buffers are the TensorCore's. -/
theorem ops1_sub : (ops1 : List (HloOp τ sig (Elt F))).Forall fun op => op.bufs ⊆ tcRefs τ sig :=
  ⟨unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩

/-- No operation allocates a buffer: each determines its results. -/
theorem ops1_fresh : ∀ op ∈ (ops1 : List (HloOp τ sig (Elt F))), op.fresh = ∅ := by
  intro _ h; (repeat (cases h with | head => rfl | tail _ h => ?_)); exact nomatch h

/-- The buffers the stretch writes. -/
abbrev ops1_W : List (Ref sig .tc) := [main_v45, main_v46, main_cst_13, main_v47, main_v48, main_cst_14, main_v49, main_v50, main_v51, main_cst_15, main_call2_v0, main_call2_v1, main_v52, main_v53, main_v54, main_v55, main_c_16, main_v56, main_v57, main_c_17, main_v58, main_v59, main_v60, main_v61, main_v62, main_cst_18, main_v63, main_v64, main_v65, main_cst_19, main_v66, main_v67, main_cst_20, main_v68, main_v69, main_v70, main_cst_21, main_call3_v0, main_call3_v1, main_v71, main_v72, main_v73, main_v74, main_v75, main_v76, main_v77, main_v78, main_cst_22, main_v79, main_cst_23, main_v80, main_v81, main_v82, main_cst_24, main_v83, main_v84, main_v85, main_cst_25, main_v86, main_v87, main_cst_26, main_v88, main_v89, main_v90]

set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

/-- `main_v78` after the stretch, from what the stretch reads. -/
def g_main_v78 (x_main_v0 : (⟨S100000, .i32⟩ : BufTy).Contents (Elt F)) (x_main_arg1 : (⟨S64x128, .f32⟩ : BufTy).Contents (Elt F)) (x_main_v43 : (⟨S64, .f32⟩ : BufTy).Contents (Elt F)) (x_main_arg22 : (⟨S100000, .i32⟩ : BufTy).Contents (Elt F)) (x_main_v44 : (⟨S100000, .f32⟩ : BufTy).Contents (Elt F)) (x_main_v40 : (⟨S100000, .f32⟩ : BufTy).Contents (Elt F)) (x_main_arg4 : (⟨S128x128, .f32⟩ : BufTy).Contents (Elt F)) (x_main_arg5 : (⟨S128, .f32⟩ : BufTy).Contents (Elt F)) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_v0) (((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)) ((mulf : (⟨S64x128, .f32⟩ : BufTy).Contents (Elt F) → (⟨S64x128, .f32⟩ : BufTy).Contents (Elt F) → (⟨S64x128, .f32⟩ : BufTy).Contents (Elt F)) x_main_arg1 ((broadcastInDim S64x128 ![0, 1] bcast_S64x1_S64x128_0_1 : (⟨S64x1, .f32⟩ : BufTy).Contents (Elt F) → (⟨S64x128, .f32⟩ : BufTy).Contents (Elt F)) ((broadcastInDim S64x1 ![0] bcast_S64_S64x1_0 : (⟨S64, .f32⟩ : BufTy).Contents (Elt F) → (⟨S64x1, .f32⟩ : BufTy).Contents (Elt F)) ((select : (⟨S64, .i1⟩ : BufTy).Contents (Elt F) → (⟨S64, .f32⟩ : BufTy).Contents (Elt F) → (⟨S64, .f32⟩ : BufTy).Contents (Elt F) → (⟨S64, .f32⟩ : BufTy).Contents (Elt F)) ((cmpf (F := F) .ogt : (⟨S64, .f32⟩ : BufTy).Contents (Elt F) → (⟨S64, .f32⟩ : BufTy).Contents (Elt F) → (⟨S64, .i1⟩ : BufTy).Contents (Elt F)) x_main_v43 ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F)))) ((Host.rsqrt : (⟨S64, .f32⟩ : BufTy).Contents (Elt F) → (⟨S64, .f32⟩ : BufTy).Contents (Elt F)) ((maximumf : (⟨S64, .f32⟩ : BufTy).Contents (Elt F) → (⟨S64, .f32⟩ : BufTy).Contents (Elt F) → (⟨S64, .f32⟩ : BufTy).Contents (Elt F)) x_main_v43 ((broadcastInDim S64 ![] bcast_S_S64 : (⟨S_, .f32⟩ : BufTy).Contents (Elt F) → (⟨S64, .f32⟩ : BufTy).Contents (Elt F)) (constant S_ .f32 0x3F800000#32 : (⟨S_, .f32⟩ : BufTy).Contents (Elt F))))) ((broadcastInDim S64 ![] bcast_S_S64 : (⟨S_, .f32⟩ : BufTy).Contents (Elt F) → (⟨S64, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) x_main_arg22 ((broadcastInDim S100000 ![] bcast_S_S100000 : (⟨S_, .i32⟩ : BufTy).Contents (Elt F) → (⟨S100000, .i32⟩ : BufTy).Contents (Elt F)) (constantI S_ 32 0#32 : (⟨S_, .i32⟩ : BufTy).Contents (Elt F)))) ((addi : (⟨S100000, .i32⟩ : BufTy).Contents (Elt F) → (⟨S100000, .i32⟩ : BufTy).Contents (Elt F) → (⟨S100000, .i32⟩ : BufTy).Contents (Elt F)) x_main_arg22 ((broadcastInDim S100000 ![] bcast_S_S100000 : (⟨S_, .i32⟩ : BufTy).Contents (Elt F) → (⟨S100000, .i32⟩ : BufTy).Contents (Elt F)) (constantI S_ 32 64#32 : (⟨S_, .i32⟩ : BufTy).Contents (Elt F)))) x_main_arg22)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) (((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) x_main_v44 ((broadcastInDim S100000x1 ![0] bcast_S100000_S100000x1_0 : (⟨S100000, .i32⟩ : BufTy).Contents (Elt F) → (⟨S100000x1, .i32⟩ : BufTy).Contents (Elt F)) x_main_v0) x_main_v40) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) x_main_v44 ((broadcastInDim S100000x1 ![0] bcast_S100000_S100000x1_0 : (⟨S100000, .i32⟩ : BufTy).Contents (Elt F) → (⟨S100000x1, .i32⟩ : BufTy).Contents (Elt F)) x_main_v0) x_main_v40) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg4) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg5)))

set_option maxRecDepth 8192 in
set_option maxHeartbeats 4000000 in
theorem w_main_v78 (V : Valuation τ sig (Elt F)) :
    after ops1 V (no_index (Proc.devRef .tc main_v78)) = g_main_v78 (V (Proc.devRef .tc main_v0)) (V (Proc.devRef .tc main_arg1)) (V (Proc.devRef .tc main_v43)) (V (Proc.devRef .tc main_arg22)) (V (Proc.devRef .tc main_v44)) (V (Proc.devRef .tc main_v40)) (V (Proc.devRef .tc main_arg4)) (V (Proc.devRef .tc main_arg5)) := by
  simp only [ops1]
  after_results_simp
  all_goals rfl

/-- `main_v85` after the stretch, from what the stretch reads. -/
def g_main_v85 (x_main_arg24 : (⟨S1600000, .i32⟩ : BufTy).Contents (Elt F)) : (⟨S100000, .f32⟩ : BufTy).Contents (Elt F) :=
  (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F))))

set_option maxRecDepth 8192 in
set_option maxHeartbeats 4000000 in
theorem w_main_v85 (V : Valuation τ sig (Elt F)) :
    after ops1 V (no_index (Proc.devRef .tc main_v85)) = g_main_v85 (V (Proc.devRef .tc main_arg24)) := by
  simp only [ops1]
  after_results_simp
  all_goals rfl

/-- `main_v87` after the stretch, from what the stretch reads. -/
def g_main_v87 (x_main_arg23 : (⟨S1600000, .i32⟩ : BufTy).Contents (Elt F)) : (⟨S100000, .i1⟩ : BufTy).Contents (Elt F) :=
  ((cmpf (F := F) .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg23) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))))

set_option maxRecDepth 8192 in
set_option maxHeartbeats 4000000 in
theorem w_main_v87 (V : Valuation τ sig (Elt F)) :
    after ops1 V (no_index (Proc.devRef .tc main_v87)) = g_main_v87 (V (Proc.devRef .tc main_arg23)) := by
  simp only [ops1]
  after_results_simp
  all_goals rfl

/-- `main_v90` after the stretch, from what the stretch reads. -/
def g_main_v90 (x_main_arg23 : (⟨S1600000, .i32⟩ : BufTy).Contents (Elt F)) : (⟨S100000, .f32⟩ : BufTy).Contents (Elt F) :=
  ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg23) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))))

set_option maxRecDepth 8192 in
set_option maxHeartbeats 4000000 in
theorem w_main_v90 (V : Valuation τ sig (Elt F)) :
    after ops1 V (no_index (Proc.devRef .tc main_v90)) = g_main_v90 (V (Proc.devRef .tc main_arg23)) := by
  simp only [ops1]
  after_results_simp
  all_goals rfl

end Cert.ReferenceIdeal.ValueB

end
-- ==== Proof.RefRunB.W2.lean ====
/-
  Operations 129 … 196 of the reference's 472 host operations (the next stretch of @main, in order), read as a
  list: the stretch of the program IS the list run in sequence; every operation touches only the TensorCore's buffers and
  allocates none; the buffers the stretch writes; and, for each buffer the stretch writes that a later stretch (or the
  result) reads, its contents after the stretch as a function of the contents, before the stretch, of the buffers the
  stretch reads and does not itself write — the operations' functions composed, from ANY contents before the stretch.
-/
import proofs.«405200_j27075473834261_2_alg».proof.Proof.Gen.ReferenceIdeal
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
/-- The stretch's operations, in order (a called function's operations stand in its call's place). -/
abbrev ops2 : List (HloOp τ sig (Elt F)) :=
  [ nullary main_cst_27 (constant S_ .f32 0x00000000#32),
    TRef.unary (TRef.of (T := ⟨S_, .f32⟩) main_cst_27) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v87) (TRef.of (T := ⟨S100000, .f32⟩) main_v90) (TRef.of (T := ⟨S100000, .f32⟩) main_call4_v1) (TRef.of (T := ⟨S100000, .f32⟩) main_v91) select,
    unary main_v91 main_v92 (broadcastInDim S100000x1 ![0] bcast_S100000_S100000x1_0 : (⟨S100000, .f32⟩ : BufTy).Contents (Elt F) → (⟨S100000x1, .f32⟩ : BufTy).Contents (Elt F)),
    unary main_v92 main_v93 (broadcastInDim S100000x128 ![0, 1] bcast_S100000x1_S100000x128_0_1 : (⟨S100000x1, .f32⟩ : BufTy).Contents (Elt F) → (⟨S100000x128, .f32⟩ : BufTy).Contents (Elt F)),
    binary main_arg0 main_v93 main_v94 (mulf : (⟨S100000x128, .f32⟩ : BufTy).Contents (Elt F) → (⟨S100000x128, .f32⟩ : BufTy).Contents (Elt F) → (⟨S100000x128, .f32⟩ : BufTy).Contents (Elt F)),
    nullary main_c_28 (constantI S_ 32 0#32),
    unary main_c_28 main_v95 (broadcastInDim S1600000 ![] bcast_S_S1600000 : (⟨S_, .i32⟩ : BufTy).Contents (Elt F) → (⟨S1600000, .i32⟩ : BufTy).Contents (Elt F)),
    binary main_arg23 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 100000#32),
    unary main_c_29 main_v97 (broadcastInDim S1600000 ![] bcast_S_S1600000 : (⟨S_, .i32⟩ : BufTy).Contents (Elt F) → (⟨S1600000, .i32⟩ : BufTy).Contents (Elt F)),
    binary main_arg23 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_arg23 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v94 main_v100 main_v101 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_30 (constant S_ .f32 0x00000000#32),
    unary main_cst_30 main_v102 (broadcastInDim S100000x128 ![] bcast_S_S100000x128 : (⟨S_, .f32⟩ : BufTy).Contents (Elt F) → (⟨S100000x128, .f32⟩ : BufTy).Contents (Elt F)),
    unary main_arg24 main_v103 (broadcastInDim S1600000x1 ![0] bcast_S1600000_S1600000x1_0 : (⟨S1600000, .i32⟩ : BufTy).Contents (Elt F) → (⟨S1600000x1, .i32⟩ : BufTy).Contents (Elt F)),
    ternary main_v102 main_v103 main_v101 main_v104 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_31 (constant S_ .f32 0x00000000#32),
    unary main_cst_31 main_v105 (broadcastInDim S100000 ![] bcast_S_S100000 : (⟨S_, .f32⟩ : BufTy).Contents (Elt F) → (⟨S100000, .f32⟩ : BufTy).Contents (Elt F)),
    binary main_v85 main_v105 main_v106 (cmpf (F := F) .ogt : (⟨S100000, .f32⟩ : BufTy).Contents (Elt F) → (⟨S100000, .f32⟩ : BufTy).Contents (Elt F) → (⟨S100000, .i1⟩ : BufTy).Contents (Elt F)),
    nullary main_cst_32 (constant S_ .f32 0x3F800000#32),
    unary main_cst_32 main_v107 (broadcastInDim S100000 ![] bcast_S_S100000 : (⟨S_, .f32⟩ : BufTy).Contents (Elt F) → (⟨S100000, .f32⟩ : BufTy).Contents (Elt F)),
    binary main_v85 main_v107 main_v108 (maximumf : (⟨S100000, .f32⟩ : BufTy).Contents (Elt F) → (⟨S100000, .f32⟩ : BufTy).Contents (Elt F) → (⟨S100000, .f32⟩ : BufTy).Contents (Elt F)),
    unary main_v108 main_v109 (Host.rsqrt : (⟨S100000, .f32⟩ : BufTy).Contents (Elt F) → (⟨S100000, .f32⟩ : BufTy).Contents (Elt F)),
    nullary main_cst_33 (constant S_ .f32 0x00000000#32),
    TRef.unary (TRef.of (T := ⟨S_, .f32⟩) main_cst_33) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.ternary (TRef.of (T := ⟨S100000, .i1⟩) main_v106) (TRef.of (T := ⟨S100000, .f32⟩) main_v109) (TRef.of (T := ⟨S100000, .f32⟩) main_call5_v1) (TRef.of (T := ⟨S100000, .f32⟩) main_v110) select,
    unary main_v110 main_v111 (broadcastInDim S100000x1 ![0] bcast_S100000_S100000x1_0 : (⟨S100000, .f32⟩ : BufTy).Contents (Elt F) → (⟨S100000x1, .f32⟩ : BufTy).Contents (Elt F)),
    unary main_v111 main_v112 (broadcastInDim S100000x128 ![0, 1] bcast_S100000x1_S100000x128_0_1 : (⟨S100000x1, .f32⟩ : BufTy).Contents (Elt F) → (⟨S100000x128, .f32⟩ : BufTy).Contents (Elt F)),
    binary main_v104 main_v112 main_v113 (mulf : (⟨S100000x128, .f32⟩ : BufTy).Contents (Elt F) → (⟨S100000x128, .f32⟩ : BufTy).Contents (Elt F) → (⟨S100000x128, .f32⟩ : BufTy).Contents (Elt F)),
    binary main_v113 main_arg6 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v114 main_v116 main_v117 (addf : (⟨S100000x128, .f32⟩ : BufTy).Contents (Elt F) → (⟨S100000x128, .f32⟩ : BufTy).Contents (Elt F) → (⟨S100000x128, .f32⟩ : BufTy).Contents (Elt F)),
    binary main_v78 main_v117 main_v118 (addf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x3F000000#32),
    unary main_cst_34 main_v119 (broadcastInDim S100000x128 ![] bcast_S_S100000x128 : (⟨S_, .f32⟩ : BufTy).Contents (Elt F) → (⟨S100000x128, .f32⟩ : BufTy).Contents (Elt F)),
    binary main_v119 main_v118 main_v120 (mulf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v120) (TRef.of (T := ⟨S100000x128, .f32⟩) main_call6_v0) (TRef.of (T := ⟨S100000x128, .f32⟩) main_v121) maximumf,
    TRef.nullary (TRef.of (T := ⟨S_, .f32⟩) main_call7_cst) (constant S_ .f32 0x00000000#32),
    TRef.unary (TRef.of (T := ⟨S_, .f32⟩) main_call7_cst) (TRef.of (T := ⟨S64x128, .f32⟩) main_call7_v0) (broadcastInDim S64x128 ![] bcast_S_S64x128),
    TRef.binary (TRef.of (T := ⟨S64x128, .f32⟩) main_v39) (TRef.of (T := ⟨S64x128, .f32⟩) main_call7_v0) (TRef.of (T := ⟨S64x128, .f32⟩) main_v122) maximumf,
    nullary main_cst_35 (constant S_ .f32 0x00000000#32),
    binary main_v121 main_cst_35 main_v123 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_36 (constant S_ .f32 0x47C35000#32),
    unary main_cst_36 main_v124 (broadcastInDim S128 ![] bcast_S_S128 : (⟨S_, .f32⟩ : BufTy).Contents (Elt F) → (⟨S128, .f32⟩ : BufTy).Contents (Elt F)),
    binary main_v123 main_v124 main_v125 (Host.divf : (⟨S128, .f32⟩ : BufTy).Contents (Elt F) → (⟨S128, .f32⟩ : BufTy).Contents (Elt F) → (⟨S128, .f32⟩ : BufTy).Contents (Elt F)),
    unary main_v125 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v121 main_v127 main_v128 (subf : (⟨S100000x128, .f32⟩ : BufTy).Contents (Elt F) → (⟨S100000x128, .f32⟩ : BufTy).Contents (Elt F) → (⟨S100000x128, .f32⟩ : BufTy).Contents (Elt F)),
    binary main_v128 main_v128 main_v129 (mulf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x00000000#32),
    binary main_v129 main_cst_37 main_v130 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_38 (constant S_ .f32 0x47C35000#32),
    unary main_cst_38 main_v131 (broadcastInDim S128 ![] bcast_S_S128 : (⟨S_, .f32⟩ : BufTy).Contents (Elt F) → (⟨S128, .f32⟩ : BufTy).Contents (Elt F)),
    binary main_v130 main_v131 main_v132 (Host.divf : (⟨S128, .f32⟩ : BufTy).Contents (Elt F) → (⟨S128, .f32⟩ : BufTy).Contents (Elt F) → (⟨S128, .f32⟩ : BufTy).Contents (Elt F)),
    unary main_v125 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)),
    binary main_v121 main_v134 main_v135 (subf : (⟨S100000x128, .f32⟩ : BufTy).Contents (Elt F) → (⟨S100000x128, .f32⟩ : BufTy).Contents (Elt F) → (⟨S100000x128, .f32⟩ : BufTy).Contents (Elt F)),
    nullary main_cst_39 (constant S_ .f32 0x3727C5AC#32),
    unary main_cst_39 main_v136 (broadcastInDim S128 ![] bcast_S_S128 : (⟨S_, .f32⟩ : BufTy).Contents (Elt F) → (⟨S128, .f32⟩ : BufTy).Contents (Elt F)),
    binary main_v132 main_v136 main_v137 (addf : (⟨S128, .f32⟩ : BufTy).Contents (Elt F) → (⟨S128, .f32⟩ : BufTy).Contents (Elt F) → (⟨S128, .f32⟩ : BufTy).Contents (Elt F)) ]

set_option maxRecDepth 8192 in
set_option maxHeartbeats 4000000 in
/-- The stretch of the program is the list, run in sequence. -/
theorem main_part2_eq (c : Dev nD) : main_part2 (F := F) c = seq ops2 := rfl

set_option maxRecDepth 8192 in
/-- Every operation's buffers are the TensorCore's. -/
theorem ops2_sub : (ops2 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩

/-- No operation allocates a buffer: each determines its results. -/
theorem ops2_fresh : ∀ op ∈ (ops2 : List (HloOp τ sig (Elt F))), op.fresh = ∅ := by
  intro _ h; (repeat (cases h with | head => rfl | tail _ h => ?_)); exact nomatch h

/-- The buffers the stretch writes. -/
abbrev ops2_W : List (Ref sig .tc) := [main_cst_27, main_call4_v0, main_call4_v1, main_v91, main_v92, main_v93, main_v94, main_c_28, main_v95, main_v96, main_c_29, main_v97, main_v98, main_v99, main_v100, main_v101, main_cst_30, main_v102, main_v103, main_v104, main_cst_31, main_v105, main_v106, main_cst_32, main_v107, main_v108, main_v109, main_cst_33, main_call5_v0, main_call5_v1, main_v110, main_v111, main_v112, main_v113, main_v114, main_v115, main_v116, main_v117, main_v118, main_cst_34, main_v119, main_v120, main_call6_cst, main_call6_v0, main_v121, main_call7_cst, main_call7_v0, main_v122, main_cst_35, main_v123, main_cst_36, main_v124, main_v125, main_v126, main_v127, main_v128, main_v129, main_cst_37, main_v130, main_cst_38, main_v131, main_v132, main_v133, main_v134, main_v135, main_cst_39, main_v136, main_v137]

set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

/-- `main_v122` after the stretch, from what the stretch reads. -/
def g_main_v122 (x_main_v39 : (⟨S64x128, .f32⟩ : BufTy).Contents (Elt F)) : (⟨S64x128, .f32⟩ : BufTy).Contents (Elt F) :=
  ((maximumf : (⟨S64x128, .f32⟩ : BufTy).Contents (Elt F) → (⟨S64x128, .f32⟩ : BufTy).Contents (Elt F) → (⟨S64x128, .f32⟩ : BufTy).Contents (Elt F)) x_main_v39 ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))))

set_option maxRecDepth 8192 in
set_option maxHeartbeats 4000000 in
theorem w_main_v122 (V : Valuation τ sig (Elt F)) :
    after ops2 V (no_index (Proc.devRef .tc main_v122)) = g_main_v122 (V (Proc.devRef .tc main_v39)) := by
  simp only [ops2]
  after_results_simp
  all_goals rfl

/-- `main_v135` after the stretch, from what the stretch reads. -/
def g_main_v135 (x_main_v78 : (⟨S100000x128, .f32⟩ : BufTy).Contents (Elt F)) (x_main_arg24 : (⟨S1600000, .i32⟩ : BufTy).Contents (Elt F)) (x_main_arg0 : (⟨S100000x128, .f32⟩ : BufTy).Contents (Elt F)) (x_main_v87 : (⟨S100000, .i1⟩ : BufTy).Contents (Elt F)) (x_main_v90 : (⟨S100000, .f32⟩ : BufTy).Contents (Elt F)) (x_main_arg23 : (⟨S1600000, .i32⟩ : BufTy).Contents (Elt F)) (x_main_v85 : (⟨S100000, .f32⟩ : BufTy).Contents (Elt F)) (x_main_arg6 : (⟨S128x128, .f32⟩ : BufTy).Contents (Elt F)) (x_main_arg7 : (⟨S128, .f32⟩ : BufTy).Contents (Elt F)) : (⟨S100000x128, .f32⟩ : BufTy).Contents (Elt F) :=
  ((subf : (⟨S100000x128, .f32⟩ : BufTy).Contents (Elt F) → (⟨S100000x128, .f32⟩ : BufTy).Contents (Elt F) → (⟨S100000x128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v78 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_arg0 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) x_main_v87 x_main_v90 ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x_main_arg23)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg6) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg7))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v78 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_arg0 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) x_main_v87 x_main_v90 ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x_main_arg23)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg6) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg7))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47C35000#32 : (⟨S_, .f32⟩ : BufTy).Contents (Elt F)))))))

set_option maxRecDepth 8192 in
set_option maxHeartbeats 4000000 in
theorem w_main_v135 (V : Valuation τ sig (Elt F)) :
    after ops2 V (no_index (Proc.devRef .tc main_v135)) = g_main_v135 (V (Proc.devRef .tc main_v78)) (V (Proc.devRef .tc main_arg24)) (V (Proc.devRef .tc main_arg0)) (V (Proc.devRef .tc main_v87)) (V (Proc.devRef .tc main_v90)) (V (Proc.devRef .tc main_arg23)) (V (Proc.devRef .tc main_v85)) (V (Proc.devRef .tc main_arg6)) (V (Proc.devRef .tc main_arg7)) := by
  simp only [ops2]
  after_results_simp
  all_goals rfl

/-- `main_v137` after the stretch, from what the stretch reads. -/
def g_main_v137 (x_main_v78 : (⟨S100000x128, .f32⟩ : BufTy).Contents (Elt F)) (x_main_arg24 : (⟨S1600000, .i32⟩ : BufTy).Contents (Elt F)) (x_main_arg0 : (⟨S100000x128, .f32⟩ : BufTy).Contents (Elt F)) (x_main_v87 : (⟨S100000, .i1⟩ : BufTy).Contents (Elt F)) (x_main_v90 : (⟨S100000, .f32⟩ : BufTy).Contents (Elt F)) (x_main_arg23 : (⟨S1600000, .i32⟩ : BufTy).Contents (Elt F)) (x_main_v85 : (⟨S100000, .f32⟩ : BufTy).Contents (Elt F)) (x_main_arg6 : (⟨S128x128, .f32⟩ : BufTy).Contents (Elt F)) (x_main_arg7 : (⟨S128, .f32⟩ : BufTy).Contents (Elt F)) : (⟨S128, .f32⟩ : BufTy).Contents (Elt F) :=
  ((addf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v78 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_arg0 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) x_main_v87 x_main_v90 ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x_main_arg23)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg6) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg7))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v78 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_arg0 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) x_main_v87 x_main_v90 ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x_main_arg23)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg6) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg7))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47C35000#32 : (⟨S_, .f32⟩ : BufTy).Contents (Elt F))))))) ((subf : (⟨S100000x128, .f32⟩ : BufTy).Contents (Elt F) → (⟨S100000x128, .f32⟩ : BufTy).Contents (Elt F) → (⟨S100000x128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v78 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_arg0 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) x_main_v87 x_main_v90 ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x_main_arg23)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg6) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg7))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v78 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_arg0 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) x_main_v87 x_main_v90 ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x_main_arg23)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v85 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg6) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg7))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47C35000#32 : (⟨S_, .f32⟩ : BufTy).Contents (Elt F)))))))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47C35000#32 : (⟨S_, .f32⟩ : BufTy).Contents (Elt F)))) ((broadcastInDim S128 ![] bcast_S_S128 : (⟨S_, .f32⟩ : BufTy).Contents (Elt F) → (⟨S128, .f32⟩ : BufTy).Contents (Elt F)) (constant S_ .f32 0x3727C5AC#32 : (⟨S_, .f32⟩ : BufTy).Contents (Elt F))))

set_option maxRecDepth 8192 in
set_option maxHeartbeats 4000000 in
theorem w_main_v137 (V : Valuation τ sig (Elt F)) :
    after ops2 V (no_index (Proc.devRef .tc main_v137)) = g_main_v137 (V (Proc.devRef .tc main_v78)) (V (Proc.devRef .tc main_arg24)) (V (Proc.devRef .tc main_arg0)) (V (Proc.devRef .tc main_v87)) (V (Proc.devRef .tc main_v90)) (V (Proc.devRef .tc main_arg23)) (V (Proc.devRef .tc main_v85)) (V (Proc.devRef .tc main_arg6)) (V (Proc.devRef .tc main_arg7)) := by
  simp only [ops2]
  after_results_simp
  all_goals rfl

end Cert.ReferenceIdeal.ValueB

end
-- ==== Proof.RefRunB.W3.lean ====
/-
  Operations 197 … 258 of the reference's 472 host operations (the next stretch of @main, in order), read as a
  list: the stretch of the program IS the list run in sequence; every operation touches only the TensorCore's buffers and
  allocates none; the buffers the stretch writes; and, for each buffer the stretch writes that a later stretch (or the
  result) reads, its contents after the stretch as a function of the contents, before the stretch, of the buffers the
  stretch reads and does not itself write — the operations' functions composed, from ANY contents before the stretch.
-/
import proofs.«405200_j27075473834261_2_alg».proof.Proof.Gen.ReferenceIdeal
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
/-- The stretch's operations, in order (a called function's operations stand in its call's place). -/
abbrev ops3 : List (HloOp τ sig (Elt F)) :=
  [ unary main_v137 main_v138 (Host.rsqrt : (⟨S128, .f32⟩ : BufTy).Contents (Elt F) → (⟨S128, .f32⟩ : BufTy).Contents (Elt F)),
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S100000x128 ![0, 1] bcast_S1x128_S100000x128_0_1 : (⟨S1x128, .f32⟩ : BufTy).Contents (Elt F) → (⟨S100000x128, .f32⟩ : BufTy).Contents (Elt F)),
    binary main_v135 main_v140 main_v141 (mulf : (⟨S100000x128, .f32⟩ : BufTy).Contents (Elt F) → (⟨S100000x128, .f32⟩ : BufTy).Contents (Elt F) → (⟨S100000x128, .f32⟩ : BufTy).Contents (Elt F)),
    unary main_arg8 main_v142 (broadcastInDim S1x128 ![1] bcast_S128_S1x128_1 : (⟨S128, .f32⟩ : BufTy).Contents (Elt F) → (⟨S1x128, .f32⟩ : BufTy).Contents (Elt F)),
    unary main_v142 main_v143 (broadcastInDim S100000x128 ![0, 1] bcast_S1x128_S100000x128_0_1 : (⟨S1x128, .f32⟩ : BufTy).Contents (Elt F) → (⟨S100000x128, .f32⟩ : BufTy).Contents (Elt F)),
    binary main_v141 main_v143 main_v144 (mulf : (⟨S100000x128, .f32⟩ : BufTy).Contents (Elt F) → (⟨S100000x128, .f32⟩ : BufTy).Contents (Elt F) → (⟨S100000x128, .f32⟩ : BufTy).Contents (Elt F)),
    unary main_arg9 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v144 main_v146 main_v147 (addf : (⟨S100000x128, .f32⟩ : BufTy).Contents (Elt F) → (⟨S100000x128, .f32⟩ : BufTy).Contents (Elt F) → (⟨S100000x128, .f32⟩ : BufTy).Contents (Elt F)),
    nullary main_cst_40 (constant S_ .f32 0x00000000#32),
    binary main_v122 main_cst_40 main_v148 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    nullary main_cst_41 (constant S_ .f32 0x42800000#32),
    unary main_cst_41 main_v149 (broadcastInDim S128 ![] bcast_S_S128 : (⟨S_, .f32⟩ : BufTy).Contents (Elt F) → (⟨S128, .f32⟩ : BufTy).Contents (Elt F)),
    binary main_v148 main_v149 main_v150 (Host.divf : (⟨S128, .f32⟩ : BufTy).Contents (Elt F) → (⟨S128, .f32⟩ : BufTy).Contents (Elt F) → (⟨S128, .f32⟩ : BufTy).Contents (Elt F)),
    unary main_v150 main_v151 (broadcastInDim S1x128 ![1] bcast_S128_S1x128_1 : (⟨S128, .f32⟩ : BufTy).Contents (Elt F) → (⟨S1x128, .f32⟩ : BufTy).Contents (Elt F)),
    unary main_v151 main_v152 (broadcastInDim S64x128 ![0, 1] bcast_S1x128_S64x128_0_1 : (⟨S1x128, .f32⟩ : BufTy).Contents (Elt F) → (⟨S64x128, .f32⟩ : BufTy).Contents (Elt F)),
    binary main_v122 main_v152 main_v153 (subf : (⟨S64x128, .f32⟩ : BufTy).Contents (Elt F) → (⟨S64x128, .f32⟩ : BufTy).Contents (Elt F) → (⟨S64x128, .f32⟩ : BufTy).Contents (Elt F)),
    binary main_v153 main_v153 main_v154 (mulf : (⟨S64x128, .f32⟩ : BufTy).Contents (Elt F) → (⟨S64x128, .f32⟩ : BufTy).Contents (Elt F) → (⟨S64x128, .f32⟩ : BufTy).Contents (Elt F)),
    nullary main_cst_42 (constant S_ .f32 0x00000000#32),
    binary main_v154 main_cst_42 main_v155 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    nullary main_cst_43 (constant S_ .f32 0x42800000#32),
    unary main_cst_43 main_v156 (broadcastInDim S128 ![] bcast_S_S128 : (⟨S_, .f32⟩ : BufTy).Contents (Elt F) → (⟨S128, .f32⟩ : BufTy).Contents (Elt F)),
    binary main_v155 main_v156 main_v157 (Host.divf : (⟨S128, .f32⟩ : BufTy).Contents (Elt F) → (⟨S128, .f32⟩ : BufTy).Contents (Elt F) → (⟨S128, .f32⟩ : BufTy).Contents (Elt F)),
    unary main_v150 main_v158 (broadcastInDim S1x128 ![1] bcast_S128_S1x128_1 : (⟨S128, .f32⟩ : BufTy).Contents (Elt F) → (⟨S1x128, .f32⟩ : BufTy).Contents (Elt F)),
    unary main_v158 main_v159 (broadcastInDim S64x128 ![0, 1] bcast_S1x128_S64x128_0_1 : (⟨S1x128, .f32⟩ : BufTy).Contents (Elt F) → (⟨S64x128, .f32⟩ : BufTy).Contents (Elt F)),
    binary main_v122 main_v159 main_v160 (subf : (⟨S64x128, .f32⟩ : BufTy).Contents (Elt F) → (⟨S64x128, .f32⟩ : BufTy).Contents (Elt F) → (⟨S64x128, .f32⟩ : BufTy).Contents (Elt F)),
    nullary main_cst_44 (constant S_ .f32 0x3727C5AC#32),
    unary main_cst_44 main_v161 (broadcastInDim S128 ![] bcast_S_S128 : (⟨S_, .f32⟩ : BufTy).Contents (Elt F) → (⟨S128, .f32⟩ : BufTy).Contents (Elt F)),
    binary main_v157 main_v161 main_v162 (addf : (⟨S128, .f32⟩ : BufTy).Contents (Elt F) → (⟨S128, .f32⟩ : BufTy).Contents (Elt F) → (⟨S128, .f32⟩ : BufTy).Contents (Elt F)),
    unary main_v162 main_v163 (Host.rsqrt : (⟨S128, .f32⟩ : BufTy).Contents (Elt F) → (⟨S128, .f32⟩ : BufTy).Contents (Elt F)),
    unary main_v163 main_v164 (broadcastInDim S1x128 ![1] bcast_S128_S1x128_1 : (⟨S128, .f32⟩ : BufTy).Contents (Elt F) → (⟨S1x128, .f32⟩ : BufTy).Contents (Elt F)),
    unary main_v164 main_v165 (broadcastInDim S64x128 ![0, 1] bcast_S1x128_S64x128_0_1 : (⟨S1x128, .f32⟩ : BufTy).Contents (Elt F) → (⟨S64x128, .f32⟩ : BufTy).Contents (Elt F)),
    binary main_v160 main_v165 main_v166 (mulf : (⟨S64x128, .f32⟩ : BufTy).Contents (Elt F) → (⟨S64x128, .f32⟩ : BufTy).Contents (Elt F) → (⟨S64x128, .f32⟩ : BufTy).Contents (Elt F)),
    unary main_arg10 main_v167 (broadcastInDim S1x128 ![1] bcast_S128_S1x128_1 : (⟨S128, .f32⟩ : BufTy).Contents (Elt F) → (⟨S1x128, .f32⟩ : BufTy).Contents (Elt F)),
    unary main_v167 main_v168 (broadcastInDim S64x128 ![0, 1] bcast_S1x128_S64x128_0_1 : (⟨S1x128, .f32⟩ : BufTy).Contents (Elt F) → (⟨S64x128, .f32⟩ : BufTy).Contents (Elt F)),
    binary main_v166 main_v168 main_v169 (mulf : (⟨S64x128, .f32⟩ : BufTy).Contents (Elt F) → (⟨S64x128, .f32⟩ : BufTy).Contents (Elt F) → (⟨S64x128, .f32⟩ : BufTy).Contents (Elt F)),
    unary main_arg11 main_v170 (broadcastInDim S1x128 ![1] bcast_S128_S1x128_1 : (⟨S128, .f32⟩ : BufTy).Contents (Elt F) → (⟨S1x128, .f32⟩ : BufTy).Contents (Elt F)),
    unary main_v170 main_v171 (broadcastInDim S64x128 ![0, 1] bcast_S1x128_S64x128_0_1 : (⟨S1x128, .f32⟩ : BufTy).Contents (Elt F) → (⟨S64x128, .f32⟩ : BufTy).Contents (Elt F)),
    binary main_v169 main_v171 main_v172 (addf : (⟨S64x128, .f32⟩ : BufTy).Contents (Elt F) → (⟨S64x128, .f32⟩ : BufTy).Contents (Elt F) → (⟨S64x128, .f32⟩ : BufTy).Contents (Elt F)),
    nullary main_v173 (iotaInDim S100000 32 0),
    nullary main_cst_45 (constant S_ .f32 0x3F800000#32),
    unary main_cst_45 main_v174 (broadcastInDim S100000 ![] bcast_S_S100000 : (⟨S_, .f32⟩ : BufTy).Contents (Elt F) → (⟨S100000, .f32⟩ : BufTy).Contents (Elt F)),
    nullary main_cst_46 (constant S_ .f32 0x00000000#32),
    unary main_cst_46 main_v175 (broadcastInDim S100000 ![] bcast_S_S100000 : (⟨S_, .f32⟩ : BufTy).Contents (Elt F) → (⟨S100000, .f32⟩ : BufTy).Contents (Elt F)),
    unary main_v173 main_v176 (broadcastInDim S100000x1 ![0] bcast_S100000_S100000x1_0 : (⟨S100000, .i32⟩ : BufTy).Contents (Elt F) → (⟨S100000x1, .i32⟩ : BufTy).Contents (Elt F)),
    ternary main_v175 main_v176 main_v174 main_v177 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_47 (constant S_ .f32 0x00000000#32),
    unary main_cst_47 main_v178 (broadcastInDim S64 ![] bcast_S_S64 : (⟨S_, .f32⟩ : BufTy).Contents (Elt F) → (⟨S64, .f32⟩ : BufTy).Contents (Elt F)),
    unary main_arg22 main_v179 (broadcastInDim S100000x1 ![0] bcast_S100000_S100000x1_0 : (⟨S100000, .i32⟩ : BufTy).Contents (Elt F) → (⟨S100000x1, .i32⟩ : BufTy).Contents (Elt F)),
    ternary main_v178 main_v179 main_v174 main_v180 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_48 (constant S_ .f32 0x00000000#32),
    unary main_cst_48 main_v181 (broadcastInDim S100000 ![] bcast_S_S100000 : (⟨S_, .f32⟩ : BufTy).Contents (Elt F) → (⟨S100000, .f32⟩ : BufTy).Contents (Elt F)),
    binary main_v177 main_v181 main_v182 (cmpf (F := F) .ogt : (⟨S100000, .f32⟩ : BufTy).Contents (Elt F) → (⟨S100000, .f32⟩ : BufTy).Contents (Elt F) → (⟨S100000, .i1⟩ : BufTy).Contents (Elt F)),
    nullary main_cst_49 (constant S_ .f32 0x3F800000#32),
    unary main_cst_49 main_v183 (broadcastInDim S100000 ![] bcast_S_S100000 : (⟨S_, .f32⟩ : BufTy).Contents (Elt F) → (⟨S100000, .f32⟩ : BufTy).Contents (Elt F)),
    binary main_v177 main_v183 main_v184 (maximumf : (⟨S100000, .f32⟩ : BufTy).Contents (Elt F) → (⟨S100000, .f32⟩ : BufTy).Contents (Elt F) → (⟨S100000, .f32⟩ : BufTy).Contents (Elt F)),
    unary main_v184 main_v185 (Host.rsqrt : (⟨S100000, .f32⟩ : BufTy).Contents (Elt F) → (⟨S100000, .f32⟩ : BufTy).Contents (Elt F)),
    nullary main_cst_50 (constant S_ .f32 0x00000000#32),
    TRef.unary (TRef.of (T := ⟨S_, .f32⟩) main_cst_50) (TRef.of (T := ⟨S_, .f32⟩) main_call8_v0) id,
    TRef.unary (TRef.of (T := ⟨S_, .f32⟩) main_call8_v0) (TRef.of (T := ⟨S100000, .f32⟩) main_call8_v1) (broadcastInDim S100000 ![] bcast_S_S100000),
    TRef.ternary (TRef.of (T := ⟨S100000, .i1⟩) main_v182) (TRef.of (T := ⟨S100000, .f32⟩) main_v185) (TRef.of (T := ⟨S100000, .f32⟩) main_call8_v1) (TRef.of (T := ⟨S100000, .f32⟩) main_v186) select ]

set_option maxRecDepth 8192 in
set_option maxHeartbeats 4000000 in
/-- The stretch of the program is the list, run in sequence. -/
theorem main_part3_eq (c : Dev nD) : main_part3 (F := F) c = seq ops3 := rfl

set_option maxRecDepth 8192 in
/-- Every operation's buffers are the TensorCore's. -/
theorem ops3_sub : (ops3 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- No operation allocates a buffer: each determines its results. -/
theorem ops3_fresh : ∀ op ∈ (ops3 : List (HloOp τ sig (Elt F))), op.fresh = ∅ := by
  intro _ h; (repeat (cases h with | head => rfl | tail _ h => ?_)); exact nomatch h

/-- The buffers the stretch writes. -/
abbrev ops3_W : List (Ref sig .tc) := [main_v138, main_v139, main_v140, main_v141, main_v142, main_v143, main_v144, main_v145, main_v146, main_v147, main_cst_40, main_v148, main_cst_41, main_v149, main_v150, main_v151, main_v152, main_v153, main_v154, main_cst_42, main_v155, main_cst_43, main_v156, main_v157, main_v158, main_v159, main_v160, main_cst_44, main_v161, main_v162, main_v163, main_v164, main_v165, main_v166, main_v167, main_v168, main_v169, main_v170, main_v171, main_v172, main_v173, main_cst_45, main_v174, main_cst_46, main_v175, main_v176, main_v177, main_cst_47, main_v178, main_v179, main_v180, main_cst_48, main_v181, main_v182, main_cst_49, main_v183, main_v184, main_v185, main_cst_50, main_call8_v0, main_call8_v1, main_v186]

set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

/-- `main_v147` after the stretch, from what the stretch reads. -/
def g_main_v147 (x_main_v135 : (⟨S100000x128, .f32⟩ : BufTy).Contents (Elt F)) (x_main_v137 : (⟨S128, .f32⟩ : BufTy).Contents (Elt F)) (x_main_arg8 : (⟨S128, .f32⟩ : BufTy).Contents (Elt F)) (x_main_arg9 : (⟨S128, .f32⟩ : BufTy).Contents (Elt F)) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v135 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) x_main_v137)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg8))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg9)))

set_option maxRecDepth 8192 in
set_option maxHeartbeats 4000000 in
theorem w_main_v147 (V : Valuation τ sig (Elt F)) :
    after ops3 V (no_index (Proc.devRef .tc main_v147)) = g_main_v147 (V (Proc.devRef .tc main_v135)) (V (Proc.devRef .tc main_v137)) (V (Proc.devRef .tc main_arg8)) (V (Proc.devRef .tc main_arg9)) := by
  simp only [ops3]
  after_results_simp
  all_goals rfl

/-- `main_v172` after the stretch, from what the stretch reads. -/
def g_main_v172 (x_main_v122 : (⟨S64x128, .f32⟩ : BufTy).Contents (Elt F)) (x_main_arg10 : (⟨S128, .f32⟩ : BufTy).Contents (Elt F)) (x_main_arg11 : (⟨S128, .f32⟩ : BufTy).Contents (Elt F)) : (⟨S64x128, .f32⟩ : BufTy).Contents (Elt F) :=
  ((addf : (⟨S64x128, .f32⟩ : BufTy).Contents (Elt F) → (⟨S64x128, .f32⟩ : BufTy).Contents (Elt F) → (⟨S64x128, .f32⟩ : BufTy).Contents (Elt F)) ((mulf : (⟨S64x128, .f32⟩ : BufTy).Contents (Elt F) → (⟨S64x128, .f32⟩ : BufTy).Contents (Elt F) → (⟨S64x128, .f32⟩ : BufTy).Contents (Elt F)) ((mulf : (⟨S64x128, .f32⟩ : BufTy).Contents (Elt F) → (⟨S64x128, .f32⟩ : BufTy).Contents (Elt F) → (⟨S64x128, .f32⟩ : BufTy).Contents (Elt F)) ((subf : (⟨S64x128, .f32⟩ : BufTy).Contents (Elt F) → (⟨S64x128, .f32⟩ : BufTy).Contents (Elt F) → (⟨S64x128, .f32⟩ : BufTy).Contents (Elt F)) x_main_v122 ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) x_main_v122 (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x42800000#32 : (⟨S_, .f32⟩ : BufTy).Contents (Elt F))))))) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) ((mulf : (⟨S64x128, .f32⟩ : BufTy).Contents (Elt F) → (⟨S64x128, .f32⟩ : BufTy).Contents (Elt F) → (⟨S64x128, .f32⟩ : BufTy).Contents (Elt F)) ((subf : (⟨S64x128, .f32⟩ : BufTy).Contents (Elt F) → (⟨S64x128, .f32⟩ : BufTy).Contents (Elt F) → (⟨S64x128, .f32⟩ : BufTy).Contents (Elt F)) x_main_v122 ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) x_main_v122 (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x42800000#32 : (⟨S_, .f32⟩ : BufTy).Contents (Elt F))))))) ((subf : (⟨S64x128, .f32⟩ : BufTy).Contents (Elt F) → (⟨S64x128, .f32⟩ : BufTy).Contents (Elt F) → (⟨S64x128, .f32⟩ : BufTy).Contents (Elt F)) x_main_v122 ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)) x_main_v122 (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x42800000#32 : (⟨S_, .f32⟩ : BufTy).Contents (Elt F)))))))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x42800000#32 : (⟨S_, .f32⟩ : BufTy).Contents (Elt F)))) ((broadcastInDim S128 ![] bcast_S_S128 : (⟨S_, .f32⟩ : BufTy).Contents (Elt F) → (⟨S128, .f32⟩ : BufTy).Contents (Elt F)) (constant S_ .f32 0x3727C5AC#32 : (⟨S_, .f32⟩ : BufTy).Contents (Elt F)))))))) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg10))) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg11)))

set_option maxRecDepth 8192 in
set_option maxHeartbeats 4000000 in
theorem w_main_v172 (V : Valuation τ sig (Elt F)) :
    after ops3 V (no_index (Proc.devRef .tc main_v172)) = g_main_v172 (V (Proc.devRef .tc main_v122)) (V (Proc.devRef .tc main_arg10)) (V (Proc.devRef .tc main_arg11)) := by
  simp only [ops3]
  after_results_simp
  all_goals rfl

/-- `main_v173` after the stretch, from what the stretch reads. -/
def g_main_v173  : (⟨S100000, .i32⟩ : BufTy).Contents (Elt F) :=
  (iotaInDim S100000 32 0 : (⟨S100000, .i32⟩ : BufTy).Contents (Elt F))

set_option maxRecDepth 8192 in
set_option maxHeartbeats 4000000 in
theorem w_main_v173 (V : Valuation τ sig (Elt F)) :
    after ops3 V (no_index (Proc.devRef .tc main_v173)) = g_main_v173 := by
  simp only [ops3]
  after_results_simp
  all_goals rfl

/-- `main_v180` after the stretch, from what the stretch reads. -/
def g_main_v180 (x_main_arg22 : (⟨S100000, .i32⟩ : BufTy).Contents (Elt F)) : (⟨S64, .f32⟩ : BufTy).Contents (Elt F) :=
  (((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_arg22) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))

set_option maxRecDepth 8192 in
set_option maxHeartbeats 4000000 in
theorem w_main_v180 (V : Valuation τ sig (Elt F)) :
    after ops3 V (no_index (Proc.devRef .tc main_v180)) = g_main_v180 (V (Proc.devRef .tc main_arg22)) := by
  simp only [ops3]
  after_results_simp
  all_goals rfl

/-- `main_v186` after the stretch, from what the stretch reads. -/
def g_main_v186  : (⟨S100000, .f32⟩ : BufTy).Contents (Elt F) :=
  ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) (((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) (iotaInDim S100000 32 0 : (⟨S100000, .i32⟩ : BufTy).Contents (Elt F))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) (iotaInDim S100000 32 0 : (⟨S100000, .i32⟩ : BufTy).Contents (Elt F))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))

set_option maxRecDepth 8192 in
set_option maxHeartbeats 4000000 in
theorem w_main_v186 (V : Valuation τ sig (Elt F)) :
    after ops3 V (no_index (Proc.devRef .tc main_v186)) = g_main_v186 := by
  simp only [ops3]
  after_results_simp
  all_goals rfl

end Cert.ReferenceIdeal.ValueB

end
-- ==== Proof.RefRunB.W4.lean ====
/-
  Operations 259 … 322 of the reference's 472 host operations (the next stretch of @main, in order), read as a
  list: the stretch of the program IS the list run in sequence; every operation touches only the TensorCore's buffers and
  allocates none; the buffers the stretch writes; and, for each buffer the stretch writes that a later stretch (or the
  result) reads, its contents after the stretch as a function of the contents, before the stretch, of the buffers the
  stretch reads and does not itself write — the operations' functions composed, from ANY contents before the stretch.
-/
import proofs.«405200_j27075473834261_2_alg».proof.Proof.Gen.ReferenceIdeal
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
/-- The stretch's operations, in order (a called function's operations stand in its call's place). -/
abbrev ops4 : List (HloOp τ sig (Elt F)) :=
  [ unary main_v186 main_v187 (broadcastInDim S100000x1 ![0] bcast_S100000_S100000x1_0 : (⟨S100000, .f32⟩ : BufTy).Contents (Elt F) → (⟨S100000x1, .f32⟩ : BufTy).Contents (Elt F)),
    unary main_v187 main_v188 (broadcastInDim S100000x128 ![0, 1] bcast_S100000x1_S100000x128_0_1 : (⟨S100000x1, .f32⟩ : BufTy).Contents (Elt F) → (⟨S100000x128, .f32⟩ : BufTy).Contents (Elt F)),
    binary main_v147 main_v188 main_v189 (mulf : (⟨S100000x128, .f32⟩ : BufTy).Contents (Elt F) → (⟨S100000x128, .f32⟩ : BufTy).Contents (Elt F) → (⟨S100000x128, .f32⟩ : BufTy).Contents (Elt F)),
    nullary main_c_51 (constantI S_ 32 0#32),
    unary main_c_51 main_v190 (broadcastInDim S100000 ![] bcast_S_S100000 : (⟨S_, .i32⟩ : BufTy).Contents (Elt F) → (⟨S100000, .i32⟩ : BufTy).Contents (Elt F)),
    binary main_v173 main_v190 main_v191 (cmpi .slt : (⟨S100000, .i32⟩ : BufTy).Contents (Elt F) → (⟨S100000, .i32⟩ : BufTy).Contents (Elt F) → (⟨S100000, .i1⟩ : BufTy).Contents (Elt F)),
    nullary main_c_52 (constantI S_ 32 100000#32),
    unary main_c_52 main_v192 (broadcastInDim S100000 ![] bcast_S_S100000 : (⟨S_, .i32⟩ : BufTy).Contents (Elt F) → (⟨S100000, .i32⟩ : BufTy).Contents (Elt F)),
    binary main_v173 main_v192 main_v193 (addi : (⟨S100000, .i32⟩ : BufTy).Contents (Elt F) → (⟨S100000, .i32⟩ : BufTy).Contents (Elt F) → (⟨S100000, .i32⟩ : BufTy).Contents (Elt F)),
    ternary main_v191 main_v193 main_v173 main_v194 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v194 main_v195 (broadcastInDim S100000x1 ![0] bcast_S100000_S100000x1_0 : (⟨S100000, .i32⟩ : BufTy).Contents (Elt F) → (⟨S100000x1, .i32⟩ : BufTy).Contents (Elt F)),
    binary main_v189 main_v195 main_v196 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    nullary main_cst_53 (constant S_ .f32 0x00000000#32),
    unary main_cst_53 main_v197 (broadcastInDim S64x128 ![] bcast_S_S64x128 : (⟨S_, .f32⟩ : BufTy).Contents (Elt F) → (⟨S64x128, .f32⟩ : BufTy).Contents (Elt F)),
    unary main_arg22 main_v198 (broadcastInDim S100000x1 ![0] bcast_S100000_S100000x1_0 : (⟨S100000, .i32⟩ : BufTy).Contents (Elt F) → (⟨S100000x1, .i32⟩ : BufTy).Contents (Elt F)),
    ternary main_v197 main_v198 main_v196 main_v199 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_54 (constant S_ .f32 0x00000000#32),
    unary main_cst_54 main_v200 (broadcastInDim S64 ![] bcast_S_S64 : (⟨S_, .f32⟩ : BufTy).Contents (Elt F) → (⟨S64, .f32⟩ : BufTy).Contents (Elt F)),
    binary main_v180 main_v200 main_v201 (cmpf (F := F) .ogt : (⟨S64, .f32⟩ : BufTy).Contents (Elt F) → (⟨S64, .f32⟩ : BufTy).Contents (Elt F) → (⟨S64, .i1⟩ : BufTy).Contents (Elt F)),
    nullary main_cst_55 (constant S_ .f32 0x3F800000#32),
    unary main_cst_55 main_v202 (broadcastInDim S64 ![] bcast_S_S64 : (⟨S_, .f32⟩ : BufTy).Contents (Elt F) → (⟨S64, .f32⟩ : BufTy).Contents (Elt F)),
    binary main_v180 main_v202 main_v203 (maximumf : (⟨S64, .f32⟩ : BufTy).Contents (Elt F) → (⟨S64, .f32⟩ : BufTy).Contents (Elt F) → (⟨S64, .f32⟩ : BufTy).Contents (Elt F)),
    unary main_v203 main_v204 (Host.rsqrt : (⟨S64, .f32⟩ : BufTy).Contents (Elt F) → (⟨S64, .f32⟩ : BufTy).Contents (Elt F)),
    nullary main_cst_56 (constant S_ .f32 0x00000000#32),
    TRef.unary (TRef.of (T := ⟨S_, .f32⟩) main_cst_56) (TRef.of (T := ⟨S_, .f32⟩) main_call9_v0) id,
    TRef.unary (TRef.of (T := ⟨S_, .f32⟩) main_call9_v0) (TRef.of (T := ⟨S64, .f32⟩) main_call9_v1) (broadcastInDim S64 ![] bcast_S_S64),
    TRef.ternary (TRef.of (T := ⟨S64, .i1⟩) main_v201) (TRef.of (T := ⟨S64, .f32⟩) main_v204) (TRef.of (T := ⟨S64, .f32⟩) main_call9_v1) (TRef.of (T := ⟨S64, .f32⟩) main_v205) select,
    unary main_v205 main_v206 (broadcastInDim S64x1 ![0] bcast_S64_S64x1_0 : (⟨S64, .f32⟩ : BufTy).Contents (Elt F) → (⟨S64x1, .f32⟩ : BufTy).Contents (Elt F)),
    unary main_v206 main_v207 (broadcastInDim S64x128 ![0, 1] bcast_S64x1_S64x128_0_1 : (⟨S64x1, .f32⟩ : BufTy).Contents (Elt F) → (⟨S64x128, .f32⟩ : BufTy).Contents (Elt F)),
    binary main_v199 main_v207 main_v208 (mulf : (⟨S64x128, .f32⟩ : BufTy).Contents (Elt F) → (⟨S64x128, .f32⟩ : BufTy).Contents (Elt F) → (⟨S64x128, .f32⟩ : BufTy).Contents (Elt F)),
    binary main_v208 main_arg12 main_v209 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg13 main_v210 (broadcastInDim S1x64 ![1] bcast_S64_S1x64_1 : (⟨S64, .f32⟩ : BufTy).Contents (Elt F) → (⟨S1x64, .f32⟩ : BufTy).Contents (Elt F)),
    unary main_v210 main_v211 (broadcastInDim S64x64 ![0, 1] bcast_S1x64_S64x64_0_1 : (⟨S1x64, .f32⟩ : BufTy).Contents (Elt F) → (⟨S64x64, .f32⟩ : BufTy).Contents (Elt F)),
    binary main_v209 main_v211 main_v212 (addf : (⟨S64x64, .f32⟩ : BufTy).Contents (Elt F) → (⟨S64x64, .f32⟩ : BufTy).Contents (Elt F) → (⟨S64x64, .f32⟩ : BufTy).Contents (Elt F)),
    nullary main_cst_57 (constant S_ .f32 0x3F800000#32),
    unary main_cst_57 main_v213 (broadcastInDim S100000 ![] bcast_S_S100000 : (⟨S_, .f32⟩ : BufTy).Contents (Elt F) → (⟨S100000, .f32⟩ : BufTy).Contents (Elt F)),
    nullary main_cst_58 (constant S_ .f32 0x00000000#32),
    unary main_cst_58 main_v214 (broadcastInDim S64 ![] bcast_S_S64 : (⟨S_, .f32⟩ : BufTy).Contents (Elt F) → (⟨S64, .f32⟩ : BufTy).Contents (Elt F)),
    unary main_arg22 main_v215 (broadcastInDim S100000x1 ![0] bcast_S100000_S100000x1_0 : (⟨S100000, .i32⟩ : BufTy).Contents (Elt F) → (⟨S100000x1, .i32⟩ : BufTy).Contents (Elt F)),
    ternary main_v214 main_v215 main_v213 main_v216 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_59 (constant S_ .f32 0x00000000#32),
    unary main_cst_59 main_v217 (broadcastInDim S100000 ![] bcast_S_S100000 : (⟨S_, .f32⟩ : BufTy).Contents (Elt F) → (⟨S100000, .f32⟩ : BufTy).Contents (Elt F)),
    unary main_v173 main_v218 (broadcastInDim S100000x1 ![0] bcast_S100000_S100000x1_0 : (⟨S100000, .i32⟩ : BufTy).Contents (Elt F) → (⟨S100000x1, .i32⟩ : BufTy).Contents (Elt F)),
    ternary main_v217 main_v218 main_v213 main_v219 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_60 (constant S_ .f32 0x00000000#32),
    unary main_cst_60 main_v220 (broadcastInDim S64 ![] bcast_S_S64 : (⟨S_, .f32⟩ : BufTy).Contents (Elt F) → (⟨S64, .f32⟩ : BufTy).Contents (Elt F)),
    binary main_v216 main_v220 main_v221 (cmpf (F := F) .ogt : (⟨S64, .f32⟩ : BufTy).Contents (Elt F) → (⟨S64, .f32⟩ : BufTy).Contents (Elt F) → (⟨S64, .i1⟩ : BufTy).Contents (Elt F)),
    nullary main_cst_61 (constant S_ .f32 0x3F800000#32),
    unary main_cst_61 main_v222 (broadcastInDim S64 ![] bcast_S_S64 : (⟨S_, .f32⟩ : BufTy).Contents (Elt F) → (⟨S64, .f32⟩ : BufTy).Contents (Elt F)),
    binary main_v216 main_v222 main_v223 (maximumf : (⟨S64, .f32⟩ : BufTy).Contents (Elt F) → (⟨S64, .f32⟩ : BufTy).Contents (Elt F) → (⟨S64, .f32⟩ : BufTy).Contents (Elt F)),
    unary main_v223 main_v224 (Host.rsqrt : (⟨S64, .f32⟩ : BufTy).Contents (Elt F) → (⟨S64, .f32⟩ : BufTy).Contents (Elt F)),
    nullary main_cst_62 (constant S_ .f32 0x00000000#32),
    TRef.unary (TRef.of (T := ⟨S_, .f32⟩) main_cst_62) (TRef.of (T := ⟨S_, .f32⟩) main_call10_v0) id,
    TRef.unary (TRef.of (T := ⟨S_, .f32⟩) main_call10_v0) (TRef.of (T := ⟨S64, .f32⟩) main_call10_v1) (broadcastInDim S64 ![] bcast_S_S64),
    TRef.ternary (TRef.of (T := ⟨S64, .i1⟩) main_v221) (TRef.of (T := ⟨S64, .f32⟩) main_v224) (TRef.of (T := ⟨S64, .f32⟩) main_call10_v1) (TRef.of (T := ⟨S64, .f32⟩) main_v225) select,
    unary main_v225 main_v226 (broadcastInDim S64x1 ![0] bcast_S64_S64x1_0 : (⟨S64, .f32⟩ : BufTy).Contents (Elt F) → (⟨S64x1, .f32⟩ : BufTy).Contents (Elt F)),
    unary main_v226 main_v227 (broadcastInDim S64x128 ![0, 1] bcast_S64x1_S64x128_0_1 : (⟨S64x1, .f32⟩ : BufTy).Contents (Elt F) → (⟨S64x128, .f32⟩ : BufTy).Contents (Elt F)),
    binary main_v172 main_v227 main_v228 (mulf : (⟨S64x128, .f32⟩ : BufTy).Contents (Elt F) → (⟨S64x128, .f32⟩ : BufTy).Contents (Elt F) → (⟨S64x128, .f32⟩ : BufTy).Contents (Elt F)),
    nullary main_c_63 (constantI S_ 32 0#32),
    unary main_c_63 main_v229 (broadcastInDim S100000 ![] bcast_S_S100000 : (⟨S_, .i32⟩ : BufTy).Contents (Elt F) → (⟨S100000, .i32⟩ : BufTy).Contents (Elt F)),
    binary main_arg22 main_v229 main_v230 (cmpi .slt : (⟨S100000, .i32⟩ : BufTy).Contents (Elt F) → (⟨S100000, .i32⟩ : BufTy).Contents (Elt F) → (⟨S100000, .i1⟩ : BufTy).Contents (Elt F)),
    nullary main_c_64 (constantI S_ 32 64#32),
    unary main_c_64 main_v231 (broadcastInDim S100000 ![] bcast_S_S100000 : (⟨S_, .i32⟩ : BufTy).Contents (Elt F) → (⟨S100000, .i32⟩ : BufTy).Contents (Elt F)),
    binary main_arg22 main_v231 main_v232 (addi : (⟨S100000, .i32⟩ : BufTy).Contents (Elt F) → (⟨S100000, .i32⟩ : BufTy).Contents (Elt F) → (⟨S100000, .i32⟩ : BufTy).Contents (Elt F)) ]

set_option maxRecDepth 8192 in
set_option maxHeartbeats 4000000 in
/-- The stretch of the program is the list, run in sequence. -/
theorem main_part4_eq (c : Dev nD) : main_part4 (F := F) c = seq ops4 := rfl

set_option maxRecDepth 8192 in
/-- Every operation's buffers are the TensorCore's. -/
theorem ops4_sub : (ops4 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub ..⟩

/-- No operation allocates a buffer: each determines its results. -/
theorem ops4_fresh : ∀ op ∈ (ops4 : List (HloOp τ sig (Elt F))), op.fresh = ∅ := by
  intro _ h; (repeat (cases h with | head => rfl | tail _ h => ?_)); exact nomatch h

/-- The buffers the stretch writes. -/
abbrev ops4_W : List (Ref sig .tc) := [main_v187, main_v188, main_v189, main_c_51, main_v190, main_v191, main_c_52, main_v192, main_v193, main_v194, main_v195, main_v196, main_cst_53, main_v197, main_v198, main_v199, main_cst_54, main_v200, main_v201, main_cst_55, main_v202, main_v203, main_v204, main_cst_56, main_call9_v0, main_call9_v1, main_v205, main_v206, main_v207, main_v208, main_v209, main_v210, main_v211, main_v212, main_cst_57, main_v213, main_cst_58, main_v214, main_v215, main_v216, main_cst_59, main_v217, main_v218, main_v219, main_cst_60, main_v220, main_v221, main_cst_61, main_v222, main_v223, main_v224, main_cst_62, main_call10_v0, main_call10_v1, main_v225, main_v226, main_v227, main_v228, main_c_63, main_v229, main_v230, main_c_64, main_v231, main_v232]

set_option maxRecDepth 8192 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep4 (V : Valuation τ sig (Elt F)) (r : Ref sig .tc) (h : r ∉ ops4_W) :
    after ops4 V (Proc.devRef .tc r) = V (Proc.devRef .tc r) :=
  after_of_writes_sub ops4 V ops4_writes h

/-- `main_v212` after the stretch, from what the stretch reads. -/
def g_main_v212 (x_main_arg22 : (⟨S100000, .i32⟩ : BufTy).Contents (Elt F)) (x_main_v147 : (⟨S100000x128, .f32⟩ : BufTy).Contents (Elt F)) (x_main_v186 : (⟨S100000, .f32⟩ : BufTy).Contents (Elt F)) (x_main_v173 : (⟨S100000, .i32⟩ : BufTy).Contents (Elt F)) (x_main_v180 : (⟨S64, .f32⟩ : BufTy).Contents (Elt F)) (x_main_arg12 : (⟨S128x64, .f32⟩ : BufTy).Contents (Elt F)) (x_main_arg13 : (⟨S64, .f32⟩ : BufTy).Contents (Elt F)) : (⟨S64x64, .f32⟩ : BufTy).Contents (Elt F) :=
  ((addf : (⟨S64x64, .f32⟩ : BufTy).Contents (Elt F) → (⟨S64x64, .f32⟩ : BufTy).Contents (Elt F) → (⟨S64x64, .f32⟩ : BufTy).Contents (Elt F)) (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) ((mulf : (⟨S64x128, .f32⟩ : BufTy).Contents (Elt F) → (⟨S64x128, .f32⟩ : BufTy).Contents (Elt F) → (⟨S64x128, .f32⟩ : BufTy).Contents (Elt F)) (((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_arg22) (((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v147 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) x_main_v186))) ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) x_main_v173 ((broadcastInDim S100000 ![] bcast_S_S100000 : (⟨S_, .i32⟩ : BufTy).Contents (Elt F) → (⟨S100000, .i32⟩ : BufTy).Contents (Elt F)) (constantI S_ 32 0#32 : (⟨S_, .i32⟩ : BufTy).Contents (Elt F)))) ((addi : (⟨S100000, .i32⟩ : BufTy).Contents (Elt F) → (⟨S100000, .i32⟩ : BufTy).Contents (Elt F) → (⟨S100000, .i32⟩ : BufTy).Contents (Elt F)) x_main_v173 ((broadcastInDim S100000 ![] bcast_S_S100000 : (⟨S_, .i32⟩ : BufTy).Contents (Elt F) → (⟨S100000, .i32⟩ : BufTy).Contents (Elt F)) (constantI S_ 32 100000#32 : (⟨S_, .i32⟩ : BufTy).Contents (Elt F)))) x_main_v173)))) ((broadcastInDim S64x128 ![0, 1] bcast_S64x1_S64x128_0_1 : (⟨S64x1, .f32⟩ : BufTy).Contents (Elt F) → (⟨S64x128, .f32⟩ : BufTy).Contents (Elt F)) ((broadcastInDim S64x1 ![0] bcast_S64_S64x1_0 : (⟨S64, .f32⟩ : BufTy).Contents (Elt F) → (⟨S64x1, .f32⟩ : BufTy).Contents (Elt F)) ((select : (⟨S64, .i1⟩ : BufTy).Contents (Elt F) → (⟨S64, .f32⟩ : BufTy).Contents (Elt F) → (⟨S64, .f32⟩ : BufTy).Contents (Elt F) → (⟨S64, .f32⟩ : BufTy).Contents (Elt F)) ((cmpf (F := F) .ogt : (⟨S64, .f32⟩ : BufTy).Contents (Elt F) → (⟨S64, .f32⟩ : BufTy).Contents (Elt F) → (⟨S64, .i1⟩ : BufTy).Contents (Elt F)) x_main_v180 ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F)))) ((Host.rsqrt : (⟨S64, .f32⟩ : BufTy).Contents (Elt F) → (⟨S64, .f32⟩ : BufTy).Contents (Elt F)) ((maximumf : (⟨S64, .f32⟩ : BufTy).Contents (Elt F) → (⟨S64, .f32⟩ : BufTy).Contents (Elt F) → (⟨S64, .f32⟩ : BufTy).Contents (Elt F)) x_main_v180 ((broadcastInDim S64 ![] bcast_S_S64 : (⟨S_, .f32⟩ : BufTy).Contents (Elt F) → (⟨S64, .f32⟩ : BufTy).Contents (Elt F)) (constant S_ .f32 0x3F800000#32 : (⟨S_, .f32⟩ : BufTy).Contents (Elt F))))) ((broadcastInDim S64 ![] bcast_S_S64 : (⟨S_, .f32⟩ : BufTy).Contents (Elt F) → (⟨S64, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg12) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) x_main_arg13)))

set_option maxRecDepth 8192 in
set_option maxHeartbeats 4000000 in
theorem w_main_v212 (V : Valuation τ sig (Elt F)) :
    after ops4 V (no_index (Proc.devRef .tc main_v212)) = g_main_v212 (V (Proc.devRef .tc main_arg22)) (V (Proc.devRef .tc main_v147)) (V (Proc.devRef .tc main_v186)) (V (Proc.devRef .tc main_v173)) (V (Proc.devRef .tc main_v180)) (V (Proc.devRef .tc main_arg12)) (V (Proc.devRef .tc main_arg13)) := by
  simp only [ops4]
  after_results_simp
  all_goals rfl

/-- `main_v219` after the stretch, from what the stretch reads. -/
def g_main_v219 (x_main_v173 : (⟨S100000, .i32⟩ : BufTy).Contents (Elt F)) : (⟨S100000, .f32⟩ : BufTy).Contents (Elt F) :=
  (((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_v173) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))

set_option maxRecDepth 8192 in
set_option maxHeartbeats 4000000 in
theorem w_main_v219 (V : Valuation τ sig (Elt F)) :
    after ops4 V (no_index (Proc.devRef .tc main_v219)) = g_main_v219 (V (Proc.devRef .tc main_v173)) := by
  simp only [ops4]
  after_results_simp
  all_goals rfl

/-- `main_v228` after the stretch, from what the stretch reads. -/
def g_main_v228 (x_main_v172 : (⟨S64x128, .f32⟩ : BufTy).Contents (Elt F)) (x_main_arg22 : (⟨S100000, .i32⟩ : BufTy).Contents (Elt F)) : (⟨S64x128, .f32⟩ : BufTy).Contents (Elt F) :=
  ((mulf : (⟨S64x128, .f32⟩ : BufTy).Contents (Elt F) → (⟨S64x128, .f32⟩ : BufTy).Contents (Elt F) → (⟨S64x128, .f32⟩ : BufTy).Contents (Elt F)) x_main_v172 ((broadcastInDim S64x128 ![0, 1] bcast_S64x1_S64x128_0_1 : (⟨S64x1, .f32⟩ : BufTy).Contents (Elt F) → (⟨S64x128, .f32⟩ : BufTy).Contents (Elt F)) ((broadcastInDim S64x1 ![0] bcast_S64_S64x1_0 : (⟨S64, .f32⟩ : BufTy).Contents (Elt F) → (⟨S64x1, .f32⟩ : BufTy).Contents (Elt F)) ((select : (⟨S64, .i1⟩ : BufTy).Contents (Elt F) → (⟨S64, .f32⟩ : BufTy).Contents (Elt F) → (⟨S64, .f32⟩ : BufTy).Contents (Elt F) → (⟨S64, .f32⟩ : BufTy).Contents (Elt F)) ((cmpf (F := F) .ogt : (⟨S64, .f32⟩ : BufTy).Contents (Elt F) → (⟨S64, .f32⟩ : BufTy).Contents (Elt F) → (⟨S64, .i1⟩ : BufTy).Contents (Elt F)) (((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_arg22) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F)))) ((Host.rsqrt : (⟨S64, .f32⟩ : BufTy).Contents (Elt F) → (⟨S64, .f32⟩ : BufTy).Contents (Elt F)) ((maximumf : (⟨S64, .f32⟩ : BufTy).Contents (Elt F) → (⟨S64, .f32⟩ : BufTy).Contents (Elt F) → (⟨S64, .f32⟩ : BufTy).Contents (Elt F)) (((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_arg22) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S64 ![] bcast_S_S64 : (⟨S_, .f32⟩ : BufTy).Contents (Elt F) → (⟨S64, .f32⟩ : BufTy).Contents (Elt F)) (constant S_ .f32 0x3F800000#32 : (⟨S_, .f32⟩ : BufTy).Contents (Elt F))))) ((broadcastInDim S64 ![] bcast_S_S64 : (⟨S_, .f32⟩ : BufTy).Contents (Elt F) → (⟨S64, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F))))))))

set_option maxRecDepth 8192 in
set_option maxHeartbeats 4000000 in
theorem w_main_v228 (V : Valuation τ sig (Elt F)) :
    after ops4 V (no_index (Proc.devRef .tc main_v228)) = g_main_v228 (V (Proc.devRef .tc main_v172)) (V (Proc.devRef .tc main_arg22)) := by
  simp only [ops4]
  after_results_simp
  all_goals rfl

/-- `main_v230` after the stretch, from what the stretch reads. -/
def g_main_v230 (x_main_arg22 : (⟨S100000, .i32⟩ : BufTy).Contents (Elt F)) : (⟨S100000, .i1⟩ : BufTy).Contents (Elt F) :=
  ((cmpi .slt : (⟨S100000, .i32⟩ : BufTy).Contents (Elt F) → (⟨S100000, .i32⟩ : BufTy).Contents (Elt F) → (⟨S100000, .i1⟩ : BufTy).Contents (Elt F)) x_main_arg22 ((broadcastInDim S100000 ![] bcast_S_S100000 : (⟨S_, .i32⟩ : BufTy).Contents (Elt F) → (⟨S100000, .i32⟩ : BufTy).Contents (Elt F)) (constantI S_ 32 0#32 : (⟨S_, .i32⟩ : BufTy).Contents (Elt F))))

set_option maxRecDepth 8192 in
set_option maxHeartbeats 4000000 in
theorem w_main_v230 (V : Valuation τ sig (Elt F)) :
    after ops4 V (no_index (Proc.devRef .tc main_v230)) = g_main_v230 (V (Proc.devRef .tc main_arg22)) := by
  simp only [ops4]
  after_results_simp
  all_goals rfl

/-- `main_v232` after the stretch, from what the stretch reads. -/
def g_main_v232 (x_main_arg22 : (⟨S100000, .i32⟩ : BufTy).Contents (Elt F)) : (⟨S100000, .i32⟩ : BufTy).Contents (Elt F) :=
  ((addi : (⟨S100000, .i32⟩ : BufTy).Contents (Elt F) → (⟨S100000, .i32⟩ : BufTy).Contents (Elt F) → (⟨S100000, .i32⟩ : BufTy).Contents (Elt F)) x_main_arg22 ((broadcastInDim S100000 ![] bcast_S_S100000 : (⟨S_, .i32⟩ : BufTy).Contents (Elt F) → (⟨S100000, .i32⟩ : BufTy).Contents (Elt F)) (constantI S_ 32 64#32 : (⟨S_, .i32⟩ : BufTy).Contents (Elt F))))

set_option maxRecDepth 8192 in
set_option maxHeartbeats 4000000 in
theorem w_main_v232 (V : Valuation τ sig (Elt F)) :
    after ops4 V (no_index (Proc.devRef .tc main_v232)) = g_main_v232 (V (Proc.devRef .tc main_arg22)) := by
  simp only [ops4]
  after_results_simp
  all_goals rfl

end Cert.ReferenceIdeal.ValueB

end
-- ==== Proof.RefRunB.W5.lean ====
/-
  Operations 323 … 386 of the reference's 472 host operations (the next stretch of @main, in order), read as a
  list: the stretch of the program IS the list run in sequence; every operation touches only the TensorCore's buffers and
  allocates none; the buffers the stretch writes; and, for each buffer the stretch writes that a later stretch (or the
  result) reads, its contents after the stretch as a function of the contents, before the stretch, of the buffers the
  stretch reads and does not itself write — the operations' functions composed, from ANY contents before the stretch.
-/
import proofs.«405200_j27075473834261_2_alg».proof.Proof.Gen.ReferenceIdeal
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
/-- The stretch's operations, in order (a called function's operations stand in its call's place). -/
abbrev ops5 : List (HloOp τ sig (Elt F)) :=
  [ ternary main_v230 main_v232 main_arg22 main_v233 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v233 main_v234 (broadcastInDim S100000x1 ![0] bcast_S100000_S100000x1_0 : (⟨S100000, .i32⟩ : BufTy).Contents (Elt F) → (⟨S100000x1, .i32⟩ : BufTy).Contents (Elt F)),
    binary main_v228 main_v234 main_v235 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)),
    nullary main_cst_65 (constant S_ .f32 0x00000000#32),
    unary main_cst_65 main_v236 (broadcastInDim S100000x128 ![] bcast_S_S100000x128 : (⟨S_, .f32⟩ : BufTy).Contents (Elt F) → (⟨S100000x128, .f32⟩ : BufTy).Contents (Elt F)),
    unary main_v173 main_v237 (broadcastInDim S100000x1 ![0] bcast_S100000_S100000x1_0 : (⟨S100000, .i32⟩ : BufTy).Contents (Elt F) → (⟨S100000x1, .i32⟩ : BufTy).Contents (Elt F)),
    ternary main_v236 main_v237 main_v235 main_v238 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_66 (constant S_ .f32 0x00000000#32),
    unary main_cst_66 main_v239 (broadcastInDim S100000 ![] bcast_S_S100000 : (⟨S_, .f32⟩ : BufTy).Contents (Elt F) → (⟨S100000, .f32⟩ : BufTy).Contents (Elt F)),
    binary main_v219 main_v239 main_v240 (cmpf (F := F) .ogt : (⟨S100000, .f32⟩ : BufTy).Contents (Elt F) → (⟨S100000, .f32⟩ : BufTy).Contents (Elt F) → (⟨S100000, .i1⟩ : BufTy).Contents (Elt F)),
    nullary main_cst_67 (constant S_ .f32 0x3F800000#32),
    unary main_cst_67 main_v241 (broadcastInDim S100000 ![] bcast_S_S100000 : (⟨S_, .f32⟩ : BufTy).Contents (Elt F) → (⟨S100000, .f32⟩ : BufTy).Contents (Elt F)),
    binary main_v219 main_v241 main_v242 (maximumf : (⟨S100000, .f32⟩ : BufTy).Contents (Elt F) → (⟨S100000, .f32⟩ : BufTy).Contents (Elt F) → (⟨S100000, .f32⟩ : BufTy).Contents (Elt F)),
    unary main_v242 main_v243 (Host.rsqrt : (⟨S100000, .f32⟩ : BufTy).Contents (Elt F) → (⟨S100000, .f32⟩ : BufTy).Contents (Elt F)),
    nullary main_cst_68 (constant S_ .f32 0x00000000#32),
    TRef.unary (TRef.of (T := ⟨S_, .f32⟩) main_cst_68) (TRef.of (T := ⟨S_, .f32⟩) main_call11_v0) id,
    TRef.unary (TRef.of (T := ⟨S_, .f32⟩) main_call11_v0) (TRef.of (T := ⟨S100000, .f32⟩) main_call11_v1) (broadcastInDim S100000 ![] bcast_S_S100000),
    TRef.ternary (TRef.of (T := ⟨S100000, .i1⟩) main_v240) (TRef.of (T := ⟨S100000, .f32⟩) main_v243) (TRef.of (T := ⟨S100000, .f32⟩) main_call11_v1) (TRef.of (T := ⟨S100000, .f32⟩) main_v244) select,
    unary main_v244 main_v245 (broadcastInDim S100000x1 ![0] bcast_S100000_S100000x1_0 : (⟨S100000, .f32⟩ : BufTy).Contents (Elt F) → (⟨S100000x1, .f32⟩ : BufTy).Contents (Elt F)),
    unary main_v245 main_v246 (broadcastInDim S100000x128 ![0, 1] bcast_S100000x1_S100000x128_0_1 : (⟨S100000x1, .f32⟩ : BufTy).Contents (Elt F) → (⟨S100000x128, .f32⟩ : BufTy).Contents (Elt F)),
    binary main_v238 main_v246 main_v247 (mulf : (⟨S100000x128, .f32⟩ : BufTy).Contents (Elt F) → (⟨S100000x128, .f32⟩ : BufTy).Contents (Elt F) → (⟨S100000x128, .f32⟩ : BufTy).Contents (Elt F)),
    binary main_v247 main_arg14 main_v248 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v249 (broadcastInDim S1x128 ![1] bcast_S128_S1x128_1 : (⟨S128, .f32⟩ : BufTy).Contents (Elt F) → (⟨S1x128, .f32⟩ : BufTy).Contents (Elt F)),
    unary main_v249 main_v250 (broadcastInDim S100000x128 ![0, 1] bcast_S1x128_S100000x128_0_1 : (⟨S1x128, .f32⟩ : BufTy).Contents (Elt F) → (⟨S100000x128, .f32⟩ : BufTy).Contents (Elt F)),
    binary main_v248 main_v250 main_v251 (addf : (⟨S100000x128, .f32⟩ : BufTy).Contents (Elt F) → (⟨S100000x128, .f32⟩ : BufTy).Contents (Elt F) → (⟨S100000x128, .f32⟩ : BufTy).Contents (Elt F)),
    nullary main_cst_69 (constant S_ .f32 0x3F800000#32),
    unary main_cst_69 main_v252 (broadcastInDim S1600000 ![] bcast_S_S1600000 : (⟨S_, .f32⟩ : BufTy).Contents (Elt F) → (⟨S1600000, .f32⟩ : BufTy).Contents (Elt F)),
    nullary main_cst_70 (constant S_ .f32 0x00000000#32),
    unary main_cst_70 main_v253 (broadcastInDim S100000 ![] bcast_S_S100000 : (⟨S_, .f32⟩ : BufTy).Contents (Elt F) → (⟨S100000, .f32⟩ : BufTy).Contents (Elt F)),
    unary main_arg23 main_v254 (broadcastInDim S1600000x1 ![0] bcast_S1600000_S1600000x1_0 : (⟨S1600000, .i32⟩ : BufTy).Contents (Elt F) → (⟨S1600000x1, .i32⟩ : BufTy).Contents (Elt F)),
    ternary main_v253 main_v254 main_v252 main_v255 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_71 (constant S_ .f32 0x00000000#32),
    unary main_cst_71 main_v256 (broadcastInDim S100000 ![] bcast_S_S100000 : (⟨S_, .f32⟩ : BufTy).Contents (Elt F) → (⟨S100000, .f32⟩ : BufTy).Contents (Elt F)),
    unary main_arg24 main_v257 (broadcastInDim S1600000x1 ![0] bcast_S1600000_S1600000x1_0 : (⟨S1600000, .i32⟩ : BufTy).Contents (Elt F) → (⟨S1600000x1, .i32⟩ : BufTy).Contents (Elt F)),
    ternary main_v256 main_v257 main_v252 main_v258 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_72 (constant S_ .f32 0x00000000#32),
    unary main_cst_72 main_v259 (broadcastInDim S100000 ![] bcast_S_S100000 : (⟨S_, .f32⟩ : BufTy).Contents (Elt F) → (⟨S100000, .f32⟩ : BufTy).Contents (Elt F)),
    binary main_v255 main_v259 main_v260 (cmpf (F := F) .ogt : (⟨S100000, .f32⟩ : BufTy).Contents (Elt F) → (⟨S100000, .f32⟩ : BufTy).Contents (Elt F) → (⟨S100000, .i1⟩ : BufTy).Contents (Elt F)),
    nullary main_cst_73 (constant S_ .f32 0x3F800000#32),
    unary main_cst_73 main_v261 (broadcastInDim S100000 ![] bcast_S_S100000 : (⟨S_, .f32⟩ : BufTy).Contents (Elt F) → (⟨S100000, .f32⟩ : BufTy).Contents (Elt F)),
    binary main_v255 main_v261 main_v262 (maximumf : (⟨S100000, .f32⟩ : BufTy).Contents (Elt F) → (⟨S100000, .f32⟩ : BufTy).Contents (Elt F) → (⟨S100000, .f32⟩ : BufTy).Contents (Elt F)),
    unary main_v262 main_v263 (Host.rsqrt : (⟨S100000, .f32⟩ : BufTy).Contents (Elt F) → (⟨S100000, .f32⟩ : BufTy).Contents (Elt F)),
    nullary main_cst_74 (constant S_ .f32 0x00000000#32),
    TRef.unary (TRef.of (T := ⟨S_, .f32⟩) main_cst_74) (TRef.of (T := ⟨S_, .f32⟩) main_call12_v0) id,
    TRef.unary (TRef.of (T := ⟨S_, .f32⟩) main_call12_v0) (TRef.of (T := ⟨S100000, .f32⟩) main_call12_v1) (broadcastInDim S100000 ![] bcast_S_S100000),
    TRef.ternary (TRef.of (T := ⟨S100000, .i1⟩) main_v260) (TRef.of (T := ⟨S100000, .f32⟩) main_v263) (TRef.of (T := ⟨S100000, .f32⟩) main_call12_v1) (TRef.of (T := ⟨S100000, .f32⟩) main_v264) select,
    unary main_v264 main_v265 (broadcastInDim S100000x1 ![0] bcast_S100000_S100000x1_0 : (⟨S100000, .f32⟩ : BufTy).Contents (Elt F) → (⟨S100000x1, .f32⟩ : BufTy).Contents (Elt F)),
    unary main_v265 main_v266 (broadcastInDim S100000x128 ![0, 1] bcast_S100000x1_S100000x128_0_1 : (⟨S100000x1, .f32⟩ : BufTy).Contents (Elt F) → (⟨S100000x128, .f32⟩ : BufTy).Contents (Elt F)),
    binary main_v147 main_v266 main_v267 (mulf : (⟨S100000x128, .f32⟩ : BufTy).Contents (Elt F) → (⟨S100000x128, .f32⟩ : BufTy).Contents (Elt F) → (⟨S100000x128, .f32⟩ : BufTy).Contents (Elt F)),
    nullary main_c_75 (constantI S_ 32 0#32),
    unary main_c_75 main_v268 (broadcastInDim S1600000 ![] bcast_S_S1600000 : (⟨S_, .i32⟩ : BufTy).Contents (Elt F) → (⟨S1600000, .i32⟩ : BufTy).Contents (Elt F)),
    binary main_arg23 main_v268 main_v269 (cmpi .slt : (⟨S1600000, .i32⟩ : BufTy).Contents (Elt F) → (⟨S1600000, .i32⟩ : BufTy).Contents (Elt F) → (⟨S1600000, .i1⟩ : BufTy).Contents (Elt F)),
    nullary main_c_76 (constantI S_ 32 100000#32),
    unary main_c_76 main_v270 (broadcastInDim S1600000 ![] bcast_S_S1600000 : (⟨S_, .i32⟩ : BufTy).Contents (Elt F) → (⟨S1600000, .i32⟩ : BufTy).Contents (Elt F)),
    binary main_arg23 main_v270 main_v271 (addi : (⟨S1600000, .i32⟩ : BufTy).Contents (Elt F) → (⟨S1600000, .i32⟩ : BufTy).Contents (Elt F) → (⟨S1600000, .i32⟩ : BufTy).Contents (Elt F)),
    ternary main_v269 main_v271 main_arg23 main_v272 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v272 main_v273 (broadcastInDim S1600000x1 ![0] bcast_S1600000_S1600000x1_0 : (⟨S1600000, .i32⟩ : BufTy).Contents (Elt F) → (⟨S1600000x1, .i32⟩ : BufTy).Contents (Elt F)),
    binary main_v267 main_v273 main_v274 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_77 (constant S_ .f32 0x00000000#32),
    unary main_cst_77 main_v275 (broadcastInDim S100000x128 ![] bcast_S_S100000x128 : (⟨S_, .f32⟩ : BufTy).Contents (Elt F) → (⟨S100000x128, .f32⟩ : BufTy).Contents (Elt F)),
    unary main_arg24 main_v276 (broadcastInDim S1600000x1 ![0] bcast_S1600000_S1600000x1_0 : (⟨S1600000, .i32⟩ : BufTy).Contents (Elt F) → (⟨S1600000x1, .i32⟩ : BufTy).Contents (Elt F)),
    ternary main_v275 main_v276 main_v274 main_v277 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_78 (constant S_ .f32 0x00000000#32),
    unary main_cst_78 main_v278 (broadcastInDim S100000 ![] bcast_S_S100000 : (⟨S_, .f32⟩ : BufTy).Contents (Elt F) → (⟨S100000, .f32⟩ : BufTy).Contents (Elt F)) ]

set_option maxRecDepth 8192 in
set_option maxHeartbeats 4000000 in
/-- The stretch of the program is the list, run in sequence. -/
theorem main_part5_eq (c : Dev nD) : main_part5 (F := F) c = seq ops5 := rfl

set_option maxRecDepth 8192 in
/-- Every operation's buffers are the TensorCore's. -/
theorem ops5_sub : (ops5 : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub ..⟩

/-- No operation allocates a buffer: each determines its results. -/
theorem ops5_fresh : ∀ op ∈ (ops5 : List (HloOp τ sig (Elt F))), op.fresh = ∅ := by
  intro _ h; (repeat (cases h with | head => rfl | tail _ h => ?_)); exact nomatch h

/-- The buffers the stretch writes. -/
abbrev ops5_W : List (Ref sig .tc) := [main_v233, main_v234, main_v235, main_cst_65, main_v236, main_v237, main_v238, main_cst_66, main_v239, main_v240, main_cst_67, main_v241, main_v242, main_v243, main_cst_68, main_call11_v0, main_call11_v1, main_v244, main_v245, main_v246, main_v247, main_v248, main_v249, main_v250, main_v251, main_cst_69, main_v252, main_cst_70, main_v253, main_v254, main_v255, main_cst_71, main_v256, main_v257, main_v258, main_cst_72, main_v259, main_v260, main_cst_73, main_v261, main_v262, main_v263, main_cst_74, main_call12_v0, main_call12_v1, main_v264, main_v265, main_v266, main_v267, main_c_75, main_v268, main_v269, main_c_76, main_v270, main_v271, main_v272, main_v273, main_v274, main_cst_77, main_v275, main_v276, main_v277, main_cst_78, main_v278]

set_option maxRecDepth 8192 in
theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep5 (V : Valuation τ sig (Elt F)) (r : Ref sig .tc) (h : r ∉ ops5_W) :
    after ops5 V (Proc.devRef .tc r) = V (Proc.devRef .tc r) :=
  after_of_writes_sub ops5 V ops5_writes h

/-- `main_v251` after the stretch, from what the stretch reads. -/
def g_main_v251 (x_main_v173 : (⟨S100000, .i32⟩ : BufTy).Contents (Elt F)) (x_main_v228 : (⟨S64x128, .f32⟩ : BufTy).Contents (Elt F)) (x_main_v230 : (⟨S100000, .i1⟩ : BufTy).Contents (Elt F)) (x_main_v232 : (⟨S100000, .i32⟩ : BufTy).Contents (Elt F)) (x_main_arg22 : (⟨S100000, .i32⟩ : BufTy).Contents (Elt F)) (x_main_v219 : (⟨S100000, .f32⟩ : BufTy).Contents (Elt F)) (x_main_arg14 : (⟨S128x128, .f32⟩ : BufTy).Contents (Elt F)) (x_main_arg15 : (⟨S128, .f32⟩ : BufTy).Contents (Elt F)) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x_main_v173) (((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)) x_main_v228 ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) x_main_v230 x_main_v232 x_main_arg22)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v219 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v219 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg14) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg15)))

set_option maxRecDepth 8192 in
set_option maxHeartbeats 4000000 in
theorem w_main_v251 (V : Valuation τ sig (Elt F)) :
    after ops5 V (no_index (Proc.devRef .tc main_v251)) = g_main_v251 (V (Proc.devRef .tc main_v173)) (V (Proc.devRef .tc main_v228)) (V (Proc.devRef .tc main_v230)) (V (Proc.devRef .tc main_v232)) (V (Proc.devRef .tc main_arg22)) (V (Proc.devRef .tc main_v219)) (V (Proc.devRef .tc main_arg14)) (V (Proc.devRef .tc main_arg15)) := by
  simp only [ops5]
  after_results_simp
  all_goals rfl

/-- `main_v258` after the stretch, from what the stretch reads. -/
def g_main_v258 (x_main_arg24 : (⟨S1600000, .i32⟩ : BufTy).Contents (Elt F)) : (⟨S100000, .f32⟩ : BufTy).Contents (Elt F) :=
  (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F))))

set_option maxRecDepth 8192 in
set_option maxHeartbeats 4000000 in
theorem w_main_v258 (V : Valuation τ sig (Elt F)) :
    after ops5 V (no_index (Proc.devRef .tc main_v258)) = g_main_v258 (V (Proc.devRef .tc main_arg24)) := by
  simp only [ops5]
  after_results_simp
  all_goals rfl

/-- `main_v277` after the stretch, from what the stretch reads. -/
def g_main_v277 (x_main_arg24 : (⟨S1600000, .i32⟩ : BufTy).Contents (Elt F)) (x_main_v147 : (⟨S100000x128, .f32⟩ : BufTy).Contents (Elt F)) (x_main_arg23 : (⟨S1600000, .i32⟩ : BufTy).Contents (Elt F)) : (⟨S100000x128, .f32⟩ : BufTy).Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg24) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v147 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg23) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_arg23) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_arg23 ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x_main_arg23))))

set_option maxRecDepth 8192 in
set_option maxHeartbeats 4000000 in
theorem w_main_v277 (V : Valuation τ sig (Elt F)) :
    after ops5 V (no_index (Proc.devRef .tc main_v277)) = g_main_v277 (V (Proc.devRef .tc main_arg24)) (V (Proc.devRef .tc main_v147)) (V (Proc.devRef .tc main_arg23)) := by
  simp only [ops5]
  after_results_simp
  all_goals rfl

/-- `main_v278` after the stretch, from what the stretch reads. -/
def g_main_v278  : (⟨S100000, .f32⟩ : BufTy).Contents (Elt F) :=
  ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)))

set_option maxRecDepth 8192 in
set_option maxHeartbeats 4000000 in
theorem w_main_v278 (V : Valuation τ sig (Elt F)) :
    after ops5 V (no_index (Proc.devRef .tc main_v278)) = g_main_v278 := by
  simp only [ops5]
  after_results_simp
  all_goals rfl

end Cert.ReferenceIdeal.ValueB

end
-- ==== Proof.RefRunB.W6.lean ====
/-
  Operations 387 … 452 of the reference's 472 host operations (the next stretch of @main, in order), read as a
  list: the stretch of the program IS the list run in sequence; every operation touches only the TensorCore's buffers and
  allocates none; the buffers the stretch writes; and, for each buffer the stretch writes that a later stretch (or the
  result) reads, its contents after the stretch as a function of the contents, before the stretch, of the buffers the
  stretch reads and does not itself write — the operations' functions composed, from ANY contents before the stretch.
-/
import proofs.«405200_j27075473834261_2_alg».proof.Proof.Gen.ReferenceIdeal
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
/-- The stretch's operations, in order (a called function's operations stand in its call's place). -/
abbrev ops6 : List (HloOp τ sig (Elt F)) :=
  [ binary main_v258 main_v278 main_v279 (cmpf (F := F) .ogt : (⟨S100000, .f32⟩ : BufTy).Contents (Elt F) → (⟨S100000, .f32⟩ : BufTy).Contents (Elt F) → (⟨S100000, .i1⟩ : BufTy).Contents (Elt F)),
    nullary main_cst_79 (constant S_ .f32 0x3F800000#32),
    unary main_cst_79 main_v280 (broadcastInDim S100000 ![] bcast_S_S100000 : (⟨S_, .f32⟩ : BufTy).Contents (Elt F) → (⟨S100000, .f32⟩ : BufTy).Contents (Elt F)),
    binary main_v258 main_v280 main_v281 (maximumf : (⟨S100000, .f32⟩ : BufTy).Contents (Elt F) → (⟨S100000, .f32⟩ : BufTy).Contents (Elt F) → (⟨S100000, .f32⟩ : BufTy).Contents (Elt F)),
    unary main_v281 main_v282 (Host.rsqrt : (⟨S100000, .f32⟩ : BufTy).Contents (Elt F) → (⟨S100000, .f32⟩ : BufTy).Contents (Elt F)),
    nullary main_cst_80 (constant S_ .f32 0x00000000#32),
    TRef.unary (TRef.of (T := ⟨S_, .f32⟩) main_cst_80) (TRef.of (T := ⟨S_, .f32⟩) main_call13_v0) id,
    TRef.unary (TRef.of (T := ⟨S_, .f32⟩) main_call13_v0) (TRef.of (T := ⟨S100000, .f32⟩) main_call13_v1) (broadcastInDim S100000 ![] bcast_S_S100000),
    TRef.ternary (TRef.of (T := ⟨S100000, .i1⟩) main_v279) (TRef.of (T := ⟨S100000, .f32⟩) main_v282) (TRef.of (T := ⟨S100000, .f32⟩) main_call13_v1) (TRef.of (T := ⟨S100000, .f32⟩) main_v283) select,
    unary main_v283 main_v284 (broadcastInDim S100000x1 ![0] bcast_S100000_S100000x1_0 : (⟨S100000, .f32⟩ : BufTy).Contents (Elt F) → (⟨S100000x1, .f32⟩ : BufTy).Contents (Elt F)),
    unary main_v284 main_v285 (broadcastInDim S100000x128 ![0, 1] bcast_S100000x1_S100000x128_0_1 : (⟨S100000x1, .f32⟩ : BufTy).Contents (Elt F) → (⟨S100000x128, .f32⟩ : BufTy).Contents (Elt F)),
    binary main_v277 main_v285 main_v286 (mulf : (⟨S100000x128, .f32⟩ : BufTy).Contents (Elt F) → (⟨S100000x128, .f32⟩ : BufTy).Contents (Elt F) → (⟨S100000x128, .f32⟩ : BufTy).Contents (Elt F)),
    binary main_v286 main_arg16 main_v287 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg17 main_v288 (broadcastInDim S1x128 ![1] bcast_S128_S1x128_1 : (⟨S128, .f32⟩ : BufTy).Contents (Elt F) → (⟨S1x128, .f32⟩ : BufTy).Contents (Elt F)),
    unary main_v288 main_v289 (broadcastInDim S100000x128 ![0, 1] bcast_S1x128_S100000x128_0_1 : (⟨S1x128, .f32⟩ : BufTy).Contents (Elt F) → (⟨S100000x128, .f32⟩ : BufTy).Contents (Elt F)),
    binary main_v287 main_v289 main_v290 (addf : (⟨S100000x128, .f32⟩ : BufTy).Contents (Elt F) → (⟨S100000x128, .f32⟩ : BufTy).Contents (Elt F) → (⟨S100000x128, .f32⟩ : BufTy).Contents (Elt F)),
    binary main_v251 main_v290 main_v291 (addf : (⟨S100000x128, .f32⟩ : BufTy).Contents (Elt F) → (⟨S100000x128, .f32⟩ : BufTy).Contents (Elt F) → (⟨S100000x128, .f32⟩ : BufTy).Contents (Elt F)),
    nullary main_cst_81 (constant S_ .f32 0x3F000000#32),
    unary main_cst_81 main_v292 (broadcastInDim S100000x128 ![] bcast_S_S100000x128 : (⟨S_, .f32⟩ : BufTy).Contents (Elt F) → (⟨S100000x128, .f32⟩ : BufTy).Contents (Elt F)),
    binary main_v292 main_v291 main_v293 (mulf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S100000x128, .f32⟩) main_call14_v0) (broadcastInDim S100000x128 ![] bcast_S_S100000x128),
    TRef.binary (TRef.of (T := ⟨S100000x128, .f32⟩) main_v293) (TRef.of (T := ⟨S100000x128, .f32⟩) main_call14_v0) (TRef.of (T := ⟨S100000x128, .f32⟩) main_v294) maximumf,
    TRef.nullary (TRef.of (T := ⟨S_, .f32⟩) main_call15_cst) (constant S_ .f32 0x00000000#32),
    TRef.unary (TRef.of (T := ⟨S_, .f32⟩) main_call15_cst) (TRef.of (T := ⟨S64x64, .f32⟩) main_call15_v0) (broadcastInDim S64x64 ![] bcast_S_S64x64),
    TRef.binary (TRef.of (T := ⟨S64x64, .f32⟩) main_v212) (TRef.of (T := ⟨S64x64, .f32⟩) main_call15_v0) (TRef.of (T := ⟨S64x64, .f32⟩) main_v295) maximumf,
    nullary main_cst_82 (constant S_ .f32 0x00000000#32),
    binary main_v294 main_cst_82 main_v296 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_83 (constant S_ .f32 0x47C35000#32),
    unary main_cst_83 main_v297 (broadcastInDim S128 ![] bcast_S_S128 : (⟨S_, .f32⟩ : BufTy).Contents (Elt F) → (⟨S128, .f32⟩ : BufTy).Contents (Elt F)),
    binary main_v296 main_v297 main_v298 (Host.divf : (⟨S128, .f32⟩ : BufTy).Contents (Elt F) → (⟨S128, .f32⟩ : BufTy).Contents (Elt F) → (⟨S128, .f32⟩ : BufTy).Contents (Elt F)),
    unary main_v298 main_v299 (broadcastInDim S1x128 ![1] bcast_S128_S1x128_1 : (⟨S128, .f32⟩ : BufTy).Contents (Elt F) → (⟨S1x128, .f32⟩ : BufTy).Contents (Elt F)),
    unary main_v299 main_v300 (broadcastInDim S100000x128 ![0, 1] bcast_S1x128_S100000x128_0_1 : (⟨S1x128, .f32⟩ : BufTy).Contents (Elt F) → (⟨S100000x128, .f32⟩ : BufTy).Contents (Elt F)),
    binary main_v294 main_v300 main_v301 (subf : (⟨S100000x128, .f32⟩ : BufTy).Contents (Elt F) → (⟨S100000x128, .f32⟩ : BufTy).Contents (Elt F) → (⟨S100000x128, .f32⟩ : BufTy).Contents (Elt F)),
    binary main_v301 main_v301 main_v302 (mulf : (⟨S100000x128, .f32⟩ : BufTy).Contents (Elt F) → (⟨S100000x128, .f32⟩ : BufTy).Contents (Elt F) → (⟨S100000x128, .f32⟩ : BufTy).Contents (Elt F)),
    nullary main_cst_84 (constant S_ .f32 0x00000000#32),
    binary main_v302 main_cst_84 main_v303 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_85 (constant S_ .f32 0x47C35000#32),
    unary main_cst_85 main_v304 (broadcastInDim S128 ![] bcast_S_S128 : (⟨S_, .f32⟩ : BufTy).Contents (Elt F) → (⟨S128, .f32⟩ : BufTy).Contents (Elt F)),
    binary main_v303 main_v304 main_v305 (Host.divf : (⟨S128, .f32⟩ : BufTy).Contents (Elt F) → (⟨S128, .f32⟩ : BufTy).Contents (Elt F) → (⟨S128, .f32⟩ : BufTy).Contents (Elt F)),
    unary main_v298 main_v306 (broadcastInDim S1x128 ![1] bcast_S128_S1x128_1 : (⟨S128, .f32⟩ : BufTy).Contents (Elt F) → (⟨S1x128, .f32⟩ : BufTy).Contents (Elt F)),
    unary main_v306 main_v307 (broadcastInDim S100000x128 ![0, 1] bcast_S1x128_S100000x128_0_1 : (⟨S1x128, .f32⟩ : BufTy).Contents (Elt F) → (⟨S100000x128, .f32⟩ : BufTy).Contents (Elt F)),
    binary main_v294 main_v307 main_v308 (subf : (⟨S100000x128, .f32⟩ : BufTy).Contents (Elt F) → (⟨S100000x128, .f32⟩ : BufTy).Contents (Elt F) → (⟨S100000x128, .f32⟩ : BufTy).Contents (Elt F)),
    nullary main_cst_86 (constant S_ .f32 0x3727C5AC#32),
    unary main_cst_86 main_v309 (broadcastInDim S128 ![] bcast_S_S128 : (⟨S_, .f32⟩ : BufTy).Contents (Elt F) → (⟨S128, .f32⟩ : BufTy).Contents (Elt F)),
    binary main_v305 main_v309 main_v310 (addf : (⟨S128, .f32⟩ : BufTy).Contents (Elt F) → (⟨S128, .f32⟩ : BufTy).Contents (Elt F) → (⟨S128, .f32⟩ : BufTy).Contents (Elt F)),
    unary main_v310 main_v311 (Host.rsqrt : (⟨S128, .f32⟩ : BufTy).Contents (Elt F) → (⟨S128, .f32⟩ : BufTy).Contents (Elt F)),
    unary main_v311 main_v312 (broadcastInDim S1x128 ![1] bcast_S128_S1x128_1 : (⟨S128, .f32⟩ : BufTy).Contents (Elt F) → (⟨S1x128, .f32⟩ : BufTy).Contents (Elt F)),
    unary main_v312 main_v313 (broadcastInDim S100000x128 ![0, 1] bcast_S1x128_S100000x128_0_1 : (⟨S1x128, .f32⟩ : BufTy).Contents (Elt F) → (⟨S100000x128, .f32⟩ : BufTy).Contents (Elt F)),
    binary main_v308 main_v313 main_v314 (mulf : (⟨S100000x128, .f32⟩ : BufTy).Contents (Elt F) → (⟨S100000x128, .f32⟩ : BufTy).Contents (Elt F) → (⟨S100000x128, .f32⟩ : BufTy).Contents (Elt F)),
    unary main_arg18 main_v315 (broadcastInDim S1x128 ![1] bcast_S128_S1x128_1 : (⟨S128, .f32⟩ : BufTy).Contents (Elt F) → (⟨S1x128, .f32⟩ : BufTy).Contents (Elt F)),
    unary main_v315 main_v316 (broadcastInDim S100000x128 ![0, 1] bcast_S1x128_S100000x128_0_1 : (⟨S1x128, .f32⟩ : BufTy).Contents (Elt F) → (⟨S100000x128, .f32⟩ : BufTy).Contents (Elt F)),
    binary main_v314 main_v316 main_v317 (mulf : (⟨S100000x128, .f32⟩ : BufTy).Contents (Elt F) → (⟨S100000x128, .f32⟩ : BufTy).Contents (Elt F) → (⟨S100000x128, .f32⟩ : BufTy).Contents (Elt F)),
    unary main_arg19 main_v318 (broadcastInDim S1x128 ![1] bcast_S128_S1x128_1 : (⟨S128, .f32⟩ : BufTy).Contents (Elt F) → (⟨S1x128, .f32⟩ : BufTy).Contents (Elt F)),
    unary main_v318 main_v319 (broadcastInDim S100000x128 ![0, 1] bcast_S1x128_S100000x128_0_1 : (⟨S1x128, .f32⟩ : BufTy).Contents (Elt F) → (⟨S100000x128, .f32⟩ : BufTy).Contents (Elt F)),
    binary main_v317 main_v319 main_v320 (addf : (⟨S100000x128, .f32⟩ : BufTy).Contents (Elt F) → (⟨S100000x128, .f32⟩ : BufTy).Contents (Elt F) → (⟨S100000x128, .f32⟩ : BufTy).Contents (Elt F)),
    nullary main_cst_87 (constant S_ .f32 0x00000000#32),
    binary main_v295 main_cst_87 main_v321 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    nullary main_cst_88 (constant S_ .f32 0x42800000#32),
    unary main_cst_88 main_v322 (broadcastInDim S64 ![] bcast_S_S64 : (⟨S_, .f32⟩ : BufTy).Contents (Elt F) → (⟨S64, .f32⟩ : BufTy).Contents (Elt F)),
    binary main_v321 main_v322 main_v323 (Host.divf : (⟨S64, .f32⟩ : BufTy).Contents (Elt F) → (⟨S64, .f32⟩ : BufTy).Contents (Elt F) → (⟨S64, .f32⟩ : BufTy).Contents (Elt F)),
    unary main_v323 main_v324 (broadcastInDim S1x64 ![1] bcast_S64_S1x64_1 : (⟨S64, .f32⟩ : BufTy).Contents (Elt F) → (⟨S1x64, .f32⟩ : BufTy).Contents (Elt F)),
    unary main_v324 main_v325 (broadcastInDim S64x64 ![0, 1] bcast_S1x64_S64x64_0_1 : (⟨S1x64, .f32⟩ : BufTy).Contents (Elt F) → (⟨S64x64, .f32⟩ : BufTy).Contents (Elt F)),
    binary main_v295 main_v325 main_v326 (subf : (⟨S64x64, .f32⟩ : BufTy).Contents (Elt F) → (⟨S64x64, .f32⟩ : BufTy).Contents (Elt F) → (⟨S64x64, .f32⟩ : BufTy).Contents (Elt F)),
    binary main_v326 main_v326 main_v327 (mulf : (⟨S64x64, .f32⟩ : BufTy).Contents (Elt F) → (⟨S64x64, .f32⟩ : BufTy).Contents (Elt F) → (⟨S64x64, .f32⟩ : BufTy).Contents (Elt F)),
    nullary main_cst_89 (constant S_ .f32 0x00000000#32) ]

set_option maxRecDepth 8192 in
set_option maxHeartbeats 4000000 in
/-- The stretch of the program is the list, run in sequence. -/
theorem main_part6_eq (c : Dev nD) : main_part6 (F := F) c = seq ops6 := rfl

set_option maxRecDepth 8192 in
/-- Every operation's buffers are the TensorCore's. -/
theorem ops6_sub : (ops6 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub ..⟩

/-- No operation allocates a buffer: each determines its results. -/
theorem ops6_fresh : ∀ op ∈ (ops6 : List (HloOp τ sig (Elt F))), op.fresh = ∅ := by
  intro _ h; (repeat (cases h with | head => rfl | tail _ h => ?_)); exact nomatch h

/-- The buffers the stretch writes. -/
abbrev ops6_W : List (Ref sig .tc) := [main_v279, main_cst_79, main_v280, main_v281, main_v282, main_cst_80, main_call13_v0, main_call13_v1, main_v283, main_v284, main_v285, main_v286, main_v287, main_v288, main_v289, main_v290, main_v291, main_cst_81, main_v292, main_v293, main_call14_cst, main_call14_v0, main_v294, main_call15_cst, main_call15_v0, main_v295, main_cst_82, main_v296, main_cst_83, main_v297, main_v298, main_v299, main_v300, main_v301, main_v302, main_cst_84, main_v303, main_cst_85, main_v304, main_v305, main_v306, main_v307, main_v308, main_cst_86, main_v309, main_v310, main_v311, main_v312, main_v313, main_v314, main_v315, main_v316, main_v317, main_v318, main_v319, main_v320, main_cst_87, main_v321, main_cst_88, main_v322, main_v323, main_v324, main_v325, main_v326, main_v327, main_cst_89]

set_option maxRecDepth 8192 in
theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep6 (V : Valuation τ sig (Elt F)) (r : Ref sig .tc) (h : r ∉ ops6_W) :
    after ops6 V (Proc.devRef .tc r) = V (Proc.devRef .tc r) :=
  after_of_writes_sub ops6 V ops6_writes h

/-- `main_v295` after the stretch, from what the stretch reads. -/
def g_main_v295 (x_main_v212 : (⟨S64x64, .f32⟩ : BufTy).Contents (Elt F)) : (⟨S64x64, .f32⟩ : BufTy).Contents (Elt F) :=
  ((maximumf : (⟨S64x64, .f32⟩ : BufTy).Contents (Elt F) → (⟨S64x64, .f32⟩ : BufTy).Contents (Elt F) → (⟨S64x64, .f32⟩ : BufTy).Contents (Elt F)) x_main_v212 ((broadcastInDim S64x64 ![] bcast_S_S64x64 : (⟨S_, .f32⟩ : BufTy).Contents (Elt F) → (⟨S64x64, .f32⟩ : BufTy).Contents (Elt F)) (constant S_ .f32 0x00000000#32 : (⟨S_, .f32⟩ : BufTy).Contents (Elt F))))

set_option maxRecDepth 8192 in
set_option maxHeartbeats 4000000 in
theorem w_main_v295 (V : Valuation τ sig (Elt F)) :
    after ops6 V (no_index (Proc.devRef .tc main_v295)) = g_main_v295 (V (Proc.devRef .tc main_v212)) := by
  simp only [ops6]
  after_results_simp
  all_goals rfl

/-- `main_v320` after the stretch, from what the stretch reads. -/
def g_main_v320 (x_main_v251 : (⟨S100000x128, .f32⟩ : BufTy).Contents (Elt F)) (x_main_v277 : (⟨S100000x128, .f32⟩ : BufTy).Contents (Elt F)) (x_main_v258 : (⟨S100000, .f32⟩ : BufTy).Contents (Elt F)) (x_main_v278 : (⟨S100000, .f32⟩ : BufTy).Contents (Elt F)) (x_main_arg16 : (⟨S128x128, .f32⟩ : BufTy).Contents (Elt F)) (x_main_arg17 : (⟨S128, .f32⟩ : BufTy).Contents (Elt F)) (x_main_arg18 : (⟨S128, .f32⟩ : BufTy).Contents (Elt F)) (x_main_arg19 : (⟨S128, .f32⟩ : BufTy).Contents (Elt F)) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v251 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v277 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v258 x_main_v278) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v258 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg16) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg17))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v251 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v277 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v258 x_main_v278) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v258 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg16) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg17))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47C35000#32 : (⟨S_, .f32⟩ : BufTy).Contents (Elt F))))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v251 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v277 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v258 x_main_v278) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v258 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg16) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg17))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v251 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v277 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v258 x_main_v278) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v258 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg16) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg17))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47C35000#32 : (⟨S_, .f32⟩ : BufTy).Contents (Elt F))))))) ((subf : (⟨S100000x128, .f32⟩ : BufTy).Contents (Elt F) → (⟨S100000x128, .f32⟩ : BufTy).Contents (Elt F) → (⟨S100000x128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v251 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v277 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v258 x_main_v278) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v258 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg16) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg17))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x3F000000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) x_main_v251 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x_main_v277 ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf (F := F) .ogt : (⟨S100000, .f32⟩ : BufTy).Contents (Elt F) → (⟨S100000, .f32⟩ : BufTy).Contents (Elt F) → (⟨S100000, .i1⟩ : BufTy).Contents (Elt F)) x_main_v258 x_main_v278) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) x_main_v258 ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F))))) ((broadcastInDim S100000 ![] bcast_S_S100000 : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))))) x_main_arg16) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg17))))) ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47C35000#32 : (⟨S_, .f32⟩ : BufTy).Contents (Elt F)))))))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47C35000#32 : (⟨S_, .f32⟩ : BufTy).Contents (Elt F)))) ((broadcastInDim S128 ![] bcast_S_S128 : (⟨S_, .f32⟩ : BufTy).Contents (Elt F) → (⟨S128, .f32⟩ : BufTy).Contents (Elt F)) (constant S_ .f32 0x3727C5AC#32 : (⟨S_, .f32⟩ : BufTy).Contents (Elt F)))))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg18))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg19)))

set_option maxRecDepth 8192 in
set_option maxHeartbeats 4000000 in
theorem w_main_v320 (V : Valuation τ sig (Elt F)) :
    after ops6 V (no_index (Proc.devRef .tc main_v320)) = g_main_v320 (V (Proc.devRef .tc main_v251)) (V (Proc.devRef .tc main_v277)) (V (Proc.devRef .tc main_v258)) (V (Proc.devRef .tc main_v278)) (V (Proc.devRef .tc main_arg16)) (V (Proc.devRef .tc main_arg17)) (V (Proc.devRef .tc main_arg18)) (V (Proc.devRef .tc main_arg19)) := by
  simp only [ops6]
  after_results_simp
  all_goals rfl

/-- `main_v323` after the stretch, from what the stretch reads. -/
def g_main_v323 (x_main_v212 : (⟨S64x64, .f32⟩ : BufTy).Contents (Elt F)) : (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)) ((maximumf : (⟨S64x64, .f32⟩ : BufTy).Contents (Elt F) → (⟨S64x64, .f32⟩ : BufTy).Contents (Elt F) → (⟨S64x64, .f32⟩ : BufTy).Contents (Elt F)) x_main_v212 ((broadcastInDim S64x64 ![] bcast_S_S64x64 : (⟨S_, .f32⟩ : BufTy).Contents (Elt F) → (⟨S64x64, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S64 ![] bcast_S_S64 : (⟨S_, .f32⟩ : BufTy).Contents (Elt F) → (⟨S64, .f32⟩ : BufTy).Contents (Elt F)) (constant S_ .f32 0x42800000#32 : (⟨S_, .f32⟩ : BufTy).Contents (Elt F))))

set_option maxRecDepth 8192 in
set_option maxHeartbeats 4000000 in
theorem w_main_v323 (V : Valuation τ sig (Elt F)) :
    after ops6 V (no_index (Proc.devRef .tc main_v323)) = g_main_v323 (V (Proc.devRef .tc main_v212)) := by
  simp only [ops6]
  after_results_simp
  all_goals rfl

/-- `main_v327` after the stretch, from what the stretch reads. -/
def g_main_v327 (x_main_v212 : (⟨S64x64, .f32⟩ : BufTy).Contents (Elt F)) : (⟨S64x64, .f32⟩ : BufTy).Contents (Elt F) :=
  ((mulf : (⟨S64x64, .f32⟩ : BufTy).Contents (Elt F) → (⟨S64x64, .f32⟩ : BufTy).Contents (Elt F) → (⟨S64x64, .f32⟩ : BufTy).Contents (Elt F)) ((subf : (⟨S64x64, .f32⟩ : BufTy).Contents (Elt F) → (⟨S64x64, .f32⟩ : BufTy).Contents (Elt F) → (⟨S64x64, .f32⟩ : BufTy).Contents (Elt F)) ((maximumf : (⟨S64x64, .f32⟩ : BufTy).Contents (Elt F) → (⟨S64x64, .f32⟩ : BufTy).Contents (Elt F) → (⟨S64x64, .f32⟩ : BufTy).Contents (Elt F)) x_main_v212 ((broadcastInDim S64x64 ![] bcast_S_S64x64 : (⟨S_, .f32⟩ : BufTy).Contents (Elt F) → (⟨S64x64, .f32⟩ : BufTy).Contents (Elt F)) (constant S_ .f32 0x00000000#32 : (⟨S_, .f32⟩ : BufTy).Contents (Elt F)))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf : (⟨S64, .f32⟩ : BufTy).Contents (Elt F) → (⟨S64, .f32⟩ : BufTy).Contents (Elt F) → (⟨S64, .f32⟩ : BufTy).Contents (Elt F)) (((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)) ((maximumf : (⟨S64x64, .f32⟩ : BufTy).Contents (Elt F) → (⟨S64x64, .f32⟩ : BufTy).Contents (Elt F) → (⟨S64x64, .f32⟩ : BufTy).Contents (Elt F)) x_main_v212 ((broadcastInDim S64x64 ![] bcast_S_S64x64 : (⟨S_, .f32⟩ : BufTy).Contents (Elt F) → (⟨S64x64, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S64 ![] bcast_S_S64 : (⟨S_, .f32⟩ : BufTy).Contents (Elt F) → (⟨S64, .f32⟩ : BufTy).Contents (Elt F)) (constant S_ .f32 0x42800000#32 : (⟨S_, .f32⟩ : BufTy).Contents (Elt F))))))) ((subf : (⟨S64x64, .f32⟩ : BufTy).Contents (Elt F) → (⟨S64x64, .f32⟩ : BufTy).Contents (Elt F) → (⟨S64x64, .f32⟩ : BufTy).Contents (Elt F)) ((maximumf : (⟨S64x64, .f32⟩ : BufTy).Contents (Elt F) → (⟨S64x64, .f32⟩ : BufTy).Contents (Elt F) → (⟨S64x64, .f32⟩ : BufTy).Contents (Elt F)) x_main_v212 ((broadcastInDim S64x64 ![] bcast_S_S64x64 : (⟨S_, .f32⟩ : BufTy).Contents (Elt F) → (⟨S64x64, .f32⟩ : BufTy).Contents (Elt F)) (constant S_ .f32 0x00000000#32 : (⟨S_, .f32⟩ : BufTy).Contents (Elt F)))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf : (⟨S64, .f32⟩ : BufTy).Contents (Elt F) → (⟨S64, .f32⟩ : BufTy).Contents (Elt F) → (⟨S64, .f32⟩ : BufTy).Contents (Elt F)) (((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)) ((maximumf : (⟨S64x64, .f32⟩ : BufTy).Contents (Elt F) → (⟨S64x64, .f32⟩ : BufTy).Contents (Elt F) → (⟨S64x64, .f32⟩ : BufTy).Contents (Elt F)) x_main_v212 ((broadcastInDim S64x64 ![] bcast_S_S64x64 : (⟨S_, .f32⟩ : BufTy).Contents (Elt F) → (⟨S64x64, .f32⟩ : BufTy).Contents (Elt F)) (constant S_ .f32 0x00000000#32 : (⟨S_, .f32⟩ : BufTy).Contents (Elt F)))) (constant S_ .f32 0x00000000#32 : (⟨S_, .f32⟩ : BufTy).Contents (Elt F))) ((broadcastInDim S64 ![] bcast_S_S64 : (⟨S_, .f32⟩ : BufTy).Contents (Elt F) → (⟨S64, .f32⟩ : BufTy).Contents (Elt F)) (constant S_ .f32 0x42800000#32 : (⟨S_, .f32⟩ : BufTy).Contents (Elt F))))))))

set_option maxRecDepth 8192 in
set_option maxHeartbeats 4000000 in
theorem w_main_v327 (V : Valuation τ sig (Elt F)) :
    after ops6 V (no_index (Proc.devRef .tc main_v327)) = g_main_v327 (V (Proc.devRef .tc main_v212)) := by
  simp only [ops6]
  after_results_simp
  all_goals rfl

/-- `main_cst_89` after the stretch, from what the stretch reads. -/
def g_main_cst_89  : (⟨S_, .f32⟩ : BufTy).Contents (Elt F) :=
  (constant S_ .f32 0x00000000#32 : (⟨S_, .f32⟩ : BufTy).Contents (Elt F))

set_option maxRecDepth 8192 in
set_option maxHeartbeats 4000000 in
theorem w_main_cst_89 (V : Valuation τ sig (Elt F)) :
    after ops6 V (no_index (Proc.devRef .tc main_cst_89)) = g_main_cst_89 := by
  simp only [ops6]
  after_results_simp
  all_goals rfl

end Cert.ReferenceIdeal.ValueB

end
-- ==== Proof.RefRunB.W7.lean ====
/-
  Operations 453 … 472 of the reference's 472 host operations (the last stretch of @main, in order), read as a
  list: the stretch of the program IS the list run in sequence; every operation touches only the TensorCore's buffers and
  allocates none; the buffers the stretch writes; and, for each buffer the stretch writes that a later stretch (or the
  result) reads, its contents after the stretch as a function of the contents, before the stretch, of the buffers the
  stretch reads and does not itself write — the operations' functions composed, from ANY contents before the stretch.
-/
import proofs.«405200_j27075473834261_2_alg».proof.Proof.Gen.ReferenceIdeal
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
/-- The stretch's operations, in order (a called function's operations stand in its call's place). -/
abbrev ops7 : List (HloOp τ sig (Elt F)) :=
  [ binary main_v327 main_cst_89 main_v328 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    nullary main_cst_90 (constant S_ .f32 0x42800000#32),
    unary main_cst_90 main_v329 (broadcastInDim S64 ![] bcast_S_S64 : (⟨S_, .f32⟩ : BufTy).Contents (Elt F) → (⟨S64, .f32⟩ : BufTy).Contents (Elt F)),
    binary main_v328 main_v329 main_v330 (Host.divf : (⟨S64, .f32⟩ : BufTy).Contents (Elt F) → (⟨S64, .f32⟩ : BufTy).Contents (Elt F) → (⟨S64, .f32⟩ : BufTy).Contents (Elt F)),
    unary main_v323 main_v331 (broadcastInDim S1x64 ![1] bcast_S64_S1x64_1 : (⟨S64, .f32⟩ : BufTy).Contents (Elt F) → (⟨S1x64, .f32⟩ : BufTy).Contents (Elt F)),
    unary main_v331 main_v332 (broadcastInDim S64x64 ![0, 1] bcast_S1x64_S64x64_0_1 : (⟨S1x64, .f32⟩ : BufTy).Contents (Elt F) → (⟨S64x64, .f32⟩ : BufTy).Contents (Elt F)),
    binary main_v295 main_v332 main_v333 (subf : (⟨S64x64, .f32⟩ : BufTy).Contents (Elt F) → (⟨S64x64, .f32⟩ : BufTy).Contents (Elt F) → (⟨S64x64, .f32⟩ : BufTy).Contents (Elt F)),
    nullary main_cst_91 (constant S_ .f32 0x3727C5AC#32),
    unary main_cst_91 main_v334 (broadcastInDim S64 ![] bcast_S_S64 : (⟨S_, .f32⟩ : BufTy).Contents (Elt F) → (⟨S64, .f32⟩ : BufTy).Contents (Elt F)),
    binary main_v330 main_v334 main_v335 (addf : (⟨S64, .f32⟩ : BufTy).Contents (Elt F) → (⟨S64, .f32⟩ : BufTy).Contents (Elt F) → (⟨S64, .f32⟩ : BufTy).Contents (Elt F)),
    unary main_v335 main_v336 (Host.rsqrt : (⟨S64, .f32⟩ : BufTy).Contents (Elt F) → (⟨S64, .f32⟩ : BufTy).Contents (Elt F)),
    unary main_v336 main_v337 (broadcastInDim S1x64 ![1] bcast_S64_S1x64_1 : (⟨S64, .f32⟩ : BufTy).Contents (Elt F) → (⟨S1x64, .f32⟩ : BufTy).Contents (Elt F)),
    unary main_v337 main_v338 (broadcastInDim S64x64 ![0, 1] bcast_S1x64_S64x64_0_1 : (⟨S1x64, .f32⟩ : BufTy).Contents (Elt F) → (⟨S64x64, .f32⟩ : BufTy).Contents (Elt F)),
    binary main_v333 main_v338 main_v339 (mulf : (⟨S64x64, .f32⟩ : BufTy).Contents (Elt F) → (⟨S64x64, .f32⟩ : BufTy).Contents (Elt F) → (⟨S64x64, .f32⟩ : BufTy).Contents (Elt F)),
    unary main_arg20 main_v340 (broadcastInDim S1x64 ![1] bcast_S64_S1x64_1 : (⟨S64, .f32⟩ : BufTy).Contents (Elt F) → (⟨S1x64, .f32⟩ : BufTy).Contents (Elt F)),
    unary main_v340 main_v341 (broadcastInDim S64x64 ![0, 1] bcast_S1x64_S64x64_0_1 : (⟨S1x64, .f32⟩ : BufTy).Contents (Elt F) → (⟨S64x64, .f32⟩ : BufTy).Contents (Elt F)),
    binary main_v339 main_v341 main_v342 (mulf : (⟨S64x64, .f32⟩ : BufTy).Contents (Elt F) → (⟨S64x64, .f32⟩ : BufTy).Contents (Elt F) → (⟨S64x64, .f32⟩ : BufTy).Contents (Elt F)),
    unary main_arg21 main_v343 (broadcastInDim S1x64 ![1] bcast_S64_S1x64_1 : (⟨S64, .f32⟩ : BufTy).Contents (Elt F) → (⟨S1x64, .f32⟩ : BufTy).Contents (Elt F)),
    unary main_v343 main_v344 (broadcastInDim S64x64 ![0, 1] bcast_S1x64_S64x64_0_1 : (⟨S1x64, .f32⟩ : BufTy).Contents (Elt F) → (⟨S64x64, .f32⟩ : BufTy).Contents (Elt F)),
    binary main_v342 main_v344 main_v345 (addf : (⟨S64x64, .f32⟩ : BufTy).Contents (Elt F) → (⟨S64x64, .f32⟩ : BufTy).Contents (Elt F) → (⟨S64x64, .f32⟩ : BufTy).Contents (Elt F)) ]

set_option maxRecDepth 8192 in
set_option maxHeartbeats 4000000 in
/-- The stretch of the program is the list, run in sequence. -/
theorem main_part7_eq (c : Dev nD) : main_part7 (F := F) c = seq ops7 := rfl

set_option maxRecDepth 8192 in
/-- Every operation's buffers are the TensorCore's. -/
theorem ops7_sub : (ops7 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- No operation allocates a buffer: each determines its results. -/
theorem ops7_fresh : ∀ op ∈ (ops7 : List (HloOp τ sig (Elt F))), op.fresh = ∅ := by
  intro _ h; (repeat (cases h with | head => rfl | tail _ h => ?_)); exact nomatch h

/-- The buffers the stretch writes. -/
abbrev ops7_W : List (Ref sig .tc) := [main_v328, main_cst_90, main_v329, main_v330, main_v331, main_v332, main_v333, main_cst_91, main_v334, main_v335, main_v336, main_v337, main_v338, main_v339, main_v340, main_v341, main_v342, main_v343, main_v344, main_v345]

set_option maxRecDepth 8192 in
theorem ops7_writes : (ops7 : List (HloOp τ sig (Elt F))).Forall fun op => op.writes ⊆ (ops7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the stretch does not write keeps its contents through it. -/
theorem keep7 (V : Valuation τ sig (Elt F)) (r : Ref sig .tc) (h : r ∉ ops7_W) :
    after ops7 V (Proc.devRef .tc r) = V (Proc.devRef .tc r) :=
  after_of_writes_sub ops7 V ops7_writes h

/-- `main_v345` after the stretch, from what the stretch reads. -/
def g_main_v345 (x_main_v295 : (⟨S64x64, .f32⟩ : BufTy).Contents (Elt F)) (x_main_v323 : (⟨S64, .f32⟩ : BufTy).Contents (Elt F)) (x_main_v327 : (⟨S64x64, .f32⟩ : BufTy).Contents (Elt F)) (x_main_cst_89 : (⟨S_, .f32⟩ : BufTy).Contents (Elt F)) (x_main_arg20 : (⟨S64, .f32⟩ : BufTy).Contents (Elt F)) (x_main_arg21 : (⟨S64, .f32⟩ : BufTy).Contents (Elt F)) : (⟨S64x64, .f32⟩ : BufTy).Contents (Elt F) :=
  ((addf : (⟨S64x64, .f32⟩ : BufTy).Contents (Elt F) → (⟨S64x64, .f32⟩ : BufTy).Contents (Elt F) → (⟨S64x64, .f32⟩ : BufTy).Contents (Elt F)) ((mulf : (⟨S64x64, .f32⟩ : BufTy).Contents (Elt F) → (⟨S64x64, .f32⟩ : BufTy).Contents (Elt F) → (⟨S64x64, .f32⟩ : BufTy).Contents (Elt F)) ((mulf : (⟨S64x64, .f32⟩ : BufTy).Contents (Elt F) → (⟨S64x64, .f32⟩ : BufTy).Contents (Elt F) → (⟨S64x64, .f32⟩ : BufTy).Contents (Elt F)) ((subf : (⟨S64x64, .f32⟩ : BufTy).Contents (Elt F) → (⟨S64x64, .f32⟩ : BufTy).Contents (Elt F) → (⟨S64x64, .f32⟩ : BufTy).Contents (Elt F)) x_main_v295 ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) x_main_v323))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) ((Host.divf : (⟨S64, .f32⟩ : BufTy).Contents (Elt F) → (⟨S64, .f32⟩ : BufTy).Contents (Elt F) → (⟨S64, .f32⟩ : BufTy).Contents (Elt F)) (((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)) x_main_v327 x_main_cst_89) ((broadcastInDim S64 ![] bcast_S_S64 : (⟨S_, .f32⟩ : BufTy).Contents (Elt F) → (⟨S64, .f32⟩ : BufTy).Contents (Elt F)) (constant S_ .f32 0x42800000#32 : (⟨S_, .f32⟩ : BufTy).Contents (Elt F)))) ((broadcastInDim S64 ![] bcast_S_S64 : (⟨S_, .f32⟩ : BufTy).Contents (Elt F) → (⟨S64, .f32⟩ : BufTy).Contents (Elt F)) (constant S_ .f32 0x3727C5AC#32 : (⟨S_, .f32⟩ : BufTy).Contents (Elt F)))))))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) x_main_arg20))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) x_main_arg21)))

set_option maxRecDepth 8192 in
set_option maxHeartbeats 4000000 in
theorem w_main_v345 (V : Valuation τ sig (Elt F)) :
    after ops7 V (no_index (Proc.devRef .tc main_v345)) = g_main_v345 (V (Proc.devRef .tc main_v295)) (V (Proc.devRef .tc main_v323)) (V (Proc.devRef .tc main_v327)) (V (Proc.devRef .tc main_cst_89)) (V (Proc.devRef .tc main_arg20)) (V (Proc.devRef .tc main_arg21)) := by
  simp only [ops7]
  after_results_simp
  all_goals rfl

end Cert.ReferenceIdeal.ValueB

end
-- ==== Proof.RefRunB.lean ====
/-
  The reference's run read back: every weakly fair execution of its @main terminates with each of the two results at the
  composed term of the arguments' launch contents, and the arguments unchanged.

  @main is eight stretches of operations run in order. The contents after k stretches (val k) are the k-th stretch's
  operations applied to the contents after k - 1; a buffer a stretch does not write passes through it; a buffer a stretch
  writes and a later one reads is that stretch's function of what it read. Composing these from the launch contents gives
  each live buffer as a term of the arguments (stg), and the two results' terms unfold to the composed terms the run is
  stated with.
-/
import proofs.«405200_j27075473834261_2_alg».proof.Proof.Gen.ReferenceIdeal
import proofs.«405200_j27075473834261_2_alg».proof.Proof.RefRunB.W0
import proofs.«405200_j27075473834261_2_alg».proof.Proof.RefRunB.W1
import proofs.«405200_j27075473834261_2_alg».proof.Proof.RefRunB.W2
import proofs.«405200_j27075473834261_2_alg».proof.Proof.RefRunB.W3
import proofs.«405200_j27075473834261_2_alg».proof.Proof.RefRunB.W4
import proofs.«405200_j27075473834261_2_alg».proof.Proof.RefRunB.W5
import proofs.«405200_j27075473834261_2_alg».proof.Proof.RefRunB.W6
import proofs.«405200_j27075473834261_2_alg».proof.Proof.RefRunB.W7
import Idealize.ShloMosaic.Lib.StableHlo.Run

noncomputable section

namespace Cert.ReferenceIdeal.ValueB

open Cert.ReferenceIdeal Cert.ReferenceIdeal.Gen Idealize.ShloMosaic Idealize.ShloMosaic.TcCoe Idealize.SL.Sem Idealize.ShloMosaic.StableHlo

variable {F : FTy → Type} [FloatOps F]

/-- @main's 472 operations, in order: the eight stretches one after the other. -/
abbrev ops : List (HloOp τ sig (Elt F)) :=
  ops0 ++ (ops1 ++ (ops2 ++ (ops3 ++ (ops4 ++ (ops5 ++ (ops6 ++ (ops7)))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]
theorem ops_fresh : ∀ op ∈ (ops : List (HloOp τ sig (Elt F))), op.fresh = ∅ := by
  intro op h
  simp only [ops, List.mem_append] at h
  rcases h with h | h | h | h | h | h | h | h
  exacts [ops0_fresh op h, ops1_fresh op h, ops2_fresh op h, ops3_fresh op h, ops4_fresh op h, ops5_fresh op h, ops6_fresh op h, ops7_fresh op h]

/-- Two lists' operations applied in turn are the concatenation's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The contents after each stretch -/

/-- The contents before the first stretch. -/
def val0 (V0 : Valuation τ sig (Elt F)) : Valuation τ sig (Elt F) := V0
/-- The contents after the first 1 stretch. -/
def val1 (V0 : Valuation τ sig (Elt F)) : Valuation τ sig (Elt F) := after ops0 (val0 V0)
theorem val1_keep (V0 : Valuation τ sig (Elt F)) (r : Ref sig .tc) (h : r ∉ ops0_W) :
    val1 V0 (Proc.devRef .tc r) = val0 V0 (Proc.devRef .tc r) := keep0 _ r h
/-- The contents after the first 2 stretches. -/
def val2 (V0 : Valuation τ sig (Elt F)) : Valuation τ sig (Elt F) := after ops1 (val1 V0)
theorem val2_keep (V0 : Valuation τ sig (Elt F)) (r : Ref sig .tc) (h : r ∉ ops1_W) :
    val2 V0 (Proc.devRef .tc r) = val1 V0 (Proc.devRef .tc r) := keep1 _ r h
/-- The contents after the first 3 stretches. -/
def val3 (V0 : Valuation τ sig (Elt F)) : Valuation τ sig (Elt F) := after ops2 (val2 V0)
theorem val3_keep (V0 : Valuation τ sig (Elt F)) (r : Ref sig .tc) (h : r ∉ ops2_W) :
    val3 V0 (Proc.devRef .tc r) = val2 V0 (Proc.devRef .tc r) := keep2 _ r h
/-- The contents after the first 4 stretches. -/
def val4 (V0 : Valuation τ sig (Elt F)) : Valuation τ sig (Elt F) := after ops3 (val3 V0)
theorem val4_keep (V0 : Valuation τ sig (Elt F)) (r : Ref sig .tc) (h : r ∉ ops3_W) :
    val4 V0 (Proc.devRef .tc r) = val3 V0 (Proc.devRef .tc r) := keep3 _ r h
/-- The contents after the first 5 stretches. -/
def val5 (V0 : Valuation τ sig (Elt F)) : Valuation τ sig (Elt F) := after ops4 (val4 V0)
theorem val5_keep (V0 : Valuation τ sig (Elt F)) (r : Ref sig .tc) (h : r ∉ ops4_W) :
    val5 V0 (Proc.devRef .tc r) = val4 V0 (Proc.devRef .tc r) := keep4 _ r h
/-- The contents after the first 6 stretches. -/
def val6 (V0 : Valuation τ sig (Elt F)) : Valuation τ sig (Elt F) := after ops5 (val5 V0)
theorem val6_keep (V0 : Valuation τ sig (Elt F)) (r : Ref sig .tc) (h : r ∉ ops5_W) :
    val6 V0 (Proc.devRef .tc r) = val5 V0 (Proc.devRef .tc r) := keep5 _ r h
/-- The contents after the first 7 stretches. -/
def val7 (V0 : Valuation τ sig (Elt F)) : Valuation τ sig (Elt F) := after ops6 (val6 V0)
theorem val7_keep (V0 : Valuation τ sig (Elt F)) (r : Ref sig .tc) (h : r ∉ ops6_W) :
    val7 V0 (Proc.devRef .tc r) = val6 V0 (Proc.devRef .tc r) := keep6 _ r h
/-- The contents after the first 8 stretches. -/
def val8 (V0 : Valuation τ sig (Elt F)) : Valuation τ sig (Elt F) := after ops7 (val7 V0)
theorem val8_keep (V0 : Valuation τ sig (Elt F)) (r : Ref sig .tc) (h : r ∉ ops7_W) :
    val8 V0 (Proc.devRef .tc r) = val7 V0 (Proc.devRef .tc r) := keep7 _ r h

theorem after_ops (V0 : Valuation τ sig (Elt F)) : after ops V0 = val8 V0 := by
  simp only [ops, after_app]
  rfl

/-! ## The arguments: no stretch writes them -/
theorem val0_main_arg0 (V0 : Valuation τ sig (Elt F)) : val0 V0 (no_index (Proc.devRef .tc main_arg0)) = V0 (Proc.devRef .tc main_arg0) := rfl
theorem val1_main_arg0 (V0 : Valuation τ sig (Elt F)) : val1 V0 (no_index (Proc.devRef .tc main_arg0)) = V0 (Proc.devRef .tc main_arg0) := (val1_keep V0 main_arg0 (by decide)).trans (val0_main_arg0 V0)
theorem val2_main_arg0 (V0 : Valuation τ sig (Elt F)) : val2 V0 (no_index (Proc.devRef .tc main_arg0)) = V0 (Proc.devRef .tc main_arg0) := (val2_keep V0 main_arg0 (by decide)).trans (val1_main_arg0 V0)
theorem val3_main_arg0 (V0 : Valuation τ sig (Elt F)) : val3 V0 (no_index (Proc.devRef .tc main_arg0)) = V0 (Proc.devRef .tc main_arg0) := (val3_keep V0 main_arg0 (by decide)).trans (val2_main_arg0 V0)
theorem val4_main_arg0 (V0 : Valuation τ sig (Elt F)) : val4 V0 (no_index (Proc.devRef .tc main_arg0)) = V0 (Proc.devRef .tc main_arg0) := (val4_keep V0 main_arg0 (by decide)).trans (val3_main_arg0 V0)
theorem val5_main_arg0 (V0 : Valuation τ sig (Elt F)) : val5 V0 (no_index (Proc.devRef .tc main_arg0)) = V0 (Proc.devRef .tc main_arg0) := (val5_keep V0 main_arg0 (by decide)).trans (val4_main_arg0 V0)
theorem val6_main_arg0 (V0 : Valuation τ sig (Elt F)) : val6 V0 (no_index (Proc.devRef .tc main_arg0)) = V0 (Proc.devRef .tc main_arg0) := (val6_keep V0 main_arg0 (by decide)).trans (val5_main_arg0 V0)
theorem val7_main_arg0 (V0 : Valuation τ sig (Elt F)) : val7 V0 (no_index (Proc.devRef .tc main_arg0)) = V0 (Proc.devRef .tc main_arg0) := (val7_keep V0 main_arg0 (by decide)).trans (val6_main_arg0 V0)
theorem val8_main_arg0 (V0 : Valuation τ sig (Elt F)) : val8 V0 (no_index (Proc.devRef .tc main_arg0)) = V0 (Proc.devRef .tc main_arg0) := (val8_keep V0 main_arg0 (by decide)).trans (val7_main_arg0 V0)
theorem val0_main_arg1 (V0 : Valuation τ sig (Elt F)) : val0 V0 (no_index (Proc.devRef .tc main_arg1)) = V0 (Proc.devRef .tc main_arg1) := rfl
theorem val1_main_arg1 (V0 : Valuation τ sig (Elt F)) : val1 V0 (no_index (Proc.devRef .tc main_arg1)) = V0 (Proc.devRef .tc main_arg1) := (val1_keep V0 main_arg1 (by decide)).trans (val0_main_arg1 V0)
theorem val2_main_arg1 (V0 : Valuation τ sig (Elt F)) : val2 V0 (no_index (Proc.devRef .tc main_arg1)) = V0 (Proc.devRef .tc main_arg1) := (val2_keep V0 main_arg1 (by decide)).trans (val1_main_arg1 V0)
theorem val3_main_arg1 (V0 : Valuation τ sig (Elt F)) : val3 V0 (no_index (Proc.devRef .tc main_arg1)) = V0 (Proc.devRef .tc main_arg1) := (val3_keep V0 main_arg1 (by decide)).trans (val2_main_arg1 V0)
theorem val4_main_arg1 (V0 : Valuation τ sig (Elt F)) : val4 V0 (no_index (Proc.devRef .tc main_arg1)) = V0 (Proc.devRef .tc main_arg1) := (val4_keep V0 main_arg1 (by decide)).trans (val3_main_arg1 V0)
theorem val5_main_arg1 (V0 : Valuation τ sig (Elt F)) : val5 V0 (no_index (Proc.devRef .tc main_arg1)) = V0 (Proc.devRef .tc main_arg1) := (val5_keep V0 main_arg1 (by decide)).trans (val4_main_arg1 V0)
theorem val6_main_arg1 (V0 : Valuation τ sig (Elt F)) : val6 V0 (no_index (Proc.devRef .tc main_arg1)) = V0 (Proc.devRef .tc main_arg1) := (val6_keep V0 main_arg1 (by decide)).trans (val5_main_arg1 V0)
theorem val7_main_arg1 (V0 : Valuation τ sig (Elt F)) : val7 V0 (no_index (Proc.devRef .tc main_arg1)) = V0 (Proc.devRef .tc main_arg1) := (val7_keep V0 main_arg1 (by decide)).trans (val6_main_arg1 V0)
theorem val8_main_arg1 (V0 : Valuation τ sig (Elt F)) : val8 V0 (no_index (Proc.devRef .tc main_arg1)) = V0 (Proc.devRef .tc main_arg1) := (val8_keep V0 main_arg1 (by decide)).trans (val7_main_arg1 V0)
theorem val0_main_arg2 (V0 : Valuation τ sig (Elt F)) : val0 V0 (no_index (Proc.devRef .tc main_arg2)) = V0 (Proc.devRef .tc main_arg2) := rfl
theorem val1_main_arg2 (V0 : Valuation τ sig (Elt F)) : val1 V0 (no_index (Proc.devRef .tc main_arg2)) = V0 (Proc.devRef .tc main_arg2) := (val1_keep V0 main_arg2 (by decide)).trans (val0_main_arg2 V0)
theorem val2_main_arg2 (V0 : Valuation τ sig (Elt F)) : val2 V0 (no_index (Proc.devRef .tc main_arg2)) = V0 (Proc.devRef .tc main_arg2) := (val2_keep V0 main_arg2 (by decide)).trans (val1_main_arg2 V0)
theorem val3_main_arg2 (V0 : Valuation τ sig (Elt F)) : val3 V0 (no_index (Proc.devRef .tc main_arg2)) = V0 (Proc.devRef .tc main_arg2) := (val3_keep V0 main_arg2 (by decide)).trans (val2_main_arg2 V0)
theorem val4_main_arg2 (V0 : Valuation τ sig (Elt F)) : val4 V0 (no_index (Proc.devRef .tc main_arg2)) = V0 (Proc.devRef .tc main_arg2) := (val4_keep V0 main_arg2 (by decide)).trans (val3_main_arg2 V0)
theorem val5_main_arg2 (V0 : Valuation τ sig (Elt F)) : val5 V0 (no_index (Proc.devRef .tc main_arg2)) = V0 (Proc.devRef .tc main_arg2) := (val5_keep V0 main_arg2 (by decide)).trans (val4_main_arg2 V0)
theorem val6_main_arg2 (V0 : Valuation τ sig (Elt F)) : val6 V0 (no_index (Proc.devRef .tc main_arg2)) = V0 (Proc.devRef .tc main_arg2) := (val6_keep V0 main_arg2 (by decide)).trans (val5_main_arg2 V0)
theorem val7_main_arg2 (V0 : Valuation τ sig (Elt F)) : val7 V0 (no_index (Proc.devRef .tc main_arg2)) = V0 (Proc.devRef .tc main_arg2) := (val7_keep V0 main_arg2 (by decide)).trans (val6_main_arg2 V0)
theorem val8_main_arg2 (V0 : Valuation τ sig (Elt F)) : val8 V0 (no_index (Proc.devRef .tc main_arg2)) = V0 (Proc.devRef .tc main_arg2) := (val8_keep V0 main_arg2 (by decide)).trans (val7_main_arg2 V0)
theorem val0_main_arg3 (V0 : Valuation τ sig (Elt F)) : val0 V0 (no_index (Proc.devRef .tc main_arg3)) = V0 (Proc.devRef .tc main_arg3) := rfl
theorem val1_main_arg3 (V0 : Valuation τ sig (Elt F)) : val1 V0 (no_index (Proc.devRef .tc main_arg3)) = V0 (Proc.devRef .tc main_arg3) := (val1_keep V0 main_arg3 (by decide)).trans (val0_main_arg3 V0)
theorem val2_main_arg3 (V0 : Valuation τ sig (Elt F)) : val2 V0 (no_index (Proc.devRef .tc main_arg3)) = V0 (Proc.devRef .tc main_arg3) := (val2_keep V0 main_arg3 (by decide)).trans (val1_main_arg3 V0)
theorem val3_main_arg3 (V0 : Valuation τ sig (Elt F)) : val3 V0 (no_index (Proc.devRef .tc main_arg3)) = V0 (Proc.devRef .tc main_arg3) := (val3_keep V0 main_arg3 (by decide)).trans (val2_main_arg3 V0)
theorem val4_main_arg3 (V0 : Valuation τ sig (Elt F)) : val4 V0 (no_index (Proc.devRef .tc main_arg3)) = V0 (Proc.devRef .tc main_arg3) := (val4_keep V0 main_arg3 (by decide)).trans (val3_main_arg3 V0)
theorem val5_main_arg3 (V0 : Valuation τ sig (Elt F)) : val5 V0 (no_index (Proc.devRef .tc main_arg3)) = V0 (Proc.devRef .tc main_arg3) := (val5_keep V0 main_arg3 (by decide)).trans (val4_main_arg3 V0)
theorem val6_main_arg3 (V0 : Valuation τ sig (Elt F)) : val6 V0 (no_index (Proc.devRef .tc main_arg3)) = V0 (Proc.devRef .tc main_arg3) := (val6_keep V0 main_arg3 (by decide)).trans (val5_main_arg3 V0)
theorem val7_main_arg3 (V0 : Valuation τ sig (Elt F)) : val7 V0 (no_index (Proc.devRef .tc main_arg3)) = V0 (Proc.devRef .tc main_arg3) := (val7_keep V0 main_arg3 (by decide)).trans (val6_main_arg3 V0)
theorem val8_main_arg3 (V0 : Valuation τ sig (Elt F)) : val8 V0 (no_index (Proc.devRef .tc main_arg3)) = V0 (Proc.devRef .tc main_arg3) := (val8_keep V0 main_arg3 (by decide)).trans (val7_main_arg3 V0)
theorem val0_main_arg4 (V0 : Valuation τ sig (Elt F)) : val0 V0 (no_index (Proc.devRef .tc main_arg4)) = V0 (Proc.devRef .tc main_arg4) := rfl
theorem val1_main_arg4 (V0 : Valuation τ sig (Elt F)) : val1 V0 (no_index (Proc.devRef .tc main_arg4)) = V0 (Proc.devRef .tc main_arg4) := (val1_keep V0 main_arg4 (by decide)).trans (val0_main_arg4 V0)
theorem val2_main_arg4 (V0 : Valuation τ sig (Elt F)) : val2 V0 (no_index (Proc.devRef .tc main_arg4)) = V0 (Proc.devRef .tc main_arg4) := (val2_keep V0 main_arg4 (by decide)).trans (val1_main_arg4 V0)
theorem val3_main_arg4 (V0 : Valuation τ sig (Elt F)) : val3 V0 (no_index (Proc.devRef .tc main_arg4)) = V0 (Proc.devRef .tc main_arg4) := (val3_keep V0 main_arg4 (by decide)).trans (val2_main_arg4 V0)
theorem val4_main_arg4 (V0 : Valuation τ sig (Elt F)) : val4 V0 (no_index (Proc.devRef .tc main_arg4)) = V0 (Proc.devRef .tc main_arg4) := (val4_keep V0 main_arg4 (by decide)).trans (val3_main_arg4 V0)
theorem val5_main_arg4 (V0 : Valuation τ sig (Elt F)) : val5 V0 (no_index (Proc.devRef .tc main_arg4)) = V0 (Proc.devRef .tc main_arg4) := (val5_keep V0 main_arg4 (by decide)).trans (val4_main_arg4 V0)
theorem val6_main_arg4 (V0 : Valuation τ sig (Elt F)) : val6 V0 (no_index (Proc.devRef .tc main_arg4)) = V0 (Proc.devRef .tc main_arg4) := (val6_keep V0 main_arg4 (by decide)).trans (val5_main_arg4 V0)
theorem val7_main_arg4 (V0 : Valuation τ sig (Elt F)) : val7 V0 (no_index (Proc.devRef .tc main_arg4)) = V0 (Proc.devRef .tc main_arg4) := (val7_keep V0 main_arg4 (by decide)).trans (val6_main_arg4 V0)
theorem val8_main_arg4 (V0 : Valuation τ sig (Elt F)) : val8 V0 (no_index (Proc.devRef .tc main_arg4)) = V0 (Proc.devRef .tc main_arg4) := (val8_keep V0 main_arg4 (by decide)).trans (val7_main_arg4 V0)
theorem val0_main_arg5 (V0 : Valuation τ sig (Elt F)) : val0 V0 (no_index (Proc.devRef .tc main_arg5)) = V0 (Proc.devRef .tc main_arg5) := rfl
theorem val1_main_arg5 (V0 : Valuation τ sig (Elt F)) : val1 V0 (no_index (Proc.devRef .tc main_arg5)) = V0 (Proc.devRef .tc main_arg5) := (val1_keep V0 main_arg5 (by decide)).trans (val0_main_arg5 V0)
theorem val2_main_arg5 (V0 : Valuation τ sig (Elt F)) : val2 V0 (no_index (Proc.devRef .tc main_arg5)) = V0 (Proc.devRef .tc main_arg5) := (val2_keep V0 main_arg5 (by decide)).trans (val1_main_arg5 V0)
theorem val3_main_arg5 (V0 : Valuation τ sig (Elt F)) : val3 V0 (no_index (Proc.devRef .tc main_arg5)) = V0 (Proc.devRef .tc main_arg5) := (val3_keep V0 main_arg5 (by decide)).trans (val2_main_arg5 V0)
theorem val4_main_arg5 (V0 : Valuation τ sig (Elt F)) : val4 V0 (no_index (Proc.devRef .tc main_arg5)) = V0 (Proc.devRef .tc main_arg5) := (val4_keep V0 main_arg5 (by decide)).trans (val3_main_arg5 V0)
theorem val5_main_arg5 (V0 : Valuation τ sig (Elt F)) : val5 V0 (no_index (Proc.devRef .tc main_arg5)) = V0 (Proc.devRef .tc main_arg5) := (val5_keep V0 main_arg5 (by decide)).trans (val4_main_arg5 V0)
theorem val6_main_arg5 (V0 : Valuation τ sig (Elt F)) : val6 V0 (no_index (Proc.devRef .tc main_arg5)) = V0 (Proc.devRef .tc main_arg5) := (val6_keep V0 main_arg5 (by decide)).trans (val5_main_arg5 V0)
theorem val7_main_arg5 (V0 : Valuation τ sig (Elt F)) : val7 V0 (no_index (Proc.devRef .tc main_arg5)) = V0 (Proc.devRef .tc main_arg5) := (val7_keep V0 main_arg5 (by decide)).trans (val6_main_arg5 V0)
theorem val8_main_arg5 (V0 : Valuation τ sig (Elt F)) : val8 V0 (no_index (Proc.devRef .tc main_arg5)) = V0 (Proc.devRef .tc main_arg5) := (val8_keep V0 main_arg5 (by decide)).trans (val7_main_arg5 V0)
theorem val0_main_arg6 (V0 : Valuation τ sig (Elt F)) : val0 V0 (no_index (Proc.devRef .tc main_arg6)) = V0 (Proc.devRef .tc main_arg6) := rfl
theorem val1_main_arg6 (V0 : Valuation τ sig (Elt F)) : val1 V0 (no_index (Proc.devRef .tc main_arg6)) = V0 (Proc.devRef .tc main_arg6) := (val1_keep V0 main_arg6 (by decide)).trans (val0_main_arg6 V0)
theorem val2_main_arg6 (V0 : Valuation τ sig (Elt F)) : val2 V0 (no_index (Proc.devRef .tc main_arg6)) = V0 (Proc.devRef .tc main_arg6) := (val2_keep V0 main_arg6 (by decide)).trans (val1_main_arg6 V0)
theorem val3_main_arg6 (V0 : Valuation τ sig (Elt F)) : val3 V0 (no_index (Proc.devRef .tc main_arg6)) = V0 (Proc.devRef .tc main_arg6) := (val3_keep V0 main_arg6 (by decide)).trans (val2_main_arg6 V0)
theorem val4_main_arg6 (V0 : Valuation τ sig (Elt F)) : val4 V0 (no_index (Proc.devRef .tc main_arg6)) = V0 (Proc.devRef .tc main_arg6) := (val4_keep V0 main_arg6 (by decide)).trans (val3_main_arg6 V0)
theorem val5_main_arg6 (V0 : Valuation τ sig (Elt F)) : val5 V0 (no_index (Proc.devRef .tc main_arg6)) = V0 (Proc.devRef .tc main_arg6) := (val5_keep V0 main_arg6 (by decide)).trans (val4_main_arg6 V0)
theorem val6_main_arg6 (V0 : Valuation τ sig (Elt F)) : val6 V0 (no_index (Proc.devRef .tc main_arg6)) = V0 (Proc.devRef .tc main_arg6) := (val6_keep V0 main_arg6 (by decide)).trans (val5_main_arg6 V0)
theorem val7_main_arg6 (V0 : Valuation τ sig (Elt F)) : val7 V0 (no_index (Proc.devRef .tc main_arg6)) = V0 (Proc.devRef .tc main_arg6) := (val7_keep V0 main_arg6 (by decide)).trans (val6_main_arg6 V0)
theorem val8_main_arg6 (V0 : Valuation τ sig (Elt F)) : val8 V0 (no_index (Proc.devRef .tc main_arg6)) = V0 (Proc.devRef .tc main_arg6) := (val8_keep V0 main_arg6 (by decide)).trans (val7_main_arg6 V0)
theorem val0_main_arg7 (V0 : Valuation τ sig (Elt F)) : val0 V0 (no_index (Proc.devRef .tc main_arg7)) = V0 (Proc.devRef .tc main_arg7) := rfl
theorem val1_main_arg7 (V0 : Valuation τ sig (Elt F)) : val1 V0 (no_index (Proc.devRef .tc main_arg7)) = V0 (Proc.devRef .tc main_arg7) := (val1_keep V0 main_arg7 (by decide)).trans (val0_main_arg7 V0)
theorem val2_main_arg7 (V0 : Valuation τ sig (Elt F)) : val2 V0 (no_index (Proc.devRef .tc main_arg7)) = V0 (Proc.devRef .tc main_arg7) := (val2_keep V0 main_arg7 (by decide)).trans (val1_main_arg7 V0)
theorem val3_main_arg7 (V0 : Valuation τ sig (Elt F)) : val3 V0 (no_index (Proc.devRef .tc main_arg7)) = V0 (Proc.devRef .tc main_arg7) := (val3_keep V0 main_arg7 (by decide)).trans (val2_main_arg7 V0)
theorem val4_main_arg7 (V0 : Valuation τ sig (Elt F)) : val4 V0 (no_index (Proc.devRef .tc main_arg7)) = V0 (Proc.devRef .tc main_arg7) := (val4_keep V0 main_arg7 (by decide)).trans (val3_main_arg7 V0)
theorem val5_main_arg7 (V0 : Valuation τ sig (Elt F)) : val5 V0 (no_index (Proc.devRef .tc main_arg7)) = V0 (Proc.devRef .tc main_arg7) := (val5_keep V0 main_arg7 (by decide)).trans (val4_main_arg7 V0)
theorem val6_main_arg7 (V0 : Valuation τ sig (Elt F)) : val6 V0 (no_index (Proc.devRef .tc main_arg7)) = V0 (Proc.devRef .tc main_arg7) := (val6_keep V0 main_arg7 (by decide)).trans (val5_main_arg7 V0)
theorem val7_main_arg7 (V0 : Valuation τ sig (Elt F)) : val7 V0 (no_index (Proc.devRef .tc main_arg7)) = V0 (Proc.devRef .tc main_arg7) := (val7_keep V0 main_arg7 (by decide)).trans (val6_main_arg7 V0)
theorem val8_main_arg7 (V0 : Valuation τ sig (Elt F)) : val8 V0 (no_index (Proc.devRef .tc main_arg7)) = V0 (Proc.devRef .tc main_arg7) := (val8_keep V0 main_arg7 (by decide)).trans (val7_main_arg7 V0)
theorem val0_main_arg8 (V0 : Valuation τ sig (Elt F)) : val0 V0 (no_index (Proc.devRef .tc main_arg8)) = V0 (Proc.devRef .tc main_arg8) := rfl
theorem val1_main_arg8 (V0 : Valuation τ sig (Elt F)) : val1 V0 (no_index (Proc.devRef .tc main_arg8)) = V0 (Proc.devRef .tc main_arg8) := (val1_keep V0 main_arg8 (by decide)).trans (val0_main_arg8 V0)
theorem val2_main_arg8 (V0 : Valuation τ sig (Elt F)) : val2 V0 (no_index (Proc.devRef .tc main_arg8)) = V0 (Proc.devRef .tc main_arg8) := (val2_keep V0 main_arg8 (by decide)).trans (val1_main_arg8 V0)
theorem val3_main_arg8 (V0 : Valuation τ sig (Elt F)) : val3 V0 (no_index (Proc.devRef .tc main_arg8)) = V0 (Proc.devRef .tc main_arg8) := (val3_keep V0 main_arg8 (by decide)).trans (val2_main_arg8 V0)
theorem val4_main_arg8 (V0 : Valuation τ sig (Elt F)) : val4 V0 (no_index (Proc.devRef .tc main_arg8)) = V0 (Proc.devRef .tc main_arg8) := (val4_keep V0 main_arg8 (by decide)).trans (val3_main_arg8 V0)
theorem val5_main_arg8 (V0 : Valuation τ sig (Elt F)) : val5 V0 (no_index (Proc.devRef .tc main_arg8)) = V0 (Proc.devRef .tc main_arg8) := (val5_keep V0 main_arg8 (by decide)).trans (val4_main_arg8 V0)
theorem val6_main_arg8 (V0 : Valuation τ sig (Elt F)) : val6 V0 (no_index (Proc.devRef .tc main_arg8)) = V0 (Proc.devRef .tc main_arg8) := (val6_keep V0 main_arg8 (by decide)).trans (val5_main_arg8 V0)
theorem val7_main_arg8 (V0 : Valuation τ sig (Elt F)) : val7 V0 (no_index (Proc.devRef .tc main_arg8)) = V0 (Proc.devRef .tc main_arg8) := (val7_keep V0 main_arg8 (by decide)).trans (val6_main_arg8 V0)
theorem val8_main_arg8 (V0 : Valuation τ sig (Elt F)) : val8 V0 (no_index (Proc.devRef .tc main_arg8)) = V0 (Proc.devRef .tc main_arg8) := (val8_keep V0 main_arg8 (by decide)).trans (val7_main_arg8 V0)
theorem val0_main_arg9 (V0 : Valuation τ sig (Elt F)) : val0 V0 (no_index (Proc.devRef .tc main_arg9)) = V0 (Proc.devRef .tc main_arg9) := rfl
theorem val1_main_arg9 (V0 : Valuation τ sig (Elt F)) : val1 V0 (no_index (Proc.devRef .tc main_arg9)) = V0 (Proc.devRef .tc main_arg9) := (val1_keep V0 main_arg9 (by decide)).trans (val0_main_arg9 V0)
theorem val2_main_arg9 (V0 : Valuation τ sig (Elt F)) : val2 V0 (no_index (Proc.devRef .tc main_arg9)) = V0 (Proc.devRef .tc main_arg9) := (val2_keep V0 main_arg9 (by decide)).trans (val1_main_arg9 V0)
theorem val3_main_arg9 (V0 : Valuation τ sig (Elt F)) : val3 V0 (no_index (Proc.devRef .tc main_arg9)) = V0 (Proc.devRef .tc main_arg9) := (val3_keep V0 main_arg9 (by decide)).trans (val2_main_arg9 V0)
theorem val4_main_arg9 (V0 : Valuation τ sig (Elt F)) : val4 V0 (no_index (Proc.devRef .tc main_arg9)) = V0 (Proc.devRef .tc main_arg9) := (val4_keep V0 main_arg9 (by decide)).trans (val3_main_arg9 V0)
theorem val5_main_arg9 (V0 : Valuation τ sig (Elt F)) : val5 V0 (no_index (Proc.devRef .tc main_arg9)) = V0 (Proc.devRef .tc main_arg9) := (val5_keep V0 main_arg9 (by decide)).trans (val4_main_arg9 V0)
theorem val6_main_arg9 (V0 : Valuation τ sig (Elt F)) : val6 V0 (no_index (Proc.devRef .tc main_arg9)) = V0 (Proc.devRef .tc main_arg9) := (val6_keep V0 main_arg9 (by decide)).trans (val5_main_arg9 V0)
theorem val7_main_arg9 (V0 : Valuation τ sig (Elt F)) : val7 V0 (no_index (Proc.devRef .tc main_arg9)) = V0 (Proc.devRef .tc main_arg9) := (val7_keep V0 main_arg9 (by decide)).trans (val6_main_arg9 V0)
theorem val8_main_arg9 (V0 : Valuation τ sig (Elt F)) : val8 V0 (no_index (Proc.devRef .tc main_arg9)) = V0 (Proc.devRef .tc main_arg9) := (val8_keep V0 main_arg9 (by decide)).trans (val7_main_arg9 V0)
theorem val0_main_arg10 (V0 : Valuation τ sig (Elt F)) : val0 V0 (no_index (Proc.devRef .tc main_arg10)) = V0 (Proc.devRef .tc main_arg10) := rfl
theorem val1_main_arg10 (V0 : Valuation τ sig (Elt F)) : val1 V0 (no_index (Proc.devRef .tc main_arg10)) = V0 (Proc.devRef .tc main_arg10) := (val1_keep V0 main_arg10 (by decide)).trans (val0_main_arg10 V0)
theorem val2_main_arg10 (V0 : Valuation τ sig (Elt F)) : val2 V0 (no_index (Proc.devRef .tc main_arg10)) = V0 (Proc.devRef .tc main_arg10) := (val2_keep V0 main_arg10 (by decide)).trans (val1_main_arg10 V0)
theorem val3_main_arg10 (V0 : Valuation τ sig (Elt F)) : val3 V0 (no_index (Proc.devRef .tc main_arg10)) = V0 (Proc.devRef .tc main_arg10) := (val3_keep V0 main_arg10 (by decide)).trans (val2_main_arg10 V0)
theorem val4_main_arg10 (V0 : Valuation τ sig (Elt F)) : val4 V0 (no_index (Proc.devRef .tc main_arg10)) = V0 (Proc.devRef .tc main_arg10) := (val4_keep V0 main_arg10 (by decide)).trans (val3_main_arg10 V0)
theorem val5_main_arg10 (V0 : Valuation τ sig (Elt F)) : val5 V0 (no_index (Proc.devRef .tc main_arg10)) = V0 (Proc.devRef .tc main_arg10) := (val5_keep V0 main_arg10 (by decide)).trans (val4_main_arg10 V0)
theorem val6_main_arg10 (V0 : Valuation τ sig (Elt F)) : val6 V0 (no_index (Proc.devRef .tc main_arg10)) = V0 (Proc.devRef .tc main_arg10) := (val6_keep V0 main_arg10 (by decide)).trans (val5_main_arg10 V0)
theorem val7_main_arg10 (V0 : Valuation τ sig (Elt F)) : val7 V0 (no_index (Proc.devRef .tc main_arg10)) = V0 (Proc.devRef .tc main_arg10) := (val7_keep V0 main_arg10 (by decide)).trans (val6_main_arg10 V0)
theorem val8_main_arg10 (V0 : Valuation τ sig (Elt F)) : val8 V0 (no_index (Proc.devRef .tc main_arg10)) = V0 (Proc.devRef .tc main_arg10) := (val8_keep V0 main_arg10 (by decide)).trans (val7_main_arg10 V0)
theorem val0_main_arg11 (V0 : Valuation τ sig (Elt F)) : val0 V0 (no_index (Proc.devRef .tc main_arg11)) = V0 (Proc.devRef .tc main_arg11) := rfl
theorem val1_main_arg11 (V0 : Valuation τ sig (Elt F)) : val1 V0 (no_index (Proc.devRef .tc main_arg11)) = V0 (Proc.devRef .tc main_arg11) := (val1_keep V0 main_arg11 (by decide)).trans (val0_main_arg11 V0)
theorem val2_main_arg11 (V0 : Valuation τ sig (Elt F)) : val2 V0 (no_index (Proc.devRef .tc main_arg11)) = V0 (Proc.devRef .tc main_arg11) := (val2_keep V0 main_arg11 (by decide)).trans (val1_main_arg11 V0)
theorem val3_main_arg11 (V0 : Valuation τ sig (Elt F)) : val3 V0 (no_index (Proc.devRef .tc main_arg11)) = V0 (Proc.devRef .tc main_arg11) := (val3_keep V0 main_arg11 (by decide)).trans (val2_main_arg11 V0)
theorem val4_main_arg11 (V0 : Valuation τ sig (Elt F)) : val4 V0 (no_index (Proc.devRef .tc main_arg11)) = V0 (Proc.devRef .tc main_arg11) := (val4_keep V0 main_arg11 (by decide)).trans (val3_main_arg11 V0)
theorem val5_main_arg11 (V0 : Valuation τ sig (Elt F)) : val5 V0 (no_index (Proc.devRef .tc main_arg11)) = V0 (Proc.devRef .tc main_arg11) := (val5_keep V0 main_arg11 (by decide)).trans (val4_main_arg11 V0)
theorem val6_main_arg11 (V0 : Valuation τ sig (Elt F)) : val6 V0 (no_index (Proc.devRef .tc main_arg11)) = V0 (Proc.devRef .tc main_arg11) := (val6_keep V0 main_arg11 (by decide)).trans (val5_main_arg11 V0)
theorem val7_main_arg11 (V0 : Valuation τ sig (Elt F)) : val7 V0 (no_index (Proc.devRef .tc main_arg11)) = V0 (Proc.devRef .tc main_arg11) := (val7_keep V0 main_arg11 (by decide)).trans (val6_main_arg11 V0)
theorem val8_main_arg11 (V0 : Valuation τ sig (Elt F)) : val8 V0 (no_index (Proc.devRef .tc main_arg11)) = V0 (Proc.devRef .tc main_arg11) := (val8_keep V0 main_arg11 (by decide)).trans (val7_main_arg11 V0)
theorem val0_main_arg12 (V0 : Valuation τ sig (Elt F)) : val0 V0 (no_index (Proc.devRef .tc main_arg12)) = V0 (Proc.devRef .tc main_arg12) := rfl
theorem val1_main_arg12 (V0 : Valuation τ sig (Elt F)) : val1 V0 (no_index (Proc.devRef .tc main_arg12)) = V0 (Proc.devRef .tc main_arg12) := (val1_keep V0 main_arg12 (by decide)).trans (val0_main_arg12 V0)
theorem val2_main_arg12 (V0 : Valuation τ sig (Elt F)) : val2 V0 (no_index (Proc.devRef .tc main_arg12)) = V0 (Proc.devRef .tc main_arg12) := (val2_keep V0 main_arg12 (by decide)).trans (val1_main_arg12 V0)
theorem val3_main_arg12 (V0 : Valuation τ sig (Elt F)) : val3 V0 (no_index (Proc.devRef .tc main_arg12)) = V0 (Proc.devRef .tc main_arg12) := (val3_keep V0 main_arg12 (by decide)).trans (val2_main_arg12 V0)
theorem val4_main_arg12 (V0 : Valuation τ sig (Elt F)) : val4 V0 (no_index (Proc.devRef .tc main_arg12)) = V0 (Proc.devRef .tc main_arg12) := (val4_keep V0 main_arg12 (by decide)).trans (val3_main_arg12 V0)
theorem val5_main_arg12 (V0 : Valuation τ sig (Elt F)) : val5 V0 (no_index (Proc.devRef .tc main_arg12)) = V0 (Proc.devRef .tc main_arg12) := (val5_keep V0 main_arg12 (by decide)).trans (val4_main_arg12 V0)
theorem val6_main_arg12 (V0 : Valuation τ sig (Elt F)) : val6 V0 (no_index (Proc.devRef .tc main_arg12)) = V0 (Proc.devRef .tc main_arg12) := (val6_keep V0 main_arg12 (by decide)).trans (val5_main_arg12 V0)
theorem val7_main_arg12 (V0 : Valuation τ sig (Elt F)) : val7 V0 (no_index (Proc.devRef .tc main_arg12)) = V0 (Proc.devRef .tc main_arg12) := (val7_keep V0 main_arg12 (by decide)).trans (val6_main_arg12 V0)
theorem val8_main_arg12 (V0 : Valuation τ sig (Elt F)) : val8 V0 (no_index (Proc.devRef .tc main_arg12)) = V0 (Proc.devRef .tc main_arg12) := (val8_keep V0 main_arg12 (by decide)).trans (val7_main_arg12 V0)
theorem val0_main_arg13 (V0 : Valuation τ sig (Elt F)) : val0 V0 (no_index (Proc.devRef .tc main_arg13)) = V0 (Proc.devRef .tc main_arg13) := rfl
theorem val1_main_arg13 (V0 : Valuation τ sig (Elt F)) : val1 V0 (no_index (Proc.devRef .tc main_arg13)) = V0 (Proc.devRef .tc main_arg13) := (val1_keep V0 main_arg13 (by decide)).trans (val0_main_arg13 V0)
theorem val2_main_arg13 (V0 : Valuation τ sig (Elt F)) : val2 V0 (no_index (Proc.devRef .tc main_arg13)) = V0 (Proc.devRef .tc main_arg13) := (val2_keep V0 main_arg13 (by decide)).trans (val1_main_arg13 V0)
theorem val3_main_arg13 (V0 : Valuation τ sig (Elt F)) : val3 V0 (no_index (Proc.devRef .tc main_arg13)) = V0 (Proc.devRef .tc main_arg13) := (val3_keep V0 main_arg13 (by decide)).trans (val2_main_arg13 V0)
theorem val4_main_arg13 (V0 : Valuation τ sig (Elt F)) : val4 V0 (no_index (Proc.devRef .tc main_arg13)) = V0 (Proc.devRef .tc main_arg13) := (val4_keep V0 main_arg13 (by decide)).trans (val3_main_arg13 V0)
theorem val5_main_arg13 (V0 : Valuation τ sig (Elt F)) : val5 V0 (no_index (Proc.devRef .tc main_arg13)) = V0 (Proc.devRef .tc main_arg13) := (val5_keep V0 main_arg13 (by decide)).trans (val4_main_arg13 V0)
theorem val6_main_arg13 (V0 : Valuation τ sig (Elt F)) : val6 V0 (no_index (Proc.devRef .tc main_arg13)) = V0 (Proc.devRef .tc main_arg13) := (val6_keep V0 main_arg13 (by decide)).trans (val5_main_arg13 V0)
theorem val7_main_arg13 (V0 : Valuation τ sig (Elt F)) : val7 V0 (no_index (Proc.devRef .tc main_arg13)) = V0 (Proc.devRef .tc main_arg13) := (val7_keep V0 main_arg13 (by decide)).trans (val6_main_arg13 V0)
theorem val8_main_arg13 (V0 : Valuation τ sig (Elt F)) : val8 V0 (no_index (Proc.devRef .tc main_arg13)) = V0 (Proc.devRef .tc main_arg13) := (val8_keep V0 main_arg13 (by decide)).trans (val7_main_arg13 V0)
theorem val0_main_arg14 (V0 : Valuation τ sig (Elt F)) : val0 V0 (no_index (Proc.devRef .tc main_arg14)) = V0 (Proc.devRef .tc main_arg14) := rfl
theorem val1_main_arg14 (V0 : Valuation τ sig (Elt F)) : val1 V0 (no_index (Proc.devRef .tc main_arg14)) = V0 (Proc.devRef .tc main_arg14) := (val1_keep V0 main_arg14 (by decide)).trans (val0_main_arg14 V0)
theorem val2_main_arg14 (V0 : Valuation τ sig (Elt F)) : val2 V0 (no_index (Proc.devRef .tc main_arg14)) = V0 (Proc.devRef .tc main_arg14) := (val2_keep V0 main_arg14 (by decide)).trans (val1_main_arg14 V0)
theorem val3_main_arg14 (V0 : Valuation τ sig (Elt F)) : val3 V0 (no_index (Proc.devRef .tc main_arg14)) = V0 (Proc.devRef .tc main_arg14) := (val3_keep V0 main_arg14 (by decide)).trans (val2_main_arg14 V0)
theorem val4_main_arg14 (V0 : Valuation τ sig (Elt F)) : val4 V0 (no_index (Proc.devRef .tc main_arg14)) = V0 (Proc.devRef .tc main_arg14) := (val4_keep V0 main_arg14 (by decide)).trans (val3_main_arg14 V0)
theorem val5_main_arg14 (V0 : Valuation τ sig (Elt F)) : val5 V0 (no_index (Proc.devRef .tc main_arg14)) = V0 (Proc.devRef .tc main_arg14) := (val5_keep V0 main_arg14 (by decide)).trans (val4_main_arg14 V0)
theorem val6_main_arg14 (V0 : Valuation τ sig (Elt F)) : val6 V0 (no_index (Proc.devRef .tc main_arg14)) = V0 (Proc.devRef .tc main_arg14) := (val6_keep V0 main_arg14 (by decide)).trans (val5_main_arg14 V0)
theorem val7_main_arg14 (V0 : Valuation τ sig (Elt F)) : val7 V0 (no_index (Proc.devRef .tc main_arg14)) = V0 (Proc.devRef .tc main_arg14) := (val7_keep V0 main_arg14 (by decide)).trans (val6_main_arg14 V0)
theorem val8_main_arg14 (V0 : Valuation τ sig (Elt F)) : val8 V0 (no_index (Proc.devRef .tc main_arg14)) = V0 (Proc.devRef .tc main_arg14) := (val8_keep V0 main_arg14 (by decide)).trans (val7_main_arg14 V0)
theorem val0_main_arg15 (V0 : Valuation τ sig (Elt F)) : val0 V0 (no_index (Proc.devRef .tc main_arg15)) = V0 (Proc.devRef .tc main_arg15) := rfl
theorem val1_main_arg15 (V0 : Valuation τ sig (Elt F)) : val1 V0 (no_index (Proc.devRef .tc main_arg15)) = V0 (Proc.devRef .tc main_arg15) := (val1_keep V0 main_arg15 (by decide)).trans (val0_main_arg15 V0)
theorem val2_main_arg15 (V0 : Valuation τ sig (Elt F)) : val2 V0 (no_index (Proc.devRef .tc main_arg15)) = V0 (Proc.devRef .tc main_arg15) := (val2_keep V0 main_arg15 (by decide)).trans (val1_main_arg15 V0)
theorem val3_main_arg15 (V0 : Valuation τ sig (Elt F)) : val3 V0 (no_index (Proc.devRef .tc main_arg15)) = V0 (Proc.devRef .tc main_arg15) := (val3_keep V0 main_arg15 (by decide)).trans (val2_main_arg15 V0)
theorem val4_main_arg15 (V0 : Valuation τ sig (Elt F)) : val4 V0 (no_index (Proc.devRef .tc main_arg15)) = V0 (Proc.devRef .tc main_arg15) := (val4_keep V0 main_arg15 (by decide)).trans (val3_main_arg15 V0)
theorem val5_main_arg15 (V0 : Valuation τ sig (Elt F)) : val5 V0 (no_index (Proc.devRef .tc main_arg15)) = V0 (Proc.devRef .tc main_arg15) := (val5_keep V0 main_arg15 (by decide)).trans (val4_main_arg15 V0)
theorem val6_main_arg15 (V0 : Valuation τ sig (Elt F)) : val6 V0 (no_index (Proc.devRef .tc main_arg15)) = V0 (Proc.devRef .tc main_arg15) := (val6_keep V0 main_arg15 (by decide)).trans (val5_main_arg15 V0)
theorem val7_main_arg15 (V0 : Valuation τ sig (Elt F)) : val7 V0 (no_index (Proc.devRef .tc main_arg15)) = V0 (Proc.devRef .tc main_arg15) := (val7_keep V0 main_arg15 (by decide)).trans (val6_main_arg15 V0)
theorem val8_main_arg15 (V0 : Valuation τ sig (Elt F)) : val8 V0 (no_index (Proc.devRef .tc main_arg15)) = V0 (Proc.devRef .tc main_arg15) := (val8_keep V0 main_arg15 (by decide)).trans (val7_main_arg15 V0)
theorem val0_main_arg16 (V0 : Valuation τ sig (Elt F)) : val0 V0 (no_index (Proc.devRef .tc main_arg16)) = V0 (Proc.devRef .tc main_arg16) := rfl
theorem val1_main_arg16 (V0 : Valuation τ sig (Elt F)) : val1 V0 (no_index (Proc.devRef .tc main_arg16)) = V0 (Proc.devRef .tc main_arg16) := (val1_keep V0 main_arg16 (by decide)).trans (val0_main_arg16 V0)
theorem val2_main_arg16 (V0 : Valuation τ sig (Elt F)) : val2 V0 (no_index (Proc.devRef .tc main_arg16)) = V0 (Proc.devRef .tc main_arg16) := (val2_keep V0 main_arg16 (by decide)).trans (val1_main_arg16 V0)
theorem val3_main_arg16 (V0 : Valuation τ sig (Elt F)) : val3 V0 (no_index (Proc.devRef .tc main_arg16)) = V0 (Proc.devRef .tc main_arg16) := (val3_keep V0 main_arg16 (by decide)).trans (val2_main_arg16 V0)
theorem val4_main_arg16 (V0 : Valuation τ sig (Elt F)) : val4 V0 (no_index (Proc.devRef .tc main_arg16)) = V0 (Proc.devRef .tc main_arg16) := (val4_keep V0 main_arg16 (by decide)).trans (val3_main_arg16 V0)
theorem val5_main_arg16 (V0 : Valuation τ sig (Elt F)) : val5 V0 (no_index (Proc.devRef .tc main_arg16)) = V0 (Proc.devRef .tc main_arg16) := (val5_keep V0 main_arg16 (by decide)).trans (val4_main_arg16 V0)
theorem val6_main_arg16 (V0 : Valuation τ sig (Elt F)) : val6 V0 (no_index (Proc.devRef .tc main_arg16)) = V0 (Proc.devRef .tc main_arg16) := (val6_keep V0 main_arg16 (by decide)).trans (val5_main_arg16 V0)
theorem val7_main_arg16 (V0 : Valuation τ sig (Elt F)) : val7 V0 (no_index (Proc.devRef .tc main_arg16)) = V0 (Proc.devRef .tc main_arg16) := (val7_keep V0 main_arg16 (by decide)).trans (val6_main_arg16 V0)
theorem val8_main_arg16 (V0 : Valuation τ sig (Elt F)) : val8 V0 (no_index (Proc.devRef .tc main_arg16)) = V0 (Proc.devRef .tc main_arg16) := (val8_keep V0 main_arg16 (by decide)).trans (val7_main_arg16 V0)
theorem val0_main_arg17 (V0 : Valuation τ sig (Elt F)) : val0 V0 (no_index (Proc.devRef .tc main_arg17)) = V0 (Proc.devRef .tc main_arg17) := rfl
theorem val1_main_arg17 (V0 : Valuation τ sig (Elt F)) : val1 V0 (no_index (Proc.devRef .tc main_arg17)) = V0 (Proc.devRef .tc main_arg17) := (val1_keep V0 main_arg17 (by decide)).trans (val0_main_arg17 V0)
theorem val2_main_arg17 (V0 : Valuation τ sig (Elt F)) : val2 V0 (no_index (Proc.devRef .tc main_arg17)) = V0 (Proc.devRef .tc main_arg17) := (val2_keep V0 main_arg17 (by decide)).trans (val1_main_arg17 V0)
theorem val3_main_arg17 (V0 : Valuation τ sig (Elt F)) : val3 V0 (no_index (Proc.devRef .tc main_arg17)) = V0 (Proc.devRef .tc main_arg17) := (val3_keep V0 main_arg17 (by decide)).trans (val2_main_arg17 V0)
theorem val4_main_arg17 (V0 : Valuation τ sig (Elt F)) : val4 V0 (no_index (Proc.devRef .tc main_arg17)) = V0 (Proc.devRef .tc main_arg17) := (val4_keep V0 main_arg17 (by decide)).trans (val3_main_arg17 V0)
theorem val5_main_arg17 (V0 : Valuation τ sig (Elt F)) : val5 V0 (no_index (Proc.devRef .tc main_arg17)) = V0 (Proc.devRef .tc main_arg17) := (val5_keep V0 main_arg17 (by decide)).trans (val4_main_arg17 V0)
theorem val6_main_arg17 (V0 : Valuation τ sig (Elt F)) : val6 V0 (no_index (Proc.devRef .tc main_arg17)) = V0 (Proc.devRef .tc main_arg17) := (val6_keep V0 main_arg17 (by decide)).trans (val5_main_arg17 V0)
theorem val7_main_arg17 (V0 : Valuation τ sig (Elt F)) : val7 V0 (no_index (Proc.devRef .tc main_arg17)) = V0 (Proc.devRef .tc main_arg17) := (val7_keep V0 main_arg17 (by decide)).trans (val6_main_arg17 V0)
theorem val8_main_arg17 (V0 : Valuation τ sig (Elt F)) : val8 V0 (no_index (Proc.devRef .tc main_arg17)) = V0 (Proc.devRef .tc main_arg17) := (val8_keep V0 main_arg17 (by decide)).trans (val7_main_arg17 V0)
theorem val0_main_arg18 (V0 : Valuation τ sig (Elt F)) : val0 V0 (no_index (Proc.devRef .tc main_arg18)) = V0 (Proc.devRef .tc main_arg18) := rfl
theorem val1_main_arg18 (V0 : Valuation τ sig (Elt F)) : val1 V0 (no_index (Proc.devRef .tc main_arg18)) = V0 (Proc.devRef .tc main_arg18) := (val1_keep V0 main_arg18 (by decide)).trans (val0_main_arg18 V0)
theorem val2_main_arg18 (V0 : Valuation τ sig (Elt F)) : val2 V0 (no_index (Proc.devRef .tc main_arg18)) = V0 (Proc.devRef .tc main_arg18) := (val2_keep V0 main_arg18 (by decide)).trans (val1_main_arg18 V0)
theorem val3_main_arg18 (V0 : Valuation τ sig (Elt F)) : val3 V0 (no_index (Proc.devRef .tc main_arg18)) = V0 (Proc.devRef .tc main_arg18) := (val3_keep V0 main_arg18 (by decide)).trans (val2_main_arg18 V0)
theorem val4_main_arg18 (V0 : Valuation τ sig (Elt F)) : val4 V0 (no_index (Proc.devRef .tc main_arg18)) = V0 (Proc.devRef .tc main_arg18) := (val4_keep V0 main_arg18 (by decide)).trans (val3_main_arg18 V0)
theorem val5_main_arg18 (V0 : Valuation τ sig (Elt F)) : val5 V0 (no_index (Proc.devRef .tc main_arg18)) = V0 (Proc.devRef .tc main_arg18) := (val5_keep V0 main_arg18 (by decide)).trans (val4_main_arg18 V0)
theorem val6_main_arg18 (V0 : Valuation τ sig (Elt F)) : val6 V0 (no_index (Proc.devRef .tc main_arg18)) = V0 (Proc.devRef .tc main_arg18) := (val6_keep V0 main_arg18 (by decide)).trans (val5_main_arg18 V0)
theorem val7_main_arg18 (V0 : Valuation τ sig (Elt F)) : val7 V0 (no_index (Proc.devRef .tc main_arg18)) = V0 (Proc.devRef .tc main_arg18) := (val7_keep V0 main_arg18 (by decide)).trans (val6_main_arg18 V0)
theorem val8_main_arg18 (V0 : Valuation τ sig (Elt F)) : val8 V0 (no_index (Proc.devRef .tc main_arg18)) = V0 (Proc.devRef .tc main_arg18) := (val8_keep V0 main_arg18 (by decide)).trans (val7_main_arg18 V0)
theorem val0_main_arg19 (V0 : Valuation τ sig (Elt F)) : val0 V0 (no_index (Proc.devRef .tc main_arg19)) = V0 (Proc.devRef .tc main_arg19) := rfl
theorem val1_main_arg19 (V0 : Valuation τ sig (Elt F)) : val1 V0 (no_index (Proc.devRef .tc main_arg19)) = V0 (Proc.devRef .tc main_arg19) := (val1_keep V0 main_arg19 (by decide)).trans (val0_main_arg19 V0)
theorem val2_main_arg19 (V0 : Valuation τ sig (Elt F)) : val2 V0 (no_index (Proc.devRef .tc main_arg19)) = V0 (Proc.devRef .tc main_arg19) := (val2_keep V0 main_arg19 (by decide)).trans (val1_main_arg19 V0)
theorem val3_main_arg19 (V0 : Valuation τ sig (Elt F)) : val3 V0 (no_index (Proc.devRef .tc main_arg19)) = V0 (Proc.devRef .tc main_arg19) := (val3_keep V0 main_arg19 (by decide)).trans (val2_main_arg19 V0)
theorem val4_main_arg19 (V0 : Valuation τ sig (Elt F)) : val4 V0 (no_index (Proc.devRef .tc main_arg19)) = V0 (Proc.devRef .tc main_arg19) := (val4_keep V0 main_arg19 (by decide)).trans (val3_main_arg19 V0)
theorem val5_main_arg19 (V0 : Valuation τ sig (Elt F)) : val5 V0 (no_index (Proc.devRef .tc main_arg19)) = V0 (Proc.devRef .tc main_arg19) := (val5_keep V0 main_arg19 (by decide)).trans (val4_main_arg19 V0)
theorem val6_main_arg19 (V0 : Valuation τ sig (Elt F)) : val6 V0 (no_index (Proc.devRef .tc main_arg19)) = V0 (Proc.devRef .tc main_arg19) := (val6_keep V0 main_arg19 (by decide)).trans (val5_main_arg19 V0)
theorem val7_main_arg19 (V0 : Valuation τ sig (Elt F)) : val7 V0 (no_index (Proc.devRef .tc main_arg19)) = V0 (Proc.devRef .tc main_arg19) := (val7_keep V0 main_arg19 (by decide)).trans (val6_main_arg19 V0)
theorem val8_main_arg19 (V0 : Valuation τ sig (Elt F)) : val8 V0 (no_index (Proc.devRef .tc main_arg19)) = V0 (Proc.devRef .tc main_arg19) := (val8_keep V0 main_arg19 (by decide)).trans (val7_main_arg19 V0)
theorem val0_main_arg20 (V0 : Valuation τ sig (Elt F)) : val0 V0 (no_index (Proc.devRef .tc main_arg20)) = V0 (Proc.devRef .tc main_arg20) := rfl
theorem val1_main_arg20 (V0 : Valuation τ sig (Elt F)) : val1 V0 (no_index (Proc.devRef .tc main_arg20)) = V0 (Proc.devRef .tc main_arg20) := (val1_keep V0 main_arg20 (by decide)).trans (val0_main_arg20 V0)
theorem val2_main_arg20 (V0 : Valuation τ sig (Elt F)) : val2 V0 (no_index (Proc.devRef .tc main_arg20)) = V0 (Proc.devRef .tc main_arg20) := (val2_keep V0 main_arg20 (by decide)).trans (val1_main_arg20 V0)
theorem val3_main_arg20 (V0 : Valuation τ sig (Elt F)) : val3 V0 (no_index (Proc.devRef .tc main_arg20)) = V0 (Proc.devRef .tc main_arg20) := (val3_keep V0 main_arg20 (by decide)).trans (val2_main_arg20 V0)
theorem val4_main_arg20 (V0 : Valuation τ sig (Elt F)) : val4 V0 (no_index (Proc.devRef .tc main_arg20)) = V0 (Proc.devRef .tc main_arg20) := (val4_keep V0 main_arg20 (by decide)).trans (val3_main_arg20 V0)
theorem val5_main_arg20 (V0 : Valuation τ sig (Elt F)) : val5 V0 (no_index (Proc.devRef .tc main_arg20)) = V0 (Proc.devRef .tc main_arg20) := (val5_keep V0 main_arg20 (by decide)).trans (val4_main_arg20 V0)
theorem val6_main_arg20 (V0 : Valuation τ sig (Elt F)) : val6 V0 (no_index (Proc.devRef .tc main_arg20)) = V0 (Proc.devRef .tc main_arg20) := (val6_keep V0 main_arg20 (by decide)).trans (val5_main_arg20 V0)
theorem val7_main_arg20 (V0 : Valuation τ sig (Elt F)) : val7 V0 (no_index (Proc.devRef .tc main_arg20)) = V0 (Proc.devRef .tc main_arg20) := (val7_keep V0 main_arg20 (by decide)).trans (val6_main_arg20 V0)
theorem val8_main_arg20 (V0 : Valuation τ sig (Elt F)) : val8 V0 (no_index (Proc.devRef .tc main_arg20)) = V0 (Proc.devRef .tc main_arg20) := (val8_keep V0 main_arg20 (by decide)).trans (val7_main_arg20 V0)
theorem val0_main_arg21 (V0 : Valuation τ sig (Elt F)) : val0 V0 (no_index (Proc.devRef .tc main_arg21)) = V0 (Proc.devRef .tc main_arg21) := rfl
theorem val1_main_arg21 (V0 : Valuation τ sig (Elt F)) : val1 V0 (no_index (Proc.devRef .tc main_arg21)) = V0 (Proc.devRef .tc main_arg21) := (val1_keep V0 main_arg21 (by decide)).trans (val0_main_arg21 V0)
theorem val2_main_arg21 (V0 : Valuation τ sig (Elt F)) : val2 V0 (no_index (Proc.devRef .tc main_arg21)) = V0 (Proc.devRef .tc main_arg21) := (val2_keep V0 main_arg21 (by decide)).trans (val1_main_arg21 V0)
theorem val3_main_arg21 (V0 : Valuation τ sig (Elt F)) : val3 V0 (no_index (Proc.devRef .tc main_arg21)) = V0 (Proc.devRef .tc main_arg21) := (val3_keep V0 main_arg21 (by decide)).trans (val2_main_arg21 V0)
theorem val4_main_arg21 (V0 : Valuation τ sig (Elt F)) : val4 V0 (no_index (Proc.devRef .tc main_arg21)) = V0 (Proc.devRef .tc main_arg21) := (val4_keep V0 main_arg21 (by decide)).trans (val3_main_arg21 V0)
theorem val5_main_arg21 (V0 : Valuation τ sig (Elt F)) : val5 V0 (no_index (Proc.devRef .tc main_arg21)) = V0 (Proc.devRef .tc main_arg21) := (val5_keep V0 main_arg21 (by decide)).trans (val4_main_arg21 V0)
theorem val6_main_arg21 (V0 : Valuation τ sig (Elt F)) : val6 V0 (no_index (Proc.devRef .tc main_arg21)) = V0 (Proc.devRef .tc main_arg21) := (val6_keep V0 main_arg21 (by decide)).trans (val5_main_arg21 V0)
theorem val7_main_arg21 (V0 : Valuation τ sig (Elt F)) : val7 V0 (no_index (Proc.devRef .tc main_arg21)) = V0 (Proc.devRef .tc main_arg21) := (val7_keep V0 main_arg21 (by decide)).trans (val6_main_arg21 V0)
theorem val8_main_arg21 (V0 : Valuation τ sig (Elt F)) : val8 V0 (no_index (Proc.devRef .tc main_arg21)) = V0 (Proc.devRef .tc main_arg21) := (val8_keep V0 main_arg21 (by decide)).trans (val7_main_arg21 V0)
theorem val0_main_arg22 (V0 : Valuation τ sig (Elt F)) : val0 V0 (no_index (Proc.devRef .tc main_arg22)) = V0 (Proc.devRef .tc main_arg22) := rfl
theorem val1_main_arg22 (V0 : Valuation τ sig (Elt F)) : val1 V0 (no_index (Proc.devRef .tc main_arg22)) = V0 (Proc.devRef .tc main_arg22) := (val1_keep V0 main_arg22 (by decide)).trans (val0_main_arg22 V0)
theorem val2_main_arg22 (V0 : Valuation τ sig (Elt F)) : val2 V0 (no_index (Proc.devRef .tc main_arg22)) = V0 (Proc.devRef .tc main_arg22) := (val2_keep V0 main_arg22 (by decide)).trans (val1_main_arg22 V0)
theorem val3_main_arg22 (V0 : Valuation τ sig (Elt F)) : val3 V0 (no_index (Proc.devRef .tc main_arg22)) = V0 (Proc.devRef .tc main_arg22) := (val3_keep V0 main_arg22 (by decide)).trans (val2_main_arg22 V0)
theorem val4_main_arg22 (V0 : Valuation τ sig (Elt F)) : val4 V0 (no_index (Proc.devRef .tc main_arg22)) = V0 (Proc.devRef .tc main_arg22) := (val4_keep V0 main_arg22 (by decide)).trans (val3_main_arg22 V0)
theorem val5_main_arg22 (V0 : Valuation τ sig (Elt F)) : val5 V0 (no_index (Proc.devRef .tc main_arg22)) = V0 (Proc.devRef .tc main_arg22) := (val5_keep V0 main_arg22 (by decide)).trans (val4_main_arg22 V0)
theorem val6_main_arg22 (V0 : Valuation τ sig (Elt F)) : val6 V0 (no_index (Proc.devRef .tc main_arg22)) = V0 (Proc.devRef .tc main_arg22) := (val6_keep V0 main_arg22 (by decide)).trans (val5_main_arg22 V0)
theorem val7_main_arg22 (V0 : Valuation τ sig (Elt F)) : val7 V0 (no_index (Proc.devRef .tc main_arg22)) = V0 (Proc.devRef .tc main_arg22) := (val7_keep V0 main_arg22 (by decide)).trans (val6_main_arg22 V0)
theorem val8_main_arg22 (V0 : Valuation τ sig (Elt F)) : val8 V0 (no_index (Proc.devRef .tc main_arg22)) = V0 (Proc.devRef .tc main_arg22) := (val8_keep V0 main_arg22 (by decide)).trans (val7_main_arg22 V0)
theorem val0_main_arg23 (V0 : Valuation τ sig (Elt F)) : val0 V0 (no_index (Proc.devRef .tc main_arg23)) = V0 (Proc.devRef .tc main_arg23) := rfl
theorem val1_main_arg23 (V0 : Valuation τ sig (Elt F)) : val1 V0 (no_index (Proc.devRef .tc main_arg23)) = V0 (Proc.devRef .tc main_arg23) := (val1_keep V0 main_arg23 (by decide)).trans (val0_main_arg23 V0)
theorem val2_main_arg23 (V0 : Valuation τ sig (Elt F)) : val2 V0 (no_index (Proc.devRef .tc main_arg23)) = V0 (Proc.devRef .tc main_arg23) := (val2_keep V0 main_arg23 (by decide)).trans (val1_main_arg23 V0)
theorem val3_main_arg23 (V0 : Valuation τ sig (Elt F)) : val3 V0 (no_index (Proc.devRef .tc main_arg23)) = V0 (Proc.devRef .tc main_arg23) := (val3_keep V0 main_arg23 (by decide)).trans (val2_main_arg23 V0)
theorem val4_main_arg23 (V0 : Valuation τ sig (Elt F)) : val4 V0 (no_index (Proc.devRef .tc main_arg23)) = V0 (Proc.devRef .tc main_arg23) := (val4_keep V0 main_arg23 (by decide)).trans (val3_main_arg23 V0)
theorem val5_main_arg23 (V0 : Valuation τ sig (Elt F)) : val5 V0 (no_index (Proc.devRef .tc main_arg23)) = V0 (Proc.devRef .tc main_arg23) := (val5_keep V0 main_arg23 (by decide)).trans (val4_main_arg23 V0)
theorem val6_main_arg23 (V0 : Valuation τ sig (Elt F)) : val6 V0 (no_index (Proc.devRef .tc main_arg23)) = V0 (Proc.devRef .tc main_arg23) := (val6_keep V0 main_arg23 (by decide)).trans (val5_main_arg23 V0)
theorem val7_main_arg23 (V0 : Valuation τ sig (Elt F)) : val7 V0 (no_index (Proc.devRef .tc main_arg23)) = V0 (Proc.devRef .tc main_arg23) := (val7_keep V0 main_arg23 (by decide)).trans (val6_main_arg23 V0)
theorem val8_main_arg23 (V0 : Valuation τ sig (Elt F)) : val8 V0 (no_index (Proc.devRef .tc main_arg23)) = V0 (Proc.devRef .tc main_arg23) := (val8_keep V0 main_arg23 (by decide)).trans (val7_main_arg23 V0)
theorem val0_main_arg24 (V0 : Valuation τ sig (Elt F)) : val0 V0 (no_index (Proc.devRef .tc main_arg24)) = V0 (Proc.devRef .tc main_arg24) := rfl
theorem val1_main_arg24 (V0 : Valuation τ sig (Elt F)) : val1 V0 (no_index (Proc.devRef .tc main_arg24)) = V0 (Proc.devRef .tc main_arg24) := (val1_keep V0 main_arg24 (by decide)).trans (val0_main_arg24 V0)
theorem val2_main_arg24 (V0 : Valuation τ sig (Elt F)) : val2 V0 (no_index (Proc.devRef .tc main_arg24)) = V0 (Proc.devRef .tc main_arg24) := (val2_keep V0 main_arg24 (by decide)).trans (val1_main_arg24 V0)
theorem val3_main_arg24 (V0 : Valuation τ sig (Elt F)) : val3 V0 (no_index (Proc.devRef .tc main_arg24)) = V0 (Proc.devRef .tc main_arg24) := (val3_keep V0 main_arg24 (by decide)).trans (val2_main_arg24 V0)
theorem val4_main_arg24 (V0 : Valuation τ sig (Elt F)) : val4 V0 (no_index (Proc.devRef .tc main_arg24)) = V0 (Proc.devRef .tc main_arg24) := (val4_keep V0 main_arg24 (by decide)).trans (val3_main_arg24 V0)
theorem val5_main_arg24 (V0 : Valuation τ sig (Elt F)) : val5 V0 (no_index (Proc.devRef .tc main_arg24)) = V0 (Proc.devRef .tc main_arg24) := (val5_keep V0 main_arg24 (by decide)).trans (val4_main_arg24 V0)
theorem val6_main_arg24 (V0 : Valuation τ sig (Elt F)) : val6 V0 (no_index (Proc.devRef .tc main_arg24)) = V0 (Proc.devRef .tc main_arg24) := (val6_keep V0 main_arg24 (by decide)).trans (val5_main_arg24 V0)
theorem val7_main_arg24 (V0 : Valuation τ sig (Elt F)) : val7 V0 (no_index (Proc.devRef .tc main_arg24)) = V0 (Proc.devRef .tc main_arg24) := (val7_keep V0 main_arg24 (by decide)).trans (val6_main_arg24 V0)
theorem val8_main_arg24 (V0 : Valuation τ sig (Elt F)) : val8 V0 (no_index (Proc.devRef .tc main_arg24)) = V0 (Proc.devRef .tc main_arg24) := (val8_keep V0 main_arg24 (by decide)).trans (val7_main_arg24 V0)

/-! ## The buffers one stretch writes and a later one reads, as terms of the launch contents -/

/-- `main_v0`'s term of the launch contents. -/
def stg_main_v0 (V0 : Valuation τ sig (Elt F)) : (⟨S100000, .i32⟩ : BufTy).Contents (Elt F) :=
  g_main_v0
theorem val1_main_v0 (V0 : Valuation τ sig (Elt F)) : val1 V0 (no_index (Proc.devRef .tc main_v0)) = stg_main_v0 V0 := by
  unfold val1
  exact (w_main_v0 _).trans (by rfl)

/-- `main_v39`'s term of the launch contents. -/
def stg_main_v39 (V0 : Valuation τ sig (Elt F)) : (⟨S64x128, .f32⟩ : BufTy).Contents (Elt F) :=
  g_main_v39 (V0 (Proc.devRef .tc main_arg22)) (V0 (Proc.devRef .tc main_arg0)) (V0 (Proc.devRef .tc main_arg2)) (V0 (Proc.devRef .tc main_arg3))
theorem val1_main_v39 (V0 : Valuation τ sig (Elt F)) : val1 V0 (no_index (Proc.devRef .tc main_v39)) = stg_main_v39 V0 := by
  unfold val1
  exact (w_main_v39 _).trans (by simp only [val0_main_arg22, val0_main_arg0, val0_main_arg2, val0_main_arg3]; rfl)
theorem val2_main_v39 (V0 : Valuation τ sig (Elt F)) : val2 V0 (no_index (Proc.devRef .tc main_v39)) = stg_main_v39 V0 := (val2_keep V0 main_v39 (by decide)).trans (val1_main_v39 V0)

/-- `main_v40`'s term of the launch contents. -/
def stg_main_v40 (V0 : Valuation τ sig (Elt F)) : (⟨S100000, .f32⟩ : BufTy).Contents (Elt F) :=
  g_main_v40
theorem val1_main_v40 (V0 : Valuation τ sig (Elt F)) : val1 V0 (no_index (Proc.devRef .tc main_v40)) = stg_main_v40 V0 := by
  unfold val1
  exact (w_main_v40 _).trans (by rfl)

/-- `main_v43`'s term of the launch contents. -/
def stg_main_v43 (V0 : Valuation τ sig (Elt F)) : (⟨S64, .f32⟩ : BufTy).Contents (Elt F) :=
  g_main_v43 (V0 (Proc.devRef .tc main_arg22))
theorem val1_main_v43 (V0 : Valuation τ sig (Elt F)) : val1 V0 (no_index (Proc.devRef .tc main_v43)) = stg_main_v43 V0 := by
  unfold val1
  exact (w_main_v43 _).trans (by simp only [val0_main_arg22]; rfl)

/-- `main_v44`'s term of the launch contents. -/
def stg_main_v44 (V0 : Valuation τ sig (Elt F)) : (⟨S100000, .f32⟩ : BufTy).Contents (Elt F) :=
  g_main_v44
theorem val1_main_v44 (V0 : Valuation τ sig (Elt F)) : val1 V0 (no_index (Proc.devRef .tc main_v44)) = stg_main_v44 V0 := by
  unfold val1
  exact (w_main_v44 _).trans (by rfl)

/-- `main_v78`'s term of the launch contents. -/
def stg_main_v78 (V0 : Valuation τ sig (Elt F)) : (⟨S100000x128, .f32⟩ : BufTy).Contents (Elt F) :=
  g_main_v78 (stg_main_v0 V0) (V0 (Proc.devRef .tc main_arg1)) (stg_main_v43 V0) (V0 (Proc.devRef .tc main_arg22)) (stg_main_v44 V0) (stg_main_v40 V0) (V0 (Proc.devRef .tc main_arg4)) (V0 (Proc.devRef .tc main_arg5))
theorem val2_main_v78 (V0 : Valuation τ sig (Elt F)) : val2 V0 (no_index (Proc.devRef .tc main_v78)) = stg_main_v78 V0 := by
  unfold val2
  exact (w_main_v78 _).trans (by simp only [val1_main_v0, val1_main_arg1, val1_main_v43, val1_main_arg22, val1_main_v44, val1_main_v40, val1_main_arg4, val1_main_arg5]; rfl)

/-- `main_v85`'s term of the launch contents. -/
def stg_main_v85 (V0 : Valuation τ sig (Elt F)) : (⟨S100000, .f32⟩ : BufTy).Contents (Elt F) :=
  g_main_v85 (V0 (Proc.devRef .tc main_arg24))
theorem val2_main_v85 (V0 : Valuation τ sig (Elt F)) : val2 V0 (no_index (Proc.devRef .tc main_v85)) = stg_main_v85 V0 := by
  unfold val2
  exact (w_main_v85 _).trans (by simp only [val1_main_arg24]; rfl)

/-- `main_v87`'s term of the launch contents. -/
def stg_main_v87 (V0 : Valuation τ sig (Elt F)) : (⟨S100000, .i1⟩ : BufTy).Contents (Elt F) :=
  g_main_v87 (V0 (Proc.devRef .tc main_arg23))
theorem val2_main_v87 (V0 : Valuation τ sig (Elt F)) : val2 V0 (no_index (Proc.devRef .tc main_v87)) = stg_main_v87 V0 := by
  unfold val2
  exact (w_main_v87 _).trans (by simp only [val1_main_arg23]; rfl)

/-- `main_v90`'s term of the launch contents. -/
def stg_main_v90 (V0 : Valuation τ sig (Elt F)) : (⟨S100000, .f32⟩ : BufTy).Contents (Elt F) :=
  g_main_v90 (V0 (Proc.devRef .tc main_arg23))
theorem val2_main_v90 (V0 : Valuation τ sig (Elt F)) : val2 V0 (no_index (Proc.devRef .tc main_v90)) = stg_main_v90 V0 := by
  unfold val2
  exact (w_main_v90 _).trans (by simp only [val1_main_arg23]; rfl)

/-- `main_v122`'s term of the launch contents. -/
def stg_main_v122 (V0 : Valuation τ sig (Elt F)) : (⟨S64x128, .f32⟩ : BufTy).Contents (Elt F) :=
  g_main_v122 (stg_main_v39 V0)
theorem val3_main_v122 (V0 : Valuation τ sig (Elt F)) : val3 V0 (no_index (Proc.devRef .tc main_v122)) = stg_main_v122 V0 := by
  unfold val3
  exact (w_main_v122 _).trans (by simp only [val2_main_v39]; rfl)

/-- `main_v135`'s term of the launch contents. -/
def stg_main_v135 (V0 : Valuation τ sig (Elt F)) : (⟨S100000x128, .f32⟩ : BufTy).Contents (Elt F) :=
  g_main_v135 (stg_main_v78 V0) (V0 (Proc.devRef .tc main_arg24)) (V0 (Proc.devRef .tc main_arg0)) (stg_main_v87 V0) (stg_main_v90 V0) (V0 (Proc.devRef .tc main_arg23)) (stg_main_v85 V0) (V0 (Proc.devRef .tc main_arg6)) (V0 (Proc.devRef .tc main_arg7))
theorem val3_main_v135 (V0 : Valuation τ sig (Elt F)) : val3 V0 (no_index (Proc.devRef .tc main_v135)) = stg_main_v135 V0 := by
  unfold val3
  exact (w_main_v135 _).trans (by simp only [val2_main_v78, val2_main_arg24, val2_main_arg0, val2_main_v87, val2_main_v90, val2_main_arg23, val2_main_v85, val2_main_arg6, val2_main_arg7]; rfl)

/-- `main_v137`'s term of the launch contents. -/
def stg_main_v137 (V0 : Valuation τ sig (Elt F)) : (⟨S128, .f32⟩ : BufTy).Contents (Elt F) :=
  g_main_v137 (stg_main_v78 V0) (V0 (Proc.devRef .tc main_arg24)) (V0 (Proc.devRef .tc main_arg0)) (stg_main_v87 V0) (stg_main_v90 V0) (V0 (Proc.devRef .tc main_arg23)) (stg_main_v85 V0) (V0 (Proc.devRef .tc main_arg6)) (V0 (Proc.devRef .tc main_arg7))
theorem val3_main_v137 (V0 : Valuation τ sig (Elt F)) : val3 V0 (no_index (Proc.devRef .tc main_v137)) = stg_main_v137 V0 := by
  unfold val3
  exact (w_main_v137 _).trans (by simp only [val2_main_v78, val2_main_arg24, val2_main_arg0, val2_main_v87, val2_main_v90, val2_main_arg23, val2_main_v85, val2_main_arg6, val2_main_arg7]; rfl)

/-- `main_v147`'s term of the launch contents. -/
def stg_main_v147 (V0 : Valuation τ sig (Elt F)) : (⟨S100000x128, .f32⟩ : BufTy).Contents (Elt F) :=
  g_main_v147 (stg_main_v135 V0) (stg_main_v137 V0) (V0 (Proc.devRef .tc main_arg8)) (V0 (Proc.devRef .tc main_arg9))
theorem val4_main_v147 (V0 : Valuation τ sig (Elt F)) : val4 V0 (no_index (Proc.devRef .tc main_v147)) = stg_main_v147 V0 := by
  unfold val4
  exact (w_main_v147 _).trans (by simp only [val3_main_v135, val3_main_v137, val3_main_arg8, val3_main_arg9]; rfl)
theorem val5_main_v147 (V0 : Valuation τ sig (Elt F)) : val5 V0 (no_index (Proc.devRef .tc main_v147)) = stg_main_v147 V0 := (val5_keep V0 main_v147 (by decide)).trans (val4_main_v147 V0)

/-- `main_v172`'s term of the launch contents. -/
def stg_main_v172 (V0 : Valuation τ sig (Elt F)) : (⟨S64x128, .f32⟩ : BufTy).Contents (Elt F) :=
  g_main_v172 (stg_main_v122 V0) (V0 (Proc.devRef .tc main_arg10)) (V0 (Proc.devRef .tc main_arg11))
theorem val4_main_v172 (V0 : Valuation τ sig (Elt F)) : val4 V0 (no_index (Proc.devRef .tc main_v172)) = stg_main_v172 V0 := by
  unfold val4
  exact (w_main_v172 _).trans (by simp only [val3_main_v122, val3_main_arg10, val3_main_arg11]; rfl)

/-- `main_v173`'s term of the launch contents. -/
def stg_main_v173 (V0 : Valuation τ sig (Elt F)) : (⟨S100000, .i32⟩ : BufTy).Contents (Elt F) :=
  g_main_v173
theorem val4_main_v173 (V0 : Valuation τ sig (Elt F)) : val4 V0 (no_index (Proc.devRef .tc main_v173)) = stg_main_v173 V0 := by
  unfold val4
  exact (w_main_v173 _).trans (by rfl)
theorem val5_main_v173 (V0 : Valuation τ sig (Elt F)) : val5 V0 (no_index (Proc.devRef .tc main_v173)) = stg_main_v173 V0 := (val5_keep V0 main_v173 (by decide)).trans (val4_main_v173 V0)

/-- `main_v180`'s term of the launch contents. -/
def stg_main_v180 (V0 : Valuation τ sig (Elt F)) : (⟨S64, .f32⟩ : BufTy).Contents (Elt F) :=
  g_main_v180 (V0 (Proc.devRef .tc main_arg22))
theorem val4_main_v180 (V0 : Valuation τ sig (Elt F)) : val4 V0 (no_index (Proc.devRef .tc main_v180)) = stg_main_v180 V0 := by
  unfold val4
  exact (w_main_v180 _).trans (by simp only [val3_main_arg22]; rfl)

/-- `main_v186`'s term of the launch contents. -/
def stg_main_v186 (V0 : Valuation τ sig (Elt F)) : (⟨S100000, .f32⟩ : BufTy).Contents (Elt F) :=
  g_main_v186
theorem val4_main_v186 (V0 : Valuation τ sig (Elt F)) : val4 V0 (no_index (Proc.devRef .tc main_v186)) = stg_main_v186 V0 := by
  unfold val4
  exact (w_main_v186 _).trans (by rfl)

/-- `main_v212`'s term of the launch contents. -/
def stg_main_v212 (V0 : Valuation τ sig (Elt F)) : (⟨S64x64, .f32⟩ : BufTy).Contents (Elt F) :=
  g_main_v212 (V0 (Proc.devRef .tc main_arg22)) (stg_main_v147 V0) (stg_main_v186 V0) (stg_main_v173 V0) (stg_main_v180 V0) (V0 (Proc.devRef .tc main_arg12)) (V0 (Proc.devRef .tc main_arg13))
theorem val5_main_v212 (V0 : Valuation τ sig (Elt F)) : val5 V0 (no_index (Proc.devRef .tc main_v212)) = stg_main_v212 V0 := by
  unfold val5
  exact (w_main_v212 _).trans (by simp only [val4_main_arg22, val4_main_v147, val4_main_v186, val4_main_v173, val4_main_v180, val4_main_arg12, val4_main_arg13]; rfl)
theorem val6_main_v212 (V0 : Valuation τ sig (Elt F)) : val6 V0 (no_index (Proc.devRef .tc main_v212)) = stg_main_v212 V0 := (val6_keep V0 main_v212 (by decide)).trans (val5_main_v212 V0)

/-- `main_v219`'s term of the launch contents. -/
def stg_main_v219 (V0 : Valuation τ sig (Elt F)) : (⟨S100000, .f32⟩ : BufTy).Contents (Elt F) :=
  g_main_v219 (stg_main_v173 V0)
theorem val5_main_v219 (V0 : Valuation τ sig (Elt F)) : val5 V0 (no_index (Proc.devRef .tc main_v219)) = stg_main_v219 V0 := by
  unfold val5
  exact (w_main_v219 _).trans (by simp only [val4_main_v173]; rfl)

/-- `main_v228`'s term of the launch contents. -/
def stg_main_v228 (V0 : Valuation τ sig (Elt F)) : (⟨S64x128, .f32⟩ : BufTy).Contents (Elt F) :=
  g_main_v228 (stg_main_v172 V0) (V0 (Proc.devRef .tc main_arg22))
theorem val5_main_v228 (V0 : Valuation τ sig (Elt F)) : val5 V0 (no_index (Proc.devRef .tc main_v228)) = stg_main_v228 V0 := by
  unfold val5
  exact (w_main_v228 _).trans (by simp only [val4_main_v172, val4_main_arg22]; rfl)

/-- `main_v230`'s term of the launch contents. -/
def stg_main_v230 (V0 : Valuation τ sig (Elt F)) : (⟨S100000, .i1⟩ : BufTy).Contents (Elt F) :=
  g_main_v230 (V0 (Proc.devRef .tc main_arg22))
theorem val5_main_v230 (V0 : Valuation τ sig (Elt F)) : val5 V0 (no_index (Proc.devRef .tc main_v230)) = stg_main_v230 V0 := by
  unfold val5
  exact (w_main_v230 _).trans (by simp only [val4_main_arg22]; rfl)

/-- `main_v232`'s term of the launch contents. -/
def stg_main_v232 (V0 : Valuation τ sig (Elt F)) : (⟨S100000, .i32⟩ : BufTy).Contents (Elt F) :=
  g_main_v232 (V0 (Proc.devRef .tc main_arg22))
theorem val5_main_v232 (V0 : Valuation τ sig (Elt F)) : val5 V0 (no_index (Proc.devRef .tc main_v232)) = stg_main_v232 V0 := by
  unfold val5
  exact (w_main_v232 _).trans (by simp only [val4_main_arg22]; rfl)

/-- `main_v251`'s term of the launch contents. -/
def stg_main_v251 (V0 : Valuation τ sig (Elt F)) : (⟨S100000x128, .f32⟩ : BufTy).Contents (Elt F) :=
  g_main_v251 (stg_main_v173 V0) (stg_main_v228 V0) (stg_main_v230 V0) (stg_main_v232 V0) (V0 (Proc.devRef .tc main_arg22)) (stg_main_v219 V0) (V0 (Proc.devRef .tc main_arg14)) (V0 (Proc.devRef .tc main_arg15))
theorem val6_main_v251 (V0 : Valuation τ sig (Elt F)) : val6 V0 (no_index (Proc.devRef .tc main_v251)) = stg_main_v251 V0 := by
  unfold val6
  exact (w_main_v251 _).trans (by simp only [val5_main_v173, val5_main_v228, val5_main_v230, val5_main_v232, val5_main_arg22, val5_main_v219, val5_main_arg14, val5_main_arg15]; rfl)

/-- `main_v258`'s term of the launch contents. -/
def stg_main_v258 (V0 : Valuation τ sig (Elt F)) : (⟨S100000, .f32⟩ : BufTy).Contents (Elt F) :=
  g_main_v258 (V0 (Proc.devRef .tc main_arg24))
theorem val6_main_v258 (V0 : Valuation τ sig (Elt F)) : val6 V0 (no_index (Proc.devRef .tc main_v258)) = stg_main_v258 V0 := by
  unfold val6
  exact (w_main_v258 _).trans (by simp only [val5_main_arg24]; rfl)

/-- `main_v277`'s term of the launch contents. -/
def stg_main_v277 (V0 : Valuation τ sig (Elt F)) : (⟨S100000x128, .f32⟩ : BufTy).Contents (Elt F) :=
  g_main_v277 (V0 (Proc.devRef .tc main_arg24)) (stg_main_v147 V0) (V0 (Proc.devRef .tc main_arg23))
theorem val6_main_v277 (V0 : Valuation τ sig (Elt F)) : val6 V0 (no_index (Proc.devRef .tc main_v277)) = stg_main_v277 V0 := by
  unfold val6
  exact (w_main_v277 _).trans (by simp only [val5_main_arg24, val5_main_v147, val5_main_arg23]; rfl)

/-- `main_v278`'s term of the launch contents. -/
def stg_main_v278 (V0 : Valuation τ sig (Elt F)) : (⟨S100000, .f32⟩ : BufTy).Contents (Elt F) :=
  g_main_v278
theorem val6_main_v278 (V0 : Valuation τ sig (Elt F)) : val6 V0 (no_index (Proc.devRef .tc main_v278)) = stg_main_v278 V0 := by
  unfold val6
  exact (w_main_v278 _).trans (by rfl)

/-- `main_v295`'s term of the launch contents. -/
def stg_main_v295 (V0 : Valuation τ sig (Elt F)) : (⟨S64x64, .f32⟩ : BufTy).Contents (Elt F) :=
  g_main_v295 (stg_main_v212 V0)
theorem val7_main_v295 (V0 : Valuation τ sig (Elt F)) : val7 V0 (no_index (Proc.devRef .tc main_v295)) = stg_main_v295 V0 := by
  unfold val7
  exact (w_main_v295 _).trans (by simp only [val6_main_v212]; rfl)

/-- `main_v320`'s term of the launch contents. -/
def stg_main_v320 (V0 : Valuation τ sig (Elt F)) : (⟨S100000x128, .f32⟩ : BufTy).Contents (Elt F) :=
  g_main_v320 (stg_main_v251 V0) (stg_main_v277 V0) (stg_main_v258 V0) (stg_main_v278 V0) (V0 (Proc.devRef .tc main_arg16)) (V0 (Proc.devRef .tc main_arg17)) (V0 (Proc.devRef .tc main_arg18)) (V0 (Proc.devRef .tc main_arg19))
theorem val7_main_v320 (V0 : Valuation τ sig (Elt F)) : val7 V0 (no_index (Proc.devRef .tc main_v320)) = stg_main_v320 V0 := by
  unfold val7
  exact (w_main_v320 _).trans (by simp only [val6_main_v251, val6_main_v277, val6_main_v258, val6_main_v278, val6_main_arg16, val6_main_arg17, val6_main_arg18, val6_main_arg19]; rfl)
theorem val8_main_v320 (V0 : Valuation τ sig (Elt F)) : val8 V0 (no_index (Proc.devRef .tc main_v320)) = stg_main_v320 V0 := (val8_keep V0 main_v320 (by decide)).trans (val7_main_v320 V0)

/-- `main_v323`'s term of the launch contents. -/
def stg_main_v323 (V0 : Valuation τ sig (Elt F)) : (⟨S64, .f32⟩ : BufTy).Contents (Elt F) :=
  g_main_v323 (stg_main_v212 V0)
theorem val7_main_v323 (V0 : Valuation τ sig (Elt F)) : val7 V0 (no_index (Proc.devRef .tc main_v323)) = stg_main_v323 V0 := by
  unfold val7
  exact (w_main_v323 _).trans (by simp only [val6_main_v212]; rfl)

/-- `main_v327`'s term of the launch contents. -/
def stg_main_v327 (V0 : Valuation τ sig (Elt F)) : (⟨S64x64, .f32⟩ : BufTy).Contents (Elt F) :=
  g_main_v327 (stg_main_v212 V0)
theorem val7_main_v327 (V0 : Valuation τ sig (Elt F)) : val7 V0 (no_index (Proc.devRef .tc main_v327)) = stg_main_v327 V0 := by
  unfold val7
  exact (w_main_v327 _).trans (by simp only [val6_main_v212]; rfl)

/-- `main_cst_89`'s term of the launch contents. -/
def stg_main_cst_89 (V0 : Valuation τ sig (Elt F)) : (⟨S_, .f32⟩ : BufTy).Contents (Elt F) :=
  g_main_cst_89
theorem val7_main_cst_89 (V0 : Valuation τ sig (Elt F)) : val7 V0 (no_index (Proc.devRef .tc main_cst_89)) = stg_main_cst_89 V0 := by
  unfold val7
  exact (w_main_cst_89 _).trans (by rfl)

/-- `main_v345`'s term of the launch contents. -/
def stg_main_v345 (V0 : Valuation τ sig (Elt F)) : (⟨S64x64, .f32⟩ : BufTy).Contents (Elt F) :=
  g_main_v345 (stg_main_v295 V0) (stg_main_v323 V0) (stg_main_v327 V0) (stg_main_cst_89 V0) (V0 (Proc.devRef .tc main_arg20)) (V0 (Proc.devRef .tc main_arg21))
theorem val8_main_v345 (V0 : Valuation τ sig (Elt F)) : val8 V0 (no_index (Proc.devRef .tc main_v345)) = stg_main_v345 V0 := by
  unfold val8
  exact (w_main_v345 _).trans (by simp only [val7_main_v295, val7_main_v323, val7_main_v327, val7_main_cst_89, val7_main_arg20, val7_main_arg21]; rfl)

/-! ## The results -/

set_option maxRecDepth 8192 in
/-- `main_v345`'s composed term of the arguments. -/
def res_main_v345 (m : (ℓ : Loc nD τ sig) → Buf (Elt F) ℓ) (c : Dev nD) : Buf (Elt F) ((c.tc : Thread nD τ).loc main_v345) :=
  addf (mulf (mulf (subf (maximumf (addf (Host.dotGeneral dot_S64x128_S128x64_S64x64_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg12))) (broadcastInDim S64x64 ![0, 1] bcast_S1x64_S64x64_0_1 (broadcastInDim S1x64 ![1] bcast_S64_S1x64_1 (m ((c.tc : Thread nD τ).loc main_arg13))))) (broadcastInDim S64x64 ![] bcast_S_S64x64 (constant S_ .f32 0x00000000#32))) (broadcastInDim S64x64 ![0, 1] bcast_S1x64_S64x64_0_1 (broadcastInDim S1x64 ![1] bcast_S64_S1x64_1 (Host.divf (Host.reduceAdd (maximumf (addf (Host.dotGeneral dot_S64x128_S128x64_S64x64_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg12))) (broadcastInDim S64x64 ![0, 1] bcast_S1x64_S64x64_0_1 (broadcastInDim S1x64 ![1] bcast_S64_S1x64_1 (m ((c.tc : Thread nD τ).loc main_arg13))))) (broadcastInDim S64x64 ![] bcast_S_S64x64 (constant S_ .f32 0x00000000#32))) (constant S_ .f32 0x00000000#32) reducesTo_S64x64_S64_d0 h_S_) (broadcastInDim S64 ![] bcast_S_S64 (constant S_ .f32 0x42800000#32)))))) (broadcastInDim S64x64 ![0, 1] bcast_S1x64_S64x64_0_1 (broadcastInDim S1x64 ![1] bcast_S64_S1x64_1 (Host.rsqrt (addf (Host.divf (Host.reduceAdd (mulf (subf (maximumf (addf (Host.dotGeneral dot_S64x128_S128x64_S64x64_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg12))) (broadcastInDim S64x64 ![0, 1] bcast_S1x64_S64x64_0_1 (broadcastInDim S1x64 ![1] bcast_S64_S1x64_1 (m ((c.tc : Thread nD τ).loc main_arg13))))) (broadcastInDim S64x64 ![] bcast_S_S64x64 (constant S_ .f32 0x00000000#32))) (broadcastInDim S64x64 ![0, 1] bcast_S1x64_S64x64_0_1 (broadcastInDim S1x64 ![1] bcast_S64_S1x64_1 (Host.divf (Host.reduceAdd (maximumf (addf (Host.dotGeneral dot_S64x128_S128x64_S64x64_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg12))) (broadcastInDim S64x64 ![0, 1] bcast_S1x64_S64x64_0_1 (broadcastInDim S1x64 ![1] bcast_S64_S1x64_1 (m ((c.tc : Thread nD τ).loc main_arg13))))) (broadcastInDim S64x64 ![] bcast_S_S64x64 (constant S_ .f32 0x00000000#32))) (constant S_ .f32 0x00000000#32) reducesTo_S64x64_S64_d0 h_S_) (broadcastInDim S64 ![] bcast_S_S64 (constant S_ .f32 0x42800000#32)))))) (subf (maximumf (addf (Host.dotGeneral dot_S64x128_S128x64_S64x64_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg12))) (broadcastInDim S64x64 ![0, 1] bcast_S1x64_S64x64_0_1 (broadcastInDim S1x64 ![1] bcast_S64_S1x64_1 (m ((c.tc : Thread nD τ).loc main_arg13))))) (broadcastInDim S64x64 ![] bcast_S_S64x64 (constant S_ .f32 0x00000000#32))) (broadcastInDim S64x64 ![0, 1] bcast_S1x64_S64x64_0_1 (broadcastInDim S1x64 ![1] bcast_S64_S1x64_1 (Host.divf (Host.reduceAdd (maximumf (addf (Host.dotGeneral dot_S64x128_S128x64_S64x64_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg12))) (broadcastInDim S64x64 ![0, 1] bcast_S1x64_S64x64_0_1 (broadcastInDim S1x64 ![1] bcast_S64_S1x64_1 (m ((c.tc : Thread nD τ).loc main_arg13))))) (broadcastInDim S64x64 ![] bcast_S_S64x64 (constant S_ .f32 0x00000000#32))) (constant S_ .f32 0x00000000#32) reducesTo_S64x64_S64_d0 h_S_) (broadcastInDim S64 ![] bcast_S_S64 (constant S_ .f32 0x42800000#32))))))) (constant S_ .f32 0x00000000#32) reducesTo_S64x64_S64_d0 h_S_) (broadcastInDim S64 ![] bcast_S_S64 (constant S_ .f32 0x42800000#32))) (broadcastInDim S64 ![] bcast_S_S64 (constant S_ .f32 0x3727C5AC#32))))))) (broadcastInDim S64x64 ![0, 1] bcast_S1x64_S64x64_0_1 (broadcastInDim S1x64 ![1] bcast_S64_S1x64_1 (m ((c.tc : Thread nD τ).loc main_arg20))))) (broadcastInDim S64x64 ![0, 1] bcast_S1x64_S64x64_0_1 (broadcastInDim S1x64 ![1] bcast_S64_S1x64_1 (m ((c.tc : Thread nD τ).loc main_arg21))))

/-- The second value @main returns. -/
abbrev res_out1 (m : (ℓ : Loc nD τ sig) → Buf (Elt F) ℓ) (c : Dev nD) : Buf (Elt F) ((c.tc : Thread nD τ).loc main_v345) := res_main_v345 m c

set_option maxRecDepth 8192 in
/-- `main_v320`'s composed term of the arguments. -/
def res_main_v320 (m : (ℓ : Loc nD τ sig) → Buf (Elt F) ℓ) (c : Dev nD) : Buf (Elt F) ((c.tc : Thread nD τ).loc main_v320) :=
  addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (addf (mulf (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (broadcastInDim S64x128 ![0, 1] bcast_S1x128_S64x128_0_1 (broadcastInDim S1x128 ![1] bcast_S128_S1x128_1 (Host.rsqrt (addf (Host.divf (Host.reduceAdd (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32))))))) (constant S_ .f32 0x00000000#32) reducesTo_S64x128_S128_d0 h_S_) (broadcastInDim S128 ![] bcast_S_S128 (constant S_ .f32 0x42800000#32))) (broadcastInDim S128 ![] bcast_S_S128 (constant S_ .f32 0x3727C5AC#32))))))) (broadcastInDim S64x128 ![0, 1] bcast_S1x128_S64x128_0_1 (broadcastInDim S1x128 ![1] bcast_S128_S1x128_1 (m ((c.tc : Thread nD τ).loc main_arg10))))) (broadcastInDim S64x128 ![0, 1] bcast_S1x128_S64x128_0_1 (broadcastInDim S1x128 ![1] bcast_S128_S1x128_1 (m ((c.tc : Thread nD τ).loc main_arg11))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg14))) (broadcastInDim S100000x128 ![0, 1] bcast_S1x128_S100000x128_0_1 (broadcastInDim S1x128 ![1] bcast_S128_S1x128_1 (m ((c.tc : Thread nD τ).loc main_arg15))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg16))) (broadcastInDim S100000x128 ![0, 1] bcast_S1x128_S100000x128_0_1 (broadcastInDim S1x128 ![1] bcast_S128_S1x128_1 (m ((c.tc : Thread nD τ).loc main_arg17))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (addf (mulf (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (broadcastInDim S64x128 ![0, 1] bcast_S1x128_S64x128_0_1 (broadcastInDim S1x128 ![1] bcast_S128_S1x128_1 (Host.rsqrt (addf (Host.divf (Host.reduceAdd (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32))))))) (constant S_ .f32 0x00000000#32) reducesTo_S64x128_S128_d0 h_S_) (broadcastInDim S128 ![] bcast_S_S128 (constant S_ .f32 0x42800000#32))) (broadcastInDim S128 ![] bcast_S_S128 (constant S_ .f32 0x3727C5AC#32))))))) (broadcastInDim S64x128 ![0, 1] bcast_S1x128_S64x128_0_1 (broadcastInDim S1x128 ![1] bcast_S128_S1x128_1 (m ((c.tc : Thread nD τ).loc main_arg10))))) (broadcastInDim S64x128 ![0, 1] bcast_S1x128_S64x128_0_1 (broadcastInDim S1x128 ![1] bcast_S128_S1x128_1 (m ((c.tc : Thread nD τ).loc main_arg11))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg14))) (broadcastInDim S100000x128 ![0, 1] bcast_S1x128_S100000x128_0_1 (broadcastInDim S1x128 ![1] bcast_S128_S1x128_1 (m ((c.tc : Thread nD τ).loc main_arg15))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg16))) (broadcastInDim S100000x128 ![0, 1] bcast_S1x128_S100000x128_0_1 (broadcastInDim S1x128 ![1] bcast_S128_S1x128_1 (m ((c.tc : Thread nD τ).loc main_arg17))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (addf (mulf (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (broadcastInDim S64x128 ![0, 1] bcast_S1x128_S64x128_0_1 (broadcastInDim S1x128 ![1] bcast_S128_S1x128_1 (Host.rsqrt (addf (Host.divf (Host.reduceAdd (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32))))))) (constant S_ .f32 0x00000000#32) reducesTo_S64x128_S128_d0 h_S_) (broadcastInDim S128 ![] bcast_S_S128 (constant S_ .f32 0x42800000#32))) (broadcastInDim S128 ![] bcast_S_S128 (constant S_ .f32 0x3727C5AC#32))))))) (broadcastInDim S64x128 ![0, 1] bcast_S1x128_S64x128_0_1 (broadcastInDim S1x128 ![1] bcast_S128_S1x128_1 (m ((c.tc : Thread nD τ).loc main_arg10))))) (broadcastInDim S64x128 ![0, 1] bcast_S1x128_S64x128_0_1 (broadcastInDim S1x128 ![1] bcast_S128_S1x128_1 (m ((c.tc : Thread nD τ).loc main_arg11))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg14))) (broadcastInDim S100000x128 ![0, 1] bcast_S1x128_S100000x128_0_1 (broadcastInDim S1x128 ![1] bcast_S128_S1x128_1 (m ((c.tc : Thread nD τ).loc main_arg15))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg16))) (broadcastInDim S100000x128 ![0, 1] bcast_S1x128_S100000x128_0_1 (broadcastInDim S1x128 ![1] bcast_S128_S1x128_1 (m ((c.tc : Thread nD τ).loc main_arg17))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (addf (mulf (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (broadcastInDim S64x128 ![0, 1] bcast_S1x128_S64x128_0_1 (broadcastInDim S1x128 ![1] bcast_S128_S1x128_1 (Host.rsqrt (addf (Host.divf (Host.reduceAdd (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32))))))) (constant S_ .f32 0x00000000#32) reducesTo_S64x128_S128_d0 h_S_) (broadcastInDim S128 ![] bcast_S_S128 (constant S_ .f32 0x42800000#32))) (broadcastInDim S128 ![] bcast_S_S128 (constant S_ .f32 0x3727C5AC#32))))))) (broadcastInDim S64x128 ![0, 1] bcast_S1x128_S64x128_0_1 (broadcastInDim S1x128 ![1] bcast_S128_S1x128_1 (m ((c.tc : Thread nD τ).loc main_arg10))))) (broadcastInDim S64x128 ![0, 1] bcast_S1x128_S64x128_0_1 (broadcastInDim S1x128 ![1] bcast_S128_S1x128_1 (m ((c.tc : Thread nD τ).loc main_arg11))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg14))) (broadcastInDim S100000x128 ![0, 1] bcast_S1x128_S100000x128_0_1 (broadcastInDim S1x128 ![1] bcast_S128_S1x128_1 (m ((c.tc : Thread nD τ).loc main_arg15))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg16))) (broadcastInDim S100000x128 ![0, 1] bcast_S1x128_S100000x128_0_1 (broadcastInDim S1x128 ![1] bcast_S128_S1x128_1 (m ((c.tc : Thread nD τ).loc main_arg17))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (addf (mulf (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (broadcastInDim S64x128 ![0, 1] bcast_S1x128_S64x128_0_1 (broadcastInDim S1x128 ![1] bcast_S128_S1x128_1 (Host.rsqrt (addf (Host.divf (Host.reduceAdd (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32))))))) (constant S_ .f32 0x00000000#32) reducesTo_S64x128_S128_d0 h_S_) (broadcastInDim S128 ![] bcast_S_S128 (constant S_ .f32 0x42800000#32))) (broadcastInDim S128 ![] bcast_S_S128 (constant S_ .f32 0x3727C5AC#32))))))) (broadcastInDim S64x128 ![0, 1] bcast_S1x128_S64x128_0_1 (broadcastInDim S1x128 ![1] bcast_S128_S1x128_1 (m ((c.tc : Thread nD τ).loc main_arg10))))) (broadcastInDim S64x128 ![0, 1] bcast_S1x128_S64x128_0_1 (broadcastInDim S1x128 ![1] bcast_S128_S1x128_1 (m ((c.tc : Thread nD τ).loc main_arg11))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg14))) (broadcastInDim S100000x128 ![0, 1] bcast_S1x128_S100000x128_0_1 (broadcastInDim S1x128 ![1] bcast_S128_S1x128_1 (m ((c.tc : Thread nD τ).loc main_arg15))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg16))) (broadcastInDim S100000x128 ![0, 1] bcast_S1x128_S100000x128_0_1 (broadcastInDim S1x128 ![1] bcast_S128_S1x128_1 (m ((c.tc : Thread nD τ).loc main_arg17))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (addf (mulf (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (broadcastInDim S64x128 ![0, 1] bcast_S1x128_S64x128_0_1 (broadcastInDim S1x128 ![1] bcast_S128_S1x128_1 (Host.rsqrt (addf (Host.divf (Host.reduceAdd (mulf (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32)))))) (subf (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (broadcastInDim S64x128 ![0, 1] bcast_S1x128_S64x128_0_1 (broadcastInDim S1x128 ![1] bcast_S128_S1x128_1 (Host.divf (Host.reduceAdd (maximumf (addf (Host.dotGeneral dot_S64x128_S128x128_S64x128_1_0_0_1_n_n none (mulf (Host.scatterAdd scatter_S64x128_S100000x1_S100000x128_1_0_0_1 (broadcastInDim S64x128 ![] bcast_S_S64x128 (constant S_ .f32 0x00000000#32)) (broadcastInDim S100000x1 ![0] bcast_S100000_S100000x1_0 (m ((c.tc : Thread nD τ).loc main_arg22))) (Host.gather gather_S100000x128_S100000x1_S100000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S100000x1 ![0] bcast_S100000_S100000x1_0 (select (cmpi .slt (iotaInDim S100000 32 0) (broadcastInDim S100000 ![] bcast_S_S100000 (constantI S_ 32 0#32))) (addi (iotaInDim S100000 32 0) (broadcastInDim S100000 ![] bcast_S_S100000 (constantI S_ 32 100000#32))) (iotaInDim S100000 32 0))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (m ((c.tc : Thread nD τ).loc main_arg2))) (broadcastInDim S64x128 ![0, 1] bcast_S1x128_S64x128_0_1 (broadcastInDim S1x128 ![1] bcast_S128_S1x128_1 (m ((c.tc : Thread nD τ).loc main_arg3))))) (broadcastInDim S64x128 ![] bcast_S_S64x128 (constant S_ .f32 0x00000000#32))) (constant S_ .f32 0x00000000#32) reducesTo_S64x128_S128_d0 h_S_) (broadcastInDim S128 ![] bcast_S_S128 (constant S_ .f32 0x42800000#32))))))) (constant S_ .f32 0x00000000#32) reducesTo_S64x128_S128_d0 h_S_) (broadcastInDim S128 ![] bcast_S_S128 (constant S_ .f32 0x42800000#32))) (broadcastInDim S128 ![] bcast_S_S128 (constant S_ .f32 0x3727C5AC#32))))))) (broadcastInDim S64x128 ![0, 1] bcast_S1x128_S64x128_0_1 (broadcastInDim S1x128 ![1] bcast_S128_S1x128_1 (m ((c.tc : Thread nD τ).loc main_arg10))))) (broadcastInDim S64x128 ![0, 1] bcast_S1x128_S64x128_0_1 (broadcastInDim S1x128 ![1] bcast_S128_S1x128_1 (m ((c.tc : Thread nD τ).loc main_arg11))))) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg14))) (broadcastInDim S100000x128 ![0, 1] bcast_S1x128_S100000x128_0_1 (broadcastInDim S1x128 ![1] bcast_S128_S1x128_1 (m ((c.tc : Thread nD τ).loc main_arg15))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (addf (mulf (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32)))))) (subf (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (broadcastInDim S100000x128 ![0, 1] bcast_S1x128_S100000x128_0_1 (broadcastInDim S1x128 ![1] bcast_S128_S1x128_1 (Host.divf (Host.reduceAdd (maximumf (mulf (broadcastInDim S100000x128 ![] bcast_S_S100000x128 (constant S_ .f32 0x3F000000#32)) (addf (addf (Host.dotGeneral dot_S100000x128_S128x128_S100000x128_1_0_0_1_n_n none (mulf (Host.scatterAdd scatter_S100000x128_S100000x1_S100000x128_1_0_0_1 (broadcastInDim S100000x128 ![] bcast_S_S100000x128 (constant S_ .f32 0x00000000#32)) (broadcastInDim S100000x1 ![0] bcast_S100000_S100000x1_0 (iotaInDim S100000 32 0)) (Host.gather gather_S64x128_S100000x1_S100000x128_1_0_n_n_0_1_1128 (mulf (m ((c.tc : Thread nD τ).loc main_arg1)) (broadcastInDim S64x128 ![0, 1] bcast_S64x1_S64x128_0_1 (broadcastInDim S64x1 ![0] bcast_S64_S64x1_0 (select (cmpf (F := F) .ogt (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x00000000#32))) (Host.rsqrt (maximumf (Host.scatterAdd scatter_S64_S100000x1_S100000_n_0_0_1 (broadcastInDim S64 ![] bcast_S_S64 (constant S_ .f32 0x00000000#32)) (broadcastInDim S100000x1 ![0] bcast_S100000_S100000x1_0 (m ((c.tc : Thread nD τ).loc main_arg22))) (broadcastInDim S100000 ![] bcast_S_S100000 (constant S_ .f32 0x3F800000#32))) (broadcastInDim S64 ![] bcast_S_S64 (constant S_ .f32 0x3F800000#32)))) (broadcastInDim S64 ![] bcast_S_S64 (id (constant S_ .f32 0x00000000#32))))))) (broadcastInDim S100000x1 ![0] bcast_S100000_S100000x1_0 (select (cmpi .slt (m ((c.tc : Thread nD τ).loc main_arg22)) (broadcastInDim S100000 ![] bcast_S_S100000 (constantI S_ 32 0#32))) (addi (m ((c.tc : Thread nD τ).loc main_arg22)) (broadcastInDim S100000 ![] bcast_S_S100000 (constantI S_ 32 64#32))) (m ((c.tc : Thread nD τ).loc main_arg22)))))) (broadcastInDim S100000x128 ![0, 1] bcast_S100000x1_S100000x128_0_1 (broadcastInDim S100000x1 ![0] bcast_S100000_S100000x1_0 (select (cmpf (F := F) .ogt (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x00000000#32))) (Host.rsqrt (maximumf (Host.scatterAdd scatter_S100000_S100000x1_S100000_n_0_0_1 (broadcastInDim S100000 ![] bcast_S_S100000 (constant S_ .f32 0x00000000#32)) (broadcastInDim S100000x1 ![0] bcast_S100000_S100000x1_0 (iotaInDim S100000 32 0)) (broadcastInDim S100000 ![] bcast_S_S100000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg4))) (broadcastInDim S100000x128 ![0, 1] bcast_S1x128_S100000x128_0_1 (broadcastInDim S1x128 ![1] bcast_S128_S1x128_1 (m ((c.tc : Thread nD τ).loc main_arg5))))) (addf (Host.dotGeneral dot_S100000x128_S128x128_S100000x128_1_0_0_1_n_n none (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg24))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg6))) (broadcastInDim S100000x128 ![0, 1] bcast_S1x128_S100000x128_0_1 (broadcastInDim S1x128 ![1] bcast_S128_S1x128_1 (m ((c.tc : Thread nD τ).loc main_arg7))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg8))))) (broadcastInDim S100000x128 ![0, 1] bcast_S1x128_S100000x128_0_1 (broadcastInDim S1x128 ![1] bcast_S128_S1x128_1 (m ((c.tc : Thread nD τ).loc main_arg9))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg23))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt (m ((c.tc : Thread nD τ).loc main_arg23)) (broadcastInDim S1600000 ![] bcast_S_S1600000 (constantI S_ 32 0#32))) (addi (m ((c.tc : Thread nD τ).loc main_arg23)) (broadcastInDim S1600000 ![] bcast_S_S1600000 (constantI S_ 32 100000#32))) (m ((c.tc : Thread nD τ).loc main_arg23)))))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg24))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (m ((c.tc : Thread nD τ).loc main_arg16))) (broadcastInDim S100000x128 ![0, 1] bcast_S1x128_S100000x128_0_1 (broadcastInDim S1x128 ![1] bcast_S128_S1x128_1 (m ((c.tc : Thread nD τ).loc main_arg17))))))) (broadcastInDim S100000x128 ![] bcast_S_S100000x128 (constant S_ .f32 0x00000000#32))) (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (m ((c.tc : Thread nD τ).loc main_arg18))))) (broadcastInDim S100000x128 ![0, 1] bcast_S1x128_S100000x128_0_1 (broadcastInDim S1x128 ![1] bcast_S128_S1x128_1 (m ((c.tc : Thread nD τ).loc main_arg19))))

/-- The first value @main returns. -/
abbrev res_out0 (m : (ℓ : Loc nD τ sig) → Buf (Elt F) ℓ) (c : Dev nD) : Buf (Elt F) ((c.tc : Thread nD τ).loc main_v320) := res_main_v320 m c

set_option maxRecDepth 16384 in
set_option maxHeartbeats 16000000 in
/-- The staged term of `main_v320` at the launch contents is the composed term: the stages unfold. -/
theorem stg_main_v320_eq (m : (ℓ : Loc nD τ sig) → Buf (Elt F) ℓ) (c : Dev nD) :
    stg_main_v320 (launchContents m c) = res_main_v320 m c := by
  unfold res_main_v320
  rfl

set_option maxRecDepth 16384 in
set_option maxHeartbeats 16000000 in
/-- The staged term of `main_v345` at the launch contents is the composed term: the stages unfold. -/
theorem stg_main_v345_eq (m : (ℓ : Loc nD τ sig) → Buf (Elt F) ℓ) (c : Dev nD) :
    stg_main_v345 (launchContents m c) = res_main_v345 m c := by
  unfold res_main_v345
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v320) = res_main_v320 m c
      ∧ r.2.mem ((c.tc : Thread nD τ).loc main_v345) = res_main_v345 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v320).trans ((congrFun (after_ops _) _).trans ((val8_main_v320 _).trans (stg_main_v320_eq m c))),
      (h c main_v345).trans ((congrFun (after_ops _) _).trans ((val8_main_v345 _).trans (stg_main_v345_eq m c))),
      (h c main_arg0).trans ((congrFun (after_ops _) _).trans (val8_main_arg0 _)),
      (h c main_arg1).trans ((congrFun (after_ops _) _).trans (val8_main_arg1 _)),
      (h c main_arg2).trans ((congrFun (after_ops _) _).trans (val8_main_arg2 _)),
      (h c main_arg3).trans ((congrFun (after_ops _) _).trans (val8_main_arg3 _)),
      (h c main_arg4).trans ((congrFun (after_ops _) _).trans (val8_main_arg4 _)),
      (h c main_arg5).trans ((congrFun (after_ops _) _).trans (val8_main_arg5 _)),
      (h c main_arg6).trans ((congrFun (after_ops _) _).trans (val8_main_arg6 _)),
      (h c main_arg7).trans ((congrFun (after_ops _) _).trans (val8_main_arg7 _)),
      (h c main_arg8).trans ((congrFun (after_ops _) _).trans (val8_main_arg8 _)),
      (h c main_arg9).trans ((congrFun (after_ops _) _).trans (val8_main_arg9 _)),
      (h c main_arg10).trans ((congrFun (after_ops _) _).trans (val8_main_arg10 _)),
      (h c main_arg11).trans ((congrFun (after_ops _) _).trans (val8_main_arg11 _)),
      (h c main_arg12).trans ((congrFun (after_ops _) _).trans (val8_main_arg12 _)),
      (h c main_arg13).trans ((congrFun (after_ops _) _).trans (val8_main_arg13 _)),
      (h c main_arg14).trans ((congrFun (after_ops _) _).trans (val8_main_arg14 _)),
      (h c main_arg15).trans ((congrFun (after_ops _) _).trans (val8_main_arg15 _)),
      (h c main_arg16).trans ((congrFun (after_ops _) _).trans (val8_main_arg16 _)),
      (h c main_arg17).trans ((congrFun (after_ops _) _).trans (val8_main_arg17 _)),
      (h c main_arg18).trans ((congrFun (after_ops _) _).trans (val8_main_arg18 _)),
      (h c main_arg19).trans ((congrFun (after_ops _) _).trans (val8_main_arg19 _)),
      (h c main_arg20).trans ((congrFun (after_ops _) _).trans (val8_main_arg20 _)),
      (h c main_arg21).trans ((congrFun (after_ops _) _).trans (val8_main_arg21 _)),
      (h c main_arg22).trans ((congrFun (after_ops _) _).trans (val8_main_arg22 _)),
      (h c main_arg23).trans ((congrFun (after_ops _) _).trans (val8_main_arg23 _)),
      (h c main_arg24).trans ((congrFun (after_ops _) _).trans (val8_main_arg24 _))⟩)
    (run_seq scopedRefs_eq scopedSems_eq defs main (fun _ => ops) main_eq (fun _ => ops_sub) m ρ (fun _ => ops_fresh))

end Cert.ReferenceIdeal.ValueB

end
-- ==== Proof.RefLeg.lean ====
/- The reference's run read back, window by window, and its stages read at an index: the modules every reference-side lemma of
   this certificate is stated over. -/
import proofs.«405200_j27075473834261_2_alg».proof.Proof.RefRunB
import proofs.«405200_j27075473834261_2_alg».proof.Proof.RefRead
-- ==== Proof.Spec.lean ====
/-
  The mathematics both programs compute, at the ideal instance (extended reals), as plain functions of coordinates.

  A two-layer heterogeneous graph convolution over 100000 sequence nodes (128 features) and 64 label nodes. Each layer has three
  relations: "belongs to" (a sequence node sends its row to its label: a segment sum over the nodes of each label, scaled by
  count^(-1/2), then a dense map and ReLU), "including" (a label sends its scaled row back to each of its sequence nodes, then a
  dense map) and "connected to" (an edge list over sequence nodes: the same operator `con` on both sides, carried abstractly); the
  sequence side averages the last two and applies ReLU. Each layer is followed by a batch normalisation over the node axis.

  Two spellings meet here. The kernel selects a label's row by a product with the label's indicator row and sums over labels; the
  reference looks the row up. The kernel's variance is E[x²] − (E x)², the reference's E[(x − E x)²]. The lemmas joining them are
  in the modules that import this one; here are only the definitions.
-/
import Idealize.ShloMosaic.PureOps.Ideal
import Idealize.ShloMosaic.Lib.ValueIdx

noncomputable section

open scoped BigOperators

namespace Cert.Hgcn

open Idealize.ShloMosaic

/-- An extended real that is a real number. -/
def IsReal (x : EReal) : Prop := ∃ r : ℝ, (r : EReal) = x

/-- Every entry of a matrix is a real number. -/
def AllReal2 {a b : ℕ} (x : Fin a → Fin b → EReal) : Prop := ∀ i j, IsReal (x i j)
/-- Every entry of a vector is a real number. -/
def AllReal1 {a : ℕ} (x : Fin a → EReal) : Prop := ∀ i, IsReal (x i)

/-- The literal one half, as the word both programs carry. -/
abbrev half : EReal := Ideal.ofBits .f32 0x3F000000#32
/-- The batch normalisation's epsilon, as the word both programs carry. -/
abbrev bnEps : EReal := Ideal.ofBits .f32 0x3727C5AC#32
/-- The number of sequence nodes as a float, as the word both programs carry. -/
abbrev nSeq : EReal := Ideal.ofBits .f32 0x47C35000#32

/-- The indicator that the label word `w` names label `l`. -/
def hot (w : BitVec 32) (l : Fin 64) : EReal := if w = BitVec.ofNat 32 l.val then 1 else 0

/-- degree^(-1/2), zero at degree zero: `where(d > 0, rsqrt(max(d, 1)), 0)`. -/
def invSqrtDeg (d : EReal) : EReal := if 0 < d then Ideal.rsqrt (max d 1) else 0

/-- The number of sequence nodes carrying label `l`. -/
def cnt (lab : Fin 100000 → BitVec 32) (l : Fin 64) : EReal := ∑ i, hot (lab i) l

/-- count^(-1/2) of a label. -/
def labScale (lab : Fin 100000 → BitVec 32) (l : Fin 64) : EReal := invSqrtDeg (cnt lab l)

/-- The sum of the rows of `x` whose node carries label `l`. -/
def belAgg (lab : Fin 100000 → BitVec 32) (x : Fin 100000 → Fin 128 → EReal) (l : Fin 64) (k : Fin 128) : EReal :=
  ∑ i, hot (lab i) l * x i k

/-- "belongs to": `relu((agg * scale) · W + b)` on the label side. -/
def labOut {n : ℕ} (agg : Fin 64 → Fin 128 → EReal) (s : Fin 64 → EReal) (W : Fin 128 → Fin n → EReal) (b : Fin n → EReal)
    (l : Fin 64) (j : Fin n) : EReal :=
  max ((∑ k, (agg l k * s l) * W k j) + b j) 0

/-- The label table the kernel precomputes for "including": `(h_lab * scale) · Wi`. -/
def incTable (hl : Fin 64 → Fin 128 → EReal) (s : Fin 64 → EReal) (Wi : Fin 128 → Fin 128 → EReal) (l : Fin 64) (j : Fin 128) : EReal :=
  ∑ k, (hl l k * s l) * Wi k j

/-- "including", the kernel's spelling: the indicator row of the node's label times the table, plus the bias. -/
def incK (lab : Fin 100000 → BitVec 32) (M : Fin 64 → Fin 128 → EReal) (bi : Fin 128 → EReal) (i : Fin 100000) (j : Fin 128) : EReal :=
  (∑ l, hot (lab i) l * M l j) + bi j

/-- "including", the reference's spelling: the node's label's scaled row (times the node's own in-degree scale, which is 1),
    through the dense map, plus the bias. -/
def incR (ℓ : Fin 100000 → Fin 64) (hl : Fin 64 → Fin 128 → EReal) (s : Fin 64 → EReal) (Wi : Fin 128 → Fin 128 → EReal)
    (bi : Fin 128 → EReal) (i : Fin 100000) (j : Fin 128) : EReal :=
  (∑ k, ((hl (ℓ i) k * s (ℓ i)) * 1) * Wi k j) + bi j

/-- "connected to" after its aggregate `c`: `c · Wc + bc`. -/
def conDense (c : Fin 100000 → Fin 128 → EReal) (Wc : Fin 128 → Fin 128 → EReal) (bc : Fin 128 → EReal) (i : Fin 100000) (j : Fin 128) : EReal :=
  (∑ k, c i k * Wc k j) + bc j

/-- The sequence side of a layer: `relu(½ · (inc + con))`. -/
def seqOut (inc con : Fin 100000 → Fin 128 → EReal) (i : Fin 100000) (j : Fin 128) : EReal :=
  max (half * (inc i j + con i j)) 0

/-! ## Batch normalisation over the node axis -/

/-- Column sums. -/
def colSum {n : ℕ} (x : Fin n → Fin 128 → EReal) (d : Fin 128) : EReal := ∑ i, x i d
/-- Column sums of squares. -/
def colSumSq {n : ℕ} (x : Fin n → Fin 128 → EReal) (d : Fin 128) : EReal := ∑ i, x i d * x i d

/-- The column mean of the 100000-row array: the sum over the count. -/
def meanS (x : Fin 100000 → Fin 128 → EReal) (d : Fin 128) : EReal := Ideal.div (colSum x d) nSeq
/-- The kernel's variance: `E[x²] − (E x)²`. -/
def varK (x : Fin 100000 → Fin 128 → EReal) (d : Fin 128) : EReal := Ideal.div (colSumSq x d) nSeq - meanS x d * meanS x d
/-- The reference's variance: `E[(x − E x)²]`. -/
def varR (x : Fin 100000 → Fin 128 → EReal) (d : Fin 128) : EReal :=
  Ideal.div (∑ i, (x i d - meanS x d) * (x i d - meanS x d)) nSeq

/-- `(x − mean) · invstd · g + b`, in that order. -/
def bnApply {n : ℕ} (x : Fin n → Fin 128 → EReal) (mean invstd g b : Fin 128 → EReal) (i : Fin n) (d : Fin 128) : EReal :=
  (x i d - mean d) * invstd d * g d + b d

/-- The sequence side's batch normalisation, the kernel's spelling. -/
def bnSeqK (x : Fin 100000 → Fin 128 → EReal) (g b : Fin 128 → EReal) : Fin 100000 → Fin 128 → EReal :=
  bnApply x (meanS x) (fun d => Ideal.rsqrt (varK x d + bnEps)) g b
/-- The sequence side's batch normalisation, the reference's spelling. -/
def bnSeqR (x : Fin 100000 → Fin 128 → EReal) (g b : Fin 128 → EReal) : Fin 100000 → Fin 128 → EReal :=
  bnApply x (meanS x) (fun d => Ideal.rsqrt (varR x d + bnEps)) g b

/-! ## The label side's batch normalisation (64 rows; the same operations in both programs) -/

/-- The number of label nodes as a float, as the word both programs carry. -/
abbrev nLab : EReal := Ideal.ofBits .f32 0x42800000#32

/-- The column mean over the 64 label rows. -/
def meanL {n : ℕ} (x : Fin 64 → Fin n → EReal) (d : Fin n) : EReal := Ideal.div (∑ i, x i d) nLab
/-- The column variance over the 64 label rows, centred. -/
def varL {n : ℕ} (x : Fin 64 → Fin n → EReal) (d : Fin n) : EReal :=
  Ideal.div (∑ i, (x i d - meanL x d) * (x i d - meanL x d)) nLab
/-- `(x − mean) · rsqrt(var + ε) · g + b` over the 64 label rows. -/
def bnLab {n : ℕ} (x : Fin 64 → Fin n → EReal) (g b : Fin n → EReal) (i : Fin 64) (d : Fin n) : EReal :=
  (x i d - meanL x d) * Ideal.rsqrt (varL x d + bnEps) * g d + b d

end Cert.Hgcn

end
-- ==== Proof.ConOp.lean ====
/-
  The "connected to" aggregate of a layer, and the label side's batch normalisation, each as the ONE chain of array operations both
  programs apply.

  "connected to": every node's row is scaled by its out-degree^(-1/2), the scaled rows are looked up at the edges' sources and summed
  into the edges' targets, and the sums are scaled by the targets' in-degree^(-1/2) (the degrees count the edge list's entries, a
  degree of zero scales by zero). The chain is never opened: both programs apply it to equal features at equal index arrays, and all
  that is used of it is that it maps a matrix of real numbers to a matrix of real numbers — a finite sum of reals is real, a looked-up
  row is a row, a product of reals is real.

  The label side's batch normalisation (64 rows): the column mean, the centred column variance, and
  `(x − mean) · rsqrt(var + ε) · g + b`; read at an index it is `bnLab`.
-/
import proofs.«405200_j27075473834261_2_alg».proof.Proof.Spec
import Idealize.ShloMosaic.PureOps.Contract
import Idealize.ShloMosaic.PureOps.ShapeOps
import Idealize.ShloMosaic.PureOps.Vector
import Idealize.ShloMosaic.PureOps.Ideal.Laws
import Idealize.ShloMosaic.Lib.IdealHost
import Idealize.ShloMosaic.Lib.ValueIdx

noncomputable section

open scoped BigOperators

namespace Cert.Hgcn

open Idealize.ShloMosaic Idealize.ShloMosaic.ValueIdx

/-! ## The shapes -/

/-- A scalar. -/
abbrev Sc : Shape := ⟨0, ![]⟩
/-- One entry per edge. -/
abbrev SE : Shape := ⟨1, ![1600000]⟩
/-- One index vector of length one per edge. -/
abbrev SE1 : Shape := ⟨2, ![1600000, 1]⟩
/-- One feature row per edge. -/
abbrev SEF : Shape := ⟨2, ![1600000, 128]⟩
/-- One entry per node. -/
abbrev SN : Shape := ⟨1, ![100000]⟩
/-- One entry per node, as a column. -/
abbrev SN1 : Shape := ⟨2, ![100000, 1]⟩
/-- One feature row per node. -/
abbrev SNF : Shape := ⟨2, ![100000, 128]⟩

/-- The dimension numbers of the chain's scatters and of its gather, and the shape facts of its broadcasts, as a program states them. -/
structure ConDims where
  /-- the degree count: ones scattered into the nodes -/
  sdeg : ScatterDims SN SE1 SE
  /-- the rows looked up at the edges' sources -/
  gat : GatherDims SNF SE1 SEF
  /-- the looked-up rows summed into the edges' targets -/
  sfeat : ScatterDims SNF SE1 SEF
  b_e : Sc.BroadcastsInDim SE (![] : Fin 0 → Fin SE.rank)
  b_n : Sc.BroadcastsInDim SN (![] : Fin 0 → Fin SN.rank)
  b_nf0 : Sc.BroadcastsInDim SNF (![] : Fin 0 → Fin SNF.rank)
  b_e1 : SE.BroadcastsInDim SE1 (![0] : Fin 1 → Fin SE1.rank)
  b_n1 : SN.BroadcastsInDim SN1 (![0] : Fin 1 → Fin SN1.rank)
  b_nf : SN1.BroadcastsInDim SNF (![0, 1] : Fin 2 → Fin SNF.rank)

section Chain

variable {F : FTy → Type} [FloatOps F]

/-- degree^(-1/2) entry by entry, zero at degree zero: `where(d > 0, rsqrt(max(d, 1)), 0)`. -/
def invSqrtDegV {s : Shape} (hb : Sc.BroadcastsInDim s (![] : Fin 0 → Fin s.rank)) (d : FVec F s .f32) : FVec F s .f32 :=
  select (cmpf .ogt d (broadcastInDim s ![] hb (constant Sc .f32 0x00000000#32)))
    (Host.rsqrt (maximumf d (broadcastInDim s ![] hb (constant Sc .f32 0x3F800000#32))))
    (broadcastInDim s ![] hb (constant Sc .f32 0x00000000#32))

/-- A node's degree along an index array of the edge list: ones summed into the nodes the entries name. -/
def degN (D : ConDims) (idx : IVec SE 32) : FVec F SN .f32 :=
  Host.scatterAdd D.sdeg (broadcastInDim SN ![] D.b_n (constant Sc .f32 0x00000000#32)) (broadcastInDim SE1 ![0] D.b_e1 idx)
    (broadcastInDim SE ![] D.b_e (constant Sc .f32 0x3F800000#32))

/-- An index counted from the end when negative: `where(i < 0, i + 100000, i)`. -/
def wrapIdx (D : ConDims) (idx : IVec SE 32) : IVec SE 32 :=
  select (cmpi .slt idx (broadcastInDim SE ![] D.b_e (constantI Sc 32 0#32)))
    (addi idx (broadcastInDim SE ![] D.b_e (constantI Sc 32 100000#32))) idx

/-- A per-node scale spread over the node's feature row. -/
def rowScale (D : ConDims) (v : FVec F SN .f32) : FVec F SNF .f32 :=
  broadcastInDim SNF ![0, 1] D.b_nf (broadcastInDim SN1 ![0] D.b_n1 v)

/-- The aggregate at given per-node scales: `(scatter-add at dst of (x · sOut)[src]) · sIn`. -/
def conAgg (D : ConDims) (sOut sIn : FVec F SN .f32) (src dst : IVec SE 32) (x : FVec F SNF .f32) : FVec F SNF .f32 :=
  mulf
    (Host.scatterAdd D.sfeat (broadcastInDim SNF ![] D.b_nf0 (constant Sc .f32 0x00000000#32)) (broadcastInDim SE1 ![0] D.b_e1 dst)
      (Host.gather D.gat (mulf x (rowScale D sOut)) (broadcastInDim SE1 ![0] D.b_e1 (wrapIdx D src))))
    (rowScale D sIn)

/-- The "connected to" aggregate: `(scatter-add at dst of (x · outdeg^(-1/2))[src]) · indeg^(-1/2)`. -/
def conOp (D : ConDims) (src dst : IVec SE 32) (x : FVec F SNF .f32) : FVec F SNF .f32 :=
  conAgg D (invSqrtDegV D.b_n (degN D src)) (invSqrtDegV D.b_n (degN D dst)) src dst x

/-! ## The label side's batch normalisation, as array operations -/

/-- One entry per column. -/
abbrev Sv (n : ℕ) : Shape := ⟨1, ![n]⟩
/-- One row of columns. -/
abbrev S1v (n : ℕ) : Shape := ⟨2, ![1, n]⟩
/-- The 64 label rows. -/
abbrev SLv (n : ℕ) : Shape := ⟨2, ![64, n]⟩

/-- A per-column vector spread over the 64 rows. -/
def rowsOf {n : ℕ} (h1 : (Sv n).BroadcastsInDim (S1v n) (![1] : Fin 1 → Fin (S1v n).rank))
    (h2 : (S1v n).BroadcastsInDim (SLv n) (![0, 1] : Fin 2 → Fin (SLv n).rank)) (v : FVec F (Sv n) .f32) : FVec F (SLv n) .f32 :=
  broadcastInDim (SLv n) ![0, 1] h2 (broadcastInDim (S1v n) ![1] h1 v)

/-- The column sums over the 64 rows, divided by 64. -/
def meanLOp {n : ℕ} (hr : (SLv n).ReducesTo [0] (Sv n)) (hS : 0 < Sc.numel) (hb : Sc.BroadcastsInDim (Sv n) (![] : Fin 0 → Fin (Sv n).rank))
    (x : FVec F (SLv n) .f32) : FVec F (Sv n) .f32 :=
  Host.divf (Host.reduceAdd x (constant Sc .f32 0x00000000#32) hr hS) (broadcastInDim (Sv n) ![] hb (constant Sc .f32 0x42800000#32))

/-- The label side's batch normalisation: `(x − mean) · rsqrt(mean((x − mean)²) + ε) · g + b`, in the programs' order of operations. -/
def bnLabOp {n : ℕ} (hr : (SLv n).ReducesTo [0] (Sv n)) (hS : 0 < Sc.numel) (hb : Sc.BroadcastsInDim (Sv n) (![] : Fin 0 → Fin (Sv n).rank))
    (h1 : (Sv n).BroadcastsInDim (S1v n) (![1] : Fin 1 → Fin (S1v n).rank))
    (h2 : (S1v n).BroadcastsInDim (SLv n) (![0, 1] : Fin 2 → Fin (SLv n).rank))
    (x : FVec F (SLv n) .f32) (g b : FVec F (Sv n) .f32) : FVec F (SLv n) .f32 :=
  addf
    (mulf
      (mulf (subf x (rowsOf h1 h2 (meanLOp hr hS hb x)))
        (rowsOf h1 h2 (Host.rsqrt (addf
          (Host.divf
            (Host.reduceAdd (mulf (subf x (rowsOf h1 h2 (meanLOp hr hS hb x))) (subf x (rowsOf h1 h2 (meanLOp hr hS hb x))))
              (constant Sc .f32 0x00000000#32) hr hS)
            (broadcastInDim (Sv n) ![] hb (constant Sc .f32 0x42800000#32)))
          (broadcastInDim (Sv n) ![] hb (constant Sc .f32 0x3727C5AC#32))))))
      (rowsOf h1 h2 g))
    (rowsOf h1 h2 b)

end Chain

/-! ## Real numbers are closed under what the chain does -/

theorem isReal_zero : IsReal 0 := ⟨0, EReal.coe_zero⟩
theorem isReal_one : IsReal 1 := ⟨1, EReal.coe_one⟩

theorem IsReal.add {a b : EReal} (ha : IsReal a) (hb : IsReal b) : IsReal (a + b) := by
  obtain ⟨x, rfl⟩ := ha; obtain ⟨y, rfl⟩ := hb; exact ⟨x + y, EReal.coe_add x y⟩

theorem IsReal.mul {a b : EReal} (ha : IsReal a) (hb : IsReal b) : IsReal (a * b) := by
  obtain ⟨x, rfl⟩ := ha; obtain ⟨y, rfl⟩ := hb; exact ⟨x * y, EReal.coe_mul x y⟩

theorem IsReal.max {a b : EReal} (ha : IsReal a) (hb : IsReal b) : IsReal (max a b) := by
  rcases le_total a b with h | h
  · rw [max_eq_right h]; exact hb
  · rw [max_eq_left h]; exact ha

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The inverse square root of a real number that is at least one is a real number. -/
theorem isReal_rsqrt_of_one_le {x : EReal} (hx : IsReal x) (h1 : 1 ≤ x) : IsReal (Ideal.rsqrt x) := by
  obtain ⟨r, rfl⟩ := hx
  have hr : (1 : ℝ) ≤ r := by exact_mod_cast h1
  rw [Ideal.rsqrt_coe, if_neg (not_lt.mpr (by linarith)), if_neg (by linarith : (0 : ℝ) < r).ne']
  exact ⟨_, rfl⟩

/-- Every entry of an array is a real number. -/
def AllRealS {s : Shape} (v : s.Idx → EReal) : Prop := ∀ j, IsReal (v j)

theorem AllRealS.bcast {s t : Shape} {dims : Fin s.rank → Fin t.rank} (h : s.BroadcastsInDim t dims) {v : s.Idx → EReal}
    (hv : AllRealS v) : AllRealS (broadcastInDim t dims h v) := fun j => hv _

theorem allRealS_zero (s : Shape) : AllRealS (constant (F := Ideal) s .f32 0x00000000#32) := fun _ => by
  show IsReal (Ideal.ofBits .f32 0x00000000#32)
  rw [Ideal.ofBits_zero_f32]; exact isReal_zero

theorem allRealS_one (s : Shape) : AllRealS (constant (F := Ideal) s .f32 0x3F800000#32) := fun _ => by
  show IsReal (Ideal.ofBits .f32 0x3F800000#32)
  rw [Ideal.ofBits_one_f32]; exact isReal_one

theorem AllRealS.mulf {s : Shape} {a b : FVec Ideal s .f32} (ha : AllRealS a) (hb : AllRealS b) : AllRealS (mulf a b) := fun j => by
  show IsReal (a j * b j)
  exact (ha j).mul (hb j)

theorem AllRealS.select {s : Shape} (c : IVec s 1) {a b : s.Idx → EReal} (ha : AllRealS a) (hb : AllRealS b) :
    AllRealS (select c a b) := fun j => by
  show IsReal (if c j = 1 then a j else b j)
  split
  · exact ha j
  · exact hb j

theorem AllRealS.gather {s si t : Shape} {w : ℕ} (d : GatherDims s si t) {x : s.Idx → EReal} (idx : IVec si w) (hx : AllRealS x) :
    AllRealS (Host.gather d x idx) := fun j => hx _

theorem AllRealS.scatterAdd {s si u : Shape} {w : ℕ} (d : ScatterDims s si u) {x : FVec Ideal s .f32} (idx : IVec si w)
    {upd : FVec Ideal u .f32} (hx : AllRealS x) (hu : AllRealS upd) : AllRealS (Host.scatterAdd d x idx upd) := fun i => by
  show IsReal (Ideal.hostScatterAdd d x idx upd i)
  unfold Ideal.hostScatterAdd
  exact (hx i).add (IsReal.sum _ _ fun j _ => hu j)

/-- degree^(-1/2) of real degrees is real: the inverse square root is taken of `max(d, 1)`, which is at least one. -/
theorem AllRealS.invSqrtDegV {s : Shape} (hb : Sc.BroadcastsInDim s (![] : Fin 0 → Fin s.rank)) {d : FVec Ideal s .f32}
    (hd : AllRealS d) : AllRealS (invSqrtDegV hb d) := by
  unfold Cert.Hgcn.invSqrtDegV
  refine AllRealS.select _ (fun j => ?_) ((allRealS_zero Sc).bcast hb)
  show IsReal (Ideal.rsqrt (max (d j) (Ideal.ofBits .f32 0x3F800000#32)))
  rw [Ideal.ofBits_one_f32]
  exact isReal_rsqrt_of_one_le ((hd j).max isReal_one) (le_max_right _ _)

/-- The degrees are real: finite sums of ones. -/
theorem allRealS_degN (D : ConDims) (idx : IVec SE 32) : AllRealS (degN (F := Ideal) D idx) := by
  unfold degN
  exact AllRealS.scatterAdd _ _ ((allRealS_zero Sc).bcast D.b_n) ((allRealS_one Sc).bcast D.b_e)

theorem AllRealS.rowScale (D : ConDims) {v : FVec Ideal SN .f32} (hv : AllRealS v) : AllRealS (rowScale D v) := by
  unfold Cert.Hgcn.rowScale
  exact (hv.bcast D.b_n1).bcast D.b_nf

/-- The "connected to" aggregate of real features is real. -/
theorem AllRealS.conOp (D : ConDims) (src dst : IVec SE 32) {x : FVec Ideal SNF .f32} (hx : AllRealS x) :
    AllRealS (conOp D src dst x) := by
  unfold Cert.Hgcn.conOp Cert.Hgcn.conAgg
  refine AllRealS.mulf (AllRealS.scatterAdd _ _ ((allRealS_zero Sc).bcast D.b_nf0) (AllRealS.gather _ _ ?_)) ?_
  · exact hx.mulf (AllRealS.rowScale D ((allRealS_degN D src).invSqrtDegV D.b_n))
  · exact AllRealS.rowScale D ((allRealS_degN D dst).invSqrtDegV D.b_n)

/-! ## The chain on matrices -/

/-- A matrix as an array over the rank-2 shape. -/
def toArr {a b : ℕ} (x : Fin a → Fin b → EReal) : (⟨2, ![a, b]⟩ : Shape).Idx → EReal := fun j => x (j 0) (j 1)
/-- An array over the rank-2 shape as a matrix. -/
def ofArr {a b : ℕ} (y : (⟨2, ![a, b]⟩ : Shape).Idx → EReal) : Fin a → Fin b → EReal := fun i k => y (ix2 i k)
/-- A vector as an array over the rank-1 shape. -/
def toArr1 {a : ℕ} (x : Fin a → EReal) : (⟨1, ![a]⟩ : Shape).Idx → EReal := fun j => x (j 0)
/-- An array over the rank-1 shape as a vector. -/
def ofArr1 {a : ℕ} (y : (⟨1, ![a]⟩ : Shape).Idx → EReal) : Fin a → EReal := fun i => y (ix1 i)

theorem toArr_ofArr {a b : ℕ} (y : (⟨2, ![a, b]⟩ : Shape).Idx → EReal) : toArr (ofArr y) = y :=
  funext fun j => congrArg y (eq_ix2 j).symm
theorem ofArr_toArr {a b : ℕ} (x : Fin a → Fin b → EReal) : ofArr (toArr x) = x := rfl
theorem toArr1_ofArr1 {a : ℕ} (y : (⟨1, ![a]⟩ : Shape).Idx → EReal) : toArr1 (ofArr1 y) = y :=
  funext fun j => congrArg y (eq_ix1 j).symm
theorem ofArr1_toArr1 {a : ℕ} (x : Fin a → EReal) : ofArr1 (toArr1 x) = x := rfl

/-- The "connected to" aggregate as an operator on feature matrices. -/
def conOpI (D : ConDims) (src dst : IVec SE 32) (x : Fin 100000 → Fin 128 → EReal) : Fin 100000 → Fin 128 → EReal :=
  ofArr (conOp (F := Ideal) D src dst (toArr x))

/-- The array form of the operator on a matrix's array. -/
theorem conOp_eq_toArr (D : ConDims) (src dst : IVec SE 32) (x : FVec Ideal SNF .f32) :
    conOp D src dst x = toArr (conOpI D src dst (ofArr x)) := by
  unfold conOpI; rw [toArr_ofArr, toArr_ofArr]

/-- The "connected to" aggregate maps real matrices to real matrices. -/
theorem conOpI_real (D : ConDims) (src dst : IVec SE 32) {x : Fin 100000 → Fin 128 → EReal} (hx : AllReal2 x) :
    AllReal2 (conOpI D src dst x) := fun i k =>
  AllRealS.conOp D src dst (x := toArr x) (fun j => hx (j 0) (j 1)) (ix2 i k)

/-! ## degree^(-1/2) read at an entry -/

/-- The array operation is `invSqrtDeg` entry by entry. -/
theorem invSqrtDegV_apply {s : Shape} (hb : Sc.BroadcastsInDim s (![] : Fin 0 → Fin s.rank)) (d : FVec Ideal s .f32) (j : s.Idx) :
    invSqrtDegV hb d j = invSqrtDeg (d j) := by
  show Scalar.select (Ideal.cmp .ogt (d j) (Ideal.ofBits .f32 0x00000000#32))
      (Ideal.rsqrt (max (d j) (Ideal.ofBits .f32 0x3F800000#32))) (Ideal.ofBits .f32 0x00000000#32) = _
  rw [Ideal.ofBits_zero_f32, Ideal.ofBits_one_f32]
  unfold invSqrtDeg Scalar.select Ideal.cmp
  by_cases h : 0 < d j
  · simp [h]
  · simp [h]

end Cert.Hgcn

end
-- ==== Proof.KI.HostDefs.lean ====
/-
  The program's dimension records gathered as the "connected to" aggregate's, and the label counts and count^(-1/2) as the array
  operations the program applies to the label words.
-/
import proofs.«405200_j27075473834261_2_alg».proof.Proof.Gen.KernelIdeal.Launch
import proofs.«405200_j27075473834261_2_alg».proof.Proof.ConOp

set_option maxRecDepth 16384

noncomputable section

namespace Cert.KernelIdeal.Hand

open Cert.KernelIdeal Cert.KernelIdeal.Gen Cert.Hgcn
open Idealize.ShloMosaic Idealize.ShloMosaic.TcCoe Idealize.ShloMosaic.StableHlo

variable {F : FTy → Type} [FloatOps F]

/-! ## The program's dimension records, as the aggregate's -/

/-- The edge relation's scatters, gather and broadcasts, as this program states them. -/
def conDimsK : ConDims where
  sdeg := scatter_S100000_S1600000x1_S1600000_n_0_0_1
  gat := gather_S100000x128_S1600000x1_S1600000x128_1_0_n_n_0_1_1128
  sfeat := scatter_S100000x128_S1600000x1_S1600000x128_1_0_0_1
  b_e := bcast_S_S1600000
  b_n := bcast_S_S100000
  b_nf0 := bcast_S_S100000x128
  b_e1 := bcast_S1600000_S1600000x1_0
  b_n1 := bcast_S100000_S100000x1_0
  b_nf := bcast_S100000x1_S100000x128_0_1

/-- The label counts: ones summed into the labels the words name. -/
def cntOf (lab : IVec S100000 32) : FVec F S64 .f32 :=
  Host.scatterAdd scatter_S64_S100000x1_S100000_n_0_0_1 (broadcastInDim S64 ![] bcast_S_S64 (constant S_ .f32 0x00000000#32))
    (broadcastInDim S100000x1 ![0] bcast_S100000_S100000x1_0 lab) (broadcastInDim S100000 ![] bcast_S_S100000 (constant S_ .f32 0x3F800000#32))

/-- count^(-1/2) per label, as the [64, 1] column the regions and the table read. -/
def labScaleOf (lab : IVec S100000 32) : FVec F S64x1 .f32 :=
  shapeCast S64x1 (invSqrtDegV bcast_S_S64 (cntOf (F := F) lab)) shapeCasts_S64_S64x1

end Cert.KernelIdeal.Hand

end
-- ==== Proof.KI.Host0.lean ====
/-
  The graph statistics the program computes on the host before its first region, one stretch of host operations at a time: for an
  arbitrary valuation `W` before the stretch, what the valuation after it holds at each buffer a later item reads, as the
  operations' composed term of `W`.

  * the label words as a column (a reshape);
  * the label counts — ones summed into the labels — and count^(-1/2) as the column the "belongs to" regions and the "including"
    table read;
  * the out- and in-degrees of the edge list and their ^(-1/2), the two per-node scales of the "connected to" aggregate.
-/
import proofs.«405200_j27075473834261_2_alg».proof.Proof.Gen.KernelIdeal.Launch
import proofs.«405200_j27075473834261_2_alg».proof.Proof.KI.HostDefs
import Idealize.ShloMosaic.Lib.StableHlo.Run

set_option maxRecDepth 16384

noncomputable section

namespace Cert.KernelIdeal.Hand

open Cert.KernelIdeal Cert.KernelIdeal.Gen Cert.Hgcn
open Idealize.ShloMosaic Idealize.ShloMosaic.TcCoe Idealize.ShloMosaic.StableHlo

variable {F : FTy → Type} [FloatOps F]

/-! ## hostOps0: the label column, the label counts -/

theorem hostOps0_main_v0 (W : Valuation τ sig (Elt F)) :
    (StableHlo.after hostOps0 W (Proc.devRef .tc main_v0) : IVec S100000x1 32)
      = shapeCast S100000x1 (W (Proc.devRef .tc main_arg22) : IVec S100000 32) shapeCasts_S100000_S100000x1 := by
  after_results <;> rfl

theorem hostOps0_main_v6 (W : Valuation τ sig (Elt F)) :
    (StableHlo.after hostOps0 W (Proc.devRef .tc main_v6) : IVec S64 1)
      = cmpf .ogt (cntOf (F := F) (W (Proc.devRef .tc main_arg22))) (broadcastInDim S64 ![] bcast_S_S64 (constant S_ .f32 0x00000000#32)) := by
  after_results <;> rfl

theorem hostOps0_main_v9 (W : Valuation τ sig (Elt F)) :
    (StableHlo.after hostOps0 W (Proc.devRef .tc main_v9) : FVec F S64 .f32)
      = Host.rsqrt (maximumf (cntOf (F := F) (W (Proc.devRef .tc main_arg22))) (broadcastInDim S64 ![] bcast_S_S64 (constant S_ .f32 0x3F800000#32))) := by
  after_results <;> rfl

theorem hostOps0_main_cst_3 (W : Valuation τ sig (Elt F)) :
    (StableHlo.after hostOps0 W (Proc.devRef .tc main_cst_3) : FVec F S_ .f32) = constant S_ .f32 0x00000000#32 := by
  after_results <;> rfl

/-! ## hostOps0_1: count^(-1/2), zero at count zero -/

theorem hostOps0_1_main_v10 (W : Valuation τ sig (Elt F)) :
    (StableHlo.after hostOps0_1 W (Proc.devRef .tc main_v10) : FVec F S64 .f32)
      = select (W (Proc.devRef .tc main_v6) : IVec S64 1) (W (Proc.devRef .tc main_v9) : FVec F S64 .f32)
          (broadcastInDim S64 ![] bcast_S_S64 (W (Proc.devRef .tc main_cst_3) : FVec F S_ .f32)) := by
  after_results <;> (try simp only [TRef.ofBuf, TRef.toBuf, cast_eq]) <;> (try rfl)

/-! ## hostOps0_2: the scale as a column; the edge list's degrees -/

theorem hostOps0_2_main_v11 (W : Valuation τ sig (Elt F)) :
    (StableHlo.after hostOps0_2 W (Proc.devRef .tc main_v11) : FVec F S64x1 .f32)
      = shapeCast S64x1 (W (Proc.devRef .tc main_v10) : FVec F S64 .f32) shapeCasts_S64_S64x1 := by
  after_results <;> rfl

theorem hostOps0_2_main_v18 (W : Valuation τ sig (Elt F)) :
    (StableHlo.after hostOps0_2 W (Proc.devRef .tc main_v18) : FVec F S100000 .f32)
      = degN conDimsK (W (Proc.devRef .tc main_arg24)) := by
  after_results <;> rfl

theorem hostOps0_2_main_v20 (W : Valuation τ sig (Elt F)) :
    (StableHlo.after hostOps0_2 W (Proc.devRef .tc main_v20) : IVec S100000 1)
      = cmpf .ogt (degN (F := F) conDimsK (W (Proc.devRef .tc main_arg23)))
          (broadcastInDim S100000 ![] bcast_S_S100000 (constant S_ .f32 0x00000000#32)) := by
  after_results <;> rfl

theorem hostOps0_2_main_v23 (W : Valuation τ sig (Elt F)) :
    (StableHlo.after hostOps0_2 W (Proc.devRef .tc main_v23) : FVec F S100000 .f32)
      = Host.rsqrt (maximumf (degN (F := F) conDimsK (W (Proc.devRef .tc main_arg23)))
          (broadcastInDim S100000 ![] bcast_S_S100000 (constant S_ .f32 0x3F800000#32))) := by
  after_results <;> rfl

theorem hostOps0_2_main_cst_9 (W : Valuation τ sig (Elt F)) :
    (StableHlo.after hostOps0_2 W (Proc.devRef .tc main_cst_9) : FVec F S_ .f32) = constant S_ .f32 0x00000000#32 := by
  after_results <;> rfl

/-! ## hostOps0_3: out-degree^(-1/2) -/

theorem hostOps0_3_main_v24 (W : Valuation τ sig (Elt F)) :
    (StableHlo.after hostOps0_3 W (Proc.devRef .tc main_v24) : FVec F S100000 .f32)
      = select (W (Proc.devRef .tc main_v20) : IVec S100000 1) (W (Proc.devRef .tc main_v23) : FVec F S100000 .f32)
          (broadcastInDim S100000 ![] bcast_S_S100000 (W (Proc.devRef .tc main_cst_9) : FVec F S_ .f32)) := by
  after_results <;> (try simp only [TRef.ofBuf, TRef.toBuf, cast_eq]) <;> (try rfl)

/-! ## hostOps0_4, hostOps0_5: in-degree^(-1/2) -/

theorem hostOps0_4_main_v26 (W : Valuation τ sig (Elt F)) :
    (StableHlo.after hostOps0_4 W (Proc.devRef .tc main_v26) : IVec S100000 1)
      = cmpf .ogt (W (Proc.devRef .tc main_v18) : FVec F S100000 .f32)
          (broadcastInDim S100000 ![] bcast_S_S100000 (constant S_ .f32 0x00000000#32)) := by
  after_results <;> rfl

theorem hostOps0_4_main_v29 (W : Valuation τ sig (Elt F)) :
    (StableHlo.after hostOps0_4 W (Proc.devRef .tc main_v29) : FVec F S100000 .f32)
      = Host.rsqrt (maximumf (W (Proc.devRef .tc main_v18) : FVec F S100000 .f32)
          (broadcastInDim S100000 ![] bcast_S_S100000 (constant S_ .f32 0x3F800000#32))) := by
  after_results <;> rfl

theorem hostOps0_4_main_cst_12 (W : Valuation τ sig (Elt F)) :
    (StableHlo.after hostOps0_4 W (Proc.devRef .tc main_cst_12) : FVec F S_ .f32) = constant S_ .f32 0x00000000#32 := by
  after_results <;> rfl

theorem hostOps0_5_main_v30 (W : Valuation τ sig (Elt F)) :
    (StableHlo.after hostOps0_5 W (Proc.devRef .tc main_v30) : FVec F S100000 .f32)
      = select (W (Proc.devRef .tc main_v26) : IVec S100000 1) (W (Proc.devRef .tc main_v29) : FVec F S100000 .f32)
          (broadcastInDim S100000 ![] bcast_S_S100000 (W (Proc.devRef .tc main_cst_12) : FVec F S_ .f32)) := by
  after_results <;> (try simp only [TRef.ofBuf, TRef.toBuf, cast_eq]) <;> (try rfl)

end Cert.KernelIdeal.Hand

end
-- ==== Proof.KI.Host1.lean ====
/-
  The host operations between a layer's "belongs to" region and its combine region (after region 0 for layer 1, after region 4 for
  layer 2): for an arbitrary valuation `W` before the stretch,

  * the "connected to" aggregate of the layer's sequence features — the features scaled by the out-degree scale, looked up at the
    edges' sources, summed into the edges' targets, scaled by the in-degree scale — as the one chain `conAgg` at the two scales the
    valuation holds;
  * the "including" table: the label features scaled row by row by count^(-1/2), through the dense map.
-/
import proofs.«405200_j27075473834261_2_alg».proof.Proof.Gen.KernelIdeal.Launch
import proofs.«405200_j27075473834261_2_alg».proof.Proof.KI.HostDefs
import Idealize.ShloMosaic.Lib.StableHlo.Run

set_option maxRecDepth 16384

noncomputable section

namespace Cert.KernelIdeal.Hand

open Cert.KernelIdeal Cert.KernelIdeal.Gen Cert.Hgcn
open Idealize.ShloMosaic Idealize.ShloMosaic.TcCoe Idealize.ShloMosaic.StableHlo

variable {F : FTy → Type} [FloatOps F]

/-- The label features scaled by the [64, 1] column, through the dense map: the table the combine region reads. -/
def incTableOf (hl : FVec F S64x128 .f32) (s : FVec F S64x1 .f32) (Wi : FVec F S128x128 .f32) : FVec F S64x128 .f32 :=
  Host.dotGeneral dot_S64x128_S128x128_S64x128_1_0_0_1_n_n none (mulf hl (broadcastInDim S64x128 ![0, 1] bcast_S64x1_S64x128_0_1 s)) Wi

/-! ## hostOps1 (layer 1) -/

set_option maxHeartbeats 1000000 in
theorem hostOps1_main_v47 (W : Valuation τ sig (Elt F)) :
    (StableHlo.after hostOps1 W (Proc.devRef .tc main_v47) : FVec F S100000x128 .f32)
      = conAgg conDimsK (W (Proc.devRef .tc main_v24)) (W (Proc.devRef .tc main_v30)) (W (Proc.devRef .tc main_arg23))
          (W (Proc.devRef .tc main_arg24)) (W (Proc.devRef .tc main_arg0)) := by
  after_results_simp <;> rfl

set_option maxHeartbeats 1000000 in
theorem hostOps1_main_v50 (W : Valuation τ sig (Elt F)) :
    (StableHlo.after hostOps1 W (Proc.devRef .tc main_v50) : FVec F S64x128 .f32)
      = incTableOf (W (Proc.devRef .tc main_arg1)) (W (Proc.devRef .tc main_v11)) (W (Proc.devRef .tc main_arg4)) := by
  after_results_simp <;> rfl

/-! ## hostOps5 (layer 2) -/

set_option maxHeartbeats 1000000 in
theorem hostOps5_main_v104 (W : Valuation τ sig (Elt F)) :
    (StableHlo.after hostOps5 W (Proc.devRef .tc main_v104) : FVec F S100000x128 .f32)
      = conAgg conDimsK (W (Proc.devRef .tc main_v24)) (W (Proc.devRef .tc main_v30)) (W (Proc.devRef .tc main_arg23))
          (W (Proc.devRef .tc main_arg24)) (W (Proc.devRef .tc main_v62)) := by
  after_results_simp <;> rfl

set_option maxHeartbeats 1000000 in
theorem hostOps5_main_v107 (W : Valuation τ sig (Elt F)) :
    (StableHlo.after hostOps5 W (Proc.devRef .tc main_v107) : FVec F S64x128 .f32)
      = incTableOf (W (Proc.devRef .tc main_v87)) (W (Proc.devRef .tc main_v11)) (W (Proc.devRef .tc main_arg14)) := by
  after_results_simp <;> rfl

end Cert.KernelIdeal.Hand

end
-- ==== Proof.KI.Host3.lean ====
/-
  The host operations between a layer's statistics region and its normalisation region (after region 2 for layer 1, after region 6
  for layer 2): for an arbitrary valuation `W` before the stretch, the column means — the column sums over the node count — and the
  inverse deviations `rsqrt(E[x²] − (E x)² + ε)`, as the operations' composed terms of the two accumulated rows.
-/
import proofs.«405200_j27075473834261_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-- The column means from the column sums: the sums over the node count. -/
def meanOf (sum : FVec F S1x128 .f32) : FVec F S1x128 .f32 :=
  Host.divf sum (broadcastInDim S1x128 ![] bcast_S_S1x128 (constant S_ .f32 0x47C35000#32))

/-- The inverse deviations from the column sums and the column sums of squares: `rsqrt(sumsq / n − mean · mean + ε)`. -/
def invStdOf (sum sumsq : FVec F S1x128 .f32) : FVec F S1x128 .f32 :=
  Host.rsqrt (addf (subf (Host.divf sumsq (broadcastInDim S1x128 ![] bcast_S_S1x128 (constant S_ .f32 0x47C35000#32)))
      (mulf (meanOf sum) (meanOf sum)))
    (broadcastInDim S1x128 ![] bcast_S_S1x128 (constant S_ .f32 0x3727C5AC#32)))

/-! ## hostOps3 (layer 1) -/

theorem hostOps3_main_v54 (W : Valuation τ sig (Elt F)) :
    (StableHlo.after hostOps3 W (Proc.devRef .tc main_v54) : FVec F S1x128 .f32) = meanOf (W (Proc.devRef .tc main_v52_0)) := by
  after_results <;> rfl

theorem hostOps3_main_v61 (W : Valuation τ sig (Elt F)) :
    (StableHlo.after hostOps3 W (Proc.devRef .tc main_v61) : FVec F S1x128 .f32)
      = invStdOf (W (Proc.devRef .tc main_v52_0)) (W (Proc.devRef .tc main_v52_1)) := by
  after_results <;> rfl

/-! ## hostOps7 (layer 2) -/

theorem hostOps7_main_v111 (W : Valuation τ sig (Elt F)) :
    (StableHlo.after hostOps7 W (Proc.devRef .tc main_v111) : FVec F S1x128 .f32) = meanOf (W (Proc.devRef .tc main_v109_0)) := by
  after_results <;> rfl

theorem hostOps7_main_v118 (W : Valuation τ sig (Elt F)) :
    (StableHlo.after hostOps7 W (Proc.devRef .tc main_v118) : FVec F S1x128 .f32)
      = invStdOf (W (Proc.devRef .tc main_v109_0)) (W (Proc.devRef .tc main_v109_1)) := by
  after_results <;> rfl

end Cert.KernelIdeal.Hand

end
-- ==== Proof.KI.Host4.lean ====
/-
  The label side's batch normalisation, which the program runs on the host (after region 3 for layer 1, after region 7 for layer 2):
  for an arbitrary valuation `W` before the stretch, the normalised label rows as the one chain `bnLabOp` of the layer's label
  output and the two per-column parameters.
-/
import proofs.«405200_j27075473834261_2_alg».proof.Proof.Gen.KernelIdeal.Launch
import proofs.«405200_j27075473834261_2_alg».proof.Proof.ConOp
import Idealize.ShloMosaic.Lib.StableHlo.Run

set_option maxRecDepth 16384

noncomputable section

namespace Cert.KernelIdeal.Hand

open Cert.KernelIdeal Cert.KernelIdeal.Gen Cert.Hgcn
open Idealize.ShloMosaic Idealize.ShloMosaic.TcCoe Idealize.ShloMosaic.StableHlo

variable {F : FTy → Type} [FloatOps F]

/-! ## hostOps4 (layer 1: 128 columns) -/

theorem hostOps4_main_v87 (W : Valuation τ sig (Elt F)) :
    (StableHlo.after hostOps4 W (Proc.devRef .tc main_v87) : FVec F S64x128 .f32)
      = bnLabOp (n := 128) reducesTo_S64x128_S128_d0 h_S_ bcast_S_S128 bcast_S128_S1x128_1 bcast_S1x128_S64x128_0_1
          (W (Proc.devRef .tc main_v31)) (W (Proc.devRef .tc main_arg10)) (W (Proc.devRef .tc main_arg11)) := by
  after_results_simp <;> rfl

/-! ## hostOps8 (layer 2: 64 columns) -/

theorem hostOps8_main_v144 (W : Valuation τ sig (Elt F)) :
    (StableHlo.after hostOps8 W (Proc.devRef .tc main_v144) : FVec F S64x64 .f32)
      = bnLabOp (n := 64) reducesTo_S64x64_S64_d0 h_S_ bcast_S_S64 bcast_S64_S1x64_1 bcast_S1x64_S64x64_0_1
          (W (Proc.devRef .tc main_v88)) (W (Proc.devRef .tc main_arg20)) (W (Proc.devRef .tc main_arg21)) := by
  after_results_simp <;> rfl

end Cert.KernelIdeal.Hand

end
-- ==== Proof.KI.HostV.lean ====
/-
  The valuations between the program's items (the generated `V0 … V20`: launch contents, then each host stretch, then what a region
  may change at the unknowns `outs`), read at every buffer a later item reads: each as the composed term of the launch arguments and of
  the regions' results. The stretches' own lemmas (over an arbitrary valuation) are chained through the buffers no item in between
  writes.
-/
import proofs.«405200_j27075473834261_2_alg».proof.Proof.Gen.KernelIdeal.Regions
import proofs.«405200_j27075473834261_2_alg».proof.Proof.KI.Host0
import proofs.«405200_j27075473834261_2_alg».proof.Proof.KI.Host1
import proofs.«405200_j27075473834261_2_alg».proof.Proof.KI.Host3
import proofs.«405200_j27075473834261_2_alg».proof.Proof.KI.Host4

set_option maxRecDepth 16384

noncomputable section

namespace Cert.KernelIdeal.Hand

open Cert.KernelIdeal Cert.KernelIdeal.Gen Cert.Hgcn
open Idealize.ShloMosaic Idealize.ShloMosaic.TcCoe Idealize.ShloMosaic.StableHlo

variable {F : FTy → Type} [FloatOps F]

variable (m : (ℓ : Loc nD τ sig) → Buf (Elt F) ℓ) (outs : Outs (F := F))

/-- Argument 0 as launched, at its literal type. -/
abbrev arg0 (c : Dev nD) : FVec F S100000x128 .f32 := m ((c : Thread nD τ).loc main_arg0)
/-- Argument 1 as launched, at its literal type. -/
abbrev arg1 (c : Dev nD) : FVec F S64x128 .f32 := m ((c : Thread nD τ).loc main_arg1)
/-- Argument 4 as launched, at its literal type. -/
abbrev arg4 (c : Dev nD) : FVec F S128x128 .f32 := m ((c : Thread nD τ).loc main_arg4)
/-- Argument 10 as launched, at its literal type. -/
abbrev arg10 (c : Dev nD) : FVec F S128 .f32 := m ((c : Thread nD τ).loc main_arg10)
/-- Argument 11 as launched, at its literal type. -/
abbrev arg11 (c : Dev nD) : FVec F S128 .f32 := m ((c : Thread nD τ).loc main_arg11)
/-- Argument 14 as launched, at its literal type. -/
abbrev arg14 (c : Dev nD) : FVec F S128x128 .f32 := m ((c : Thread nD τ).loc main_arg14)
/-- Argument 20 as launched, at its literal type. -/
abbrev arg20 (c : Dev nD) : FVec F S64 .f32 := m ((c : Thread nD τ).loc main_arg20)
/-- Argument 21 as launched, at its literal type. -/
abbrev arg21 (c : Dev nD) : FVec F S64 .f32 := m ((c : Thread nD τ).loc main_arg21)
/-- Argument 22 as launched, at its literal type. -/
abbrev arg22 (c : Dev nD) : IVec S100000 32 := m ((c : Thread nD τ).loc main_arg22)
/-- Argument 23 as launched, at its literal type. -/
abbrev arg23 (c : Dev nD) : IVec S1600000 32 := m ((c : Thread nD τ).loc main_arg23)
/-- Argument 24 as launched, at its literal type. -/
abbrev arg24 (c : Dev nD) : IVec S1600000 32 := m ((c : Thread nD τ).loc main_arg24)

/-- The label column region 0 reads: the label words reshaped. -/
theorem V6_main_v0 (c : Dev nD) :
    (V6 m c (Proc.devRef .tc main_v0) : IVec S100000x1 32) = shapeCast S100000x1 (arg22 m c) shapeCasts_S100000_S100000x1 := by
  exact (V6_of m c main_v0 (by decide)).trans <| (V5_of m c main_v0 (by decide)).trans <| (V4_of m c main_v0 (by decide)).trans <| (V3_of m c main_v0 (by decide)).trans <| (V2_of m c main_v0 (by decide)).trans <| hostOps0_main_v0 (V0 m c)

/-- count^(-1/2) per label after the first two stretches. -/
theorem V2_main_v10 (c : Dev nD) :
    (V2 m c (Proc.devRef .tc main_v10) : FVec F S64 .f32) = invSqrtDegV bcast_S_S64 (cntOf (F := F) (arg22 m c)) := by
  refine (hostOps0_1_main_v10 (V1 m c)).trans ?_
  rw [show V1 m c (Proc.devRef .tc main_v6) = _ from hostOps0_main_v6 (V0 m c), show V1 m c (Proc.devRef .tc main_v9) = _ from hostOps0_main_v9 (V0 m c),
    show V1 m c (Proc.devRef .tc main_cst_3) = _ from hostOps0_main_cst_3 (V0 m c)]
  rfl

/-- The scale column regions 0 and 4 and the tables read. -/
theorem V6_main_v11 (c : Dev nD) :
    (V6 m c (Proc.devRef .tc main_v11) : FVec F S64x1 .f32) = labScaleOf (arg22 m c) := by
  refine ((V6_of m c main_v11 (by decide)).trans <| (V5_of m c main_v11 (by decide)).trans <| (V4_of m c main_v11 (by decide)).trans <| hostOps0_2_main_v11 (V2 m c)).trans ?_
  rw [V2_main_v10 m c]
  rfl

theorem V2_main_arg23 (c : Dev nD) :
    (V2 m c (Proc.devRef .tc main_arg23) : IVec S1600000 32) = arg23 m c := by
  exact (V2_of m c main_arg23 (by decide)).trans <| (V1_of m c main_arg23 (by decide)).trans <| rfl

theorem V2_main_arg24 (c : Dev nD) :
    (V2 m c (Proc.devRef .tc main_arg24) : IVec S1600000 32) = arg24 m c := by
  exact (V2_of m c main_arg24 (by decide)).trans <| (V1_of m c main_arg24 (by decide)).trans <| rfl

/-- out-degree^(-1/2) per node. -/
theorem V4_main_v24 (c : Dev nD) :
    (V4 m c (Proc.devRef .tc main_v24) : FVec F S100000 .f32) = invSqrtDegV bcast_S_S100000 (degN (F := F) conDimsK (arg23 m c)) := by
  refine (hostOps0_3_main_v24 (V3 m c)).trans ?_
  rw [show V3 m c (Proc.devRef .tc main_v20) = _ from hostOps0_2_main_v20 (V2 m c), show V3 m c (Proc.devRef .tc main_v23) = _ from hostOps0_2_main_v23 (V2 m c),
    show V3 m c (Proc.devRef .tc main_cst_9) = _ from hostOps0_2_main_cst_9 (V2 m c), V2_main_arg23 m c]
  rfl

/-- in-degree^(-1/2) per node. -/
theorem V6_main_v30 (c : Dev nD) :
    (V6 m c (Proc.devRef .tc main_v30) : FVec F S100000 .f32) = invSqrtDegV bcast_S_S100000 (degN (F := F) conDimsK (arg24 m c)) := by
  refine (hostOps0_5_main_v30 (V5 m c)).trans ?_
  rw [show V5 m c (Proc.devRef .tc main_v26) = _ from hostOps0_4_main_v26 (V4 m c), show V5 m c (Proc.devRef .tc main_v29) = _ from hostOps0_4_main_v29 (V4 m c),
    show V5 m c (Proc.devRef .tc main_cst_12) = _ from hostOps0_4_main_cst_12 (V4 m c),
    show V4 m c (Proc.devRef .tc main_v18) = _ from (V4_of m c main_v18 (by decide)).trans <| hostOps0_2_main_v18 (V2 m c), V2_main_arg24 m c]
  rfl

theorem V7_main_v24 (c : Dev nD) :
    (V7 m outs c (Proc.devRef .tc main_v24) : FVec F S100000 .f32) = invSqrtDegV bcast_S_S100000 (degN (F := F) conDimsK (arg23 m c)) := by
  exact (V7_of m outs c main_v24 (by decide)).trans <| (V6_of m c main_v24 (by decide)).trans <| (V5_of m c main_v24 (by decide)).trans <| V4_main_v24 m c

theorem V7_main_v30 (c : Dev nD) :
    (V7 m outs c (Proc.devRef .tc main_v30) : FVec F S100000 .f32) = invSqrtDegV bcast_S_S100000 (degN (F := F) conDimsK (arg24 m c)) := by
  exact (V7_of m outs c main_v30 (by decide)).trans <| V6_main_v30 m c

theorem V7_main_v11 (c : Dev nD) :
    (V7 m outs c (Proc.devRef .tc main_v11) : FVec F S64x1 .f32) = labScaleOf (arg22 m c) := by
  exact (V7_of m outs c main_v11 (by decide)).trans <| V6_main_v11 m c

theorem V7_main_arg0 (c : Dev nD) :
    (V7 m outs c (Proc.devRef .tc main_arg0) : FVec F S100000x128 .f32) = arg0 m c := by
  exact (V7_of m outs c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

theorem V7_main_arg1 (c : Dev nD) :
    (V7 m outs c (Proc.devRef .tc main_arg1) : FVec F S64x128 .f32) = arg1 m c := by
  exact (V7_of m outs c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

theorem V7_main_arg4 (c : Dev nD) :
    (V7 m outs c (Proc.devRef .tc main_arg4) : FVec F S128x128 .f32) = arg4 m c := by
  exact (V7_of m outs c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl

theorem V7_main_arg23 (c : Dev nD) :
    (V7 m outs c (Proc.devRef .tc main_arg23) : IVec S1600000 32) = arg23 m c := by
  exact (V7_of m outs c main_arg23 (by decide)).trans <| (V6_of m c main_arg23 (by decide)).trans <| (V5_of m c main_arg23 (by decide)).trans <| (V4_of m c main_arg23 (by decide)).trans <| (V3_of m c main_arg23 (by decide)).trans <| (V2_of m c main_arg23 (by decide)).trans <| (V1_of m c main_arg23 (by decide)).trans <| rfl

theorem V7_main_arg24 (c : Dev nD) :
    (V7 m outs c (Proc.devRef .tc main_arg24) : IVec S1600000 32) = arg24 m c := by
  exact (V7_of m outs c main_arg24 (by decide)).trans <| (V6_of m c main_arg24 (by decide)).trans <| (V5_of m c main_arg24 (by decide)).trans <| (V4_of m c main_arg24 (by decide)).trans <| (V3_of m c main_arg24 (by decide)).trans <| (V2_of m c main_arg24 (by decide)).trans <| (V1_of m c main_arg24 (by decide)).trans <| rfl

/-- The label column region 1 reads. -/
theorem V8_main_v0 (c : Dev nD) :
    (V8 m outs c (Proc.devRef .tc main_v0) : IVec S100000x1 32) = shapeCast S100000x1 (arg22 m c) shapeCasts_S100000_S100000x1 := by
  exact (V8_of m outs c main_v0 (by decide)).trans <| (V7_of m outs c main_v0 (by decide)).trans <| V6_main_v0 m c

/-- The "connected to" aggregate of the input features, which region 1 reads. -/
theorem V8_main_v47 (c : Dev nD) :
    (V8 m outs c (Proc.devRef .tc main_v47) : FVec F S100000x128 .f32) = conOp conDimsK (arg23 m c) (arg24 m c) (arg0 m c) := by
  refine (hostOps1_main_v47 (V7 m outs c)).trans ?_
  rw [V7_main_v24 m outs c, V7_main_v30 m outs c, V7_main_arg23 m outs c, V7_main_arg24 m outs c, V7_main_arg0 m outs c]
  rfl

/-- The "including" table of layer 1, which region 1 reads. -/
theorem V8_main_v50 (c : Dev nD) :
    (V8 m outs c (Proc.devRef .tc main_v50) : FVec F S64x128 .f32) = incTableOf (arg1 m c) (labScaleOf (arg22 m c)) (arg4 m c) := by
  refine (hostOps1_main_v50 (V7 m outs c)).trans ?_
  rw [V7_main_arg1 m outs c, V7_main_v11 m outs c, V7_main_arg4 m outs c]

/-- The column means region 3 reads, from region 2's sums. -/
theorem V11_main_v54 (c : Dev nD) :
    (V11 m outs c (Proc.devRef .tc main_v54) : FVec F S1x128 .f32) = meanOf (outs 10 main_v52_0 c) := by
  refine (hostOps3_main_v54 (V10 m outs c)).trans ?_
  rw [show V10 m outs c (Proc.devRef .tc main_v52_0) = outs 10 main_v52_0 c from by
    simp only [V10, Function.update_of_ne (StableHlo.devRef_ne_of_ne (by decide : main_v52_0 ≠ main_v52_1) : (Proc.devRef .tc main_v52_0 : DevRef τ sig) ≠ Proc.devRef .tc main_v52_1), Function.update_self]]

/-- The inverse deviations region 3 reads, from region 2's sums and sums of squares. -/
theorem V11_main_v61 (c : Dev nD) :
    (V11 m outs c (Proc.devRef .tc main_v61) : FVec F S1x128 .f32) = invStdOf (outs 10 main_v52_0 c) (outs 10 main_v52_1 c) := by
  refine (hostOps3_main_v61 (V10 m outs c)).trans ?_
  rw [show V10 m outs c (Proc.devRef .tc main_v52_0) = outs 10 main_v52_0 c from by
    simp only [V10, Function.update_of_ne (StableHlo.devRef_ne_of_ne (by decide : main_v52_0 ≠ main_v52_1) : (Proc.devRef .tc main_v52_0 : DevRef τ sig) ≠ Proc.devRef .tc main_v52_1), Function.update_self],
    show V10 m outs c (Proc.devRef .tc main_v52_1) = outs 10 main_v52_1 c from by simp only [V10, Function.update_self]]

/-- Region 3 reads region 1's result. -/
theorem V11_main_v51 (c : Dev nD) :
    V11 m outs c (Proc.devRef .tc main_v51) = outs 9 main_v51 c := by
  refine ((V11_of m outs c main_v51 (by decide)).trans <| (V10_of m outs c main_v51 (by decide)).trans <| ?_)
  simp only [V9, Function.update_self]

/-- Region 0's result, still in place when the label side is normalised. -/
theorem V12_main_v31 (c : Dev nD) :
    V12 m outs c (Proc.devRef .tc main_v31) = outs 7 main_v31 c := by
  refine ((V12_of m outs c main_v31 (by decide)).trans <| (V11_of m outs c main_v31 (by decide)).trans <| (V10_of m outs c main_v31 (by decide)).trans <| (V9_of m outs c main_v31 (by decide)).trans <| (V8_of m outs c main_v31 (by decide)).trans <| ?_)
  simp only [V7, Function.update_self]

theorem V12_main_arg10 (c : Dev nD) :
    (V12 m outs c (Proc.devRef .tc main_arg10) : FVec F S128 .f32) = arg10 m c := by
  exact (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans <| rfl

theorem V12_main_arg11 (c : Dev nD) :
    (V12 m outs c (Proc.devRef .tc main_arg11) : FVec F S128 .f32) = arg11 m c := by
  exact (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans <| rfl

/-- The normalised label rows of layer 1. -/
theorem V13_main_v87 (c : Dev nD) :
    (V13 m outs c (Proc.devRef .tc main_v87) : FVec F S64x128 .f32)
      = bnLabOp (n := 128) reducesTo_S64x128_S128_d0 h_S_ bcast_S_S128 bcast_S128_S1x128_1 bcast_S1x128_S64x128_0_1 (outs 7 main_v31 c) (arg10 m c) (arg11 m c) := by
  refine (hostOps4_main_v87 (V12 m outs c)).trans ?_
  rw [V12_main_v31 m outs c, V12_main_arg10 m outs c, V12_main_arg11 m outs c]

/-- Region 4 reads region 3's result. -/
theorem V13_main_v62 (c : Dev nD) :
    V13 m outs c (Proc.devRef .tc main_v62) = outs 12 main_v62 c := by
  refine ((V13_of m outs c main_v62 (by decide)).trans <| ?_)
  simp only [V12, Function.update_self]

theorem V13_main_v0 (c : Dev nD) :
    (V13 m outs c (Proc.devRef .tc main_v0) : IVec S100000x1 32) = shapeCast S100000x1 (arg22 m c) shapeCasts_S100000_S100000x1 := by
  exact (V13_of m outs c main_v0 (by decide)).trans <| (V12_of m outs c main_v0 (by decide)).trans <| (V11_of m outs c main_v0 (by decide)).trans <| (V10_of m outs c main_v0 (by decide)).trans <| (V9_of m outs c main_v0 (by decide)).trans <| V8_main_v0 m outs c

theorem V13_main_v11 (c : Dev nD) :
    (V13 m outs c (Proc.devRef .tc main_v11) : FVec F S64x1 .f32) = labScaleOf (arg22 m c) := by
  exact (V13_of m outs c main_v11 (by decide)).trans <| (V12_of m outs c main_v11 (by decide)).trans <| (V11_of m outs c main_v11 (by decide)).trans <| (V10_of m outs c main_v11 (by decide)).trans <| (V9_of m outs c main_v11 (by decide)).trans <| (V8_of m outs c main_v11 (by decide)).trans <| V7_main_v11 m outs c

theorem V14_main_v24 (c : Dev nD) :
    (V14 m outs c (Proc.devRef .tc main_v24) : FVec F S100000 .f32) = invSqrtDegV bcast_S_S100000 (degN (F := F) conDimsK (arg23 m c)) := by
  exact (V14_of m outs c main_v24 (by decide)).trans <| (V13_of m outs c main_v24 (by decide)).trans <| (V12_of m outs c main_v24 (by decide)).trans <| (V11_of m outs c main_v24 (by decide)).trans <| (V10_of m outs c main_v24 (by decide)).trans <| (V9_of m outs c main_v24 (by decide)).trans <| (V8_of m outs c main_v24 (by decide)).trans <| V7_main_v24 m outs c

theorem V14_main_v30 (c : Dev nD) :
    (V14 m outs c (Proc.devRef .tc main_v30) : FVec F S100000 .f32) = invSqrtDegV bcast_S_S100000 (degN (F := F) conDimsK (arg24 m c)) := by
  exact (V14_of m outs c main_v30 (by decide)).trans <| (V13_of m outs c main_v30 (by decide)).trans <| (V12_of m outs c main_v30 (by decide)).trans <| (V11_of m outs c main_v30 (by decide)).trans <| (V10_of m outs c main_v30 (by decide)).trans <| (V9_of m outs c main_v30 (by decide)).trans <| (V8_of m outs c main_v30 (by decide)).trans <| V7_main_v30 m outs c

theorem V14_main_v11 (c : Dev nD) :
    (V14 m outs c (Proc.devRef .tc main_v11) : FVec F S64x1 .f32) = labScaleOf (arg22 m c) := by
  exact (V14_of m outs c main_v11 (by decide)).trans <| V13_main_v11 m outs c

theorem V14_main_arg14 (c : Dev nD) :
    (V14 m outs c (Proc.devRef .tc main_arg14) : FVec F S128x128 .f32) = arg14 m c := by
  exact (V14_of m outs c main_arg14 (by decide)).trans <| (V13_of m outs c main_arg14 (by decide)).trans <| (V12_of m outs c main_arg14 (by decide)).trans <| (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide)).trans <| rfl

theorem V14_main_arg23 (c : Dev nD) :
    (V14 m outs c (Proc.devRef .tc main_arg23) : IVec S1600000 32) = arg23 m c := by
  exact (V14_of m outs c main_arg23 (by decide)).trans <| (V13_of m outs c main_arg23 (by decide)).trans <| (V12_of m outs c main_arg23 (by decide)).trans <| (V11_of m outs c main_arg23 (by decide)).trans <| (V10_of m outs c main_arg23 (by decide)).trans <| (V9_of m outs c main_arg23 (by decide)).trans <| (V8_of m outs c main_arg23 (by decide)).trans <| (V7_of m outs c main_arg23 (by decide)).trans <| (V6_of m c main_arg23 (by decide)).trans <| (V5_of m c main_arg23 (by decide)).trans <| (V4_of m c main_arg23 (by decide)).trans <| (V3_of m c main_arg23 (by decide)).trans <| (V2_of m c main_arg23 (by decide)).trans <| (V1_of m c main_arg23 (by decide)).trans <| rfl

theorem V14_main_arg24 (c : Dev nD) :
    (V14 m outs c (Proc.devRef .tc main_arg24) : IVec S1600000 32) = arg24 m c := by
  exact (V14_of m outs c main_arg24 (by decide)).trans <| (V13_of m outs c main_arg24 (by decide)).trans <| (V12_of m outs c main_arg24 (by decide)).trans <| (V11_of m outs c main_arg24 (by decide)).trans <| (V10_of m outs c main_arg24 (by decide)).trans <| (V9_of m outs c main_arg24 (by decide)).trans <| (V8_of m outs c main_arg24 (by decide)).trans <| (V7_of m outs c main_arg24 (by decide)).trans <| (V6_of m c main_arg24 (by decide)).trans <| (V5_of m c main_arg24 (by decide)).trans <| (V4_of m c main_arg24 (by decide)).trans <| (V3_of m c main_arg24 (by decide)).trans <| (V2_of m c main_arg24 (by decide)).trans <| (V1_of m c main_arg24 (by decide)).trans <| rfl

theorem V14_main_v62 (c : Dev nD) :
    V14 m outs c (Proc.devRef .tc main_v62) = outs 12 main_v62 c := by
  exact (V14_of m outs c main_v62 (by decide)).trans <| V13_main_v62 m outs c

theorem V14_main_v87 (c : Dev nD) :
    (V14 m outs c (Proc.devRef .tc main_v87) : FVec F S64x128 .f32)
      = bnLabOp (n := 128) reducesTo_S64x128_S128_d0 h_S_ bcast_S_S128 bcast_S128_S1x128_1 bcast_S1x128_S64x128_0_1 (outs 7 main_v31 c) (arg10 m c) (arg11 m c) := by
  exact (V14_of m outs c main_v87 (by decide)).trans <| V13_main_v87 m outs c

theorem V15_main_v0 (c : Dev nD) :
    (V15 m outs c (Proc.devRef .tc main_v0) : IVec S100000x1 32) = shapeCast S100000x1 (arg22 m c) shapeCasts_S100000_S100000x1 := by
  exact (V15_of m outs c main_v0 (by decide)).trans <| (V14_of m outs c main_v0 (by decide)).trans <| V13_main_v0 m outs c

/-- The "connected to" aggregate of layer 1's normalised sequence features, which region 5 reads. -/
theorem V15_main_v104 (c : Dev nD) :
    (V15 m outs c (Proc.devRef .tc main_v104) : FVec F S100000x128 .f32) = conOp conDimsK (arg23 m c) (arg24 m c) (outs 12 main_v62 c) := by
  refine (hostOps5_main_v104 (V14 m outs c)).trans ?_
  rw [V14_main_v24 m outs c, V14_main_v30 m outs c, V14_main_arg23 m outs c, V14_main_arg24 m outs c, V14_main_v62 m outs c]
  rfl

/-- The "including" table of layer 2, which region 5 reads. -/
theorem V15_main_v107 (c : Dev nD) :
    (V15 m outs c (Proc.devRef .tc main_v107) : FVec F S64x128 .f32)
      = incTableOf (bnLabOp (n := 128) reducesTo_S64x128_S128_d0 h_S_ bcast_S_S128 bcast_S128_S1x128_1 bcast_S1x128_S64x128_0_1 (outs 7 main_v31 c) (arg10 m c) (arg11 m c))
          (labScaleOf (arg22 m c)) (arg14 m c) := by
  refine (hostOps5_main_v107 (V14 m outs c)).trans ?_
  rw [V14_main_v87 m outs c, V14_main_v11 m outs c, V14_main_arg14 m outs c]

theorem V18_main_v111 (c : Dev nD) :
    (V18 m outs c (Proc.devRef .tc main_v111) : FVec F S1x128 .f32) = meanOf (outs 17 main_v109_0 c) := by
  refine (hostOps7_main_v111 (V17 m outs c)).trans ?_
  rw [show V17 m outs c (Proc.devRef .tc main_v109_0) = outs 17 main_v109_0 c from by
    simp only [V17, Function.update_of_ne (StableHlo.devRef_ne_of_ne (by decide : main_v109_0 ≠ main_v109_1) : (Proc.devRef .tc main_v109_0 : DevRef τ sig) ≠ Proc.devRef .tc main_v109_1), Function.update_self]]

theorem V18_main_v118 (c : Dev nD) :
    (V18 m outs c (Proc.devRef .tc main_v118) : FVec F S1x128 .f32) = invStdOf (outs 17 main_v109_0 c) (outs 17 main_v109_1 c) := by
  refine (hostOps7_main_v118 (V17 m outs c)).trans ?_
  rw [show V17 m outs c (Proc.devRef .tc main_v109_0) = outs 17 main_v109_0 c from by
    simp only [V17, Function.update_of_ne (StableHlo.devRef_ne_of_ne (by decide : main_v109_0 ≠ main_v109_1) : (Proc.devRef .tc main_v109_0 : DevRef τ sig) ≠ Proc.devRef .tc main_v109_1), Function.update_self],
    show V17 m outs c (Proc.devRef .tc main_v109_1) = outs 17 main_v109_1 c from by simp only [V17, Function.update_self]]

theorem V18_main_v108 (c : Dev nD) :
    V18 m outs c (Proc.devRef .tc main_v108) = outs 16 main_v108 c := by
  refine ((V18_of m outs c main_v108 (by decide)).trans <| (V17_of m outs c main_v108 (by decide)).trans <| ?_)
  simp only [V16, Function.update_self]

theorem V19_main_v88 (c : Dev nD) :
    V19 m outs c (Proc.devRef .tc main_v88) = outs 14 main_v88 c := by
  refine ((V19_of m outs c main_v88 (by decide)).trans <| (V18_of m outs c main_v88 (by decide)).trans <| (V17_of m outs c main_v88 (by decide)).trans <| (V16_of m outs c main_v88 (by decide)).trans <| (V15_of m outs c main_v88 (by decide)).trans <| ?_)
  simp only [V14, Function.update_self]

theorem V19_main_arg20 (c : Dev nD) :
    (V19 m outs c (Proc.devRef .tc main_arg20) : FVec F S64 .f32) = arg20 m c := by
  exact (V19_of m outs c main_arg20 (by decide)).trans <| (V18_of m outs c main_arg20 (by decide)).trans <| (V17_of m outs c main_arg20 (by decide)).trans <| (V16_of m outs c main_arg20 (by decide)).trans <| (V15_of m outs c main_arg20 (by decide)).trans <| (V14_of m outs c main_arg20 (by decide)).trans <| (V13_of m outs c main_arg20 (by decide)).trans <| (V12_of m outs c main_arg20 (by decide)).trans <| (V11_of m outs c main_arg20 (by decide)).trans <| (V10_of m outs c main_arg20 (by decide)).trans <| (V9_of m outs c main_arg20 (by decide)).trans <| (V8_of m outs c main_arg20 (by decide)).trans <| (V7_of m outs c main_arg20 (by decide)).trans <| (V6_of m c main_arg20 (by decide)).trans <| (V5_of m c main_arg20 (by decide)).trans <| (V4_of m c main_arg20 (by decide)).trans <| (V3_of m c main_arg20 (by decide)).trans <| (V2_of m c main_arg20 (by decide)).trans <| (V1_of m c main_arg20 (by decide)).trans <| rfl

theorem V19_main_arg21 (c : Dev nD) :
    (V19 m outs c (Proc.devRef .tc main_arg21) : FVec F S64 .f32) = arg21 m c := by
  exact (V19_of m outs c main_arg21 (by decide)).trans <| (V18_of m outs c main_arg21 (by decide)).trans <| (V17_of m outs c main_arg21 (by decide)).trans <| (V16_of m outs c main_arg21 (by decide)).trans <| (V15_of m outs c main_arg21 (by decide)).trans <| (V14_of m outs c main_arg21 (by decide)).trans <| (V13_of m outs c main_arg21 (by decide)).trans <| (V12_of m outs c main_arg21 (by decide)).trans <| (V11_of m outs c main_arg21 (by decide)).trans <| (V10_of m outs c main_arg21 (by decide)).trans <| (V9_of m outs c main_arg21 (by decide)).trans <| (V8_of m outs c main_arg21 (by decide)).trans <| (V7_of m outs c main_arg21 (by decide)).trans <| (V6_of m c main_arg21 (by decide)).trans <| (V5_of m c main_arg21 (by decide)).trans <| (V4_of m c main_arg21 (by decide)).trans <| (V3_of m c main_arg21 (by decide)).trans <| (V2_of m c main_arg21 (by decide)).trans <| (V1_of m c main_arg21 (by decide)).trans <| rfl

/-- The label-side result: the normalised label rows of layer 2. -/
theorem V20_main_v144 (c : Dev nD) :
    (V20 m outs c (Proc.devRef .tc main_v144) : FVec F S64x64 .f32)
      = bnLabOp (n := 64) reducesTo_S64x64_S64_d0 h_S_ bcast_S_S64 bcast_S64_S1x64_1 bcast_S1x64_S64x64_0_1 (outs 14 main_v88 c) (arg20 m c) (arg21 m c) := by
  refine (hostOps8_main_v144 (V19 m outs c)).trans ?_
  rw [V19_main_v88 m outs c, V19_main_arg20 m outs c, V19_main_arg21 m outs c]

/-- The sequence-side result: what region 7 leaves. -/
theorem V20_main_v119 (c : Dev nD) :
    V20 m outs c (Proc.devRef .tc main_v119) = outs 19 main_v119 c := by
  refine ((V20_of m outs c main_v119 (by decide)).trans <| ?_)
  simp only [V19, Function.update_self]

end Cert.KernelIdeal.Hand

end
-- ==== Proof.ConOpRead.lean ====
/-
  The shared chains read at an index, at the extended reals: a vector reshaped to a column, a column or a row spread over a matrix,
  the column sums over the 64 label rows, and the label side's batch normalisation, which read at (row, column) is `bnLab` of the
  matrix and the two parameter vectors.
-/
import proofs.«405200_j27075473834261_2_alg».proof.Proof.ConOp
import Idealize.ShloMosaic.Lib.Pipeline.Value
import Idealize.ShloMosaic.Lib.IdealHost

noncomputable section

open scoped BigOperators

namespace Cert.Hgcn

open Idealize.ShloMosaic Idealize.ShloMosaic.ValueIdx

/-! ## Reshapes and broadcasts of small ranks, at an index -/

/-- A vector reshaped to a column reads, at (row, 0), the vector at the row. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector spread to a column reads, at (row, 0), the vector at the row. -/
theorem bcast_a_a1_apply {α : Type} {a : ℕ} (ha : a ≠ 1) (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x _ (ix1 i) (fun a' => by
    match a' with
    | ⟨0, _⟩ =>
      show i.val = if a = 1 then 0 else i.val
      rw [if_neg ha])

/-- A column spread over the columns of a matrix reads, at (row, column), the column at the row. -/
theorem bcast_a1_ab_apply {α : Type} {a b : ℕ} (ha : a ≠ 1) (x : (⟨2, ![a, 1]⟩ : Shape).Idx → α)
    (h : (⟨2, ![a, 1]⟩ : Shape).BroadcastsInDim ⟨2, ![a, b]⟩ (![0, 1] : Fin 2 → Fin 2)) (i : Fin a) (k : Fin b) :
    broadcastInDim ⟨2, ![a, b]⟩ ![0, 1] h x (ix2 i k) = x (ix2 i 0) :=
  broadcastInDim_apply _ h x _ (ix2 i 0) (fun a' => by
    match a' with
    | ⟨0, _⟩ =>
      show i.val = if a = 1 then 0 else i.val
      rw [if_neg ha]
    | ⟨1, _⟩ =>
      show (0 : ℕ) = if (1 : ℕ) = 1 then 0 else k.val
      rw [if_pos rfl])

/-- A vector laid as one row reads, at (0, column), the vector at the column. -/
theorem bcast_n_1n_apply {α : Type} {n : ℕ} (hn : n ≠ 1) (x : (⟨1, ![n]⟩ : Shape).Idx → α)
    (h : (⟨1, ![n]⟩ : Shape).BroadcastsInDim ⟨2, ![1, n]⟩ (![1] : Fin 1 → Fin 2)) (u : Fin 1) (d : Fin n) :
    broadcastInDim ⟨2, ![1, n]⟩ ![1] h x (ix2 u d) = x (ix1 d) :=
  broadcastInDim_apply _ h x _ (ix1 d) (fun a' => by
    match a' with
    | ⟨0, _⟩ =>
      show d.val = if n = 1 then 0 else d.val
      rw [if_neg hn])

/-- One row spread over the rows of a matrix reads, at (row, column), the row at the column. -/
theorem bcast_1n_mn_apply {α : Type} {m n : ℕ} (hn : n ≠ 1) (x : (⟨2, ![1, n]⟩ : Shape).Idx → α)
    (h : (⟨2, ![1, n]⟩ : Shape).BroadcastsInDim ⟨2, ![m, n]⟩ (![0, 1] : Fin 2 → Fin 2)) (i : Fin m) (d : Fin n) :
    broadcastInDim ⟨2, ![m, n]⟩ ![0, 1] h x (ix2 i d) = x (ix2 0 d) :=
  broadcastInDim_apply _ h x _ (ix2 0 d) (fun a' => by
    match a' with
    | ⟨0, _⟩ =>
      show (0 : ℕ) = if (1 : ℕ) = 1 then 0 else i.val
      rw [if_pos rfl]
    | ⟨1, _⟩ =>
      show d.val = if n = 1 then 0 else d.val
      rw [if_neg hn])

/-- A per-node scale spread over the node's feature row reads the node's scale. -/
theorem rowScale_apply {F : FTy → Type} [FloatOps F] (D : ConDims) (v : FVec F SN .f32) (i : Fin 100000) (k : Fin 128) :
    rowScale D v (ix2 i k) = v (ix1 i) := by
  unfold rowScale
  rw [bcast_a1_ab_apply (by decide), bcast_a_a1_apply (by decide)]

/-! ## The label side's batch normalisation at (row, column) -/

section BnLab

variable {n : ℕ}

/-- A per-column vector spread over the 64 rows reads the vector at the column. -/
theorem rowsOf_apply {F : FTy → Type} [FloatOps F] (hn : n ≠ 1) (h1 : (Sv n).BroadcastsInDim (S1v n) (![1] : Fin 1 → Fin (S1v n).rank))
    (h2 : (S1v n).BroadcastsInDim (SLv n) (![0, 1] : Fin 2 → Fin (SLv n).rank)) (v : FVec F (Sv n) .f32) (i : Fin 64) (d : Fin n) :
    rowsOf h1 h2 v (ix2 i d) = v (ix1 d) := by
  unfold rowsOf
  rw [bcast_1n_mn_apply hn, bcast_n_1n_apply hn]

/-- The host's sum over the 64 rows, from zero, reads at a column the sum of the column. -/
theorem colSum64_apply (hr : (SLv n).ReducesTo [0] (Sv n)) (hR : (SLv n).Reduces [0] (Sv n)) (hS : 0 < Sc.numel)
    (x : FVec Ideal (SLv n) .f32) (d : Fin n) :
    Host.reduceAdd x (constant (F := Ideal) Sc .f32 0x00000000#32) hr hS (ix1 d) = ∑ i : Fin 64, x (ix2 i d) := by
  rw [hostReduceAdd_apply, Ideal.hostReduceAdd_single hr hR]
  show Ideal.ofBits .f32 0x00000000#32 + _ = _
  rw [Ideal.ofBits_zero_f32, zero_add]
  refine Finset.sum_congr rfl fun i _ => congrArg x ?_
  funext c
  apply Fin.ext
  rw [hR.lift_val]
  match c with
  | ⟨0, h0⟩ =>
    show hR.liftVal (ix1 d) i.val ⟨0, h0⟩ = i.val
    unfold Shape.Reduces.liftVal
    exact dif_pos rfl
  | ⟨1, h1⟩ =>
    show hR.liftVal (ix1 d) i.val ⟨1, h1⟩ = d.val
    unfold Shape.Reduces.liftVal
    exact (dif_neg Nat.one_ne_zero).trans ((dif_neg (Nat.not_lt_zero 1)).trans rfl)

/-- The column mean over the 64 rows, as the array operations compute it, is `meanL`. -/
theorem meanLOp_apply (hr : (SLv n).ReducesTo [0] (Sv n)) (hR : (SLv n).Reduces [0] (Sv n)) (hS : 0 < Sc.numel)
    (hb : Sc.BroadcastsInDim (Sv n) (![] : Fin 0 → Fin (Sv n).rank)) (x : FVec Ideal (SLv n) .f32) (d : Fin n) :
    meanLOp hr hS hb x (ix1 d) = meanL (ofArr x) d := by
  unfold meanLOp
  show Ideal.div (Host.reduceAdd x (constant (F := Ideal) Sc .f32 0x00000000#32) hr hS (ix1 d)) (Ideal.ofBits .f32 0x42800000#32) = _
  rw [colSum64_apply hr hR hS x d]
  rfl

/-- The label side's batch normalisation, as the array operations compute it, is `bnLab` at every (row, column). -/
theorem bnLabOp_apply (hn : n ≠ 1) (hr : (SLv n).ReducesTo [0] (Sv n)) (hR : (SLv n).Reduces [0] (Sv n)) (hS : 0 < Sc.numel)
    (hb : Sc.BroadcastsInDim (Sv n) (![] : Fin 0 → Fin (Sv n).rank))
    (h1 : (Sv n).BroadcastsInDim (S1v n) (![1] : Fin 1 → Fin (S1v n).rank))
    (h2 : (S1v n).BroadcastsInDim (SLv n) (![0, 1] : Fin 2 → Fin (SLv n).rank))
    (x : FVec Ideal (SLv n) .f32) (g b : FVec Ideal (Sv n) .f32) (i : Fin 64) (d : Fin n) :
    bnLabOp hr hS hb h1 h2 x g b (ix2 i d) = bnLab (ofArr x) (ofArr1 g) (ofArr1 b) i d := by
  have hm : ∀ (i' : Fin 64) (d' : Fin n),
      subf x (rowsOf h1 h2 (meanLOp hr hS hb x)) (ix2 i' d') = x (ix2 i' d') - meanL (ofArr x) d' := fun i' d' => by
    rw [subf_apply, rowsOf_apply hn, meanLOp_apply hr hR]
  unfold bnLabOp
  rw [addf_apply, mulf_apply, mulf_apply, hm, rowsOf_apply hn, rowsOf_apply hn, rowsOf_apply hn]
  show _ * Ideal.rsqrt (Ideal.div
      (Host.reduceAdd (mulf (subf x (rowsOf h1 h2 (meanLOp hr hS hb x))) (subf x (rowsOf h1 h2 (meanLOp hr hS hb x))))
        (constant (F := Ideal) Sc .f32 0x00000000#32) hr hS (ix1 d))
      (Ideal.ofBits .f32 0x42800000#32) + Ideal.ofBits .f32 0x3727C5AC#32) * _ + _ = _
  rw [colSum64_apply hr hR hS]
  simp only [mulf_apply, hm]
  rfl

end BnLab

end Cert.Hgcn

end
-- ==== Proof.ScatterGather.lean ====
/-
  The host's accumulating scatter and its gather along the row axis, read at an index.

  A segment sum `segment_sum(u, t, num_segments = N)` prints as an accumulating scatter of the rows of `u : [n, K]` (or of the entries
  of `u : [n]`) into an array of `N` rows at the row numbers `t : [n, 1]`; a row lookup `x[t]` prints as a gather of the rows of
  `x : [N, K]` at `t : [n, 1]`. When every row number is in range (`t e` read as a signed integer is the natural number `tgt e < N`):

  * the scatter's result at row `r` is the operand's element plus the sum, over the update rows `e`, of the update's element
    where `tgt e = r` (and of zero elsewhere): `scatterAdd_rows`, `scatterAdd_vec`;
  * the gather's result row `e` is the operand's row `tgt e`: `gather_rows`.

  The dimension numbers are a hypothesis on the record's fields (each closed by `rfl` at a program's record), as in the library's
  `gather_take`. Then the words: an in-range natural number as a 32-bit word reads back signed as itself, is not negative, and the
  reference's wrap of a possibly negative index leaves it alone.
-/
import Idealize.ShloMosaic.PureOps.Ideal
import Idealize.ShloMosaic.Lib.ValueIdx
import Idealize.ShloMosaic.Lib.StableHlo.Predicate

noncomputable section

open scoped BigOperators

namespace Cert.ScatterGather

open Idealize.ShloMosaic Idealize.ShloMosaic.ValueIdx

/-! ## Indices -/

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two rank-2 indices are equal exactly when their coordinates are. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩
/-- Two rank-1 indices are equal exactly when their coordinates are. -/
theorem ix1_eq_iff {n : Nat} (a a' : Fin n) : ix1 a = ix1 a' ↔ a = a' :=
  ⟨fun h => congrFun h 0, fun h => by rw [h]⟩

/-! ## The accumulating scatter of rows: updates `[n, K]` into `[N, K]` at row numbers `[n, 1]` -/

section Rows
variable {N K n w : Nat} (d : ScatterDims ⟨2, ![N, K]⟩ ⟨2, ![n, 1]⟩ ⟨2, ![n, K]⟩)
  (hu : d.updateWindowDims = [1]) (hi : d.insertedWindowDims = [0]) (hs : d.scatterDimsToOperandDims = [0])
  (hv : d.indexVectorDim = 1)
include hu hi hs hv

/-- On the row axis the window starts at the row number the update's row names, read signed. -/
theorem rows_start0 (idx : IVec ⟨2, ![n, 1]⟩ w) (j : (⟨2, ![n, K]⟩ : Shape).Idx) (a : Fin 2) (ha : a = 0) :
    d.start j idx a = (idx (ix2 (j 0) 0)).toInt := by
  subst ha
  have hmem : (0 : Fin 2) ∈ d.scatterDimsToOperandDims := by rw [hs]; exact List.mem_singleton.mpr rfl
  unfold ScatterDims.start
  rw [dif_pos hmem]
  congr 2
  obtain ⟨uw, iw, sd, iv, wf⟩ := d
  dsimp only at hu hi hs hv
  subst hu hi hs hv
  funext b
  match b with
  | ⟨0, _⟩ => rfl
  | ⟨1, _⟩ => rfl

omit hu hi hv in
/-- On the column axis the window starts at 0. -/
theorem rows_start1 (idx : IVec ⟨2, ![n, 1]⟩ w) (j : (⟨2, ![n, K]⟩ : Shape).Idx) (a : Fin 2) (ha : a = 1) :
    d.start j idx a = 0 := by
  subst ha
  have hmem : ¬ (1 : Fin 2) ∈ d.scatterDimsToOperandDims := by rw [hs]; exact (by decide : ¬ ((1 : Fin 2) ∈ ([0] : List (Fin 2))))
  unfold ScatterDims.start
  rw [dif_neg hmem]

omit hu hs hv in
/-- The row axis is inserted: no window coordinate. -/
theorem rows_window0 (j : (⟨2, ![n, K]⟩ : Shape).Idx) (a : Fin 2) (ha : a = 0) : d.window j a = 0 := by
  subst ha
  have hmem : ¬ (0 : Fin 2) ∈ d.sKept := by
    show ¬ (0 : Fin 2) ∈ Shape.kept _ d.insertedWindowDims
    rw [hi]; exact (by decide : ¬ ((0 : Fin 2) ∈ (List.finRange 2).filter (fun a => a ∉ ([0] : List (Fin 2)))))
  unfold ScatterDims.window
  rw [dif_neg hmem]

omit hs hv in
/-- The column axis carries the update's column. -/
theorem rows_window1 (j : (⟨2, ![n, K]⟩ : Shape).Idx) (a : Fin 2) (ha : a = 1) : d.window j a = (j 1).val := by
  subst ha
  have hmem : (1 : Fin 2) ∈ d.sKept := by
    show (1 : Fin 2) ∈ Shape.kept _ d.insertedWindowDims
    rw [hi]; exact (by decide : (1 : Fin 2) ∈ (List.finRange 2).filter (fun a => a ∉ ([0] : List (Fin 2))))
  unfold ScatterDims.window
  rw [dif_pos hmem]
  obtain ⟨uw, iw, sd, iv, wf⟩ := d
  dsimp only at hu hi
  subst hu hi
  rfl

/-- Update element `(e, k)` lands at `(tgt e, k)` when row `e`'s row number, read signed, is `tgt e`. -/
theorem rows_resultIdx (idx : IVec ⟨2, ![n, 1]⟩ w) (e : Fin n) (k : Fin K) (r : Fin N)
    (hr : (idx (ix2 e 0)).toInt = (r.val : Int)) :
    d.resultIdx? (ix2 e k) idx = some (ix2 r k) := by
  have s0 : d.start (ix2 e k) idx (0 : Fin 2) = (r.val : Int) := (rows_start0 d hu hi hs hv idx (ix2 e k) 0 rfl).trans hr
  have s1 : d.start (ix2 e k) idx (1 : Fin 2) = 0 := rows_start1 d hs idx (ix2 e k) 1 rfl
  have w0 : d.window (ix2 e k) (0 : Fin 2) = 0 := rows_window0 d hi (ix2 e k) 0 rfl
  have w1 : d.window (ix2 e k) (1 : Fin 2) = k.val := rows_window1 d hu hi (ix2 e k) 1 rfl
  have hr' := r.isLt
  have hk' := k.isLt
  have hin : ∀ a : Fin 2, 0 ≤ d.start (ix2 e k) idx a + d.window (ix2 e k) a
      ∧ d.start (ix2 e k) idx a + d.window (ix2 e k) a < (⟨2, ![N, K]⟩ : Shape).size a := by
    refine Fin.forall_fin_two.mpr ⟨?_, ?_⟩
    · rw [s0, w0]; exact ⟨by omega, by show (r.val : Int) + ((0 : Nat) : Int) < ((N : Nat) : Int); omega⟩
    · rw [s1, w1]; exact ⟨by omega, by show (0 : Int) + ((k.val : Nat) : Int) < ((K : Nat) : Int); omega⟩
  unfold ScatterDims.resultIdx?
  rw [dif_pos hin]
  refine congrArg some (funext fun a => Fin.ext ?_)
  revert a
  refine Fin.forall_fin_two.mpr ⟨?_, ?_⟩
  · show (d.start (ix2 e k) idx (0 : Fin 2) + d.window (ix2 e k) (0 : Fin 2)).toNat = r.val
    rw [s0, w0]; omega
  · show (d.start (ix2 e k) idx (1 : Fin 2) + d.window (ix2 e k) (1 : Fin 2)).toNat = k.val
    rw [s1, w1]; omega

/-- THE SEGMENT SUM OF ROWS AT AN INDEX: the operand's element plus the update's elements of column `k` in the rows sent to
    row `r`. -/
theorem scatterAdd_rows (x : (⟨2, ![N, K]⟩ : Shape).Idx → EReal) (idx : IVec ⟨2, ![n, 1]⟩ w)
    (upd : (⟨2, ![n, K]⟩ : Shape).Idx → EReal) (tgt : Fin n → Fin N)
    (ht : ∀ e, (idx (ix2 e 0)).toInt = ((tgt e).val : Int)) (r : Fin N) (k : Fin K) :
    Ideal.hostScatterAdd d x idx upd (ix2 r k) = x (ix2 r k) + ∑ e : Fin n, if tgt e = r then upd (ix2 e k) else 0 := by
  have key : ∀ (e : Fin n) (k' : Fin K), d.resultIdx? (ix2 e k') idx = some (ix2 r k) ↔ (tgt e = r ∧ k' = k) := by
    intro e k'
    rw [rows_resultIdx d hu hi hs hv idx e k' (tgt e) (ht e), Option.some_inj]
    exact ix2_eq_iff _ _ _ _
  unfold Ideal.hostScatterAdd
  refine congrArg (x (ix2 r k) + ·) ?_
  rw [Finset.sum_filter, sum_idx2]
  refine Finset.sum_congr rfl fun e _ => ?_
  by_cases h : tgt e = r
  · rw [if_pos h, Finset.sum_eq_single k]
    · exact if_pos ((key e k).mpr ⟨h, rfl⟩)
    · intro k' _ hk'
      exact if_neg fun hc => hk' ((key e k').mp hc).2
    · intro hk
      exact absurd (Finset.mem_univ k) hk
  · rw [if_neg h]
    exact Finset.sum_eq_zero fun k' _ => if_neg fun hc => h ((key e k').mp hc).1

end Rows

/-! ## The accumulating scatter of entries: updates `[n]` into `[N]` at positions `[n, 1]` -/

section Vec
variable {N n w : Nat} (d : ScatterDims ⟨1, ![N]⟩ ⟨2, ![n, 1]⟩ ⟨1, ![n]⟩)
  (hu : d.updateWindowDims = []) (hi : d.insertedWindowDims = [0]) (hs : d.scatterDimsToOperandDims = [0])
  (hv : d.indexVectorDim = 1)
include hu hi hs hv

/-- The window starts at the position the update's entry names, read signed. -/
theorem vec_start (idx : IVec ⟨2, ![n, 1]⟩ w) (j : (⟨1, ![n]⟩ : Shape).Idx) (a : Fin 1) :
    d.start j idx a = (idx (ix2 (j 0) 0)).toInt := by
  obtain rfl : a = 0 := Subsingleton.elim _ _
  have hmem : (0 : Fin 1) ∈ d.scatterDimsToOperandDims := by rw [hs]; exact List.mem_singleton.mpr rfl
  unfold ScatterDims.start
  rw [dif_pos hmem]
  congr 2
  obtain ⟨uw, iw, sd, iv, wf⟩ := d
  dsimp only at hu hi hs hv
  subst hu hi hs hv
  funext b
  match b with
  | ⟨0, _⟩ => rfl
  | ⟨1, _⟩ => rfl

omit hu hs hv in
/-- The one axis is inserted: no window coordinate. -/
theorem vec_window (j : (⟨1, ![n]⟩ : Shape).Idx) (a : Fin 1) : d.window j a = 0 := by
  obtain rfl : a = 0 := Subsingleton.elim _ _
  have hmem : ¬ (0 : Fin 1) ∈ d.sKept := by
    show ¬ (0 : Fin 1) ∈ Shape.kept _ d.insertedWindowDims
    rw [hi]; exact (by decide : ¬ ((0 : Fin 1) ∈ (List.finRange 1).filter (fun a => a ∉ ([0] : List (Fin 1)))))
  unfold ScatterDims.window
  rw [dif_neg hmem]

/-- Update entry `e` lands at `tgt e` when its position, read signed, is `tgt e`. -/
theorem vec_resultIdx (idx : IVec ⟨2, ![n, 1]⟩ w) (e : Fin n) (r : Fin N)
    (hr : (idx (ix2 e 0)).toInt = (r.val : Int)) :
    d.resultIdx? (ix1 e) idx = some (ix1 r) := by
  have s0 : ∀ a : Fin 1, d.start (ix1 e) idx a = (r.val : Int) := fun a => (vec_start d hu hi hs hv idx (ix1 e) a).trans hr
  have w0 : ∀ a : Fin 1, d.window (ix1 e) a = 0 := fun a => vec_window d hi (ix1 e) a
  have hr' := r.isLt
  have hin : ∀ a : Fin 1, 0 ≤ d.start (ix1 e) idx a + d.window (ix1 e) a
      ∧ d.start (ix1 e) idx a + d.window (ix1 e) a < (⟨1, ![N]⟩ : Shape).size a := by
    intro a
    obtain rfl : a = 0 := Subsingleton.elim _ _
    rw [s0, w0]; exact ⟨by omega, by show (r.val : Int) + ((0 : Nat) : Int) < ((N : Nat) : Int); omega⟩
  unfold ScatterDims.resultIdx?
  rw [dif_pos hin]
  refine congrArg some (funext fun a => Fin.ext ?_)
  obtain rfl : a = 0 := Subsingleton.elim _ _
  show (d.start (ix1 e) idx (0 : Fin 1) + d.window (ix1 e) (0 : Fin 1)).toNat = r.val
  rw [s0, w0]; omega

/-- THE SEGMENT SUM OF ENTRIES AT AN INDEX: the operand's entry plus the update's entries sent to position `r`. -/
theorem scatterAdd_vec (x : (⟨1, ![N]⟩ : Shape).Idx → EReal) (idx : IVec ⟨2, ![n, 1]⟩ w)
    (upd : (⟨1, ![n]⟩ : Shape).Idx → EReal) (tgt : Fin n → Fin N)
    (ht : ∀ e, (idx (ix2 e 0)).toInt = ((tgt e).val : Int)) (r : Fin N) :
    Ideal.hostScatterAdd d x idx upd (ix1 r) = x (ix1 r) + ∑ e : Fin n, if tgt e = r then upd (ix1 e) else 0 := by
  have key : ∀ e : Fin n, d.resultIdx? (ix1 e) idx = some (ix1 r) ↔ tgt e = r := by
    intro e
    rw [vec_resultIdx d hu hi hs hv idx e (tgt e) (ht e), Option.some_inj]
    exact ix1_eq_iff _ _
  unfold Ideal.hostScatterAdd
  refine congrArg (x (ix1 r) + ·) ?_
  rw [Finset.sum_filter, sum_idx1]
  refine Finset.sum_congr rfl fun e _ => ?_
  by_cases h : tgt e = r
  · rw [if_pos h, if_pos ((key e).mpr h)]
  · rw [if_neg h, if_neg fun hc => h ((key e).mp hc)]

end Vec

/-! ## The gather of rows: rows of `[N, K]` at row numbers `[n, 1]` -/

section Gather
variable {α : Type} {N K n w : Nat} (d : GatherDims ⟨2, ![N, K]⟩ ⟨2, ![n, 1]⟩ ⟨2, ![n, K]⟩)
  (ho : d.offsetDims = [1]) (hc : d.collapsedSliceDims = [0]) (hob : d.operandBatchingDims = [])
  (hsb : d.startIndicesBatchingDims = []) (hm : d.startIndexMap = [0]) (hv : d.indexVectorDim = 1)
include ho hc hob hsb hm hv

/-- THE ROW LOOKUP AT AN INDEX: result row `e` is the operand's row `src`, when row `e`'s row number read signed is `src`
    (an in-range start is not moved by the gather's clamp). -/
theorem gather_rows (x : (⟨2, ![N, K]⟩ : Shape).Idx → α) (idx : IVec ⟨2, ![n, 1]⟩ w) (e : Fin n) (k : Fin K) (src : Fin N)
    (hsrc : (idx (ix2 e 0)).toInt = (src.val : Int)) :
    Host.gather d x idx (ix2 e k) = x (ix2 src k) := by
  have hc0 : (0 : Fin 2) ∈ d.collapsedSliceDims := by rw [hc]; exact List.mem_singleton.mpr rfl
  have hsl : d.sliceSizes (0 : Fin 2) = 1 := d.slice_collapsed 0 hc0
  have hb0 : (0 : Fin 2) ∉ d.operandBatchingDims := by rw [hob]; exact List.not_mem_nil
  have hb1 : (1 : Fin 2) ∉ d.operandBatchingDims := by rw [hob]; exact List.not_mem_nil
  have hk0 : (0 : Fin 2) ∉ d.sKept := fun h => ((d.mem_sKept 0).mp h).1 hc0
  have hk1 : (1 : Fin 2) ∈ d.sKept := (d.mem_sKept 1).mpr ⟨by rw [hc]; exact (by decide : ¬ ((1 : Fin 2) ∈ ([0] : List (Fin 2)))), hb1⟩
  have hm0 : (0 : Fin 2) ∈ d.startIndexMap := by rw [hm]; exact List.mem_singleton.mpr rfl
  have hm1 : ¬ (1 : Fin 2) ∈ d.startIndexMap := by rw [hm]; exact (by decide : ¬ ((1 : Fin 2) ∈ ([0] : List (Fin 2))))
  have hsrc' := src.isLt
  have hk' := k.isLt
  have hst0 : d.start (ix2 e k) idx (0 : Fin 2) = min (idx (ix2 e 0)).toInt.toNat (N - 1) := by
    unfold GatherDims.start
    rw [dif_pos hm0, hsl]
    show min (idx _).toInt.toNat (N - 1) = _
    congr 3
    congr 1
    obtain ⟨od, cs, ob, sib, sim, iv, ss, wf⟩ := d
    dsimp only at ho hc hob hsb hm hv
    subst ho hc hob hsb hm hv
    funext b
    match b with
    | ⟨0, _⟩ => rfl
    | ⟨1, _⟩ => rfl
  have hst1 : d.start (ix2 e k) idx (1 : Fin 2) = 0 := by
    unfold GatherDims.start
    rw [dif_neg hm1]
  have hoff1 : d.offCoord (ix2 e k) (1 : Fin 2) = k.val := by
    unfold GatherDims.offCoord
    rw [dif_pos hk1]
    obtain ⟨od, cs, ob, sib, sim, iv, ss, wf⟩ := d
    dsimp only at ho hc hob hsb hm hv
    subst ho hc hob hsb hm hv
    rfl
  unfold Host.gather
  refine congrArg x (funext fun a => Fin.ext ?_)
  revert a
  refine Fin.forall_fin_two.mpr ⟨?_, ?_⟩
  · show d.start (ix2 e k) idx (0 : Fin 2) + d.batchCoord (ix2 e k) (0 : Fin 2) + d.offCoord (ix2 e k) (0 : Fin 2) = src.val
    rw [d.batchCoord_eq_zero (ix2 e k) 0 hb0, d.offCoord_eq_zero (ix2 e k) 0 hk0, hst0, hsrc]
    omega
  · show d.start (ix2 e k) idx (1 : Fin 2) + d.batchCoord (ix2 e k) (1 : Fin 2) + d.offCoord (ix2 e k) (1 : Fin 2) = k.val
    rw [d.batchCoord_eq_zero (ix2 e k) 1 hb1, hst1, hoff1]
    omega

end Gather

/-! ## Words: a row number in range, as the 32-bit word both programs carry -/

/-- A natural number below 2³¹ as a 32-bit word reads back signed as itself. -/
theorem toInt_ofNat (a : Nat) (ha : a < 2 ^ 31) : (BitVec.ofNat 32 a).toInt = (a : Int) :=
  StableHlo.Predicate.toInt_ofNat_small a ha

/-- Such a word is not negative: the signed comparison with the zero word is the bit `0`. -/
theorem slt_zero_ofNat (a : Nat) (ha : a < 2 ^ 31) : IntOp.cmpi .slt (BitVec.ofNat 32 a) 0#32 = 0#1 := by
  refine eq_zero_of_ne_one fun h => ?_
  exact Nat.not_lt_zero a ((StableHlo.Predicate.slt_ofNat_iff a 0 ha (by decide)).mp h)

/-- The wrap of a possibly negative index, `select(i < 0, i + n, i)`, leaves an index in range alone. -/
theorem wrap_ofNat (a : Nat) (ha : a < 2 ^ 31) (m : BitVec 32) :
    Scalar.select (IntOp.cmpi .slt (BitVec.ofNat 32 a) 0#32) (IntOp.addi (BitVec.ofNat 32 a) m) (BitVec.ofNat 32 a)
      = BitVec.ofNat 32 a := by
  rw [slt_zero_ofNat a ha]; exact select_zero _ _

end Cert.ScatterGather

end
-- ==== Proof.SegmentSum.lean ====
/-
  Segment sums and row lookups along the two index arrays the network uses: the node numbers `0, 1, …, 99999` themselves (every
  node once: the segment sum is the array itself and a lookup is the row itself), and the label words (a segment sum over the labels
  is the sum over the nodes of the label's indicator times the node's entry; a lookup at the labels is the label's row).
  A label word names the label `ℓ i`: `lab i = BitVec.ofNat 32 (ℓ i)`.
-/
import proofs.«405200_j27075473834261_2_alg».proof.Proof.Spec
import proofs.«405200_j27075473834261_2_alg».proof.Proof.ScatterGather
import Idealize.ShloMosaic.Lib.IdealHost

noncomputable section

open scoped BigOperators

namespace Cert.Hgcn

open Idealize.ShloMosaic Idealize.ShloMosaic.ValueIdx Cert.ScatterGather

/-! ## Label words -/

/-- Two natural numbers below 2³² are equal when their 32-bit words are. -/
theorem ofNat32_inj (a b : Nat) (ha : a < 2 ^ 32) (hb : b < 2 ^ 32) (h : BitVec.ofNat 32 a = BitVec.ofNat 32 b) : a = b := by
  have h' := congrArg BitVec.toNat h
  simp only [BitVec.toNat_ofNat] at h'
  rwa [Nat.mod_eq_of_lt ha, Nat.mod_eq_of_lt hb] at h'

section Labels
variable (lab : Fin 100000 → BitVec 32) (ℓ : Fin 100000 → Fin 64) (hℓ : ∀ i, lab i = BitVec.ofNat 32 (ℓ i).val)
include hℓ

/-- The indicator of a label word is the indicator of the label it names. -/
theorem hot_label (i : Fin 100000) (l : Fin 64) : hot (lab i) l = if ℓ i = l then 1 else 0 := by
  have h1 := (ℓ i).isLt
  have h2 := l.isLt
  unfold hot
  rw [hℓ i]
  by_cases h : ℓ i = l
  · have h' : BitVec.ofNat 32 (ℓ i).val = BitVec.ofNat 32 l.val := by rw [h]
    rw [if_pos h', if_pos h]
  · have h' : ¬ BitVec.ofNat 32 (ℓ i).val = BitVec.ofNat 32 l.val := fun hh =>
      h (Fin.ext (ofNat32_inj _ _ (by omega) (by omega) hh))
    rw [if_neg h', if_neg h]

/-- An entry kept where the node's label is `l` is the indicator times the entry. -/
theorem ite_label_eq (i : Fin 100000) (l : Fin 64) (y : EReal) : (if ℓ i = l then y else 0) = hot (lab i) l * y := by
  rw [hot_label lab ℓ hℓ i l]
  by_cases h : ℓ i = l
  · rw [if_pos h, if_pos h, one_mul]
  · rw [if_neg h, if_neg h, zero_mul]

/-- A label word read as a signed integer is the label. -/
theorem label_toInt (i : Fin 100000) : (lab i).toInt = ((ℓ i).val : Int) := by
  rw [hℓ i]
  have h1 := (ℓ i).isLt
  exact toInt_ofNat _ (by omega)

/-- The wrap of a possibly negative index leaves a label word alone. -/
theorem label_wrap (i : Fin 100000) (m : BitVec 32) :
    Scalar.select (IntOp.cmpi .slt (lab i) 0#32) (IntOp.addi (lab i) m) (lab i) = lab i := by
  rw [hℓ i]
  have h1 := (ℓ i).isLt
  exact wrap_ofNat _ (by omega) m

/-- THE SEGMENT SUM OF ENTRIES OVER THE LABELS: the operand's entry plus the sum over the nodes of the label's indicator times the
    node's entry. -/
theorem scatterAdd_labels_vec (d : ScatterDims ⟨1, ![64]⟩ ⟨2, ![100000, 1]⟩ ⟨1, ![100000]⟩)
    (hu : d.updateWindowDims = []) (hi : d.insertedWindowDims = [0]) (hs : d.scatterDimsToOperandDims = [0])
    (hv : d.indexVectorDim = 1) (x : (⟨1, ![64]⟩ : Shape).Idx → EReal) (idx : IVec ⟨2, ![100000, 1]⟩ 32)
    (upd : (⟨1, ![100000]⟩ : Shape).Idx → EReal) (hidx : ∀ e, idx (ix2 e 0) = lab e) (l : Fin 64) :
    Ideal.hostScatterAdd d x idx upd (ix1 l) = x (ix1 l) + ∑ i, hot (lab i) l * upd (ix1 i) := by
  rw [scatterAdd_vec d hu hi hs hv x idx upd ℓ (fun e => by rw [hidx e]; exact label_toInt lab ℓ hℓ e) l]
  exact congrArg (x (ix1 l) + ·) (Finset.sum_congr rfl fun i _ => ite_label_eq lab ℓ hℓ i l _)

/-- The segment sum of ones over the labels, from zero, is the number of nodes of each label. -/
theorem scatterAdd_labels_cnt (d : ScatterDims ⟨1, ![64]⟩ ⟨2, ![100000, 1]⟩ ⟨1, ![100000]⟩)
    (hu : d.updateWindowDims = []) (hi : d.insertedWindowDims = [0]) (hs : d.scatterDimsToOperandDims = [0])
    (hv : d.indexVectorDim = 1) (x : (⟨1, ![64]⟩ : Shape).Idx → EReal) (idx : IVec ⟨2, ![100000, 1]⟩ 32)
    (upd : (⟨1, ![100000]⟩ : Shape).Idx → EReal) (hidx : ∀ e, idx (ix2 e 0) = lab e)
    (hx : ∀ l, x (ix1 l) = 0) (hupd : ∀ i, upd (ix1 i) = 1) (l : Fin 64) :
    Ideal.hostScatterAdd d x idx upd (ix1 l) = cnt lab l := by
  rw [scatterAdd_labels_vec lab ℓ hℓ d hu hi hs hv x idx upd hidx l, hx l, zero_add]
  unfold cnt
  exact Finset.sum_congr rfl fun i _ => by rw [hupd i, mul_one]

/-- THE SEGMENT SUM OF ROWS OVER THE LABELS: the operand's element plus the sum over the nodes of the label's indicator times the
    node's element of that column. -/
theorem scatterAdd_labels_rows {K : Nat} (d : ScatterDims ⟨2, ![64, K]⟩ ⟨2, ![100000, 1]⟩ ⟨2, ![100000, K]⟩)
    (hu : d.updateWindowDims = [1]) (hi : d.insertedWindowDims = [0]) (hs : d.scatterDimsToOperandDims = [0])
    (hv : d.indexVectorDim = 1) (x : (⟨2, ![64, K]⟩ : Shape).Idx → EReal) (idx : IVec ⟨2, ![100000, 1]⟩ 32)
    (upd : (⟨2, ![100000, K]⟩ : Shape).Idx → EReal) (hidx : ∀ e, idx (ix2 e 0) = lab e) (l : Fin 64) (k : Fin K) :
    Ideal.hostScatterAdd d x idx upd (ix2 l k) = x (ix2 l k) + ∑ i, hot (lab i) l * upd (ix2 i k) := by
  rw [scatterAdd_rows d hu hi hs hv x idx upd ℓ (fun e => by rw [hidx e]; exact label_toInt lab ℓ hℓ e) l k]
  exact congrArg (x (ix2 l k) + ·) (Finset.sum_congr rfl fun i _ => ite_label_eq lab ℓ hℓ i l _)

/-- A ROW LOOKUP AT THE LABELS reads the label's row. -/
theorem gather_labels_rows {α : Type} {K : Nat} (d : GatherDims ⟨2, ![64, K]⟩ ⟨2, ![100000, 1]⟩ ⟨2, ![100000, K]⟩)
    (ho : d.offsetDims = [1]) (hc : d.collapsedSliceDims = [0]) (hob : d.operandBatchingDims = [])
    (hsb : d.startIndicesBatchingDims = []) (hm : d.startIndexMap = [0]) (hv : d.indexVectorDim = 1)
    (x : (⟨2, ![64, K]⟩ : Shape).Idx → α) (idx : IVec ⟨2, ![100000, 1]⟩ 32) (hidx : ∀ e, idx (ix2 e 0) = lab e)
    (i : Fin 100000) (k : Fin K) :
    Host.gather d x idx (ix2 i k) = x (ix2 (ℓ i) k) :=
  gather_rows d ho hc hob hsb hm hv x idx i k (ℓ i) (by rw [hidx i]; exact label_toInt lab ℓ hℓ i)

end Labels

/-! ## The node numbers as the index array: every node once -/

/-- A node number as a 32-bit word, read signed. -/
theorem node_toInt (e : Fin 100000) : (BitVec.ofNat 32 e.val).toInt = (e.val : Int) := by
  have h := e.isLt
  exact toInt_ofNat _ (by omega)

/-- The wrap of a possibly negative index leaves a node number alone. -/
theorem node_wrap (e : Fin 100000) (m : BitVec 32) :
    Scalar.select (IntOp.cmpi .slt (BitVec.ofNat 32 e.val) 0#32) (IntOp.addi (BitVec.ofNat 32 e.val) m) (BitVec.ofNat 32 e.val)
      = BitVec.ofNat 32 e.val := by
  have h := e.isLt
  exact wrap_ofNat _ (by omega) m

/-- The segment sum of entries over the node numbers: the operand's entry plus the node's own. -/
theorem scatterAdd_nodes_vec (d : ScatterDims ⟨1, ![100000]⟩ ⟨2, ![100000, 1]⟩ ⟨1, ![100000]⟩)
    (hu : d.updateWindowDims = []) (hi : d.insertedWindowDims = [0]) (hs : d.scatterDimsToOperandDims = [0])
    (hv : d.indexVectorDim = 1) (x : (⟨1, ![100000]⟩ : Shape).Idx → EReal) (idx : IVec ⟨2, ![100000, 1]⟩ 32)
    (upd : (⟨1, ![100000]⟩ : Shape).Idx → EReal) (hidx : ∀ e : Fin 100000, idx (ix2 e 0) = BitVec.ofNat 32 e.val) (i : Fin 100000) :
    Ideal.hostScatterAdd d x idx upd (ix1 i) = x (ix1 i) + upd (ix1 i) := by
  rw [scatterAdd_vec d hu hi hs hv x idx upd (fun e => e) (fun e => by rw [hidx e]; exact node_toInt e) i]
  exact congrArg (x (ix1 i) + ·)
    ((Finset.sum_ite_eq' Finset.univ i fun e => upd (ix1 e)).trans (if_pos (Finset.mem_univ i)))

/-- The segment sum of rows over the node numbers: the operand's element plus the node's own. -/
theorem scatterAdd_nodes_rows {K : Nat} (d : ScatterDims ⟨2, ![100000, K]⟩ ⟨2, ![100000, 1]⟩ ⟨2, ![100000, K]⟩)
    (hu : d.updateWindowDims = [1]) (hi : d.insertedWindowDims = [0]) (hs : d.scatterDimsToOperandDims = [0])
    (hv : d.indexVectorDim = 1) (x : (⟨2, ![100000, K]⟩ : Shape).Idx → EReal) (idx : IVec ⟨2, ![100000, 1]⟩ 32)
    (upd : (⟨2, ![100000, K]⟩ : Shape).Idx → EReal) (hidx : ∀ e : Fin 100000, idx (ix2 e 0) = BitVec.ofNat 32 e.val)
    (i : Fin 100000) (k : Fin K) :
    Ideal.hostScatterAdd d x idx upd (ix2 i k) = x (ix2 i k) + upd (ix2 i k) := by
  rw [scatterAdd_rows d hu hi hs hv x idx upd (fun e => e) (fun e => by rw [hidx e]; exact node_toInt e) i k]
  exact congrArg (x (ix2 i k) + ·)
    ((Finset.sum_ite_eq' Finset.univ i fun e => upd (ix2 e k)).trans (if_pos (Finset.mem_univ i)))

/-- A row lookup at the node numbers reads the node's own row. -/
theorem gather_nodes_rows {α : Type} {K : Nat} (d : GatherDims ⟨2, ![100000, K]⟩ ⟨2, ![100000, 1]⟩ ⟨2, ![100000, K]⟩)
    (ho : d.offsetDims = [1]) (hc : d.collapsedSliceDims = [0]) (hob : d.operandBatchingDims = [])
    (hsb : d.startIndicesBatchingDims = []) (hm : d.startIndexMap = [0]) (hv : d.indexVectorDim = 1)
    (x : (⟨2, ![100000, K]⟩ : Shape).Idx → α) (idx : IVec ⟨2, ![100000, 1]⟩ 32)
    (hidx : ∀ e : Fin 100000, idx (ix2 e 0) = BitVec.ofNat 32 e.val) (i : Fin 100000) (k : Fin K) :
    Host.gather d x idx (ix2 i k) = x (ix2 i k) :=
  gather_rows d ho hc hob hsb hm hv x idx i k i (by rw [hidx i]; exact node_toInt i)

/-! ## degree^(-1/2) as both programs spell it -/

/-- `select(d > 0, rsqrt(max(d, 1)), 0)` on the words both programs carry is `invSqrtDeg d`. -/
theorem invSqrtDeg_words (d : EReal) :
    Scalar.select (FloatOps.cmpf (F := Ideal) (φ := .f32) .ogt d (FloatOps.ofBits .f32 0x00000000#32))
        (FloatOps.hostUnary (F := Ideal) (φ := .f32) .rsqrt (FloatOps.maximumf (F := Ideal) (φ := .f32) d (FloatOps.ofBits .f32 0x3F800000#32)))
        (FloatOps.ofBits (F := Ideal) .f32 0x00000000#32)
      = invSqrtDeg d := by
  simp only [Ideal.ofBits_def, Ideal.ofBits_zero_f32, Ideal.ofBits_one_f32, Ideal.maximumf_def, Ideal.hostUnary_rsqrt_def]
  unfold invSqrtDeg Scalar.select
  by_cases h : (0 : EReal) < d
  · rw [if_pos h]
    refine if_pos ?_
    show BitVec.ofBool (decide ((0 : EReal) < d)) = 1#1
    rw [decide_eq_true h]; rfl
  · rw [if_neg h]
    refine if_neg ?_
    show ¬ (BitVec.ofBool (decide ((0 : EReal) < d)) = 1#1)
    rw [decide_eq_false h]; decide

/-- At degree one the scale is one. -/
theorem invSqrtDeg_one : invSqrtDeg 1 = 1 := by
  have h01 : (0 : EReal) < 1 := by exact_mod_cast (zero_lt_one : (0 : ℝ) < 1)
  have h1 : ¬ ((1 : ℝ) < 0) := by norm_num
  have h2 : ¬ ((1 : ℝ) = 0) := by norm_num
  unfold invSqrtDeg
  rw [if_pos h01, max_self, ← EReal.coe_one, Ideal.rsqrt_coe, if_neg h1, if_neg h2, Real.sqrt_one, inv_one]

end Cert.Hgcn

end
-- ==== Proof.KI.HostVal.lean ====
/-
  The host stretches' terms read at an index, at the extended reals, in the vocabulary of the specification:

  * the label column: the label word of the row;
  * the label counts are `cnt`, the scale column `labScale` (the label words name labels below 64);
  * the "including" table is `incTable` of the label features, the scale and the dense map;
  * the column means and inverse deviations are `meanS` and `rsqrt(varK + ε)` of the matrix whose column sums and column sums of
    squares the two accumulated rows hold.

  The "connected to" aggregate is not opened (`conOp_apply`: it is `conOpI` of the features' matrix), and the label side's batch
  normalisation is `bnLab` (`bnLabOp_apply`).
-/
import proofs.«405200_j27075473834261_2_alg».proof.Proof.KI.HostDefs
import proofs.«405200_j27075473834261_2_alg».proof.Proof.KI.Host1
import proofs.«405200_j27075473834261_2_alg».proof.Proof.KI.Host3
import proofs.«405200_j27075473834261_2_alg».proof.Proof.ConOpRead
import proofs.«405200_j27075473834261_2_alg».proof.Proof.SegmentSum
import Idealize.ShloMosaic.Lib.StackMember

set_option maxRecDepth 16384

noncomputable section

open scoped BigOperators

namespace Cert.KernelIdeal.Hand

open Cert.KernelIdeal Cert.KernelIdeal.Gen Cert.Hgcn
open Idealize.ShloMosaic Idealize.ShloMosaic.TcCoe Idealize.ShloMosaic.ValueIdx

/-! ## The labels -/

/-- The label column reads the label word of the row. -/
theorem labCol_apply {α : Type} (lab : S100000.Idx → α) (i : Fin 100000) (u : Fin 1) :
    shapeCast S100000x1 lab shapeCasts_S100000_S100000x1 (ix2 i u) = lab (ix1 i) :=
  shapeCast_a_a1_apply lab _ i u

section Labels

variable (lab : IVec S100000 32) (ℓ : Fin 100000 → Fin 64) (hℓ : ∀ i, lab (ix1 i) = BitVec.ofNat 32 (ℓ i).val)
include hℓ

/-- Ones summed into the labels: the number of nodes of each label. -/
theorem cntOf_apply (l : Fin 64) : cntOf (F := Ideal) lab (ix1 l) = cnt (fun i => lab (ix1 i)) l := by
  unfold cntOf
  exact scatterAdd_labels_cnt (fun i => lab (ix1 i)) ℓ hℓ scatter_S64_S100000x1_S100000_n_0_0_1 rfl rfl rfl rfl _ _ _
    (fun e => bcast_a_a1_apply (by decide) lab _ e 0)
    (fun _ => Ideal.ofBits_zero_f32) (fun _ => Ideal.ofBits_one_f32) l

/-- The scale column reads count^(-1/2) of the row's label. -/
theorem labScaleOf_apply (l : Fin 64) (u : Fin 1) : labScaleOf (F := Ideal) lab (ix2 l u) = labScale (fun i => lab (ix1 i)) l := by
  unfold labScaleOf
  rw [shapeCast_a_a1_apply, invSqrtDegV_apply, cntOf_apply lab ℓ hℓ]
  rfl

end Labels

/-! ## The "including" table -/

/-- The table at (label, column): the label's features, scaled by the label's scale, through the dense map. -/
theorem incTableOf_apply (hl : FVec Ideal S64x128 .f32) (s : FVec Ideal S64x1 .f32) (Wi : FVec Ideal S128x128 .f32) (l : Fin 64) (j : Fin 128) :
    incTableOf hl s Wi (ix2 l j) = incTable (ofArr hl) (fun l => s (ix2 l 0)) (ofArr Wi) l j := by
  unfold incTableOf incTable
  show Host.dotGeneral (DotDims.plain 64 128 128) none (mulf hl (broadcastInDim S64x128 ![0, 1] bcast_S64x1_S64x128_0_1 s)) Wi (ix2 l j) = _
  rw [StackMember.dotGeneral_plain_apply]
  refine Finset.sum_congr rfl fun k _ => ?_
  rw [mulf_apply, bcast_a1_ab_apply (by decide)]
  rfl

/-- The table the combine regions read, at the program's scale column. -/
theorem incTableOf_labScale_apply (lab : IVec S100000 32) (ℓ : Fin 100000 → Fin 64) (hℓ : ∀ i, lab (ix1 i) = BitVec.ofNat 32 (ℓ i).val)
    (hl : FVec Ideal S64x128 .f32) (Wi : FVec Ideal S128x128 .f32) (l : Fin 64) (j : Fin 128) :
    incTableOf hl (labScaleOf lab) Wi (ix2 l j) = incTable (ofArr hl) (labScale (fun i => lab (ix1 i))) (ofArr Wi) l j := by
  rw [incTableOf_apply]
  exact congrArg (fun s => incTable (ofArr hl) s (ofArr Wi) l j) (funext fun l' => labScaleOf_apply lab ℓ hℓ l' 0)

/-! ## The column means and inverse deviations -/

/-- The mean row reads the sum over the node count. -/
theorem meanOf_apply (sum : FVec Ideal S1x128 .f32) (u : Fin 1) (d : Fin 128) :
    meanOf sum (ix2 u d) = Ideal.div (sum (ix2 u d)) nSeq := rfl

/-- The inverse-deviation row reads `rsqrt(sumsq / n − mean · mean + ε)`. -/
theorem invStdOf_apply (sum sumsq : FVec Ideal S1x128 .f32) (u : Fin 1) (d : Fin 128) :
    invStdOf sum sumsq (ix2 u d)
      = Ideal.rsqrt (Ideal.div (sumsq (ix2 u d)) nSeq - Ideal.div (sum (ix2 u d)) nSeq * Ideal.div (sum (ix2 u d)) nSeq + bnEps) := rfl

/-- Over the column sums of a matrix, the mean row is `meanS`. -/
theorem meanOf_colSum (x : Fin 100000 → Fin 128 → EReal) (sum : FVec Ideal S1x128 .f32) (u : Fin 1) (d : Fin 128)
    (hsum : sum (ix2 u d) = colSum x d) : meanOf sum (ix2 u d) = meanS x d := by
  rw [meanOf_apply, hsum]; rfl

/-- Over the column sums and the column sums of squares of a matrix, the inverse-deviation row is `rsqrt(varK + ε)`. -/
theorem invStdOf_colSum (x : Fin 100000 → Fin 128 → EReal) (sum sumsq : FVec Ideal S1x128 .f32) (u : Fin 1) (d : Fin 128)
    (hsum : sum (ix2 u d) = colSum x d) (hsq : sumsq (ix2 u d) = colSumSq x d) :
    invStdOf sum sumsq (ix2 u d) = Ideal.rsqrt (varK x d + bnEps) := by
  rw [invStdOf_apply, hsum, hsq]; rfl

/-! ## The "connected to" aggregate, unopened -/

/-- The aggregate at (node, column) is the operator on the features' matrix. -/
theorem conOp_apply (D : ConDims) (src dst : IVec SE 32) (x : FVec Ideal SNF .f32) (i : Fin 100000) (k : Fin 128) :
    conOp D src dst x (ix2 i k) = conOpI D src dst (ofArr x) i k :=
  congrFun (conOp_eq_toArr D src dst x) (ix2 i k)

end Cert.KernelIdeal.Hand

end
-- ==== Proof.KI.Region0Arr.lean ====
import proofs.«405200_j27075473834261_2_alg».proof.Proof.KI.Region0
import Idealize.ShloMosaic.Lib.Pipeline.Value

/-!
  The arrays after the label-side aggregate of the first layer: every input array is as the region found it, and the
  result array, whose one block is the whole array and is written back once, after the last point, holds the last
  point's result block.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## The input arrays are never written -/

theorem arrAt0_0 (c : Dev nD) : (dat0 V c).arrAt 0 cfg0.N = V c (Pipeline.arrRef spec0 0) :=
  ((dat0 V c).arrAt_in 0 rfl _).trans (A_eq0 V c 0)
theorem arrAt0_1 (c : Dev nD) : (dat0 V c).arrAt 1 cfg0.N = V c (Pipeline.arrRef spec0 1) :=
  ((dat0 V c).arrAt_in 1 rfl _).trans (A_eq0 V c 1)
theorem arrAt0_2 (c : Dev nD) : (dat0 V c).arrAt 2 cfg0.N = V c (Pipeline.arrRef spec0 2) :=
  ((dat0 V c).arrAt_in 2 rfl _).trans (A_eq0 V c 2)
theorem arrAt0_3 (c : Dev nD) : (dat0 V c).arrAt 3 cfg0.N = V c (Pipeline.arrRef spec0 3) :=
  ((dat0 V c).arrAt_in 3 rfl _).trans (A_eq0 V c 3)
theorem arrAt0_4 (c : Dev nD) : (dat0 V c).arrAt 4 cfg0.N = V c (Pipeline.arrRef spec0 4) :=
  ((dat0 V c).arrAt_in 4 rfl _).trans (A_eq0 V c 4)

/-! ## The result array -/

/-- The last point's result block, as contents of the result array (its one block is the whole array). -/
abbrev result0 (c : Dev nD) : Buf (Elt F) ((c : Thread nD τ).loc main_v31) := res0 V c t0_9

/-- The one write-back, after the last point, writes it: block (0, 0) of the 64 x 128 array, read through zero offsets, is the array. -/
theorem flushed0_5 (c : Dev nD) (t : Fin cfg0.N) (hf : (cfg0.win 5).flush t = true) :
    (dat0 V c).flushed 5 t = ((cfg0.win 5).blk t).view.read (Elt F) (result0 V c) := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5]
  have hz' : (fun a => win0_5.index t0_9 a * main_v31.ty.shape.size a) = fun _ => 0 := funext fun a => by fin_cases a <;> decide
  exact (Memref.read_access_unit_zero (Elt F) main_v31 hz' (fun a => by rw [congrFun hz' a]; simp) (result0 V c)).symm

/-- So the result array ends holding the last point's result block: the last point's block covers it. -/
theorem arrAt0_5 (c : Dev nD) : (dat0 V c).arrAt 5 cfg0.N = result0 V c :=
  (dat0 V c).arrAt_eq_of_cover 5 (result0 V c) (flushed0_5 V c) fun i =>
    ⟨t0_9, (flush0_5 t0_9).mpr rfl, by
      show i ∈ ((View.whole main_v31).slice (win0_5.rect t0_9)).set
      rw [View.set_slice_whole, Rect.mem_set_unit]
      intro a
      have h0 : (i 0 : Nat) < 64 := (i 0).isLt
      have h1 : (i 1 : Nat) < 128 := (i 1).isLt
      match a with
      | ⟨0, _⟩ => show win0_5.index t0_9 0 * win0_5.size 0 ≤ (i 0 : Nat) ∧ (i 0 : Nat) < win0_5.index t0_9 0 * win0_5.size 0 + win0_5.xsize (grid0.coords t0_9) 0
                  rw [show win0_5.index t0_9 0 * win0_5.size 0 = 0 from by decide +kernel, show win0_5.xsize (grid0.coords t0_9) 0 = 64 from by decide +kernel]; omega
      | ⟨1, _⟩ => show win0_5.index t0_9 1 * win0_5.size 1 ≤ (i 1 : Nat) ∧ (i 1 : Nat) < win0_5.index t0_9 1 * win0_5.size 1 + win0_5.xsize (grid0.coords t0_9) 1
                  rw [show win0_5.index t0_9 1 * win0_5.size 1 = 0 from by decide +kernel, show win0_5.xsize (grid0.coords t0_9) 1 = 128 from by decide +kernel]; omega⟩

end Cert.KernelIdeal.Hand

end
-- ==== Proof.KI.Region0Val.lean ====
import proofs.«405200_j27075473834261_2_alg».proof.Proof.KI.Region0Arr
import proofs.«405200_j27075473834261_2_alg».proof.Proof.Spec
import Idealize.ShloMosaic.Lib.ValueIdx
import Idealize.ShloMosaic.Lib.ValueLayout
import Idealize.ShloMosaic.Lib.KernelVsHost
import Idealize.ShloMosaic.PureOps.Ideal.Laws
import Idealize.ShloMosaic.Lib.Pipeline.Value
import Mathlib.Algebra.BigOperators.Fin
import Mathlib.Logic.Equiv.Fin.Basic

/-!
  The value of the label-side aggregate of the first layer, over the extended reals.

  Point `t` adds to the accumulator, at (l, k), the sum over its 10000 rows r of the indicator that node 10000 t + r
  carries label l times that node's feature k: the transposed indicator matrix times the block of rows, into a zero
  accumulator. Ten such terms added to zero, in point order, are the one sum over all 100000 nodes (only commutativity and
  associativity of the sum are used). The last point's result is that sum scaled by the label's factor, through the dense
  map, plus the bias, clamped at zero.
-/

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Hgcn

/-! ## The two payloads read at an index -/

/-- An integer comparison of vectors, at an index. -/
theorem cmpi_at0 {s : Shape} {w : Nat} (p : CmpIPredicate) (x y : IVec s w) (i : s.Idx) : cmpi p x y i = IntOp.cmpi p (x i) (y i) := rfl

/-- The comparison word of a label against `l`, widened and converted, is the indicator. -/
theorem hot_word0 (w : BitVec 32) (l : Fin 64) :
    (FloatOps.sitofp (F := Ideal) .f32 ((IntOp.cmpi .eq w (BitVec.ofNat 32 l.val)).setWidth 32)) = hot w l := by
  show ((((BitVec.ofBool (w == BitVec.ofNat 32 l.val)).setWidth 32).toInt : ℝ) : EReal) = hot w l
  unfold hot
  by_cases h : w = BitVec.ofNat 32 l.val
  · rw [if_pos h, show (w == BitVec.ofNat 32 l.val) = true from beq_iff_eq.mpr h,
      show ((BitVec.ofBool true).setWidth 32).toInt = 1 from by decide]
    norm_num
  · rw [if_neg h, show (w == BitVec.ofNat 32 l.val) = false from beq_eq_false_iff_ne.mpr h,
      show ((BitVec.ofBool false).setWidth 32).toInt = 0 from by decide]
    norm_num

/-- The cleared accumulator is zero everywhere. -/
theorem pay0_1_apply (i : S64x128.Idx) : k0_pay1 (F := Ideal) i = 0 := by
  unfold k0_pay1
  (try dsimp only)
  rw [shapeCast_self]
  show Ideal.ofBits .f32 0x00000000#32 = 0
  exact Ideal.ofBits_zero_f32

/-- The left operand's index of the transposed product: row r of the indicator matrix, column l. -/
theorem lhsIdx0_a (l : Fin 64) (k : Fin 128) (r : Fin 10000) :
    dot_S10000x64_S10000x128_S64x128_0_0_1_1_n_n.lhsIdx (ix2 l k) ((contrEquiv1 dot_S10000x64_S10000x128_S64x128_0_0_1_1_n_n 10000 rfl rfl).symm r) = ix2 r l := by
  have c2 := contrEquiv1_symm_val dot_S10000x64_S10000x128_S64x128_0_0_1_1_n_n 10000 rfl rfl r
  funext ax; apply Fin.ext
  match ax with
  | ⟨0, _⟩ => first | (simp [DotDims.lhsIdx, dot_S10000x64_S10000x128_S64x128_0_0_1_1_n_n]; done) | (simp [DotDims.lhsIdx, dot_S10000x64_S10000x128_S64x128_0_0_1_1_n_n]; exact c2) | (simp [DotDims.lhsIdx, dot_S10000x64_S10000x128_S64x128_0_0_1_1_n_n]; rfl)
  | ⟨1, _⟩ => first | (simp [DotDims.lhsIdx, dot_S10000x64_S10000x128_S64x128_0_0_1_1_n_n]; done) | (simp [DotDims.lhsIdx, dot_S10000x64_S10000x128_S64x128_0_0_1_1_n_n]; exact c2) | (simp [DotDims.lhsIdx, dot_S10000x64_S10000x128_S64x128_0_0_1_1_n_n]; rfl)

/-- The right operand's index: row r of the block of rows, column k. -/
theorem rhsIdx0_a (l : Fin 64) (k : Fin 128) (r : Fin 10000) :
    dot_S10000x64_S10000x128_S64x128_0_0_1_1_n_n.rhsIdx (ix2 l k) ((contrEquiv1 dot_S10000x64_S10000x128_S64x128_0_0_1_1_n_n 10000 rfl rfl).symm r) = ix2 r k := by
  have c2 := contrEquiv1_symm_val dot_S10000x64_S10000x128_S64x128_0_0_1_1_n_n 10000 rfl rfl r
  funext ax; apply Fin.ext
  match ax with
  | ⟨0, _⟩ => first | (simp [DotDims.rhsIdx, dot_S10000x64_S10000x128_S64x128_0_0_1_1_n_n]; done) | (simp [DotDims.rhsIdx, dot_S10000x64_S10000x128_S64x128_0_0_1_1_n_n]; exact c2) | (simp [DotDims.rhsIdx, dot_S10000x64_S10000x128_S64x128_0_0_1_1_n_n]; rfl)
  | ⟨1, _⟩ => first | (simp [DotDims.rhsIdx, dot_S10000x64_S10000x128_S64x128_0_0_1_1_n_n]; done) | (simp [DotDims.rhsIdx, dot_S10000x64_S10000x128_S64x128_0_0_1_1_n_n]; exact c2) | (simp [DotDims.rhsIdx, dot_S10000x64_S10000x128_S64x128_0_0_1_1_n_n]; rfl)

/-- The accumulating payload at (l, k): the accumulator there plus, over the block's rows, the indicator of the row's label
    at l times the row's entry k. -/
theorem pay0_2_apply (L : Vec Ideal S10000x1 .i32) (X : Vec Ideal S10000x128 .f32) (A : Vec Ideal S64x128 .f32) (l : Fin 64) (k : Fin 128) :
    k0_pay2 (F := Ideal) L X A (ix2 l k) = A (ix2 l k) + ∑ r : Fin 10000, hot (L (ix2 r (0 : Fin 1))) l * X (ix2 r k) := by
  unfold k0_pay2
  (try dsimp only)
  simp only [shapeCast_self]
  rw [addf_apply]
  refine congrArg (A (ix2 l k) + ·) ?_
  refine (Ideal.matmul_constant_zero_apply dot_S10000x64_S10000x128_S64x128_0_0_1_1_n_n none _ _ (ix2 l k)).trans ?_
  rw [← Equiv.sum_comp (contrEquiv1 dot_S10000x64_S10000x128_S64x128_0_0_1_1_n_n 10000 rfl rfl).symm]
  refine Finset.sum_congr rfl fun r _ => ?_
  rw [lhsIdx0_a l k r, rhsIdx0_a l k r, truncf_apply, truncf_apply, sitofp_apply, extui_apply, cmpi_at0]
  rw [iota_single_apply]
  rw [broadcastTo_apply L broadcasts_S10000x1_S10000x64 (ix2 r l) (ix2 r (0 : Fin 1)) (fun a => by
    match a with
    | ⟨0, _⟩ => rfl
    | ⟨1, _⟩ => rfl)]
  exact congrArg (· * X (ix2 r k)) (hot_word0 (L (ix2 r (0 : Fin 1))) l)

/-- The dense map's left index: row l, column q; -/
theorem lhsIdx0_b (l : Fin 64) (j : Fin 128) (q : Fin 128) :
    dot_S64x128_S128x128_S64x128_1_0_0_1_n_n.lhsIdx (ix2 l j) ((contrEquiv1 dot_S64x128_S128x128_S64x128_1_0_0_1_n_n 128 rfl rfl).symm q) = ix2 l q := by
  have c2 := contrEquiv1_symm_val dot_S64x128_S128x128_S64x128_1_0_0_1_n_n 128 rfl rfl q
  funext ax; apply Fin.ext
  match ax with
  | ⟨0, _⟩ => first | (simp [DotDims.lhsIdx, dot_S64x128_S128x128_S64x128_1_0_0_1_n_n]; done) | (simp [DotDims.lhsIdx, dot_S64x128_S128x128_S64x128_1_0_0_1_n_n]; exact c2) | (simp [DotDims.lhsIdx, dot_S64x128_S128x128_S64x128_1_0_0_1_n_n]; rfl)
  | ⟨1, _⟩ => first | (simp [DotDims.lhsIdx, dot_S64x128_S128x128_S64x128_1_0_0_1_n_n]; done) | (simp [DotDims.lhsIdx, dot_S64x128_S128x128_S64x128_1_0_0_1_n_n]; exact c2) | (simp [DotDims.lhsIdx, dot_S64x128_S128x128_S64x128_1_0_0_1_n_n]; rfl)

/-- its right index: row q, column j. -/
theorem rhsIdx0_b (l : Fin 64) (j : Fin 128) (q : Fin 128) :
    dot_S64x128_S128x128_S64x128_1_0_0_1_n_n.rhsIdx (ix2 l j) ((contrEquiv1 dot_S64x128_S128x128_S64x128_1_0_0_1_n_n 128 rfl rfl).symm q) = ix2 q j := by
  have c2 := contrEquiv1_symm_val dot_S64x128_S128x128_S64x128_1_0_0_1_n_n 128 rfl rfl q
  funext ax; apply Fin.ext
  match ax with
  | ⟨0, _⟩ => first | (simp [DotDims.rhsIdx, dot_S64x128_S128x128_S64x128_1_0_0_1_n_n]; done) | (simp [DotDims.rhsIdx, dot_S64x128_S128x128_S64x128_1_0_0_1_n_n]; exact c2) | (simp [DotDims.rhsIdx, dot_S64x128_S128x128_S64x128_1_0_0_1_n_n]; rfl)
  | ⟨1, _⟩ => first | (simp [DotDims.rhsIdx, dot_S64x128_S128x128_S64x128_1_0_0_1_n_n]; done) | (simp [DotDims.rhsIdx, dot_S64x128_S128x128_S64x128_1_0_0_1_n_n]; exact c2) | (simp [DotDims.rhsIdx, dot_S64x128_S128x128_S64x128_1_0_0_1_n_n]; rfl)

/-- The result payload at (l, j): the accumulator's row l scaled by the label's factor, through the dense map's column j,
    plus the bias at j, clamped at zero. -/
theorem pay0_3_apply (A : Vec Ideal S64x128 .f32) (S : Vec Ideal S64x1 .f32) (Wm : Vec Ideal S128x128 .f32) (Bv : Vec Ideal S128 .f32)
    (l : Fin 64) (j : Fin 128) :
    k0_pay3 (F := Ideal) A S Wm Bv (ix2 l j)
      = max ((∑ q : Fin 128, (A (ix2 l q) * S (ix2 l (0 : Fin 1))) * Wm (ix2 q j)) + Bv (ix1 j)) 0 := by
  unfold k0_pay3
  (try dsimp only)
  simp only [shapeCast_self]
  rw [maximumf_apply, addf_apply, broadcast_apply]
  have hz : (Scalar.ofBits (F := Ideal) .f32 0x00000000#32 : EReal) = 0 := Ideal.ofBits_zero_f32
  rw [hz]
  refine congrArg (max · 0) ?_
  have hb : broadcastTo S64x128 (shapeCast S1x128 Bv shapeCasts_S128_S1x128) broadcasts_S1x128_S64x128 (ix2 l j) = Bv (ix1 j) :=
    (broadcastTo_1b_ab_apply _ broadcasts_S1x128_S64x128 l j).trans (shapeCast_a_1a_apply Bv shapeCasts_S128_S1x128 0 j)
  rw [hb]
  refine congrArg (· + Bv (ix1 j)) ?_
  refine (Ideal.matmul_constant_zero_apply dot_S64x128_S128x128_S64x128_1_0_0_1_n_n none _ _ (ix2 l j)).trans ?_
  rw [← Equiv.sum_comp (contrEquiv1 dot_S64x128_S128x128_S64x128_1_0_0_1_n_n 128 rfl rfl).symm]
  refine Finset.sum_congr rfl fun q _ => ?_
  rw [lhsIdx0_b l j q, rhsIdx0_b l j q, truncf_apply, truncf_apply, mulf_apply]
  rw [broadcastTo_apply S broadcasts_S64x1_S64x128 (ix2 l q) (ix2 l (0 : Fin 1)) (fun a => by
    match a with
    | ⟨0, _⟩ => rfl
    | ⟨1, _⟩ => rfl)]

/-! ## The arrays, by their literal types, and the blocks read at coordinates -/

variable (V : (c : Dev nD) → (b : Ref sig .tc) → Buf (Elt Ideal) ((c : Thread nD τ).loc b))

/-- The label words, one per node. -/
abbrev labArr0 (c : Dev nD) : Vec Ideal S100000x1 .i32 := V c main_v0
/-- The node features. -/
abbrev xArr0 (c : Dev nD) : Vec Ideal S100000x128 .f32 := V c main_arg0
/-- The labels' scale factors. -/
abbrev sArr0 (c : Dev nD) : Vec Ideal S64x1 .f32 := V c main_v11
/-- The dense map. -/
abbrev wArr0 (c : Dev nD) : Vec Ideal S128x128 .f32 := V c main_arg2
/-- The bias. -/
abbrev bArr0 (c : Dev nD) : Vec Ideal S128 .f32 := V c main_arg3

/-- Row r of point t's block is node 10000 t + r. -/
def node0 (t : Fin cfg0.N) (r : Fin 10000) : Fin 100000 :=
  ⟨10000 * t.val + r.val, by have := lt_of_lt_of_eq t.isLt (show cfg0.N = 10 from N_0); have := r.isLt; omega⟩

theorem index0_0 (t : Fin cfg0.N) : win0_0.index t 0 = t.val ∧ win0_0.index t 1 = 0 := by
  rcases fin_N0 t with rfl | rfl | rfl | rfl | rfl | rfl | rfl | rfl | rfl | rfl <;> decide
theorem index0_1 (t : Fin cfg0.N) : win0_1.index t 0 = t.val ∧ win0_1.index t 1 = 0 := by
  rcases fin_N0 t with rfl | rfl | rfl | rfl | rfl | rfl | rfl | rfl | rfl | rfl <;> decide

/-- The label block of point t, at row r: the label word of node 10000 t + r. -/
theorem lab_blk0 (c : Dev nD) (t : Fin cfg0.N) (r : Fin 10000) :
    (iblk0 V c 0 t : Vec Ideal S10000x1 .i32) (ix2 r (0 : Fin 1)) = labArr0 V c (ix2 (node0 t r) (0 : Fin 1)) := by
  have hi := index0_0 t
  unfold iblk0
  rw [View.read_apply]
  show V c main_v0 _ = V c main_v0 _
  congr 1
  funext a
  apply Fin.ext
  match a with
  | ⟨0, _⟩ => show win0_0.index t 0 * 10000 + 1 * r.val = 10000 * t.val + r.val; rw [hi.1]; omega
  | ⟨1, _⟩ => show win0_0.index t 1 * 1 + 1 * 0 = 0; rw [hi.2]

/-- The feature block of point t, at row r and column k: feature k of node 10000 t + r. -/
theorem x_blk0 (c : Dev nD) (t : Fin cfg0.N) (r : Fin 10000) (k : Fin 128) :
    (iblk0 V c 1 t : Vec Ideal S10000x128 .f32) (ix2 r k) = xArr0 V c (ix2 (node0 t r) k) := by
  have hi := index0_1 t
  unfold iblk0
  rw [View.read_apply]
  show V c main_arg0 _ = V c main_arg0 _
  congr 1
  funext a
  apply Fin.ext
  match a with
  | ⟨0, _⟩ => show win0_1.index t 0 * 10000 + 1 * r.val = 10000 * t.val + r.val; rw [hi.1]; omega
  | ⟨1, _⟩ => show win0_1.index t 1 * 128 + 1 * k.val = k.val; rw [hi.2]; omega

/-- The scale factors' one block is their whole array; -/
theorem s_blk0 (c : Dev nD) : (iblk0 V c 2 t0_9 : Vec Ideal S64x1 .f32) = sArr0 V c := by
  unfold iblk0
  have hz' : (fun a => win0_2.index t0_9 a * main_v11.ty.shape.size a) = fun _ => 0 := funext fun a => by fin_cases a <;> decide
  exact Memref.read_access_unit_zero (Elt Ideal) main_v11 hz' (fun a => by rw [congrFun hz' a]; simp) (V c main_v11)
/-- so is the dense map's; -/
theorem w_blk0 (c : Dev nD) : (iblk0 V c 3 t0_9 : Vec Ideal S128x128 .f32) = wArr0 V c := by
  unfold iblk0
  have hz' : (fun a => win0_3.index t0_9 a * main_arg2.ty.shape.size a) = fun _ => 0 := funext fun a => by fin_cases a <;> decide
  exact Memref.read_access_unit_zero (Elt Ideal) main_arg2 hz' (fun a => by rw [congrFun hz' a]; simp) (V c main_arg2)
/-- and the bias's. -/
theorem b_blk0 (c : Dev nD) : (iblk0 V c 4 t0_9 : Vec Ideal S128 .f32) = bArr0 V c := by
  unfold iblk0
  have hz' : (fun a => win0_4.index t0_9 a * main_arg3.ty.shape.size a) = fun _ => 0 := funext fun a => by fin_cases a <;> decide
  exact Memref.read_access_unit_zero (Elt Ideal) main_arg3 hz' (fun a => by rw [congrFun hz' a]; simp) (V c main_arg3)

/-! ## The accumulator is the running sum of the points' terms -/

/-- The term point t adds at (l, k). -/
def term0 (c : Dev nD) (t : Fin cfg0.N) (l : Fin 64) (k : Fin 128) : EReal :=
  ∑ r : Fin 10000, hot (labArr0 V c (ix2 (node0 t r) (0 : Fin 1))) l * xArr0 V c (ix2 (node0 t r) k)

/-- The same over the naturals: zero past the grid. -/
def termN0 (c : Dev nD) (l : Fin 64) (k : Fin 128) (n : ℕ) : EReal :=
  if h : n < cfg0.N then term0 V c ⟨n, h⟩ l k else 0

theorem termN0_of_lt (c : Dev nD) (l : Fin 64) (k : Fin 128) (n : ℕ) (h : n < cfg0.N) : termN0 V c l k n = term0 V c ⟨n, h⟩ l k :=
  dif_pos h

/-- What point t's payload adds is the point's term. -/
theorem pay0_2_term (c : Dev nD) (t : Fin cfg0.N) (A : Vec Ideal S64x128 .f32) (l : Fin 64) (k : Fin 128) :
    k0_pay2 (F := Ideal) (iblk0 V c 0 t) (iblk0 V c 1 t) A (ix2 l k) = A (ix2 l k) + term0 V c t l k := by
  refine (pay0_2_apply (iblk0 V c 0 t) (iblk0 V c 1 t) A l k).trans ?_
  refine congrArg (A (ix2 l k) + ·) ?_
  unfold term0
  refine Finset.sum_congr rfl fun r _ => ?_
  rw [lab_blk0 V c t r, x_blk0 V c t r k]

/-- After point n the accumulator holds, at (l, k), the terms of the points 0 … n added up. -/
theorem acc0_apply (c : Dev nD) (l : Fin 64) (k : Fin 128) : ∀ (n : ℕ) (hn : n < cfg0.N),
    acc0 (F := Ideal) V c n hn (ix2 l k) = ∑ t ∈ Finset.range (n + 1), termN0 V c l k t
  | 0, hn => by
    rw [acc0_zero, pay0_2_term V c ⟨0, hn⟩, pay0_1_apply, zero_add, Finset.sum_range_one, termN0_of_lt V c l k 0 hn]
  | n + 1, hn => by
    rw [acc0_succ, pay0_2_term V c ⟨n + 1, hn⟩, acc0_apply c l k n (Nat.lt_of_succ_lt hn), Finset.sum_range_succ _ (n + 1),
      termN0_of_lt V c l k (n + 1) hn]

/-- The ten terms are the one sum over all nodes. -/
theorem sum_terms0 (c : Dev nD) (l : Fin 64) (k : Fin 128) :
    ∑ t ∈ Finset.range 10, termN0 V c l k t
      = belAgg (fun i => labArr0 V c (ix2 i (0 : Fin 1))) (fun i k => xArr0 V c (ix2 i k)) l k := by
  rw [← Fin.sum_univ_eq_sum_range (fun t => termN0 V c l k t) 10]
  unfold belAgg
  rw [← Equiv.sum_comp (finProdFinEquiv : Fin 10 × Fin 10000 ≃ Fin 100000)
    (fun i : Fin 100000 => hot (labArr0 V c (ix2 i (0 : Fin 1))) l * xArr0 V c (ix2 i k)), Fintype.sum_prod_type]
  refine Finset.sum_congr rfl fun t _ => ?_
  have ht : t.val < cfg0.N := lt_of_lt_of_eq t.isLt (show (10 : ℕ) = cfg0.N from N_0.symm)
  rw [termN0_of_lt V c l k t.val ht]
  unfold term0
  refine Finset.sum_congr rfl fun r _ => ?_
  have hn : node0 ⟨t.val, ht⟩ r = (finProdFinEquiv (t, r) : Fin 100000) := Fin.ext (by
    show 10000 * t.val + r.val = r.val + 10000 * t.val
    omega)
  rw [hn]

/-- After the last point the accumulator is the aggregate. -/
theorem acc0_total (c : Dev nD) (l : Fin 64) (k : Fin 128) :
    acc0 (F := Ideal) V c t0_9.val t0_9.isLt (ix2 l k)
      = belAgg (fun i => labArr0 V c (ix2 i (0 : Fin 1))) (fun i k => xArr0 V c (ix2 i k)) l k :=
  (acc0_apply V c l k t0_9.val t0_9.isLt).trans (sum_terms0 V c l k)

/-! ## The result array -/

/-- THE VALUE: the result array at (l, j) is the label side's output of the aggregate of the node features by label. -/
theorem region0_val (c : Dev nD) (l : Fin 64) (j : Fin 128) :
    (dat0 (F := Ideal) V c).arrAt 5 cfg0.N (ix2 l j)
      = labOut (belAgg (fun i => labArr0 V c (ix2 i (0 : Fin 1))) (fun i k => xArr0 V c (ix2 i k)))
          (fun l => sArr0 V c (ix2 l (0 : Fin 1))) (fun k j => wArr0 V c (ix2 k j)) (fun j => bArr0 V c (ix1 j)) l j := by
  rw [arrAt0_5]
  show res0 V c t0_9 (ix2 l j) = _
  unfold res0
  refine (pay0_3_apply (acc0 V c t0_9.val t0_9.isLt) (iblk0 V c 2 t0_9) (iblk0 V c 3 t0_9) (iblk0 V c 4 t0_9) l j).trans ?_
  unfold labOut
  rw [s_blk0 V c, w_blk0 V c, b_blk0 V c]
  refine congrArg (fun z => max (z + bArr0 V c (ix1 j)) 0) (Finset.sum_congr rfl fun q _ => ?_)
  rw [acc0_total V c l q]

end Cert.KernelIdeal.Hand

end
-- ==== Proof.KI.Region1Arr.lean ====
/-
  The combine step of the first layer (region 1 of the program), read back: what each of its seven arrays holds after
  the ten tiles. The six inputs are never written. The result's tile `t`, read back, is what the body left at tile
  `t` — the payload of the six blocks there — because distinct tiles write disjoint row ranges. Also here, for the
  value proof: where each block sits in its array (tile `t` of the two tiled inputs and of the result is rows
  10000·t … 10000·t + 9999; the four small arrays are their own one block), and that the ten tiles cover the result.
-/
import proofs.«405200_j27075473834261_2_alg».proof.Proof.KI.Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! ## The inputs' arrays -/

/-- An input window's array is never written: after the ten tiles it is the entry contents. -/
theorem arrAt1_of_in (c : Dev nD) (w : Fin cfg1.W) (hin : (cfg1.win w).isOut = false) :
    (dat1 V c).arrAt w cfg1.N = V c (Pipeline.arrRef spec1 w) :=
  ((dat1 V c).arrAt_in w hin _).trans (A_eq1 V c w)

theorem arrAt1_0 (c : Dev nD) : (dat1 V c).arrAt 0 cfg1.N = V c (Pipeline.arrRef spec1 0) := arrAt1_of_in V c 0 rfl
theorem arrAt1_1 (c : Dev nD) : (dat1 V c).arrAt 1 cfg1.N = V c (Pipeline.arrRef spec1 1) := arrAt1_of_in V c 1 rfl
theorem arrAt1_2 (c : Dev nD) : (dat1 V c).arrAt 2 cfg1.N = V c (Pipeline.arrRef spec1 2) := arrAt1_of_in V c 2 rfl
theorem arrAt1_3 (c : Dev nD) : (dat1 V c).arrAt 3 cfg1.N = V c (Pipeline.arrRef spec1 3) := arrAt1_of_in V c 3 rfl
theorem arrAt1_4 (c : Dev nD) : (dat1 V c).arrAt 4 cfg1.N = V c (Pipeline.arrRef spec1 4) := arrAt1_of_in V c 4 rfl
theorem arrAt1_5 (c : Dev nD) : (dat1 V c).arrAt 5 cfg1.N = V c (Pipeline.arrRef spec1 5) := arrAt1_of_in V c 5 rfl

/-! ## The result's array, tile by tile -/

/-- The one store's canon is its payload, and each load through the whole of its buffer reads the buffer. -/
theorem comb1_eq (lab : Vec F S10000x1 .i32) (con : Vec F S10000x128 .f32) (M : Vec F S64x128 .f32) (bi : Vec F S128 .f32)
    (Wc : Vec F S128x128 .f32) (bc : Vec F S128 .f32) : comb1 lab con M bi Wc bc = k1_pay1 lab M bi con Wc bc := by
  unfold comb1
  rw [View.canon_unit_zero zeroOff1]
  simp only [View.ld_unit_zero (S := S10000x1) zeroOff1, View.ld_unit_zero (S := S10000x128) zeroOff1,
    View.ld_unit_zero (S := S64x128) zeroOff1, View.ld_unit_zero (S := S128x128) zeroOff1,
    View.ld_unit_zero (S := S128) zeroOffRow1]

/-- What tile `t` writes back to the result's array: the payload of the six blocks at `t`. -/
theorem flushed1_6 (c : Dev nD) (t : Fin cfg1.N) :
    (dat1 V c).flushed 6 t = (cfg1.win 6).cut (grid1.coords t)
      (k1_pay1 (iblk1 V c 0 t) (iblk1 V c 2 t) (iblk1 V c 3 t) (iblk1 V c 1 t) (iblk1 V c 4 t) (iblk1 V c 5 t)) := by
  show (cfg1.win 6).cut (grid1.coords t) ((dat1 V c).after 6 t) = _
  rw [after1_6, comb1_eq]

/-- Distinct tiles have distinct block indices (decided over the ten tiles). -/
theorem tile_inj1 : ∀ t t' : Fin cfg1.N, win1_6.index t = win1_6.index t' → t = t' :=
  (by decide +kernel : ∀ t t' : Fin grid1.N, win1_6.index t = win1_6.index t' → t = t')

/-- So two tiles' blocks share no index of the result's array. -/
theorem tile_disjoint1 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (tile_inj1 t t' h)

/-- Tile `t` of the result's array after the ten tiles, read back, is what tile `t` wrote back. -/
theorem tile1 (c : Dev nD) (t : Fin cfg1.N) :
    ((cfg1.win 6).blk t).view.read (Elt F) ((dat1 V c).arrAt 6 cfg1.N) = (dat1 V c).flushed 6 t :=
  (dat1 V c).read_blk_arrAt_eq_flushed 6 tile_disjoint1 cfg1.N t t.isLt (flush1_6 t)

/-! ## Where the blocks sit -/

/-- The block indices at tile `t`, decided over the ten tiles: the tiled windows (label column, aggregate, result) are
    at block row `t`; the four small arrays are at block 0. -/
theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- There are ten tiles. -/
theorem tile_lt1 (t : Fin cfg1.N) : t.val < 10 := Nat.lt_of_lt_of_eq t.isLt N_1

/-- Row `p` of tile `t` is row 10000·t + p of the array. -/
abbrev rowOf1 (t : Fin cfg1.N) (p : Fin 10000) : Fin 100000 :=
  ⟨t.val * 10000 + p.val, by have := tile_lt1 t; have := p.isLt; omega⟩

/-- The label column's block at tile `t`, entry by entry. -/
theorem iblk1_0_apply (c : Dev nD) (t : Fin cfg1.N) (p : Fin 10000) (u : Fin 1) :
    iblk1 V c 0 t (ix2 p u) = V c main_v0 (ix2 (rowOf1 t p) u) := by
  obtain ⟨e0, e1, -⟩ := tile_index1 t
  show V c main_v0 (((cfg1.win 0).blk t).view.emb (ix2 p u)) = V c main_v0 (ix2 (rowOf1 t p) u)
  refine congrArg (V c main_v0) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 1 + 1 * u.val = u.val; rw [e1]; omega

/-- The aggregate's block at tile `t`, entry by entry. -/
theorem iblk1_1_apply (c : Dev nD) (t : Fin cfg1.N) (p : Fin 10000) (k : Fin 128) :
    iblk1 V c 1 t (ix2 p k) = V c main_v47 (ix2 (rowOf1 t p) k) := by
  obtain ⟨-, -, e0, e1, -⟩ := tile_index1 t
  show V c main_v47 (((cfg1.win 1).blk t).view.emb (ix2 p k)) = V c main_v47 (ix2 (rowOf1 t p) k)
  refine congrArg (V c main_v47) (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 128 + 1 * k.val = k.val; rw [e1]; omega

/-- The label table's block at any tile is the table. -/
theorem iblk1_2_apply (c : Dev nD) (t : Fin cfg1.N) (l : Fin 64) (k : Fin 128) :
    iblk1 V c 2 t (ix2 l k) = V c main_v50 (ix2 l k) := by
  obtain ⟨-, -, -, -, e0, e1, -⟩ := tile_index1 t
  show V c main_v50 (((cfg1.win 2).blk t).view.emb (ix2 l k)) = V c main_v50 (ix2 l k)
  refine congrArg (V c main_v50) (funext fun a => Fin.ext ?_)
  match a with
  | ⟨0, _⟩ => show win1_2.index t (0 : Fin 2) * 64 + 1 * l.val = l.val; rw [e0]; omega
  | ⟨1, _⟩ => show win1_2.index t (1 : Fin 2) * 128 + 1 * k.val = k.val; rw [e1]; omega

/-- The table's bias at any tile is the bias. -/
theorem iblk1_3_apply (c : Dev nD) (t : Fin cfg1.N) (k : Fin 128) :
    iblk1 V c 3 t (ix1 k) = V c main_arg5 (ix1 k) := by
  obtain ⟨-, -, -, -, -, -, e0, -⟩ := tile_index1 t
  show V c main_arg5 (((cfg1.win 3).blk t).view.emb (ix1 k)) = V c main_arg5 (ix1 k)
  refine congrArg (V c main_arg5) (funext fun a => Fin.ext ?_)
  match a with
  | ⟨0, _⟩ => show win1_3.index t (0 : Fin 1) * 128 + 1 * k.val = k.val; rw [e0]; omega

/-- The dense map's block at any tile is the map. -/
theorem iblk1_4_apply (c : Dev nD) (t : Fin cfg1.N) (k : Fin 128) (n : Fin 128) :
    iblk1 V c 4 t (ix2 k n) = V c main_arg6 (ix2 k n) := by
  obtain ⟨-, -, -, -, -, -, -, e0, e1, -⟩ := tile_index1 t
  show V c main_arg6 (((cfg1.win 4).blk t).view.emb (ix2 k n)) = V c main_arg6 (ix2 k n)
  refine congrArg (V c main_arg6) (funext fun a => Fin.ext ?_)
  match a with
  | ⟨0, _⟩ => show win1_4.index t (0 : Fin 2) * 128 + 1 * k.val = k.val; rw [e0]; omega
  | ⟨1, _⟩ => show win1_4.index t (1 : Fin 2) * 128 + 1 * n.val = n.val; rw [e1]; omega

/-- The dense map's bias at any tile is the bias. -/
theorem iblk1_5_apply (c : Dev nD) (t : Fin cfg1.N) (k : Fin 128) :
    iblk1 V c 5 t (ix1 k) = V c main_arg7 (ix1 k) := by
  obtain ⟨-, -, -, -, -, -, -, -, -, e0, -⟩ := tile_index1 t
  show V c main_arg7 (((cfg1.win 5).blk t).view.emb (ix1 k)) = V c main_arg7 (ix1 k)
  refine congrArg (V c main_arg7) (funext fun a => Fin.ext ?_)
  match a with
  | ⟨0, _⟩ => show win1_5.index t (0 : Fin 1) * 128 + 1 * k.val = k.val; rw [e0]; omega

/-! ## The tiles cover the result -/

/-- An index of the result's array is in tile `t`'s block iff each coordinate is in the block's range on its axis. -/
theorem mem_tile1 (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v51).slice (win1_6.rect t)).set ↔ _
  rw [View.set_slice_whole, Rect.mem_set_unit]
  exact Iff.rfl

/-- Row `r` is in tile `r / 10000`, and every tile is written back. -/
theorem tiles_cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hq : (i 0).val / 10000 < 10 := by omega
  obtain ⟨t, ht⟩ : ∃ t : Fin cfg1.N, t.val = (i 0).val / 10000 := ⟨⟨(i 0).val / 10000, Nat.lt_of_lt_of_eq hq N_1.symm⟩, rfl⟩
  obtain ⟨-, -, -, -, -, -, -, -, -, -, e0, e1⟩ := tile_index1 t
  refine ⟨t, flush1_6 t, ?_⟩
  rw [mem_tile1]
  intro a
  match a with
  | ⟨0, _⟩ =>
    show win1_6.index t (0 : Fin 2) * 10000 ≤ (i 0).val ∧ (i 0).val < win1_6.index t (0 : Fin 2) * 10000 + 10000
    rw [e0, ht]; omega
  | ⟨1, _⟩ =>
    show win1_6.index t (1 : Fin 2) * 128 ≤ (i 1).val ∧ (i 1).val < win1_6.index t (1 : Fin 2) * 128 + 128
    rw [e1]; omega

end Cert.KernelIdeal.Hand

end
-- ==== Proof.KI.CombineVal.lean ====
/-
  The arithmetic of the combine step at the extended reals, shared by its two occurrences (regions 1 and 5).

  The indicator of a tile's labels: entry (r, l) of `float(label_r == l)` is 1 when node r carries label l and 0 otherwise.
  The two products into a zero accumulator — indicator [10000,64] times table [64,128], aggregate [10000,128] times dense map
  [128,128] — are plain sums over the contracted axis. A bias [128] viewed [1,128] and repeated down the rows reads its entry
  at the column.
-/
import proofs.«405200_j27075473834261_2_alg».proof.Proof.Gen.KernelIdeal
import proofs.«405200_j27075473834261_2_alg».proof.Proof.Spec
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.SL.Sem
open Idealize.ShloMosaic.ValueIdx

/-! ## The indicator of a label -/

/-- "label word equals l", widened to 32 bits and read as a signed integer, is the indicator. -/
theorem hotWord (w : BitVec 32) (l : Fin 64) :
    ((((IntOp.cmpi .eq w (BitVec.ofNat 32 l.val)).setWidth 32).toInt : ℝ) : EReal) = Cert.Hgcn.hot w l := by
  have hc : IntOp.cmpi .eq w (BitVec.ofNat 32 l.val) = BitVec.ofBool (w == BitVec.ofNat 32 l.val) := rfl
  rw [hc]
  unfold Cert.Hgcn.hot
  by_cases h : w = BitVec.ofNat 32 l.val
  · have e : (w == BitVec.ofNat 32 l.val) = true := by rw [h]; exact beq_self_eq_true _
    have one : ((BitVec.ofBool true).setWidth 32).toInt = 1 := by decide
    rw [if_pos h, e, one]; simp
  · have e : (w == BitVec.ofNat 32 l.val) = false := by rw [beq_eq_false_iff_ne]; exact h
    have zero : ((BitVec.ofBool false).setWidth 32).toInt = 0 := by decide
    rw [if_neg h, e, zero]; simp

/-- A [10000,1] column repeated along 64 columns reads, at (r, l), the column's entry at r. -/
theorem labelColumn_apply {α : Type} (x : S10000x1.Idx → α) (h : S10000x1.Broadcasts S10000x64) (r : Fin 10000) (l : Fin 64) :
    broadcastTo S10000x64 x h (ix2 r l) = x (ix2 r (0 : Fin 1)) := by
  refine broadcastTo_apply x h (ix2 r l) (ix2 r (0 : Fin 1)) fun ax => ?_
  match ax with
  | ⟨0, _⟩ =>
    show r.val = if (10000 : ℕ) = 1 then 0 else r.val
    rw [if_neg (by decide)]
  | ⟨1, _⟩ => rfl

/-- Entry (r, l) of `float(label == column number)` on a tile is the indicator that node r of the tile carries label l. -/
theorem hotEntry_apply (lab : Vec Ideal S10000x1 .i32) (h1 : S10000x1.Broadcasts S10000x64) (h2 : S10000x64.Iotas .tc 32 [1])
    (h3 : 1 < 32) (r : Fin 10000) (l : Fin 64) :
    (sitofp .f32 (extui 32 (cmpi .eq (broadcastTo S10000x64 lab h1) (iota .tc S10000x64 32 [1] h2)) h3) : FVec Ideal S10000x64 .f32) (ix2 r l)
      = Cert.Hgcn.hot (lab (ix2 r (0 : Fin 1))) l := by
  have hb : broadcastTo S10000x64 lab h1 (ix2 r l) = lab (ix2 r (0 : Fin 1)) := labelColumn_apply lab h1 r l
  have hi : iota .tc S10000x64 32 [1] h2 (ix2 r l) = BitVec.ofNat 32 l.val := iota_single_apply .tc S10000x64 32 1 h2 (ix2 r l)
  show ((((IntOp.cmpi .eq (broadcastTo S10000x64 lab h1 (ix2 r l)) (iota .tc S10000x64 32 [1] h2 (ix2 r l))).setWidth 32).toInt : ℝ) : EReal) = _
  rw [hb, hi]
  exact hotWord _ l

/-! ## A bias repeated down the rows -/

/-- A [128] vector viewed [1,128] and repeated down 10000 rows reads, at (r, j), the vector's entry j. -/
theorem biasRow_apply {α : Type} (b : S128.Idx → α) (h1 : S128.ShapeCasts S1x128) (h2 : S1x128.Broadcasts S10000x128) (r : Fin 10000) (j : Fin 128) :
    broadcastTo S10000x128 (shapeCast S1x128 b h1) h2 (ix2 r j) = b (ix1 j) := by
  rw [broadcastTo_1b_ab_apply (shapeCast S1x128 b h1) h2 r j, shapeCast_a_1a_apply b h1 (0 : Fin 1) j]

/-! ## The two products -/

theorem hotDot_lhs_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem hotDot_lhs_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem hotDot_rhs_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem hotDot_rhs_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The indicator times the label table, into zero: entry (r, j) is the sum over the 64 labels. -/
theorem hotDot_apply (x : FVec Ideal S10000x64 .bf16) (y : FVec Ideal S64x128 .bf16) (r : Fin 10000) (j : Fin 128) :
    FloatOps.matmul dot_S10000x64_S64x128_S10000x128_1_0_0_1_n_n none x y (constant (F := Ideal) S10000x128 .f32 0x00000000#32) (ix2 r j)
      = ∑ l : Fin 64, x (ix2 r l) * y (ix2 l j) := by
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 r j) ((ValueIdx.contrEquiv1 dot_S10000x64_S64x128_S10000x128_1_0_0_1_n_n 64 rfl rfl).symm k) = ix2 r k := funext fun a => Fin.ext (by
    match a with
    | ⟨0, _⟩ => exact hotDot_lhs_0 _ _
    | ⟨1, _⟩ => exact (hotDot_lhs_1 _ _).trans hk)
  have er : dot_S10000x64_S64x128_S10000x128_1_0_0_1_n_n.rhsIdx (ix2 r j) ((ValueIdx.contrEquiv1 dot_S10000x64_S64x128_S10000x128_1_0_0_1_n_n 64 rfl rfl).symm k) = ix2 k j := funext fun a => Fin.ext (by
    match a with
    | ⟨0, _⟩ => exact (hotDot_rhs_0 _ _).trans hk
    | ⟨1, _⟩ => exact hotDot_rhs_1 _ _)
  rw [el, er]

theorem conDot_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem conDot_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem conDot_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem conDot_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The aggregate times the dense map, into zero: entry (r, j) is the sum over the 128 features. -/
theorem conDot_apply (x : FVec Ideal S10000x128 .bf16) (y : FVec Ideal S128x128 .bf16) (r : Fin 10000) (j : Fin 128) :
    FloatOps.matmul dot_S10000x128_S128x128_S10000x128_1_0_0_1_n_n none x y (constant (F := Ideal) S10000x128 .f32 0x00000000#32) (ix2 r j)
      = ∑ k : Fin 128, x (ix2 r k) * y (ix2 k j) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r j) ((ValueIdx.contrEquiv1 dot_S10000x128_S128x128_S10000x128_1_0_0_1_n_n 128 rfl rfl).symm k) = ix2 r k := funext fun a => Fin.ext (by
    match a with
    | ⟨0, _⟩ => exact conDot_lhs_0 _ _
    | ⟨1, _⟩ => exact (conDot_lhs_1 _ _).trans hk)
  have er : dot_S10000x128_S128x128_S10000x128_1_0_0_1_n_n.rhsIdx (ix2 r j) ((ValueIdx.contrEquiv1 dot_S10000x128_S128x128_S10000x128_1_0_0_1_n_n 128 rfl rfl).symm k) = ix2 k j := funext fun a => Fin.ext (by
    match a with
    | ⟨0, _⟩ => exact (conDot_rhs_0 _ _).trans hk
    | ⟨1, _⟩ => exact conDot_rhs_1 _ _)
  rw [el, er]

end Cert.KernelIdeal.Hand

end
-- ==== Proof.KI.Region1Val.lean ====
/-
  The combine step of the first layer (region 1 of the program) at the extended reals: the result array, entry by entry,
  is relu(½ · (inc + con)) of the specification — inc the indicator row of the node's label times the label table plus its
  bias, con the node's aggregate row times the dense map plus its bias — of the arrays the region finds.
-/
import proofs.«405200_j27075473834261_2_alg».proof.Proof.KI.Region1
import proofs.«405200_j27075473834261_2_alg».proof.Proof.KI.Region1Arr
import proofs.«405200_j27075473834261_2_alg».proof.Proof.KI.CombineVal
import proofs.«405200_j27075473834261_2_alg».proof.Proof.Spec
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The payload at an entry -/

/-- Entry (r, j) of what the body stores, from the six buffers' contents. -/
theorem pay1_apply (lab : Vec Ideal S10000x1 .i32) (M : Vec Ideal S64x128 .f32) (bi : Vec Ideal S128 .f32)
    (con : Vec Ideal S10000x128 .f32) (Wc : Vec Ideal S128x128 .f32) (bc : Vec Ideal S128 .f32) (r : Fin 10000) (j : Fin 128) :
    k1_pay1 (F := Ideal) lab M bi con Wc bc (ix2 r j)
      = max (Cert.Hgcn.half * (((∑ l : Fin 64, Cert.Hgcn.hot (lab (ix2 r (0 : Fin 1))) l * M (ix2 l j)) + bi (ix1 j))
          + ((∑ k : Fin 128, con (ix2 r k) * Wc (ix2 k j)) + bc (ix1 j)))) 0 := by
  unfold k1_pay1
  simp only [maximumf_apply, mulf_apply, addf_apply, broadcast_apply, hotDot_apply, conDot_apply, biasRow_apply,
    truncf_apply, shapeCast_self, Ideal.ofBits_def, Ideal.ofBits_zero_f32]
  exact congrArg (fun s => max (Cert.Hgcn.half * ((s + bi (ix1 j)) + ((∑ k : Fin 128, con (ix2 r k) * Wc (ix2 k j)) + bc (ix1 j)))) 0)
    (Finset.sum_congr rfl fun l _ => congrArg (· * M (ix2 l j)) (hotEntry_apply lab _ _ _ r l))

/-! ## The result array as one function of the arrays the region finds -/

/-- The label word of node r. -/
abbrev labels1 (c : Dev nD) : Fin 100000 → BitVec 32 := fun r => (V c main_v0 : S100000x1.Idx → BitVec 32) (ix2 r (0 : Fin 1))
/-- The "connected to" aggregate. -/
abbrev aggregate1 (c : Dev nD) : Fin 100000 → Fin 128 → EReal := fun r k => (V c main_v47 : S100000x128.Idx → EReal) (ix2 r k)
/-- The label table of "including". -/
abbrev table1 (c : Dev nD) : Fin 64 → Fin 128 → EReal := fun l k => (V c main_v50 : S64x128.Idx → EReal) (ix2 l k)
/-- Its bias. -/
abbrev tableBias1 (c : Dev nD) : Fin 128 → EReal := fun k => (V c main_arg5 : S128.Idx → EReal) (ix1 k)
/-- The dense map of "connected to". -/
abbrev dense1 (c : Dev nD) : Fin 128 → Fin 128 → EReal := fun k n => (V c main_arg6 : S128x128.Idx → EReal) (ix2 k n)
/-- Its bias. -/
abbrev denseBias1 (c : Dev nD) : Fin 128 → EReal := fun k => (V c main_arg7 : S128.Idx → EReal) (ix1 k)

/-- The sequence side of the layer, as an array. -/
def combined1 (c : Dev nD) : S100000x128.Idx → EReal := fun i =>
  Cert.Hgcn.seqOut (Cert.Hgcn.incK (labels1 V c) (table1 V c) (tableBias1 V c))
    (Cert.Hgcn.conDense (aggregate1 V c) (dense1 V c) (denseBias1 V c)) (i 0) (i 1)

/-- Entry (p, q) of what tile `t` stores is the specification's value at row 10000·t + p, column q. -/
theorem tileValue1 (c : Dev nD) (t : Fin cfg1.N) (p : Fin 10000) (q : Fin 128) :
    k1_pay1 (F := Ideal) (iblk1 V c 0 t) (iblk1 V c 2 t) (iblk1 V c 3 t) (iblk1 V c 1 t) (iblk1 V c 4 t) (iblk1 V c 5 t) (ix2 p q)
      = combined1 V c (ix2 (rowOf1 t p) q) := by
  rw [pay1_apply]
  simp only [iblk1_0_apply, iblk1_1_apply, iblk1_2_apply, iblk1_3_apply, iblk1_4_apply, iblk1_5_apply]
  rfl

/-- What tile `t` writes back is tile `t` of that array. -/
theorem flushed1_eq (c : Dev nD) (t : Fin cfg1.N) :
    (dat1 (F := Ideal) V c).flushed 6 t = ((cfg1.win 6).blk t).view.read (Elt Ideal) (combined1 V c) := by
  rw [flushed1_6]
  obtain ⟨-, -, -, -, -, -, -, -, -, -, e0, e1⟩ := tile_index1 t
  funext y
  have hy0 : (y 0).val < 10000 := (y 0).isLt
  have hy1 : (y 1).val < 128 := (y 1).isLt
  show k1_pay1 (F := Ideal) (iblk1 V c 0 t) (iblk1 V c 2 t) (iblk1 V c 3 t) (iblk1 V c 1 t) (iblk1 V c 4 t) (iblk1 V c 5 t)
      ((cfg1.win 6).xinj (grid1.coords t) y) = combined1 V c (((cfg1.win 6).blk t).view.emb y)
  have hx : (cfg1.win 6).xinj (grid1.coords t) y = ix2 (⟨(y 0).val, hy0⟩ : Fin 10000) (⟨(y 1).val, hy1⟩ : Fin 128) :=
    funext fun a => by
      match a with
      | ⟨0, _⟩ => rfl
      | ⟨1, _⟩ => rfl
  have he : ((cfg1.win 6).blk t).view.emb y = ix2 (rowOf1 t ⟨(y 0).val, hy0⟩) (⟨(y 1).val, hy1⟩ : Fin 128) :=
    funext fun a => Fin.ext (by
      match a with
      | ⟨0, _⟩ => show win1_6.index t (0 : Fin 2) * 10000 + 1 * (y 0).val = t.val * 10000 + (y 0).val; rw [e0]; omega
      | ⟨1, _⟩ => show win1_6.index t (1 : Fin 2) * 128 + 1 * (y 1).val = (y 1).val; rw [e1]; omega)
  rw [hx, he]
  exact tileValue1 V c t ⟨(y 0).val, hy0⟩ ⟨(y 1).val, hy1⟩

/-- The result's array after the ten tiles. -/
theorem final1 (c : Dev nD) : (dat1 (F := Ideal) V c).arrAt 6 cfg1.N = combined1 V c :=
  (dat1 V c).arrAt_eq_of_cover 6 (combined1 V c) (fun t _ => flushed1_eq V c t) tiles_cover1

/-- The result's array after the ten tiles, entry by entry: the sequence side of the layer. -/
theorem combine1_apply (c : Dev nD) (i : Fin 100000) (j : Fin 128) :
    (dat1 (F := Ideal) V c).arrAt 6 cfg1.N (ix2 i j)
      = Cert.Hgcn.seqOut (Cert.Hgcn.incK (labels1 V c) (table1 V c) (tableBias1 V c))
          (Cert.Hgcn.conDense (aggregate1 V c) (dense1 V c) (denseBias1 V c)) i j := by
  rw [final1]
  rfl

end Cert.KernelIdeal.Hand

end
-- ==== Proof.KI.Region2Val.lean ====
/-
  Region 2 of @main at the extended reals: what the statistics kernel leaves in its two result arrays.

  The ten tiles' partial sums, accumulated in point order from zero, are regrouped into one sum over the 100000 rows:
  at column d the first result holds the column sum of the input, the second the column sum of its squares. Only
  commutativity and associativity of + on the extended reals are used (a finite sum over a range split into consecutive
  stretches).
-/
import proofs.«405200_j27075473834261_2_alg».proof.Proof.KI.Region2
import proofs.«405200_j27075473834261_2_alg».proof.Proof.Spec
import Idealize.ShloMosaic.Lib.ValueIdx
import Idealize.ShloMosaic.Lib.ValueLayout
import Idealize.ShloMosaic.PureOps.Ideal.Laws
import Idealize.ShloMosaic.Lib.Pipeline.Value
import Mathlib.Algebra.BigOperators.Fin
import Mathlib.Algebra.BigOperators.Group.Finset.Basic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! ## The body's payloads read at a column -/

/-- A sum over axis 0 of a [10000,128] block, read at column `d`: the sum over the rows. -/
theorem colReduce2_apply (src : FVec Ideal S10000x128 .f32) (h : S10000x128.Reduces [0] S128) (hφ : FKind.Formats .f32)
    (hacc : (0x00000000#32 : BitVec 32) = 0x00000000#32) (d : Fin 128) :
    multiReduction .add [0] S128 src 0x00000000#32 h hφ hacc (ix1 d) = ∑ r : Fin 10000, src (ix2 r d) := by
  refine (Ideal.multiReduction_add_single src 0x00000000#32 h hφ hacc (ix1 d)).trans ?_
  show (∑ r : Fin 10000, src (Shape.Reduces.lift h (ix1 d) r)) = _
  refine Finset.sum_congr rfl fun r _ => congrArg src ?_
  funext a
  match a with
  | ⟨0, _⟩ => exact Fin.ext rfl
  | ⟨1, _⟩ => exact Fin.ext rfl

/-- The reset's zero block reads zero. -/
theorem k2_pay1_apply (j : S1x128.Idx) : k2_pay1 (F := Ideal) j = 0 :=
  (show k2_pay1 (F := Ideal) j = Ideal.ofBits .f32 0x00000000#32 from rfl).trans Ideal.ofBits_zero_f32
theorem k2_pay2_apply (j : S1x128.Idx) : k2_pay2 (F := Ideal) j = 0 :=
  (show k2_pay2 (F := Ideal) j = Ideal.ofBits .f32 0x00000000#32 from rfl).trans Ideal.ofBits_zero_f32

/-- The column-sum payload at column `d`: the running value there plus the tile's column sum. -/
theorem k2_pay4_apply (v3 : Vec Ideal S10000x128 .f32) (v5 : Vec Ideal S1x128 .f32) (d : Fin 128) :
    k2_pay4 v3 v5 (ix2 0 d) = v5 (ix2 0 d) + ∑ r : Fin 10000, v3 (ix2 r d) := by
  unfold k2_pay4 k2_pay3
  simp only [shapeCast_self]
  refine (addf_apply _ _ _).trans ?_
  refine congrArg (v5 (ix2 0 d) + ·) ?_
  refine (shapeCast_a_1a_apply _ _ 0 d).trans ?_
  exact colReduce2_apply _ _ _ _ d

/-- The sum-of-squares payload at column `d`: the running value there plus the tile's column sum of squares. -/
theorem k2_pay5_apply (v3 : Vec Ideal S10000x128 .f32) (v11 : Vec Ideal S1x128 .f32) (d : Fin 128) :
    k2_pay5 v3 v11 (ix2 0 d) = v11 (ix2 0 d) + ∑ r : Fin 10000, v3 (ix2 r d) * v3 (ix2 r d) := by
  unfold k2_pay5 k2_pay3
  simp only [shapeCast_self]
  refine (addf_apply _ _ _).trans ?_
  refine congrArg (v11 (ix2 0 d) + ·) ?_
  refine (shapeCast_a_1a_apply _ _ 0 d).trans ?_
  refine (colReduce2_apply _ _ _ _ d).trans ?_
  exact Finset.sum_congr rfl fun r _ => mulf_apply _ _ _

/-! ## A tile's element in the array -/

/-- Row `r` of tile `t` is row `10000 t + r` of the array. -/
theorem iblk2_apply (c : Dev nD) (t : Fin cfg2.N) (r : Fin 10000) (d : Fin 128) (h : 10000 * t.val + r.val < 100000) :
    iblk2 V c 0 t (ix2 r d) = V c (Pipeline.arrRef spec2 0) (ix2 ⟨10000 * t.val + r.val, h⟩ d) := by
  have hi : win2_0.index t 0 = t.val ∧ win2_0.index t 1 = 0 := by
    rcases fin_N2 t with rfl | rfl | rfl | rfl | rfl | rfl | rfl | rfl | rfl | rfl <;> decide
  unfold iblk2
  rw [View.read_apply]
  show V c (Pipeline.arrRef spec2 0) _ = V c (Pipeline.arrRef spec2 0) _
  congr 1
  funext a
  apply Fin.ext
  match a with
  | ⟨0, _⟩ => show win2_0.index t 0 * 10000 + 1 * r.val = 10000 * t.val + r.val; rw [hi.1]; omega
  | ⟨1, _⟩ => show win2_0.index t 1 * 128 + 1 * d.val = d.val; rw [hi.2]; omega

/-! ## The sum over the rows, tile by tile -/

/-- The input array by coordinates. -/
def x2 (c : Dev nD) (i : Fin 100000) (k : Fin 128) : EReal := V c (Pipeline.arrRef spec2 0) (ix2 i k)

/-- Column `d` of the array under `f`, over all naturals, zero past the last row: the form a sum over a range of rows is
    written in. -/
def rowsN2 (c : Dev nD) (f : EReal → EReal) (d : Fin 128) (i : ℕ) : EReal := if h : i < 100000 then f (x2 V c ⟨i, h⟩ d) else 0

/-- A sum over `m · n` consecutive naturals is the sum over `n` stretches of `m`. -/
theorem sum_range_tiles2 {M : Type} [AddCommMonoid M] (g : ℕ → M) (m : ℕ) :
    ∀ n : ℕ, ∑ i ∈ Finset.range (m * n), g i = ∑ t ∈ Finset.range n, ∑ r ∈ Finset.range m, g (m * t + r)
  | 0 => by simp
  | n + 1 => by
    rw [Nat.mul_succ, Finset.sum_range_add, Finset.sum_range_succ, sum_range_tiles2 g m n]

/-- The sum over the 100000 rows of `f` of column `d` is the sum over the ten tiles of the tile's. -/
theorem colSum_tiles2 (c : Dev nD) (f : EReal → EReal) (d : Fin 128) :
    ∑ i : Fin 100000, f (x2 V c i d) = ∑ t ∈ Finset.range 10, ∑ r ∈ Finset.range 10000, rowsN2 V c f d (10000 * t + r) := by
  rw [← sum_range_tiles2 (rowsN2 V c f d) 10000 10, ← Fin.sum_univ_eq_sum_range (rowsN2 V c f d) (10000 * 10)]
  show ∑ i : Fin 100000, f (x2 V c i d) = ∑ i : Fin 100000, rowsN2 V c f d i.val
  refine Finset.sum_congr rfl fun i _ => ?_
  unfold rowsN2
  exact (dif_pos (t := fun h => f (x2 V c ⟨i.val, h⟩ d)) (e := fun _ => (0 : EReal)) i.isLt).symm

/-- A tile's sum of `f` of its column `d`, as a stretch of that range. -/
theorem tile_sum2 (c : Dev nD) (f : EReal → EReal) (t : Fin cfg2.N) (d : Fin 128) :
    ∑ r : Fin 10000, f (iblk2 V c 0 t (ix2 r d)) = ∑ r ∈ Finset.range 10000, rowsN2 V c f d (10000 * t.val + r) := by
  have hN : t.val < 10 := lt_of_lt_of_eq t.isLt (show cfg2.N = 10 from N_2)
  rw [← Fin.sum_univ_eq_sum_range (fun r => rowsN2 V c f d (10000 * t.val + r)) 10000]
  refine Finset.sum_congr rfl fun r _ => ?_
  have hr : 10000 * t.val + r.val < 100000 := by have := r.isLt; omega
  refine (congrArg f (iblk2_apply V c t r d hr)).trans ?_
  unfold rowsN2
  exact (dif_pos (t := fun h => f (x2 V c ⟨10000 * t.val + r.val, h⟩ d)) (e := fun _ => (0 : EReal)) hr).symm

/-! ## The running sums are the partial sums over the tiles -/

/-- The running column sum after point `n` at column `d`: the sum over the tiles up to `n` of the tile's column sum. -/
theorem sumAt2_apply (c : Dev nD) (d : Fin 128) : ∀ (n : ℕ) (h : n < cfg2.N),
    sumAt2 V c n h (ix2 0 d) = ∑ t ∈ Finset.range (n + 1), ∑ r ∈ Finset.range 10000, rowsN2 V c id d (10000 * t + r)
  | 0, h => by
    show k2_pay4 (iblk2 V c 0 ⟨0, h⟩) (k2_pay1 (F := Ideal)) (ix2 0 d) = ∑ t ∈ Finset.range 1, ∑ r ∈ Finset.range 10000, rowsN2 V c id d (10000 * t + r)
    rw [k2_pay4_apply, k2_pay1_apply, zero_add, Finset.sum_range_one]
    exact tile_sum2 V c id ⟨0, h⟩ d
  | n + 1, h => by
    show k2_pay4 (iblk2 V c 0 ⟨n + 1, h⟩) (sumAt2 V c n (Nat.lt_of_succ_lt h)) (ix2 0 d) = _
    rw [k2_pay4_apply, sumAt2_apply c d n (Nat.lt_of_succ_lt h), Finset.sum_range_succ _ (n + 1)]
    exact congrArg (fun z : EReal => _ + z) (tile_sum2 V c id ⟨n + 1, h⟩ d)

/-- The running column sum of squares after point `n` at column `d`. -/
theorem sqAt2_apply (c : Dev nD) (d : Fin 128) : ∀ (n : ℕ) (h : n < cfg2.N),
    sqAt2 V c n h (ix2 0 d) = ∑ t ∈ Finset.range (n + 1), ∑ r ∈ Finset.range 10000, rowsN2 V c (fun y => y * y) d (10000 * t + r)
  | 0, h => by
    show k2_pay5 (iblk2 V c 0 ⟨0, h⟩) (k2_pay2 (F := Ideal)) (ix2 0 d) = ∑ t ∈ Finset.range 1, ∑ r ∈ Finset.range 10000, rowsN2 V c (fun y => y * y) d (10000 * t + r)
    rw [k2_pay5_apply, k2_pay2_apply, zero_add, Finset.sum_range_one]
    exact tile_sum2 V c (fun y => y * y) ⟨0, h⟩ d
  | n + 1, h => by
    show k2_pay5 (iblk2 V c 0 ⟨n + 1, h⟩) (sqAt2 V c n (Nat.lt_of_succ_lt h)) (ix2 0 d) = _
    rw [k2_pay5_apply, sqAt2_apply c d n (Nat.lt_of_succ_lt h), Finset.sum_range_succ _ (n + 1)]
    exact congrArg (fun z : EReal => _ + z) (tile_sum2 V c (fun y => y * y) ⟨n + 1, h⟩ d)

/-! ## The result arrays -/

/-- THE FIRST RESULT: at column `d` the column sum of the input array. -/
theorem sum2_val (c : Dev nD) (d : Fin 128) :
    (dat2 (F := Ideal) V c).arrAt 1 cfg2.N (ix2 0 d) = Cert.Hgcn.colSum (fun i k => V c (Pipeline.arrRef spec2 0) (ix2 i k)) d := by
  rw [arrAt2_1]
  show sumAt2 V c 9 _ (ix2 0 d) = ∑ i : Fin 100000, id (x2 V c i d)
  rw [colSum_tiles2 V c id d]
  exact sumAt2_apply V c d 9 _

/-- THE SECOND RESULT: at column `d` the column sum of the squares of the input array. -/
theorem sq2_val (c : Dev nD) (d : Fin 128) :
    (dat2 (F := Ideal) V c).arrAt 2 cfg2.N (ix2 0 d) = Cert.Hgcn.colSumSq (fun i k => V c (Pipeline.arrRef spec2 0) (ix2 i k)) d := by
  rw [arrAt2_2]
  show sqAt2 V c 9 _ (ix2 0 d) = ∑ i : Fin 100000, (fun y => y * y) (x2 V c i d)
  rw [colSum_tiles2 V c (fun y => y * y) d]
  exact sqAt2_apply V c d 9 _

end Cert.KernelIdeal.Hand

end
-- ==== Proof.KI.Region3Arr.lean ====
/-
  The arrays the apply pipeline leaves, generic in the float instance.

  The five inputs (the [100000,128] array, the mean and inverse standard deviation rows, the scale and shift vectors) are
  staged and never written back: after the run each holds what the region found. The output's ten tiles are written back
  one per tile of the grid, tile t to rows 10000 t … 10000 t + 9999, and no two tiles share a row: so the element of the
  final array under tile t's block IS the element of the tile the body stored at t, which is the payload of the input
  blocks at t (the body loads and stores whole buffers). The input blocks themselves are read at coordinates: the tile
  of the big array at row 10000 t + p, the rows and vectors at the same index for every t.
-/
import proofs.«405200_j27075473834261_2_alg».proof.Proof.KI.Region3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! ## The inputs: never written back -/

theorem arrIn3_0 (c : Dev nD) : (dat3 V c).arrAt 0 cfg3.N = V c (Pipeline.arrRef spec3 0) :=
  ((dat3 V c).arrAt_in 0 rfl _).trans (A_eq3 V c 0)
theorem arrIn3_1 (c : Dev nD) : (dat3 V c).arrAt 1 cfg3.N = V c (Pipeline.arrRef spec3 1) :=
  ((dat3 V c).arrAt_in 1 rfl _).trans (A_eq3 V c 1)
theorem arrIn3_2 (c : Dev nD) : (dat3 V c).arrAt 2 cfg3.N = V c (Pipeline.arrRef spec3 2) :=
  ((dat3 V c).arrAt_in 2 rfl _).trans (A_eq3 V c 2)
theorem arrIn3_3 (c : Dev nD) : (dat3 V c).arrAt 3 cfg3.N = V c (Pipeline.arrRef spec3 3) :=
  ((dat3 V c).arrAt_in 3 rfl _).trans (A_eq3 V c 3)
theorem arrIn3_4 (c : Dev nD) : (dat3 V c).arrAt 4 cfg3.N = V c (Pipeline.arrRef spec3 4) :=
  ((dat3 V c).arrAt_in 4 rfl _).trans (A_eq3 V c 4)

/-! ## The index maps, decided over the ten tiles -/

/-- The big input and the output move with the tile on the row axis and stay on the feature axis; the rows and the
    vectors stay put. -/
theorem tileIdx3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 1) = 0 ∧ win3_4.index t (0 : Fin 1) = 0 :=
  (by decide +kernel : ∀ t : Fin grid3.N, _)

/-- Distinct tiles write distinct blocks of the output. -/
theorem outIdx_inj3 : ∀ t t' : Fin cfg3.N, win3_5.index t = win3_5.index t' → t = t' :=
  (by decide +kernel : ∀ t t' : Fin grid3.N, win3_5.index t = win3_5.index t' → t = t')

/-- So two tiles' output blocks share no index of the array. -/
theorem outDisjoint3 : ∀ t t' : Fin cfg3.N, (cfg3.win 5).flush t = true → (cfg3.win 5).flush t' = true → t ≠ t' →
    Disjoint ((cfg3.win 5).blk t).view.set ((cfg3.win 5).blk t').view.set :=
  fun t t' _ _ hne => (cfg3.win 5).disjoint_blk fun h => hne (outIdx_inj3 t t' h)

/-! ## The output: tile by tile -/

private theorem zeros2 : (![0, 0] : Fin 2 → Nat) = fun _ => 0 := funext fun a => by fin_cases a <;> rfl
private theorem zeros1 : (![0] : Fin 1 → Nat) = fun _ => 0 := funext fun a => by fin_cases a <;> rfl

/-- The body loads whole buffers and its one store is the whole output buffer: the output tile is the payload of the
    input buffers. -/
theorem bnTile3_eq (x : Vec F S10000x128 .f32) (mean istd : Vec F S1x128 .f32) (g b : Vec F S128 .f32) :
    bnTile3 x mean istd g b = k3_pay1 x mean istd g b := by
  unfold bnTile3
  rw [View.canon_unit_zero zeros2]
  rw [View.ld_unit_zero (S := S10000x128) zeros2, View.ld_unit_zero (S := S1x128) zeros2 _ mean,
    View.ld_unit_zero (S := S1x128) zeros2 _ istd, View.ld_unit_zero (S := S128) zeros1 _ g,
    View.ld_unit_zero (S := S128) zeros1 _ b]

/-- What tile t writes back: the payload of the input blocks at t. -/
theorem flushed3_5 (c : Dev nD) (t : Fin cfg3.N) :
    (dat3 V c).flushed 5 t
      = (cfg3.win 5).cut (grid3.coords t) (k3_pay1 (iblk3 V c 0 t) (iblk3 V c 1 t) (iblk3 V c 2 t) (iblk3 V c 3 t) (iblk3 V c 4 t)) := by
  show (cfg3.win 5).cut (grid3.coords t) ((dat3 V c).after 5 t) = _
  rw [after3_5, bnTile3_eq]

/-- Block t of the final output array, read back, is what tile t wrote. -/
theorem blocks3_5 (c : Dev nD) (t : Fin cfg3.N) :
    ((cfg3.win 5).blk t).view.read (Elt F) ((dat3 V c).arrAt 5 cfg3.N) = (dat3 V c).flushed 5 t :=
  (dat3 V c).read_blk_arrAt_eq_flushed 5 outDisjoint3 cfg3.N t t.isLt (flush3_5 t)

/-- The element of the final output array at row 10000 t + p, feature d, is the payload of the input blocks at t, read
    at (p, d). -/
theorem arrOut3 (c : Dev nD) (t : Fin cfg3.N) (p : Fin 10000) (d : Fin 128) (i : Fin 100000) (hi : i.val = t.val * 10000 + p.val) :
    (dat3 V c).arrAt 5 cfg3.N (ix2 i d)
      = k3_pay1 (iblk3 V c 0 t) (iblk3 V c 1 t) (iblk3 V c 2 t) (iblk3 V c 3 t) (iblk3 V c 4 t) (ix2 p d) := by
  obtain ⟨-, -, e0, e1, -⟩ := tileIdx3 t
  have hemb : (ix2 i d : S100000x128.Idx) = ((cfg3.win 5).blk t).view.emb (ix2 p d) := by
    funext a; apply Fin.ext
    match a with
    | ⟨0, _⟩ => show i.val = win3_5.index t (0 : Fin 2) * 10000 + 1 * p.val; rw [e0]; clear e0 e1; omega
    | ⟨1, _⟩ => show d.val = win3_5.index t (1 : Fin 2) * 128 + 1 * d.val; rw [e1]; clear e0 e1; omega
  have h := congrFun (blocks3_5 V c t) (ix2 p d)
  rw [flushed3_5] at h
  rw [hemb]
  exact h

/-! ## The input blocks at coordinates -/

/-- The big input's block at tile t, at (p, d): the array at row 10000 t + p. -/
theorem iblk3_0_apply (c : Dev nD) (t : Fin cfg3.N) (p : Fin 10000) (d : Fin 128) (i : Fin 100000) (hi : i.val = t.val * 10000 + p.val) :
    iblk3 V c 0 t (ix2 p d) = V c (Pipeline.arrRef spec3 0) (ix2 i d) := by
  obtain ⟨e0, e1, -⟩ := tileIdx3 t
  show V c (Pipeline.arrRef spec3 0) (((cfg3.win 0).blk t).view.emb (ix2 p d)) = _
  refine congrArg (V c (Pipeline.arrRef spec3 0)) ?_
  funext a; apply Fin.ext
  match a with
  | ⟨0, _⟩ => show win3_0.index t (0 : Fin 2) * 10000 + 1 * p.val = i.val; rw [e0]; clear e0 e1; omega
  | ⟨1, _⟩ => show win3_0.index t (1 : Fin 2) * 128 + 1 * d.val = d.val; rw [e1]; clear e0 e1; omega

/-- The mean row's block at any tile is the row. -/
theorem iblk3_1_apply (c : Dev nD) (t : Fin cfg3.N) (u : Fin 1) (d : Fin 128) :
    iblk3 V c 1 t (ix2 u d) = V c (Pipeline.arrRef spec3 1) (ix2 u d) := by
  obtain ⟨-, -, -, -, e0, e1, -⟩ := tileIdx3 t
  show V c (Pipeline.arrRef spec3 1) (((cfg3.win 1).blk t).view.emb (ix2 u d)) = _
  refine congrArg (V c (Pipeline.arrRef spec3 1)) ?_
  funext a; apply Fin.ext
  match a with
  | ⟨0, _⟩ => show win3_1.index t (0 : Fin 2) * 1 + 1 * u.val = u.val; rw [e0]; clear e0 e1; omega
  | ⟨1, _⟩ => show win3_1.index t (1 : Fin 2) * 128 + 1 * d.val = d.val; rw [e1]; clear e0 e1; omega

/-- The inverse standard deviation row's block at any tile is the row. -/
theorem iblk3_2_apply (c : Dev nD) (t : Fin cfg3.N) (u : Fin 1) (d : Fin 128) :
    iblk3 V c 2 t (ix2 u d) = V c (Pipeline.arrRef spec3 2) (ix2 u d) := by
  obtain ⟨-, -, -, -, -, -, e0, e1, -⟩ := tileIdx3 t
  show V c (Pipeline.arrRef spec3 2) (((cfg3.win 2).blk t).view.emb (ix2 u d)) = _
  refine congrArg (V c (Pipeline.arrRef spec3 2)) ?_
  funext a; apply Fin.ext
  match a with
  | ⟨0, _⟩ => show win3_2.index t (0 : Fin 2) * 1 + 1 * u.val = u.val; rw [e0]; clear e0 e1; omega
  | ⟨1, _⟩ => show win3_2.index t (1 : Fin 2) * 128 + 1 * d.val = d.val; rw [e1]; clear e0 e1; omega

/-- The scale vector's block at any tile is the vector. -/
theorem iblk3_3_apply (c : Dev nD) (t : Fin cfg3.N) (d : Fin 128) :
    iblk3 V c 3 t (ix1 d) = V c (Pipeline.arrRef spec3 3) (ix1 d) := by
  obtain ⟨-, -, -, -, -, -, -, -, e0, -⟩ := tileIdx3 t
  show V c (Pipeline.arrRef spec3 3) (((cfg3.win 3).blk t).view.emb (ix1 d)) = _
  refine congrArg (V c (Pipeline.arrRef spec3 3)) ?_
  funext a; apply Fin.ext
  match a with
  | ⟨0, _⟩ => show win3_3.index t (0 : Fin 1) * 128 + 1 * d.val = d.val; rw [e0]; clear e0; omega

/-- The shift vector's block at any tile is the vector. -/
theorem iblk3_4_apply (c : Dev nD) (t : Fin cfg3.N) (d : Fin 128) :
    iblk3 V c 4 t (ix1 d) = V c (Pipeline.arrRef spec3 4) (ix1 d) := by
  obtain ⟨-, -, -, -, -, -, -, -, -, e0⟩ := tileIdx3 t
  show V c (Pipeline.arrRef spec3 4) (((cfg3.win 4).blk t).view.emb (ix1 d)) = _
  refine congrArg (V c (Pipeline.arrRef spec3 4)) ?_
  funext a; apply Fin.ext
  match a with
  | ⟨0, _⟩ => show win3_4.index t (0 : Fin 1) * 128 + 1 * d.val = d.val; rw [e0]; clear e0; omega

end Cert.KernelIdeal.Hand

end
-- ==== Proof.KI.Region3Val.lean ====
/-
  The apply pipeline's output at the extended reals, index by index: row i, feature d of the array it leaves is
  (x i d - mean d) * invstd d * g d + b d of the arrays it found — the input at row i, the mean and the inverse standard
  deviation at the one row of their [1,128] arrays, the scale and the shift.

  Row i lies in tile i / 10000 at row i % 10000 of the tile; the tile's store is the payload of the input blocks; at the
  extended reals the payload's vector operations read through at an index (a difference, two products, a sum; the rows
  and vectors broadcast along the tile's rows).
-/
import proofs.«405200_j27075473834261_2_alg».proof.Proof.KI.Region3
import proofs.«405200_j27075473834261_2_alg».proof.Proof.KI.Region3Arr
import proofs.«405200_j27075473834261_2_alg».proof.Proof.Spec
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The payload at an index of the tile: the tile's element less the mean, times the inverse standard deviation, times
    the scale, plus the shift. -/
theorem k3_pay1_apply (x : Vec Ideal S10000x128 .f32) (mean istd : Vec Ideal S1x128 .f32) (g b : Vec Ideal S128 .f32)
    (p : Fin 10000) (d : Fin 128) :
    k3_pay1 x mean istd g b (ix2 p d)
      = (x (ix2 p d) - mean (ix2 (0 : Fin 1) d)) * istd (ix2 (0 : Fin 1) d) * g (ix1 d) + b (ix1 d) := by
  unfold k3_pay1
  simp only [addf_apply, mulf_apply, subf_apply, shapeCast_self, broadcastTo_1b_ab_apply, shapeCast_a_1a_apply]

/-- The output array, index by index, is the batch normalisation's apply step of the input arrays. -/
theorem bnApply3_val (c : Dev nD) (i : Fin 100000) (d : Fin 128) :
    (dat3 (F := Ideal) V c).arrAt 5 cfg3.N (ix2 i d)
      = Cert.Hgcn.bnApply (n := 100000) (fun (i : Fin 100000) (k : Fin 128) => (V c (Pipeline.arrRef spec3 0) (ix2 i k) : EReal))
          (fun k => V c (Pipeline.arrRef spec3 1) (ix2 (0 : Fin 1) k))
          (fun k => V c (Pipeline.arrRef spec3 2) (ix2 (0 : Fin 1) k))
          (fun k => V c (Pipeline.arrRef spec3 3) (ix1 k))
          (fun k => V c (Pipeline.arrRef spec3 4) (ix1 k)) i d := by
  have hi : i.val < 100000 := i.isLt
  have hN : cfg3.N = 10 := N_3
  -- the tile of row i and the row's place in it
  obtain ⟨t, p, hip⟩ : ∃ (t : Fin cfg3.N) (p : Fin 10000), i.val = t.val * 10000 + p.val :=
    ⟨⟨i.val / 10000, Nat.lt_of_lt_of_eq (by omega) hN.symm⟩, ⟨i.val % 10000, Nat.mod_lt _ (by decide)⟩,
      by show i.val = i.val / 10000 * 10000 + i.val % 10000; omega⟩
  refine (arrOut3 V c t p d i hip).trans ?_
  refine (k3_pay1_apply _ _ _ _ _ p d).trans ?_
  rw [iblk3_0_apply V c t p d i hip, iblk3_1_apply V c t 0 d, iblk3_2_apply V c t 0 d, iblk3_3_apply V c t d,
    iblk3_4_apply V c t d]
  rfl

end Cert.KernelIdeal.Hand

end
-- ==== Proof.KI.Region4Arr.lean ====
import proofs.«405200_j27075473834261_2_alg».proof.Proof.KI.Region4
import Idealize.ShloMosaic.Lib.Pipeline.Value

/-!
  The arrays after the label-side aggregate of the second layer: every input array is as the region found it, and the
  result array, whose one block is the whole array and is written back once, after the last point, holds the last
  point's result block.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## The input arrays are never written -/

theorem arrAt4_0 (c : Dev nD) : (dat4 V c).arrAt 0 cfg4.N = V c (Pipeline.arrRef spec4 0) :=
  ((dat4 V c).arrAt_in 0 rfl _).trans (A_eq4 V c 0)
theorem arrAt4_1 (c : Dev nD) : (dat4 V c).arrAt 1 cfg4.N = V c (Pipeline.arrRef spec4 1) :=
  ((dat4 V c).arrAt_in 1 rfl _).trans (A_eq4 V c 1)
theorem arrAt4_2 (c : Dev nD) : (dat4 V c).arrAt 2 cfg4.N = V c (Pipeline.arrRef spec4 2) :=
  ((dat4 V c).arrAt_in 2 rfl _).trans (A_eq4 V c 2)
theorem arrAt4_3 (c : Dev nD) : (dat4 V c).arrAt 3 cfg4.N = V c (Pipeline.arrRef spec4 3) :=
  ((dat4 V c).arrAt_in 3 rfl _).trans (A_eq4 V c 3)
theorem arrAt4_4 (c : Dev nD) : (dat4 V c).arrAt 4 cfg4.N = V c (Pipeline.arrRef spec4 4) :=
  ((dat4 V c).arrAt_in 4 rfl _).trans (A_eq4 V c 4)

/-! ## The result array -/

/-- The last point's result block, as contents of the result array (its one block is the whole array). -/
abbrev result4 (c : Dev nD) : Buf (Elt F) ((c : Thread nD τ).loc main_v88) := res4 V c t4_9

/-- The one write-back, after the last point, writes it: block (0, 0) of the 64 x 64 array, read through zero offsets, is the array. -/
theorem flushed4_5 (c : Dev nD) (t : Fin cfg4.N) (hf : (cfg4.win 5).flush t = true) :
    (dat4 V c).flushed 5 t = ((cfg4.win 5).blk t).view.read (Elt F) (result4 V c) := by
  have hN : cfg4.N = 10 := N_4
  have h9 : t.val = 9 := by have := (flush4_5 t).mp hf; have := t.isLt; omega
  obtain rfl : t = t4_9 := Fin.ext h9
  show (cfg4.win 5).cut (grid4.coords t4_9) ((dat4 V c).after 5 t4_9) = _
  rw [after4_5]
  have hz' : (fun a => win4_5.index t4_9 a * main_v88.ty.shape.size a) = fun _ => 0 := funext fun a => by fin_cases a <;> decide
  exact (Memref.read_access_unit_zero (Elt F) main_v88 hz' (fun a => by rw [congrFun hz' a]; simp) (result4 V c)).symm

/-- So the result array ends holding the last point's result block: the last point's block covers it. -/
theorem arrAt4_5 (c : Dev nD) : (dat4 V c).arrAt 5 cfg4.N = result4 V c :=
  (dat4 V c).arrAt_eq_of_cover 5 (result4 V c) (flushed4_5 V c) fun i =>
    ⟨t4_9, (flush4_5 t4_9).mpr rfl, by
      show i ∈ ((View.whole main_v88).slice (win4_5.rect t4_9)).set
      rw [View.set_slice_whole, Rect.mem_set_unit]
      intro a
      have h0 : (i 0 : Nat) < 64 := (i 0).isLt
      have h1 : (i 1 : Nat) < 64 := (i 1).isLt
      match a with
      | ⟨0, _⟩ => show win4_5.index t4_9 0 * win4_5.size 0 ≤ (i 0 : Nat) ∧ (i 0 : Nat) < win4_5.index t4_9 0 * win4_5.size 0 + win4_5.xsize (grid4.coords t4_9) 0
                  rw [show win4_5.index t4_9 0 * win4_5.size 0 = 0 from by decide +kernel, show win4_5.xsize (grid4.coords t4_9) 0 = 64 from by decide +kernel]; omega
      | ⟨1, _⟩ => show win4_5.index t4_9 1 * win4_5.size 1 ≤ (i 1 : Nat) ∧ (i 1 : Nat) < win4_5.index t4_9 1 * win4_5.size 1 + win4_5.xsize (grid4.coords t4_9) 1
                  rw [show win4_5.index t4_9 1 * win4_5.size 1 = 0 from by decide +kernel, show win4_5.xsize (grid4.coords t4_9) 1 = 64 from by decide +kernel]; omega⟩

end Cert.KernelIdeal.Hand

end
-- ==== Proof.KI.Region4Val.lean ====
import proofs.«405200_j27075473834261_2_alg».proof.Proof.KI.Region4Arr
import proofs.«405200_j27075473834261_2_alg».proof.Proof.Spec
import Idealize.ShloMosaic.Lib.ValueIdx
import Idealize.ShloMosaic.Lib.ValueLayout
import Idealize.ShloMosaic.Lib.KernelVsHost
import Idealize.ShloMosaic.PureOps.Ideal.Laws
import Idealize.ShloMosaic.Lib.Pipeline.Value
import Mathlib.Algebra.BigOperators.Fin
import Mathlib.Logic.Equiv.Fin.Basic

/-!
  The value of the label-side aggregate of the second layer, over the extended reals.

  Point `t` adds to the accumulator, at (l, k), the sum over its 10000 rows r of the indicator that node 10000 t + r
  carries label l times that node's feature k: the transposed indicator matrix times the block of rows, into a zero
  accumulator. Ten such terms added to zero, in point order, are the one sum over all 100000 nodes (only commutativity and
  associativity of the sum are used). The last point's result is that sum scaled by the label's factor, through the dense
  map, plus the bias, clamped at zero.
-/

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Hgcn

/-! ## The two payloads read at an index -/

/-- An integer comparison of vectors, at an index. -/
theorem cmpi_at4 {s : Shape} {w : Nat} (p : CmpIPredicate) (x y : IVec s w) (i : s.Idx) : cmpi p x y i = IntOp.cmpi p (x i) (y i) := rfl

/-- The comparison word of a label against `l`, widened and converted, is the indicator. -/
theorem hot_word4 (w : BitVec 32) (l : Fin 64) :
    (FloatOps.sitofp (F := Ideal) .f32 ((IntOp.cmpi .eq w (BitVec.ofNat 32 l.val)).setWidth 32)) = hot w l := by
  show ((((BitVec.ofBool (w == BitVec.ofNat 32 l.val)).setWidth 32).toInt : ℝ) : EReal) = hot w l
  unfold hot
  by_cases h : w = BitVec.ofNat 32 l.val
  · rw [if_pos h, show (w == BitVec.ofNat 32 l.val) = true from beq_iff_eq.mpr h,
      show ((BitVec.ofBool true).setWidth 32).toInt = 1 from by decide]
    norm_num
  · rw [if_neg h, show (w == BitVec.ofNat 32 l.val) = false from beq_eq_false_iff_ne.mpr h,
      show ((BitVec.ofBool false).setWidth 32).toInt = 0 from by decide]
    norm_num

/-- The cleared accumulator is zero everywhere. -/
theorem pay4_1_apply (i : S64x128.Idx) : k4_pay1 (F := Ideal) i = 0 := by
  unfold k4_pay1
  (try dsimp only)
  rw [shapeCast_self]
  show Ideal.ofBits .f32 0x00000000#32 = 0
  exact Ideal.ofBits_zero_f32

/-- The left operand's index of the transposed product: row r of the indicator matrix, column l. -/
theorem lhsIdx4_a (l : Fin 64) (k : Fin 128) (r : Fin 10000) :
    dot_S10000x64_S10000x128_S64x128_0_0_1_1_n_n.lhsIdx (ix2 l k) ((contrEquiv1 dot_S10000x64_S10000x128_S64x128_0_0_1_1_n_n 10000 rfl rfl).symm r) = ix2 r l := by
  have c2 := contrEquiv1_symm_val dot_S10000x64_S10000x128_S64x128_0_0_1_1_n_n 10000 rfl rfl r
  funext ax; apply Fin.ext
  match ax with
  | ⟨0, _⟩ => first | (simp [DotDims.lhsIdx, dot_S10000x64_S10000x128_S64x128_0_0_1_1_n_n]; done) | (simp [DotDims.lhsIdx, dot_S10000x64_S10000x128_S64x128_0_0_1_1_n_n]; exact c2) | (simp [DotDims.lhsIdx, dot_S10000x64_S10000x128_S64x128_0_0_1_1_n_n]; rfl)
  | ⟨1, _⟩ => first | (simp [DotDims.lhsIdx, dot_S10000x64_S10000x128_S64x128_0_0_1_1_n_n]; done) | (simp [DotDims.lhsIdx, dot_S10000x64_S10000x128_S64x128_0_0_1_1_n_n]; exact c2) | (simp [DotDims.lhsIdx, dot_S10000x64_S10000x128_S64x128_0_0_1_1_n_n]; rfl)

/-- The right operand's index: row r of the block of rows, column k. -/
theorem rhsIdx4_a (l : Fin 64) (k : Fin 128) (r : Fin 10000) :
    dot_S10000x64_S10000x128_S64x128_0_0_1_1_n_n.rhsIdx (ix2 l k) ((contrEquiv1 dot_S10000x64_S10000x128_S64x128_0_0_1_1_n_n 10000 rfl rfl).symm r) = ix2 r k := by
  have c2 := contrEquiv1_symm_val dot_S10000x64_S10000x128_S64x128_0_0_1_1_n_n 10000 rfl rfl r
  funext ax; apply Fin.ext
  match ax with
  | ⟨0, _⟩ => first | (simp [DotDims.rhsIdx, dot_S10000x64_S10000x128_S64x128_0_0_1_1_n_n]; done) | (simp [DotDims.rhsIdx, dot_S10000x64_S10000x128_S64x128_0_0_1_1_n_n]; exact c2) | (simp [DotDims.rhsIdx, dot_S10000x64_S10000x128_S64x128_0_0_1_1_n_n]; rfl)
  | ⟨1, _⟩ => first | (simp [DotDims.rhsIdx, dot_S10000x64_S10000x128_S64x128_0_0_1_1_n_n]; done) | (simp [DotDims.rhsIdx, dot_S10000x64_S10000x128_S64x128_0_0_1_1_n_n]; exact c2) | (simp [DotDims.rhsIdx, dot_S10000x64_S10000x128_S64x128_0_0_1_1_n_n]; rfl)

/-- The accumulating payload at (l, k): the accumulator there plus, over the block's rows, the indicator of the row's label
    at l times the row's entry k. -/
theorem pay4_2_apply (L : Vec Ideal S10000x1 .i32) (X : Vec Ideal S10000x128 .f32) (A : Vec Ideal S64x128 .f32) (l : Fin 64) (k : Fin 128) :
    k4_pay2 (F := Ideal) L X A (ix2 l k) = A (ix2 l k) + ∑ r : Fin 10000, hot (L (ix2 r (0 : Fin 1))) l * X (ix2 r k) := by
  unfold k4_pay2
  (try dsimp only)
  simp only [shapeCast_self]
  rw [addf_apply]
  refine congrArg (A (ix2 l k) + ·) ?_
  refine (Ideal.matmul_constant_zero_apply dot_S10000x64_S10000x128_S64x128_0_0_1_1_n_n none _ _ (ix2 l k)).trans ?_
  rw [← Equiv.sum_comp (contrEquiv1 dot_S10000x64_S10000x128_S64x128_0_0_1_1_n_n 10000 rfl rfl).symm]
  refine Finset.sum_congr rfl fun r _ => ?_
  rw [lhsIdx4_a l k r, rhsIdx4_a l k r, truncf_apply, truncf_apply, sitofp_apply, extui_apply, cmpi_at4]
  rw [iota_single_apply]
  rw [broadcastTo_apply L broadcasts_S10000x1_S10000x64 (ix2 r l) (ix2 r (0 : Fin 1)) (fun a => by
    match a with
    | ⟨0, _⟩ => rfl
    | ⟨1, _⟩ => rfl)]
  exact congrArg (· * X (ix2 r k)) (hot_word4 (L (ix2 r (0 : Fin 1))) l)

/-- The dense map's left index: row l, column q; -/
theorem lhsIdx4_b (l : Fin 64) (j : Fin 64) (q : Fin 128) :
    dot_S64x128_S128x64_S64x64_1_0_0_1_n_n.lhsIdx (ix2 l j) ((contrEquiv1 dot_S64x128_S128x64_S64x64_1_0_0_1_n_n 128 rfl rfl).symm q) = ix2 l q := by
  have c2 := contrEquiv1_symm_val dot_S64x128_S128x64_S64x64_1_0_0_1_n_n 128 rfl rfl q
  funext ax; apply Fin.ext
  match ax with
  | ⟨0, _⟩ => first | (simp [DotDims.lhsIdx, dot_S64x128_S128x64_S64x64_1_0_0_1_n_n]; done) | (simp [DotDims.lhsIdx, dot_S64x128_S128x64_S64x64_1_0_0_1_n_n]; exact c2) | (simp [DotDims.lhsIdx, dot_S64x128_S128x64_S64x64_1_0_0_1_n_n]; rfl)
  | ⟨1, _⟩ => first | (simp [DotDims.lhsIdx, dot_S64x128_S128x64_S64x64_1_0_0_1_n_n]; done) | (simp [DotDims.lhsIdx, dot_S64x128_S128x64_S64x64_1_0_0_1_n_n]; exact c2) | (simp [DotDims.lhsIdx, dot_S64x128_S128x64_S64x64_1_0_0_1_n_n]; rfl)

/-- its right index: row q, column j. -/
theorem rhsIdx4_b (l : Fin 64) (j : Fin 64) (q : Fin 128) :
    dot_S64x128_S128x64_S64x64_1_0_0_1_n_n.rhsIdx (ix2 l j) ((contrEquiv1 dot_S64x128_S128x64_S64x64_1_0_0_1_n_n 128 rfl rfl).symm q) = ix2 q j := by
  have c2 := contrEquiv1_symm_val dot_S64x128_S128x64_S64x64_1_0_0_1_n_n 128 rfl rfl q
  funext ax; apply Fin.ext
  match ax with
  | ⟨0, _⟩ => first | (simp [DotDims.rhsIdx, dot_S64x128_S128x64_S64x64_1_0_0_1_n_n]; done) | (simp [DotDims.rhsIdx, dot_S64x128_S128x64_S64x64_1_0_0_1_n_n]; exact c2) | (simp [DotDims.rhsIdx, dot_S64x128_S128x64_S64x64_1_0_0_1_n_n]; rfl)
  | ⟨1, _⟩ => first | (simp [DotDims.rhsIdx, dot_S64x128_S128x64_S64x64_1_0_0_1_n_n]; done) | (simp [DotDims.rhsIdx, dot_S64x128_S128x64_S64x64_1_0_0_1_n_n]; exact c2) | (simp [DotDims.rhsIdx, dot_S64x128_S128x64_S64x64_1_0_0_1_n_n]; rfl)

/-- The result payload at (l, j): the accumulator's row l scaled by the label's factor, through the dense map's column j,
    plus the bias at j, clamped at zero. -/
theorem pay4_3_apply (A : Vec Ideal S64x128 .f32) (S : Vec Ideal S64x1 .f32) (Wm : Vec Ideal S128x64 .f32) (Bv : Vec Ideal S64 .f32)
    (l : Fin 64) (j : Fin 64) :
    k4_pay3 (F := Ideal) A S Wm Bv (ix2 l j)
      = max ((∑ q : Fin 128, (A (ix2 l q) * S (ix2 l (0 : Fin 1))) * Wm (ix2 q j)) + Bv (ix1 j)) 0 := by
  unfold k4_pay3
  (try dsimp only)
  simp only [shapeCast_self]
  rw [maximumf_apply, addf_apply, broadcast_apply]
  have hz : (Scalar.ofBits (F := Ideal) .f32 0x00000000#32 : EReal) = 0 := Ideal.ofBits_zero_f32
  rw [hz]
  refine congrArg (max · 0) ?_
  have hb : broadcastTo S64x64 (shapeCast S1x64 Bv shapeCasts_S64_S1x64) broadcasts_S1x64_S64x64 (ix2 l j) = Bv (ix1 j) :=
    (broadcastTo_1b_ab_apply _ broadcasts_S1x64_S64x64 l j).trans (shapeCast_a_1a_apply Bv shapeCasts_S64_S1x64 0 j)
  rw [hb]
  refine congrArg (· + Bv (ix1 j)) ?_
  refine (Ideal.matmul_constant_zero_apply dot_S64x128_S128x64_S64x64_1_0_0_1_n_n none _ _ (ix2 l j)).trans ?_
  rw [← Equiv.sum_comp (contrEquiv1 dot_S64x128_S128x64_S64x64_1_0_0_1_n_n 128 rfl rfl).symm]
  refine Finset.sum_congr rfl fun q _ => ?_
  rw [lhsIdx4_b l j q, rhsIdx4_b l j q, truncf_apply, truncf_apply, mulf_apply]
  rw [broadcastTo_apply S broadcasts_S64x1_S64x128 (ix2 l q) (ix2 l (0 : Fin 1)) (fun a => by
    match a with
    | ⟨0, _⟩ => rfl
    | ⟨1, _⟩ => rfl)]

/-! ## The arrays, by their literal types, and the blocks read at coordinates -/

variable (V : (c : Dev nD) → (b : Ref sig .tc) → Buf (Elt Ideal) ((c : Thread nD τ).loc b))

/-- The label words, one per node. -/
abbrev labArr4 (c : Dev nD) : Vec Ideal S100000x1 .i32 := V c main_v0
/-- The node features. -/
abbrev xArr4 (c : Dev nD) : Vec Ideal S100000x128 .f32 := V c main_v62
/-- The labels' scale factors. -/
abbrev sArr4 (c : Dev nD) : Vec Ideal S64x1 .f32 := V c main_v11
/-- The dense map. -/
abbrev wArr4 (c : Dev nD) : Vec Ideal S128x64 .f32 := V c main_arg12
/-- The bias. -/
abbrev bArr4 (c : Dev nD) : Vec Ideal S64 .f32 := V c main_arg13

/-- Row r of point t's block is node 10000 t + r. -/
def node4 (t : Fin cfg4.N) (r : Fin 10000) : Fin 100000 :=
  ⟨10000 * t.val + r.val, by have := lt_of_lt_of_eq t.isLt (show cfg4.N = 10 from N_4); have := r.isLt; omega⟩

theorem index4_0 (t : Fin cfg4.N) : win4_0.index t 0 = t.val ∧ win4_0.index t 1 = 0 := by
  rcases fin_N4 t with rfl | rfl | rfl | rfl | rfl | rfl | rfl | rfl | rfl | rfl <;> decide
theorem index4_1 (t : Fin cfg4.N) : win4_1.index t 0 = t.val ∧ win4_1.index t 1 = 0 := by
  rcases fin_N4 t with rfl | rfl | rfl | rfl | rfl | rfl | rfl | rfl | rfl | rfl <;> decide

/-- The label block of point t, at row r: the label word of node 10000 t + r. -/
theorem lab_blk4 (c : Dev nD) (t : Fin cfg4.N) (r : Fin 10000) :
    (iblk4 V c 0 t : Vec Ideal S10000x1 .i32) (ix2 r (0 : Fin 1)) = labArr4 V c (ix2 (node4 t r) (0 : Fin 1)) := by
  have hi := index4_0 t
  unfold iblk4
  rw [View.read_apply]
  show V c main_v0 _ = V c main_v0 _
  congr 1
  funext a
  apply Fin.ext
  match a with
  | ⟨0, _⟩ => show win4_0.index t 0 * 10000 + 1 * r.val = 10000 * t.val + r.val; rw [hi.1]; omega
  | ⟨1, _⟩ => show win4_0.index t 1 * 1 + 1 * 0 = 0; rw [hi.2]

/-- The feature block of point t, at row r and column k: feature k of node 10000 t + r. -/
theorem x_blk4 (c : Dev nD) (t : Fin cfg4.N) (r : Fin 10000) (k : Fin 128) :
    (iblk4 V c 1 t : Vec Ideal S10000x128 .f32) (ix2 r k) = xArr4 V c (ix2 (node4 t r) k) := by
  have hi := index4_1 t
  unfold iblk4
  rw [View.read_apply]
  show V c main_v62 _ = V c main_v62 _
  congr 1
  funext a
  apply Fin.ext
  match a with
  | ⟨0, _⟩ => show win4_1.index t 0 * 10000 + 1 * r.val = 10000 * t.val + r.val; rw [hi.1]; omega
  | ⟨1, _⟩ => show win4_1.index t 1 * 128 + 1 * k.val = k.val; rw [hi.2]; omega

/-- The scale factors' one block is their whole array; -/
theorem s_blk4 (c : Dev nD) : (iblk4 V c 2 t4_9 : Vec Ideal S64x1 .f32) = sArr4 V c := by
  unfold iblk4
  have hz' : (fun a => win4_2.index t4_9 a * main_v11.ty.shape.size a) = fun _ => 0 := funext fun a => by fin_cases a <;> decide
  exact Memref.read_access_unit_zero (Elt Ideal) main_v11 hz' (fun a => by rw [congrFun hz' a]; simp) (V c main_v11)
/-- so is the dense map's; -/
theorem w_blk4 (c : Dev nD) : (iblk4 V c 3 t4_9 : Vec Ideal S128x64 .f32) = wArr4 V c := by
  unfold iblk4
  have hz' : (fun a => win4_3.index t4_9 a * main_arg12.ty.shape.size a) = fun _ => 0 := funext fun a => by fin_cases a <;> decide
  exact Memref.read_access_unit_zero (Elt Ideal) main_arg12 hz' (fun a => by rw [congrFun hz' a]; simp) (V c main_arg12)
/-- and the bias's. -/
theorem b_blk4 (c : Dev nD) : (iblk4 V c 4 t4_9 : Vec Ideal S64 .f32) = bArr4 V c := by
  unfold iblk4
  have hz' : (fun a => win4_4.index t4_9 a * main_arg13.ty.shape.size a) = fun _ => 0 := funext fun a => by fin_cases a <;> decide
  exact Memref.read_access_unit_zero (Elt Ideal) main_arg13 hz' (fun a => by rw [congrFun hz' a]; simp) (V c main_arg13)

/-! ## The accumulator is the running sum of the points' terms -/

/-- The term point t adds at (l, k). -/
def term4 (c : Dev nD) (t : Fin cfg4.N) (l : Fin 64) (k : Fin 128) : EReal :=
  ∑ r : Fin 10000, hot (labArr4 V c (ix2 (node4 t r) (0 : Fin 1))) l * xArr4 V c (ix2 (node4 t r) k)

/-- The same over the naturals: zero past the grid. -/
def termN4 (c : Dev nD) (l : Fin 64) (k : Fin 128) (n : ℕ) : EReal :=
  if h : n < cfg4.N then term4 V c ⟨n, h⟩ l k else 0

theorem termN4_of_lt (c : Dev nD) (l : Fin 64) (k : Fin 128) (n : ℕ) (h : n < cfg4.N) : termN4 V c l k n = term4 V c ⟨n, h⟩ l k :=
  dif_pos h

/-- What point t's payload adds is the point's term. -/
theorem pay4_2_term (c : Dev nD) (t : Fin cfg4.N) (A : Vec Ideal S64x128 .f32) (l : Fin 64) (k : Fin 128) :
    k4_pay2 (F := Ideal) (iblk4 V c 0 t) (iblk4 V c 1 t) A (ix2 l k) = A (ix2 l k) + term4 V c t l k := by
  refine (pay4_2_apply (iblk4 V c 0 t) (iblk4 V c 1 t) A l k).trans ?_
  refine congrArg (A (ix2 l k) + ·) ?_
  unfold term4
  refine Finset.sum_congr rfl fun r _ => ?_
  rw [lab_blk4 V c t r, x_blk4 V c t r k]

/-- After point n the accumulator holds, at (l, k), the terms of the points 0 … n added up. -/
theorem acc4_apply (c : Dev nD) (l : Fin 64) (k : Fin 128) : ∀ (n : ℕ) (hn : n < cfg4.N),
    acc4 (F := Ideal) V c n hn (ix2 l k) = ∑ t ∈ Finset.range (n + 1), termN4 V c l k t
  | 0, hn => by
    rw [acc4_zero, pay4_2_term V c ⟨0, hn⟩, pay4_1_apply, zero_add, Finset.sum_range_one, termN4_of_lt V c l k 0 hn]
  | n + 1, hn => by
    rw [acc4_succ, pay4_2_term V c ⟨n + 1, hn⟩, acc4_apply c l k n (Nat.lt_of_succ_lt hn), Finset.sum_range_succ _ (n + 1),
      termN4_of_lt V c l k (n + 1) hn]

/-- The ten terms are the one sum over all nodes. -/
theorem sum_terms4 (c : Dev nD) (l : Fin 64) (k : Fin 128) :
    ∑ t ∈ Finset.range 10, termN4 V c l k t
      = belAgg (fun i => labArr4 V c (ix2 i (0 : Fin 1))) (fun i k => xArr4 V c (ix2 i k)) l k := by
  rw [← Fin.sum_univ_eq_sum_range (fun t => termN4 V c l k t) 10]
  unfold belAgg
  rw [← Equiv.sum_comp (finProdFinEquiv : Fin 10 × Fin 10000 ≃ Fin 100000)
    (fun i : Fin 100000 => hot (labArr4 V c (ix2 i (0 : Fin 1))) l * xArr4 V c (ix2 i k)), Fintype.sum_prod_type]
  refine Finset.sum_congr rfl fun t _ => ?_
  have ht : t.val < cfg4.N := lt_of_lt_of_eq t.isLt (show (10 : ℕ) = cfg4.N from N_4.symm)
  rw [termN4_of_lt V c l k t.val ht]
  unfold term4
  refine Finset.sum_congr rfl fun r _ => ?_
  have hn : node4 ⟨t.val, ht⟩ r = (finProdFinEquiv (t, r) : Fin 100000) := Fin.ext (by
    show 10000 * t.val + r.val = r.val + 10000 * t.val
    omega)
  rw [hn]

/-- After the last point the accumulator is the aggregate. -/
theorem acc4_total (c : Dev nD) (l : Fin 64) (k : Fin 128) :
    acc4 (F := Ideal) V c t4_9.val t4_9.isLt (ix2 l k)
      = belAgg (fun i => labArr4 V c (ix2 i (0 : Fin 1))) (fun i k => xArr4 V c (ix2 i k)) l k :=
  (acc4_apply V c l k t4_9.val t4_9.isLt).trans (sum_terms4 V c l k)

/-! ## The result array -/

/-- THE VALUE: the result array at (l, j) is the label side's output of the aggregate of the node features by label. -/
theorem region4_val (c : Dev nD) (l : Fin 64) (j : Fin 64) :
    (dat4 (F := Ideal) V c).arrAt 5 cfg4.N (ix2 l j)
      = labOut (belAgg (fun i => labArr4 V c (ix2 i (0 : Fin 1))) (fun i k => xArr4 V c (ix2 i k)))
          (fun l => sArr4 V c (ix2 l (0 : Fin 1))) (fun k j => wArr4 V c (ix2 k j)) (fun j => bArr4 V c (ix1 j)) l j := by
  rw [arrAt4_5]
  show res4 V c t4_9 (ix2 l j) = _
  unfold res4
  refine (pay4_3_apply (acc4 V c t4_9.val t4_9.isLt) (iblk4 V c 2 t4_9) (iblk4 V c 3 t4_9) (iblk4 V c 4 t4_9) l j).trans ?_
  unfold labOut
  rw [s_blk4 V c, w_blk4 V c, b_blk4 V c]
  refine congrArg (fun z => max (z + bArr4 V c (ix1 j)) 0) (Finset.sum_congr rfl fun q _ => ?_)
  rw [acc4_total V c l q]

end Cert.KernelIdeal.Hand

end
-- ==== Proof.KI.Region5Arr.lean ====
/-
  The combine step of the second layer (region 5 of the program), read back: what each of its seven arrays holds after
  the ten tiles. The six inputs are never written. The result's tile `t`, read back, is what the body left at tile
  `t` — the payload of the six blocks there — because distinct tiles write disjoint row ranges. Also here, for the
  value proof: where each block sits in its array (tile `t` of the two tiled inputs and of the result is rows
  10000·t … 10000·t + 9999; the four small arrays are their own one block), and that the ten tiles cover the result.
-/
import proofs.«405200_j27075473834261_2_alg».proof.Proof.KI.Region5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! ## The inputs' arrays -/

/-- An input window's array is never written: after the ten tiles it is the entry contents. -/
theorem arrAt5_of_in (c : Dev nD) (w : Fin cfg5.W) (hin : (cfg5.win w).isOut = false) :
    (dat5 V c).arrAt w cfg5.N = V c (Pipeline.arrRef spec5 w) :=
  ((dat5 V c).arrAt_in w hin _).trans (A_eq5 V c w)

theorem arrAt5_0 (c : Dev nD) : (dat5 V c).arrAt 0 cfg5.N = V c (Pipeline.arrRef spec5 0) := arrAt5_of_in V c 0 rfl
theorem arrAt5_1 (c : Dev nD) : (dat5 V c).arrAt 1 cfg5.N = V c (Pipeline.arrRef spec5 1) := arrAt5_of_in V c 1 rfl
theorem arrAt5_2 (c : Dev nD) : (dat5 V c).arrAt 2 cfg5.N = V c (Pipeline.arrRef spec5 2) := arrAt5_of_in V c 2 rfl
theorem arrAt5_3 (c : Dev nD) : (dat5 V c).arrAt 3 cfg5.N = V c (Pipeline.arrRef spec5 3) := arrAt5_of_in V c 3 rfl
theorem arrAt5_4 (c : Dev nD) : (dat5 V c).arrAt 4 cfg5.N = V c (Pipeline.arrRef spec5 4) := arrAt5_of_in V c 4 rfl
theorem arrAt5_5 (c : Dev nD) : (dat5 V c).arrAt 5 cfg5.N = V c (Pipeline.arrRef spec5 5) := arrAt5_of_in V c 5 rfl

/-! ## The result's array, tile by tile -/

/-- The one store's canon is its payload, and each load through the whole of its buffer reads the buffer. -/
theorem comb5_eq (lab : Vec F S10000x1 .i32) (con : Vec F S10000x128 .f32) (M : Vec F S64x128 .f32) (bi : Vec F S128 .f32)
    (Wc : Vec F S128x128 .f32) (bc : Vec F S128 .f32) : comb5 lab con M bi Wc bc = k5_pay1 lab M bi con Wc bc := by
  unfold comb5
  rw [View.canon_unit_zero zeroOff5]
  simp only [View.ld_unit_zero (S := S10000x1) zeroOff5, View.ld_unit_zero (S := S10000x128) zeroOff5,
    View.ld_unit_zero (S := S64x128) zeroOff5, View.ld_unit_zero (S := S128x128) zeroOff5,
    View.ld_unit_zero (S := S128) zeroOffRow5]

/-- What tile `t` writes back to the result's array: the payload of the six blocks at `t`. -/
theorem flushed5_6 (c : Dev nD) (t : Fin cfg5.N) :
    (dat5 V c).flushed 6 t = (cfg5.win 6).cut (grid5.coords t)
      (k5_pay1 (iblk5 V c 0 t) (iblk5 V c 2 t) (iblk5 V c 3 t) (iblk5 V c 1 t) (iblk5 V c 4 t) (iblk5 V c 5 t)) := by
  show (cfg5.win 6).cut (grid5.coords t) ((dat5 V c).after 6 t) = _
  rw [after5_6, comb5_eq]

/-- Distinct tiles have distinct block indices (decided over the ten tiles). -/
theorem tile_inj5 : ∀ t t' : Fin cfg5.N, win5_6.index t = win5_6.index t' → t = t' :=
  (by decide +kernel : ∀ t t' : Fin grid5.N, win5_6.index t = win5_6.index t' → t = t')

/-- So two tiles' blocks share no index of the result's array. -/
theorem tile_disjoint5 : ∀ t t' : Fin cfg5.N, (cfg5.win 6).flush t = true → (cfg5.win 6).flush t' = true → t ≠ t' →
    Disjoint ((cfg5.win 6).blk t).view.set ((cfg5.win 6).blk t').view.set :=
  fun t t' _ _ hne => (cfg5.win 6).disjoint_blk fun h => hne (tile_inj5 t t' h)

/-- Tile `t` of the result's array after the ten tiles, read back, is what tile `t` wrote back. -/
theorem tile5 (c : Dev nD) (t : Fin cfg5.N) :
    ((cfg5.win 6).blk t).view.read (Elt F) ((dat5 V c).arrAt 6 cfg5.N) = (dat5 V c).flushed 6 t :=
  (dat5 V c).read_blk_arrAt_eq_flushed 6 tile_disjoint5 cfg5.N t t.isLt (flush5_6 t)

/-! ## Where the blocks sit -/

/-- The block indices at tile `t`, decided over the ten tiles: the tiled windows (label column, aggregate, result) are
    at block row `t`; the four small arrays are at block 0. -/
theorem tile_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- There are ten tiles. -/
theorem tile_lt5 (t : Fin cfg5.N) : t.val < 10 := Nat.lt_of_lt_of_eq t.isLt N_5

/-- Row `p` of tile `t` is row 10000·t + p of the array. -/
abbrev rowOf5 (t : Fin cfg5.N) (p : Fin 10000) : Fin 100000 :=
  ⟨t.val * 10000 + p.val, by have := tile_lt5 t; have := p.isLt; omega⟩

/-- The label column's block at tile `t`, entry by entry. -/
theorem iblk5_0_apply (c : Dev nD) (t : Fin cfg5.N) (p : Fin 10000) (u : Fin 1) :
    iblk5 V c 0 t (ix2 p u) = V c main_v0 (ix2 (rowOf5 t p) u) := by
  obtain ⟨e0, e1, -⟩ := tile_index5 t
  show V c main_v0 (((cfg5.win 0).blk t).view.emb (ix2 p u)) = V c main_v0 (ix2 (rowOf5 t p) u)
  refine congrArg (V c main_v0) (funext fun a => Fin.ext ?_)
  match a with
  | ⟨0, _⟩ => show win5_0.index t (0 : Fin 2) * 10000 + 1 * p.val = t.val * 10000 + p.val; rw [e0]; omega
  | ⟨1, _⟩ => show win5_0.index t (1 : Fin 2) * 1 + 1 * u.val = u.val; rw [e1]; omega

/-- The aggregate's block at tile `t`, entry by entry. -/
theorem iblk5_1_apply (c : Dev nD) (t : Fin cfg5.N) (p : Fin 10000) (k : Fin 128) :
    iblk5 V c 1 t (ix2 p k) = V c main_v104 (ix2 (rowOf5 t p) k) := by
  obtain ⟨-, -, e0, e1, -⟩ := tile_index5 t
  show V c main_v104 (((cfg5.win 1).blk t).view.emb (ix2 p k)) = V c main_v104 (ix2 (rowOf5 t p) k)
  refine congrArg (V c main_v104) (funext fun a => Fin.ext ?_)
  match a with
  | ⟨0, _⟩ => show win5_1.index t (0 : Fin 2) * 10000 + 1 * p.val = t.val * 10000 + p.val; rw [e0]; omega
  | ⟨1, _⟩ => show win5_1.index t (1 : Fin 2) * 128 + 1 * k.val = k.val; rw [e1]; omega

/-- The label table's block at any tile is the table. -/
theorem iblk5_2_apply (c : Dev nD) (t : Fin cfg5.N) (l : Fin 64) (k : Fin 128) :
    iblk5 V c 2 t (ix2 l k) = V c main_v107 (ix2 l k) := by
  obtain ⟨-, -, -, -, e0, e1, -⟩ := tile_index5 t
  show V c main_v107 (((cfg5.win 2).blk t).view.emb (ix2 l k)) = V c main_v107 (ix2 l k)
  refine congrArg (V c main_v107) (funext fun a => Fin.ext ?_)
  match a with
  | ⟨0, _⟩ => show win5_2.index t (0 : Fin 2) * 64 + 1 * l.val = l.val; rw [e0]; omega
  | ⟨1, _⟩ => show win5_2.index t (1 : Fin 2) * 128 + 1 * k.val = k.val; rw [e1]; omega

/-- The table's bias at any tile is the bias. -/
theorem iblk5_3_apply (c : Dev nD) (t : Fin cfg5.N) (k : Fin 128) :
    iblk5 V c 3 t (ix1 k) = V c main_arg15 (ix1 k) := by
  obtain ⟨-, -, -, -, -, -, e0, -⟩ := tile_index5 t
  show V c main_arg15 (((cfg5.win 3).blk t).view.emb (ix1 k)) = V c main_arg15 (ix1 k)
  refine congrArg (V c main_arg15) (funext fun a => Fin.ext ?_)
  match a with
  | ⟨0, _⟩ => show win5_3.index t (0 : Fin 1) * 128 + 1 * k.val = k.val; rw [e0]; omega

/-- The dense map's block at any tile is the map. -/
theorem iblk5_4_apply (c : Dev nD) (t : Fin cfg5.N) (k : Fin 128) (n : Fin 128) :
    iblk5 V c 4 t (ix2 k n) = V c main_arg16 (ix2 k n) := by
  obtain ⟨-, -, -, -, -, -, -, e0, e1, -⟩ := tile_index5 t
  show V c main_arg16 (((cfg5.win 4).blk t).view.emb (ix2 k n)) = V c main_arg16 (ix2 k n)
  refine congrArg (V c main_arg16) (funext fun a => Fin.ext ?_)
  match a with
  | ⟨0, _⟩ => show win5_4.index t (0 : Fin 2) * 128 + 1 * k.val = k.val; rw [e0]; omega
  | ⟨1, _⟩ => show win5_4.index t (1 : Fin 2) * 128 + 1 * n.val = n.val; rw [e1]; omega

/-- The dense map's bias at any tile is the bias. -/
theorem iblk5_5_apply (c : Dev nD) (t : Fin cfg5.N) (k : Fin 128) :
    iblk5 V c 5 t (ix1 k) = V c main_arg17 (ix1 k) := by
  obtain ⟨-, -, -, -, -, -, -, -, -, e0, -⟩ := tile_index5 t
  show V c main_arg17 (((cfg5.win 5).blk t).view.emb (ix1 k)) = V c main_arg17 (ix1 k)
  refine congrArg (V c main_arg17) (funext fun a => Fin.ext ?_)
  match a with
  | ⟨0, _⟩ => show win5_5.index t (0 : Fin 1) * 128 + 1 * k.val = k.val; rw [e0]; omega

/-! ## The tiles cover the result -/

/-- An index of the result's array is in tile `t`'s block iff each coordinate is in the block's range on its axis. -/
theorem mem_tile5 (t : Fin cfg5.N) (i : S100000x128.Idx) :
    i ∈ ((cfg5.win 6).blk t).view.set ↔ ∀ a : Fin 2, win5_6.index t a * S10000x128.size a ≤ (i a).val ∧ (i a).val < win5_6.index t a * S10000x128.size a + S10000x128.size a := by
  show i ∈ ((View.whole main_v108).slice (win5_6.rect t)).set ↔ _
  rw [View.set_slice_whole, Rect.mem_set_unit]
  exact Iff.rfl

/-- Row `r` is in tile `r / 10000`, and every tile is written back. -/
theorem tiles_cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hq : (i 0).val / 10000 < 10 := by omega
  obtain ⟨t, ht⟩ : ∃ t : Fin cfg5.N, t.val = (i 0).val / 10000 := ⟨⟨(i 0).val / 10000, Nat.lt_of_lt_of_eq hq N_5.symm⟩, rfl⟩
  obtain ⟨-, -, -, -, -, -, -, -, -, -, e0, e1⟩ := tile_index5 t
  refine ⟨t, flush5_6 t, ?_⟩
  rw [mem_tile5]
  intro a
  match a with
  | ⟨0, _⟩ =>
    show win5_6.index t (0 : Fin 2) * 10000 ≤ (i 0).val ∧ (i 0).val < win5_6.index t (0 : Fin 2) * 10000 + 10000
    rw [e0, ht]; omega
  | ⟨1, _⟩ =>
    show win5_6.index t (1 : Fin 2) * 128 ≤ (i 1).val ∧ (i 1).val < win5_6.index t (1 : Fin 2) * 128 + 128
    rw [e1]; omega

end Cert.KernelIdeal.Hand

end
-- ==== Proof.KI.Region5Val.lean ====
/-
  The combine step of the second layer (region 5 of the program) at the extended reals: the result array, entry by entry,
  is relu(½ · (inc + con)) of the specification — inc the indicator row of the node's label times the label table plus its
  bias, con the node's aggregate row times the dense map plus its bias — of the arrays the region finds.
-/
import proofs.«405200_j27075473834261_2_alg».proof.Proof.KI.Region5
import proofs.«405200_j27075473834261_2_alg».proof.Proof.KI.Region5Arr
import proofs.«405200_j27075473834261_2_alg».proof.Proof.KI.CombineVal
import proofs.«405200_j27075473834261_2_alg».proof.Proof.Spec
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The payload at an entry -/

/-- Entry (r, j) of what the body stores, from the six buffers' contents. -/
theorem pay5_apply (lab : Vec Ideal S10000x1 .i32) (M : Vec Ideal S64x128 .f32) (bi : Vec Ideal S128 .f32)
    (con : Vec Ideal S10000x128 .f32) (Wc : Vec Ideal S128x128 .f32) (bc : Vec Ideal S128 .f32) (r : Fin 10000) (j : Fin 128) :
    k5_pay1 (F := Ideal) lab M bi con Wc bc (ix2 r j)
      = max (Cert.Hgcn.half * (((∑ l : Fin 64, Cert.Hgcn.hot (lab (ix2 r (0 : Fin 1))) l * M (ix2 l j)) + bi (ix1 j))
          + ((∑ k : Fin 128, con (ix2 r k) * Wc (ix2 k j)) + bc (ix1 j)))) 0 := by
  unfold k5_pay1
  simp only [maximumf_apply, mulf_apply, addf_apply, broadcast_apply, hotDot_apply, conDot_apply, biasRow_apply,
    truncf_apply, shapeCast_self, Ideal.ofBits_def, Ideal.ofBits_zero_f32]
  exact congrArg (fun s => max (Cert.Hgcn.half * ((s + bi (ix1 j)) + ((∑ k : Fin 128, con (ix2 r k) * Wc (ix2 k j)) + bc (ix1 j)))) 0)
    (Finset.sum_congr rfl fun l _ => congrArg (· * M (ix2 l j)) (hotEntry_apply lab _ _ _ r l))

/-! ## The result array as one function of the arrays the region finds -/

/-- The label word of node r. -/
abbrev labels5 (c : Dev nD) : Fin 100000 → BitVec 32 := fun r => (V c main_v0 : S100000x1.Idx → BitVec 32) (ix2 r (0 : Fin 1))
/-- The "connected to" aggregate. -/
abbrev aggregate5 (c : Dev nD) : Fin 100000 → Fin 128 → EReal := fun r k => (V c main_v104 : S100000x128.Idx → EReal) (ix2 r k)
/-- The label table of "including". -/
abbrev table5 (c : Dev nD) : Fin 64 → Fin 128 → EReal := fun l k => (V c main_v107 : S64x128.Idx → EReal) (ix2 l k)
/-- Its bias. -/
abbrev tableBias5 (c : Dev nD) : Fin 128 → EReal := fun k => (V c main_arg15 : S128.Idx → EReal) (ix1 k)
/-- The dense map of "connected to". -/
abbrev dense5 (c : Dev nD) : Fin 128 → Fin 128 → EReal := fun k n => (V c main_arg16 : S128x128.Idx → EReal) (ix2 k n)
/-- Its bias. -/
abbrev denseBias5 (c : Dev nD) : Fin 128 → EReal := fun k => (V c main_arg17 : S128.Idx → EReal) (ix1 k)

/-- The sequence side of the layer, as an array. -/
def combined5 (c : Dev nD) : S100000x128.Idx → EReal := fun i =>
  Cert.Hgcn.seqOut (Cert.Hgcn.incK (labels5 V c) (table5 V c) (tableBias5 V c))
    (Cert.Hgcn.conDense (aggregate5 V c) (dense5 V c) (denseBias5 V c)) (i 0) (i 1)

/-- Entry (p, q) of what tile `t` stores is the specification's value at row 10000·t + p, column q. -/
theorem tileValue5 (c : Dev nD) (t : Fin cfg5.N) (p : Fin 10000) (q : Fin 128) :
    k5_pay1 (F := Ideal) (iblk5 V c 0 t) (iblk5 V c 2 t) (iblk5 V c 3 t) (iblk5 V c 1 t) (iblk5 V c 4 t) (iblk5 V c 5 t) (ix2 p q)
      = combined5 V c (ix2 (rowOf5 t p) q) := by
  rw [pay5_apply]
  simp only [iblk5_0_apply, iblk5_1_apply, iblk5_2_apply, iblk5_3_apply, iblk5_4_apply, iblk5_5_apply]
  rfl

/-- What tile `t` writes back is tile `t` of that array. -/
theorem flushed5_eq (c : Dev nD) (t : Fin cfg5.N) :
    (dat5 (F := Ideal) V c).flushed 6 t = ((cfg5.win 6).blk t).view.read (Elt Ideal) (combined5 V c) := by
  rw [flushed5_6]
  obtain ⟨-, -, -, -, -, -, -, -, -, -, e0, e1⟩ := tile_index5 t
  funext y
  have hy0 : (y 0).val < 10000 := (y 0).isLt
  have hy1 : (y 1).val < 128 := (y 1).isLt
  show k5_pay1 (F := Ideal) (iblk5 V c 0 t) (iblk5 V c 2 t) (iblk5 V c 3 t) (iblk5 V c 1 t) (iblk5 V c 4 t) (iblk5 V c 5 t)
      ((cfg5.win 6).xinj (grid5.coords t) y) = combined5 V c (((cfg5.win 6).blk t).view.emb y)
  have hx : (cfg5.win 6).xinj (grid5.coords t) y = ix2 (⟨(y 0).val, hy0⟩ : Fin 10000) (⟨(y 1).val, hy1⟩ : Fin 128) :=
    funext fun a => by
      match a with
      | ⟨0, _⟩ => rfl
      | ⟨1, _⟩ => rfl
  have he : ((cfg5.win 6).blk t).view.emb y = ix2 (rowOf5 t ⟨(y 0).val, hy0⟩) (⟨(y 1).val, hy1⟩ : Fin 128) :=
    funext fun a => Fin.ext (by
      match a with
      | ⟨0, _⟩ => show win5_6.index t (0 : Fin 2) * 10000 + 1 * (y 0).val = t.val * 10000 + (y 0).val; rw [e0]; omega
      | ⟨1, _⟩ => show win5_6.index t (1 : Fin 2) * 128 + 1 * (y 1).val = (y 1).val; rw [e1]; omega)
  rw [hx, he]
  exact tileValue5 V c t ⟨(y 0).val, hy0⟩ ⟨(y 1).val, hy1⟩

/-- The result's array after the ten tiles. -/
theorem final5 (c : Dev nD) : (dat5 (F := Ideal) V c).arrAt 6 cfg5.N = combined5 V c :=
  (dat5 V c).arrAt_eq_of_cover 6 (combined5 V c) (fun t _ => flushed5_eq V c t) tiles_cover5

/-- The result's array after the ten tiles, entry by entry: the sequence side of the layer. -/
theorem combine5_apply (c : Dev nD) (i : Fin 100000) (j : Fin 128) :
    (dat5 (F := Ideal) V c).arrAt 6 cfg5.N (ix2 i j)
      = Cert.Hgcn.seqOut (Cert.Hgcn.incK (labels5 V c) (table5 V c) (tableBias5 V c))
          (Cert.Hgcn.conDense (aggregate5 V c) (dense5 V c) (denseBias5 V c)) i j := by
  rw [final5]
  rfl

end Cert.KernelIdeal.Hand

end
-- ==== Proof.KI.Region6Val.lean ====
/-
  Region 6 of @main at the extended reals: what the statistics kernel leaves in its two result arrays.

  The ten tiles' partial sums, accumulated in point order from zero, are regrouped into one sum over the 100000 rows:
  at column d the first result holds the column sum of the input, the second the column sum of its squares. Only
  commutativity and associativity of + on the extended reals are used (a finite sum over a range split into consecutive
  stretches).
-/
import proofs.«405200_j27075473834261_2_alg».proof.Proof.KI.Region6
import proofs.«405200_j27075473834261_2_alg».proof.Proof.Spec
import Idealize.ShloMosaic.Lib.ValueIdx
import Idealize.ShloMosaic.Lib.ValueLayout
import Idealize.ShloMosaic.PureOps.Ideal.Laws
import Idealize.ShloMosaic.Lib.Pipeline.Value
import Mathlib.Algebra.BigOperators.Fin
import Mathlib.Algebra.BigOperators.Group.Finset.Basic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! ## The body's payloads read at a column -/

/-- A sum over axis 0 of a [10000,128] block, read at column `d`: the sum over the rows. -/
theorem colReduce6_apply (src : FVec Ideal S10000x128 .f32) (h : S10000x128.Reduces [0] S128) (hφ : FKind.Formats .f32)
    (hacc : (0x00000000#32 : BitVec 32) = 0x00000000#32) (d : Fin 128) :
    multiReduction .add [0] S128 src 0x00000000#32 h hφ hacc (ix1 d) = ∑ r : Fin 10000, src (ix2 r d) := by
  refine (Ideal.multiReduction_add_single src 0x00000000#32 h hφ hacc (ix1 d)).trans ?_
  show (∑ r : Fin 10000, src (Shape.Reduces.lift h (ix1 d) r)) = _
  refine Finset.sum_congr rfl fun r _ => congrArg src ?_
  funext a
  match a with
  | ⟨0, _⟩ => exact Fin.ext rfl
  | ⟨1, _⟩ => exact Fin.ext rfl

/-- The reset's zero block reads zero. -/
theorem k6_pay1_apply (j : S1x128.Idx) : k6_pay1 (F := Ideal) j = 0 :=
  (show k6_pay1 (F := Ideal) j = Ideal.ofBits .f32 0x00000000#32 from rfl).trans Ideal.ofBits_zero_f32
theorem k6_pay2_apply (j : S1x128.Idx) : k6_pay2 (F := Ideal) j = 0 :=
  (show k6_pay2 (F := Ideal) j = Ideal.ofBits .f32 0x00000000#32 from rfl).trans Ideal.ofBits_zero_f32

/-- The column-sum payload at column `d`: the running value there plus the tile's column sum. -/
theorem k6_pay4_apply (v3 : Vec Ideal S10000x128 .f32) (v5 : Vec Ideal S1x128 .f32) (d : Fin 128) :
    k6_pay4 v3 v5 (ix2 0 d) = v5 (ix2 0 d) + ∑ r : Fin 10000, v3 (ix2 r d) := by
  unfold k6_pay4 k6_pay3
  simp only [shapeCast_self]
  refine (addf_apply _ _ _).trans ?_
  refine congrArg (v5 (ix2 0 d) + ·) ?_
  refine (shapeCast_a_1a_apply _ _ 0 d).trans ?_
  exact colReduce6_apply _ _ _ _ d

/-- The sum-of-squares payload at column `d`: the running value there plus the tile's column sum of squares. -/
theorem k6_pay5_apply (v3 : Vec Ideal S10000x128 .f32) (v11 : Vec Ideal S1x128 .f32) (d : Fin 128) :
    k6_pay5 v3 v11 (ix2 0 d) = v11 (ix2 0 d) + ∑ r : Fin 10000, v3 (ix2 r d) * v3 (ix2 r d) := by
  unfold k6_pay5 k6_pay3
  simp only [shapeCast_self]
  refine (addf_apply _ _ _).trans ?_
  refine congrArg (v11 (ix2 0 d) + ·) ?_
  refine (shapeCast_a_1a_apply _ _ 0 d).trans ?_
  refine (colReduce6_apply _ _ _ _ d).trans ?_
  exact Finset.sum_congr rfl fun r _ => mulf_apply _ _ _

/-! ## A tile's element in the array -/

/-- Row `r` of tile `t` is row `10000 t + r` of the array. -/
theorem iblk6_apply (c : Dev nD) (t : Fin cfg6.N) (r : Fin 10000) (d : Fin 128) (h : 10000 * t.val + r.val < 100000) :
    iblk6 V c 0 t (ix2 r d) = V c (Pipeline.arrRef spec6 0) (ix2 ⟨10000 * t.val + r.val, h⟩ d) := by
  have hi : win6_0.index t 0 = t.val ∧ win6_0.index t 1 = 0 := by
    rcases fin_N6 t with rfl | rfl | rfl | rfl | rfl | rfl | rfl | rfl | rfl | rfl <;> decide
  unfold iblk6
  rw [View.read_apply]
  show V c (Pipeline.arrRef spec6 0) _ = V c (Pipeline.arrRef spec6 0) _
  congr 1
  funext a
  apply Fin.ext
  match a with
  | ⟨0, _⟩ => show win6_0.index t 0 * 10000 + 1 * r.val = 10000 * t.val + r.val; rw [hi.1]; omega
  | ⟨1, _⟩ => show win6_0.index t 1 * 128 + 1 * d.val = d.val; rw [hi.2]; omega

/-! ## The sum over the rows, tile by tile -/

/-- The input array by coordinates. -/
def x6 (c : Dev nD) (i : Fin 100000) (k : Fin 128) : EReal := V c (Pipeline.arrRef spec6 0) (ix2 i k)

/-- Column `d` of the array under `f`, over all naturals, zero past the last row: the form a sum over a range of rows is
    written in. -/
def rowsN6 (c : Dev nD) (f : EReal → EReal) (d : Fin 128) (i : ℕ) : EReal := if h : i < 100000 then f (x6 V c ⟨i, h⟩ d) else 0

/-- A sum over `m · n` consecutive naturals is the sum over `n` stretches of `m`. -/
theorem sum_range_tiles6 {M : Type} [AddCommMonoid M] (g : ℕ → M) (m : ℕ) :
    ∀ n : ℕ, ∑ i ∈ Finset.range (m * n), g i = ∑ t ∈ Finset.range n, ∑ r ∈ Finset.range m, g (m * t + r)
  | 0 => by simp
  | n + 1 => by
    rw [Nat.mul_succ, Finset.sum_range_add, Finset.sum_range_succ, sum_range_tiles6 g m n]

/-- The sum over the 100000 rows of `f` of column `d` is the sum over the ten tiles of the tile's. -/
theorem colSum_tiles6 (c : Dev nD) (f : EReal → EReal) (d : Fin 128) :
    ∑ i : Fin 100000, f (x6 V c i d) = ∑ t ∈ Finset.range 10, ∑ r ∈ Finset.range 10000, rowsN6 V c f d (10000 * t + r) := by
  rw [← sum_range_tiles6 (rowsN6 V c f d) 10000 10, ← Fin.sum_univ_eq_sum_range (rowsN6 V c f d) (10000 * 10)]
  show ∑ i : Fin 100000, f (x6 V c i d) = ∑ i : Fin 100000, rowsN6 V c f d i.val
  refine Finset.sum_congr rfl fun i _ => ?_
  unfold rowsN6
  exact (dif_pos (t := fun h => f (x6 V c ⟨i.val, h⟩ d)) (e := fun _ => (0 : EReal)) i.isLt).symm

/-- A tile's sum of `f` of its column `d`, as a stretch of that range. -/
theorem tile_sum6 (c : Dev nD) (f : EReal → EReal) (t : Fin cfg6.N) (d : Fin 128) :
    ∑ r : Fin 10000, f (iblk6 V c 0 t (ix2 r d)) = ∑ r ∈ Finset.range 10000, rowsN6 V c f d (10000 * t.val + r) := by
  have hN : t.val < 10 := lt_of_lt_of_eq t.isLt (show cfg6.N = 10 from N_6)
  rw [← Fin.sum_univ_eq_sum_range (fun r => rowsN6 V c f d (10000 * t.val + r)) 10000]
  refine Finset.sum_congr rfl fun r _ => ?_
  have hr : 10000 * t.val + r.val < 100000 := by have := r.isLt; omega
  refine (congrArg f (iblk6_apply V c t r d hr)).trans ?_
  unfold rowsN6
  exact (dif_pos (t := fun h => f (x6 V c ⟨10000 * t.val + r.val, h⟩ d)) (e := fun _ => (0 : EReal)) hr).symm

/-! ## The running sums are the partial sums over the tiles -/

/-- The running column sum after point `n` at column `d`: the sum over the tiles up to `n` of the tile's column sum. -/
theorem sumAt6_apply (c : Dev nD) (d : Fin 128) : ∀ (n : ℕ) (h : n < cfg6.N),
    sumAt6 V c n h (ix2 0 d) = ∑ t ∈ Finset.range (n + 1), ∑ r ∈ Finset.range 10000, rowsN6 V c id d (10000 * t + r)
  | 0, h => by
    show k6_pay4 (iblk6 V c 0 ⟨0, h⟩) (k6_pay1 (F := Ideal)) (ix2 0 d) = ∑ t ∈ Finset.range 1, ∑ r ∈ Finset.range 10000, rowsN6 V c id d (10000 * t + r)
    rw [k6_pay4_apply, k6_pay1_apply, zero_add, Finset.sum_range_one]
    exact tile_sum6 V c id ⟨0, h⟩ d
  | n + 1, h => by
    show k6_pay4 (iblk6 V c 0 ⟨n + 1, h⟩) (sumAt6 V c n (Nat.lt_of_succ_lt h)) (ix2 0 d) = _
    rw [k6_pay4_apply, sumAt6_apply c d n (Nat.lt_of_succ_lt h), Finset.sum_range_succ _ (n + 1)]
    exact congrArg (fun z : EReal => _ + z) (tile_sum6 V c id ⟨n + 1, h⟩ d)

/-- The running column sum of squares after point `n` at column `d`. -/
theorem sqAt6_apply (c : Dev nD) (d : Fin 128) : ∀ (n : ℕ) (h : n < cfg6.N),
    sqAt6 V c n h (ix2 0 d) = ∑ t ∈ Finset.range (n + 1), ∑ r ∈ Finset.range 10000, rowsN6 V c (fun y => y * y) d (10000 * t + r)
  | 0, h => by
    show k6_pay5 (iblk6 V c 0 ⟨0, h⟩) (k6_pay2 (F := Ideal)) (ix2 0 d) = ∑ t ∈ Finset.range 1, ∑ r ∈ Finset.range 10000, rowsN6 V c (fun y => y * y) d (10000 * t + r)
    rw [k6_pay5_apply, k6_pay2_apply, zero_add, Finset.sum_range_one]
    exact tile_sum6 V c (fun y => y * y) ⟨0, h⟩ d
  | n + 1, h => by
    show k6_pay5 (iblk6 V c 0 ⟨n + 1, h⟩) (sqAt6 V c n (Nat.lt_of_succ_lt h)) (ix2 0 d) = _
    rw [k6_pay5_apply, sqAt6_apply c d n (Nat.lt_of_succ_lt h), Finset.sum_range_succ _ (n + 1)]
    exact congrArg (fun z : EReal => _ + z) (tile_sum6 V c (fun y => y * y) ⟨n + 1, h⟩ d)

/-! ## The result arrays -/

/-- THE FIRST RESULT: at column `d` the column sum of the input array. -/
theorem sum6_val (c : Dev nD) (d : Fin 128) :
    (dat6 (F := Ideal) V c).arrAt 1 cfg6.N (ix2 0 d) = Cert.Hgcn.colSum (fun i k => V c (Pipeline.arrRef spec6 0) (ix2 i k)) d := by
  rw [arrAt6_1]
  show sumAt6 V c 9 _ (ix2 0 d) = ∑ i : Fin 100000, id (x6 V c i d)
  rw [colSum_tiles6 V c id d]
  exact sumAt6_apply V c d 9 _

/-- THE SECOND RESULT: at column `d` the column sum of the squares of the input array. -/
theorem sq6_val (c : Dev nD) (d : Fin 128) :
    (dat6 (F := Ideal) V c).arrAt 2 cfg6.N (ix2 0 d) = Cert.Hgcn.colSumSq (fun i k => V c (Pipeline.arrRef spec6 0) (ix2 i k)) d := by
  rw [arrAt6_2]
  show sqAt6 V c 9 _ (ix2 0 d) = ∑ i : Fin 100000, (fun y => y * y) (x6 V c i d)
  rw [colSum_tiles6 V c (fun y => y * y) d]
  exact sqAt6_apply V c d 9 _

end Cert.KernelIdeal.Hand

end
-- ==== Proof.KI.Region7Arr.lean ====
/-
  The arrays the apply pipeline leaves, generic in the float instance.

  The five inputs (the [100000,128] array, the mean and inverse standard deviation rows, the scale and shift vectors) are
  staged and never written back: after the run each holds what the region found. The output's ten tiles are written back
  one per tile of the grid, tile t to rows 10000 t … 10000 t + 9999, and no two tiles share a row: so the element of the
  final array under tile t's block IS the element of the tile the body stored at t, which is the payload of the input
  blocks at t (the body loads and stores whole buffers). The input blocks themselves are read at coordinates: the tile
  of the big array at row 10000 t + p, the rows and vectors at the same index for every t.
-/
import proofs.«405200_j27075473834261_2_alg».proof.Proof.KI.Region7
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! ## The inputs: never written back -/

theorem arrIn7_0 (c : Dev nD) : (dat7 V c).arrAt 0 cfg7.N = V c (Pipeline.arrRef spec7 0) :=
  ((dat7 V c).arrAt_in 0 rfl _).trans (A_eq7 V c 0)
theorem arrIn7_1 (c : Dev nD) : (dat7 V c).arrAt 1 cfg7.N = V c (Pipeline.arrRef spec7 1) :=
  ((dat7 V c).arrAt_in 1 rfl _).trans (A_eq7 V c 1)
theorem arrIn7_2 (c : Dev nD) : (dat7 V c).arrAt 2 cfg7.N = V c (Pipeline.arrRef spec7 2) :=
  ((dat7 V c).arrAt_in 2 rfl _).trans (A_eq7 V c 2)
theorem arrIn7_3 (c : Dev nD) : (dat7 V c).arrAt 3 cfg7.N = V c (Pipeline.arrRef spec7 3) :=
  ((dat7 V c).arrAt_in 3 rfl _).trans (A_eq7 V c 3)
theorem arrIn7_4 (c : Dev nD) : (dat7 V c).arrAt 4 cfg7.N = V c (Pipeline.arrRef spec7 4) :=
  ((dat7 V c).arrAt_in 4 rfl _).trans (A_eq7 V c 4)

/-! ## The index maps, decided over the ten tiles -/

/-- The big input and the output move with the tile on the row axis and stay on the feature axis; the rows and the
    vectors stay put. -/
theorem tileIdx7 : ∀ t : Fin cfg7.N,
    win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 1) = 0 ∧ win7_4.index t (0 : Fin 1) = 0 :=
  (by decide +kernel : ∀ t : Fin grid7.N, _)

/-- Distinct tiles write distinct blocks of the output. -/
theorem outIdx_inj7 : ∀ t t' : Fin cfg7.N, win7_5.index t = win7_5.index t' → t = t' :=
  (by decide +kernel : ∀ t t' : Fin grid7.N, win7_5.index t = win7_5.index t' → t = t')

/-- So two tiles' output blocks share no index of the array. -/
theorem outDisjoint7 : ∀ t t' : Fin cfg7.N, (cfg7.win 5).flush t = true → (cfg7.win 5).flush t' = true → t ≠ t' →
    Disjoint ((cfg7.win 5).blk t).view.set ((cfg7.win 5).blk t').view.set :=
  fun t t' _ _ hne => (cfg7.win 5).disjoint_blk fun h => hne (outIdx_inj7 t t' h)

/-! ## The output: tile by tile -/

private theorem zeros2 : (![0, 0] : Fin 2 → Nat) = fun _ => 0 := funext fun a => by fin_cases a <;> rfl
private theorem zeros1 : (![0] : Fin 1 → Nat) = fun _ => 0 := funext fun a => by fin_cases a <;> rfl

/-- The body loads whole buffers and its one store is the whole output buffer: the output tile is the payload of the
    input buffers. -/
theorem bnTile7_eq (x : Vec F S10000x128 .f32) (mean istd : Vec F S1x128 .f32) (g b : Vec F S128 .f32) :
    bnTile7 x mean istd g b = k7_pay1 x mean istd g b := by
  unfold bnTile7
  rw [View.canon_unit_zero zeros2]
  rw [View.ld_unit_zero (S := S10000x128) zeros2, View.ld_unit_zero (S := S1x128) zeros2 _ mean,
    View.ld_unit_zero (S := S1x128) zeros2 _ istd, View.ld_unit_zero (S := S128) zeros1 _ g,
    View.ld_unit_zero (S := S128) zeros1 _ b]

/-- What tile t writes back: the payload of the input blocks at t. -/
theorem flushed7_5 (c : Dev nD) (t : Fin cfg7.N) :
    (dat7 V c).flushed 5 t
      = (cfg7.win 5).cut (grid7.coords t) (k7_pay1 (iblk7 V c 0 t) (iblk7 V c 1 t) (iblk7 V c 2 t) (iblk7 V c 3 t) (iblk7 V c 4 t)) := by
  show (cfg7.win 5).cut (grid7.coords t) ((dat7 V c).after 5 t) = _
  rw [after7_5, bnTile7_eq]

/-- Block t of the final output array, read back, is what tile t wrote. -/
theorem blocks7_5 (c : Dev nD) (t : Fin cfg7.N) :
    ((cfg7.win 5).blk t).view.read (Elt F) ((dat7 V c).arrAt 5 cfg7.N) = (dat7 V c).flushed 5 t :=
  (dat7 V c).read_blk_arrAt_eq_flushed 5 outDisjoint7 cfg7.N t t.isLt (flush7_5 t)

/-- The element of the final output array at row 10000 t + p, feature d, is the payload of the input blocks at t, read
    at (p, d). -/
theorem arrOut7 (c : Dev nD) (t : Fin cfg7.N) (p : Fin 10000) (d : Fin 128) (i : Fin 100000) (hi : i.val = t.val * 10000 + p.val) :
    (dat7 V c).arrAt 5 cfg7.N (ix2 i d)
      = k7_pay1 (iblk7 V c 0 t) (iblk7 V c 1 t) (iblk7 V c 2 t) (iblk7 V c 3 t) (iblk7 V c 4 t) (ix2 p d) := by
  obtain ⟨-, -, e0, e1, -⟩ := tileIdx7 t
  have hemb : (ix2 i d : S100000x128.Idx) = ((cfg7.win 5).blk t).view.emb (ix2 p d) := by
    funext a; apply Fin.ext
    match a with
    | ⟨0, _⟩ => show i.val = win7_5.index t (0 : Fin 2) * 10000 + 1 * p.val; rw [e0]; clear e0 e1; omega
    | ⟨1, _⟩ => show d.val = win7_5.index t (1 : Fin 2) * 128 + 1 * d.val; rw [e1]; clear e0 e1; omega
  have h := congrFun (blocks7_5 V c t) (ix2 p d)
  rw [flushed7_5] at h
  rw [hemb]
  exact h

/-! ## The input blocks at coordinates -/

/-- The big input's block at tile t, at (p, d): the array at row 10000 t + p. -/
theorem iblk7_0_apply (c : Dev nD) (t : Fin cfg7.N) (p : Fin 10000) (d : Fin 128) (i : Fin 100000) (hi : i.val = t.val * 10000 + p.val) :
    iblk7 V c 0 t (ix2 p d) = V c (Pipeline.arrRef spec7 0) (ix2 i d) := by
  obtain ⟨e0, e1, -⟩ := tileIdx7 t
  show V c (Pipeline.arrRef spec7 0) (((cfg7.win 0).blk t).view.emb (ix2 p d)) = _
  refine congrArg (V c (Pipeline.arrRef spec7 0)) ?_
  funext a; apply Fin.ext
  match a with
  | ⟨0, _⟩ => show win7_0.index t (0 : Fin 2) * 10000 + 1 * p.val = i.val; rw [e0]; clear e0 e1; omega
  | ⟨1, _⟩ => show win7_0.index t (1 : Fin 2) * 128 + 1 * d.val = d.val; rw [e1]; clear e0 e1; omega

/-- The mean row's block at any tile is the row. -/
theorem iblk7_1_apply (c : Dev nD) (t : Fin cfg7.N) (u : Fin 1) (d : Fin 128) :
    iblk7 V c 1 t (ix2 u d) = V c (Pipeline.arrRef spec7 1) (ix2 u d) := by
  obtain ⟨-, -, -, -, e0, e1, -⟩ := tileIdx7 t
  show V c (Pipeline.arrRef spec7 1) (((cfg7.win 1).blk t).view.emb (ix2 u d)) = _
  refine congrArg (V c (Pipeline.arrRef spec7 1)) ?_
  funext a; apply Fin.ext
  match a with
  | ⟨0, _⟩ => show win7_1.index t (0 : Fin 2) * 1 + 1 * u.val = u.val; rw [e0]; clear e0 e1; omega
  | ⟨1, _⟩ => show win7_1.index t (1 : Fin 2) * 128 + 1 * d.val = d.val; rw [e1]; clear e0 e1; omega

/-- The inverse standard deviation row's block at any tile is the row. -/
theorem iblk7_2_apply (c : Dev nD) (t : Fin cfg7.N) (u : Fin 1) (d : Fin 128) :
    iblk7 V c 2 t (ix2 u d) = V c (Pipeline.arrRef spec7 2) (ix2 u d) := by
  obtain ⟨-, -, -, -, -, -, e0, e1, -⟩ := tileIdx7 t
  show V c (Pipeline.arrRef spec7 2) (((cfg7.win 2).blk t).view.emb (ix2 u d)) = _
  refine congrArg (V c (Pipeline.arrRef spec7 2)) ?_
  funext a; apply Fin.ext
  match a with
  | ⟨0, _⟩ => show win7_2.index t (0 : Fin 2) * 1 + 1 * u.val = u.val; rw [e0]; clear e0 e1; omega
  | ⟨1, _⟩ => show win7_2.index t (1 : Fin 2) * 128 + 1 * d.val = d.val; rw [e1]; clear e0 e1; omega

/-- The scale vector's block at any tile is the vector. -/
theorem iblk7_3_apply (c : Dev nD) (t : Fin cfg7.N) (d : Fin 128) :
    iblk7 V c 3 t (ix1 d) = V c (Pipeline.arrRef spec7 3) (ix1 d) := by
  obtain ⟨-, -, -, -, -, -, -, -, e0, -⟩ := tileIdx7 t
  show V c (Pipeline.arrRef spec7 3) (((cfg7.win 3).blk t).view.emb (ix1 d)) = _
  refine congrArg (V c (Pipeline.arrRef spec7 3)) ?_
  funext a; apply Fin.ext
  match a with
  | ⟨0, _⟩ => show win7_3.index t (0 : Fin 1) * 128 + 1 * d.val = d.val; rw [e0]; clear e0; omega

/-- The shift vector's block at any tile is the vector. -/
theorem iblk7_4_apply (c : Dev nD) (t : Fin cfg7.N) (d : Fin 128) :
    iblk7 V c 4 t (ix1 d) = V c (Pipeline.arrRef spec7 4) (ix1 d) := by
  obtain ⟨-, -, -, -, -, -, -, -, -, e0⟩ := tileIdx7 t
  show V c (Pipeline.arrRef spec7 4) (((cfg7.win 4).blk t).view.emb (ix1 d)) = _
  refine congrArg (V c (Pipeline.arrRef spec7 4)) ?_
  funext a; apply Fin.ext
  match a with
  | ⟨0, _⟩ => show win7_4.index t (0 : Fin 1) * 128 + 1 * d.val = d.val; rw [e0]; clear e0; omega

end Cert.KernelIdeal.Hand

end
-- ==== Proof.KI.Region7Val.lean ====
/-
  The apply pipeline's output at the extended reals, index by index: row i, feature d of the array it leaves is
  (x i d - mean d) * invstd d * g d + b d of the arrays it found — the input at row i, the mean and the inverse standard
  deviation at the one row of their [1,128] arrays, the scale and the shift.

  Row i lies in tile i / 10000 at row i % 10000 of the tile; the tile's store is the payload of the input blocks; at the
  extended reals the payload's vector operations read through at an index (a difference, two products, a sum; the rows
  and vectors broadcast along the tile's rows).
-/
import proofs.«405200_j27075473834261_2_alg».proof.Proof.KI.Region7
import proofs.«405200_j27075473834261_2_alg».proof.Proof.KI.Region7Arr
import proofs.«405200_j27075473834261_2_alg».proof.Proof.Spec
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The payload at an index of the tile: the tile's element less the mean, times the inverse standard deviation, times
    the scale, plus the shift. -/
theorem k7_pay1_apply (x : Vec Ideal S10000x128 .f32) (mean istd : Vec Ideal S1x128 .f32) (g b : Vec Ideal S128 .f32)
    (p : Fin 10000) (d : Fin 128) :
    k7_pay1 x mean istd g b (ix2 p d)
      = (x (ix2 p d) - mean (ix2 (0 : Fin 1) d)) * istd (ix2 (0 : Fin 1) d) * g (ix1 d) + b (ix1 d) := by
  unfold k7_pay1
  simp only [addf_apply, mulf_apply, subf_apply, shapeCast_self, broadcastTo_1b_ab_apply, shapeCast_a_1a_apply]

/-- The output array, index by index, is the batch normalisation's apply step of the input arrays. -/
theorem bnApply7_val (c : Dev nD) (i : Fin 100000) (d : Fin 128) :
    (dat7 (F := Ideal) V c).arrAt 5 cfg7.N (ix2 i d)
      = Cert.Hgcn.bnApply (n := 100000) (fun (i : Fin 100000) (k : Fin 128) => (V c (Pipeline.arrRef spec7 0) (ix2 i k) : EReal))
          (fun k => V c (Pipeline.arrRef spec7 1) (ix2 (0 : Fin 1) k))
          (fun k => V c (Pipeline.arrRef spec7 2) (ix2 (0 : Fin 1) k))
          (fun k => V c (Pipeline.arrRef spec7 3) (ix1 k))
          (fun k => V c (Pipeline.arrRef spec7 4) (ix1 k)) i d := by
  have hi : i.val < 100000 := i.isLt
  have hN : cfg7.N = 10 := N_7
  -- the tile of row i and the row's place in it
  obtain ⟨t, p, hip⟩ : ∃ (t : Fin cfg7.N) (p : Fin 10000), i.val = t.val * 10000 + p.val :=
    ⟨⟨i.val / 10000, Nat.lt_of_lt_of_eq (by omega) hN.symm⟩, ⟨i.val % 10000, Nat.mod_lt _ (by decide)⟩,
      by show i.val = i.val / 10000 * 10000 + i.val % 10000; omega⟩
  refine (arrOut7 V c t p d i hip).trans ?_
  refine (k7_pay1_apply _ _ _ _ _ p d).trans ?_
  rw [iblk7_0_apply V c t p d i hip, iblk7_1_apply V c t 0 d, iblk7_2_apply V c t 0 d, iblk7_3_apply V c t d,
    iblk7_4_apply V c t d]
  rfl

end Cert.KernelIdeal.Hand

end
-- ==== Proof.Net.lean ====
/-
  The two-layer network as one function of its arguments, in the kernel's spelling (`netK…`) and in the reference's (`netR…`).
  `con` is the "connected to" aggregate over the edge list, the same operator in both programs; `lab` the label words and `ℓ` the
  labels they name. The sequence-side result is the second batch normalisation of the second layer's sequence output; the
  label-side result the second batch normalisation of the second layer's label output.
-/
import proofs.«405200_j27075473834261_2_alg».proof.Proof.Spec

noncomputable section

namespace Cert.Hgcn

/-- The operator on node features both programs apply for the edge relation. -/
abbrev ConOpT : Type := (Fin 100000 → Fin 128 → EReal) → (Fin 100000 → Fin 128 → EReal)

/-- A layer's label side (both spellings agree): `relu((belAgg · scale) · Wb + bb)`. -/
def layerLab {n : ℕ} (lab : Fin 100000 → BitVec 32) (hs : Fin 100000 → Fin 128 → EReal) (Wb : Fin 128 → Fin n → EReal) (bb : Fin n → EReal) :
    Fin 64 → Fin n → EReal :=
  labOut (belAgg lab hs) (labScale lab) Wb bb

/-- A layer's sequence side, the kernel's spelling. -/
def layerSeqK (con : ConOpT) (lab : Fin 100000 → BitVec 32) (hs : Fin 100000 → Fin 128 → EReal) (hl : Fin 64 → Fin 128 → EReal)
    (Wi : Fin 128 → Fin 128 → EReal) (bi : Fin 128 → EReal) (Wc : Fin 128 → Fin 128 → EReal) (bc : Fin 128 → EReal) :
    Fin 100000 → Fin 128 → EReal :=
  seqOut (incK lab (incTable hl (labScale lab) Wi) bi) (conDense (con hs) Wc bc)

/-- A layer's sequence side, the reference's spelling. -/
def layerSeqR (con : ConOpT) (lab : Fin 100000 → BitVec 32) (ℓ : Fin 100000 → Fin 64) (hs : Fin 100000 → Fin 128 → EReal) (hl : Fin 64 → Fin 128 → EReal)
    (Wi : Fin 128 → Fin 128 → EReal) (bi : Fin 128 → EReal) (Wc : Fin 128 → Fin 128 → EReal) (bc : Fin 128 → EReal) :
    Fin 100000 → Fin 128 → EReal :=
  seqOut (incR ℓ hl (labScale lab) Wi bi) (conDense (con hs) Wc bc)

/-- The network's arguments, curried (the order of the programs' arguments 0 … 21). -/
structure Args where
  x : Fin 100000 → Fin 128 → EReal
  xl : Fin 64 → Fin 128 → EReal
  W1b : Fin 128 → Fin 128 → EReal
  b1b : Fin 128 → EReal
  W1i : Fin 128 → Fin 128 → EReal
  b1i : Fin 128 → EReal
  W1c : Fin 128 → Fin 128 → EReal
  b1c : Fin 128 → EReal
  g1s : Fin 128 → EReal
  be1s : Fin 128 → EReal
  g1l : Fin 128 → EReal
  be1l : Fin 128 → EReal
  W2b : Fin 128 → Fin 64 → EReal
  b2b : Fin 64 → EReal
  W2i : Fin 128 → Fin 128 → EReal
  b2i : Fin 128 → EReal
  W2c : Fin 128 → Fin 128 → EReal
  b2c : Fin 128 → EReal
  g2s : Fin 128 → EReal
  be2s : Fin 128 → EReal
  g2l : Fin 64 → EReal
  be2l : Fin 64 → EReal

variable (con : ConOpT) (lab : Fin 100000 → BitVec 32) (ℓ : Fin 100000 → Fin 64) (a : Args)

/-- After layer 1 and its normalisation, the sequence side (kernel's spelling). -/
def hs1K : Fin 100000 → Fin 128 → EReal := bnSeqK (layerSeqK con lab a.x a.xl a.W1i a.b1i a.W1c a.b1c) a.g1s a.be1s
/-- After layer 1 and its normalisation, the sequence side (reference's spelling). -/
def hs1R : Fin 100000 → Fin 128 → EReal := bnSeqR (layerSeqR con lab ℓ a.x a.xl a.W1i a.b1i a.W1c a.b1c) a.g1s a.be1s
/-- After layer 1 and its normalisation, the label side. -/
def hl1 : Fin 64 → Fin 128 → EReal := bnLab (layerLab lab a.x a.W1b a.b1b) a.g1l a.be1l

/-- The sequence-side result, the kernel's spelling. -/
def netK0 : Fin 100000 → Fin 128 → EReal :=
  bnSeqK (layerSeqK con lab (hs1K con lab a) (hl1 lab a) a.W2i a.b2i a.W2c a.b2c) a.g2s a.be2s
/-- The label-side result, the kernel's spelling. -/
def netK1 : Fin 64 → Fin 64 → EReal := bnLab (layerLab lab (hs1K con lab a) a.W2b a.b2b) a.g2l a.be2l
/-- The sequence-side result, the reference's spelling. -/
def netR0 : Fin 100000 → Fin 128 → EReal :=
  bnSeqR (layerSeqR con lab ℓ (hs1R con lab ℓ a) (hl1 lab a) a.W2i a.b2i a.W2c a.b2c) a.g2s a.be2s
/-- The label-side result, the reference's spelling. -/
def netR1 : Fin 64 → Fin 64 → EReal := bnLab (layerLab lab (hs1R con lab ℓ a) a.W2b a.b2b) a.g2l a.be2l

end Cert.Hgcn

end
-- ==== Proof.SpecLemmas.Basic.lean ====
/-
  Real numbers among the extended reals (0, 1, sums, products, differences, maxima, finite sums; the coercion commutes with
  finite sums), the values of the literal words (one half, the epsilon, the two counts), the indicator of a label and the
  collapse of a sum weighted by it — 0 * y = 0 and 1 * y = y hold for every extended real, so "including" needs no finiteness —,
  and the reciprocal square root: real at a positive real, and degree^(-1/2) real at every degree.
-/
import Idealize.ShloMosaic.PureOps.Ideal
import Idealize.ShloMosaic.PureOps.Ideal.Laws
import Idealize.ShloMosaic.Lib.ValueIdx
import proofs.«405200_j27075473834261_2_alg».proof.Proof.Spec

noncomputable section

open scoped BigOperators

namespace Cert.Hgcn

open Idealize.ShloMosaic

/-! ## Real numbers among the extended reals -/

theorem isReal_coe (r : ℝ) : IsReal (r : EReal) := ⟨r, rfl⟩
theorem isReal_zero : IsReal 0 := ⟨0, rfl⟩
theorem isReal_one : IsReal 1 := ⟨1, rfl⟩

theorem isReal_add {x y : EReal} (hx : IsReal x) (hy : IsReal y) : IsReal (x + y) := by
  obtain ⟨a, rfl⟩ := hx; obtain ⟨b, rfl⟩ := hy; exact ⟨a + b, EReal.coe_add a b⟩
theorem isReal_mul {x y : EReal} (hx : IsReal x) (hy : IsReal y) : IsReal (x * y) := by
  obtain ⟨a, rfl⟩ := hx; obtain ⟨b, rfl⟩ := hy; exact ⟨a * b, EReal.coe_mul a b⟩
theorem isReal_sub {x y : EReal} (hx : IsReal x) (hy : IsReal y) : IsReal (x - y) := by
  obtain ⟨a, rfl⟩ := hx; obtain ⟨b, rfl⟩ := hy; exact ⟨a - b, EReal.coe_sub a b⟩
theorem isReal_max {x y : EReal} (hx : IsReal x) (hy : IsReal y) : IsReal (max x y) := by
  rcases le_total x y with h | h
  · rw [max_eq_right h]; exact hy
  · rw [max_eq_left h]; exact hx
theorem isReal_sum {ι : Type} (s : Finset ι) (f : ι → EReal) (h : ∀ i ∈ s, IsReal (f i)) : IsReal (∑ i ∈ s, f i) :=
  Finset.sum_induction f IsReal (fun _ _ => isReal_add) isReal_zero h

/-- The coercion of the reals commutes with finite sums. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## The literal words -/

theorem half_eq : half = (((1 : ℝ) / 2 : ℝ) : EReal) := by
  show Ideal.ofBits .f32 0x3F000000#32 = _
  simp [Ideal.ofBits, Ideal.ieee, -EReal.coe_mul]; norm_num
theorem nSeq_eq : nSeq = ((100000 : ℝ) : EReal) := by
  show Ideal.ofBits .f32 0x47C35000#32 = _
  simp [Ideal.ofBits, Ideal.ieee, -EReal.coe_mul]; norm_num
theorem nLab_eq : nLab = ((64 : ℝ) : EReal) := by
  show Ideal.ofBits .f32 0x42800000#32 = _
  simp [Ideal.ofBits, Ideal.ieee, -EReal.coe_mul]; norm_num
theorem bnEps_eq : bnEps = (((10995116 : ℝ) / 2 ^ 40 : ℝ) : EReal) := by
  show Ideal.ofBits .f32 0x3727C5AC#32 = _
  simp [Ideal.ofBits, Ideal.ieee, -EReal.coe_mul]; norm_num

theorem isReal_half : IsReal half := half_eq ▸ isReal_coe _
theorem isReal_nSeq : IsReal nSeq := nSeq_eq ▸ isReal_coe _
theorem isReal_nLab : IsReal nLab := nLab_eq ▸ isReal_coe _
theorem isReal_bnEps : IsReal bnEps := bnEps_eq ▸ isReal_coe _
theorem bnEps_pos : 0 < bnEps := by rw [bnEps_eq]; exact EReal.coe_pos.mpr (by norm_num)

/-- Division by the node count is the product with its reciprocal. -/
theorem div_nSeq (x : EReal) : Ideal.div x nSeq = x * (((1 : ℝ) / 100000 : ℝ) : EReal) := by
  rw [nSeq_eq]; exact Ideal.div_coe (by norm_num) x
/-- Division by the label count is the product with its reciprocal. -/
theorem div_nLab (x : EReal) : Ideal.div x nLab = x * (((1 : ℝ) / 64 : ℝ) : EReal) := by
  rw [nLab_eq]; exact Ideal.div_coe (by norm_num) x

/-! ## The indicator of a label -/

theorem isReal_hot (w : BitVec 32) (l : Fin 64) : IsReal (hot w l) := by
  unfold hot; split_ifs
  · exact isReal_one
  · exact isReal_zero

/-- Two labels below 64 with the same 32-bit word are the same label. -/
theorem label_word_inj {m l : Fin 64} (h : BitVec.ofNat 32 m.val = BitVec.ofNat 32 l.val) : m = l := by
  have h' := congrArg BitVec.toNat h
  simp only [BitVec.toNat_ofNat] at h'
  have hm := m.isLt; have hl := l.isLt
  exact Fin.ext (by omega)

/-- The indicator of the word of label m is 1 at m and 0 elsewhere. -/
theorem hot_word (m l : Fin 64) : hot (BitVec.ofNat 32 m.val) l = if l = m then 1 else 0 := by
  unfold hot
  by_cases h : l = m
  · rw [if_pos h, h, if_pos rfl]
  · have hne : ¬ (BitVec.ofNat 32 m.val = BitVec.ofNat 32 l.val) := fun e => h (label_word_inj e).symm
    rw [if_neg h, if_neg hne]

/-- A sum over labels weighted by the indicator of label m is the term at m: on every extended real, since
    0 * y = 0 and 1 * y = y hold at the infinities too. -/
theorem sum_hot_mul (m : Fin 64) (f : Fin 64 → EReal) : ∑ l, hot (BitVec.ofNat 32 m.val) l * f l = f m := by
  rw [Finset.sum_eq_single m]
  · rw [hot_word, if_pos rfl, one_mul]
  · intro l _ hl; rw [hot_word, if_neg hl, zero_mul]
  · intro h; exact absurd (Finset.mem_univ m) h

/-- "including": the kernel's product with the indicator row is the reference's look-up. -/
theorem incK_eq_incR (lab : Fin 100000 → BitVec 32) (ℓ : Fin 100000 → Fin 64) (hℓ : ∀ i, lab i = BitVec.ofNat 32 (ℓ i).val)
    (hl : Fin 64 → Fin 128 → EReal) (s : Fin 64 → EReal) (Wi : Fin 128 → Fin 128 → EReal) (bi : Fin 128 → EReal)
    (i : Fin 100000) (j : Fin 128) :
    incK lab (incTable hl s Wi) bi i j = incR ℓ hl s Wi bi i j := by
  unfold incK incR
  rw [hℓ i, sum_hot_mul (ℓ i) fun l => incTable hl s Wi l j]
  unfold incTable
  simp only [mul_one]

/-! ## count^(-1/2) -/

/-- The reciprocal square root of a positive real is real. -/
theorem isReal_rsqrt {x : EReal} (hx : IsReal x) (hpos : 0 < x) : IsReal (Ideal.rsqrt x) := by
  obtain ⟨r, rfl⟩ := hx
  have hr : 0 < r := EReal.coe_pos.mp hpos
  rw [Ideal.rsqrt_coe, if_neg (not_lt.mpr hr.le), if_neg hr.ne']
  exact isReal_coe _

/-- degree^(-1/2) is real at every degree: above zero the argument max d 1 is at least 1, whose reciprocal root is
    real (zero at +∞); elsewhere the value is 0. -/
theorem isReal_invSqrtDeg (d : EReal) : IsReal (invSqrtDeg d) := by
  unfold invSqrtDeg
  split_ifs with h
  · induction d using EReal.rec with
    | bot => exact absurd h (not_lt.mpr bot_le)
    | top => rw [max_eq_left le_top, Ideal.rsqrt_top]; exact isReal_zero
    | coe r =>
      refine isReal_rsqrt (isReal_max (isReal_coe r) isReal_one) ?_
      exact lt_of_lt_of_le zero_lt_one (le_max_right _ _)
  · exact isReal_zero

end Cert.Hgcn

end
-- ==== Proof.SpecLemmas.lean ====
/-
  The lemmas joining the two spellings of the graph convolution on the extended reals, and the bookkeeping that real data
  stay real through every stage.

  "including": the kernel multiplies the label table by the indicator row of a node's label and sums over the 64 labels; the
  indicator is 1 at the node's label and 0 elsewhere, and 0 * y = 0, 1 * y = y, y * 1 = y hold for every extended real, so the
  sum is the table's row at the label — the reference's look-up — with no finiteness needed.

  Batch normalisation: over the reals the mean of the squared deviations from the mean is the mean of the squares less the
  squared mean. On the extended reals the identity needs real data (∞ − ∞ has no sensible value), so a column of real entries
  is named by real witnesses, the coercion is pushed out of the finite sums, the division by the count (a real that is not
  zero) becomes a product with its reciprocal, and the identity is the real one.

  Real-valuedness: 0, 1, finite sums, products, differences and maxima of reals are real; degree^(-1/2) is real at every
  degree; a variance of real data is a real that is not negative, so adding the positive epsilon gives a positive real whose
  reciprocal square root is real. Hence every stage of both layers maps real arrays to real arrays.
-/
import Idealize.ShloMosaic.PureOps.Ideal
import Idealize.ShloMosaic.PureOps.Ideal.Laws
import Idealize.ShloMosaic.Lib.ValueIdx
import proofs.«405200_j27075473834261_2_alg».proof.Proof.Spec
import proofs.«405200_j27075473834261_2_alg».proof.Proof.SpecLemmas.Basic

noncomputable section

open scoped BigOperators

namespace Cert.Hgcn

open Idealize.ShloMosaic

/-! ## Mean and variance of a real column -/

/-- Over the reals the mean of the squared deviations from the mean is the mean of the squares less the squared mean
    (c is the reciprocal of the count n). -/
theorem real_var_identity {n : ℕ} (r : Fin n → ℝ) (c : ℝ) (hc : c * n = 1) :
    (∑ i, (r i - (∑ i, r i) * c) * (r i - (∑ i, r i) * c)) * c
      = (∑ i, r i * r i) * c - ((∑ i, r i) * c) * ((∑ i, r i) * c) := by
  have hsum : ∀ m : ℝ, ∑ i, (r i - m) * (r i - m) = (∑ i, r i * r i) - 2 * m * (∑ i, r i) + n * (m * m) := by
    intro m
    calc ∑ i, (r i - m) * (r i - m) = ∑ i, (r i * r i - 2 * m * r i + m * m) := Finset.sum_congr rfl fun i _ => by ring
      _ = _ := by
        rw [Finset.sum_add_distrib, Finset.sum_sub_distrib, Finset.sum_const, Finset.card_univ, Fintype.card_fin,
          nsmul_eq_mul, ← Finset.mul_sum]
  rw [hsum]
  linear_combination ((∑ i, r i) * c) * ((∑ i, r i) * c) * hc

/-- A column of a real matrix, as a function into the reals. -/
theorem AllReal2.column {a b : ℕ} {x : Fin a → Fin b → EReal} (hx : AllReal2 x) (d : Fin b) :
    ∃ r : Fin a → ℝ, ∀ i, (r i : EReal) = x i d :=
  ⟨fun i => (hx i d).choose, fun i => (hx i d).choose_spec⟩

section Column

variable {n : ℕ} (y : Fin n → EReal) (r : Fin n → ℝ) (hr : ∀ i, (r i : EReal) = y i) (c : ℝ)
include hr

/-- The scaled sum of a real column. -/
theorem col_sum_coe : (∑ i, y i) * (c : EReal) = (((∑ i, r i) * c : ℝ) : EReal) := by
  simp only [EReal.coe_mul, coe_sum, hr]

/-- The scaled sum of squares of a real column. -/
theorem col_sumSq_coe : (∑ i, y i * y i) * (c : EReal) = (((∑ i, r i * r i) * c : ℝ) : EReal) := by
  simp only [EReal.coe_mul, coe_sum, hr]

/-- The scaled sum of squared deviations of a real column from a real m. -/
theorem col_dev_coe (m : ℝ) :
    (∑ i, (y i - (m : EReal)) * (y i - (m : EReal))) * (c : EReal) = (((∑ i, (r i - m) * (r i - m)) * c : ℝ) : EReal) := by
  simp only [EReal.coe_mul, EReal.coe_sub, coe_sum, hr]

end Column

section Seq

variable {x : Fin 100000 → Fin 128 → EReal} (d : Fin 128) (r : Fin 100000 → ℝ) (hr : ∀ i, (r i : EReal) = x i d)
include hr

theorem meanS_coe : meanS x d = (((∑ i, r i) * (1 / 100000) : ℝ) : EReal) := by
  unfold meanS colSum; rw [div_nSeq]; exact col_sum_coe (fun i => x i d) r hr _

theorem varK_coe : varK x d
    = (((∑ i, r i * r i) * (1 / 100000) - ((∑ i, r i) * (1 / 100000)) * ((∑ i, r i) * (1 / 100000)) : ℝ) : EReal) := by
  unfold varK colSumSq
  rw [meanS_coe d r hr, div_nSeq, col_sumSq_coe (fun i => x i d) r hr, EReal.coe_sub, EReal.coe_mul (_ * _) (_ * _)]

theorem varR_coe : varR x d
    = (((∑ i, (r i - (∑ i, r i) * (1 / 100000)) * (r i - (∑ i, r i) * (1 / 100000))) * (1 / 100000) : ℝ) : EReal) := by
  unfold varR
  rw [meanS_coe d r hr, div_nSeq]; exact col_dev_coe (fun i => x i d) r hr _ _

end Seq

/-- The two spellings of the variance agree on real data. -/
theorem varK_eq_varR {x : Fin 100000 → Fin 128 → EReal} (hx : AllReal2 x) (d : Fin 128) : varK x d = varR x d := by
  obtain ⟨r, hr⟩ := hx.column d
  rw [varK_coe d r hr, varR_coe d r hr, real_var_identity r (1 / 100000) (by norm_num)]

/-- Hence the two spellings of the sequence side's batch normalisation agree on real data. -/
theorem bnSeqK_eq_bnSeqR {x : Fin 100000 → Fin 128 → EReal} (hx : AllReal2 x) (g b : Fin 128 → EReal) :
    bnSeqK x g b = bnSeqR x g b := by
  unfold bnSeqK bnSeqR
  simp only [varK_eq_varR hx]

theorem allReal_meanS {x : Fin 100000 → Fin 128 → EReal} (hx : AllReal2 x) : AllReal1 (meanS x) := by
  intro d; obtain ⟨r, hr⟩ := hx.column d
  rw [meanS_coe d r hr]; exact isReal_coe _

theorem allReal_varR {x : Fin 100000 → Fin 128 → EReal} (hx : AllReal2 x) : AllReal1 (varR x) := by
  intro d; obtain ⟨r, hr⟩ := hx.column d
  rw [varR_coe d r hr]; exact isReal_coe _

theorem allReal_varK {x : Fin 100000 → Fin 128 → EReal} (hx : AllReal2 x) : AllReal1 (varK x) := by
  intro d; rw [varK_eq_varR hx]; exact allReal_varR hx d

/-- A mean of squares is not negative. -/
theorem varR_nonneg {x : Fin 100000 → Fin 128 → EReal} (hx : AllReal2 x) (d : Fin 128) : 0 ≤ varR x d := by
  obtain ⟨r, hr⟩ := hx.column d
  rw [varR_coe d r hr]
  exact EReal.coe_nonneg.mpr (mul_nonneg (Finset.sum_nonneg fun i _ => mul_self_nonneg _) (by norm_num))

/-- The reciprocal standard deviation (variance plus the positive epsilon) is real. -/
theorem isReal_invstdR {x : Fin 100000 → Fin 128 → EReal} (hx : AllReal2 x) (d : Fin 128) :
    IsReal (Ideal.rsqrt (varR x d + bnEps)) :=
  isReal_rsqrt (isReal_add (allReal_varR hx d) isReal_bnEps) (lt_of_lt_of_le bnEps_pos (le_add_of_nonneg_left (varR_nonneg hx d)))

theorem isReal_invstdK {x : Fin 100000 → Fin 128 → EReal} (hx : AllReal2 x) (d : Fin 128) :
    IsReal (Ideal.rsqrt (varK x d + bnEps)) := by
  rw [varK_eq_varR hx]; exact isReal_invstdR hx d

section Lab

variable {n : ℕ} {x : Fin 64 → Fin n → EReal} (d : Fin n) (r : Fin 64 → ℝ) (hr : ∀ i, (r i : EReal) = x i d)
include hr

theorem meanL_coe : meanL x d = (((∑ i, r i) * (1 / 64) : ℝ) : EReal) := by
  unfold meanL; rw [div_nLab]; exact col_sum_coe (fun i => x i d) r hr _

theorem varL_coe : varL x d
    = (((∑ i, (r i - (∑ i, r i) * (1 / 64)) * (r i - (∑ i, r i) * (1 / 64))) * (1 / 64) : ℝ) : EReal) := by
  unfold varL
  rw [meanL_coe d r hr, div_nLab]; exact col_dev_coe (fun i => x i d) r hr _ _

end Lab

theorem allReal_meanL {n : ℕ} {x : Fin 64 → Fin n → EReal} (hx : AllReal2 x) : AllReal1 (meanL x) := by
  intro d; obtain ⟨r, hr⟩ := hx.column d
  rw [meanL_coe d r hr]; exact isReal_coe _

theorem allReal_varL {n : ℕ} {x : Fin 64 → Fin n → EReal} (hx : AllReal2 x) : AllReal1 (varL x) := by
  intro d; obtain ⟨r, hr⟩ := hx.column d
  rw [varL_coe d r hr]; exact isReal_coe _

theorem varL_nonneg {n : ℕ} {x : Fin 64 → Fin n → EReal} (hx : AllReal2 x) (d : Fin n) : 0 ≤ varL x d := by
  obtain ⟨r, hr⟩ := hx.column d
  rw [varL_coe d r hr]
  exact EReal.coe_nonneg.mpr (mul_nonneg (Finset.sum_nonneg fun i _ => mul_self_nonneg _) (by norm_num))

theorem isReal_invstdL {n : ℕ} {x : Fin 64 → Fin n → EReal} (hx : AllReal2 x) (d : Fin n) :
    IsReal (Ideal.rsqrt (varL x d + bnEps)) :=
  isReal_rsqrt (isReal_add (allReal_varL hx d) isReal_bnEps) (lt_of_lt_of_le bnEps_pos (le_add_of_nonneg_left (varL_nonneg hx d)))

/-! ## Every stage keeps real data real -/

theorem allReal_cnt (lab : Fin 100000 → BitVec 32) : AllReal1 (cnt lab) := by
  intro l; unfold cnt; exact isReal_sum _ _ fun i _ => isReal_hot _ _

theorem allReal_labScale (lab : Fin 100000 → BitVec 32) : AllReal1 (labScale lab) := fun _ => isReal_invSqrtDeg _

theorem allReal_belAgg (lab : Fin 100000 → BitVec 32) {x : Fin 100000 → Fin 128 → EReal} (hx : AllReal2 x) :
    AllReal2 (belAgg lab x) := by
  intro l k; unfold belAgg; exact isReal_sum _ _ fun i _ => isReal_mul (isReal_hot _ _) (hx i k)

theorem allReal_labOut {n : ℕ} {agg : Fin 64 → Fin 128 → EReal} {s : Fin 64 → EReal} {W : Fin 128 → Fin n → EReal}
    {b : Fin n → EReal} (hagg : AllReal2 agg) (hs : AllReal1 s) (hW : AllReal2 W) (hb : AllReal1 b) :
    AllReal2 (labOut agg s W b) := by
  intro l j; unfold labOut
  exact isReal_max (isReal_add (isReal_sum _ _ fun k _ => isReal_mul (isReal_mul (hagg l k) (hs l)) (hW k j)) (hb j)) isReal_zero

theorem allReal_incTable {hl : Fin 64 → Fin 128 → EReal} {s : Fin 64 → EReal} {Wi : Fin 128 → Fin 128 → EReal}
    (hhl : AllReal2 hl) (hs : AllReal1 s) (hWi : AllReal2 Wi) : AllReal2 (incTable hl s Wi) := by
  intro l j; unfold incTable
  exact isReal_sum _ _ fun k _ => isReal_mul (isReal_mul (hhl l k) (hs l)) (hWi k j)

theorem allReal_incK (lab : Fin 100000 → BitVec 32) {M : Fin 64 → Fin 128 → EReal} {bi : Fin 128 → EReal}
    (hM : AllReal2 M) (hbi : AllReal1 bi) : AllReal2 (incK lab M bi) := by
  intro i j; unfold incK
  exact isReal_add (isReal_sum _ _ fun l _ => isReal_mul (isReal_hot _ _) (hM l j)) (hbi j)

theorem allReal_incR (ℓ : Fin 100000 → Fin 64) {hl : Fin 64 → Fin 128 → EReal} {s : Fin 64 → EReal}
    {Wi : Fin 128 → Fin 128 → EReal} {bi : Fin 128 → EReal}
    (hhl : AllReal2 hl) (hs : AllReal1 s) (hWi : AllReal2 Wi) (hbi : AllReal1 bi) : AllReal2 (incR ℓ hl s Wi bi) := by
  intro i j; unfold incR
  exact isReal_add (isReal_sum _ _ fun k _ =>
    isReal_mul (isReal_mul (isReal_mul (hhl (ℓ i) k) (hs (ℓ i))) isReal_one) (hWi k j)) (hbi j)

theorem allReal_conDense {c : Fin 100000 → Fin 128 → EReal} {Wc : Fin 128 → Fin 128 → EReal} {bc : Fin 128 → EReal}
    (hc : AllReal2 c) (hWc : AllReal2 Wc) (hbc : AllReal1 bc) : AllReal2 (conDense c Wc bc) := by
  intro i j; unfold conDense
  exact isReal_add (isReal_sum _ _ fun k _ => isReal_mul (hc i k) (hWc k j)) (hbc j)

theorem allReal_seqOut {inc con : Fin 100000 → Fin 128 → EReal} (hinc : AllReal2 inc) (hcon : AllReal2 con) :
    AllReal2 (seqOut inc con) := by
  intro i j; unfold seqOut
  exact isReal_max (isReal_mul isReal_half (isReal_add (hinc i j) (hcon i j))) isReal_zero

theorem allReal_bnApply {n : ℕ} {x : Fin n → Fin 128 → EReal} {mean invstd g b : Fin 128 → EReal}
    (hx : AllReal2 x) (hmean : AllReal1 mean) (hinv : AllReal1 invstd) (hg : AllReal1 g) (hb : AllReal1 b) :
    AllReal2 (bnApply x mean invstd g b) := by
  intro i d; unfold bnApply
  exact isReal_add (isReal_mul (isReal_mul (isReal_sub (hx i d) (hmean d)) (hinv d)) (hg d)) (hb d)

theorem allReal_bnSeqR {x : Fin 100000 → Fin 128 → EReal} {g b : Fin 128 → EReal}
    (hx : AllReal2 x) (hg : AllReal1 g) (hb : AllReal1 b) : AllReal2 (bnSeqR x g b) :=
  allReal_bnApply hx (allReal_meanS hx) (fun d => isReal_invstdR hx d) hg hb

theorem allReal_bnSeqK {x : Fin 100000 → Fin 128 → EReal} {g b : Fin 128 → EReal}
    (hx : AllReal2 x) (hg : AllReal1 g) (hb : AllReal1 b) : AllReal2 (bnSeqK x g b) :=
  allReal_bnApply hx (allReal_meanS hx) (fun d => isReal_invstdK hx d) hg hb

theorem allReal_bnLab {n : ℕ} {x : Fin 64 → Fin n → EReal} {g b : Fin n → EReal}
    (hx : AllReal2 x) (hg : AllReal1 g) (hb : AllReal1 b) : AllReal2 (bnLab x g b) := by
  intro i d; unfold bnLab
  exact isReal_add (isReal_mul (isReal_mul (isReal_sub (hx i d) (allReal_meanL hx d)) (isReal_invstdL hx d)) (hg d)) (hb d)

end Cert.Hgcn

end
-- ==== Proof.NetBridge.lean ====
/-
  The kernel's spelling of the network equals the reference's, for labels in range and real-valued arguments.

  Layer by layer: the label side is spelt the same; on the sequence side the indicator-row product with the precomputed label
  table is the looked-up row through the dense map (no finiteness needed), so the two layer outputs are ONE array; that array is
  real-valued (every stage maps reals to reals), and on a real-valued array E[x²] − (E x)² is the centred variance, so the two
  batch normalisations agree. The second layer repeats the argument on the first layer's normalised output.
-/
import proofs.«405200_j27075473834261_2_alg».proof.Proof.Net
import proofs.«405200_j27075473834261_2_alg».proof.Proof.SpecLemmas

noncomputable section

namespace Cert.Hgcn

variable (con : ConOpT) (lab : Fin 100000 → BitVec 32) (ℓ : Fin 100000 → Fin 64) (a : Args)

/-- The arguments are real-valued, entry by entry. -/
structure Args.Real (a : Args) : Prop where
  x : AllReal2 a.x
  xl : AllReal2 a.xl
  W1b : AllReal2 a.W1b
  b1b : AllReal1 a.b1b
  W1i : AllReal2 a.W1i
  b1i : AllReal1 a.b1i
  W1c : AllReal2 a.W1c
  b1c : AllReal1 a.b1c
  g1s : AllReal1 a.g1s
  be1s : AllReal1 a.be1s
  g1l : AllReal1 a.g1l
  be1l : AllReal1 a.be1l
  W2b : AllReal2 a.W2b
  b2b : AllReal1 a.b2b
  W2i : AllReal2 a.W2i
  b2i : AllReal1 a.b2i
  W2c : AllReal2 a.W2c
  b2c : AllReal1 a.b2c
  g2s : AllReal1 a.g2s
  be2s : AllReal1 a.be2s
  g2l : AllReal1 a.g2l
  be2l : AllReal1 a.be2l

/-- A layer's sequence side is spelt by the two programs as one array (labels in range). -/
theorem layerSeqK_eq_layerSeqR (hℓ : ∀ i, lab i = BitVec.ofNat 32 (ℓ i).val)
    (hs : Fin 100000 → Fin 128 → EReal) (hl : Fin 64 → Fin 128 → EReal)
    (Wi : Fin 128 → Fin 128 → EReal) (bi : Fin 128 → EReal) (Wc : Fin 128 → Fin 128 → EReal) (bc : Fin 128 → EReal) :
    layerSeqK con lab hs hl Wi bi Wc bc = layerSeqR con lab ℓ hs hl Wi bi Wc bc := by
  funext i j
  unfold layerSeqK layerSeqR seqOut
  rw [incK_eq_incR lab ℓ hℓ hl (labScale lab) Wi bi i j]

/-- A layer's sequence side maps real-valued arrays to a real-valued array, provided the edge operator does. -/
theorem allReal_layerSeqR (hcon : ∀ h, AllReal2 h → AllReal2 (con h))
    {hs : Fin 100000 → Fin 128 → EReal} {hl : Fin 64 → Fin 128 → EReal}
    {Wi : Fin 128 → Fin 128 → EReal} {bi : Fin 128 → EReal} {Wc : Fin 128 → Fin 128 → EReal} {bc : Fin 128 → EReal}
    (hhs : AllReal2 hs) (hhl : AllReal2 hl) (hWi : AllReal2 Wi) (hbi : AllReal1 bi) (hWc : AllReal2 Wc) (hbc : AllReal1 bc) :
    AllReal2 (layerSeqR con lab ℓ hs hl Wi bi Wc bc) :=
  allReal_seqOut (allReal_incR ℓ hhl (allReal_labScale lab) hWi hbi) (allReal_conDense (hcon hs hhs) hWc hbc)

/-- A layer's label side maps real-valued arrays to a real-valued array. -/
theorem allReal_layerLab {n : ℕ} {hs : Fin 100000 → Fin 128 → EReal} {Wb : Fin 128 → Fin n → EReal} {bb : Fin n → EReal}
    (hhs : AllReal2 hs) (hWb : AllReal2 Wb) (hbb : AllReal1 bb) : AllReal2 (layerLab lab hs Wb bb) :=
  allReal_labOut (allReal_belAgg lab hhs) (allReal_labScale lab) hWb hbb

/-- After layer 1 the two programs hold ONE sequence-side array: the layer outputs agree, are real-valued, and on a real-valued
    array the two variances agree. -/
theorem hs1K_eq_hs1R (hℓ : ∀ i, lab i = BitVec.ofNat 32 (ℓ i).val) (hcon : ∀ h, AllReal2 h → AllReal2 (con h)) (ha : a.Real) :
    hs1K con lab a = hs1R con lab ℓ a := by
  unfold hs1K hs1R
  rw [layerSeqK_eq_layerSeqR con lab ℓ hℓ]
  exact bnSeqK_eq_bnSeqR (allReal_layerSeqR con lab ℓ hcon ha.x ha.xl ha.W1i ha.b1i ha.W1c ha.b1c) _ _

/-- The sequence side after layer 1 is real-valued. -/
theorem allReal_hs1R (hcon : ∀ h, AllReal2 h → AllReal2 (con h)) (ha : a.Real) : AllReal2 (hs1R con lab ℓ a) :=
  allReal_bnSeqR (allReal_layerSeqR con lab ℓ hcon ha.x ha.xl ha.W1i ha.b1i ha.W1c ha.b1c) ha.g1s ha.be1s

/-- The label side after layer 1 is real-valued. -/
theorem allReal_hl1 (ha : a.Real) : AllReal2 (hl1 lab a) :=
  allReal_bnLab (allReal_layerLab lab ha.x ha.W1b ha.b1b) ha.g1l ha.be1l

/-- The sequence-side result: the kernel's spelling is the reference's. -/
theorem netK0_eq_netR0 (hℓ : ∀ i, lab i = BitVec.ofNat 32 (ℓ i).val) (hcon : ∀ h, AllReal2 h → AllReal2 (con h)) (ha : a.Real) :
    netK0 con lab a = netR0 con lab ℓ a := by
  unfold netK0 netR0
  rw [hs1K_eq_hs1R con lab ℓ a hℓ hcon ha, layerSeqK_eq_layerSeqR con lab ℓ hℓ]
  exact bnSeqK_eq_bnSeqR
    (allReal_layerSeqR con lab ℓ hcon (allReal_hs1R con lab ℓ a hcon ha) (allReal_hl1 lab a ha) ha.W2i ha.b2i ha.W2c ha.b2c) _ _

/-- The label-side result: the kernel's spelling is the reference's. -/
theorem netK1_eq_netR1 (hℓ : ∀ i, lab i = BitVec.ofNat 32 (ℓ i).val) (hcon : ∀ h, AllReal2 h → AllReal2 (con h)) (ha : a.Real) :
    netK1 con lab a = netR1 con lab ℓ a := by
  unfold netK1 netR1
  rw [hs1K_eq_hs1R con lab ℓ a hℓ hcon ha]

end Cert.Hgcn

end
-- ==== Proof.NetArgs.lean ====
/-
  The programs' 22 float argument arrays read as the network's matrices and vectors, the label column as words, and the
  real-valuedness of the arguments carried over to that reading.
-/
import proofs.«405200_j27075473834261_2_alg».proof.Proof.Net
import proofs.«405200_j27075473834261_2_alg».proof.Proof.NetBridge
import proofs.«405200_j27075473834261_2_alg».proof.Proof.ConOp

noncomputable section

namespace Cert.Hgcn

open Idealize.ShloMosaic Idealize.ShloMosaic.ValueIdx

/-- The 22 float arguments as matrices and vectors, in the programs' argument order. -/
def argsOfArr (x0 : (⟨2, ![100000, 128]⟩ : Shape).Idx → EReal) (x1 : (⟨2, ![64, 128]⟩ : Shape).Idx → EReal) (x2 : (⟨2, ![128, 128]⟩ : Shape).Idx → EReal) (x3 : (⟨1, ![128]⟩ : Shape).Idx → EReal) (x4 : (⟨2, ![128, 128]⟩ : Shape).Idx → EReal) (x5 : (⟨1, ![128]⟩ : Shape).Idx → EReal) (x6 : (⟨2, ![128, 128]⟩ : Shape).Idx → EReal) (x7 : (⟨1, ![128]⟩ : Shape).Idx → EReal) (x8 : (⟨1, ![128]⟩ : Shape).Idx → EReal) (x9 : (⟨1, ![128]⟩ : Shape).Idx → EReal) (x10 : (⟨1, ![128]⟩ : Shape).Idx → EReal) (x11 : (⟨1, ![128]⟩ : Shape).Idx → EReal) (x12 : (⟨2, ![128, 64]⟩ : Shape).Idx → EReal) (x13 : (⟨1, ![64]⟩ : Shape).Idx → EReal) (x14 : (⟨2, ![128, 128]⟩ : Shape).Idx → EReal) (x15 : (⟨1, ![128]⟩ : Shape).Idx → EReal) (x16 : (⟨2, ![128, 128]⟩ : Shape).Idx → EReal) (x17 : (⟨1, ![128]⟩ : Shape).Idx → EReal) (x18 : (⟨1, ![128]⟩ : Shape).Idx → EReal) (x19 : (⟨1, ![128]⟩ : Shape).Idx → EReal) (x20 : (⟨1, ![64]⟩ : Shape).Idx → EReal) (x21 : (⟨1, ![64]⟩ : Shape).Idx → EReal) : Args where
  x := ofArr x0
  xl := ofArr x1
  W1b := ofArr x2
  b1b := ofArr1 x3
  W1i := ofArr x4
  b1i := ofArr1 x5
  W1c := ofArr x6
  b1c := ofArr1 x7
  g1s := ofArr1 x8
  be1s := ofArr1 x9
  g1l := ofArr1 x10
  be1l := ofArr1 x11
  W2b := ofArr x12
  b2b := ofArr1 x13
  W2i := ofArr x14
  b2i := ofArr1 x15
  W2c := ofArr x16
  b2c := ofArr1 x17
  g2s := ofArr1 x18
  be2s := ofArr1 x19
  g2l := ofArr1 x20
  be2l := ofArr1 x21

/-- The label words as a function of the node. -/
def labOfArr (x22 : (⟨1, ![100000]⟩ : Shape).Idx → BitVec 32) (i : Fin 100000) : BitVec 32 := x22 (ix1 i)

/-- Real-valued argument arrays give real-valued matrices and vectors. -/
theorem argsOfArr_real (x0 : (⟨2, ![100000, 128]⟩ : Shape).Idx → EReal) (x1 : (⟨2, ![64, 128]⟩ : Shape).Idx → EReal) (x2 : (⟨2, ![128, 128]⟩ : Shape).Idx → EReal) (x3 : (⟨1, ![128]⟩ : Shape).Idx → EReal) (x4 : (⟨2, ![128, 128]⟩ : Shape).Idx → EReal) (x5 : (⟨1, ![128]⟩ : Shape).Idx → EReal) (x6 : (⟨2, ![128, 128]⟩ : Shape).Idx → EReal) (x7 : (⟨1, ![128]⟩ : Shape).Idx → EReal) (x8 : (⟨1, ![128]⟩ : Shape).Idx → EReal) (x9 : (⟨1, ![128]⟩ : Shape).Idx → EReal) (x10 : (⟨1, ![128]⟩ : Shape).Idx → EReal) (x11 : (⟨1, ![128]⟩ : Shape).Idx → EReal) (x12 : (⟨2, ![128, 64]⟩ : Shape).Idx → EReal) (x13 : (⟨1, ![64]⟩ : Shape).Idx → EReal) (x14 : (⟨2, ![128, 128]⟩ : Shape).Idx → EReal) (x15 : (⟨1, ![128]⟩ : Shape).Idx → EReal) (x16 : (⟨2, ![128, 128]⟩ : Shape).Idx → EReal) (x17 : (⟨1, ![128]⟩ : Shape).Idx → EReal) (x18 : (⟨1, ![128]⟩ : Shape).Idx → EReal) (x19 : (⟨1, ![128]⟩ : Shape).Idx → EReal) (x20 : (⟨1, ![64]⟩ : Shape).Idx → EReal) (x21 : (⟨1, ![64]⟩ : Shape).Idx → EReal)
    (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) (h13 : ∀ i, IsReal (x13 i)) (h14 : ∀ i, IsReal (x14 i)) (h15 : ∀ i, IsReal (x15 i)) (h16 : ∀ i, IsReal (x16 i)) (h17 : ∀ i, IsReal (x17 i)) (h18 : ∀ i, IsReal (x18 i)) (h19 : ∀ i, IsReal (x19 i)) (h20 : ∀ i, IsReal (x20 i)) (h21 : ∀ i, IsReal (x21 i)) :
    (argsOfArr x0 x1 x2 x3 x4 x5 x6 x7 x8 x9 x10 x11 x12 x13 x14 x15 x16 x17 x18 x19 x20 x21).Real where
  x := fun i j => h0 _
  xl := fun i j => h1 _
  W1b := fun i j => h2 _
  b1b := fun i => h3 _
  W1i := fun i j => h4 _
  b1i := fun i => h5 _
  W1c := fun i j => h6 _
  b1c := fun i => h7 _
  g1s := fun i => h8 _
  be1s := fun i => h9 _
  g1l := fun i => h10 _
  be1l := fun i => h11 _
  W2b := fun i j => h12 _
  b2b := fun i => h13 _
  W2i := fun i j => h14 _
  b2i := fun i => h15 _
  W2c := fun i j => h16 _
  b2c := fun i => h17 _
  g2s := fun i => h18 _
  be2s := fun i => h19 _
  g2l := fun i => h20 _
  be2l := fun i => h21 _

end Cert.Hgcn

end
-- ==== Proof.KI.NetVal.lean ====
/-
  The program's two results as functions of its arguments, at the extended reals.

  The buffers between the program's twenty items are followed one at a time: each pipeline's result array is the specification's
  function of the arrays the pipeline entered with, each host stretch's buffer the specification's function of the buffers it
  reads; a buffer no item in between writes keeps what it held. Composed in program order — aggregation by label, the
  "connected to" aggregate and the "including" table, the combination, the column statistics, mean and inverse deviation, the
  normalisation, the label side's normalisation, and the same again for the second layer — the sequence-side result is the
  network's sequence output and the label-side result its label output, in the spelling with the indicator product and the
  variance E[x²] − (E x)².

  Every step is stated over matrices and vectors (an array read at its coordinates), so that the steps chain by rewriting.
-/
import proofs.«405200_j27075473834261_2_alg».proof.Proof.KI.Chain
import proofs.«405200_j27075473834261_2_alg».proof.Proof.KI.HostV
import proofs.«405200_j27075473834261_2_alg».proof.Proof.KI.HostVal
import proofs.«405200_j27075473834261_2_alg».proof.Proof.KI.Region0Val
import proofs.«405200_j27075473834261_2_alg».proof.Proof.KI.Region1Val
import proofs.«405200_j27075473834261_2_alg».proof.Proof.KI.Region2Val
import proofs.«405200_j27075473834261_2_alg».proof.Proof.KI.Region3Val
import proofs.«405200_j27075473834261_2_alg».proof.Proof.KI.Region4Val
import proofs.«405200_j27075473834261_2_alg».proof.Proof.KI.Region5Val
import proofs.«405200_j27075473834261_2_alg».proof.Proof.KI.Region6Val
import proofs.«405200_j27075473834261_2_alg».proof.Proof.KI.Region7Val
import proofs.«405200_j27075473834261_2_alg».proof.Proof.NetArgs

set_option maxRecDepth 16384

noncomputable section

open scoped BigOperators

namespace Cert.KernelIdeal.Hand

open Cert.KernelIdeal Cert.KernelIdeal.Gen Cert.Hgcn
open Idealize.ShloMosaic Idealize.ShloMosaic.TcCoe Idealize.ShloMosaic.StableHlo Idealize.ShloMosaic.ValueIdx
open Idealize.ShloMosaic.Pipeline (Dat)

/-! ## The specification's functions respect equality of their arguments -/

/-- The label side of a layer from its five ingredients. -/
theorem layerLab_of {n : ℕ} {L L' : Fin 100000 → BitVec 32} {X X' : Fin 100000 → Fin 128 → EReal} {S : Fin 64 → EReal}
    {W W' : Fin 128 → Fin n → EReal} {B B' : Fin n → EReal}
    (hL : L = L') (hX : X = X') (hS : S = labScale L') (hW : W = W') (hB : B = B') :
    labOut (belAgg L X) S W B = layerLab L' X' W' B' := by
  subst hL hX hS hW hB; rfl

/-- The sequence side of a layer from its six ingredients: the table is the "including" table of the label features, the
    aggregate the edge operator of the sequence features. -/
theorem layerSeqK_of (con : ConOpT) {L L' : Fin 100000 → BitVec 32} {M : Fin 64 → Fin 128 → EReal} {bi bi' : Fin 128 → EReal}
    {C : Fin 100000 → Fin 128 → EReal} {Wc Wc' : Fin 128 → Fin 128 → EReal} {bc bc' : Fin 128 → EReal}
    {hs : Fin 100000 → Fin 128 → EReal} {hl : Fin 64 → Fin 128 → EReal} {Wi : Fin 128 → Fin 128 → EReal}
    (hL : L = L') (hM : M = incTable hl (labScale L') Wi) (hbi : bi = bi') (hC : C = con hs) (hWc : Wc = Wc') (hbc : bc = bc') :
    seqOut (incK L M bi) (conDense C Wc bc) = layerSeqK con L' hs hl Wi bi' Wc' bc' := by
  subst hL hM hbi hC hWc hbc; rfl

/-- The normalisation of the sequence side from its five ingredients: the mean row and the inverse-deviation row are those of
    the matrix itself. -/
theorem bnSeqK_of {x x' : Fin 100000 → Fin 128 → EReal} {mean istd g g' b b' : Fin 128 → EReal}
    (hx : x = x') (hm : mean = meanS x') (hi : istd = fun d => Ideal.rsqrt (varK x' d + bnEps)) (hg : g = g') (hb : b = b') :
    bnApply x mean istd g b = bnSeqK x' g' b' := by
  subst hx hm hi hg hb; rfl

/-- The label side's normalisation as one matrix. -/
theorem bnLabOp_arr {n : ℕ} (hn : n ≠ 1) (hr : (SLv n).ReducesTo [0] (Sv n)) (hR : (SLv n).Reduces [0] (Sv n)) (hS : 0 < Sc.numel)
    (hb : Sc.BroadcastsInDim (Sv n) (![] : Fin 0 → Fin (Sv n).rank))
    (h1 : (Sv n).BroadcastsInDim (S1v n) (![1] : Fin 1 → Fin (S1v n).rank))
    (h2 : (S1v n).BroadcastsInDim (SLv n) (![0, 1] : Fin 2 → Fin (SLv n).rank))
    (x : FVec Ideal (SLv n) .f32) (g b : FVec Ideal (Sv n) .f32) :
    ofArr (bnLabOp hr hS hb h1 h2 x g b) = bnLab (ofArr x) (ofArr1 g) (ofArr1 b) :=
  funext fun l => funext fun k => bnLabOp_apply hn hr hR hS hb h1 h2 x g b l k

variable (m : (ℓ : Loc nD τ sig) → Buf (Elt Ideal) ℓ) (c : Dev nD)

/-! ## The references no item writes -/

/-- A reference that no host stretch and no pipeline before the last stretch writes. -/
abbrev Untouched (r : Ref sig .tc) : Prop :=
  r ∉ hostOps0_W ∧ r ∉ hostOps0_1_W ∧ r ∉ hostOps0_2_W ∧ r ∉ hostOps0_3_W ∧ r ∉ hostOps0_4_W ∧ r ∉ hostOps0_5_W
    ∧ r ≠ main_v31 ∧ r ∉ hostOps1_W ∧ r ≠ main_v51 ∧ r ≠ main_v52_0 ∧ r ≠ main_v52_1 ∧ r ∉ hostOps3_W ∧ r ≠ main_v62
    ∧ r ∉ hostOps4_W ∧ r ≠ main_v88 ∧ r ∉ hostOps5_W ∧ r ≠ main_v108 ∧ r ≠ main_v109_0 ∧ r ≠ main_v109_1 ∧ r ∉ hostOps7_W

/-- Such a reference holds its launch contents when the first aggregation is entered, -/
theorem keep6 (r : Ref sig .tc) (h : Untouched r) : X6 m c r = X0 m c r := by
  obtain ⟨a0, a1, a2, a3, a4, a5, -⟩ := id h
  exact (V6_of m c r a5).trans <| (V5_of m c r a4).trans <| (V4_of m c r a3).trans <| (V3_of m c r a2).trans <|
    (V2_of m c r a1).trans <| V1_of m c r a0
/-- when the first combination is entered, -/
theorem keep8 (r : Ref sig .tc) (h : Untouched r) : X8 m c r = X0 m c r := by
  obtain ⟨-, -, -, -, -, -, a6, a7, -⟩ := id h
  exact (StableHlo.after_of_writes_sub hostOps1 _ hostOps1_writes a7).trans <| (X7_of_ne m c r a6).trans (keep6 m c r h)
/-- when the first normalisation is entered, -/
theorem keep11 (r : Ref sig .tc) (h : Untouched r) : X11 m c r = X0 m c r := by
  obtain ⟨-, -, -, -, -, -, -, -, a8, a9, a10, a11, -⟩ := id h
  exact (StableHlo.after_of_writes_sub hostOps3 _ hostOps3_writes a11).trans <| (X10_of_ne m c r a9 a10).trans <|
    (X9_of_ne m c r a8).trans (keep8 m c r h)
/-- when the second aggregation is entered, -/
theorem keep13 (r : Ref sig .tc) (h : Untouched r) : X13 m c r = X0 m c r := by
  obtain ⟨-, -, -, -, -, -, -, -, -, -, -, -, a12, a13, -⟩ := id h
  exact (StableHlo.after_of_writes_sub hostOps4 _ hostOps4_writes a13).trans <| (X12_of_ne m c r a12).trans (keep11 m c r h)
/-- when the second combination is entered, -/
theorem keep15 (r : Ref sig .tc) (h : Untouched r) : X15 m c r = X0 m c r := by
  obtain ⟨-, -, -, -, -, -, -, -, -, -, -, -, -, -, a14, a15, -⟩ := id h
  exact (StableHlo.after_of_writes_sub hostOps5 _ hostOps5_writes a15).trans <| (X14_of_ne m c r a14).trans (keep13 m c r h)
/-- and when the second normalisation is entered. -/
theorem keep18 (r : Ref sig .tc) (h : Untouched r) : X18 m c r = X0 m c r := by
  obtain ⟨-, -, -, -, -, -, -, -, -, -, -, -, -, -, -, -, a16, a17, a18, a19⟩ := id h
  exact (StableHlo.after_of_writes_sub hostOps7 _ hostOps7_writes a19).trans <| (X17_of_ne m c r a17 a18).trans <|
    (X16_of_ne m c r a16).trans (keep15 m c r h)

/-! ## The valuations here are the generated ones at the pipelines' exact outputs -/

theorem toV8 (r : DevRef τ sig) : X8 m c r = V8 m (outsE m) c r := (congrFun (V8_eq m c) r).symm
theorem toV11 (r : DevRef τ sig) : X11 m c r = V11 m (outsE m) c r := (congrFun (V11_eq m c) r).symm
theorem toV13 (r : DevRef τ sig) : X13 m c r = V13 m (outsE m) c r := (congrFun (V13_eq m c) r).symm
theorem toV15 (r : DevRef τ sig) : X15 m c r = V15 m (outsE m) c r := (congrFun (V15_eq m c) r).symm
theorem toV18 (r : DevRef τ sig) : X18 m c r = V18 m (outsE m) c r := (congrFun (V18_eq m c) r).symm
theorem toV20 (r : DevRef τ sig) : X20 m c r = V20 m (outsE m) c r := (congrFun (V20_eq m c) r).symm

/-! ## The network's ingredients, read off the launch arrays -/

/-- The label words of the 100000 sequence nodes. -/
abbrev labK : Fin 100000 → BitVec 32 := labOfArr (m ((c.tc : Thread nD τ).loc main_arg22))
/-- The edge relation's operator on node features. -/
abbrev conK : ConOpT := conOpI conDimsK (m ((c.tc : Thread nD τ).loc main_arg23)) (m ((c.tc : Thread nD τ).loc main_arg24))
/-- The 22 float arguments as matrices and vectors. -/
abbrev argsK : Args :=
  argsOfArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))

/-- Layer 1's sequence side, before its normalisation. -/
abbrev seq1K : Fin 100000 → Fin 128 → EReal :=
  layerSeqK (conK m c) (labK m c) (argsK m c).x (argsK m c).xl (argsK m c).W1i (argsK m c).b1i (argsK m c).W1c (argsK m c).b1c
/-- Layer 1's sequence side, normalised. -/
abbrev hs1KK : Fin 100000 → Fin 128 → EReal := hs1K (conK m c) (labK m c) (argsK m c)
/-- Layer 1's label side, normalised. -/
abbrev hl1K : Fin 64 → Fin 128 → EReal := hl1 (labK m c) (argsK m c)
/-- Layer 2's sequence side, before its normalisation. -/
abbrev seq2K : Fin 100000 → Fin 128 → EReal :=
  layerSeqK (conK m c) (labK m c) (hs1KK m c) (hl1K m c) (argsK m c).W2i (argsK m c).b2i (argsK m c).W2c (argsK m c).b2c

/-! ## The label column and the scale column, wherever a pipeline reads them -/

theorem lab6 (i : Fin 100000) : (T6 m c main_v0 : IVec S100000x1 32) (ix2 i (0 : Fin 1)) = labK m c i :=
  (congrFun (V6_main_v0 m c) (ix2 i 0)).trans (labCol_apply (arg22 m c) i 0)
theorem lab8 (i : Fin 100000) : (T8 m c main_v0 : IVec S100000x1 32) (ix2 i (0 : Fin 1)) = labK m c i :=
  (congrFun ((toV8 m c (Proc.devRef .tc main_v0)).trans (V8_main_v0 m (outsE m) c)) (ix2 i 0)).trans (labCol_apply (arg22 m c) i 0)
theorem lab13 (i : Fin 100000) : (T13 m c main_v0 : IVec S100000x1 32) (ix2 i (0 : Fin 1)) = labK m c i :=
  (congrFun ((toV13 m c (Proc.devRef .tc main_v0)).trans (V13_main_v0 m (outsE m) c)) (ix2 i 0)).trans (labCol_apply (arg22 m c) i 0)
theorem lab15 (i : Fin 100000) : (T15 m c main_v0 : IVec S100000x1 32) (ix2 i (0 : Fin 1)) = labK m c i :=
  (congrFun ((toV15 m c (Proc.devRef .tc main_v0)).trans (V15_main_v0 m (outsE m) c)) (ix2 i 0)).trans (labCol_apply (arg22 m c) i 0)

variable (ℓ : Fin 100000 → Fin 64) (hℓ : ∀ i, labOfArr (m ((c.tc : Thread nD τ).loc main_arg22)) i = BitVec.ofNat 32 (ℓ i).val)
include hℓ

theorem scale6 (l : Fin 64) : (T6 m c main_v11 : FVec Ideal S64x1 .f32) (ix2 l (0 : Fin 1)) = labScale (labK m c) l :=
  (congrFun (V6_main_v11 m c) (ix2 l 0)).trans (labScaleOf_apply (arg22 m c) ℓ hℓ l 0)
theorem scale13 (l : Fin 64) : (T13 m c main_v11 : FVec Ideal S64x1 .f32) (ix2 l (0 : Fin 1)) = labScale (labK m c) l :=
  (congrFun ((toV13 m c (Proc.devRef .tc main_v11)).trans (V13_main_v11 m (outsE m) c)) (ix2 l 0)).trans
    (labScaleOf_apply (arg22 m c) ℓ hℓ l 0)

/-! ## The first layer -/

/-- After the first aggregation: the label side of layer 1. -/
theorem X7_v31_val :
    ofArr (T7 m c main_v31 : FVec Ideal S64x128 .f32) = layerLab (labK m c) (argsK m c).x (argsK m c).W1b (argsK m c).b1b := by
  funext l j
  exact (congrFun (X7_out m c) (ix2 l j)).trans ((region0_val (T6 m) c l j).trans (congrFun (congrFun (layerLab_of
    (funext fun i => lab6 m c i)
    (funext fun i => funext fun k => congrFun (keep6 m c main_arg0 (by decide)) (ix2 i k))
    (funext fun l' => scale6 m c ℓ hℓ l')
    (funext fun k => funext fun j' => congrFun (keep6 m c main_arg2 (by decide)) (ix2 k j'))
    (funext fun j' => congrFun (keep6 m c main_arg3 (by decide)) (ix1 j'))) l) j))

/-- The edge operator's aggregate of the input features. -/
theorem X8_v47_val : ofArr (T8 m c main_v47 : FVec Ideal S100000x128 .f32) = conK m c (argsK m c).x := by
  funext i k
  exact (congrFun ((toV8 m c (Proc.devRef .tc main_v47)).trans (V8_main_v47 m (outsE m) c)) (ix2 i k)).trans
    (conOp_apply conDimsK (arg23 m c) (arg24 m c) (arg0 m c) i k)

/-- The "including" table of layer 1. -/
theorem X8_v50_val :
    ofArr (T8 m c main_v50 : FVec Ideal S64x128 .f32) = incTable (argsK m c).xl (labScale (labK m c)) (argsK m c).W1i := by
  funext l j
  exact (congrFun ((toV8 m c (Proc.devRef .tc main_v50)).trans (V8_main_v50 m (outsE m) c)) (ix2 l j)).trans
    (incTableOf_labScale_apply (arg22 m c) ℓ hℓ (arg1 m c) (arg4 m c) l j)

/-- After the first combination: the sequence side of layer 1. -/
theorem X9_v51_val :
    ofArr (T9 m c main_v51 : FVec Ideal S100000x128 .f32)
      = layerSeqK (conK m c) (labK m c) (argsK m c).x (argsK m c).xl (argsK m c).W1i (argsK m c).b1i (argsK m c).W1c (argsK m c).b1c := by
  funext i j
  exact (congrFun (X9_out m c) (ix2 i j)).trans ((combine1_apply (T8 m) c i j).trans (congrFun (congrFun (layerSeqK_of (conK m c)
    (funext fun r => lab8 m c r)
    (X8_v50_val m c ℓ hℓ)
    (funext fun k => congrFun (keep8 m c main_arg5 (by decide)) (ix1 k))
    (X8_v47_val m c ℓ hℓ)
    (funext fun k => funext fun n => congrFun (keep8 m c main_arg6 (by decide)) (ix2 k n))
    (funext fun k => congrFun (keep8 m c main_arg7 (by decide)) (ix1 k))) i) j))

/-- The column sums of layer 1's sequence side. -/
theorem X10_sum_val (d : Fin 128) :
    (T10 m c main_v52_0 : FVec Ideal S1x128 .f32) (ix2 (0 : Fin 1) d)
      = colSum (layerSeqK (conK m c) (labK m c) (argsK m c).x (argsK m c).xl (argsK m c).W1i (argsK m c).b1i (argsK m c).W1c (argsK m c).b1c) d :=
  (congrFun (X10_out0 m c) (ix2 0 d)).trans ((sum2_val (T9 m) c d).trans (congrArg (fun x => colSum x d) (X9_v51_val m c ℓ hℓ)))
/-- The column sums of squares of layer 1's sequence side. -/
theorem X10_sq_val (d : Fin 128) :
    (T10 m c main_v52_1 : FVec Ideal S1x128 .f32) (ix2 (0 : Fin 1) d)
      = colSumSq (layerSeqK (conK m c) (labK m c) (argsK m c).x (argsK m c).xl (argsK m c).W1i (argsK m c).b1i (argsK m c).W1c (argsK m c).b1c) d :=
  (congrFun (X10_out1 m c) (ix2 0 d)).trans ((sq2_val (T9 m) c d).trans (congrArg (fun x => colSumSq x d) (X9_v51_val m c ℓ hℓ)))

/-- The column means the first normalisation reads. -/
theorem X11_v54_val (d : Fin 128) : (T11 m c main_v54 : FVec Ideal S1x128 .f32) (ix2 (0 : Fin 1) d) = meanS (seq1K m c) d :=
  (congrFun ((toV11 m c (Proc.devRef .tc main_v54)).trans (V11_main_v54 m (outsE m) c)) (ix2 0 d)).trans
    (meanOf_colSum (seq1K m c) (T10 m c main_v52_0) 0 d (X10_sum_val m c ℓ hℓ d))
/-- The inverse deviations the first normalisation reads. -/
theorem X11_v61_val (d : Fin 128) :
    (T11 m c main_v61 : FVec Ideal S1x128 .f32) (ix2 (0 : Fin 1) d) = Ideal.rsqrt (varK (seq1K m c) d + bnEps) :=
  (congrFun ((toV11 m c (Proc.devRef .tc main_v61)).trans (V11_main_v61 m (outsE m) c)) (ix2 0 d)).trans
    (invStdOf_colSum (seq1K m c) (T10 m c main_v52_0) (T10 m c main_v52_1) 0 d (X10_sum_val m c ℓ hℓ d) (X10_sq_val m c ℓ hℓ d))
/-- The first normalisation reads the combination's result as it was left. -/
theorem X11_v51_val : ofArr (T11 m c main_v51 : FVec Ideal S100000x128 .f32) = seq1K m c := by
  funext i k
  exact (congrFun ((toV11 m c (Proc.devRef .tc main_v51)).trans (V11_main_v51 m (outsE m) c)) (ix2 i k)).trans
    (congrFun (congrFun (X9_v51_val m c ℓ hℓ) i) k)

/-- After the first normalisation: layer 1's sequence side, normalised. -/
theorem X12_v62_val : ofArr (T12 m c main_v62 : FVec Ideal S100000x128 .f32) = hs1KK m c := by
  funext i d
  exact (congrFun (X12_out m c) (ix2 i d)).trans ((bnApply3_val (T11 m) c i d).trans (congrFun (congrFun (bnSeqK_of
    (X11_v51_val m c ℓ hℓ)
    (funext fun k => X11_v54_val m c ℓ hℓ k)
    (funext fun k => X11_v61_val m c ℓ hℓ k)
    (funext fun k => congrFun (keep11 m c main_arg8 (by decide)) (ix1 k))
    (funext fun k => congrFun (keep11 m c main_arg9 (by decide)) (ix1 k))) i) d))

/-- The label side's normalisation of layer 1, as one matrix, over what the first aggregation left. -/
theorem hl1_arr (hr : (SLv 128).ReducesTo [0] (Sv 128)) (hS : 0 < Sc.numel)
    (hb : Sc.BroadcastsInDim (Sv 128) (![] : Fin 0 → Fin (Sv 128).rank))
    (h1 : (Sv 128).BroadcastsInDim (S1v 128) (![1] : Fin 1 → Fin (S1v 128).rank))
    (h2 : (S1v 128).BroadcastsInDim (SLv 128) (![0, 1] : Fin 2 → Fin (SLv 128).rank)) :
    ofArr (bnLabOp (n := 128) hr hS hb h1 h2 (outsE m 7 main_v31 c) (arg10 m c) (arg11 m c)) = hl1K m c :=
  (bnLabOp_arr (by decide) hr (by decide) hS hb h1 h2 _ _ _).trans
    (congrArg (fun x => bnLab x (ofArr1 (arg10 m c)) (ofArr1 (arg11 m c))) (X7_v31_val m c ℓ hℓ))

/-- Layer 1's label side, normalised. -/
theorem X13_v87_val : ofArr (T13 m c main_v87 : FVec Ideal S64x128 .f32) = hl1K m c := by
  funext l k
  exact (congrFun ((toV13 m c (Proc.devRef .tc main_v87)).trans (V13_main_v87 m (outsE m) c)) (ix2 l k)).trans
    (congrFun (congrFun (hl1_arr m c ℓ hℓ _ _ _ _ _) l) k)
/-- The second aggregation reads the first normalisation's result as it was left. -/
theorem X13_v62_val : ofArr (T13 m c main_v62 : FVec Ideal S100000x128 .f32) = hs1KK m c := by
  funext i k
  exact (congrFun ((toV13 m c (Proc.devRef .tc main_v62)).trans (V13_main_v62 m (outsE m) c)) (ix2 i k)).trans
    (congrFun (congrFun (X12_v62_val m c ℓ hℓ) i) k)

/-! ## The second layer -/

/-- After the second aggregation: the label side of layer 2. -/
theorem X14_v88_val :
    ofArr (T14 m c main_v88 : FVec Ideal S64x64 .f32) = layerLab (labK m c) (hs1KK m c) (argsK m c).W2b (argsK m c).b2b := by
  funext l j
  exact (congrFun (X14_out m c) (ix2 l j)).trans ((region4_val (T13 m) c l j).trans (congrFun (congrFun (layerLab_of
    (funext fun i => lab13 m c i)
    (X13_v62_val m c ℓ hℓ)
    (funext fun l' => scale13 m c ℓ hℓ l')
    (funext fun k => funext fun j' => congrFun (keep13 m c main_arg12 (by decide)) (ix2 k j'))
    (funext fun j' => congrFun (keep13 m c main_arg13 (by decide)) (ix1 j'))) l) j))

/-- The edge operator's aggregate of layer 1's normalised sequence features. -/
theorem X15_v104_val : ofArr (T15 m c main_v104 : FVec Ideal S100000x128 .f32) = conK m c (hs1KK m c) := by
  funext i k
  exact (congrFun ((toV15 m c (Proc.devRef .tc main_v104)).trans (V15_main_v104 m (outsE m) c)) (ix2 i k)).trans
    ((conOp_apply conDimsK (arg23 m c) (arg24 m c) (outsE m 12 main_v62 c) i k).trans
      (congrArg (fun x => conK m c x i k) (X12_v62_val m c ℓ hℓ)))

/-- The "including" table of layer 2. -/
theorem X15_v107_val :
    ofArr (T15 m c main_v107 : FVec Ideal S64x128 .f32) = incTable (hl1K m c) (labScale (labK m c)) (argsK m c).W2i := by
  funext l j
  exact (congrFun ((toV15 m c (Proc.devRef .tc main_v107)).trans (V15_main_v107 m (outsE m) c)) (ix2 l j)).trans
    ((incTableOf_labScale_apply (arg22 m c) ℓ hℓ _ (arg14 m c) l j).trans
      (congrArg (fun x => incTable x (labScale (labK m c)) (argsK m c).W2i l j) (hl1_arr m c ℓ hℓ _ _ _ _ _)))

/-- After the second combination: the sequence side of layer 2. -/
theorem X16_v108_val : ofArr (T16 m c main_v108 : FVec Ideal S100000x128 .f32) = seq2K m c := by
  funext i j
  exact (congrFun (X16_out m c) (ix2 i j)).trans ((combine5_apply (T15 m) c i j).trans (congrFun (congrFun (layerSeqK_of (conK m c)
    (funext fun r => lab15 m c r)
    (X15_v107_val m c ℓ hℓ)
    (funext fun k => congrFun (keep15 m c main_arg15 (by decide)) (ix1 k))
    (X15_v104_val m c ℓ hℓ)
    (funext fun k => funext fun n => congrFun (keep15 m c main_arg16 (by decide)) (ix2 k n))
    (funext fun k => congrFun (keep15 m c main_arg17 (by decide)) (ix1 k))) i) j))

/-- The column sums of layer 2's sequence side. -/
theorem X17_sum_val (d : Fin 128) : (T17 m c main_v109_0 : FVec Ideal S1x128 .f32) (ix2 (0 : Fin 1) d) = colSum (seq2K m c) d :=
  (congrFun (X17_out0 m c) (ix2 0 d)).trans ((sum6_val (T16 m) c d).trans (congrArg (fun x => colSum x d) (X16_v108_val m c ℓ hℓ)))
/-- The column sums of squares of layer 2's sequence side. -/
theorem X17_sq_val (d : Fin 128) : (T17 m c main_v109_1 : FVec Ideal S1x128 .f32) (ix2 (0 : Fin 1) d) = colSumSq (seq2K m c) d :=
  (congrFun (X17_out1 m c) (ix2 0 d)).trans ((sq6_val (T16 m) c d).trans (congrArg (fun x => colSumSq x d) (X16_v108_val m c ℓ hℓ)))

/-- The column means the second normalisation reads. -/
theorem X18_v111_val (d : Fin 128) : (T18 m c main_v111 : FVec Ideal S1x128 .f32) (ix2 (0 : Fin 1) d) = meanS (seq2K m c) d :=
  (congrFun ((toV18 m c (Proc.devRef .tc main_v111)).trans (V18_main_v111 m (outsE m) c)) (ix2 0 d)).trans
    (meanOf_colSum (seq2K m c) (T17 m c main_v109_0) 0 d (X17_sum_val m c ℓ hℓ d))
/-- The inverse deviations the second normalisation reads. -/
theorem X18_v118_val (d : Fin 128) :
    (T18 m c main_v118 : FVec Ideal S1x128 .f32) (ix2 (0 : Fin 1) d) = Ideal.rsqrt (varK (seq2K m c) d + bnEps) :=
  (congrFun ((toV18 m c (Proc.devRef .tc main_v118)).trans (V18_main_v118 m (outsE m) c)) (ix2 0 d)).trans
    (invStdOf_colSum (seq2K m c) (T17 m c main_v109_0) (T17 m c main_v109_1) 0 d (X17_sum_val m c ℓ hℓ d) (X17_sq_val m c ℓ hℓ d))
/-- The second normalisation reads the second combination's result as it was left. -/
theorem X18_v108_val : ofArr (T18 m c main_v108 : FVec Ideal S100000x128 .f32) = seq2K m c := by
  funext i k
  exact (congrFun ((toV18 m c (Proc.devRef .tc main_v108)).trans (V18_main_v108 m (outsE m) c)) (ix2 i k)).trans
    (congrFun (congrFun (X16_v108_val m c ℓ hℓ) i) k)

/-! ## The two results -/

/-- THE SEQUENCE-SIDE RESULT: what the second normalisation leaves is the network's sequence output. -/
theorem kernel_out0 (i : Fin 100000) (j : Fin 128) :
    X20 m c main_v119 (ValueIdx.ix2 i j)
      = Cert.Hgcn.netK0 (conOpI conDimsK (m ((c.tc : Thread nD τ).loc main_arg23)) (m ((c.tc : Thread nD τ).loc main_arg24))) (labOfArr (m ((c.tc : Thread nD τ).loc main_arg22)))
        (argsOfArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) i j :=
  (congrFun (X20_main_v119 m c) (ix2 i j)).trans ((bnApply7_val (T18 m) c i j).trans (congrFun (congrFun (bnSeqK_of
    (X18_v108_val m c ℓ hℓ)
    (funext fun k => X18_v111_val m c ℓ hℓ k)
    (funext fun k => X18_v118_val m c ℓ hℓ k)
    (funext fun k => congrFun (keep18 m c main_arg18 (by decide)) (ix1 k))
    (funext fun k => congrFun (keep18 m c main_arg19 (by decide)) (ix1 k))) i) j))

/-- THE LABEL-SIDE RESULT: the last host stretch's normalisation of the second aggregation's result is the network's label
    output. -/
theorem kernel_out1 (l j : Fin 64) :
    X20 m c main_v144 (ValueIdx.ix2 l j)
      = Cert.Hgcn.netK1 (conOpI conDimsK (m ((c.tc : Thread nD τ).loc main_arg23)) (m ((c.tc : Thread nD τ).loc main_arg24))) (labOfArr (m ((c.tc : Thread nD τ).loc main_arg22)))
        (argsOfArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) l j :=
  (congrFun ((toV20 m c (Proc.devRef .tc main_v144)).trans (V20_main_v144 m (outsE m) c)) (ix2 l j)).trans
    ((congrFun (congrFun (bnLabOp_arr (n := 64) (by decide) _ (by decide) _ _ _ _ (outsE m 14 main_v88 c) (arg20 m c) (arg21 m c)) l) j).trans
      (congrArg (fun x => bnLab x (ofArr1 (arg20 m c)) (ofArr1 (arg21 m c)) l j) (X14_v88_val m c ℓ hℓ)))

end Cert.KernelIdeal.Hand

end
-- ==== Proof.Ref.Common.lean ====
/-
  The reference's label words as a function of the node, the reference's dimension records of the "connected to" chain, and the small
  tactic that identifies a composed index map of a broadcast, a contraction or a column sum with the index it is, coordinate by
  coordinate. Arrays are read as matrices and vectors by `ofArr` and `ofArr1`.
-/
import proofs.«405200_j27075473834261_2_alg».proof.Proof.RefReadCore
import proofs.«405200_j27075473834261_2_alg».proof.Proof.SegmentSum
import proofs.«405200_j27075473834261_2_alg».proof.Proof.ConOp
import proofs.«405200_j27075473834261_2_alg».proof.Proof.Net
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

/-- The label words as a function of the node. -/
def labOf (x22 : (⟨1, ![100000]⟩ : Shape).Idx → BitVec 32) (i : Fin 100000) : BitVec 32 := x22 (ix1 i)

theorem labOf_apply (x22 : (⟨1, ![100000]⟩ : Shape).Idx → BitVec 32) (i : Fin 100000) : labOf x22 i = x22 (ix1 i) := rfl
theorem ofArr_apply {a b : ℕ} (x : (⟨2, ![a, b]⟩ : Shape).Idx → EReal) (i : Fin a) (j : Fin b) : ofArr x i j = x (ix2 i j) := rfl
theorem ofArr1_apply {a : ℕ} (x : (⟨1, ![a]⟩ : Shape).Idx → EReal) (i : Fin a) : ofArr1 x i = x (ix1 i) := rfl

/-- The reference's dimension records and shape facts of the "connected to" chain. -/
def conDims : ConDims where
  sdeg := scatter_S100000_S1600000x1_S1600000_n_0_0_1
  gat := gather_S100000x128_S1600000x1_S1600000x128_1_0_n_n_0_1_1128
  sfeat := scatter_S100000x128_S1600000x1_S1600000x128_1_0_0_1
  b_e := bcast_S_S1600000
  b_n := bcast_S_S100000
  b_nf0 := bcast_S_S100000x128
  b_e1 := bcast_S1600000_S1600000x1_0
  b_n1 := bcast_S100000_S100000x1_0
  b_nf := bcast_S100000x1_S100000x128_0_1

/-- Two indices of rank at most two are equal when their coordinates are: closes `composed index map … = ixN …`. -/
macro "idx_eq" : tactic =>
  `(tactic| (
    funext a
    refine Fin.ext ?_
    revert a
    first
      | exact fun a => a.elim0
      | exact Fin.forall_fin_one.mpr rfl
      | exact Fin.forall_fin_two.mpr ⟨rfl, rfl⟩))

end Cert.ReferenceIdeal.RefValue

end
-- ==== Proof.Ref.L1Deg.lean ====
/-
  Layer 1 of the reference: the degrees and the scales. Over the node numbers every node is its own segment (degree one, scale
  one); over the labels the degree is the number of nodes of the label and the scale is `labScale`. The wrap of a possibly negative
  index leaves node numbers and labels in range alone.
-/
import proofs.«405200_j27075473834261_2_alg».proof.Proof.Ref.Common

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- Every node is its own segment: the count of ones over the node numbers is one. -/
theorem l1_degNodesA (i : Fin 100000) : (val_main_v4 (F := Ideal)) (ix1 i) = 1 := by
  have hidx : ∀ e : Fin 100000, (val_main_v3 (F := Ideal)) (ix2 e 0) = BitVec.ofNat 32 e.val := fun e => by
    rw [val_main_v3_apply, val_main_v0_apply]
  unfold val_main_v4
  simp only [Host.scatterAdd, Ideal.hostScatterAdd_def]
  rw [scatterAdd_nodes_vec scatter_S100000_S100000x1_S100000_n_0_0_1 rfl rfl rfl rfl (val_main_v2 (F := Ideal)) (val_main_v3 (F := Ideal)) (val_main_v1 (F := Ideal)) hidx i]
  simp only [val_main_v2_apply, val_main_cst_0_apply, val_main_v1_apply, val_main_cst_apply, Ideal.ofBits_def, Ideal.ofBits_zero_f32, Ideal.ofBits_one_f32, zero_add]

/-- The count of ones over the labels is the number of nodes of each label. -/
theorem l1_cntA (ℓ : Fin 100000 → Fin 64) (hℓ : ∀ i, labOf x22 i = BitVec.ofNat 32 (ℓ i).val) (l : Fin 64) :
    (val_main_v7 (F := Ideal) x22) (ix1 l) = cnt (labOf x22) l := by
  have hidx : ∀ e : Fin 100000, (val_main_v6 (F := Ideal) x22) (ix2 e 0) = labOf x22 e := fun e => by
    rw [val_main_v6_apply]; exact congrArg x22 (by idx_eq)
  unfold val_main_v7
  simp only [Host.scatterAdd, Ideal.hostScatterAdd_def]
  refine scatterAdd_labels_cnt (labOf x22) ℓ hℓ scatter_S64_S100000x1_S100000_n_0_0_1 rfl rfl rfl rfl (val_main_v5 (F := Ideal)) (val_main_v6 (F := Ideal) x22) (val_main_v1 (F := Ideal)) hidx (fun l => ?_) (fun i => ?_) l
  · simp only [val_main_v5_apply, val_main_cst_1_apply, Ideal.ofBits_def, Ideal.ofBits_zero_f32]
  · simp only [val_main_v1_apply, val_main_cst_apply, Ideal.ofBits_def, Ideal.ofBits_one_f32]

/-- The sending nodes' scale in "belongs to" is one. -/
theorem l1_scaleNodesA (i : Fin 100000) :
    (val_main_v13 (F := Ideal)) (ix1 i) = 1 := by
  simp only [val_main_v13_apply, val_main_v9_apply, val_main_v8_apply, val_main_cst_2_apply, val_main_v12_apply, val_main_v11_apply, val_main_v10_apply, val_main_cst_3_apply, val_main_call0_v1_apply, val_main_call0_v0_apply, val_main_cst_4_apply]
  rw [invSqrtDeg_words, l1_degNodesA, invSqrtDeg_one]

/-- The receiving labels' scale in "belongs to" is `labScale`. -/
theorem l1_labScaleA (ℓ : Fin 100000 → Fin 64) (hℓ : ∀ i, labOf x22 i = BitVec.ofNat 32 (ℓ i).val) (l : Fin 64) :
    (val_main_v32 (F := Ideal) x22) (ix1 l) = labScale (labOf x22) l := by
  simp only [val_main_v32_apply, val_main_v28_apply, val_main_v27_apply, val_main_cst_7_apply, val_main_v31_apply, val_main_v30_apply, val_main_v29_apply, val_main_cst_8_apply, val_main_call1_v1_apply, val_main_call1_v0_apply, val_main_cst_9_apply]
  rw [invSqrtDeg_words, l1_cntA x22 ℓ hℓ]
  rfl

/-- The count of ones over the labels is the number of nodes of each label. -/
theorem l1_cntB (ℓ : Fin 100000 → Fin 64) (hℓ : ∀ i, labOf x22 i = BitVec.ofNat 32 (ℓ i).val) (l : Fin 64) :
    (val_main_v43 (F := Ideal) x22) (ix1 l) = cnt (labOf x22) l := by
  have hidx : ∀ e : Fin 100000, (val_main_v42 (F := Ideal) x22) (ix2 e 0) = labOf x22 e := fun e => by
    rw [val_main_v42_apply]; exact congrArg x22 (by idx_eq)
  unfold val_main_v43
  simp only [Host.scatterAdd, Ideal.hostScatterAdd_def]
  refine scatterAdd_labels_cnt (labOf x22) ℓ hℓ scatter_S64_S100000x1_S100000_n_0_0_1 rfl rfl rfl rfl (val_main_v41 (F := Ideal)) (val_main_v42 (F := Ideal) x22) (val_main_v40 (F := Ideal)) hidx (fun l => ?_) (fun i => ?_) l
  · simp only [val_main_v41_apply, val_main_cst_11_apply, Ideal.ofBits_def, Ideal.ofBits_zero_f32]
  · simp only [val_main_v40_apply, val_main_cst_10_apply, Ideal.ofBits_def, Ideal.ofBits_one_f32]

/-- Every node is its own segment: the count of ones over the node numbers is one. -/
theorem l1_degNodesB (i : Fin 100000) : (val_main_v46 (F := Ideal)) (ix1 i) = 1 := by
  have hidx : ∀ e : Fin 100000, (val_main_v45 (F := Ideal)) (ix2 e 0) = BitVec.ofNat 32 e.val := fun e => by
    rw [val_main_v45_apply, val_main_v0_apply]
  unfold val_main_v46
  simp only [Host.scatterAdd, Ideal.hostScatterAdd_def]
  rw [scatterAdd_nodes_vec scatter_S100000_S100000x1_S100000_n_0_0_1 rfl rfl rfl rfl (val_main_v44 (F := Ideal)) (val_main_v45 (F := Ideal)) (val_main_v40 (F := Ideal)) hidx i]
  simp only [val_main_v44_apply, val_main_cst_12_apply, val_main_v40_apply, val_main_cst_10_apply, Ideal.ofBits_def, Ideal.ofBits_zero_f32, Ideal.ofBits_one_f32, zero_add]

/-- The sending labels' scale in "including" is `labScale`. -/
theorem l1_labScaleB (ℓ : Fin 100000 → Fin 64) (hℓ : ∀ i, labOf x22 i = BitVec.ofNat 32 (ℓ i).val) (l : Fin 64) :
    (val_main_v52 (F := Ideal) x22) (ix1 l) = labScale (labOf x22) l := by
  simp only [val_main_v52_apply, val_main_v48_apply, val_main_v47_apply, val_main_cst_13_apply, val_main_v51_apply, val_main_v50_apply, val_main_v49_apply, val_main_cst_14_apply, val_main_call2_v1_apply, val_main_call2_v0_apply, val_main_cst_15_apply]
  rw [invSqrtDeg_words, l1_cntB x22 ℓ hℓ]
  rfl

/-- The receiving nodes' scale in "including" is one. -/
theorem l1_scaleNodesB (i : Fin 100000) :
    (val_main_v71 (F := Ideal)) (ix1 i) = 1 := by
  simp only [val_main_v71_apply, val_main_v67_apply, val_main_v66_apply, val_main_cst_19_apply, val_main_v70_apply, val_main_v69_apply, val_main_v68_apply, val_main_cst_20_apply, val_main_call3_v1_apply, val_main_call3_v0_apply, val_main_cst_21_apply]
  rw [invSqrtDeg_words, l1_degNodesB, invSqrtDeg_one]

/-- The wrapped node numbers are the node numbers. -/
theorem l1_nodesWrap (i : Fin 100000) : (val_main_v21 (F := Ideal)) (ix1 i) = BitVec.ofNat 32 i.val := by
  simp only [val_main_v21_apply, val_main_v18_apply, val_main_v0_apply, val_main_v17_apply, val_main_c_apply, val_main_v20_apply, val_main_v19_apply, val_main_c_5_apply]
  exact node_wrap i _

/-- The wrapped label words are the label words. -/
theorem l1_labelsWrap (ℓ : Fin 100000 → Fin 64) (hℓ : ∀ i, labOf x22 i = BitVec.ofNat 32 (ℓ i).val) (i : Fin 100000) :
    (val_main_v60 (F := Ideal) x22) (ix1 i) = labOf x22 i := by
  simp only [val_main_v60_apply, val_main_v57_apply, val_main_v56_apply, val_main_c_16_apply, val_main_v59_apply, val_main_v58_apply, val_main_c_17_apply]
  exact label_wrap (labOf x22) ℓ hℓ i _

end Cert.ReferenceIdeal.RefValue

end
-- ==== Proof.Ref.L1Lab.lean ====
/-
  Layer 1 of the reference, "belongs to": the node rows, scaled by one, are looked up at the node numbers (the rows themselves),
  summed over the labels (`belAgg`), scaled by `labScale`, and go through the dense map and ReLU: `layerLab`.
-/
import proofs.«405200_j27075473834261_2_alg».proof.Proof.Ref.L1Deg

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The node rows scaled by the sending scale, which is one. -/
theorem l1_xsA (i : Fin 100000) (k : Fin 128) :
    (val_main_v16 (F := Ideal) x0) (ix2 i k) = x0 (ix2 i k) * 1 := by
  have e1 : idx_main_v14 (idx_main_v15 (ix2 i k)) = (ix1 i) := by idx_eq
  simp only [val_main_v16_apply, val_main_v15_apply, val_main_v14_apply, e1, l1_scaleNodesA, Ideal.mulf_def]

/-- Looked up at the node numbers, a row is itself. -/
theorem l1_gatherA (i : Fin 100000) (k : Fin 128) :
    (val_main_v23 (F := Ideal) x0) (ix2 i k) = x0 (ix2 i k) * 1 := by
  have hidx : ∀ e : Fin 100000, (val_main_v22 (F := Ideal)) (ix2 e 0) = BitVec.ofNat 32 e.val := fun e => by
    have e1 : idx_main_v22 (ix2 e 0) = ix1 e := by idx_eq
    rw [val_main_v22_apply, e1]; exact l1_nodesWrap e
  unfold val_main_v23
  rw [gather_nodes_rows gather_S100000x128_S100000x1_S100000x128_1_0_n_n_0_1_1128 rfl rfl rfl rfl rfl rfl (val_main_v16 (F := Ideal) x0) (val_main_v22 (F := Ideal)) hidx i k]
  exact l1_xsA x0 i k

/-- Summed over the labels: the sum of the rows of each label's nodes. -/
theorem l1_aggA (ℓ : Fin 100000 → Fin 64) (hℓ : ∀ i, labOf x22 i = BitVec.ofNat 32 (ℓ i).val) (l : Fin 64) (k : Fin 128) :
    (val_main_v26 (F := Ideal) x0 x22) (ix2 l k) = belAgg (labOf x22) (ofArr x0) l k := by
  have hidx : ∀ e : Fin 100000, (val_main_v25 (F := Ideal) x22) (ix2 e 0) = labOf x22 e := fun e => by
    rw [val_main_v25_apply]; exact congrArg x22 (by idx_eq)
  unfold val_main_v26
  simp only [Host.scatterAdd, Ideal.hostScatterAdd_def]
  rw [scatterAdd_labels_rows (labOf x22) ℓ hℓ scatter_S64x128_S100000x1_S100000x128_1_0_0_1 rfl rfl rfl rfl (val_main_v24 (F := Ideal)) (val_main_v25 (F := Ideal) x22) (val_main_v23 (F := Ideal) x0) hidx l k]
  simp only [val_main_v24_apply, val_main_cst_6_apply, Ideal.ofBits_def, Ideal.ofBits_zero_f32, zero_add, l1_gatherA, mul_one]
  rfl

/-- Scaled by the receiving label's scale. -/
theorem l1_scaledA (ℓ : Fin 100000 → Fin 64) (hℓ : ∀ i, labOf x22 i = BitVec.ofNat 32 (ℓ i).val) (l : Fin 64) (k : Fin 128) :
    (val_main_v35 (F := Ideal) x0 x22) (ix2 l k) = belAgg (labOf x22) (ofArr x0) l k * labScale (labOf x22) l := by
  have e1 : idx_main_v33 (idx_main_v34 (ix2 l k)) = (ix1 l) := by idx_eq
  simp only [val_main_v35_apply, val_main_v34_apply, val_main_v33_apply, e1, l1_aggA x0 x22 ℓ hℓ, l1_labScaleA x22 ℓ hℓ, Ideal.mulf_def]

/-- Through the dense map, the bias and ReLU. -/
theorem l1_labOutA (ℓ : Fin 100000 → Fin 64) (hℓ : ∀ i, labOf x22 i = BitVec.ofNat 32 (ℓ i).val) (l : Fin 64) (j : Fin 128) :
    (val_main_v122 (F := Ideal) x0 x2 x3 x22) (ix2 l j)
      = labOut (belAgg (labOf x22) (ofArr x0)) (labScale (labOf x22)) (ofArr x2) (ofArr1 x3) l j := by
  have e1 : ∀ q0, lidx_main_v36 (ix2 l j) q0 = (ix2 l q0) := fun q0 => by idx_eq
  have e2 : ∀ q0, ridx_main_v36 (ix2 l j) q0 = (ix2 q0 j) := fun q0 => by idx_eq
  have e3 : idx_main_v37 (idx_main_v38 (ix2 l j)) = (ix1 j) := by idx_eq
  simp only [val_main_v122_apply, val_main_v39_apply, val_main_v36_apply, val_main_v38_apply, val_main_v37_apply, val_main_call7_v0_apply, val_main_call7_cst_apply, e1, e2, e3, l1_scaledA x0 x22 ℓ hℓ, Ideal.maximumf_def, Ideal.addf_def, Ideal.ofBits_def, Ideal.ofBits_zero_f32]
  rfl

/-- LAYER 1, THE LABEL SIDE: the reference's "belongs to" output is `layerLab` of the layer's node features. -/
theorem l1_lab (ℓ : Fin 100000 → Fin 64) (hℓ : ∀ i, labOf x22 i = BitVec.ofNat 32 (ℓ i).val) :
    ofArr (val_main_v122 (F := Ideal) x0 x2 x3 x22) = layerLab (labOf x22) (ofArr x0) (ofArr x2) (ofArr1 x3) :=
  funext fun l => funext fun j => l1_labOutA x0 x2 x3 x22 ℓ hℓ l j

end Cert.ReferenceIdeal.RefValue

end
-- ==== Proof.Ref.L1Inc.lean ====
/-
  Layer 1 of the reference, "including": the label rows scaled by `labScale` are looked up at the labels (row `ℓ i` for node `i`),
  summed over the node numbers (every node once: the row itself), scaled by the receiving scale, which is one, and go through the
  dense map: `incR`.
-/
import proofs.«405200_j27075473834261_2_alg».proof.Proof.Ref.L1Deg

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The label rows scaled by the sending label's scale. -/
theorem l1_tableRow (ℓ : Fin 100000 → Fin 64) (hℓ : ∀ i, labOf x22 i = BitVec.ofNat 32 (ℓ i).val) (l : Fin 64) (k : Fin 128) :
    (val_main_v55 (F := Ideal) x1 x22) (ix2 l k) = x1 (ix2 l k) * labScale (labOf x22) l := by
  have e1 : idx_main_v53 (idx_main_v54 (ix2 l k)) = (ix1 l) := by idx_eq
  simp only [val_main_v55_apply, val_main_v54_apply, val_main_v53_apply, e1, l1_labScaleB x22 ℓ hℓ, Ideal.mulf_def]

/-- Looked up at the labels: node `i` reads its label's scaled row. -/
theorem l1_gatherB (ℓ : Fin 100000 → Fin 64) (hℓ : ∀ i, labOf x22 i = BitVec.ofNat 32 (ℓ i).val) (i : Fin 100000) (k : Fin 128) :
    (val_main_v62 (F := Ideal) x1 x22) (ix2 i k) = x1 (ix2 (ℓ i) k) * labScale (labOf x22) (ℓ i) := by
  have hidx : ∀ e : Fin 100000, (val_main_v61 (F := Ideal) x22) (ix2 e 0) = labOf x22 e := fun e => by
    have e1 : idx_main_v61 (ix2 e 0) = ix1 e := by idx_eq
    rw [val_main_v61_apply, e1]; exact l1_labelsWrap x22 ℓ hℓ e
  unfold val_main_v62
  rw [gather_labels_rows (labOf x22) ℓ hℓ gather_S64x128_S100000x1_S100000x128_1_0_n_n_0_1_1128 rfl rfl rfl rfl rfl rfl (val_main_v55 (F := Ideal) x1 x22) (val_main_v61 (F := Ideal) x22) hidx i k]
  exact l1_tableRow x1 x22 ℓ hℓ (ℓ i) k

/-- Summed over the node numbers, every node once: the looked-up row itself. -/
theorem l1_scatterB (ℓ : Fin 100000 → Fin 64) (hℓ : ∀ i, labOf x22 i = BitVec.ofNat 32 (ℓ i).val) (i : Fin 100000) (k : Fin 128) :
    (val_main_v65 (F := Ideal) x1 x22) (ix2 i k) = x1 (ix2 (ℓ i) k) * labScale (labOf x22) (ℓ i) := by
  have hidx : ∀ e : Fin 100000, (val_main_v64 (F := Ideal)) (ix2 e 0) = BitVec.ofNat 32 e.val := fun e => by
    rw [val_main_v64_apply, val_main_v0_apply]
  unfold val_main_v65
  simp only [Host.scatterAdd, Ideal.hostScatterAdd_def]
  rw [scatterAdd_nodes_rows scatter_S100000x128_S100000x1_S100000x128_1_0_0_1 rfl rfl rfl rfl (val_main_v63 (F := Ideal)) (val_main_v64 (F := Ideal)) (val_main_v62 (F := Ideal) x1 x22) hidx i k]
  simp only [val_main_v63_apply, val_main_cst_18_apply, Ideal.ofBits_def, Ideal.ofBits_zero_f32, zero_add]
  exact l1_gatherB x1 x22 ℓ hℓ i k

/-- Scaled by the receiving node's scale, which is one. -/
theorem l1_incRow (ℓ : Fin 100000 → Fin 64) (hℓ : ∀ i, labOf x22 i = BitVec.ofNat 32 (ℓ i).val) (i : Fin 100000) (k : Fin 128) :
    (val_main_v74 (F := Ideal) x1 x22) (ix2 i k) = (x1 (ix2 (ℓ i) k) * labScale (labOf x22) (ℓ i)) * 1 := by
  have e1 : idx_main_v72 (idx_main_v73 (ix2 i k)) = (ix1 i) := by idx_eq
  simp only [val_main_v74_apply, val_main_v73_apply, val_main_v72_apply, e1, l1_scatterB x1 x22 ℓ hℓ, l1_scaleNodesB, Ideal.mulf_def]

/-- Through the dense map and the bias. -/
theorem l1_incOut (ℓ : Fin 100000 → Fin 64) (hℓ : ∀ i, labOf x22 i = BitVec.ofNat 32 (ℓ i).val) (i : Fin 100000) (j : Fin 128) :
    (val_main_v78 (F := Ideal) x1 x4 x5 x22) (ix2 i j)
      = incR ℓ (ofArr x1) (labScale (labOf x22)) (ofArr x4) (ofArr1 x5) i j := by
  have e1 : ∀ q0, lidx_main_v75 (ix2 i j) q0 = (ix2 i q0) := fun q0 => by idx_eq
  have e2 : ∀ q0, ridx_main_v75 (ix2 i j) q0 = (ix2 q0 j) := fun q0 => by idx_eq
  have e3 : idx_main_v76 (idx_main_v77 (ix2 i j)) = (ix1 j) := by idx_eq
  simp only [val_main_v78_apply, val_main_v75_apply, val_main_v77_apply, val_main_v76_apply, e1, e2, e3, l1_incRow x1 x22 ℓ hℓ, Ideal.addf_def]
  rfl

end Cert.ReferenceIdeal.RefValue

end
-- ==== Proof.Ref.L1Con.lean ====
/-
  Layer 1 of the reference, "connected to": the aggregate over the edge list is the chain `conOp` at the reference's dimension
  records (never opened), and then the dense map: `conDense`.
-/
import proofs.«405200_j27075473834261_2_alg».proof.Proof.Ref.Common

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The reference's aggregate over the edge list IS the chain, operation by operation. -/
theorem l1_conAgg :
    (val_main_v113 (F := Ideal) x0 x23 x24) = conOp (F := Ideal) conDims x23 x24 x0 := by
  unfold val_main_v113 val_main_v104 val_main_v112 val_main_v102 val_main_v103 val_main_v101 val_main_v111 val_main_cst_30 val_main_v94 val_main_v100 val_main_v110 val_main_v93 val_main_v99 val_main_v106 val_main_v109 val_main_call5_v1 val_main_v92 val_main_v96 val_main_v98 val_main_v85 val_main_v105 val_main_v108 val_main_call5_v0 val_main_v91 val_main_v95 val_main_v97 val_main_v83 val_main_v84 val_main_v79 val_main_cst_31 val_main_v107 val_main_cst_33 val_main_v87 val_main_v90 val_main_call4_v1 val_main_c_28 val_main_c_29 val_main_cst_24 val_main_cst_22 val_main_cst_32 val_main_v82 val_main_v86 val_main_v89 val_main_call4_v0 val_main_v80 val_main_v81 val_main_cst_25 val_main_v88 val_main_cst_27 val_main_cst_23 val_main_cst_26
  rfl

/-- The aggregate at an index, as the operator on matrices. -/
theorem l1_conAt (i : Fin 100000) (k : Fin 128) :
    (val_main_v113 (F := Ideal) x0 x23 x24) (ix2 i k) = conOpI conDims x23 x24 (ofArr x0) i k :=
  (congrFun (l1_conAgg x0 x23 x24) (ix2 i k)).trans (congrFun (conOp_eq_toArr conDims x23 x24 x0) (ix2 i k))

/-- Through the dense map and the bias. The aggregate is carried as one opaque matrix: nothing below opens it. -/
theorem l1_conOut (i : Fin 100000) (j : Fin 128) :
    (val_main_v117 (F := Ideal) x0 x6 x7 x23 x24) (ix2 i j)
      = conDense (conOpI conDims x23 x24 (ofArr x0)) (ofArr x6) (ofArr1 x7) i j := by
  have hC : ∀ k : Fin 128, (val_main_v113 (F := Ideal) x0 x23 x24) (ix2 i k) = conOpI conDims x23 x24 (ofArr x0) i k :=
    fun k => l1_conAt x0 x23 x24 i k
  have e1 : ∀ q0, lidx_main_v114 (ix2 i j) q0 = (ix2 i q0) := fun q0 => by idx_eq
  have e2 : ∀ q0, ridx_main_v114 (ix2 i j) q0 = (ix2 q0 j) := fun q0 => by idx_eq
  have e3 : idx_main_v115 (idx_main_v116 (ix2 i j)) = (ix1 j) := by idx_eq
  refine (val_main_v117_apply x0 x6 x7 x23 x24 (ix2 i j)).trans ?_
  rw [val_main_v114_apply, val_main_v116_apply, val_main_v115_apply, e3]
  generalize val_main_v113 (F := Ideal) x0 x23 x24 = y at hC ⊢
  generalize conOpI conDims x23 x24 (ofArr x0) = C at hC ⊢
  simp only [e1, e2, hC]
  rfl

end Cert.ReferenceIdeal.RefValue

end
-- ==== Proof.Ref.L1Seq.lean ====
/-
  Layer 1 of the reference, the sequence side: one half of "including" plus "connected to", through ReLU: `layerSeqR`.
-/
import proofs.«405200_j27075473834261_2_alg».proof.Proof.Ref.L1Inc
import proofs.«405200_j27075473834261_2_alg».proof.Proof.Ref.L1Con

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The mean of the two relations, through ReLU, at an index. -/
theorem l1_seqOutA (ℓ : Fin 100000 → Fin 64) (hℓ : ∀ i, labOf x22 i = BitVec.ofNat 32 (ℓ i).val) (i : Fin 100000) (j : Fin 128) :
    (val_main_v121 (F := Ideal) x0 x1 x4 x5 x6 x7 x22 x23 x24) (ix2 i j)
      = seqOut (incR ℓ (ofArr x1) (labScale (labOf x22)) (ofArr x4) (ofArr1 x5))
          (conDense (conOpI conDims x23 x24 (ofArr x0)) (ofArr x6) (ofArr1 x7)) i j := by

  simp only [val_main_v121_apply, val_main_v120_apply, val_main_v119_apply, val_main_cst_34_apply, val_main_v118_apply, val_main_call6_v0_apply, val_main_call6_cst_apply, l1_incOut x1 x4 x5 x22 ℓ hℓ, l1_conOut, Ideal.maximumf_def, Ideal.mulf_def, Ideal.addf_def, Ideal.ofBits_def, Ideal.ofBits_zero_f32]
  rfl

/-- LAYER 1, THE SEQUENCE SIDE: the reference's output is `layerSeqR` of the layer's features. -/
theorem l1_seq (ℓ : Fin 100000 → Fin 64) (hℓ : ∀ i, labOf x22 i = BitVec.ofNat 32 (ℓ i).val) :
    ofArr (val_main_v121 (F := Ideal) x0 x1 x4 x5 x6 x7 x22 x23 x24)
      = layerSeqR (conOpI conDims x23 x24) (labOf x22) ℓ (ofArr x0) (ofArr x1) (ofArr x4) (ofArr1 x5) (ofArr x6) (ofArr1 x7) :=
  funext fun i => funext fun j => l1_seqOutA x0 x1 x4 x5 x6 x7 x22 x23 x24 ℓ hℓ i j

end Cert.ReferenceIdeal.RefValue

end
-- ==== Proof.Ref.L1BnSeq.lean ====
/-
  Layer 1 of the reference, the batch normalisation of the sequence side over its 100000 rows: the column mean, the centred
  column variance, and `(x − mean) · rsqrt(var + ε) · g + b`: `bnSeqR`.
-/
import proofs.«405200_j27075473834261_2_alg».proof.Proof.Ref.Common

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The column mean. -/
theorem l1_bnSeq_mean (d : Fin 128) :
    (val_main_v125 (F := Ideal) x0 x1 x4 x5 x6 x7 x22 x23 x24) (ix1 d) = meanS (ofArr (val_main_v121 (F := Ideal) x0 x1 x4 x5 x6 x7 x22 x23 x24)) d := by
  have e1 : ∀ q0, idx_main_v123 (ix1 d) q0 = (ix2 q0 d) := fun q0 => by idx_eq
  simp only [val_main_v125_apply, val_main_v123_apply, val_main_cst_35_apply, val_main_v124_apply, val_main_cst_36_apply, e1, Ideal.hostDivf_def, Ideal.ofBits_def, Ideal.ofBits_zero_f32, zero_add]
  rfl

/-- An entry less its column's mean. -/
theorem l1_bnSeq_cen1 (i : Fin 100000) (d : Fin 128) :
    (val_main_v128 (F := Ideal) x0 x1 x4 x5 x6 x7 x22 x23 x24) (ix2 i d) = ofArr (val_main_v121 (F := Ideal) x0 x1 x4 x5 x6 x7 x22 x23 x24) i d - meanS (ofArr (val_main_v121 (F := Ideal) x0 x1 x4 x5 x6 x7 x22 x23 x24)) d := by
  have e1 : idx_main_v126 (idx_main_v127 (ix2 i d)) = (ix1 d) := by idx_eq
  simp only [val_main_v128_apply, val_main_v127_apply, val_main_v126_apply, e1, l1_bnSeq_mean, Ideal.subf_def]
  rfl

/-- An entry less its column's mean. -/
theorem l1_bnSeq_cen2 (i : Fin 100000) (d : Fin 128) :
    (val_main_v135 (F := Ideal) x0 x1 x4 x5 x6 x7 x22 x23 x24) (ix2 i d) = ofArr (val_main_v121 (F := Ideal) x0 x1 x4 x5 x6 x7 x22 x23 x24) i d - meanS (ofArr (val_main_v121 (F := Ideal) x0 x1 x4 x5 x6 x7 x22 x23 x24)) d := by
  have e1 : idx_main_v133 (idx_main_v134 (ix2 i d)) = (ix1 d) := by idx_eq
  simp only [val_main_v135_apply, val_main_v134_apply, val_main_v133_apply, e1, l1_bnSeq_mean, Ideal.subf_def]
  rfl

/-- The centred column variance. -/
theorem l1_bnSeq_var (d : Fin 128) :
    (val_main_v132 (F := Ideal) x0 x1 x4 x5 x6 x7 x22 x23 x24) (ix1 d) = varR (ofArr (val_main_v121 (F := Ideal) x0 x1 x4 x5 x6 x7 x22 x23 x24)) d := by
  have e1 : ∀ q0, idx_main_v130 (ix1 d) q0 = (ix2 q0 d) := fun q0 => by idx_eq
  simp only [val_main_v132_apply, val_main_v130_apply, val_main_v129_apply, val_main_cst_37_apply, val_main_v131_apply, val_main_cst_38_apply, e1, l1_bnSeq_cen1, Ideal.hostDivf_def, Ideal.mulf_def, Ideal.ofBits_def, Ideal.ofBits_zero_f32, zero_add]
  rfl

/-- The normalised entry. -/
theorem l1_bnSeq_out (i : Fin 100000) (d : Fin 128) :
    (val_main_v147 (F := Ideal) x0 x1 x4 x5 x6 x7 x8 x9 x22 x23 x24) (ix2 i d) = bnSeqR (ofArr (val_main_v121 (F := Ideal) x0 x1 x4 x5 x6 x7 x22 x23 x24)) (ofArr1 x8) (ofArr1 x9) i d := by
  have e1 : idx_main_v139 (idx_main_v140 (ix2 i d)) = (ix1 d) := by idx_eq
  have e2 : idx_main_v142 (idx_main_v143 (ix2 i d)) = (ix1 d) := by idx_eq
  have e3 : idx_main_v145 (idx_main_v146 (ix2 i d)) = (ix1 d) := by idx_eq
  simp only [val_main_v147_apply, val_main_v144_apply, val_main_v141_apply, val_main_v140_apply, val_main_v139_apply, val_main_v138_apply, val_main_v137_apply, val_main_v136_apply, val_main_cst_39_apply, val_main_v143_apply, val_main_v142_apply, val_main_v146_apply, val_main_v145_apply, e1, e2, e3, l1_bnSeq_cen2, l1_bnSeq_var, Ideal.addf_def, Ideal.mulf_def, Ideal.hostUnary_rsqrt_def, Ideal.ofBits_def]
  rfl

/-- LAYER 1: the reference's normalised sequence side is `bnSeqR` of the layer's sequence-side output. -/
theorem l1_bnSeq :
    ofArr (val_main_v147 (F := Ideal) x0 x1 x4 x5 x6 x7 x8 x9 x22 x23 x24) = bnSeqR (ofArr (val_main_v121 (F := Ideal) x0 x1 x4 x5 x6 x7 x22 x23 x24)) (ofArr1 x8) (ofArr1 x9) :=
  funext fun i => funext fun d => l1_bnSeq_out x0 x1 x4 x5 x6 x7 x8 x9 x22 x23 x24 i d

end Cert.ReferenceIdeal.RefValue

end
-- ==== Proof.Ref.L1BnLab.lean ====
/-
  Layer 1 of the reference, the batch normalisation of the label side over its 64 rows: the column mean, the centred
  column variance, and `(x − mean) · rsqrt(var + ε) · g + b`: `bnLab`.
-/
import proofs.«405200_j27075473834261_2_alg».proof.Proof.Ref.Common

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The column mean. -/
theorem l1_bnLab_mean (d : Fin 128) :
    (val_main_v150 (F := Ideal) x0 x2 x3 x22) (ix1 d) = meanL (ofArr (val_main_v122 (F := Ideal) x0 x2 x3 x22)) d := by
  have e1 : ∀ q0, idx_main_v148 (ix1 d) q0 = (ix2 q0 d) := fun q0 => by idx_eq
  simp only [val_main_v150_apply, val_main_v148_apply, val_main_cst_40_apply, val_main_v149_apply, val_main_cst_41_apply, e1, Ideal.hostDivf_def, Ideal.ofBits_def, Ideal.ofBits_zero_f32, zero_add]
  rfl

/-- An entry less its column's mean. -/
theorem l1_bnLab_cen1 (i : Fin 64) (d : Fin 128) :
    (val_main_v153 (F := Ideal) x0 x2 x3 x22) (ix2 i d) = ofArr (val_main_v122 (F := Ideal) x0 x2 x3 x22) i d - meanL (ofArr (val_main_v122 (F := Ideal) x0 x2 x3 x22)) d := by
  have e1 : idx_main_v151 (idx_main_v152 (ix2 i d)) = (ix1 d) := by idx_eq
  simp only [val_main_v153_apply, val_main_v152_apply, val_main_v151_apply, e1, l1_bnLab_mean, Ideal.subf_def]
  rfl

/-- An entry less its column's mean. -/
theorem l1_bnLab_cen2 (i : Fin 64) (d : Fin 128) :
    (val_main_v160 (F := Ideal) x0 x2 x3 x22) (ix2 i d) = ofArr (val_main_v122 (F := Ideal) x0 x2 x3 x22) i d - meanL (ofArr (val_main_v122 (F := Ideal) x0 x2 x3 x22)) d := by
  have e1 : idx_main_v158 (idx_main_v159 (ix2 i d)) = (ix1 d) := by idx_eq
  simp only [val_main_v160_apply, val_main_v159_apply, val_main_v158_apply, e1, l1_bnLab_mean, Ideal.subf_def]
  rfl

/-- The centred column variance. -/
theorem l1_bnLab_var (d : Fin 128) :
    (val_main_v157 (F := Ideal) x0 x2 x3 x22) (ix1 d) = varL (ofArr (val_main_v122 (F := Ideal) x0 x2 x3 x22)) d := by
  have e1 : ∀ q0, idx_main_v155 (ix1 d) q0 = (ix2 q0 d) := fun q0 => by idx_eq
  simp only [val_main_v157_apply, val_main_v155_apply, val_main_v154_apply, val_main_cst_42_apply, val_main_v156_apply, val_main_cst_43_apply, e1, l1_bnLab_cen1, Ideal.hostDivf_def, Ideal.mulf_def, Ideal.ofBits_def, Ideal.ofBits_zero_f32, zero_add]
  rfl

/-- The normalised entry. -/
theorem l1_bnLab_out (i : Fin 64) (d : Fin 128) :
    (val_main_v172 (F := Ideal) x0 x2 x3 x10 x11 x22) (ix2 i d) = bnLab (ofArr (val_main_v122 (F := Ideal) x0 x2 x3 x22)) (ofArr1 x10) (ofArr1 x11) i d := by
  have e1 : idx_main_v164 (idx_main_v165 (ix2 i d)) = (ix1 d) := by idx_eq
  have e2 : idx_main_v167 (idx_main_v168 (ix2 i d)) = (ix1 d) := by idx_eq
  have e3 : idx_main_v170 (idx_main_v171 (ix2 i d)) = (ix1 d) := by idx_eq
  simp only [val_main_v172_apply, val_main_v169_apply, val_main_v166_apply, val_main_v165_apply, val_main_v164_apply, val_main_v163_apply, val_main_v162_apply, val_main_v161_apply, val_main_cst_44_apply, val_main_v168_apply, val_main_v167_apply, val_main_v171_apply, val_main_v170_apply, e1, e2, e3, l1_bnLab_cen2, l1_bnLab_var, Ideal.addf_def, Ideal.mulf_def, Ideal.hostUnary_rsqrt_def, Ideal.ofBits_def]
  rfl

/-- LAYER 1: the reference's normalised label side is `bnLab` of the layer's label-side output. -/
theorem l1_bnLab :
    ofArr (val_main_v172 (F := Ideal) x0 x2 x3 x10 x11 x22) = bnLab (ofArr (val_main_v122 (F := Ideal) x0 x2 x3 x22)) (ofArr1 x10) (ofArr1 x11) :=
  funext fun i => funext fun d => l1_bnLab_out x0 x2 x3 x10 x11 x22 i d

end Cert.ReferenceIdeal.RefValue

end
-- ==== Proof.Ref.L2Deg.lean ====
/-
  Layer 2 of the reference: the degrees and the scales. Over the node numbers every node is its own segment (degree one, scale
  one); over the labels the degree is the number of nodes of the label and the scale is `labScale`. The wrap of a possibly negative
  index leaves node numbers and labels in range alone.
-/
import proofs.«405200_j27075473834261_2_alg».proof.Proof.Ref.Common

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- Every node is its own segment: the count of ones over the node numbers is one. -/
theorem l2_degNodesA (i : Fin 100000) : (val_main_v177 (F := Ideal)) (ix1 i) = 1 := by
  have hidx : ∀ e : Fin 100000, (val_main_v176 (F := Ideal)) (ix2 e 0) = BitVec.ofNat 32 e.val := fun e => by
    rw [val_main_v176_apply, val_main_v173_apply]
  unfold val_main_v177
  simp only [Host.scatterAdd, Ideal.hostScatterAdd_def]
  rw [scatterAdd_nodes_vec scatter_S100000_S100000x1_S100000_n_0_0_1 rfl rfl rfl rfl (val_main_v175 (F := Ideal)) (val_main_v176 (F := Ideal)) (val_main_v174 (F := Ideal)) hidx i]
  simp only [val_main_v175_apply, val_main_cst_46_apply, val_main_v174_apply, val_main_cst_45_apply, Ideal.ofBits_def, Ideal.ofBits_zero_f32, Ideal.ofBits_one_f32, zero_add]

/-- The count of ones over the labels is the number of nodes of each label. -/
theorem l2_cntA (ℓ : Fin 100000 → Fin 64) (hℓ : ∀ i, labOf x22 i = BitVec.ofNat 32 (ℓ i).val) (l : Fin 64) :
    (val_main_v180 (F := Ideal) x22) (ix1 l) = cnt (labOf x22) l := by
  have hidx : ∀ e : Fin 100000, (val_main_v179 (F := Ideal) x22) (ix2 e 0) = labOf x22 e := fun e => by
    rw [val_main_v179_apply]; exact congrArg x22 (by idx_eq)
  unfold val_main_v180
  simp only [Host.scatterAdd, Ideal.hostScatterAdd_def]
  refine scatterAdd_labels_cnt (labOf x22) ℓ hℓ scatter_S64_S100000x1_S100000_n_0_0_1 rfl rfl rfl rfl (val_main_v178 (F := Ideal)) (val_main_v179 (F := Ideal) x22) (val_main_v174 (F := Ideal)) hidx (fun l => ?_) (fun i => ?_) l
  · simp only [val_main_v178_apply, val_main_cst_47_apply, Ideal.ofBits_def, Ideal.ofBits_zero_f32]
  · simp only [val_main_v174_apply, val_main_cst_45_apply, Ideal.ofBits_def, Ideal.ofBits_one_f32]

/-- The sending nodes' scale in "belongs to" is one. -/
theorem l2_scaleNodesA (i : Fin 100000) :
    (val_main_v186 (F := Ideal)) (ix1 i) = 1 := by
  simp only [val_main_v186_apply, val_main_v182_apply, val_main_v181_apply, val_main_cst_48_apply, val_main_v185_apply, val_main_v184_apply, val_main_v183_apply, val_main_cst_49_apply, val_main_call8_v1_apply, val_main_call8_v0_apply, val_main_cst_50_apply]
  rw [invSqrtDeg_words, l2_degNodesA, invSqrtDeg_one]

/-- The receiving labels' scale in "belongs to" is `labScale`. -/
theorem l2_labScaleA (ℓ : Fin 100000 → Fin 64) (hℓ : ∀ i, labOf x22 i = BitVec.ofNat 32 (ℓ i).val) (l : Fin 64) :
    (val_main_v205 (F := Ideal) x22) (ix1 l) = labScale (labOf x22) l := by
  simp only [val_main_v205_apply, val_main_v201_apply, val_main_v200_apply, val_main_cst_54_apply, val_main_v204_apply, val_main_v203_apply, val_main_v202_apply, val_main_cst_55_apply, val_main_call9_v1_apply, val_main_call9_v0_apply, val_main_cst_56_apply]
  rw [invSqrtDeg_words, l2_cntA x22 ℓ hℓ]
  rfl

/-- The count of ones over the labels is the number of nodes of each label. -/
theorem l2_cntB (ℓ : Fin 100000 → Fin 64) (hℓ : ∀ i, labOf x22 i = BitVec.ofNat 32 (ℓ i).val) (l : Fin 64) :
    (val_main_v216 (F := Ideal) x22) (ix1 l) = cnt (labOf x22) l := by
  have hidx : ∀ e : Fin 100000, (val_main_v215 (F := Ideal) x22) (ix2 e 0) = labOf x22 e := fun e => by
    rw [val_main_v215_apply]; exact congrArg x22 (by idx_eq)
  unfold val_main_v216
  simp only [Host.scatterAdd, Ideal.hostScatterAdd_def]
  refine scatterAdd_labels_cnt (labOf x22) ℓ hℓ scatter_S64_S100000x1_S100000_n_0_0_1 rfl rfl rfl rfl (val_main_v214 (F := Ideal)) (val_main_v215 (F := Ideal) x22) (val_main_v213 (F := Ideal)) hidx (fun l => ?_) (fun i => ?_) l
  · simp only [val_main_v214_apply, val_main_cst_58_apply, Ideal.ofBits_def, Ideal.ofBits_zero_f32]
  · simp only [val_main_v213_apply, val_main_cst_57_apply, Ideal.ofBits_def, Ideal.ofBits_one_f32]

/-- Every node is its own segment: the count of ones over the node numbers is one. -/
theorem l2_degNodesB (i : Fin 100000) : (val_main_v219 (F := Ideal)) (ix1 i) = 1 := by
  have hidx : ∀ e : Fin 100000, (val_main_v218 (F := Ideal)) (ix2 e 0) = BitVec.ofNat 32 e.val := fun e => by
    rw [val_main_v218_apply, val_main_v173_apply]
  unfold val_main_v219
  simp only [Host.scatterAdd, Ideal.hostScatterAdd_def]
  rw [scatterAdd_nodes_vec scatter_S100000_S100000x1_S100000_n_0_0_1 rfl rfl rfl rfl (val_main_v217 (F := Ideal)) (val_main_v218 (F := Ideal)) (val_main_v213 (F := Ideal)) hidx i]
  simp only [val_main_v217_apply, val_main_cst_59_apply, val_main_v213_apply, val_main_cst_57_apply, Ideal.ofBits_def, Ideal.ofBits_zero_f32, Ideal.ofBits_one_f32, zero_add]

/-- The sending labels' scale in "including" is `labScale`. -/
theorem l2_labScaleB (ℓ : Fin 100000 → Fin 64) (hℓ : ∀ i, labOf x22 i = BitVec.ofNat 32 (ℓ i).val) (l : Fin 64) :
    (val_main_v225 (F := Ideal) x22) (ix1 l) = labScale (labOf x22) l := by
  simp only [val_main_v225_apply, val_main_v221_apply, val_main_v220_apply, val_main_cst_60_apply, val_main_v224_apply, val_main_v223_apply, val_main_v222_apply, val_main_cst_61_apply, val_main_call10_v1_apply, val_main_call10_v0_apply, val_main_cst_62_apply]
  rw [invSqrtDeg_words, l2_cntB x22 ℓ hℓ]
  rfl

/-- The receiving nodes' scale in "including" is one. -/
theorem l2_scaleNodesB (i : Fin 100000) :
    (val_main_v244 (F := Ideal)) (ix1 i) = 1 := by
  simp only [val_main_v244_apply, val_main_v240_apply, val_main_v239_apply, val_main_cst_66_apply, val_main_v243_apply, val_main_v242_apply, val_main_v241_apply, val_main_cst_67_apply, val_main_call11_v1_apply, val_main_call11_v0_apply, val_main_cst_68_apply]
  rw [invSqrtDeg_words, l2_degNodesB, invSqrtDeg_one]

/-- The wrapped node numbers are the node numbers. -/
theorem l2_nodesWrap (i : Fin 100000) : (val_main_v194 (F := Ideal)) (ix1 i) = BitVec.ofNat 32 i.val := by
  simp only [val_main_v194_apply, val_main_v191_apply, val_main_v173_apply, val_main_v190_apply, val_main_c_51_apply, val_main_v193_apply, val_main_v192_apply, val_main_c_52_apply]
  exact node_wrap i _

/-- The wrapped label words are the label words. -/
theorem l2_labelsWrap (ℓ : Fin 100000 → Fin 64) (hℓ : ∀ i, labOf x22 i = BitVec.ofNat 32 (ℓ i).val) (i : Fin 100000) :
    (val_main_v233 (F := Ideal) x22) (ix1 i) = labOf x22 i := by
  simp only [val_main_v233_apply, val_main_v230_apply, val_main_v229_apply, val_main_c_63_apply, val_main_v232_apply, val_main_v231_apply, val_main_c_64_apply]
  exact label_wrap (labOf x22) ℓ hℓ i _

end Cert.ReferenceIdeal.RefValue

end
-- ==== Proof.Ref.L2Lab.lean ====
/-
  Layer 2 of the reference, "belongs to": the node rows, scaled by one, are looked up at the node numbers (the rows themselves),
  summed over the labels (`belAgg`), scaled by `labScale`, and go through the dense map and ReLU: `layerLab`.
-/
import proofs.«405200_j27075473834261_2_alg».proof.Proof.Ref.L2Deg

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The node rows scaled by the sending scale, which is one. -/
theorem l2_xsA (i : Fin 100000) (k : Fin 128) :
    (val_main_v189 (F := Ideal) x0 x1 x4 x5 x6 x7 x8 x9 x22 x23 x24) (ix2 i k) = (val_main_v147 (F := Ideal) x0 x1 x4 x5 x6 x7 x8 x9 x22 x23 x24) (ix2 i k) * 1 := by
  have e1 : idx_main_v187 (idx_main_v188 (ix2 i k)) = (ix1 i) := by idx_eq
  simp only [val_main_v189_apply, val_main_v188_apply, val_main_v187_apply, e1, l2_scaleNodesA, Ideal.mulf_def]

/-- Looked up at the node numbers, a row is itself. -/
theorem l2_gatherA (i : Fin 100000) (k : Fin 128) :
    (val_main_v196 (F := Ideal) x0 x1 x4 x5 x6 x7 x8 x9 x22 x23 x24) (ix2 i k) = (val_main_v147 (F := Ideal) x0 x1 x4 x5 x6 x7 x8 x9 x22 x23 x24) (ix2 i k) * 1 := by
  have hidx : ∀ e : Fin 100000, (val_main_v195 (F := Ideal)) (ix2 e 0) = BitVec.ofNat 32 e.val := fun e => by
    have e1 : idx_main_v195 (ix2 e 0) = ix1 e := by idx_eq
    rw [val_main_v195_apply, e1]; exact l2_nodesWrap e
  unfold val_main_v196
  rw [gather_nodes_rows gather_S100000x128_S100000x1_S100000x128_1_0_n_n_0_1_1128 rfl rfl rfl rfl rfl rfl (val_main_v189 (F := Ideal) x0 x1 x4 x5 x6 x7 x8 x9 x22 x23 x24) (val_main_v195 (F := Ideal)) hidx i k]
  exact l2_xsA x0 x1 x4 x5 x6 x7 x8 x9 x22 x23 x24 i k

/-- Summed over the labels: the sum of the rows of each label's nodes. -/
theorem l2_aggA (ℓ : Fin 100000 → Fin 64) (hℓ : ∀ i, labOf x22 i = BitVec.ofNat 32 (ℓ i).val) (l : Fin 64) (k : Fin 128) :
    (val_main_v199 (F := Ideal) x0 x1 x4 x5 x6 x7 x8 x9 x22 x23 x24) (ix2 l k) = belAgg (labOf x22) (ofArr (val_main_v147 (F := Ideal) x0 x1 x4 x5 x6 x7 x8 x9 x22 x23 x24)) l k := by
  have hidx : ∀ e : Fin 100000, (val_main_v198 (F := Ideal) x22) (ix2 e 0) = labOf x22 e := fun e => by
    rw [val_main_v198_apply]; exact congrArg x22 (by idx_eq)
  unfold val_main_v199
  simp only [Host.scatterAdd, Ideal.hostScatterAdd_def]
  rw [scatterAdd_labels_rows (labOf x22) ℓ hℓ scatter_S64x128_S100000x1_S100000x128_1_0_0_1 rfl rfl rfl rfl (val_main_v197 (F := Ideal)) (val_main_v198 (F := Ideal) x22) (val_main_v196 (F := Ideal) x0 x1 x4 x5 x6 x7 x8 x9 x22 x23 x24) hidx l k]
  simp only [val_main_v197_apply, val_main_cst_53_apply, Ideal.ofBits_def, Ideal.ofBits_zero_f32, zero_add, l2_gatherA, mul_one]
  rfl

/-- Scaled by the receiving label's scale. -/
theorem l2_scaledA (ℓ : Fin 100000 → Fin 64) (hℓ : ∀ i, labOf x22 i = BitVec.ofNat 32 (ℓ i).val) (l : Fin 64) (k : Fin 128) :
    (val_main_v208 (F := Ideal) x0 x1 x4 x5 x6 x7 x8 x9 x22 x23 x24) (ix2 l k) = belAgg (labOf x22) (ofArr (val_main_v147 (F := Ideal) x0 x1 x4 x5 x6 x7 x8 x9 x22 x23 x24)) l k * labScale (labOf x22) l := by
  have e1 : idx_main_v206 (idx_main_v207 (ix2 l k)) = (ix1 l) := by idx_eq
  simp only [val_main_v208_apply, val_main_v207_apply, val_main_v206_apply, e1, l2_aggA x0 x1 x4 x5 x6 x7 x8 x9 x22 x23 x24 ℓ hℓ, l2_labScaleA x22 ℓ hℓ, Ideal.mulf_def]

/-- Through the dense map, the bias and ReLU. -/
theorem l2_labOutA (ℓ : Fin 100000 → Fin 64) (hℓ : ∀ i, labOf x22 i = BitVec.ofNat 32 (ℓ i).val) (l : Fin 64) (j : Fin 64) :
    (val_main_v295 (F := Ideal) x0 x1 x4 x5 x6 x7 x8 x9 x12 x13 x22 x23 x24) (ix2 l j)
      = labOut (belAgg (labOf x22) (ofArr (val_main_v147 (F := Ideal) x0 x1 x4 x5 x6 x7 x8 x9 x22 x23 x24))) (labScale (labOf x22)) (ofArr x12) (ofArr1 x13) l j := by
  have e1 : ∀ q0, lidx_main_v209 (ix2 l j) q0 = (ix2 l q0) := fun q0 => by idx_eq
  have e2 : ∀ q0, ridx_main_v209 (ix2 l j) q0 = (ix2 q0 j) := fun q0 => by idx_eq
  have e3 : idx_main_v210 (idx_main_v211 (ix2 l j)) = (ix1 j) := by idx_eq
  simp only [val_main_v295_apply, val_main_v212_apply, val_main_v209_apply, val_main_v211_apply, val_main_v210_apply, val_main_call15_v0_apply, val_main_call15_cst_apply, e1, e2, e3, l2_scaledA x0 x1 x4 x5 x6 x7 x8 x9 x22 x23 x24 ℓ hℓ, Ideal.maximumf_def, Ideal.addf_def, Ideal.ofBits_def, Ideal.ofBits_zero_f32]
  rfl

/-- LAYER 2, THE LABEL SIDE: the reference's "belongs to" output is `layerLab` of the layer's node features. -/
theorem l2_lab (ℓ : Fin 100000 → Fin 64) (hℓ : ∀ i, labOf x22 i = BitVec.ofNat 32 (ℓ i).val) :
    ofArr (val_main_v295 (F := Ideal) x0 x1 x4 x5 x6 x7 x8 x9 x12 x13 x22 x23 x24) = layerLab (labOf x22) (ofArr (val_main_v147 (F := Ideal) x0 x1 x4 x5 x6 x7 x8 x9 x22 x23 x24)) (ofArr x12) (ofArr1 x13) :=
  funext fun l => funext fun j => l2_labOutA x0 x1 x4 x5 x6 x7 x8 x9 x12 x13 x22 x23 x24 ℓ hℓ l j

end Cert.ReferenceIdeal.RefValue

end
-- ==== Proof.Ref.L2Inc.lean ====
/-
  Layer 2 of the reference, "including": the label rows scaled by `labScale` are looked up at the labels (row `ℓ i` for node `i`),
  summed over the node numbers (every node once: the row itself), scaled by the receiving scale, which is one, and go through the
  dense map: `incR`.
-/
import proofs.«405200_j27075473834261_2_alg».proof.Proof.Ref.L2Deg

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The label rows scaled by the sending label's scale. -/
theorem l2_tableRow (ℓ : Fin 100000 → Fin 64) (hℓ : ∀ i, labOf x22 i = BitVec.ofNat 32 (ℓ i).val) (l : Fin 64) (k : Fin 128) :
    (val_main_v228 (F := Ideal) x0 x2 x3 x10 x11 x22) (ix2 l k) = (val_main_v172 (F := Ideal) x0 x2 x3 x10 x11 x22) (ix2 l k) * labScale (labOf x22) l := by
  have e1 : idx_main_v226 (idx_main_v227 (ix2 l k)) = (ix1 l) := by idx_eq
  simp only [val_main_v228_apply, val_main_v227_apply, val_main_v226_apply, e1, l2_labScaleB x22 ℓ hℓ, Ideal.mulf_def]

/-- Looked up at the labels: node `i` reads its label's scaled row. -/
theorem l2_gatherB (ℓ : Fin 100000 → Fin 64) (hℓ : ∀ i, labOf x22 i = BitVec.ofNat 32 (ℓ i).val) (i : Fin 100000) (k : Fin 128) :
    (val_main_v235 (F := Ideal) x0 x2 x3 x10 x11 x22) (ix2 i k) = (val_main_v172 (F := Ideal) x0 x2 x3 x10 x11 x22) (ix2 (ℓ i) k) * labScale (labOf x22) (ℓ i) := by
  have hidx : ∀ e : Fin 100000, (val_main_v234 (F := Ideal) x22) (ix2 e 0) = labOf x22 e := fun e => by
    have e1 : idx_main_v234 (ix2 e 0) = ix1 e := by idx_eq
    rw [val_main_v234_apply, e1]; exact l2_labelsWrap x22 ℓ hℓ e
  unfold val_main_v235
  rw [gather_labels_rows (labOf x22) ℓ hℓ gather_S64x128_S100000x1_S100000x128_1_0_n_n_0_1_1128 rfl rfl rfl rfl rfl rfl (val_main_v228 (F := Ideal) x0 x2 x3 x10 x11 x22) (val_main_v234 (F := Ideal) x22) hidx i k]
  exact l2_tableRow x0 x2 x3 x10 x11 x22 ℓ hℓ (ℓ i) k

/-- Summed over the node numbers, every node once: the looked-up row itself. -/
theorem l2_scatterB (ℓ : Fin 100000 → Fin 64) (hℓ : ∀ i, labOf x22 i = BitVec.ofNat 32 (ℓ i).val) (i : Fin 100000) (k : Fin 128) :
    (val_main_v238 (F := Ideal) x0 x2 x3 x10 x11 x22) (ix2 i k) = (val_main_v172 (F := Ideal) x0 x2 x3 x10 x11 x22) (ix2 (ℓ i) k) * labScale (labOf x22) (ℓ i) := by
  have hidx : ∀ e : Fin 100000, (val_main_v237 (F := Ideal)) (ix2 e 0) = BitVec.ofNat 32 e.val := fun e => by
    rw [val_main_v237_apply, val_main_v173_apply]
  unfold val_main_v238
  simp only [Host.scatterAdd, Ideal.hostScatterAdd_def]
  rw [scatterAdd_nodes_rows scatter_S100000x128_S100000x1_S100000x128_1_0_0_1 rfl rfl rfl rfl (val_main_v236 (F := Ideal)) (val_main_v237 (F := Ideal)) (val_main_v235 (F := Ideal) x0 x2 x3 x10 x11 x22) hidx i k]
  simp only [val_main_v236_apply, val_main_cst_65_apply, Ideal.ofBits_def, Ideal.ofBits_zero_f32, zero_add]
  exact l2_gatherB x0 x2 x3 x10 x11 x22 ℓ hℓ i k

/-- Scaled by the receiving node's scale, which is one. -/
theorem l2_incRow (ℓ : Fin 100000 → Fin 64) (hℓ : ∀ i, labOf x22 i = BitVec.ofNat 32 (ℓ i).val) (i : Fin 100000) (k : Fin 128) :
    (val_main_v247 (F := Ideal) x0 x2 x3 x10 x11 x22) (ix2 i k) = ((val_main_v172 (F := Ideal) x0 x2 x3 x10 x11 x22) (ix2 (ℓ i) k) * labScale (labOf x22) (ℓ i)) * 1 := by
  have e1 : idx_main_v245 (idx_main_v246 (ix2 i k)) = (ix1 i) := by idx_eq
  simp only [val_main_v247_apply, val_main_v246_apply, val_main_v245_apply, e1, l2_scatterB x0 x2 x3 x10 x11 x22 ℓ hℓ, l2_scaleNodesB, Ideal.mulf_def]

/-- Through the dense map and the bias. -/
theorem l2_incOut (ℓ : Fin 100000 → Fin 64) (hℓ : ∀ i, labOf x22 i = BitVec.ofNat 32 (ℓ i).val) (i : Fin 100000) (j : Fin 128) :
    (val_main_v251 (F := Ideal) x0 x2 x3 x10 x11 x14 x15 x22) (ix2 i j)
      = incR ℓ (ofArr (val_main_v172 (F := Ideal) x0 x2 x3 x10 x11 x22)) (labScale (labOf x22)) (ofArr x14) (ofArr1 x15) i j := by
  have e1 : ∀ q0, lidx_main_v248 (ix2 i j) q0 = (ix2 i q0) := fun q0 => by idx_eq
  have e2 : ∀ q0, ridx_main_v248 (ix2 i j) q0 = (ix2 q0 j) := fun q0 => by idx_eq
  have e3 : idx_main_v249 (idx_main_v250 (ix2 i j)) = (ix1 j) := by idx_eq
  simp only [val_main_v251_apply, val_main_v248_apply, val_main_v250_apply, val_main_v249_apply, e1, e2, e3, l2_incRow x0 x2 x3 x10 x11 x22 ℓ hℓ, Ideal.addf_def]
  rfl

end Cert.ReferenceIdeal.RefValue

end
-- ==== Proof.Ref.L2Con.lean ====
/-
  Layer 2 of the reference, "connected to": the aggregate over the edge list is the chain `conOp` at the reference's dimension
  records (never opened), and then the dense map: `conDense`.
-/
import proofs.«405200_j27075473834261_2_alg».proof.Proof.Ref.Common

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The reference's aggregate over the edge list IS the chain, operation by operation. -/
theorem l2_conAgg :
    (val_main_v286 (F := Ideal) x0 x1 x4 x5 x6 x7 x8 x9 x22 x23 x24) = conOp (F := Ideal) conDims x23 x24 (val_main_v147 (F := Ideal) x0 x1 x4 x5 x6 x7 x8 x9 x22 x23 x24) := by
  unfold val_main_v286 val_main_v277 val_main_v285 val_main_v275 val_main_v276 val_main_v274 val_main_v284 val_main_cst_77 val_main_v267 val_main_v273 val_main_v283 val_main_v266 val_main_v272 val_main_v279 val_main_v282 val_main_call13_v1 val_main_v265 val_main_v269 val_main_v271 val_main_v258 val_main_v278 val_main_v281 val_main_call13_v0 val_main_v264 val_main_v268 val_main_v270 val_main_v256 val_main_v257 val_main_v252 val_main_cst_78 val_main_v280 val_main_cst_80 val_main_v260 val_main_v263 val_main_call12_v1 val_main_c_75 val_main_c_76 val_main_cst_71 val_main_cst_69 val_main_cst_79 val_main_v255 val_main_v259 val_main_v262 val_main_call12_v0 val_main_v253 val_main_v254 val_main_cst_72 val_main_v261 val_main_cst_74 val_main_cst_70 val_main_cst_73
  generalize val_main_v147 (F := Ideal) x0 x1 x4 x5 x6 x7 x8 x9 x22 x23 x24 = y
  rfl

/-- The aggregate at an index, as the operator on matrices. -/
theorem l2_conAt (i : Fin 100000) (k : Fin 128) :
    (val_main_v286 (F := Ideal) x0 x1 x4 x5 x6 x7 x8 x9 x22 x23 x24) (ix2 i k) = conOpI conDims x23 x24 (ofArr (val_main_v147 (F := Ideal) x0 x1 x4 x5 x6 x7 x8 x9 x22 x23 x24)) i k :=
  (congrFun (l2_conAgg x0 x1 x4 x5 x6 x7 x8 x9 x22 x23 x24) (ix2 i k)).trans (congrFun (conOp_eq_toArr conDims x23 x24 (val_main_v147 (F := Ideal) x0 x1 x4 x5 x6 x7 x8 x9 x22 x23 x24)) (ix2 i k))

/-- Through the dense map and the bias. -/
theorem l2_conOut (i : Fin 100000) (j : Fin 128) :
    (val_main_v290 (F := Ideal) x0 x1 x4 x5 x6 x7 x8 x9 x16 x17 x22 x23 x24) (ix2 i j)
      = conDense (conOpI conDims x23 x24 (ofArr (val_main_v147 (F := Ideal) x0 x1 x4 x5 x6 x7 x8 x9 x22 x23 x24))) (ofArr x16) (ofArr1 x17) i j := by
  have e1 : ∀ q0, lidx_main_v287 (ix2 i j) q0 = (ix2 i q0) := fun q0 => by idx_eq
  have e2 : ∀ q0, ridx_main_v287 (ix2 i j) q0 = (ix2 q0 j) := fun q0 => by idx_eq
  have e3 : idx_main_v288 (idx_main_v289 (ix2 i j)) = (ix1 j) := by idx_eq
  rw [val_main_v290_apply, Ideal.addf_def, val_main_v287_apply, val_main_v289_apply, val_main_v288_apply, e3]
  unfold conDense
  refine congrArg₂ (· + ·) (Finset.sum_congr rfl fun k _ => ?_) (ofArr1_apply x17 j).symm
  rw [e1, e2, l2_conAt, ← ofArr_apply x16 k j]

end Cert.ReferenceIdeal.RefValue

end
-- ==== Proof.Ref.L2Seq.lean ====
/-
  Layer 2 of the reference, the sequence side: one half of "including" plus "connected to", through ReLU: `layerSeqR`.
-/
import proofs.«405200_j27075473834261_2_alg».proof.Proof.Ref.L2Inc
import proofs.«405200_j27075473834261_2_alg».proof.Proof.Ref.L2Con

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The mean of the two relations, through ReLU, at an index. -/
theorem l2_seqOutA (ℓ : Fin 100000 → Fin 64) (hℓ : ∀ i, labOf x22 i = BitVec.ofNat 32 (ℓ i).val) (i : Fin 100000) (j : Fin 128) :
    (val_main_v294 (F := Ideal) x0 x1 x2 x3 x4 x5 x6 x7 x8 x9 x10 x11 x14 x15 x16 x17 x22 x23 x24) (ix2 i j)
      = seqOut (incR ℓ (ofArr (val_main_v172 (F := Ideal) x0 x2 x3 x10 x11 x22)) (labScale (labOf x22)) (ofArr x14) (ofArr1 x15))
          (conDense (conOpI conDims x23 x24 (ofArr (val_main_v147 (F := Ideal) x0 x1 x4 x5 x6 x7 x8 x9 x22 x23 x24))) (ofArr x16) (ofArr1 x17)) i j := by

  simp only [val_main_v294_apply, val_main_v293_apply, val_main_v292_apply, val_main_cst_81_apply, val_main_v291_apply, val_main_call14_v0_apply, val_main_call14_cst_apply, l2_incOut x0 x2 x3 x10 x11 x14 x15 x22 ℓ hℓ, l2_conOut, Ideal.maximumf_def, Ideal.mulf_def, Ideal.addf_def, Ideal.ofBits_def, Ideal.ofBits_zero_f32]
  rfl

/-- LAYER 2, THE SEQUENCE SIDE: the reference's output is `layerSeqR` of the layer's features. -/
theorem l2_seq (ℓ : Fin 100000 → Fin 64) (hℓ : ∀ i, labOf x22 i = BitVec.ofNat 32 (ℓ i).val) :
    ofArr (val_main_v294 (F := Ideal) x0 x1 x2 x3 x4 x5 x6 x7 x8 x9 x10 x11 x14 x15 x16 x17 x22 x23 x24)
      = layerSeqR (conOpI conDims x23 x24) (labOf x22) ℓ (ofArr (val_main_v147 (F := Ideal) x0 x1 x4 x5 x6 x7 x8 x9 x22 x23 x24)) (ofArr (val_main_v172 (F := Ideal) x0 x2 x3 x10 x11 x22)) (ofArr x14) (ofArr1 x15) (ofArr x16) (ofArr1 x17) :=
  funext fun i => funext fun j => l2_seqOutA x0 x1 x2 x3 x4 x5 x6 x7 x8 x9 x10 x11 x14 x15 x16 x17 x22 x23 x24 ℓ hℓ i j

end Cert.ReferenceIdeal.RefValue

end
-- ==== Proof.Ref.L2BnSeq.lean ====
/-
  Layer 2 of the reference, the batch normalisation of the sequence side over its 100000 rows: the column mean, the centred
  column variance, and `(x − mean) · rsqrt(var + ε) · g + b`: `bnSeqR`.
-/
import proofs.«405200_j27075473834261_2_alg».proof.Proof.Ref.Common

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The column mean. -/
theorem l2_bnSeq_mean (d : Fin 128) :
    (val_main_v298 (F := Ideal) x0 x1 x2 x3 x4 x5 x6 x7 x8 x9 x10 x11 x14 x15 x16 x17 x22 x23 x24) (ix1 d) = meanS (ofArr (val_main_v294 (F := Ideal) x0 x1 x2 x3 x4 x5 x6 x7 x8 x9 x10 x11 x14 x15 x16 x17 x22 x23 x24)) d := by
  have e1 : ∀ q0, idx_main_v296 (ix1 d) q0 = (ix2 q0 d) := fun q0 => by idx_eq
  simp only [val_main_v298_apply, val_main_v296_apply, val_main_cst_82_apply, val_main_v297_apply, val_main_cst_83_apply, e1, Ideal.hostDivf_def, Ideal.ofBits_def, Ideal.ofBits_zero_f32, zero_add]
  rfl

/-- An entry less its column's mean. -/
theorem l2_bnSeq_cen1 (i : Fin 100000) (d : Fin 128) :
    (val_main_v301 (F := Ideal) x0 x1 x2 x3 x4 x5 x6 x7 x8 x9 x10 x11 x14 x15 x16 x17 x22 x23 x24) (ix2 i d) = ofArr (val_main_v294 (F := Ideal) x0 x1 x2 x3 x4 x5 x6 x7 x8 x9 x10 x11 x14 x15 x16 x17 x22 x23 x24) i d - meanS (ofArr (val_main_v294 (F := Ideal) x0 x1 x2 x3 x4 x5 x6 x7 x8 x9 x10 x11 x14 x15 x16 x17 x22 x23 x24)) d := by
  have e1 : idx_main_v299 (idx_main_v300 (ix2 i d)) = (ix1 d) := by idx_eq
  simp only [val_main_v301_apply, val_main_v300_apply, val_main_v299_apply, e1, l2_bnSeq_mean, Ideal.subf_def]
  rfl

/-- An entry less its column's mean. -/
theorem l2_bnSeq_cen2 (i : Fin 100000) (d : Fin 128) :
    (val_main_v308 (F := Ideal) x0 x1 x2 x3 x4 x5 x6 x7 x8 x9 x10 x11 x14 x15 x16 x17 x22 x23 x24) (ix2 i d) = ofArr (val_main_v294 (F := Ideal) x0 x1 x2 x3 x4 x5 x6 x7 x8 x9 x10 x11 x14 x15 x16 x17 x22 x23 x24) i d - meanS (ofArr (val_main_v294 (F := Ideal) x0 x1 x2 x3 x4 x5 x6 x7 x8 x9 x10 x11 x14 x15 x16 x17 x22 x23 x24)) d := by
  have e1 : idx_main_v306 (idx_main_v307 (ix2 i d)) = (ix1 d) := by idx_eq
  simp only [val_main_v308_apply, val_main_v307_apply, val_main_v306_apply, e1, l2_bnSeq_mean, Ideal.subf_def]
  rfl

/-- The centred column variance. -/
theorem l2_bnSeq_var (d : Fin 128) :
    (val_main_v305 (F := Ideal) x0 x1 x2 x3 x4 x5 x6 x7 x8 x9 x10 x11 x14 x15 x16 x17 x22 x23 x24) (ix1 d) = varR (ofArr (val_main_v294 (F := Ideal) x0 x1 x2 x3 x4 x5 x6 x7 x8 x9 x10 x11 x14 x15 x16 x17 x22 x23 x24)) d := by
  have e1 : ∀ q0, idx_main_v303 (ix1 d) q0 = (ix2 q0 d) := fun q0 => by idx_eq
  simp only [val_main_v305_apply, val_main_v303_apply, val_main_v302_apply, val_main_cst_84_apply, val_main_v304_apply, val_main_cst_85_apply, e1, l2_bnSeq_cen1, Ideal.hostDivf_def, Ideal.mulf_def, Ideal.ofBits_def, Ideal.ofBits_zero_f32, zero_add]
  rfl

/-- The normalised entry. -/
theorem l2_bnSeq_out (i : Fin 100000) (d : Fin 128) :
    (val_main_v320 (F := Ideal) x0 x1 x2 x3 x4 x5 x6 x7 x8 x9 x10 x11 x14 x15 x16 x17 x18 x19 x22 x23 x24) (ix2 i d) = bnSeqR (ofArr (val_main_v294 (F := Ideal) x0 x1 x2 x3 x4 x5 x6 x7 x8 x9 x10 x11 x14 x15 x16 x17 x22 x23 x24)) (ofArr1 x18) (ofArr1 x19) i d := by
  have e1 : idx_main_v312 (idx_main_v313 (ix2 i d)) = (ix1 d) := by idx_eq
  have e2 : idx_main_v315 (idx_main_v316 (ix2 i d)) = (ix1 d) := by idx_eq
  have e3 : idx_main_v318 (idx_main_v319 (ix2 i d)) = (ix1 d) := by idx_eq
  simp only [val_main_v320_apply, val_main_v317_apply, val_main_v314_apply, val_main_v313_apply, val_main_v312_apply, val_main_v311_apply, val_main_v310_apply, val_main_v309_apply, val_main_cst_86_apply, val_main_v316_apply, val_main_v315_apply, val_main_v319_apply, val_main_v318_apply, e1, e2, e3, l2_bnSeq_cen2, l2_bnSeq_var, Ideal.addf_def, Ideal.mulf_def, Ideal.hostUnary_rsqrt_def, Ideal.ofBits_def]
  rfl

/-- LAYER 2: the reference's normalised sequence side is `bnSeqR` of the layer's sequence-side output. -/
theorem l2_bnSeq :
    ofArr (val_main_v320 (F := Ideal) x0 x1 x2 x3 x4 x5 x6 x7 x8 x9 x10 x11 x14 x15 x16 x17 x18 x19 x22 x23 x24) = bnSeqR (ofArr (val_main_v294 (F := Ideal) x0 x1 x2 x3 x4 x5 x6 x7 x8 x9 x10 x11 x14 x15 x16 x17 x22 x23 x24)) (ofArr1 x18) (ofArr1 x19) :=
  funext fun i => funext fun d => l2_bnSeq_out x0 x1 x2 x3 x4 x5 x6 x7 x8 x9 x10 x11 x14 x15 x16 x17 x18 x19 x22 x23 x24 i d

end Cert.ReferenceIdeal.RefValue

end
-- ==== Proof.Ref.L2BnLab.lean ====
/-
  Layer 2 of the reference, the batch normalisation of the label side over its 64 rows: the column mean, the centred
  column variance, and `(x − mean) · rsqrt(var + ε) · g + b`: `bnLab`.
-/
import proofs.«405200_j27075473834261_2_alg».proof.Proof.Ref.Common

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The column mean. -/
theorem l2_bnLab_mean (d : Fin 64) :
    (val_main_v323 (F := Ideal) x0 x1 x4 x5 x6 x7 x8 x9 x12 x13 x22 x23 x24) (ix1 d) = meanL (ofArr (val_main_v295 (F := Ideal) x0 x1 x4 x5 x6 x7 x8 x9 x12 x13 x22 x23 x24)) d := by
  have e1 : ∀ q0, idx_main_v321 (ix1 d) q0 = (ix2 q0 d) := fun q0 => by idx_eq
  simp only [val_main_v323_apply, val_main_v321_apply, val_main_cst_87_apply, val_main_v322_apply, val_main_cst_88_apply, e1, Ideal.hostDivf_def, Ideal.ofBits_def, Ideal.ofBits_zero_f32, zero_add]
  rfl

/-- An entry less its column's mean. -/
theorem l2_bnLab_cen1 (i : Fin 64) (d : Fin 64) :
    (val_main_v326 (F := Ideal) x0 x1 x4 x5 x6 x7 x8 x9 x12 x13 x22 x23 x24) (ix2 i d) = ofArr (val_main_v295 (F := Ideal) x0 x1 x4 x5 x6 x7 x8 x9 x12 x13 x22 x23 x24) i d - meanL (ofArr (val_main_v295 (F := Ideal) x0 x1 x4 x5 x6 x7 x8 x9 x12 x13 x22 x23 x24)) d := by
  have e1 : idx_main_v324 (idx_main_v325 (ix2 i d)) = (ix1 d) := by idx_eq
  simp only [val_main_v326_apply, val_main_v325_apply, val_main_v324_apply, e1, l2_bnLab_mean, Ideal.subf_def]
  rfl

/-- An entry less its column's mean. -/
theorem l2_bnLab_cen2 (i : Fin 64) (d : Fin 64) :
    (val_main_v333 (F := Ideal) x0 x1 x4 x5 x6 x7 x8 x9 x12 x13 x22 x23 x24) (ix2 i d) = ofArr (val_main_v295 (F := Ideal) x0 x1 x4 x5 x6 x7 x8 x9 x12 x13 x22 x23 x24) i d - meanL (ofArr (val_main_v295 (F := Ideal) x0 x1 x4 x5 x6 x7 x8 x9 x12 x13 x22 x23 x24)) d := by
  have e1 : idx_main_v331 (idx_main_v332 (ix2 i d)) = (ix1 d) := by idx_eq
  simp only [val_main_v333_apply, val_main_v332_apply, val_main_v331_apply, e1, l2_bnLab_mean, Ideal.subf_def]
  rfl

/-- The centred column variance. -/
theorem l2_bnLab_var (d : Fin 64) :
    (val_main_v330 (F := Ideal) x0 x1 x4 x5 x6 x7 x8 x9 x12 x13 x22 x23 x24) (ix1 d) = varL (ofArr (val_main_v295 (F := Ideal) x0 x1 x4 x5 x6 x7 x8 x9 x12 x13 x22 x23 x24)) d := by
  have e1 : ∀ q0, idx_main_v328 (ix1 d) q0 = (ix2 q0 d) := fun q0 => by idx_eq
  simp only [val_main_v330_apply, val_main_v328_apply, val_main_v327_apply, val_main_cst_89_apply, val_main_v329_apply, val_main_cst_90_apply, e1, l2_bnLab_cen1, Ideal.hostDivf_def, Ideal.mulf_def, Ideal.ofBits_def, Ideal.ofBits_zero_f32, zero_add]
  rfl

/-- The normalised entry. -/
theorem l2_bnLab_out (i : Fin 64) (d : Fin 64) :
    (val_main_v345 (F := Ideal) x0 x1 x4 x5 x6 x7 x8 x9 x12 x13 x20 x21 x22 x23 x24) (ix2 i d) = bnLab (ofArr (val_main_v295 (F := Ideal) x0 x1 x4 x5 x6 x7 x8 x9 x12 x13 x22 x23 x24)) (ofArr1 x20) (ofArr1 x21) i d := by
  have e1 : idx_main_v337 (idx_main_v338 (ix2 i d)) = (ix1 d) := by idx_eq
  have e2 : idx_main_v340 (idx_main_v341 (ix2 i d)) = (ix1 d) := by idx_eq
  have e3 : idx_main_v343 (idx_main_v344 (ix2 i d)) = (ix1 d) := by idx_eq
  simp only [val_main_v345_apply, val_main_v342_apply, val_main_v339_apply, val_main_v338_apply, val_main_v337_apply, val_main_v336_apply, val_main_v335_apply, val_main_v334_apply, val_main_cst_91_apply, val_main_v341_apply, val_main_v340_apply, val_main_v344_apply, val_main_v343_apply, e1, e2, e3, l2_bnLab_cen2, l2_bnLab_var, Ideal.addf_def, Ideal.mulf_def, Ideal.hostUnary_rsqrt_def, Ideal.ofBits_def]
  rfl

/-- LAYER 2: the reference's normalised label side is `bnLab` of the layer's label-side output. -/
theorem l2_bnLab :
    ofArr (val_main_v345 (F := Ideal) x0 x1 x4 x5 x6 x7 x8 x9 x12 x13 x20 x21 x22 x23 x24) = bnLab (ofArr (val_main_v295 (F := Ideal) x0 x1 x4 x5 x6 x7 x8 x9 x12 x13 x22 x23 x24)) (ofArr1 x20) (ofArr1 x21) :=
  funext fun i => funext fun d => l2_bnLab_out x0 x1 x4 x5 x6 x7 x8 x9 x12 x13 x20 x21 x22 x23 x24 i d

end Cert.ReferenceIdeal.RefValue

end
-- ==== Proof.Ref.Out.lean ====
/-
  The reference's two results at the ideal instance: the sequence side is `netR0` and the label side `netR1` of the curried
  arguments, with the "connected to" operator the chain at the reference's dimension records. Layer 1's two sides feed layer 2's;
  each layer's sides are the lemmas of the modules imported here.
-/
import proofs.«405200_j27075473834261_2_alg».proof.Proof.Ref.L1Lab
import proofs.«405200_j27075473834261_2_alg».proof.Proof.Ref.L1Seq
import proofs.«405200_j27075473834261_2_alg».proof.Proof.Ref.L1BnSeq
import proofs.«405200_j27075473834261_2_alg».proof.Proof.Ref.L1BnLab
import proofs.«405200_j27075473834261_2_alg».proof.Proof.Ref.L2Lab
import proofs.«405200_j27075473834261_2_alg».proof.Proof.Ref.L2Seq
import proofs.«405200_j27075473834261_2_alg».proof.Proof.Ref.L2BnSeq
import proofs.«405200_j27075473834261_2_alg».proof.Proof.Ref.L2BnLab

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.Hgcn Cert.ScatterGather

variable (x0 : (⟨S100000x128, .f32⟩ : BufTy).Contents (Elt Ideal)) (x1 : (⟨S64x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal))
  (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal))
  (x18 : (⟨S128, .f32⟩ : BufTy).Contents (Elt Ideal)) (x19 : (⟨S128, .f32⟩ : BufTy).Contents (Elt Ideal)) (x20 : (⟨S64, .f32⟩ : BufTy).Contents (Elt Ideal)) (x21 : (⟨S64, .f32⟩ : BufTy).Contents (Elt Ideal)) (x22 : (⟨S100000, .i32⟩ : BufTy).Contents (Elt Ideal)) (x23 : (⟨S1600000, .i32⟩ : BufTy).Contents (Elt Ideal)) (x24 : (⟨S1600000, .i32⟩ : BufTy).Contents (Elt Ideal))

/-- The 22 float arguments as matrices and vectors. -/
def argsOf : Args where
  x := ofArr x0
  xl := ofArr x1
  W1b := ofArr x2
  b1b := ofArr1 x3
  W1i := ofArr x4
  b1i := ofArr1 x5
  W1c := ofArr x6
  b1c := ofArr1 x7
  g1s := ofArr1 x8
  be1s := ofArr1 x9
  g1l := ofArr1 x10
  be1l := ofArr1 x11
  W2b := ofArr x12
  b2b := ofArr1 x13
  W2i := ofArr x14
  b2i := ofArr1 x15
  W2c := ofArr x16
  b2c := ofArr1 x17
  g2s := ofArr1 x18
  be2s := ofArr1 x19
  g2l := ofArr1 x20
  be2l := ofArr1 x21

/-- After layer 1 and its normalisation, the sequence side. -/
theorem hs1_eq (ℓ : Fin 100000 → Fin 64) (hℓ : ∀ i, labOf x22 i = BitVec.ofNat 32 (ℓ i).val) :
    ofArr (val_main_v147 (F := Ideal) x0 x1 x4 x5 x6 x7 x8 x9 x22 x23 x24) = hs1R (conOpI conDims x23 x24) (labOf x22) ℓ (argsOf x0 x1 x2 x3 x4 x5 x6 x7 x8 x9 x10 x11 x12 x13 x14 x15 x16 x17 x18 x19 x20 x21) := by
  rw [l1_bnSeq, l1_seq x0 x1 x4 x5 x6 x7 x22 x23 x24 ℓ hℓ]
  rfl

/-- After layer 1 and its normalisation, the label side. -/
theorem hl1_eq (ℓ : Fin 100000 → Fin 64) (hℓ : ∀ i, labOf x22 i = BitVec.ofNat 32 (ℓ i).val) :
    ofArr (val_main_v172 (F := Ideal) x0 x2 x3 x10 x11 x22) = hl1 (labOf x22) (argsOf x0 x1 x2 x3 x4 x5 x6 x7 x8 x9 x10 x11 x12 x13 x14 x15 x16 x17 x18 x19 x20 x21) := by
  rw [l1_bnLab, l1_lab x0 x2 x3 x22 ℓ hℓ]
  rfl

/-- The sequence-side result as a matrix. -/
theorem out0_eq (ℓ : Fin 100000 → Fin 64) (hℓ : ∀ i, labOf x22 i = BitVec.ofNat 32 (ℓ i).val) :
    ofArr (val_main_v320 (F := Ideal) x0 x1 x2 x3 x4 x5 x6 x7 x8 x9 x10 x11 x14 x15 x16 x17 x18 x19 x22 x23 x24) = netR0 (conOpI conDims x23 x24) (labOf x22) ℓ (argsOf x0 x1 x2 x3 x4 x5 x6 x7 x8 x9 x10 x11 x12 x13 x14 x15 x16 x17 x18 x19 x20 x21) := by
  rw [l2_bnSeq, l2_seq x0 x1 x2 x3 x4 x5 x6 x7 x8 x9 x10 x11 x14 x15 x16 x17 x22 x23 x24 ℓ hℓ, hs1_eq x0 x1 x2 x3 x4 x5 x6 x7 x8 x9 x10 x11 x12 x13 x14 x15 x16 x17 x18 x19 x20 x21 x22 x23 x24 ℓ hℓ, hl1_eq x0 x1 x2 x3 x4 x5 x6 x7 x8 x9 x10 x11 x12 x13 x14 x15 x16 x17 x18 x19 x20 x21 x22 ℓ hℓ]
  rfl

/-- The label-side result as a matrix. -/
theorem out1_eq (ℓ : Fin 100000 → Fin 64) (hℓ : ∀ i, labOf x22 i = BitVec.ofNat 32 (ℓ i).val) :
    ofArr (val_main_v345 (F := Ideal) x0 x1 x4 x5 x6 x7 x8 x9 x12 x13 x20 x21 x22 x23 x24) = netR1 (conOpI conDims x23 x24) (labOf x22) ℓ (argsOf x0 x1 x2 x3 x4 x5 x6 x7 x8 x9 x10 x11 x12 x13 x14 x15 x16 x17 x18 x19 x20 x21) := by
  rw [l2_bnLab, l2_lab x0 x1 x4 x5 x6 x7 x8 x9 x12 x13 x22 x23 x24 ℓ hℓ, hs1_eq x0 x1 x2 x3 x4 x5 x6 x7 x8 x9 x10 x11 x12 x13 x14 x15 x16 x17 x18 x19 x20 x21 x22 x23 x24 ℓ hℓ]
  rfl

/-- THE REFERENCE'S SEQUENCE-SIDE STAGE, element by element, when every label word names a label. -/
theorem ref_val0 (ℓ : Fin 100000 → Fin 64) (hℓ : ∀ i, labOf x22 i = BitVec.ofNat 32 (ℓ i).val) (i : Fin 100000) (j : Fin 128) :
    (val_main_v320 (F := Ideal) x0 x1 x2 x3 x4 x5 x6 x7 x8 x9 x10 x11 x14 x15 x16 x17 x18 x19 x22 x23 x24) (ix2 i j)
      = netR0 (conOpI conDims x23 x24) (labOf x22) ℓ (argsOf x0 x1 x2 x3 x4 x5 x6 x7 x8 x9 x10 x11 x12 x13 x14 x15 x16 x17 x18 x19 x20 x21) i j :=
  congrFun (congrFun (out0_eq x0 x1 x2 x3 x4 x5 x6 x7 x8 x9 x10 x11 x12 x13 x14 x15 x16 x17 x18 x19 x20 x21 x22 x23 x24 ℓ hℓ) i) j

/-- THE REFERENCE'S LABEL-SIDE STAGE, element by element, when every label word names a label. -/
theorem ref_val1 (ℓ : Fin 100000 → Fin 64) (hℓ : ∀ i, labOf x22 i = BitVec.ofNat 32 (ℓ i).val) (i : Fin 64) (j : Fin 64) :
    (val_main_v345 (F := Ideal) x0 x1 x4 x5 x6 x7 x8 x9 x12 x13 x20 x21 x22 x23 x24) (ix2 i j)
      = netR1 (conOpI conDims x23 x24) (labOf x22) ℓ (argsOf x0 x1 x2 x3 x4 x5 x6 x7 x8 x9 x10 x11 x12 x13 x14 x15 x16 x17 x18 x19 x20 x21) i j :=
  congrFun (congrFun (out1_eq x0 x1 x2 x3 x4 x5 x6 x7 x8 x9 x10 x11 x12 x13 x14 x15 x16 x17 x18 x19 x20 x21 x22 x23 x24 ℓ hℓ) i) j

end Cert.ReferenceIdeal.RefValue

end
-- ==== Proof.Ref.OutRun.lean ====
/-
  The reference's two results, as its run states them, at the ideal instance: the run's composed terms are the last stages, and
  the stages are `netR0` and `netR1` of the curried arguments.
-/
import proofs.«405200_j27075473834261_2_alg».proof.Proof.RefLeg
import proofs.«405200_j27075473834261_2_alg».proof.Proof.Ref.Out

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.Hgcn Cert.ScatterGather

/-- THE REFERENCE'S SEQUENCE-SIDE RESULT, element by element, when every label word names a label. -/
theorem ref_out0 (m : (ℓ : Loc nD τ sig) → Buf (Elt Ideal) ℓ) (c : Dev nD) (ℓ : Fin 100000 → Fin 64)
    (hℓ : ∀ i, labOf (m ((c.tc : Thread nD τ).loc main_arg22)) i = BitVec.ofNat 32 (ℓ i).val) (i : Fin 100000) (j : Fin 128) :
    Cert.ReferenceIdeal.ValueB.res_out0 (F := Ideal) m c (ix2 i j)
      = netR0 (conOpI conDims (m ((c.tc : Thread nD τ).loc main_arg23)) (m ((c.tc : Thread nD τ).loc main_arg24)))
          (labOf (m ((c.tc : Thread nD τ).loc main_arg22))) ℓ
          (argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) i j :=
  (congrFun (val_main_v320_eq (F := Ideal) m c) (ix2 i j)).trans
    (congrFun (congrFun (out0_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) ℓ hℓ) i) j)

/-- THE REFERENCE'S LABEL-SIDE RESULT, element by element, when every label word names a label. -/
theorem ref_out1 (m : (ℓ : Loc nD τ sig) → Buf (Elt Ideal) ℓ) (c : Dev nD) (ℓ : Fin 100000 → Fin 64)
    (hℓ : ∀ i, labOf (m ((c.tc : Thread nD τ).loc main_arg22)) i = BitVec.ofNat 32 (ℓ i).val) (i : Fin 64) (j : Fin 64) :
    Cert.ReferenceIdeal.ValueB.res_out1 (F := Ideal) m c (ix2 i j)
      = netR1 (conOpI conDims (m ((c.tc : Thread nD τ).loc main_arg23)) (m ((c.tc : Thread nD τ).loc main_arg24)))
          (labOf (m ((c.tc : Thread nD τ).loc main_arg22))) ℓ
          (argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) i j :=
  (congrFun (val_main_v345_eq (F := Ideal) m c) (ix2 i j)).trans
    (congrFun (congrFun (out1_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) ℓ hℓ) i) j)

end Cert.ReferenceIdeal.RefValue

end
-- ==== Proof.PreDecode.lean ====
/-
  The precondition, read back at the extended reals.

  The precondition is one scalar condition: the conjunction, over the 22 float arrays, of "every entry has absolute value below
  +∞" (the entry compared with the word 0x7F800000, which denotes +∞, and the comparisons of an array folded by "and" from 1),
  and of the two conditions "every label is at least 0" and "every label is below 64" on the 100000 labels (signed comparisons
  of 32-bit words, folded the same way). Stated to be 1, it says: every entry of every float array is a real number, and the
  labels are the words of a map into the 64 label nodes.

  The condition is stated as a chain of seven consecutive pieces, each handing the conditions still open to the next; the
  reading follows the chain from its last piece to its first, one piece at a step.
-/
import proofs.«405200_j27075473834261_2_alg».proof.Pre_finite_inputs
import proofs.«405200_j27075473834261_2_alg».proof.Proof.Spec
import Idealize.ShloMosaic.Lib.ReduceAll
import Idealize.ShloMosaic.Lib.StableHlo.Predicate
import Idealize.ShloMosaic.Lib.ValueIdx

set_option maxRecDepth 16384

noncomputable section

namespace Cert.Hgcn

open Idealize.ShloMosaic Idealize.ShloMosaic.ValueIdx Cert.Pre_finite_inputs

namespace PreDecode

/-- The scalar shape has one index. -/
local instance : Subsingleton S_.Idx := ⟨fun a b => funext fun d => d.elim0⟩

/-! ## One entry of a float array -/

/-- The word 0x7F800000, read as a float, is +∞. -/
theorem inf_word : Ideal.ofBits .f32 0x7F800000#32 = (⊤ : EReal) := by simp [Ideal.ofBits, Ideal.ieee]

/-- An extended real whose absolute value max(x, −x) is below +∞ is a real number: it is neither infinity. -/
theorem isReal_of_abs_lt_top (x : EReal) (h : max x (-x) < ⊤) : IsReal x := by
  induction x using EReal.rec with
  | bot => simp at h
  | coe r => exact ⟨r, rfl⟩
  | top => simp at h

/-- One entry of the mask "|x| < +∞" being 1 says the entry is a real number. -/
theorem isReal_of_mask (x : Ideal .f32)
    (h : FloatOps.cmpf .olt (FloatOps.hostAbsf x) (FloatOps.ofBits (F := Ideal) .f32 0x7F800000#32) = 1#1) : IsReal x := by
  -- at the extended reals the comparison is the order's, the absolute value is max(x, −x), and the word is its value
  have h1 : Ideal.cmp .olt (max (x : EReal) (-(x : EReal))) (Ideal.ofBits .f32 0x7F800000#32) = 1#1 := h
  rw [inf_word] at h1
  have h2 : BitVec.ofBool (decide (max (x : EReal) (-(x : EReal)) < (⊤ : EReal))) = 1#1 := h1
  rw [StableHlo.Predicate.ofBool_eq_one_iff, decide_eq_true_eq] at h2
  exact isReal_of_abs_lt_top x h2

/-- Every entry of a float array is a real number. -/
abbrev AllReal {s : Shape} (x : FVec Ideal s .f32) : Prop := ∀ i, IsReal (x i)

/-- A mask "|x| < +∞" (the bound a scalar +∞ spread over the array's shape) that is 1 everywhere. -/
theorem allReal_of_mask {s : Shape} (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) : AllReal x :=
  fun i => isReal_of_mask (x i) (h i)

/-- The same mask folded by "and" to a scalar that is 1. -/
theorem allReal_of_reduce {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant (F := Ideal) S_ .f32 0x7F800000#32))) init hr hu ix0
      = 1#1) : AllReal x :=
  allReal_of_mask x hb (Host.reduce_andi_all _ init hr hu ix0 e)

/-! ## One label -/

/-- Every label word is, read signed, at least 0 and below 64. -/
def LabelsInRange (lab : IVec S100000 32) : Prop :=
  (∀ i, IntOp.cmpi .sge (lab i) 0#32 = 1#1) ∧ (∀ i, IntOp.cmpi .slt (lab i) 64#32 = 1#1)

/-- A 32-bit word that, read signed, is at least 0 and below 64 has an unsigned value below 64: were its top bit set it would
    read negative. -/
theorem label_word_lt (w : BitVec 32) (h0 : IntOp.cmpi .sge w 0#32 = 1#1) (h1 : IntOp.cmpi .slt w 64#32 = 1#1) :
    w.toNat < 64 := by
  -- the two signed comparisons, as inequalities between the signed readings
  have s0 : (0#32 : BitVec 32).toInt ≤ w.toInt := IntOp.cmpi_sge.1 h0
  have s1 : w.toInt < (64#32 : BitVec 32).toInt := IntOp.cmpi_slt.1 h1
  have e0 : (0#32 : BitVec 32).toInt = 0 := by decide
  have e64 : (64#32 : BitVec 32).toInt = 64 := by decide
  rw [e0] at s0
  rw [e64] at s1
  -- a word whose signed reading is not negative has its top bit clear, and then reads the same signed and unsigned
  have hc : 2 * w.toNat < 2 ^ 32 := BitVec.toInt_pos_iff.1 s0
  rw [BitVec.toInt_eq_toNat_of_lt hc] at s1
  omega

/-- A word whose value is below 64 is the 32-bit word of that value. -/
theorem label_word (w : BitVec 32) (h : w.toNat < 64) : w = BitVec.ofNat 32 (⟨w.toNat, h⟩ : Fin 64).val := by
  apply BitVec.eq_of_toNat_eq
  rw [BitVec.toNat_ofNat]
  have hw := w.isLt
  show w.toNat = w.toNat % 2 ^ 32
  omega

/-- Labels in range are the words of a map into the 64 label nodes. -/
theorem labels_of_range (lab : IVec S100000 32) (h : LabelsInRange lab) :
    ∃ ℓ : Fin 100000 → Fin 64, ∀ i : Fin 100000, lab (ix1 i) = BitVec.ofNat 32 (ℓ i).val :=
  ⟨fun i => ⟨(lab (ix1 i)).toNat, label_word_lt _ (h.1 _) (h.2 _)⟩, fun i => label_word _ _⟩

/-! ## The conjunction, piece by piece -/

/-- A conjunction of two scalar conditions that is 1 has both 1. -/
theorem andi_ix0 (x y : IVec S_ 1) (h : andi x y ix0 = 1#1) : x ix0 = 1#1 ∧ y ix0 = 1#1 := IntOp.andi_eq_one.1 h

variable [Facts]
open Facts

/-- The last piece: it closes the fold of the mask it is handed, then reads the last float array and the two label conditions. -/
theorem part6_read (a21 : FVec Ideal S64 .f32) (a22 : IVec S100000 32) (v98 : IVec S_ 1) (v101 : IVec S64 1) (c39 : IVec S_ 1)
    (h : fn_part6 (F := Ideal) a21 a22 v98 v101 c39 ix0 = 1#1) :
    v98 ix0 = 1#1 ∧ (∀ i, v101 i = 1#1) ∧ AllReal a21 ∧ LabelsInRange a22 := by
  dsimp only [fn_part6] at h
  obtain ⟨h112, hlt⟩ := andi_ix0 _ _ h
  obtain ⟨h108, hge⟩ := andi_ix0 _ _ h112
  obtain ⟨h103, h21⟩ := andi_ix0 _ _ h108
  obtain ⟨h98, h101⟩ := andi_ix0 _ _ h103
  exact ⟨h98, Host.reduce_andi_all _ _ _ _ ix0 h101, allReal_of_reduce a21 _ _ _ _ h21,
    fun i => Host.reduce_andi_all _ _ _ _ ix0 hge i, fun i => Host.reduce_andi_all _ _ _ _ ix0 hlt i⟩

/-- The sixth piece: handed an absolute value and the scalar bound, it compares and folds them, then reads three more arrays. -/
theorem part5_read (a18 : FVec Ideal S128 .f32) (a19 : FVec Ideal S128 .f32) (a20 : FVec Ideal S64 .f32) (a21 : FVec Ideal S64 .f32) (a22 : IVec S100000 32) (v83 : IVec S_ 1) (v84 : FVec Ideal S128 .f32)
    (cst32 : FVec Ideal S_ .f32)
    (h : fn_part5 (F := Ideal) a18 a19 a20 a21 a22 v83 v84 cst32 ix0 = 1#1) :
    v83 ix0 = 1#1 ∧ (∀ i, cmpf .olt v84 (broadcastInDim S128 ![] bcast_S_S128 cst32) i = 1#1)
      ∧ AllReal a18 ∧ AllReal a19 ∧ AllReal a20 ∧ AllReal a21 ∧ LabelsInRange a22 := by
  dsimp only [fn_part5] at h
  obtain ⟨h98, h101, t⟩ := part6_read _ _ _ _ _ h
  obtain ⟨h93, h97⟩ := andi_ix0 _ _ h98
  obtain ⟨h88, h92⟩ := andi_ix0 _ _ h93
  obtain ⟨h83, h87⟩ := andi_ix0 _ _ h88
  exact ⟨h83, Host.reduce_andi_all _ _ _ _ ix0 h87, allReal_of_reduce a18 _ _ _ _ h92, allReal_of_reduce a19 _ _ _ _ h97,
    allReal_of_mask a20 _ h101, t⟩

/-- The fifth piece: handed two scalar conditions, it joins them and reads three arrays; the fourth it only starts. -/
theorem part4_read (a14 : FVec Ideal S128x128 .f32) (a15 : FVec Ideal S128 .f32) (a16 : FVec Ideal S128x128 .f32) (a17 : FVec Ideal S128 .f32) (a18 : FVec Ideal S128 .f32) (a19 : FVec Ideal S128 .f32) (a20 : FVec Ideal S64 .f32) (a21 : FVec Ideal S64 .f32) (a22 : IVec S100000 32) (v63 v67 : IVec S_ 1)
    (h : fn_part4 (F := Ideal) a14 a15 a16 a17 a18 a19 a20 a21 a22 v63 v67 ix0 = 1#1) :
    v63 ix0 = 1#1 ∧ v67 ix0 = 1#1 ∧ AllReal a14 ∧ AllReal a15 ∧ AllReal a16 ∧ AllReal a17 ∧ AllReal a18 ∧ AllReal a19 ∧ AllReal a20 ∧ AllReal a21 ∧ LabelsInRange a22 := by
  dsimp only [fn_part4] at h
  obtain ⟨h83, h86, t⟩ := part5_read _ _ _ _ _ _ _ _ h
  obtain ⟨h78, h82⟩ := andi_ix0 _ _ h83
  obtain ⟨h73, h77⟩ := andi_ix0 _ _ h78
  obtain ⟨h68, h72⟩ := andi_ix0 _ _ h73
  obtain ⟨h63, h67⟩ := andi_ix0 _ _ h68
  exact ⟨h63, h67, allReal_of_reduce a14 _ _ _ _ h72, allReal_of_reduce a15 _ _ _ _ h77, allReal_of_reduce a16 _ _ _ _ h82,
    allReal_of_mask a17 _ h86, t⟩

/-- The fourth piece: handed an absolute value and its spread bound, it compares and folds them, reads two arrays whole and
    folds a third's mask without joining it. -/
theorem part3_read (a11 : FVec Ideal S128 .f32) (a12 : FVec Ideal S128x64 .f32) (a13 : FVec Ideal S64 .f32) (a14 : FVec Ideal S128x128 .f32) (a15 : FVec Ideal S128 .f32) (a16 : FVec Ideal S128x128 .f32) (a17 : FVec Ideal S128 .f32) (a18 : FVec Ideal S128 .f32) (a19 : FVec Ideal S128 .f32) (a20 : FVec Ideal S64 .f32) (a21 : FVec Ideal S64 .f32) (a22 : IVec S100000 32) (v48 : IVec S_ 1) (v49 v50 : FVec Ideal S128 .f32)
    (h : fn_part3 (F := Ideal) a11 a12 a13 a14 a15 a16 a17 a18 a19 a20 a21 a22 v48 v49 v50 ix0 = 1#1) :
    v48 ix0 = 1#1 ∧ (∀ i, cmpf .olt v49 v50 i = 1#1) ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ LabelsInRange a22 := by
  dsimp only [fn_part3] at h
  obtain ⟨h63, h67, t⟩ := part4_read _ _ _ _ _ _ _ _ _ _ _ h
  obtain ⟨h58, h62⟩ := andi_ix0 _ _ h63
  obtain ⟨h53, h57⟩ := andi_ix0 _ _ h58
  obtain ⟨h48, h52⟩ := andi_ix0 _ _ h53
  exact ⟨h48, Host.reduce_andi_all _ _ _ _ ix0 h52, allReal_of_reduce a11 _ _ _ _ h57, allReal_of_reduce a12 _ _ _ _ h62,
    allReal_of_reduce a13 _ _ _ _ h67, t⟩

/-- The third piece: handed one scalar condition, it reads three arrays and starts a fourth. -/
theorem part2_read (a7 : FVec Ideal S128 .f32) (a8 : FVec Ideal S128 .f32) (a9 : FVec Ideal S128 .f32) (a10 : FVec Ideal S128 .f32) (a11 : FVec Ideal S128 .f32) (a12 : FVec Ideal S128x64 .f32) (a13 : FVec Ideal S64 .f32) (a14 : FVec Ideal S128x128 .f32) (a15 : FVec Ideal S128 .f32) (a16 : FVec Ideal S128x128 .f32) (a17 : FVec Ideal S128 .f32) (a18 : FVec Ideal S128 .f32) (a19 : FVec Ideal S128 .f32) (a20 : FVec Ideal S64 .f32) (a21 : FVec Ideal S64 .f32) (a22 : IVec S100000 32) (v33 : IVec S_ 1)
    (h : fn_part2 (F := Ideal) a7 a8 a9 a10 a11 a12 a13 a14 a15 a16 a17 a18 a19 a20 a21 a22 v33 ix0 = 1#1) :
    v33 ix0 = 1#1 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ LabelsInRange a22 := by
  dsimp only [fn_part2] at h
  obtain ⟨h48, h51, t⟩ := part3_read _ _ _ _ _ _ _ _ _ _ _ _ _ _ _ h
  obtain ⟨h43, h47⟩ := andi_ix0 _ _ h48
  obtain ⟨h38, h42⟩ := andi_ix0 _ _ h43
  obtain ⟨h33, h37⟩ := andi_ix0 _ _ h38
  exact ⟨h33, allReal_of_reduce a7 _ _ _ _ h37, allReal_of_reduce a8 _ _ _ _ h42, allReal_of_reduce a9 _ _ _ _ h47,
    allReal_of_mask a10 _ h51, t⟩

/-- The second piece: handed a scalar condition and a mask, it folds the mask and reads three arrays. -/
theorem part1_read (a4 : FVec Ideal S128x128 .f32) (a5 : FVec Ideal S128 .f32) (a6 : FVec Ideal S128x128 .f32) (a7 : FVec Ideal S128 .f32) (a8 : FVec Ideal S128 .f32) (a9 : FVec Ideal S128 .f32) (a10 : FVec Ideal S128 .f32) (a11 : FVec Ideal S128 .f32) (a12 : FVec Ideal S128x64 .f32) (a13 : FVec Ideal S64 .f32) (a14 : FVec Ideal S128x128 .f32) (a15 : FVec Ideal S128 .f32) (a16 : FVec Ideal S128x128 .f32) (a17 : FVec Ideal S128 .f32) (a18 : FVec Ideal S128 .f32) (a19 : FVec Ideal S128 .f32) (a20 : FVec Ideal S64 .f32) (a21 : FVec Ideal S64 .f32) (a22 : IVec S100000 32) (v13 : IVec S_ 1) (v16 : IVec S128 1)
    (h : fn_part1 (F := Ideal) a4 a5 a6 a7 a8 a9 a10 a11 a12 a13 a14 a15 a16 a17 a18 a19 a20 a21 a22 v13 v16 ix0 = 1#1) :
    v13 ix0 = 1#1 ∧ (∀ i, v16 i = 1#1) ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ LabelsInRange a22 := by
  dsimp only [fn_part1] at h
  obtain ⟨h33, t⟩ := part2_read _ _ _ _ _ _ _ _ _ _ _ _ _ _ _ _ _ h
  obtain ⟨h28, h32⟩ := andi_ix0 _ _ h33
  obtain ⟨h23, h27⟩ := andi_ix0 _ _ h28
  obtain ⟨h18, h22⟩ := andi_ix0 _ _ h23
  obtain ⟨h13, h17⟩ := andi_ix0 _ _ h18
  exact ⟨h13, Host.reduce_andi_all _ _ _ _ ix0 h17, allReal_of_reduce a4 _ _ _ _ h22, allReal_of_reduce a5 _ _ _ _ h27,
    allReal_of_reduce a6 _ _ _ _ h32, t⟩

end PreDecode

open PreDecode

/-! ## The whole precondition -/

section Whole
variable [Facts]
variable (a0 : FVec Ideal S100000x128 .f32) (a1 : FVec Ideal S64x128 .f32) (a2 : FVec Ideal S128x128 .f32) (a3 : FVec Ideal S128 .f32) (a4 : FVec Ideal S128x128 .f32) (a5 : FVec Ideal S128 .f32) (a6 : FVec Ideal S128x128 .f32) (a7 : FVec Ideal S128 .f32) (a8 : FVec Ideal S128 .f32) (a9 : FVec Ideal S128 .f32) (a10 : FVec Ideal S128 .f32) (a11 : FVec Ideal S128 .f32) (a12 : FVec Ideal S128x64 .f32) (a13 : FVec Ideal S64 .f32) (a14 : FVec Ideal S128x128 .f32) (a15 : FVec Ideal S128 .f32) (a16 : FVec Ideal S128x128 .f32) (a17 : FVec Ideal S128 .f32) (a18 : FVec Ideal S128 .f32) (a19 : FVec Ideal S128 .f32) (a20 : FVec Ideal S64 .f32) (a21 : FVec Ideal S64 .f32) (a22 : IVec S100000 32) (a23 a24 : IVec S1600000 32)

/-- THE PRECONDITION READ BACK: every float array has only real entries, and the labels are in range. (The two edge lists are
    arguments of the condition that it does not read.) -/
theorem pre_split (h : Cert.Pre_finite_inputs.fn (F := Ideal) a0 a1 a2 a3 a4 a5 a6 a7 a8 a9 a10 a11 a12 a13 a14 a15 a16 a17 a18 a19 a20 a21 a22 a23 a24 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ LabelsInRange a22 := by
  have h0 := congrFun h ix0
  dsimp only [Cert.Pre_finite_inputs.fn] at h0
  obtain ⟨h13, h16, t⟩ := part1_read _ _ _ _ _ _ _ _ _ _ _ _ _ _ _ _ _ _ _ _ _ h0
  obtain ⟨h8, h12⟩ := andi_ix0 _ _ h13
  obtain ⟨h3, h7⟩ := andi_ix0 _ _ h8
  exact ⟨allReal_of_reduce a0 _ _ _ _ h3, allReal_of_reduce a1 _ _ _ _ h7, allReal_of_reduce a2 _ _ _ _ h12,
    allReal_of_mask a3 _ h16, t⟩

variable (h : Cert.Pre_finite_inputs.fn (F := Ideal) a0 a1 a2 a3 a4 a5 a6 a7 a8 a9 a10 a11 a12 a13 a14 a15 a16 a17 a18 a19 a20 a21 a22 a23 a24 = fun _ => 1#1)
include h

theorem pre_real_arg0 : ∀ i, IsReal (a0 i) := (pre_split a0 a1 a2 a3 a4 a5 a6 a7 a8 a9 a10 a11 a12 a13 a14 a15 a16 a17 a18 a19 a20 a21 a22 a23 a24 h).1
theorem pre_real_arg1 : ∀ i, IsReal (a1 i) := (pre_split a0 a1 a2 a3 a4 a5 a6 a7 a8 a9 a10 a11 a12 a13 a14 a15 a16 a17 a18 a19 a20 a21 a22 a23 a24 h).2.1
theorem pre_real_arg2 : ∀ i, IsReal (a2 i) := (pre_split a0 a1 a2 a3 a4 a5 a6 a7 a8 a9 a10 a11 a12 a13 a14 a15 a16 a17 a18 a19 a20 a21 a22 a23 a24 h).2.2.1
theorem pre_real_arg3 : ∀ i, IsReal (a3 i) := (pre_split a0 a1 a2 a3 a4 a5 a6 a7 a8 a9 a10 a11 a12 a13 a14 a15 a16 a17 a18 a19 a20 a21 a22 a23 a24 h).2.2.2.1
theorem pre_real_arg4 : ∀ i, IsReal (a4 i) := (pre_split a0 a1 a2 a3 a4 a5 a6 a7 a8 a9 a10 a11 a12 a13 a14 a15 a16 a17 a18 a19 a20 a21 a22 a23 a24 h).2.2.2.2.1
theorem pre_real_arg5 : ∀ i, IsReal (a5 i) := (pre_split a0 a1 a2 a3 a4 a5 a6 a7 a8 a9 a10 a11 a12 a13 a14 a15 a16 a17 a18 a19 a20 a21 a22 a23 a24 h).2.2.2.2.2.1
theorem pre_real_arg6 : ∀ i, IsReal (a6 i) := (pre_split a0 a1 a2 a3 a4 a5 a6 a7 a8 a9 a10 a11 a12 a13 a14 a15 a16 a17 a18 a19 a20 a21 a22 a23 a24 h).2.2.2.2.2.2.1
theorem pre_real_arg7 : ∀ i, IsReal (a7 i) := (pre_split a0 a1 a2 a3 a4 a5 a6 a7 a8 a9 a10 a11 a12 a13 a14 a15 a16 a17 a18 a19 a20 a21 a22 a23 a24 h).2.2.2.2.2.2.2.1
theorem pre_real_arg8 : ∀ i, IsReal (a8 i) := (pre_split a0 a1 a2 a3 a4 a5 a6 a7 a8 a9 a10 a11 a12 a13 a14 a15 a16 a17 a18 a19 a20 a21 a22 a23 a24 h).2.2.2.2.2.2.2.2.1
theorem pre_real_arg9 : ∀ i, IsReal (a9 i) := (pre_split a0 a1 a2 a3 a4 a5 a6 a7 a8 a9 a10 a11 a12 a13 a14 a15 a16 a17 a18 a19 a20 a21 a22 a23 a24 h).2.2.2.2.2.2.2.2.2.1
theorem pre_real_arg10 : ∀ i, IsReal (a10 i) := (pre_split a0 a1 a2 a3 a4 a5 a6 a7 a8 a9 a10 a11 a12 a13 a14 a15 a16 a17 a18 a19 a20 a21 a22 a23 a24 h).2.2.2.2.2.2.2.2.2.2.1
theorem pre_real_arg11 : ∀ i, IsReal (a11 i) := (pre_split a0 a1 a2 a3 a4 a5 a6 a7 a8 a9 a10 a11 a12 a13 a14 a15 a16 a17 a18 a19 a20 a21 a22 a23 a24 h).2.2.2.2.2.2.2.2.2.2.2.1
theorem pre_real_arg12 : ∀ i, IsReal (a12 i) := (pre_split a0 a1 a2 a3 a4 a5 a6 a7 a8 a9 a10 a11 a12 a13 a14 a15 a16 a17 a18 a19 a20 a21 a22 a23 a24 h).2.2.2.2.2.2.2.2.2.2.2.2.1
theorem pre_real_arg13 : ∀ i, IsReal (a13 i) := (pre_split a0 a1 a2 a3 a4 a5 a6 a7 a8 a9 a10 a11 a12 a13 a14 a15 a16 a17 a18 a19 a20 a21 a22 a23 a24 h).2.2.2.2.2.2.2.2.2.2.2.2.2.1
theorem pre_real_arg14 : ∀ i, IsReal (a14 i) := (pre_split a0 a1 a2 a3 a4 a5 a6 a7 a8 a9 a10 a11 a12 a13 a14 a15 a16 a17 a18 a19 a20 a21 a22 a23 a24 h).2.2.2.2.2.2.2.2.2.2.2.2.2.2.1
theorem pre_real_arg15 : ∀ i, IsReal (a15 i) := (pre_split a0 a1 a2 a3 a4 a5 a6 a7 a8 a9 a10 a11 a12 a13 a14 a15 a16 a17 a18 a19 a20 a21 a22 a23 a24 h).2.2.2.2.2.2.2.2.2.2.2.2.2.2.2.1
theorem pre_real_arg16 : ∀ i, IsReal (a16 i) := (pre_split a0 a1 a2 a3 a4 a5 a6 a7 a8 a9 a10 a11 a12 a13 a14 a15 a16 a17 a18 a19 a20 a21 a22 a23 a24 h).2.2.2.2.2.2.2.2.2.2.2.2.2.2.2.2.1
theorem pre_real_arg17 : ∀ i, IsReal (a17 i) := (pre_split a0 a1 a2 a3 a4 a5 a6 a7 a8 a9 a10 a11 a12 a13 a14 a15 a16 a17 a18 a19 a20 a21 a22 a23 a24 h).2.2.2.2.2.2.2.2.2.2.2.2.2.2.2.2.2.1
theorem pre_real_arg18 : ∀ i, IsReal (a18 i) := (pre_split a0 a1 a2 a3 a4 a5 a6 a7 a8 a9 a10 a11 a12 a13 a14 a15 a16 a17 a18 a19 a20 a21 a22 a23 a24 h).2.2.2.2.2.2.2.2.2.2.2.2.2.2.2.2.2.2.1
theorem pre_real_arg19 : ∀ i, IsReal (a19 i) := (pre_split a0 a1 a2 a3 a4 a5 a6 a7 a8 a9 a10 a11 a12 a13 a14 a15 a16 a17 a18 a19 a20 a21 a22 a23 a24 h).2.2.2.2.2.2.2.2.2.2.2.2.2.2.2.2.2.2.2.1
theorem pre_real_arg20 : ∀ i, IsReal (a20 i) := (pre_split a0 a1 a2 a3 a4 a5 a6 a7 a8 a9 a10 a11 a12 a13 a14 a15 a16 a17 a18 a19 a20 a21 a22 a23 a24 h).2.2.2.2.2.2.2.2.2.2.2.2.2.2.2.2.2.2.2.2.1
theorem pre_real_arg21 : ∀ i, IsReal (a21 i) := (pre_split a0 a1 a2 a3 a4 a5 a6 a7 a8 a9 a10 a11 a12 a13 a14 a15 a16 a17 a18 a19 a20 a21 a22 a23 a24 h).2.2.2.2.2.2.2.2.2.2.2.2.2.2.2.2.2.2.2.2.2.1

/-- The labels are the 32-bit words of a map from the 100000 sequence nodes into the 64 label nodes. -/
theorem pre_labels : ∃ ℓ : Fin 100000 → Fin 64, ∀ i : Fin 100000, a22 (ix1 i) = BitVec.ofNat 32 (ℓ i).val :=
  labels_of_range a22 (pre_split a0 a1 a2 a3 a4 a5 a6 a7 a8 a9 a10 a11 a12 a13 a14 a15 a16 a17 a18 a19 a20 a21 a22 a23 a24 h).2.2.2.2.2.2.2.2.2.2.2.2.2.2.2.2.2.2.2.2.2.2

/-- All of it in one statement. -/
theorem pre_decode :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i))
      ∧ ∃ ℓ : Fin 100000 → Fin 64, ∀ i : Fin 100000, a22 (ix1 i) = BitVec.ofNat 32 (ℓ i).val := by
  obtain ⟨r0, r1, r2, r3, r4, r5, r6, r7, r8, r9, r10, r11, r12, r13, r14, r15, r16, r17, r18, r19, r20, r21, hl⟩ := pre_split a0 a1 a2 a3 a4 a5 a6 a7 a8 a9 a10 a11 a12 a13 a14 a15 a16 a17 a18 a19 a20 a21 a22 a23 a24 h
  exact ⟨r0, r1, r2, r3, r4, r5, r6, r7, r8, r9, r10, r11, r12, r13, r14, r15, r16, r17, r18, r19, r20, r21, labels_of_range a22 hl⟩

end Whole

end Cert.Hgcn

end
-- ==== Proof.Results.lean ====
/-
  The two programs' results agree: under the precondition (every float argument real-valued, every label word a label) and
  from memories that agree on the arguments, the reference's two result terms are what the kernel program's chain of
  valuations leaves in its two result buffers. Each side is the two-layer network of its arguments in its own spelling
  (the reference's looks a label's row up and centres the variance; the kernel's multiplies by the label's indicator row and
  takes E[x²] − (E x)²); the spellings agree on real-valued arrays with labels in range, and the edge relation's operator
  is the same chain of operations at dimension records that are equal field by field.
-/
import proofs.«405200_j27075473834261_2_alg».proof.Defs
import proofs.«405200_j27075473834261_2_alg».proof.Proof.KI.NetVal
import proofs.«405200_j27075473834261_2_alg».proof.Proof.Ref.OutRun
import proofs.«405200_j27075473834261_2_alg».proof.Proof.PreDecode
import proofs.«405200_j27075473834261_2_alg».proof.Proof.NetArgs
import proofs.«405200_j27075473834261_2_alg».proof.Proof.Gen.KernelIdeal
import proofs.«405200_j27075473834261_2_alg».proof.Proof.Gen.ReferenceIdeal
import proofs.«405200_j27075473834261_2_alg».proof.Proof.Gen.Pre_finite_inputs

set_option maxRecDepth 16384

noncomputable section

namespace Cert.Proof.Results

open Idealize.ShloMosaic Idealize.ShloMosaic.TcCoe Idealize.SL.Sem Idealize.ShloMosaic.ValueIdx Cert.Hgcn

/-- The edge relation's dimension records are the same in the two programs. -/
theorem conDims_eq : Cert.KernelIdeal.Hand.conDimsK = Cert.ReferenceIdeal.RefValue.conDims := rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The precondition on core `c`'s arguments. -/
abbrev PreAt : Prop := Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) = fun _ => 1#1

/-- The two memories agree on core `c`'s arguments. -/
abbrev AgreeAt : Prop :=
      (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))
      ∧ (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24))

/-- The kernel's spelling of the network at the kernel program's arguments is the reference's. -/
theorem net_eq (hpre : PreAt m c) (ℓ : Fin 100000 → Fin 64) (hℓ : ∀ i, labOfArr (m ((c.tc : Thread Cert.KernelIdeal.nD Cert.KernelIdeal.τ).loc Cert.KernelIdeal.main_arg22)) i = BitVec.ofNat 32 (ℓ i).val) :
    netK0 (conOpI Cert.KernelIdeal.Hand.conDimsK (m ((c.tc : Thread Cert.KernelIdeal.nD Cert.KernelIdeal.τ).loc Cert.KernelIdeal.main_arg23)) (m ((c.tc : Thread Cert.KernelIdeal.nD Cert.KernelIdeal.τ).loc Cert.KernelIdeal.main_arg24))) (labOfArr (m ((c.tc : Thread Cert.KernelIdeal.nD Cert.KernelIdeal.τ).loc Cert.KernelIdeal.main_arg22))) (argsOfArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))
        = netR0 (conOpI Cert.KernelIdeal.Hand.conDimsK (m ((c.tc : Thread Cert.KernelIdeal.nD Cert.KernelIdeal.τ).loc Cert.KernelIdeal.main_arg23)) (m ((c.tc : Thread Cert.KernelIdeal.nD Cert.KernelIdeal.τ).loc Cert.KernelIdeal.main_arg24))) (labOfArr (m ((c.tc : Thread Cert.KernelIdeal.nD Cert.KernelIdeal.τ).loc Cert.KernelIdeal.main_arg22))) ℓ (argsOfArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))
    ∧ netK1 (conOpI Cert.KernelIdeal.Hand.conDimsK (m ((c.tc : Thread Cert.KernelIdeal.nD Cert.KernelIdeal.τ).loc Cert.KernelIdeal.main_arg23)) (m ((c.tc : Thread Cert.KernelIdeal.nD Cert.KernelIdeal.τ).loc Cert.KernelIdeal.main_arg24))) (labOfArr (m ((c.tc : Thread Cert.KernelIdeal.nD Cert.KernelIdeal.τ).loc Cert.KernelIdeal.main_arg22))) (argsOfArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))
        = netR1 (conOpI Cert.KernelIdeal.Hand.conDimsK (m ((c.tc : Thread Cert.KernelIdeal.nD Cert.KernelIdeal.τ).loc Cert.KernelIdeal.main_arg23)) (m ((c.tc : Thread Cert.KernelIdeal.nD Cert.KernelIdeal.τ).loc Cert.KernelIdeal.main_arg24))) (labOfArr (m ((c.tc : Thread Cert.KernelIdeal.nD Cert.KernelIdeal.τ).loc Cert.KernelIdeal.main_arg22))) ℓ (argsOfArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) := by
  have hreal := argsOfArr_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      (pre_real_arg0 _ _ _ _ _ _ _ _ _ _ _ _ _ _ _ _ _ _ _ _ _ _ _ _ _ hpre)
      (pre_real_arg1 _ _ _ _ _ _ _ _ _ _ _ _ _ _ _ _ _ _ _ _ _ _ _ _ _ hpre)
      (pre_real_arg2 _ _ _ _ _ _ _ _ _ _ _ _ _ _ _ _ _ _ _ _ _ _ _ _ _ hpre)
      (pre_real_arg3 _ _ _ _ _ _ _ _ _ _ _ _ _ _ _ _ _ _ _ _ _ _ _ _ _ hpre)
      (pre_real_arg4 _ _ _ _ _ _ _ _ _ _ _ _ _ _ _ _ _ _ _ _ _ _ _ _ _ hpre)
      (pre_real_arg5 _ _ _ _ _ _ _ _ _ _ _ _ _ _ _ _ _ _ _ _ _ _ _ _ _ hpre)
      (pre_real_arg6 _ _ _ _ _ _ _ _ _ _ _ _ _ _ _ _ _ _ _ _ _ _ _ _ _ hpre)
      (pre_real_arg7 _ _ _ _ _ _ _ _ _ _ _ _ _ _ _ _ _ _ _ _ _ _ _ _ _ hpre)
      (pre_real_arg8 _ _ _ _ _ _ _ _ _ _ _ _ _ _ _ _ _ _ _ _ _ _ _ _ _ hpre)
      (pre_real_arg9 _ _ _ _ _ _ _ _ _ _ _ _ _ _ _ _ _ _ _ _ _ _ _ _ _ hpre)
      (pre_real_arg10 _ _ _ _ _ _ _ _ _ _ _ _ _ _ _ _ _ _ _ _ _ _ _ _ _ hpre)
      (pre_real_arg11 _ _ _ _ _ _ _ _ _ _ _ _ _ _ _ _ _ _ _ _ _ _ _ _ _ hpre)
      (pre_real_arg12 _ _ _ _ _ _ _ _ _ _ _ _ _ _ _ _ _ _ _ _ _ _ _ _ _ hpre)
      (pre_real_arg13 _ _ _ _ _ _ _ _ _ _ _ _ _ _ _ _ _ _ _ _ _ _ _ _ _ hpre)
      (pre_real_arg14 _ _ _ _ _ _ _ _ _ _ _ _ _ _ _ _ _ _ _ _ _ _ _ _ _ hpre)
      (pre_real_arg15 _ _ _ _ _ _ _ _ _ _ _ _ _ _ _ _ _ _ _ _ _ _ _ _ _ hpre)
      (pre_real_arg16 _ _ _ _ _ _ _ _ _ _ _ _ _ _ _ _ _ _ _ _ _ _ _ _ _ hpre)
      (pre_real_arg17 _ _ _ _ _ _ _ _ _ _ _ _ _ _ _ _ _ _ _ _ _ _ _ _ _ hpre)
      (pre_real_arg18 _ _ _ _ _ _ _ _ _ _ _ _ _ _ _ _ _ _ _ _ _ _ _ _ _ hpre)
      (pre_real_arg19 _ _ _ _ _ _ _ _ _ _ _ _ _ _ _ _ _ _ _ _ _ _ _ _ _ hpre)
      (pre_real_arg20 _ _ _ _ _ _ _ _ _ _ _ _ _ _ _ _ _ _ _ _ _ _ _ _ _ hpre)
      (pre_real_arg21 _ _ _ _ _ _ _ _ _ _ _ _ _ _ _ _ _ _ _ _ _ _ _ _ _ hpre)
  exact ⟨netK0_eq_netR0 _ _ ℓ _ hℓ (fun h hh => conOpI_real _ _ _ hh) hreal,
    netK1_eq_netR1 _ _ ℓ _ hℓ (fun h hh => conOpI_real _ _ _ hh) hreal⟩

/-- Two arrays over a rank-2 shape agree when they agree at every (row, column). -/
theorem ext_ix2 {a b : ℕ} {α : Type} (f g : (⟨2, ![a, b]⟩ : Shape).Idx → α) (h : ∀ i j, f (ix2 i j) = g (ix2 i j)) : f = g :=
  funext fun x => by rw [eq_ix2 x]; exact h _ _

/-- The sequence-side results agree. -/
theorem out0 (hpre : PreAt m c) (hag : AgreeAt m m' c) :
    Cert.ReferenceIdeal.ValueB.res_out0 (F := Ideal) m' c = Cert.KernelIdeal.Hand.X20 m c Cert.KernelIdeal.main_v119 := by
  obtain ⟨h0, h1, h2, h3, h4, h5, h6, h7, h8, h9, h10, h11, h12, h13, h14, h15, h16, h17, h18, h19, h20, h21, h22, h23, h24⟩ := hag
  obtain ⟨ℓ, hℓ⟩ := pre_labels _ _ _ _ _ _ _ _ _ _ _ _ _ _ _ _ _ _ _ _ _ _ _ _ _ hpre
  refine ext_ix2 (a := 100000) (b := 128) _ _ fun i j => ?_
  rw [Cert.ReferenceIdeal.RefValue.ref_out0 m' c ℓ (fun i => by rw [h22]; exact hℓ i) i j,
    Cert.KernelIdeal.Hand.kernel_out0 m c ℓ hℓ i j,
    h0, h1, h2, h3, h4, h5, h6, h7, h8, h9, h10, h11, h12, h13, h14, h15, h16, h17, h18, h19, h20, h21, h22, h23, h24, (net_eq m c hpre ℓ hℓ).1, conDims_eq]
  rfl

/-- The label-side results agree. -/
theorem out1 (hpre : PreAt m c) (hag : AgreeAt m m' c) :
    Cert.ReferenceIdeal.ValueB.res_out1 (F := Ideal) m' c = Cert.KernelIdeal.Hand.X20 m c Cert.KernelIdeal.main_v144 := by
  obtain ⟨h0, h1, h2, h3, h4, h5, h6, h7, h8, h9, h10, h11, h12, h13, h14, h15, h16, h17, h18, h19, h20, h21, h22, h23, h24⟩ := hag
  obtain ⟨ℓ, hℓ⟩ := pre_labels _ _ _ _ _ _ _ _ _ _ _ _ _ _ _ _ _ _ _ _ _ _ _ _ _ hpre
  refine ext_ix2 (a := 64) (b := 64) _ _ fun i j => ?_
  rw [Cert.ReferenceIdeal.RefValue.ref_out1 m' c ℓ (fun i => by rw [h22]; exact hℓ i) i j,
    Cert.KernelIdeal.Hand.kernel_out1 m c ℓ hℓ i j,
    h0, h1, h2, h3, h4, h5, h6, h7, h8, h9, h10, h11, h12, h13, h14, h15, h16, h17, h18, h19, h20, h21, h22, h23, h24, (net_eq m c hpre ℓ hℓ).2, conDims_eq]
  rfl

end Cert.Proof.Results

end
-- ==== Proof.lean ====
/-
  The certificate's five claims, assembled.

  Frames. Each kernel program's @main is twenty items, eight of them pipelined kernels over ten tiles; the pipelines' exact
  proof data (what every tile leaves in every staging buffer, the belongs-to accumulator carried in scratch from tile to tile,
  the statistics accumulated in their output buffers) give the run of @main with every buffer between two items named, and the
  arguments are read back unchanged off the last one: at the bit-exact instance for the kernel as printed, at the ideal instance
  for its idealization. The reference has no kernel: its frame is its run with the results dropped.

  Preserves. The ideal pass rewrote no operation: the claim is `True`.

  Algebraic. The kernel program's two result buffers end at the last valuation of that chain; the reference's at its composed
  terms; under the precondition the two are equal (`Results.out0`, `Results.out1`): both are the two-layer graph convolution of
  the arguments, the kernel selecting a label's row by its indicator and taking E[x²] − (E x)² where the reference looks the
  row up and centres.
-/
import proofs.«405200_j27075473834261_2_alg».proof.Defs
import proofs.«405200_j27075473834261_2_alg».proof.Proof.Gen.Kernel
import proofs.«405200_j27075473834261_2_alg».proof.Proof.Gen.KernelIdeal
import proofs.«405200_j27075473834261_2_alg».proof.Proof.Gen.ReferenceIdeal
import proofs.«405200_j27075473834261_2_alg».proof.Proof.Gen.Pre_finite_inputs
import proofs.«405200_j27075473834261_2_alg».proof.Proof.K.Run
import proofs.«405200_j27075473834261_2_alg».proof.Proof.KI.Run
import proofs.«405200_j27075473834261_2_alg».proof.Proof.RefLeg
import proofs.«405200_j27075473834261_2_alg».proof.Proof.Results

noncomputable section

namespace Cert.Proof

open Idealize.ShloMosaic Idealize.ShloMosaic.TcCoe Idealize.SL.Sem

namespace Claims

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueB.run (F := Ideal) m ρ)

theorem preserves : Cert.preserves_Kernel_KernelIdeal := trivial

/-- Both programs run; the kernel program's results are the last valuation's, the reference's its composed terms, and the two
    agree under the precondition from memories agreeing on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.X20 m c Cert.KernelIdeal.main_v119,
    fun c => Cert.KernelIdeal.Hand.X20 m c Cert.KernelIdeal.main_v144,
    Cert.KernelIdeal.Hand.run_main (F := Ideal) m ρ, ?_⟩
  refine (θ_run Cert.ReferenceIdeal.defs _ _).mono (fun _ h c => ⟨(h c).1.trans ?_, (h c).2.1.trans ?_, (h c).2.2⟩)
    (Cert.ReferenceIdeal.ValueB.run (F := Ideal) m' ρ')
  · exact Cert.Proof.Results.out0 m m' c (hpre c) (hagree c)
  · exact Cert.Proof.Results.out1 m m' c (hpre c) (hagree c)

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
